-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S2x800000 : S_.BroadcastsInDim S2x800000 (![] : Fin 0 → Fin S2x800000.rank)
  reducesTo_S2x800000_S_d0_1 : S2x800000.ReducesTo [0, 1] S_

variable [Facts]

def fn {F : FTy → Type} [FloatOps F] (main_arg0 : FVec F S50000x96 .f32) (main_arg1 : IVec S2x800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_c_0 : IVec S_ 32 := constantI S_ 32 0#32
  let main_v4 : IVec S2x800000 32 := broadcastInDim S2x800000 ![] bcast_S_S2x800000 main_c_0
  let main_v5 : IVec S2x800000 1 := cmpi .sge main_arg1 main_v4
  let main_c_1 : IVec S_ 32 := constantI S_ 32 50000#32
  let main_v6 : IVec S2x800000 32 := broadcastInDim S2x800000 ![] bcast_S_S2x800000 main_c_1
  let main_v7 : IVec S2x800000 1 := cmpi .slt main_arg1 main_v6
  let main_v8 : IVec S2x800000 1 := andi main_v5 main_v7
  let main_c_2 : IVec S_ 1 := constantI S_ 1 1#1
  let main_v9 : IVec S_ 1 := (fun x v => Host.reduce IntOp.andi x v reducesTo_S2x800000_S_d0_1 h_S_) main_v8 main_c_2
  let main_v10 : IVec S_ 1 := andi main_v3 main_v9
  main_v10
-- ==== Kernel.lean ====
abbrev S50000x96 : Shape := ⟨2, ![50000, 96]⟩
abbrev S2x800000 : Shape := ⟨2, ![2, 800000]⟩
abbrev S1x800000 : Shape := ⟨2, ![1, 800000]⟩
abbrev S800000 : Shape := ⟨1, ![800000]⟩
abbrev S16x50000 : Shape := ⟨2, ![16, 50000]⟩
abbrev S50000x1x96 : Shape := ⟨3, ![50000, 1, 96]⟩
abbrev S1x50000 : Shape := ⟨2, ![1, 50000]⟩
abbrev S50000 : Shape := ⟨1, ![50000]⟩
abbrev S1x1 : Shape := ⟨2, ![1, 1]⟩
abbrev S1x1x96 : Shape := ⟨3, ![1, 1, 96]⟩
abbrev S1 : Shape := ⟨1, ![1]⟩
abbrev S_ : Shape := ⟨0, ![]⟩

abbrev nBuf : Space → Nat
  | .hbm => 94
  | .vmem => 96
  | .smem => 32
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S1x800000, .i32⟩
  | .hbm, ⟨3, _⟩ => ⟨S800000, .i32⟩
  | .hbm, ⟨4, _⟩ => ⟨S1x800000, .i32⟩
  | .hbm, ⟨5, _⟩ => ⟨S800000, .i32⟩
  | .hbm, ⟨6, _⟩ => ⟨S16x50000, .i32⟩
  | .hbm, ⟨7, _⟩ => ⟨S16x50000, .i32⟩
  | .hbm, ⟨8, _⟩ => ⟨S50000x1x96, .f32⟩
  | .hbm, ⟨9, _⟩ => ⟨S1x50000, .i32⟩
  | .hbm, ⟨10, _⟩ => ⟨S1x50000, .i32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x50000, .i32⟩
  | .hbm, ⟨16, _⟩ => ⟨S1x50000, .i32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S1x50000, .i32⟩
  | .hbm, ⟨21, _⟩ => ⟨S1x50000, .i32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S1x50000, .i32⟩
  | .hbm, ⟨26, _⟩ => ⟨S1x50000, .i32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S1x50000, .i32⟩
  | .hbm, ⟨31, _⟩ => ⟨S1x50000, .i32⟩
  | .hbm, ⟨32, _⟩ => ⟨S1x1, .f32⟩
  | .hbm, ⟨33, _⟩ => ⟨S_, .f32⟩
  | .hbm, ⟨34, _⟩ => ⟨S_, .f32⟩
  | .hbm, ⟨35, _⟩ => ⟨S1x50000, .i32⟩
  | .hbm, ⟨36, _⟩ => ⟨S1x50000, .i32⟩
  | .hbm, ⟨37, _⟩ => ⟨S1x1, .f32⟩
  | .hbm, ⟨38, _⟩ => ⟨S_, .f32⟩
  | .hbm, ⟨39, _⟩ => ⟨S_, .f32⟩
  | .hbm, ⟨40, _⟩ => ⟨S1x50000, .i32⟩
  | .hbm, ⟨41, _⟩ => ⟨S1x50000, .i32⟩
  | .hbm, ⟨42, _⟩ => ⟨S1x1, .f32⟩
  | .hbm, ⟨43, _⟩ => ⟨S_, .f32⟩
  | .hbm, ⟨44, _⟩ => ⟨S_, .f32⟩
  | .hbm, ⟨45, _⟩ => ⟨S1x50000, .i32⟩
  | .hbm, ⟨46, _⟩ => ⟨S1x50000, .i32⟩
  | .hbm, ⟨47, _⟩ => ⟨S1x1, .f32⟩
  | .hbm, ⟨48, _⟩ => ⟨S_, .f32⟩
  | .hbm, ⟨49, _⟩ => ⟨S_, .f32⟩
  | .hbm, ⟨50, _⟩ => ⟨S1x50000, .i32⟩
  | .hbm, ⟨51, _⟩ => ⟨S1x50000, .i32⟩
  | .hbm, ⟨52, _⟩ => ⟨S1x1, .f32⟩
  | .hbm, ⟨53, _⟩ => ⟨S_, .f32⟩
  | .hbm, ⟨54, _⟩ => ⟨S_, .f32⟩
  | .hbm, ⟨55, _⟩ => ⟨S1x50000, .i32⟩
  | .hbm, ⟨56, _⟩ => ⟨S1x50000, .i32⟩
  | .hbm, ⟨57, _⟩ => ⟨S1x1, .f32⟩
  | .hbm, ⟨58, _⟩ => ⟨S_, .f32⟩
  | .hbm, ⟨59, _⟩ => ⟨S_, .f32⟩
  | .hbm, ⟨60, _⟩ => ⟨S1x50000, .i32⟩
  | .hbm, ⟨61, _⟩ => ⟨S1x50000, .i32⟩
  | .hbm, ⟨62, _⟩ => ⟨S1x1, .f32⟩
  | .hbm, ⟨63, _⟩ => ⟨S_, .f32⟩
  | .hbm, ⟨64, _⟩ => ⟨S_, .f32⟩
  | .hbm, ⟨65, _⟩ => ⟨S1x50000, .i32⟩
  | .hbm, ⟨66, _⟩ => ⟨S1x50000, .i32⟩
  | .hbm, ⟨67, _⟩ => ⟨S1x1, .f32⟩
  | .hbm, ⟨68, _⟩ => ⟨S_, .f32⟩
  | .hbm, ⟨69, _⟩ => ⟨S_, .f32⟩
  | .hbm, ⟨70, _⟩ => ⟨S1x50000, .i32⟩
  | .hbm, ⟨71, _⟩ => ⟨S1x50000, .i32⟩
  | .hbm, ⟨72, _⟩ => ⟨S1x1, .f32⟩
  | .hbm, ⟨73, _⟩ => ⟨S_, .f32⟩
  | .hbm, ⟨74, _⟩ => ⟨S_, .f32⟩
  | .hbm, ⟨75, _⟩ => ⟨S1x50000, .i32⟩
  | .hbm, ⟨76, _⟩ => ⟨S1x50000, .i32⟩
  | .hbm, ⟨77, _⟩ => ⟨S1x1, .f32⟩
  | .hbm, ⟨78, _⟩ => ⟨S_, .f32⟩
  | .hbm, ⟨79, _⟩ => ⟨S_, .f32⟩
  | .hbm, ⟨80, _⟩ => ⟨S1x50000, .i32⟩
  | .hbm, ⟨81, _⟩ => ⟨S1x50000, .i32⟩
  | .hbm, ⟨82, _⟩ => ⟨S1x1, .f32⟩
  | .hbm, ⟨83, _⟩ => ⟨S_, .f32⟩
  | .hbm, ⟨84, _⟩ => ⟨S_, .f32⟩
  | .hbm, ⟨85, _⟩ => ⟨S1x50000, .i32⟩
  | .hbm, ⟨86, _⟩ => ⟨S1x50000, .i32⟩
  | .hbm, ⟨87, _⟩ => ⟨S1x1, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .local _ .vmem, ⟨0, _⟩ => ⟨S1x1x96, .f32⟩
  | .local _ .vmem, ⟨1, _⟩ => ⟨S1x1x96, .f32⟩
  | .local _ .vmem, ⟨2, _⟩ => ⟨S1x1x96, .f32⟩
  | .local _ .vmem, ⟨3, _⟩ => ⟨S1x1x96, .f32⟩
  | .local _ .vmem, ⟨4, _⟩ => ⟨S1x1, .f32⟩
  | .local _ .vmem, ⟨5, _⟩ => ⟨S1x1, .f32⟩
  | .local _ .vmem, ⟨6, _⟩ => ⟨S1x1x96, .f32⟩
  | .local _ .vmem, ⟨7, _⟩ => ⟨S1x1x96, .f32⟩
  | .local _ .vmem, ⟨8, _⟩ => ⟨S1x1x96, .f32⟩
  | .local _ .vmem, ⟨9, _⟩ => ⟨S1x1x96, .f32⟩
  | .local _ .vmem, ⟨10, _⟩ => ⟨S1x1, .f32⟩
  | .local _ .vmem, ⟨11, _⟩ => ⟨S1x1, .f32⟩
  | .local _ .vmem, ⟨12, _⟩ => ⟨S1x1x96, .f32⟩
  | .local _ .vmem, ⟨13, _⟩ => ⟨S1x1x96, .f32⟩
  | .local _ .vmem, ⟨14, _⟩ => ⟨S1x1x96, .f32⟩
  | .local _ .vmem, ⟨15, _⟩ => ⟨S1x1x96, .f32⟩
  | .local _ .vmem, ⟨16, _⟩ => ⟨S1x1, .f32⟩
  | .local _ .vmem, ⟨17, _⟩ => ⟨S1x1, .f32⟩
  | .local _ .vmem, ⟨18, _⟩ => ⟨S1x1x96, .f32⟩
  | .local _ .vmem, ⟨19, _⟩ => ⟨S1x1x96, .f32⟩
  | .local _ .vmem, ⟨20, _⟩ => ⟨S1x1x96, .f32⟩
  | .local _ .vmem, ⟨21, _⟩ => ⟨S1x1x96, .f32⟩
  | .local _ .vmem, ⟨22, _⟩ => ⟨S1x1, .f32⟩
  | .local _ .vmem, ⟨23, _⟩ => ⟨S1x1, .f32⟩
  | .local _ .vmem, ⟨24, _⟩ => ⟨S1x1x96, .f32⟩
  | .local _ .vmem, ⟨25, _⟩ => ⟨S1x1x96, .f32⟩
  | .local _ .vmem, ⟨26, _⟩ => ⟨S1x1x96, .f32⟩
  | .local _ .vmem, ⟨27, _⟩ => ⟨S1x1x96, .f32⟩
  | .local _ .vmem, ⟨28, _⟩ => ⟨S1x1, .f32⟩
  | .local _ .vmem, ⟨29, _⟩ => ⟨S1x1, .f32⟩
  | .local _ .vmem, ⟨30, _⟩ => ⟨S1x1x96, .f32⟩
  | .local _ .vmem, ⟨31, _⟩ => ⟨S1x1x96, .f32⟩
  | .local _ .vmem, ⟨32, _⟩ => ⟨S1x1x96, .f32⟩
  | .local _ .vmem, ⟨33, _⟩ => ⟨S1x1x96, .f32⟩
  | .local _ .vmem, ⟨34, _⟩ => ⟨S1x1, .f32⟩
  | .local _ .vmem, ⟨35, _⟩ => ⟨S1x1, .f32⟩
  | .local _ .vmem, ⟨36, _⟩ => ⟨S1x1x96, .f32⟩
  | .local _ .vmem, ⟨37, _⟩ => ⟨S1x1x96, .f32⟩
  | .local _ .vmem, ⟨38, _⟩ => ⟨S1x1x96, .f32⟩
  | .local _ .vmem, ⟨39, _⟩ => ⟨S1x1x96, .f32⟩
  | .local _ .vmem, ⟨40, _⟩ => ⟨S1x1, .f32⟩
  | .local _ .vmem, ⟨41, _⟩ => ⟨S1x1, .f32⟩
  | .local _ .vmem, ⟨42, _⟩ => ⟨S1x1x96, .f32⟩
  | .local _ .vmem, ⟨43, _⟩ => ⟨S1x1x96, .f32⟩
  | .local _ .vmem, ⟨44, _⟩ => ⟨S1x1x96, .f32⟩
  | .local _ .vmem, ⟨45, _⟩ => ⟨S1x1x96, .f32⟩
  | .local _ .vmem, ⟨46, _⟩ => ⟨S1x1, .f32⟩
  | .local _ .vmem, ⟨47, _⟩ => ⟨S1x1, .f32⟩
  | .local _ .vmem, ⟨48, _⟩ => ⟨S1x1x96, .f32⟩
  | .local _ .vmem, ⟨49, _⟩ => ⟨S1x1x96, .f32⟩
  | .local _ .vmem, ⟨50, _⟩ => ⟨S1x1x96, .f32⟩
  | .local _ .vmem, ⟨51, _⟩ => ⟨S1x1x96, .f32⟩
  | .local _ .vmem, ⟨52, _⟩ => ⟨S1x1, .f32⟩
  | .local _ .vmem, ⟨53, _⟩ => ⟨S1x1, .f32⟩
  | .local _ .vmem, ⟨54, _⟩ => ⟨S1x1x96, .f32⟩
  | .local _ .vmem, ⟨55, _⟩ => ⟨S1x1x96, .f32⟩
  | .local _ .vmem, ⟨56, _⟩ => ⟨S1x1x96, .f32⟩
  | .local _ .vmem, ⟨57, _⟩ => ⟨S1x1x96, .f32⟩
  | .local _ .vmem, ⟨58, _⟩ => ⟨S1x1, .f32⟩
  | .local _ .vmem, ⟨59, _⟩ => ⟨S1x1, .f32⟩
  | .local _ .vmem, ⟨60, _⟩ => ⟨S1x1x96, .f32⟩
  | .local _ .vmem, ⟨61, _⟩ => ⟨S1x1x96, .f32⟩
  | .local _ .vmem, ⟨62, _⟩ => ⟨S1x1x96, .f32⟩
  | .local _ .vmem, ⟨63, _⟩ => ⟨S1x1x96, .f32⟩
  | .local _ .vmem, ⟨64, _⟩ => ⟨S1x1, .f32⟩
  | .local _ .vmem, ⟨65, _⟩ => ⟨S1x1, .f32⟩
  | .local _ .vmem, ⟨66, _⟩ => ⟨S1x1x96, .f32⟩
  | .local _ .vmem, ⟨67, _⟩ => ⟨S1x1x96, .f32⟩
  | .local _ .vmem, ⟨68, _⟩ => ⟨S1x1x96, .f32⟩
  | .local _ .vmem, ⟨69, _⟩ => ⟨S1x1x96, .f32⟩
  | .local _ .vmem, ⟨70, _⟩ => ⟨S1x1, .f32⟩
  | .local _ .vmem, ⟨71, _⟩ => ⟨S1x1, .f32⟩
  | .local _ .vmem, ⟨72, _⟩ => ⟨S1x1x96, .f32⟩
  | .local _ .vmem, ⟨73, _⟩ => ⟨S1x1x96, .f32⟩
  | .local _ .vmem, ⟨74, _⟩ => ⟨S1x1x96, .f32⟩
  | .local _ .vmem, ⟨75, _⟩ => ⟨S1x1x96, .f32⟩
  | .local _ .vmem, ⟨76, _⟩ => ⟨S1x1, .f32⟩
  | .local _ .vmem, ⟨77, _⟩ => ⟨S1x1, .f32⟩
  | .local _ .vmem, ⟨78, _⟩ => ⟨S1x1x96, .f32⟩
  | .local _ .vmem, ⟨79, _⟩ => ⟨S1x1x96, .f32⟩
  | .local _ .vmem, ⟨80, _⟩ => ⟨S1x1x96, .f32⟩
  | .local _ .vmem, ⟨81, _⟩ => ⟨S1x1x96, .f32⟩
  | .local _ .vmem, ⟨82, _⟩ => ⟨S1x1, .f32⟩
  | .local _ .vmem, ⟨83, _⟩ => ⟨S1x1, .f32⟩
  | .local _ .vmem, ⟨84, _⟩ => ⟨S1x1x96, .f32⟩
  | .local _ .vmem, ⟨85, _⟩ => ⟨S1x1x96, .f32⟩
  | .local _ .vmem, ⟨86, _⟩ => ⟨S1x1x96, .f32⟩
  | .local _ .vmem, ⟨87, _⟩ => ⟨S1x1x96, .f32⟩
  | .local _ .vmem, ⟨88, _⟩ => ⟨S1x1, .f32⟩
  | .local _ .vmem, ⟨89, _⟩ => ⟨S1x1, .f32⟩
  | .local _ .vmem, ⟨90, _⟩ => ⟨S1x1x96, .f32⟩
  | .local _ .vmem, ⟨91, _⟩ => ⟨S1x1x96, .f32⟩
  | .local _ .vmem, ⟨92, _⟩ => ⟨S1x1x96, .f32⟩
  | .local _ .vmem, ⟨93, _⟩ => ⟨S1x1x96, .f32⟩
  | .local _ .vmem, ⟨94, _⟩ => ⟨S1x1, .f32⟩
  | .local _ .vmem, ⟨95, _⟩ => ⟨S1x1, .f32⟩
  | .local _ .smem, ⟨0, _⟩ => ⟨S50000, .i32⟩
  | .local _ .smem, ⟨1, _⟩ => ⟨S50000, .i32⟩
  | .local _ .smem, ⟨2, _⟩ => ⟨S50000, .i32⟩
  | .local _ .smem, ⟨3, _⟩ => ⟨S50000, .i32⟩
  | .local _ .smem, ⟨4, _⟩ => ⟨S50000, .i32⟩
  | .local _ .smem, ⟨5, _⟩ => ⟨S50000, .i32⟩
  | .local _ .smem, ⟨6, _⟩ => ⟨S50000, .i32⟩
  | .local _ .smem, ⟨7, _⟩ => ⟨S50000, .i32⟩
  | .local _ .smem, ⟨8, _⟩ => ⟨S50000, .i32⟩
  | .local _ .smem, ⟨9, _⟩ => ⟨S50000, .i32⟩
  | .local _ .smem, ⟨10, _⟩ => ⟨S50000, .i32⟩
  | .local _ .smem, ⟨11, _⟩ => ⟨S50000, .i32⟩
  | .local _ .smem, ⟨12, _⟩ => ⟨S50000, .i32⟩
  | .local _ .smem, ⟨13, _⟩ => ⟨S50000, .i32⟩
  | .local _ .smem, ⟨14, _⟩ => ⟨S50000, .i32⟩
  | .local _ .smem, ⟨15, _⟩ => ⟨S50000, .i32⟩
  | .local _ .smem, ⟨16, _⟩ => ⟨S50000, .i32⟩
  | .local _ .smem, ⟨17, _⟩ => ⟨S50000, .i32⟩
  | .local _ .smem, ⟨18, _⟩ => ⟨S50000, .i32⟩
  | .local _ .smem, ⟨19, _⟩ => ⟨S50000, .i32⟩
  | .local _ .smem, ⟨20, _⟩ => ⟨S50000, .i32⟩
  | .local _ .smem, ⟨21, _⟩ => ⟨S50000, .i32⟩
  | .local _ .smem, ⟨22, _⟩ => ⟨S50000, .i32⟩
  | .local _ .smem, ⟨23, _⟩ => ⟨S50000, .i32⟩
  | .local _ .smem, ⟨24, _⟩ => ⟨S50000, .i32⟩
  | .local _ .smem, ⟨25, _⟩ => ⟨S50000, .i32⟩
  | .local _ .smem, ⟨26, _⟩ => ⟨S50000, .i32⟩
  | .local _ .smem, ⟨27, _⟩ => ⟨S50000, .i32⟩
  | .local _ .smem, ⟨28, _⟩ => ⟨S50000, .i32⟩
  | .local _ .smem, ⟨29, _⟩ => ⟨S50000, .i32⟩
  | .local _ .smem, ⟨30, _⟩ => ⟨S50000, .i32⟩
  | .local _ .smem, ⟨31, _⟩ => ⟨S50000, .i32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v9 : Ref sig .tc := ⟨.hbm, 10, rfl⟩
abbrev main_v11 : Ref sig .tc := ⟨.hbm, 11, rfl⟩
abbrev main_v12 : Ref sig .tc := ⟨.hbm, 12, rfl⟩
abbrev main_cst : Ref sig .tc := ⟨.hbm, 13, rfl⟩
abbrev main_v13 : Ref sig .tc := ⟨.hbm, 14, rfl⟩
abbrev main_v14 : Ref sig .tc := ⟨.hbm, 15, rfl⟩
abbrev main_v16 : Ref sig .tc := ⟨.hbm, 16, rfl⟩
abbrev main_v18 : Ref sig .tc := ⟨.hbm, 17, rfl⟩
abbrev main_v19 : Ref sig .tc := ⟨.hbm, 18, rfl⟩
abbrev main_v20 : Ref sig .tc := ⟨.hbm, 19, rfl⟩
abbrev main_v21 : Ref sig .tc := ⟨.hbm, 20, rfl⟩
abbrev main_v23 : Ref sig .tc := ⟨.hbm, 21, rfl⟩
abbrev main_v25 : Ref sig .tc := ⟨.hbm, 22, rfl⟩
abbrev main_v26 : Ref sig .tc := ⟨.hbm, 23, rfl⟩
abbrev main_v27 : Ref sig .tc := ⟨.hbm, 24, rfl⟩
abbrev main_v28 : Ref sig .tc := ⟨.hbm, 25, rfl⟩
abbrev main_v30 : Ref sig .tc := ⟨.hbm, 26, rfl⟩
abbrev main_v32 : Ref sig .tc := ⟨.hbm, 27, rfl⟩
abbrev main_v33 : Ref sig .tc := ⟨.hbm, 28, rfl⟩
abbrev main_v34 : Ref sig .tc := ⟨.hbm, 29, rfl⟩
abbrev main_v35 : Ref sig .tc := ⟨.hbm, 30, rfl⟩
abbrev main_v37 : Ref sig .tc := ⟨.hbm, 31, rfl⟩
abbrev main_v39 : Ref sig .tc := ⟨.hbm, 32, rfl⟩
abbrev main_v40 : Ref sig .tc := ⟨.hbm, 33, rfl⟩
abbrev main_v41 : Ref sig .tc := ⟨.hbm, 34, rfl⟩
abbrev main_v42 : Ref sig .tc := ⟨.hbm, 35, rfl⟩
abbrev main_v44 : Ref sig .tc := ⟨.hbm, 36, rfl⟩
abbrev main_v46 : Ref sig .tc := ⟨.hbm, 37, rfl⟩
abbrev main_v47 : Ref sig .tc := ⟨.hbm, 38, rfl⟩
abbrev main_v48 : Ref sig .tc := ⟨.hbm, 39, rfl⟩
abbrev main_v49 : Ref sig .tc := ⟨.hbm, 40, rfl⟩
abbrev main_v51 : Ref sig .tc := ⟨.hbm, 41, rfl⟩
abbrev main_v53 : Ref sig .tc := ⟨.hbm, 42, rfl⟩
abbrev main_v54 : Ref sig .tc := ⟨.hbm, 43, rfl⟩
abbrev main_v55 : Ref sig .tc := ⟨.hbm, 44, rfl⟩
abbrev main_v56 : Ref sig .tc := ⟨.hbm, 45, rfl⟩
abbrev main_v58 : Ref sig .tc := ⟨.hbm, 46, rfl⟩
abbrev main_v60 : Ref sig .tc := ⟨.hbm, 47, rfl⟩
abbrev main_v61 : Ref sig .tc := ⟨.hbm, 48, rfl⟩
abbrev main_v62 : Ref sig .tc := ⟨.hbm, 49, rfl⟩
abbrev main_v63 : Ref sig .tc := ⟨.hbm, 50, rfl⟩
abbrev main_v65 : Ref sig .tc := ⟨.hbm, 51, rfl⟩
abbrev main_v67 : Ref sig .tc := ⟨.hbm, 52, rfl⟩
abbrev main_v68 : Ref sig .tc := ⟨.hbm, 53, rfl⟩
abbrev main_v69 : Ref sig .tc := ⟨.hbm, 54, rfl⟩
abbrev main_v70 : Ref sig .tc := ⟨.hbm, 55, rfl⟩
abbrev main_v72 : Ref sig .tc := ⟨.hbm, 56, rfl⟩
abbrev main_v74 : Ref sig .tc := ⟨.hbm, 57, rfl⟩
abbrev main_v75 : Ref sig .tc := ⟨.hbm, 58, rfl⟩
abbrev main_v76 : Ref sig .tc := ⟨.hbm, 59, rfl⟩
abbrev main_v77 : Ref sig .tc := ⟨.hbm, 60, rfl⟩
abbrev main_v79 : Ref sig .tc := ⟨.hbm, 61, rfl⟩
abbrev main_v81 : Ref sig .tc := ⟨.hbm, 62, rfl⟩
abbrev main_v82 : Ref sig .tc := ⟨.hbm, 63, rfl⟩
abbrev main_v83 : Ref sig .tc := ⟨.hbm, 64, rfl⟩
abbrev main_v84 : Ref sig .tc := ⟨.hbm, 65, rfl⟩
abbrev main_v86 : Ref sig .tc := ⟨.hbm, 66, rfl⟩
abbrev main_v88 : Ref sig .tc := ⟨.hbm, 67, rfl⟩
abbrev main_v89 : Ref sig .tc := ⟨.hbm, 68, rfl⟩
abbrev main_v90 : Ref sig .tc := ⟨.hbm, 69, rfl⟩
abbrev main_v91 : Ref sig .tc := ⟨.hbm, 70, rfl⟩
abbrev main_v93 : Ref sig .tc := ⟨.hbm, 71, rfl⟩
abbrev main_v95 : Ref sig .tc := ⟨.hbm, 72, rfl⟩
abbrev main_v96 : Ref sig .tc := ⟨.hbm, 73, rfl⟩
abbrev main_v97 : Ref sig .tc := ⟨.hbm, 74, rfl⟩
abbrev main_v98 : Ref sig .tc := ⟨.hbm, 75, rfl⟩
abbrev main_v100 : Ref sig .tc := ⟨.hbm, 76, rfl⟩
abbrev main_v102 : Ref sig .tc := ⟨.hbm, 77, rfl⟩
abbrev main_v103 : Ref sig .tc := ⟨.hbm, 78, rfl⟩
abbrev main_v104 : Ref sig .tc := ⟨.hbm, 79, rfl⟩
abbrev main_v105 : Ref sig .tc := ⟨.hbm, 80, rfl⟩
abbrev main_v107 : Ref sig .tc := ⟨.hbm, 81, rfl⟩
abbrev main_v109 : Ref sig .tc := ⟨.hbm, 82, rfl⟩
abbrev main_v110 : Ref sig .tc := ⟨.hbm, 83, rfl⟩
abbrev main_v111 : Ref sig .tc := ⟨.hbm, 84, rfl⟩
abbrev main_v112 : Ref sig .tc := ⟨.hbm, 85, rfl⟩
abbrev main_v114 : Ref sig .tc := ⟨.hbm, 86, rfl⟩
abbrev main_v116 : Ref sig .tc := ⟨.hbm, 87, rfl⟩
abbrev main_v117 : Ref sig .tc := ⟨.hbm, 88, rfl⟩
abbrev main_v118 : Ref sig .tc := ⟨.hbm, 89, rfl⟩
abbrev main_cst_0 : Ref sig .tc := ⟨.hbm, 90, rfl⟩
abbrev main_v119 : Ref sig .tc := ⟨.hbm, 91, rfl⟩
abbrev main_cst_1 : Ref sig .tc := ⟨.hbm, 92, rfl⟩
abbrev main_v120 : Ref sig .tc := ⟨.hbm, 93, rfl⟩
abbrev main_v8 : Ref sig .tc := ⟨.smem, 0, rfl⟩
abbrev main_v10 : Ref sig .tc := ⟨.smem, 1, rfl⟩
abbrev main_v15 : Ref sig .tc := ⟨.smem, 2, rfl⟩
abbrev main_v17 : Ref sig .tc := ⟨.smem, 3, rfl⟩
abbrev main_v22 : Ref sig .tc := ⟨.smem, 4, rfl⟩
abbrev main_v24 : Ref sig .tc := ⟨.smem, 5, rfl⟩
abbrev main_v29 : Ref sig .tc := ⟨.smem, 6, rfl⟩
abbrev main_v31 : Ref sig .tc := ⟨.smem, 7, rfl⟩
abbrev main_v36 : Ref sig .tc := ⟨.smem, 8, rfl⟩
abbrev main_v38 : Ref sig .tc := ⟨.smem, 9, rfl⟩
abbrev main_v43 : Ref sig .tc := ⟨.smem, 10, rfl⟩
abbrev main_v45 : Ref sig .tc := ⟨.smem, 11, rfl⟩
abbrev main_v50 : Ref sig .tc := ⟨.smem, 12, rfl⟩
abbrev main_v52 : Ref sig .tc := ⟨.smem, 13, rfl⟩
abbrev main_v57 : Ref sig .tc := ⟨.smem, 14, rfl⟩
abbrev main_v59 : Ref sig .tc := ⟨.smem, 15, rfl⟩
abbrev main_v64 : Ref sig .tc := ⟨.smem, 16, rfl⟩
abbrev main_v66 : Ref sig .tc := ⟨.smem, 17, rfl⟩
abbrev main_v71 : Ref sig .tc := ⟨.smem, 18, rfl⟩
abbrev main_v73 : Ref sig .tc := ⟨.smem, 19, rfl⟩
abbrev main_v78 : Ref sig .tc := ⟨.smem, 20, rfl⟩
abbrev main_v80 : Ref sig .tc := ⟨.smem, 21, rfl⟩
abbrev main_v85 : Ref sig .tc := ⟨.smem, 22, rfl⟩
abbrev main_v87 : Ref sig .tc := ⟨.smem, 23, rfl⟩
abbrev main_v92 : Ref sig .tc := ⟨.smem, 24, rfl⟩
abbrev main_v94 : Ref sig .tc := ⟨.smem, 25, rfl⟩
abbrev main_v99 : Ref sig .tc := ⟨.smem, 26, rfl⟩
abbrev main_v101 : Ref sig .tc := ⟨.smem, 27, rfl⟩
abbrev main_v106 : Ref sig .tc := ⟨.smem, 28, rfl⟩
abbrev main_v108 : Ref sig .tc := ⟨.smem, 29, rfl⟩
abbrev main_v113 : Ref sig .tc := ⟨.smem, 30, rfl⟩
abbrev main_v115 : Ref sig .tc := ⟨.smem, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_scratch0 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_scratch0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_scratch0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_scratch0 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_scratch0 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_scratch0 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_scratch0 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg1_1 : Ref sig .tc := ⟨.vmem, 75, rfl⟩
abbrev cc12_stg2_0 : Ref sig .tc := ⟨.vmem, 76, rfl⟩
abbrev cc12_scratch0 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg1_1 : Ref sig .tc := ⟨.vmem, 81, rfl⟩
abbrev cc13_stg2_0 : Ref sig .tc := ⟨.vmem, 82, rfl⟩
abbrev cc13_scratch0 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg1_1 : Ref sig .tc := ⟨.vmem, 87, rfl⟩
abbrev cc14_stg2_0 : Ref sig .tc := ⟨.vmem, 88, rfl⟩
abbrev cc14_scratch0 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg1_1 : Ref sig .tc := ⟨.vmem, 93, rfl⟩
abbrev cc15_stg2_0 : Ref sig .tc := ⟨.vmem, 94, rfl⟩
abbrev cc15_scratch0 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc7_sem0_0 : DmaSem sig := 35
abbrev cc7_sem0_1 : DmaSem sig := 36
abbrev cc7_sem1_0 : DmaSem sig := 37
abbrev cc7_sem1_1 : DmaSem sig := 38
abbrev cc7_sem2_0 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc9_sem0_0 : DmaSem sig := 45
abbrev cc9_sem0_1 : DmaSem sig := 46
abbrev cc9_sem1_0 : DmaSem sig := 47
abbrev cc9_sem1_1 : DmaSem sig := 48
abbrev cc9_sem2_0 : DmaSem sig := 49
abbrev cc10_sem0_0 : DmaSem sig := 50
abbrev cc10_sem0_1 : DmaSem sig := 51
abbrev cc10_sem1_0 : DmaSem sig := 52
abbrev cc10_sem1_1 : DmaSem sig := 53
abbrev cc10_sem2_0 : DmaSem sig := 54
abbrev cc11_sem0_0 : DmaSem sig := 55
abbrev cc11_sem0_1 : DmaSem sig := 56
abbrev cc11_sem1_0 : DmaSem sig := 57
abbrev cc11_sem1_1 : DmaSem sig := 58
abbrev cc11_sem2_0 : DmaSem sig := 59
abbrev cc12_sem0_0 : DmaSem sig := 60
abbrev cc12_sem0_1 : DmaSem sig := 61
abbrev cc12_sem1_0 : DmaSem sig := 62
abbrev cc12_sem1_1 : DmaSem sig := 63
abbrev cc12_sem2_0 : DmaSem sig := 64
abbrev cc13_sem0_0 : DmaSem sig := 65
abbrev cc13_sem0_1 : DmaSem sig := 66
abbrev cc13_sem1_0 : DmaSem sig := 67
abbrev cc13_sem1_1 : DmaSem sig := 68
abbrev cc13_sem2_0 : DmaSem sig := 69
abbrev cc14_sem0_0 : DmaSem sig := 70
abbrev cc14_sem0_1 : DmaSem sig := 71
abbrev cc14_sem1_0 : DmaSem sig := 72
abbrev cc14_sem1_1 : DmaSem sig := 73
abbrev cc14_sem2_0 : DmaSem sig := 74
abbrev cc15_sem0_0 : DmaSem sig := 75
abbrev cc15_sem0_1 : DmaSem sig := 76
abbrev cc15_sem1_0 : DmaSem sig := 77
abbrev cc15_sem1_1 : DmaSem sig := 78
abbrev cc15_sem2_0 : DmaSem sig := 79

abbrev nD : Nat := 1
abbrev τ : Topo := Topo.v7x

variable {F : FTy → Type} [FloatOps F]

abbrev grid0 : Pipeline.Grid := ⟨1, ![50000], ![false]⟩

abbrev pre0 : Pipeline.Prefetch sig := ⟨2, ![main_v8.idx, main_v10.idx], fun | 0 => main_v8.names | 1 => main_v10.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc0_transform_0 (k0_off1_inb : ∀ i : grid0.Coords, ∀ a, (k0_off1 i) a + S1.size a ≤ S50000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S50000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50000], ![false]⟩

abbrev pre1 : Pipeline.Prefetch sig := ⟨2, ![main_v15.idx, main_v17.idx], fun | 0 => main_v15.names | 1 => main_v17.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond2 (i : grid1.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc1_transform_0 (k1_off1_inb : ∀ i : grid1.Coords, ∀ a, (k1_off1 i) a + S1.size a ≤ S50000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S50000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50000], ![false]⟩

abbrev pre2 : Pipeline.Prefetch sig := ⟨2, ![main_v22.idx, main_v24.idx], fun | 0 => main_v22.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond2 (i : grid2.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc2_transform_0 (k2_off1_inb : ∀ i : grid2.Coords, ∀ a, (k2_off1 i) a + S1.size a ≤ S50000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S50000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![50000], ![false]⟩

abbrev pre3 : Pipeline.Prefetch sig := ⟨2, ![main_v29.idx, main_v31.idx], fun | 0 => main_v29.names | 1 => main_v31.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def k3_cond2 (i : grid3.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc3_transform_0 (k3_off1_inb : ∀ i : grid3.Coords, ∀ a, (k3_off1 i) a + S1.size a ≤ S50000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S50000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x1x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![50000], ![false]⟩

abbrev pre4 : Pipeline.Prefetch sig := ⟨2, ![main_v36.idx, main_v38.idx], fun | 0 => main_v36.names | 1 => main_v38.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def k4_cond2 (i : grid4.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc4_transform_0 (k4_off1_inb : ∀ i : grid4.Coords, ∀ a, (k4_off1 i) a + S1.size a ≤ S50000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (k4_off1_inb : ∀ i : grid4.Coords, ∀ a, (k4_off1 i) a + S1.size a ≤ S50000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x1x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50000], ![false]⟩

abbrev pre5 : Pipeline.Prefetch sig := ⟨2, ![main_v43.idx, main_v45.idx], fun | 0 => main_v43.names | 1 => main_v45.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def k5_cond2 (i : grid5.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc5_transform_0 (k5_off1_inb : ∀ i : grid5.Coords, ∀ a, (k5_off1 i) a + S1.size a ≤ S50000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (k5_off1_inb : ∀ i : grid5.Coords, ∀ a, (k5_off1 i) a + S1.size a ≤ S50000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1x1x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x96 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![50000], ![false]⟩

abbrev pre6 : Pipeline.Prefetch sig := ⟨2, ![main_v50.idx, main_v52.idx], fun | 0 => main_v50.names | 1 => main_v52.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def k6_cond2 (i : grid6.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc6_transform_0 (k6_off1_inb : ∀ i : grid6.Coords, ∀ a, (k6_off1 i) a + S1.size a ≤ S50000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (k6_off1_inb : ∀ i : grid6.Coords, ∀ a, (k6_off1 i) a + S1.size a ≤ S50000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1x1x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x96 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![50000], ![false]⟩

abbrev pre7 : Pipeline.Prefetch sig := ⟨2, ![main_v57.idx, main_v59.idx], fun | 0 => main_v57.names | 1 => main_v59.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def k7_cond2 (i : grid7.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc7_transform_0 (k7_off1_inb : ∀ i : grid7.Coords, ∀ a, (k7_off1 i) a + S1.size a ≤ S50000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (k7_off1_inb : ∀ i : grid7.Coords, ∀ a, (k7_off1 i) a + S1.size a ≤ S50000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1x1x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x96 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![50000], ![false]⟩

abbrev pre8 : Pipeline.Prefetch sig := ⟨2, ![main_v64.idx, main_v66.idx], fun | 0 => main_v64.names | 1 => main_v66.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def k8_cond2 (i : grid8.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc8_transform_0 (k8_off1_inb : ∀ i : grid8.Coords, ∀ a, (k8_off1 i) a + S1.size a ≤ S50000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_1 (k8_off1_inb : ∀ i : grid8.Coords, ∀ a, (k8_off1 i) a + S1.size a ≤ S50000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1x1x96 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x96 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![50000], ![false]⟩

abbrev pre9 : Pipeline.Prefetch sig := ⟨2, ![main_v71.idx, main_v73.idx], fun | 0 => main_v71.names | 1 => main_v73.names | ⟨_ + 2, h⟩ => absurd h (Nat.not_lt.2 (Nat.le_add_left _ _)), fun | 0 => rfl | 1 => rfl | ⟨_ + 2, h⟩ => absurd h (Nat.not_lt.2 (Nat.le_add_left _ _))⟩

def k9_off1 (i : grid9.Coords) : Fin 1 → Nat :=
  let arg0 : BitVec 32 := BitVec.ofNat 32 (i 0).val
  let v0 : Index := Scalar.indexCast arg0
  ![v0.toNat]
def k9_cond2 (i : grid9.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc9_transform_0 (k9_off1_inb : ∀ i : grid9.Coords, ∀ a, (k9_off1 i) a + S1.size a ≤ S50000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_1 (k9_off1_inb : ∀ i : grid9.Coords, ∀ a, (k9_off1 i) a + S1.size a ≤ S50000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S1x1x96 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x96 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![50000], ![false]⟩

abbrev pre10 : Pipeline.Prefetch sig := ⟨2, ![main_v78.idx, main_v80.idx], fun | 0 => main_v78.names | 1 => main_v80.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def k10_cond2 (i : grid10.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc10_transform_0 (k10_off1_inb : ∀ i : grid10.Coords, ∀ a, (k10_off1 i) a + S1.size a ≤ S50000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_1 (k10_off1_inb : ∀ i : grid10.Coords, ∀ a, (k10_off1 i) a + S1.size a ≤ S50000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S1x1x96 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1x96 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![50000], ![false]⟩

abbrev pre11 : Pipeline.Prefetch sig := ⟨2, ![main_v85.idx, main_v87.idx], fun | 0 => main_v85.names | 1 => main_v87.names | ⟨_ + 2, h⟩ => absurd h (Nat.not_lt.2 (Nat.le_add_left _ _)), fun | 0 => rfl | 1 => rfl | ⟨_ + 2, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def k11_cond2 (i : grid11.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc11_transform_0 (k11_off1_inb : ∀ i : grid11.Coords, ∀ a, (k11_off1 i) a + S1.size a ≤ S50000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_1 (k11_off1_inb : ∀ i : grid11.Coords, ∀ a, (k11_off1 i) a + S1.size a ≤ S50000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S1x1x96 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x1x96 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨1, ![50000], ![false]⟩

abbrev pre12 : Pipeline.Prefetch sig := ⟨2, ![main_v92.idx, main_v94.idx], fun | 0 => main_v92.names | 1 => main_v94.names | ⟨_ + 2, h⟩ => absurd h (Nat.not_lt.2 (Nat.le_add_left _ _)), fun | 0 => rfl | 1 => rfl | ⟨_ + 2, h⟩ => absurd h (Nat.not_lt.2 (Nat.le_add_left _ _))⟩

def k12_off1 (i : grid12.Coords) : Fin 1 → Nat :=
  let arg0 : BitVec 32 := BitVec.ofNat 32 (i 0).val
  let v0 : Index := Scalar.indexCast arg0
  ![v0.toNat]
def k12_cond2 (i : grid12.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc12_transform_0 (k12_off1_inb : ∀ i : grid12.Coords, ∀ a, (k12_off1 i) a + S1.size a ≤ S50000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_1 (k12_off1_inb : ∀ i : grid12.Coords, ∀ a, (k12_off1 i) a + S1.size a ≤ S50000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S1x1x96 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x1x96 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![50000], ![false]⟩

abbrev pre13 : Pipeline.Prefetch sig := ⟨2, ![main_v99.idx, main_v101.idx], fun | 0 => main_v99.names | 1 => main_v101.names | ⟨_ + 2, h⟩ => absurd h (Nat.not_lt.2 (Nat.le_add_left _ _)), fun | 0 => rfl | 1 => rfl | ⟨_ + 2, h⟩ => absurd h (Nat.not_lt.2 (Nat.le_add_left _ _))⟩

def k13_off1 (i : grid13.Coords) : Fin 1 → Nat :=
  let arg0 : BitVec 32 := BitVec.ofNat 32 (i 0).val
  let v0 : Index := Scalar.indexCast arg0
  ![v0.toNat]
def k13_cond2 (i : grid13.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc13_transform_0 (k13_off1_inb : ∀ i : grid13.Coords, ∀ a, (k13_off1 i) a + S1.size a ≤ S50000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_1 (k13_off1_inb : ∀ i : grid13.Coords, ∀ a, (k13_off1 i) a + S1.size a ≤ S50000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S1x1x96 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x1x96 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![50000], ![false]⟩

abbrev pre14 : Pipeline.Prefetch sig := ⟨2, ![main_v106.idx, main_v108.idx], fun | 0 => main_v106.names | 1 => main_v108.names | ⟨_ + 2, h⟩ => absurd h (Nat.not_lt.2 (Nat.le_add_left _ _)), fun | 0 => rfl | 1 => rfl | ⟨_ + 2, h⟩ => absurd h (Nat.not_lt.2 (Nat.le_add_left _ _))⟩

def k14_off1 (i : grid14.Coords) : Fin 1 → Nat :=
  let arg0 : BitVec 32 := BitVec.ofNat 32 (i 0).val
  let v0 : Index := Scalar.indexCast arg0
  ![v0.toNat]
def k14_cond2 (i : grid14.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc14_transform_0 (k14_off1_inb : ∀ i : grid14.Coords, ∀ a, (k14_off1 i) a + S1.size a ≤ S50000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_1 (k14_off1_inb : ∀ i : grid14.Coords, ∀ a, (k14_off1 i) a + S1.size a ≤ S50000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S1x1x96 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x1x96 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev grid15 : Pipeline.Grid := ⟨1, ![50000], ![false]⟩

abbrev pre15 : Pipeline.Prefetch sig := ⟨2, ![main_v113.idx, main_v115.idx], fun | 0 => main_v113.names | 1 => main_v115.names | ⟨_ + 2, h⟩ => absurd h (Nat.not_lt.2 (Nat.le_add_left _ _)), fun | 0 => rfl | 1 => rfl | ⟨_ + 2, h⟩ => absurd h (Nat.not_lt.2 (Nat.le_add_left _ _))⟩

def k15_off1 (i : grid15.Coords) : Fin 1 → Nat :=
  let arg0 : BitVec 32 := BitVec.ofNat 32 (i 0).val
  let v0 : Index := Scalar.indexCast arg0
  ![v0.toNat]
def k15_cond2 (i : grid15.Coords) : BitVec 1 :=
  let arg0 : BitVec 32 := BitVec.ofNat 32 (i 0).val
  let c49999_i32 : BitVec 32 := 49999#32
  let v16 : BitVec 1 := Scalar.cmpi .eq arg0 c49999_i32
  let v17 : BitVec 32 := Scalar.extui v16
  let c0_i32_10 : BitVec 32 := 0#32
  let v18 : BitVec 1 := Scalar.cmpi .ne v17 c0_i32_10
  v18

def cc15_transform_0 (k15_off1_inb : ∀ i : grid15.Coords, ∀ a, (k15_off1 i) a + S1.size a ≤ S50000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_1 (k15_off1_inb : ∀ i : grid15.Coords, ∀ a, (k15_off1 i) a + S1.size a ≤ S50000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 1 (Rect.unit (s := S50000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S1x1x96 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x1x96 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000_S16x50000 : S800000.ShapeCasts S16x50000
  shapeCasts_S50000x96_S50000x1x96 : S50000x96.ShapeCasts S50000x1x96
  slices_S16x50000_S1x50000_0_0 : S16x50000.Slices ![0, 0] S1x50000
  shapeCasts_S1x50000_S50000 : S1x50000.ShapeCasts S50000
  numel1_S1 : S1.numel = 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x96_S1x1x96_0_0_0 : ∀ a, (![0, 0, 0] : Fin 3 → Nat) a + S1x1x96.size a ≤ S1x1x96.size a
  h_S1x1x96 : 0 < S1x1x96.numel
  shapeCasts_S1x1x96_S1x1x96 : S1x1x96.ShapeCasts S1x1x96
  reduces_S1x1x96_S1x1 : S1x1x96.Reduces [2] S1x1
  shapeCasts_S1x1_S_ : S1x1.ShapeCasts S_
  slices_S16x50000_S1x50000_1_0 : S16x50000.Slices ![1, 0] S1x50000
  slices_S16x50000_S1x50000_2_0 : S16x50000.Slices ![2, 0] S1x50000
  slices_S16x50000_S1x50000_3_0 : S16x50000.Slices ![3, 0] S1x50000
  slices_S16x50000_S1x50000_4_0 : S16x50000.Slices ![4, 0] S1x50000
  slices_S16x50000_S1x50000_5_0 : S16x50000.Slices ![5, 0] S1x50000
  slices_S16x50000_S1x50000_6_0 : S16x50000.Slices ![6, 0] S1x50000
  slices_S16x50000_S1x50000_7_0 : S16x50000.Slices ![7, 0] S1x50000
  slices_S16x50000_S1x50000_8_0 : S16x50000.Slices ![8, 0] S1x50000
  slices_S16x50000_S1x50000_9_0 : S16x50000.Slices ![9, 0] S1x50000
  slices_S16x50000_S1x50000_10_0 : S16x50000.Slices ![10, 0] S1x50000
  slices_S16x50000_S1x50000_11_0 : S16x50000.Slices ![11, 0] S1x50000
  slices_S16x50000_S1x50000_12_0 : S16x50000.Slices ![12, 0] S1x50000
  slices_S16x50000_S1x50000_13_0 : S16x50000.Slices ![13, 0] S1x50000
  slices_S16x50000_S1x50000_14_0 : S16x50000.Slices ![14, 0] S1x50000
  slices_S16x50000_S1x50000_15_0 : S16x50000.Slices ![15, 0] S1x50000
  hrank0 : 0 < grid0.rank
  k0_off1_inb : ∀ i : grid0.Coords, ∀ a, (k0_off1 i) a + S1.size a ≤ S50000.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  k1_off1_inb : ∀ i : grid1.Coords, ∀ a, (k1_off1 i) a + S1.size a ≤ S50000.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  k2_off1_inb : ∀ i : grid2.Coords, ∀ a, (k2_off1 i) a + S1.size a ≤ S50000.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hrank3 : 0 < grid3.rank
  k3_off1_inb : ∀ i : grid3.Coords, ∀ a, (k3_off1 i) a + S1.size a ≤ S50000.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hrank4 : 0 < grid4.rank
  k4_off1_inb : ∀ i : grid4.Coords, ∀ a, (k4_off1 i) a + S1.size a ≤ S50000.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hrank5 : 0 < grid5.rank
  k5_off1_inb : ∀ i : grid5.Coords, ∀ a, (k5_off1 i) a + S1.size a ≤ S50000.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ {F : FTy → Type} [FloatOps F] (pf : pre5.Contents (Elt F)) (i i' : grid5.Coords), (∀ a, reads5_1 a = true → i a = i' a) → cc5_transform_1 k5_off1_inb numel1_S1 pf i = cc5_transform_1 k5_off1_inb numel1_S1 pf i'
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hrank6 : 0 < grid6.rank
  k6_off1_inb : ∀ i : grid6.Coords, ∀ a, (k6_off1 i) a + S1.size a ≤ S50000.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ {F : FTy → Type} [FloatOps F] (pf : pre6.Contents (Elt F)) (i i' : grid6.Coords), (∀ a, reads6_1 a = true → i a = i' a) → cc6_transform_1 k6_off1_inb numel1_S1 pf i = cc6_transform_1 k6_off1_inb numel1_S1 pf i'
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hrank7 : 0 < grid7.rank
  k7_off1_inb : ∀ i : grid7.Coords, ∀ a, (k7_off1 i) a + S1.size a ≤ S50000.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ {F : FTy → Type} [FloatOps F] (pf : pre7.Contents (Elt F)) (i i' : grid7.Coords), (∀ a, reads7_1 a = true → i a = i' a) → cc7_transform_1 k7_off1_inb numel1_S1 pf i = cc7_transform_1 k7_off1_inb numel1_S1 pf i'
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hrank8 : 0 < grid8.rank
  k8_off1_inb : ∀ i : grid8.Coords, ∀ a, (k8_off1 i) a + S1.size a ≤ S50000.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ {F : FTy → Type} [FloatOps F] (pf : pre8.Contents (Elt F)) (i i' : grid8.Coords), (∀ a, reads8_1 a = true → i a = i' a) → cc8_transform_1 k8_off1_inb numel1_S1 pf i = cc8_transform_1 k8_off1_inb numel1_S1 pf i'
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hrank9 : 0 < grid9.rank
  k9_off1_inb : ∀ i : grid9.Coords, ∀ a, (k9_off1 i) a + S1.size a ≤ S50000.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ {F : FTy → Type} [FloatOps F] (pf : pre9.Contents (Elt F)) (i i' : grid9.Coords), (∀ a, reads9_1 a = true → i a = i' a) → cc9_transform_1 k9_off1_inb numel1_S1 pf i = cc9_transform_1 k9_off1_inb numel1_S1 pf i'
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hrank10 : 0 < grid10.rank
  k10_off1_inb : ∀ i : grid10.Coords, ∀ a, (k10_off1 i) a + S1.size a ≤ S50000.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ {F : FTy → Type} [FloatOps F] (pf : pre10.Contents (Elt F)) (i i' : grid10.Coords), (∀ a, reads10_1 a = true → i a = i' a) → cc10_transform_1 k10_off1_inb numel1_S1 pf i = cc10_transform_1 k10_off1_inb numel1_S1 pf i'
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hrank11 : 0 < grid11.rank
  k11_off1_inb : ∀ i : grid11.Coords, ∀ a, (k11_off1 i) a + S1.size a ≤ S50000.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ {F : FTy → Type} [FloatOps F] (pf : pre11.Contents (Elt F)) (i i' : grid11.Coords), (∀ a, reads11_1 a = true → i a = i' a) → cc11_transform_1 k11_off1_inb numel1_S1 pf i = cc11_transform_1 k11_off1_inb numel1_S1 pf i'
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hrank12 : 0 < grid12.rank
  k12_off1_inb : ∀ i : grid12.Coords, ∀ a, (k12_off1 i) a + S1.size a ≤ S50000.size a
  hstage12_0 : ∀ j, (stage12_0 j).IsWhole
  nbuf12_0 : grid12.bufCount reads12_0 false = 2
  hreads12_0 : ∀ {F : FTy → Type} [FloatOps F] (pf : pre12.Contents (Elt F)) (i i' : grid12.Coords), (∀ a, reads12_0 a = true → i a = i' a) → cc12_transform_0 k12_off1_inb numel1_S1 pf i = cc12_transform_0 k12_off1_inb numel1_S1 pf i'
  hstage12_1 : ∀ j, (stage12_1 j).IsWhole
  nbuf12_1 : grid12.bufCount reads12_1 false = 2
  hreads12_1 : ∀ {F : FTy → Type} [FloatOps F] (pf : pre12.Contents (Elt F)) (i i' : grid12.Coords), (∀ a, reads12_1 a = true → i a = i' a) → cc12_transform_1 k12_off1_inb numel1_S1 pf i = cc12_transform_1 k12_off1_inb numel1_S1 pf i'
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hrank13 : 0 < grid13.rank
  k13_off1_inb : ∀ i : grid13.Coords, ∀ a, (k13_off1 i) a + S1.size a ≤ S50000.size a
  hstage13_0 : ∀ j, (stage13_0 j).IsWhole
  nbuf13_0 : grid13.bufCount reads13_0 false = 2
  hreads13_0 : ∀ {F : FTy → Type} [FloatOps F] (pf : pre13.Contents (Elt F)) (i i' : grid13.Coords), (∀ a, reads13_0 a = true → i a = i' a) → cc13_transform_0 k13_off1_inb numel1_S1 pf i = cc13_transform_0 k13_off1_inb numel1_S1 pf i'
  hstage13_1 : ∀ j, (stage13_1 j).IsWhole
  nbuf13_1 : grid13.bufCount reads13_1 false = 2
  hreads13_1 : ∀ {F : FTy → Type} [FloatOps F] (pf : pre13.Contents (Elt F)) (i i' : grid13.Coords), (∀ a, reads13_1 a = true → i a = i' a) → cc13_transform_1 k13_off1_inb numel1_S1 pf i = cc13_transform_1 k13_off1_inb numel1_S1 pf i'
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1.size a ≤ S1x1.size a
  hwx13_2 : ∀ i : grid13.Coords, EltTy.bits .f32 = 32 ∨ (Rect.block (s := S1x1) S1x1.size (cc13_transform_2 i) (hinb13_2 i)).WholeWords (EltTy.packing .f32)
  hrank14 : 0 < grid14.rank
  k14_off1_inb : ∀ i : grid14.Coords, ∀ a, (k14_off1 i) a + S1.size a ≤ S50000.size a
  hstage14_0 : ∀ j, (stage14_0 j).IsWhole
  nbuf14_0 : grid14.bufCount reads14_0 false = 2
  hreads14_0 : ∀ {F : FTy → Type} [FloatOps F] (pf : pre14.Contents (Elt F)) (i i' : grid14.Coords), (∀ a, reads14_0 a = true → i a = i' a) → cc14_transform_0 k14_off1_inb numel1_S1 pf i = cc14_transform_0 k14_off1_inb numel1_S1 pf i'
  hstage14_1 : ∀ j, (stage14_1 j).IsWhole
  nbuf14_1 : grid14.bufCount reads14_1 false = 2
  hreads14_1 : ∀ {F : FTy → Type} [FloatOps F] (pf : pre14.Contents (Elt F)) (i i' : grid14.Coords), (∀ a, reads14_1 a = true → i a = i' a) → cc14_transform_1 k14_off1_inb numel1_S1 pf i = cc14_transform_1 k14_off1_inb numel1_S1 pf i'
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1.size a ≤ S1x1.size a
  hwx14_2 : ∀ i : grid14.Coords, EltTy.bits .f32 = 32 ∨ (Rect.block (s := S1x1) S1x1.size (cc14_transform_2 i) (hinb14_2 i)).WholeWords (EltTy.packing .f32)
  hrank15 : 0 < grid15.rank
  k15_off1_inb : ∀ i : grid15.Coords, ∀ a, (k15_off1 i) a + S1.size a ≤ S50000.size a
  hstage15_0 : ∀ j, (stage15_0 j).IsWhole
  nbuf15_0 : grid15.bufCount reads15_0 false = 2
  hreads15_0 : ∀ {F : FTy → Type} [FloatOps F] (pf : pre15.Contents (Elt F)) (i i' : grid15.Coords), (∀ a, reads15_0 a = true → i a = i' a) → cc15_transform_0 k15_off1_inb numel1_S1 pf i = cc15_transform_0 k15_off1_inb numel1_S1 pf i'
  hstage15_1 : ∀ j, (stage15_1 j).IsWhole
  nbuf15_1 : grid15.bufCount reads15_1 false = 2
  hreads15_1 : ∀ {F : FTy → Type} [FloatOps F] (pf : pre15.Contents (Elt F)) (i i' : grid15.Coords), (∀ a, reads15_1 a = true → i a = i' a) → cc15_transform_1 k15_off1_inb numel1_S1 pf i = cc15_transform_1 k15_off1_inb numel1_S1 pf i'
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x1.size a ≤ S1x1.size a
  hwx15_2 : ∀ i : grid15.Coords, EltTy.bits .f32 = 32 ∨ (Rect.block (s := S1x1) S1x1.size (cc15_transform_2 i) (hinb15_2 i)).WholeWords (EltTy.packing .f32)

variable [Facts₀]

abbrev spec0_0 : Pipeline.WinSpec sig grid0.rank :=
  Pipeline.WinSpec.ofSpec (Memref.whole main_v6) S1x1x96.size reads0_0 false false 2 stage0_0 sem0_0 nbuf0_0 hstage0_0

abbrev spec0_1 : Pipeline.WinSpec sig grid0.rank :=
  Pipeline.WinSpec.ofSpec (Memref.whole main_v6) S1x1x96.size reads0_1 false false 2 stage0_1 sem0_1 nbuf0_1 hstage0_1

abbrev spec0_2 : Pipeline.WinSpec sig grid0.rank :=
  Pipeline.WinSpec.ofSpec (Memref.whole main_v11) S1x1.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x96.size a ≤ S50000x1x96.size a), EltTy.bits .f32 = 32 ∨ (Rect.block (s := S50000x1x96) S1x1x96.size (cc0_transform_0 k0_off1_inb numel1_S1 pf i) h).WholeWords (EltTy.packing .f32)) ∧
  (∀ i : grid0.Coords, ∃ h : (∀ a, (cc0_transform_1 k0_off1_inb numel1_S1 pf i a + 1) * S1x1x96.size a ≤ S50000x1x96.size a), EltTy.bits .f32 = 32 ∨ (Rect.block (s := S50000x1x96) S1x1x96.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev spec1_0 : Pipeline.WinSpec sig grid1.rank :=
  Pipeline.WinSpec.ofSpec (Memref.whole main_v6) S1x1x96.size reads1_0 false false 2 stage1_0 sem1_0 nbuf1_0 hstage1_0

abbrev spec1_1 : Pipeline.WinSpec sig grid1.rank :=
  Pipeline.WinSpec.ofSpec (Memref.whole main_v6) S1x1x96.size reads1_1 false false 2 stage1_1 sem1_1 nbuf1_1 hstage1_1

abbrev spec1_2 : Pipeline.WinSpec sig grid1.rank :=
  Pipeline.WinSpec.ofSpec (Memref.whole main_v18) S1x1.size reads1_2 true true 1 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 k1_off1_inb numel1_S1 pf | 1 => cc1_transform_1 k1_off1_inb numel1_S1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x96.size a ≤ S50000x1x96.size a), EltTy.bits .f32 = 32 ∨ (Rect.block (s := S50000x1x96) S1x1x96.size (cc1_transform_0 k1_off1_inb numel1_S1 pf i) h).WholeWords (EltTy.packing .f32)) ∧
  (∀ i : grid1.Coords, ∃ h : (∀ a, (cc1_transform_1 k1_off1_inb numel1_S1 pf i a + 1) * S1x1x96.size a ≤ S50000x1x96.size a), EltTy.bits .f32 = 32 ∨ (Rect.block (s := S50000x1x96) S1x1x96.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | ⟨_ + 3, h⟩ => absurd h (Nat.not_lt.2 (Nat.le_add_left _ _))
abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev spec2_0 : Pipeline.WinSpec sig grid2.rank :=
  Pipeline.WinSpec.ofSpec (Memref.whole main_v6) S1x1x96.size reads2_0 false false 2 stage2_0 sem2_0 nbuf2_0 hstage2_0

abbrev spec2_1 : Pipeline.WinSpec sig grid2.rank :=
  Pipeline.WinSpec.ofSpec (Memref.whole main_v6) S1x1x96.size reads2_1 false false 2 stage2_1 sem2_1 nbuf2_1 hstage2_1

abbrev spec2_2 : Pipeline.WinSpec sig grid2.rank :=
  Pipeline.WinSpec.ofSpec (Memref.whole main_v25) S1x1.size reads2_2 true true 1 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 k2_off1_inb numel1_S1 pf | 1 => cc2_transform_1 k2_off1_inb numel1_S1 pf | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 | ⟨_ + 3, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x96.size a ≤ S50000x1x96.size a), EltTy.bits .f32 = 32 ∨ (Rect.block (s := S50000x1x96) S1x1x96.size (cc2_transform_0 k2_off1_inb numel1_S1 pf i) h).WholeWords (EltTy.packing .f32)) ∧
  (∀ i : grid2.Coords, ∃ h : (∀ a, (cc2_transform_1 k2_off1_inb numel1_S1 pf i a + 1) * S1x1x96.size a ≤ S50000x1x96.size a), EltTy.bits .f32 = 32 ∨ (Rect.block (s := S50000x1x96) S1x1x96.size (cc2_transform_1 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2 i).elim fun h _ => h a | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2 i).elim fun _ h => h | 2 => hwx2_2 | ⟨_ + 3, h⟩ => absurd h (Nat.not_lt.2 (Nat.le_add_left _ _))
abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev spec3_0 : Pipeline.WinSpec sig grid3.rank :=
  Pipeline.WinSpec.ofSpec (Memref.whole main_v6) S1x1x96.size reads3_0 false false 2 stage3_0 sem3_0 nbuf3_0 hstage3_0

abbrev spec3_1 : Pipeline.WinSpec sig grid3.rank :=
  Pipeline.WinSpec.ofSpec (Memref.whole main_v6) S1x1x96.size reads3_1 false false 2 stage3_1 sem3_1 nbuf3_1 hstage3_1

abbrev spec3_2 : Pipeline.WinSpec sig grid3.rank :=
  Pipeline.WinSpec.ofSpec (Memref.whole main_v32) S1x1.size reads3_2 true true 1 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 k3_off1_inb numel1_S1 pf | 1 => cc3_transform_1 k3_off1_inb numel1_S1 pf | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 | ⟨_ + 3, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x96.size a ≤ S50000x1x96.size a), EltTy.bits .f32 = 32 ∨ (Rect.block (s := S50000x1x96) S1x1x96.size (cc3_transform_0 k3_off1_inb numel1_S1 pf i) h).WholeWords (EltTy.packing .f32)) ∧
  (∀ i : grid3.Coords, ∃ h : (∀ a, (cc3_transform_1 k3_off1_inb numel1_S1 pf i a + 1) * S1x1x96.size a ≤ S50000x1x96.size a), EltTy.bits .f32 = 32 ∨ (Rect.block (s := S50000x1x96) S1x1x96.size (cc3_transform_1 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2 i).elim fun h _ => h a | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2 i).elim fun _ h => h | 2 => hwx3_2 | ⟨_ + 3, h⟩ => absurd h (Nat.not_lt.2 (Nat.le_add_left _ _))
abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev spec4_0 : Pipeline.WinSpec sig grid4.rank :=
  Pipeline.WinSpec.ofSpec (Memref.whole main_v6) S1x1x96.size reads4_0 false false 2 stage4_0 sem4_0 nbuf4_0 hstage4_0

abbrev spec4_1 : Pipeline.WinSpec sig grid4.rank :=
  Pipeline.WinSpec.ofSpec (Memref.whole main_v6) S1x1x96.size reads4_1 false false 2 stage4_1 sem4_1 nbuf4_1 hstage4_1

abbrev spec4_2 : Pipeline.WinSpec sig grid4.rank :=
  Pipeline.WinSpec.ofSpec (Memref.whole main_v39) S1x1.size reads4_2 true true 1 stage4_2 sem4_2 nbuf4_2 hstage4_2

abbrev spec4 : Fin 3 → Pipeline.WinSpec sig grid4.rank := fun | 0 => spec4_0 | 1 => spec4_1 | 2 => spec4_2 | ⟨_ + 3, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | ⟨_ + 3, h⟩ => absurd h (Nat.not_lt.2 (Nat.le_add_left _ _))
abbrev ix4 (pf : pre4.Contents (Elt F)) : (w : Fin 3) → grid4.Coords → Fin (spec4 w).shape.rank → Nat := fun | 0 => cc4_transform_0 k4_off1_inb numel1_S1 pf | 1 => cc4_transform_1 k4_off1_inb numel1_S1 pf | 2 => cc4_transform_2 | ⟨_ + 3, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 pf | 2 => hreads4_2 | ⟨_ + 3, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x96.size a ≤ S50000x1x96.size a), EltTy.bits .f32 = 32 ∨ (Rect.block (s := S50000x1x96) S1x1x96.size (cc4_transform_0 k4_off1_inb numel1_S1 pf i) h).WholeWords (EltTy.packing .f32)) ∧
  (∀ i : grid4.Coords, ∃ h : (∀ a, (cc4_transform_1 k4_off1_inb numel1_S1 pf i a + 1) * S1x1x96.size a ≤ S50000x1x96.size a), EltTy.bits .f32 = 32 ∨ (Rect.block (s := S50000x1x96) S1x1x96.size (cc4_transform_1 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok.1 i).elim fun h _ => h a | 1 => fun i a => (hok.2 i).elim fun h _ => h a | 2 => hinb4_2 | ⟨_ + 3, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok.1 i).elim fun _ h => h | 1 => fun i => (hok.2 i).elim fun _ h => h | 2 => hwx4_2 | ⟨_ + 3, h⟩ => absurd h (Nat.not_lt.2 (Nat.le_add_left _ _))
abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev spec5_0 : Pipeline.WinSpec sig grid5.rank :=
  Pipeline.WinSpec.ofSpec (Memref.whole main_v6) S1x1x96.size reads5_0 false false 2 stage5_0 sem5_0 nbuf5_0 hstage5_0

abbrev spec5_1 : Pipeline.WinSpec sig grid5.rank :=
  Pipeline.WinSpec.ofSpec (Memref.whole main_v6) S1x1x96.size reads5_1 false false 2 stage5_1 sem5_1 nbuf5_1 hstage5_1

abbrev spec5_2 : Pipeline.WinSpec sig grid5.rank :=
  Pipeline.WinSpec.ofSpec (Memref.whole main_v46) S1x1.size reads5_2 true true 1 stage5_2 sem5_2 nbuf5_2 hstage5_2

abbrev spec5 : Fin 3 → Pipeline.WinSpec sig grid5.rank := fun | 0 => spec5_0 | 1 => spec5_1 | 2 => spec5_2 | ⟨_ + 3, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | ⟨_ + 3, h⟩ => absurd h (Nat.not_lt.2 (Nat.le_add_left _ _))
abbrev ix5 (pf : pre5.Contents (Elt F)) : (w : Fin 3) → grid5.Coords → Fin (spec5 w).shape.rank → Nat := fun | 0 => cc5_transform_0 k5_off1_inb numel1_S1 pf | 1 => cc5_transform_1 k5_off1_inb numel1_S1 pf | 2 => cc5_transform_2 | ⟨_ + 3, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 pf | 2 => hreads5_2 | ⟨_ + 3, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x96.size a ≤ S50000x1x96.size a), EltTy.bits .f32 = 32 ∨ (Rect.block (s := S50000x1x96) S1x1x96.size (cc5_transform_0 k5_off1_inb numel1_S1 pf i) h).WholeWords (EltTy.packing .f32)) ∧
  (∀ i : grid5.Coords, ∃ h : (∀ a, (cc5_transform_1 k5_off1_inb numel1_S1 pf i a + 1) * S1x1x96.size a ≤ S50000x1x96.size a), EltTy.bits .f32 = 32 ∨ (Rect.block (s := S50000x1x96) S1x1x96.size (cc5_transform_1 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok.1 i).elim fun h _ => h a | 1 => fun i a => (hok.2 i).elim fun h _ => h a | 2 => hinb5_2 | ⟨_ + 3, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok.1 i).elim fun _ h => h | 1 => fun i => (hok.2 i).elim fun _ h => h | 2 => hwx5_2 | ⟨_ + 3, h⟩ => absurd h (Nat.not_lt.2 (Nat.le_add_left _ _))
abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev spec6_0 : Pipeline.WinSpec sig grid6.rank :=
  Pipeline.WinSpec.ofSpec (Memref.whole main_v6) S1x1x96.size reads6_0 false false 2 stage6_0 sem6_0 nbuf6_0 hstage6_0

abbrev spec6_1 : Pipeline.WinSpec sig grid6.rank :=
  Pipeline.WinSpec.ofSpec (Memref.whole main_v6) S1x1x96.size reads6_1 false false 2 stage6_1 sem6_1 nbuf6_1 hstage6_1

abbrev spec6_2 : Pipeline.WinSpec sig grid6.rank :=
  Pipeline.WinSpec.ofSpec (Memref.whole main_v53) S1x1.size reads6_2 true true 1 stage6_2 sem6_2 nbuf6_2 hstage6_2

abbrev spec6 : Fin 3 → Pipeline.WinSpec sig grid6.rank := fun | 0 => spec6_0 | 1 => spec6_1 | 2 => spec6_2 | ⟨_ + 3, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | ⟨_ + 3, h⟩ => absurd h (Nat.not_lt.2 (Nat.le_add_left _ _))
abbrev ix6 (pf : pre6.Contents (Elt F)) : (w : Fin 3) → grid6.Coords → Fin (spec6 w).shape.rank → Nat := fun | 0 => cc6_transform_0 k6_off1_inb numel1_S1 pf | 1 => cc6_transform_1 k6_off1_inb numel1_S1 pf | 2 => cc6_transform_2 | ⟨_ + 3, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 pf | 2 => hreads6_2 | ⟨_ + 3, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x96.size a ≤ S50000x1x96.size a), EltTy.bits .f32 = 32 ∨ (Rect.block (s := S50000x1x96) S1x1x96.size (cc6_transform_0 k6_off1_inb numel1_S1 pf i) h).WholeWords (EltTy.packing .f32)) ∧
  (∀ i : grid6.Coords, ∃ h : (∀ a, (cc6_transform_1 k6_off1_inb numel1_S1 pf i a + 1) * S1x1x96.size a ≤ S50000x1x96.size a), EltTy.bits .f32 = 32 ∨ (Rect.block (s := S50000x1x96) S1x1x96.size (cc6_transform_1 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok.1 i).elim fun h _ => h a | 1 => fun i a => (hok.2 i).elim fun h _ => h a | 2 => hinb6_2 | ⟨_ + 3, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok.1 i).elim fun _ h => h | 1 => fun i => (hok.2 i).elim fun _ h => h | 2 => hwx6_2 | ⟨_ + 3, h⟩ => absurd h (Nat.not_lt.2 (Nat.le_add_left _ _))
abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev spec7_0 : Pipeline.WinSpec sig grid7.rank :=
  Pipeline.WinSpec.ofSpec (Memref.whole main_v6) S1x1x96.size reads7_0 false false 2 stage7_0 sem7_0 nbuf7_0 hstage7_0

abbrev spec7_1 : Pipeline.WinSpec sig grid7.rank :=
  Pipeline.WinSpec.ofSpec (Memref.whole main_v6) S1x1x96.size reads7_1 false false 2 stage7_1 sem7_1 nbuf7_1 hstage7_1

abbrev spec7_2 : Pipeline.WinSpec sig grid7.rank :=
  Pipeline.WinSpec.ofSpec (Memref.whole main_v60) S1x1.size reads7_2 true true 1 stage7_2 sem7_2 nbuf7_2 hstage7_2

abbrev spec7 : Fin 3 → Pipeline.WinSpec sig grid7.rank := fun | 0 => spec7_0 | 1 => spec7_1 | 2 => spec7_2 | ⟨_ + 3, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | ⟨_ + 3, h⟩ => absurd h (Nat.not_lt.2 (Nat.le_add_left _ _))
abbrev ix7 (pf : pre7.Contents (Elt F)) : (w : Fin 3) → grid7.Coords → Fin (spec7 w).shape.rank → Nat := fun | 0 => cc7_transform_0 k7_off1_inb numel1_S1 pf | 1 => cc7_transform_1 k7_off1_inb numel1_S1 pf | 2 => cc7_transform_2 | ⟨_ + 3, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 pf | 2 => hreads7_2 | ⟨_ + 3, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x96.size a ≤ S50000x1x96.size a), EltTy.bits .f32 = 32 ∨ (Rect.block (s := S50000x1x96) S1x1x96.size (cc7_transform_0 k7_off1_inb numel1_S1 pf i) h).WholeWords (EltTy.packing .f32)) ∧
  (∀ i : grid7.Coords, ∃ h : (∀ a, (cc7_transform_1 k7_off1_inb numel1_S1 pf i a + 1) * S1x1x96.size a ≤ S50000x1x96.size a), EltTy.bits .f32 = 32 ∨ (Rect.block (s := S50000x1x96) S1x1x96.size (cc7_transform_1 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok.1 i).elim fun h _ => h a | 1 => fun i a => (hok.2 i).elim fun h _ => h a | 2 => hinb7_2 | ⟨_ + 3, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok.1 i).elim fun _ h => h | 1 => fun i => (hok.2 i).elim fun _ h => h | 2 => hwx7_2 | ⟨_ + 3, h⟩ => absurd h (Nat.not_lt.2 (Nat.le_add_left _ _))
abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev spec8_0 : Pipeline.WinSpec sig grid8.rank :=
  Pipeline.WinSpec.ofSpec (Memref.whole main_v6) S1x1x96.size reads8_0 false false 2 stage8_0 sem8_0 nbuf8_0 hstage8_0

abbrev spec8_1 : Pipeline.WinSpec sig grid8.rank :=
  Pipeline.WinSpec.ofSpec (Memref.whole main_v6) S1x1x96.size reads8_1 false false 2 stage8_1 sem8_1 nbuf8_1 hstage8_1

abbrev spec8_2 : Pipeline.WinSpec sig grid8.rank :=
  Pipeline.WinSpec.ofSpec (Memref.whole main_v67) S1x1.size reads8_2 true true 1 stage8_2 sem8_2 nbuf8_2 hstage8_2

abbrev spec8 : Fin 3 → Pipeline.WinSpec sig grid8.rank := fun | 0 => spec8_0 | 1 => spec8_1 | 2 => spec8_2 | ⟨_ + 3, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | ⟨_ + 3, h⟩ => absurd h (Nat.not_lt.2 (Nat.le_add_left _ _))
abbrev ix8 (pf : pre8.Contents (Elt F)) : (w : Fin 3) → grid8.Coords → Fin (spec8 w).shape.rank → Nat := fun | 0 => cc8_transform_0 k8_off1_inb numel1_S1 pf | 1 => cc8_transform_1 k8_off1_inb numel1_S1 pf | 2 => cc8_transform_2 | ⟨_ + 3, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 pf | 2 => hreads8_2 | ⟨_ + 3, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x96.size a ≤ S50000x1x96.size a), EltTy.bits .f32 = 32 ∨ (Rect.block (s := S50000x1x96) S1x1x96.size (cc8_transform_0 k8_off1_inb numel1_S1 pf i) h).WholeWords (EltTy.packing .f32)) ∧
  (∀ i : grid8.Coords, ∃ h : (∀ a, (cc8_transform_1 k8_off1_inb numel1_S1 pf i a + 1) * S1x1x96.size a ≤ S50000x1x96.size a), EltTy.bits .f32 = 32 ∨ (Rect.block (s := S50000x1x96) S1x1x96.size (cc8_transform_1 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok.1 i).elim fun h _ => h a | 1 => fun i a => (hok.2 i).elim fun h _ => h a | 2 => hinb8_2 | ⟨_ + 3, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok.1 i).elim fun _ h => h | 1 => fun i => (hok.2 i).elim fun _ h => h | 2 => hwx8_2 | ⟨_ + 3, h⟩ => absurd h (Nat.not_lt.2 (Nat.le_add_left _ _))
abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev spec9_0 : Pipeline.WinSpec sig grid9.rank :=
  Pipeline.WinSpec.ofSpec (Memref.whole main_v6) S1x1x96.size reads9_0 false false 2 stage9_0 sem9_0 nbuf9_0 hstage9_0

abbrev spec9_1 : Pipeline.WinSpec sig grid9.rank :=
  Pipeline.WinSpec.ofSpec (Memref.whole main_v6) S1x1x96.size reads9_1 false false 2 stage9_1 sem9_1 nbuf9_1 hstage9_1

abbrev spec9_2 : Pipeline.WinSpec sig grid9.rank :=
  Pipeline.WinSpec.ofSpec (Memref.whole main_v74) S1x1.size reads9_2 true true 1 stage9_2 sem9_2 nbuf9_2 hstage9_2

abbrev spec9 : Fin 3 → Pipeline.WinSpec sig grid9.rank := fun | 0 => spec9_0 | 1 => spec9_1 | 2 => spec9_2 | ⟨_ + 3, h⟩ => absurd h (Nat.not_lt.2 (Nat.le_add_left _ _))
theorem hcount9 : ∀ w, grid9.bufCount (spec9 w).reads (spec9 w).sync = (spec9 w).nbuf := fun | 0 => nbuf9_0 | 1 => nbuf9_1 | 2 => nbuf9_2 | ⟨_ + 3, h⟩ => absurd h (Nat.not_lt.2 (Nat.le_add_left _ _))
abbrev ix9 (pf : pre9.Contents (Elt F)) : (w : Fin 3) → grid9.Coords → Fin (spec9 w).shape.rank → Nat := fun | 0 => cc9_transform_0 k9_off1_inb numel1_S1 pf | 1 => cc9_transform_1 k9_off1_inb numel1_S1 pf | 2 => cc9_transform_2 | ⟨_ + 3, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 pf | 2 => hreads9_2 | ⟨_ + 3, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x96.size a ≤ S50000x1x96.size a), EltTy.bits .f32 = 32 ∨ (Rect.block (s := S50000x1x96) S1x1x96.size (cc9_transform_0 k9_off1_inb numel1_S1 pf i) h).WholeWords (EltTy.packing .f32)) ∧
  (∀ i : grid9.Coords, ∃ h : (∀ a, (cc9_transform_1 k9_off1_inb numel1_S1 pf i a + 1) * S1x1x96.size a ≤ S50000x1x96.size a), EltTy.bits .f32 = 32 ∨ (Rect.block (s := S50000x1x96) S1x1x96.size (cc9_transform_1 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok.1 i).elim fun h _ => h a | 1 => fun i a => (hok.2 i).elim fun h _ => h a | 2 => hinb9_2 | ⟨_ + 3, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok.1 i).elim fun _ h => h | 1 => fun i => (hok.2 i).elim fun _ h => h | 2 => hwx9_2 | ⟨_ + 3, h⟩ => absurd h (Nat.not_lt.2 (Nat.le_add_left _ _))
abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

abbrev spec10_0 : Pipeline.WinSpec sig grid10.rank :=
  Pipeline.WinSpec.ofSpec (Memref.whole main_v6) S1x1x96.size reads10_0 false false 2 stage10_0 sem10_0 nbuf10_0 hstage10_0

abbrev spec10_1 : Pipeline.WinSpec sig grid10.rank :=
  Pipeline.WinSpec.ofSpec (Memref.whole main_v6) S1x1x96.size reads10_1 false false 2 stage10_1 sem10_1 nbuf10_1 hstage10_1

abbrev spec10_2 : Pipeline.WinSpec sig grid10.rank :=
  Pipeline.WinSpec.ofSpec (Memref.whole main_v81) S1x1.size reads10_2 true true 1 stage10_2 sem10_2 nbuf10_2 hstage10_2

abbrev spec10 : Fin 3 → Pipeline.WinSpec sig grid10.rank := fun | 0 => spec10_0 | 1 => spec10_1 | 2 => spec10_2 | ⟨_ + 3, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | ⟨_ + 3, h⟩ => absurd h (Nat.not_lt.2 (Nat.le_add_left _ _))
abbrev ix10 (pf : pre10.Contents (Elt F)) : (w : Fin 3) → grid10.Coords → Fin (spec10 w).shape.rank → Nat := fun | 0 => cc10_transform_0 k10_off1_inb numel1_S1 pf | 1 => cc10_transform_1 k10_off1_inb numel1_S1 pf | 2 => cc10_transform_2 | ⟨_ + 3, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 pf | 2 => hreads10_2 | ⟨_ + 3, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x96.size a ≤ S50000x1x96.size a), EltTy.bits .f32 = 32 ∨ (Rect.block (s := S50000x1x96) S1x1x96.size (cc10_transform_0 k10_off1_inb numel1_S1 pf i) h).WholeWords (EltTy.packing .f32)) ∧
  (∀ i : grid10.Coords, ∃ h : (∀ a, (cc10_transform_1 k10_off1_inb numel1_S1 pf i a + 1) * S1x1x96.size a ≤ S50000x1x96.size a), EltTy.bits .f32 = 32 ∨ (Rect.block (s := S50000x1x96) S1x1x96.size (cc10_transform_1 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok.1 i).elim fun h _ => h a | 1 => fun i a => (hok.2 i).elim fun h _ => h a | 2 => hinb10_2 | ⟨_ + 3, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok.1 i).elim fun _ h => h | 1 => fun i => (hok.2 i).elim fun _ h => h | 2 => hwx10_2 | ⟨_ + 3, h⟩ => absurd h (Nat.not_lt.2 (Nat.le_add_left _ _))
abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev spec11_0 : Pipeline.WinSpec sig grid11.rank :=
  Pipeline.WinSpec.ofSpec (Memref.whole main_v6) S1x1x96.size reads11_0 false false 2 stage11_0 sem11_0 nbuf11_0 hstage11_0

abbrev spec11_1 : Pipeline.WinSpec sig grid11.rank :=
  Pipeline.WinSpec.ofSpec (Memref.whole main_v6) S1x1x96.size reads11_1 false false 2 stage11_1 sem11_1 nbuf11_1 hstage11_1

abbrev spec11_2 : Pipeline.WinSpec sig grid11.rank :=
  Pipeline.WinSpec.ofSpec (Memref.whole main_v88) S1x1.size reads11_2 true true 1 stage11_2 sem11_2 nbuf11_2 hstage11_2

abbrev spec11 : Fin 3 → Pipeline.WinSpec sig grid11.rank := fun | 0 => spec11_0 | 1 => spec11_1 | 2 => spec11_2 | ⟨_ + 3, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | ⟨_ + 3, h⟩ => absurd h (Nat.not_lt.2 (Nat.le_add_left _ _))
abbrev ix11 (pf : pre11.Contents (Elt F)) : (w : Fin 3) → grid11.Coords → Fin (spec11 w).shape.rank → Nat := fun | 0 => cc11_transform_0 k11_off1_inb numel1_S1 pf | 1 => cc11_transform_1 k11_off1_inb numel1_S1 pf | 2 => cc11_transform_2 | ⟨_ + 3, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 pf | 2 => hreads11_2 | ⟨_ + 3, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x1x96.size a ≤ S50000x1x96.size a), EltTy.bits .f32 = 32 ∨ (Rect.block (s := S50000x1x96) S1x1x96.size (cc11_transform_0 k11_off1_inb numel1_S1 pf i) h).WholeWords (EltTy.packing .f32)) ∧
  (∀ i : grid11.Coords, ∃ h : (∀ a, (cc11_transform_1 k11_off1_inb numel1_S1 pf i a + 1) * S1x1x96.size a ≤ S50000x1x96.size a), EltTy.bits .f32 = 32 ∨ (Rect.block (s := S50000x1x96) S1x1x96.size (cc11_transform_1 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok.1 i).elim fun h _ => h a | 1 => fun i a => (hok.2 i).elim fun h _ => h a | 2 => hinb11_2 | ⟨_ + 3, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok.1 i).elim fun _ h => h | 1 => fun i => (hok.2 i).elim fun _ h => h | 2 => hwx11_2 | ⟨_ + 3, h⟩ => absurd h (Nat.not_lt.2 (Nat.le_add_left _ _))
abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

abbrev spec12_0 : Pipeline.WinSpec sig grid12.rank :=
  Pipeline.WinSpec.ofSpec (Memref.whole main_v6) S1x1x96.size reads12_0 false false 2 stage12_0 sem12_0 nbuf12_0 hstage12_0

abbrev spec12_1 : Pipeline.WinSpec sig grid12.rank :=
  Pipeline.WinSpec.ofSpec (Memref.whole main_v6) S1x1x96.size reads12_1 false false 2 stage12_1 sem12_1 nbuf12_1 hstage12_1

abbrev spec12_2 : Pipeline.WinSpec sig grid12.rank :=
  Pipeline.WinSpec.ofSpec (Memref.whole main_v95) S1x1.size reads12_2 true true 1 stage12_2 sem12_2 nbuf12_2 hstage12_2

abbrev spec12 : Fin 3 → Pipeline.WinSpec sig grid12.rank := fun | 0 => spec12_0 | 1 => spec12_1 | 2 => spec12_2 | ⟨_ + 3, h⟩ => absurd h (Nat.not_lt.2 (Nat.le_add_left _ _))
theorem hcount12 : ∀ w, grid12.bufCount (spec12 w).reads (spec12 w).sync = (spec12 w).nbuf := fun | 0 => nbuf12_0 | 1 => nbuf12_1 | 2 => nbuf12_2 | ⟨_ + 3, h⟩ => absurd h (Nat.not_lt.2 (Nat.le_add_left _ _))
abbrev ix12 (pf : pre12.Contents (Elt F)) : (w : Fin 3) → grid12.Coords → Fin (spec12 w).shape.rank → Nat := fun | 0 => cc12_transform_0 k12_off1_inb numel1_S1 pf | 1 => cc12_transform_1 k12_off1_inb numel1_S1 pf | 2 => cc12_transform_2 | ⟨_ + 3, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 pf | 1 => hreads12_1 pf | 2 => hreads12_2 | ⟨_ + 3, h⟩ => absurd h (Nat.not_lt.2 (Nat.le_add_left _ _))
def ok12 (pf : pre12.Contents (Elt F)) : Prop :=
  (∀ i : grid12.Coords, ∃ h : (∀ a, (cc12_transform_0 k12_off1_inb numel1_S1 pf i a + 1) * S1x1x96.size a ≤ S50000x1x96.size a), EltTy.bits .f32 = 32 ∨ (Rect.block (s := S50000x1x96) S1x1x96.size (cc12_transform_0 k12_off1_inb numel1_S1 pf i) h).WholeWords (EltTy.packing .f32)) ∧
  (∀ i : grid12.Coords, ∃ h : (∀ a, (cc12_transform_1 k12_off1_inb numel1_S1 pf i a + 1) * S1x1x96.size a ≤ S50000x1x96.size a), EltTy.bits .f32 = 32 ∨ (Rect.block (s := S50000x1x96) S1x1x96.size (cc12_transform_1 k12_off1_inb numel1_S1 pf i) h).WholeWords (EltTy.packing .f32))
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun pf hok => fun | 0 => fun i a => (hok.1 i).elim fun h _ => h a | 1 => fun i a => (hok.2 i).elim fun h _ => h a | 2 => hinb12_2 | ⟨_ + 3, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun pf hok => fun | 0 => fun i => (hok.1 i).elim fun _ h => h | 1 => fun i => (hok.2 i).elim fun _ h => h | 2 => hwx12_2 | ⟨_ + 3, h⟩ => absurd h (Nat.not_lt.2 (Nat.le_add_left _ _))
abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev spec13_0 : Pipeline.WinSpec sig grid13.rank :=
  Pipeline.WinSpec.ofSpec (Memref.whole main_v6) S1x1x96.size reads13_0 false false 2 stage13_0 sem13_0 nbuf13_0 hstage13_0

abbrev spec13_1 : Pipeline.WinSpec sig grid13.rank :=
  Pipeline.WinSpec.ofSpec (Memref.whole main_v6) S1x1x96.size reads13_1 false false 2 stage13_1 sem13_1 nbuf13_1 hstage13_1

abbrev spec13_2 : Pipeline.WinSpec sig grid13.rank :=
  Pipeline.WinSpec.ofSpec (Memref.whole main_v102) S1x1.size reads13_2 true true 1 stage13_2 sem13_2 nbuf13_2 hstage13_2

abbrev spec13 : Fin 3 → Pipeline.WinSpec sig grid13.rank := fun | 0 => spec13_0 | 1 => spec13_1 | 2 => spec13_2 | ⟨_ + 3, h⟩ => absurd h (Nat.not_lt.2 (Nat.le_add_left _ _))
theorem hcount13 : ∀ w, grid13.bufCount (spec13 w).reads (spec13 w).sync = (spec13 w).nbuf := fun | 0 => nbuf13_0 | 1 => nbuf13_1 | 2 => nbuf13_2 | ⟨_ + 3, h⟩ => absurd h (Nat.not_lt.2 (Nat.le_add_left _ _))
abbrev ix13 (pf : pre13.Contents (Elt F)) : (w : Fin 3) → grid13.Coords → Fin (spec13 w).shape.rank → Nat := fun | 0 => cc13_transform_0 k13_off1_inb numel1_S1 pf | 1 => cc13_transform_1 k13_off1_inb numel1_S1 pf | 2 => cc13_transform_2 | ⟨_ + 3, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 pf | 1 => hreads13_1 pf | 2 => hreads13_2 | ⟨_ + 3, h⟩ => absurd h (Nat.not_lt.2 (Nat.le_add_left _ _))
def ok13 (pf : pre13.Contents (Elt F)) : Prop :=
  (∀ i : grid13.Coords, ∃ h : (∀ a, (cc13_transform_0 k13_off1_inb numel1_S1 pf i a + 1) * S1x1x96.size a ≤ S50000x1x96.size a), EltTy.bits .f32 = 32 ∨ (Rect.block (s := S50000x1x96) S1x1x96.size (cc13_transform_0 k13_off1_inb numel1_S1 pf i) h).WholeWords (EltTy.packing .f32)) ∧
  (∀ i : grid13.Coords, ∃ h : (∀ a, (cc13_transform_1 k13_off1_inb numel1_S1 pf i a + 1) * S1x1x96.size a ≤ S50000x1x96.size a), EltTy.bits .f32 = 32 ∨ (Rect.block (s := S50000x1x96) S1x1x96.size (cc13_transform_1 k13_off1_inb numel1_S1 pf i) h).WholeWords (EltTy.packing .f32))
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun pf hok => fun | 0 => fun i a => (hok.1 i).elim fun h _ => h a | 1 => fun i a => (hok.2 i).elim fun h _ => h a | 2 => hinb13_2 | ⟨_ + 3, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun pf hok => fun | 0 => fun i => (hok.1 i).elim fun _ h => h | 1 => fun i => (hok.2 i).elim fun _ h => h | 2 => hwx13_2 | ⟨_ + 3, h⟩ => absurd h (Nat.not_lt.2 (Nat.le_add_left _ _))
abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

abbrev spec14_0 : Pipeline.WinSpec sig grid14.rank :=
  Pipeline.WinSpec.ofSpec (Memref.whole main_v6) S1x1x96.size reads14_0 false false 2 stage14_0 sem14_0 nbuf14_0 hstage14_0

abbrev spec14_1 : Pipeline.WinSpec sig grid14.rank :=
  Pipeline.WinSpec.ofSpec (Memref.whole main_v6) S1x1x96.size reads14_1 false false 2 stage14_1 sem14_1 nbuf14_1 hstage14_1

abbrev spec14_2 : Pipeline.WinSpec sig grid14.rank :=
  Pipeline.WinSpec.ofSpec (Memref.whole main_v109) S1x1.size reads14_2 true true 1 stage14_2 sem14_2 nbuf14_2 hstage14_2

abbrev spec14 : Fin 3 → Pipeline.WinSpec sig grid14.rank := fun | 0 => spec14_0 | 1 => spec14_1 | 2 => spec14_2 | ⟨_ + 3, h⟩ => absurd h (Nat.not_lt.2 (Nat.le_add_left _ _))
theorem hcount14 : ∀ w, grid14.bufCount (spec14 w).reads (spec14 w).sync = (spec14 w).nbuf := fun | 0 => nbuf14_0 | 1 => nbuf14_1 | 2 => nbuf14_2 | ⟨_ + 3, h⟩ => absurd h (Nat.not_lt.2 (Nat.le_add_left _ _))
abbrev ix14 (pf : pre14.Contents (Elt F)) : (w : Fin 3) → grid14.Coords → Fin (spec14 w).shape.rank → Nat := fun | 0 => cc14_transform_0 k14_off1_inb numel1_S1 pf | 1 => cc14_transform_1 k14_off1_inb numel1_S1 pf | 2 => cc14_transform_2 | ⟨_ + 3, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 pf | 1 => hreads14_1 pf | 2 => hreads14_2 | ⟨_ + 3, h⟩ => absurd h (Nat.not_lt.2 (Nat.le_add_left _ _))
def ok14 (pf : pre14.Contents (Elt F)) : Prop :=
  (∀ i : grid14.Coords, ∃ h : (∀ a, (cc14_transform_0 k14_off1_inb numel1_S1 pf i a + 1) * S1x1x96.size a ≤ S50000x1x96.size a), EltTy.bits .f32 = 32 ∨ (Rect.block (s := S50000x1x96) S1x1x96.size (cc14_transform_0 k14_off1_inb numel1_S1 pf i) h).WholeWords (EltTy.packing .f32)) ∧
  (∀ i : grid14.Coords, ∃ h : (∀ a, (cc14_transform_1 k14_off1_inb numel1_S1 pf i a + 1) * S1x1x96.size a ≤ S50000x1x96.size a), EltTy.bits .f32 = 32 ∨ (Rect.block (s := S50000x1x96) S1x1x96.size (cc14_transform_1 k14_off1_inb numel1_S1 pf i) h).WholeWords (EltTy.packing .f32))
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun pf hok => fun | 0 => fun i a => (hok.1 i).elim fun h _ => h a | 1 => fun i a => (hok.2 i).elim fun h _ => h a | 2 => hinb14_2 | ⟨_ + 3, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun pf hok => fun | 0 => fun i => (hok.1 i).elim fun _ h => h | 1 => fun i => (hok.2 i).elim fun _ h => h | 2 => hwx14_2 | ⟨_ + 3, h⟩ => absurd h (Nat.not_lt.2 (Nat.le_add_left _ _))
abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

abbrev spec15_0 : Pipeline.WinSpec sig grid15.rank :=
  Pipeline.WinSpec.ofSpec (Memref.whole main_v6) S1x1x96.size reads15_0 false false 2 stage15_0 sem15_0 nbuf15_0 hstage15_0

abbrev spec15_1 : Pipeline.WinSpec sig grid15.rank :=
  Pipeline.WinSpec.ofSpec (Memref.whole main_v6) S1x1x96.size reads15_1 false false 2 stage15_1 sem15_1 nbuf15_1 hstage15_1

abbrev spec15_2 : Pipeline.WinSpec sig grid15.rank :=
  Pipeline.WinSpec.ofSpec (Memref.whole main_v116) S1x1.size reads15_2 true true 1 stage15_2 sem15_2 nbuf15_2 hstage15_2

abbrev spec15 : Fin 3 → Pipeline.WinSpec sig grid15.rank := fun | 0 => spec15_0 | 1 => spec15_1 | 2 => spec15_2 | ⟨_ + 3, h⟩ => absurd h (Nat.not_lt.2 (Nat.le_add_left _ _))
theorem hcount15 : ∀ w, grid15.bufCount (spec15 w).reads (spec15 w).sync = (spec15 w).nbuf := fun | 0 => nbuf15_0 | 1 => nbuf15_1 | 2 => nbuf15_2 | ⟨_ + 3, h⟩ => absurd h (Nat.not_lt.2 (Nat.le_add_left _ _))
abbrev ix15 (pf : pre15.Contents (Elt F)) : (w : Fin 3) → grid15.Coords → Fin (spec15 w).shape.rank → Nat := fun | 0 => cc15_transform_0 k15_off1_inb numel1_S1 pf | 1 => cc15_transform_1 k15_off1_inb numel1_S1 pf | 2 => cc15_transform_2 | ⟨_ + 3, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 pf | 1 => hreads15_1 pf | 2 => hreads15_2 | ⟨_ + 3, h⟩ => absurd h (Nat.not_lt.2 (Nat.le_add_left _ _))
def ok15 (pf : pre15.Contents (Elt F)) : Prop :=
  (∀ i : grid15.Coords, ∃ h : (∀ a, (cc15_transform_0 k15_off1_inb numel1_S1 pf i a + 1) * S1x1x96.size a ≤ S50000x1x96.size a), EltTy.bits .f32 = 32 ∨ (Rect.block (s := S50000x1x96) S1x1x96.size (cc15_transform_0 k15_off1_inb numel1_S1 pf i) h).WholeWords (EltTy.packing .f32)) ∧
  (∀ i : grid15.Coords, ∃ h : (∀ a, (cc15_transform_1 k15_off1_inb numel1_S1 pf i a + 1) * S1x1x96.size a ≤ S50000x1x96.size a), EltTy.bits .f32 = 32 ∨ (Rect.block (s := S50000x1x96) S1x1x96.size (cc15_transform_1 k15_off1_inb numel1_S1 pf i) h).WholeWords (EltTy.packing .f32))
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun pf hok => fun | 0 => fun i a => (hok.1 i).elim fun h _ => h a | 1 => fun i a => (hok.2 i).elim fun h _ => h a | 2 => hinb15_2 | ⟨_ + 3, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun pf hok => fun | 0 => fun i => (hok.1 i).elim fun _ h => h | 1 => fun i => (hok.2 i).elim fun _ h => h | 2 => hwx15_2 | ⟨_ + 3, h⟩ => absurd h (Nat.not_lt.2 (Nat.le_add_left _ _))
abbrev idle15 : Fin 3 → grid15.Coords → Bool := fun | 0 => fun _ => false | 1 => fun _ => false | 2 => fun i => !(k15_cond2 i == 1#1) | ⟨_ + 3, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole

variable [Facts]
-- ==== ReferenceIdeal.lean ====
abbrev S50000x96 : Shape := ⟨2, ![50000, 96]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩

abbrev nBuf : Space → Nat
  | .hbm => 35
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S1x800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x96, .f32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S_, .f32⟩
  | .hbm, ⟨27, _⟩ => ⟨S800000, .f32⟩
  | .hbm, ⟨28, _⟩ => ⟨S800000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  reducesTo_S800000x96_S800000_d1 : S800000x96.ReducesTo [1] S800000
  h_S_ : 0 < S_.numel
  reducesTo_S800000_S_d0 : S800000.ReducesTo [0] S_
  gather_S50000x96_S800000x1_S800000x96_1_0_n_n_0_1_196_wf : GatherDims.WF S50000x96 S800000x1 S800000x96 [1] [0] [] [0] [] 1 ![1, 96]

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf

class Facts : Prop extends Facts₀ where

variable [Facts]
-- ==== Proof.PreRange.lean ====
import proofs.«418705_j10376640987952_2_alg».proof.Pre_finite_inputs
import Idealize.ShloMosaic.Lib.ReduceAll
import Idealize.ShloMosaic.Lib.StableHlo.Predicate
import Idealize.ShloMosaic.Lib.IdealHost

/-!
  The range half of the precondition, read back.  The precondition is the conjunction of two
  `jnp.all`s; its second conjunct says that every word of the edge list is, as a signed 32-bit
  word, at least 0 and below 50000.  A word that is non-negative as a signed word reads the same
  signed and unsigned, so its unsigned value is below 50000.
-/

namespace Cert.PreRange

open Idealize.ShloMosaic

/-- The scalar shape has exactly one index. -/
instance : Subsingleton Cert.Pre_finite_inputs.S_.Idx := ⟨fun a b => funext fun d => d.elim0⟩

/-- A 32-bit word whose signed value lies in [0, 50000) has unsigned value below 50000: the signed
    value of a word is its unsigned value when that is below 2³¹, and is negative otherwise. -/
theorem toNat_lt_of_signed_range (w : BitVec 32) (h0 : (0#32 : BitVec 32).toInt ≤ w.toInt)
    (h1 : w.toInt < (50000#32 : BitVec 32).toInt) : w.toNat < 50000 := by
  have e0 : (0#32 : BitVec 32).toInt = 0 := by decide
  have e1 : (50000#32 : BitVec 32).toInt = 50000 := by decide
  rw [e0] at h0
  rw [e1] at h1
  rw [BitVec.toInt_eq_toNat_cond] at h0 h1
  have hw := w.isLt
  split at h0 <;> omega

/-- If the printed precondition holds (its one result bit is 1), every word of the edge list has
    unsigned value below 50000. -/
theorem range_of_pre {F : FTy → Type} [FloatOps F] [Cert.Pre_finite_inputs.Facts]
    (x : FVec F Cert.Pre_finite_inputs.S50000x96 .f32) (e : IVec Cert.Pre_finite_inputs.S2x800000 32)
    (h : Cert.Pre_finite_inputs.fn (F := F) x e = fun _ => 1#1) :
    ∀ i : Cert.Pre_finite_inputs.S2x800000.Idx, (e i).toNat < 50000 := by
  intro i
  -- the one result bit
  have h0 := congrFun h ValueIdx.ix0
  dsimp only [Cert.Pre_finite_inputs.fn] at h0
  -- the final conjunction: keep its second conjunct, the all-reduction over the edge list
  have h1 := (IntOp.andi_eq_one.1 h0).2
  -- an all-reduction that is 1 had a 1 at every element
  have h2 := Host.reduce_andi_all _ _ _ _ _ h1 i
  -- the element is the conjunction of the two signed comparisons against broadcast literals
  obtain ⟨hge, hlt⟩ := IntOp.andi_eq_one.1 h2
  have hge' := IntOp.cmpi_sge.1 hge
  have hlt' := IntOp.cmpi_slt.1 hlt
  rw [ValueIdx.broadcastInDim_scalar_apply] at hge' hlt'
  exact toNat_lt_of_signed_range (e i) hge' hlt'

end Cert.PreRange
-- ==== Proof.Spec.lean ====
/-
  The common specification of the two programs at the ideal (extended-real) reading of floats.

  A graph has 50000 nodes, each with 96 real features (the array `x`), and 800000 edges given as two rows of
  32-bit words (the array `e`: row 0 the sources, row 1 the destinations). The loss is the mean over the edges
  of the Euclidean distance between the two endpoint feature rows, times the weight 1.0:

      loss x e = 1.0 * ((∑ k, √(∑ j, (x[src k, j] - x[dst k, j])²)) / 800000).

  Every operation is the extended reals' (sum, difference, product, the ideal square root and the ideal
  quotient); the two literals stay the bit patterns both programs print for them.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The node features: 50000 rows of 96. -/
abbrev S50000x96 : Shape := ⟨2, ![50000, 96]⟩
/-- The edge list: a row of sources and a row of destinations, 800000 each. -/
abbrev S2x800000 : Shape := ⟨2, ![2, 800000]⟩

/-- The node a word names. On a word below 50000 (the only ones the claim speaks of) this is the word's value;
    the remainder only makes the function total. -/
def row (w : BitVec 32) : Fin 50000 := ⟨w.toNat % 50000, Nat.mod_lt _ (by decide)⟩

/-- On a word below 50000 the node is the word's value. -/
theorem row_val_of_lt {w : BitVec 32} (h : w.toNat < 50000) : (row w).val = w.toNat := Nat.mod_eq_of_lt h

/-- The Euclidean distance between the feature rows of nodes `s` and `d`: the square root of the sum over the
    96 features of the squared differences. -/
def dist (x : FVec Ideal S50000x96 .f32) (s d : Fin 50000) : EReal :=
  Ideal.sqrt (∑ j : Fin 96, (x (ix2 s j) - x (ix2 d j)) * (x (ix2 s j) - x (ix2 d j)))

/-- The sum over the 800000 edges of the distance between each edge's endpoints. -/
def total (x : FVec Ideal S50000x96 .f32) (e : IVec S2x800000 32) : EReal :=
  ∑ k : Fin 800000, dist x (row (e (ix2 0 k))) (row (e (ix2 1 k)))

/-- From the sum to the loss: divide by 800000 (the pattern `0x49435000`) and multiply 1.0 (the pattern
    `0x3F800000`) by the quotient. -/
def finish (t : EReal) : EReal :=
  Ideal.ofBits .f32 0x3F800000#32 * Ideal.div t (Ideal.ofBits .f32 0x49435000#32)

/-- The loss. -/
def loss (x : FVec Ideal S50000x96 .f32) (e : IVec S2x800000 32) : EReal := finish (total x e)

/-- The last two operations of either program — the scalar divided by the splat of 800000, then the splat of 1.0
    times that — are `finish` of the scalar's one element. -/
theorem finish_eq (t : FVec Ideal (⟨0, ![]⟩ : Shape) .f32) :
    mulf (constant (F := Ideal) (⟨0, ![]⟩ : Shape) .f32 0x3F800000#32)
        (Host.divf t (constant (F := Ideal) (⟨0, ![]⟩ : Shape) .f32 0x49435000#32))
      = fun _ => finish (t ix0) := by
  funext i
  rw [eq_ix0 i]
  rfl

end Cert.Spec

end
-- ==== Proof.RefValue.lean ====
import proofs.«418705_j10376640987952_2_alg».proof.Proof.Gen.ReferenceIdeal.Run
import proofs.«418705_j10376640987952_2_alg».proof.Proof.Gen.ReferenceIdeal.Read
import proofs.«418705_j10376640987952_2_alg».proof.Proof.Spec
import Idealize.ShloMosaic.Lib.ValueIdx
import Idealize.ShloMosaic.Lib.StableHlo.Predicate

/-!
  The reference program computes the specification's loss.

  Its 33 host operations are read one at a time, at an index. The only stages whose reading depends on the
  values of an operand are the two row gathers: each reads row `clamp (signed start index)` of the feature
  table, the start index being the edge word after the wrap of negative indices (`w < 0 ? w + 50000 : w`).
  Under the hypothesis that every edge word is below 50000 the signed comparison with zero is false, the wrap
  is the identity, the signed reading of the word is its value and the clamp into `[0, 49999]` does nothing:
  the gathered row is the row the word names. The feature sum is then a sum over `Fin 96`, the edge sum a sum
  over `Fin 800000`, and the last two operations are the specification's `finish`.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable [Cert.ReferenceIdeal.Facts]

/-! ## A rank-1 index set is its one coordinate range -/

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) :=
  Fintype.sum_equiv idxEquiv1 _ _ fun i => congrArg f (eq_ix1 i)

/-! ## The row gather read at an index

Operand `[50000, 96]`, start indices `[800000, 1]`, result `[800000, 96]`: axis 0 of the operand is collapsed and
start-indexed, axis 1 is the one offset axis. Result element `(p, j)` is the operand at row "start index `p`, read
signed and clamped into `[0, 49999]`" and column `j`. -/

section Gather
variable {α : Type} {w : Nat}

/-- The row coordinate of the operand index: the clamped start index. -/
theorem gather_axis0 (idx : IVec S800000x1 w) (y : S800000x96.Idx) :
    ((gather_S50000x96_S800000x1_S800000x96_1_0_n_n_0_1_196.operandIdx y idx) 0).val
      = min (idx (ix2 (y 0) 0)).toInt.toNat 49999 := by
  show gather_S50000x96_S800000x1_S800000x96_1_0_n_n_0_1_196.start y idx 0
      + gather_S50000x96_S800000x1_S800000x96_1_0_n_n_0_1_196.batchCoord y 0
      + gather_S50000x96_S800000x1_S800000x96_1_0_n_n_0_1_196.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S50000x96_S800000x1_S800000x96_1_0_n_n_0_1_196.startIndexMap from
    List.mem_singleton.mpr rfl)]
  have hsi : gather_S50000x96_S800000x1_S800000x96_1_0_n_n_0_1_196.siIdx y
      ⟨List.idxOf (0 : Fin 2) gather_S50000x96_S800000x1_S800000x96_1_0_n_n_0_1_196.startIndexMap,
        List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The column coordinate of the operand index: the result's column. -/
theorem gather_axis1 (idx : IVec S800000x1 w) (y : S800000x96.Idx) :
    ((gather_S50000x96_S800000x1_S800000x96_1_0_n_n_0_1_196.operandIdx y idx) 1).val = (y 1).val := by
  show gather_S50000x96_S800000x1_S800000x96_1_0_n_n_0_1_196.start y idx 1
      + gather_S50000x96_S800000x1_S800000x96_1_0_n_n_0_1_196.batchCoord y 1
      + gather_S50000x96_S800000x1_S800000x96_1_0_n_n_0_1_196.offCoord y 1 = _
  rw [GatherDims.batchCoord_eq_zero _ _ _ List.not_mem_nil]
  unfold GatherDims.start
  rw [dif_neg (show ¬ (1 : Fin 2) ∈ gather_S50000x96_S800000x1_S800000x96_1_0_n_n_0_1_196.startIndexMap by decide)]
  simp only [Nat.add_zero, Nat.zero_add]
  rfl

/-- The gather at `(p, j)` whose start index `p` is a word below 50000: row "that word", column `j`. -/
theorem gather_row (x : S50000x96.Idx → α) (idx : IVec S800000x1 32) (p : Fin 800000) (j : Fin 96) (v : BitVec 32)
    (hv : idx (ix2 p 0) = v) (hlt : v.toNat < 50000) :
    Host.gather gather_S50000x96_S800000x1_S800000x96_1_0_n_n_0_1_196 x idx (ix2 p j) = x (ix2 (Cert.Spec.row v) j) := by
  unfold Host.gather
  refine congrArg x (funext fun a => Fin.ext ?_)
  match a with
  | ⟨0, _⟩ =>
    refine (gather_axis0 idx (ix2 p j)).trans ?_
    show min (idx (ix2 p 0)).toInt.toNat 49999 = (Cert.Spec.row v).val
    rw [hv, Cert.Spec.row_val_of_lt hlt, Predicate.toInt_eq_toNat_of_lt (by omega), Int.toNat_natCast]
    exact Nat.min_eq_left (by omega)
  | ⟨1, _⟩ => exact gather_axis1 idx (ix2 p j)

end Gather

/-! ## The start indices: an edge word below 50000 passes the wrap unchanged -/

/-- The wrap of a word below 50000: the signed comparison with zero is false, so the select keeps the word. -/
theorem wrap_id (v : BitVec 32) (hlt : v.toNat < 50000) (u : BitVec 32) :
    Scalar.select (IntOp.cmpi .slt v 0#32) u v = v := by
  have h0 : IntOp.cmpi .slt v 0#32 = 0#1 :=
    eq_zero_of_ne_one fun h => by
      have := (Predicate.slt_iff_toNat (a := v) (b := 0#32) (by omega) (by decide)).mp h
      simp at this
  rw [h0, select_zero]

variable (e : IVec S2x800000 32)

/-- Row 0 of the edge list as a flat vector, at `p`. -/
theorem src_word (p : Fin 800000) : val_main_v1 (F := Ideal) e (ix1 p) = e (ix2 0 p) := by
  rw [val_main_v1_apply, val_main_v0_apply]
  refine congrArg e (funext fun a => Fin.ext ?_)
  match a with
  | ⟨0, _⟩ => rfl
  | ⟨1, _⟩ => exact Nat.mod_eq_of_lt p.isLt

/-- Row 1 of the edge list as a flat vector, at `p`. -/
theorem dst_word (p : Fin 800000) : val_main_v10 (F := Ideal) e (ix1 p) = e (ix2 1 p) := by
  rw [val_main_v10_apply, val_main_v9_apply]
  refine congrArg e (funext fun a => Fin.ext ?_)
  match a with
  | ⟨0, _⟩ => rfl
  | ⟨1, _⟩ => exact Nat.mod_eq_of_lt p.isLt

/-- The first gather's start index `p` is the source word of edge `p`. -/
theorem src_start (hr : ∀ i, (e i).toNat < 50000) (p : Fin 800000) :
    val_main_v7 (F := Ideal) e (ix2 p 0) = e (ix2 0 p) := by
  have hi : idx_main_v7 (ix2 p (0 : Fin 1)) = ix1 p := funext fun a => Fin.ext (by match a with | ⟨0, _⟩ => rfl)
  rw [val_main_v7_apply, hi, val_main_v6_apply, val_main_v3_apply, val_main_v2_apply, val_main_c_apply, src_word]
  exact wrap_id _ (hr _) _

/-- The second gather's start index `p` is the destination word of edge `p`. -/
theorem dst_start (hr : ∀ i, (e i).toNat < 50000) (p : Fin 800000) :
    val_main_v16 (F := Ideal) e (ix2 p 0) = e (ix2 1 p) := by
  have hi : idx_main_v16 (ix2 p (0 : Fin 1)) = ix1 p := funext fun a => Fin.ext (by match a with | ⟨0, _⟩ => rfl)
  rw [val_main_v16_apply, hi, val_main_v15_apply, val_main_v12_apply, val_main_v11_apply, val_main_c_1_apply, dst_word]
  exact wrap_id _ (hr _) _

/-! ## The stages after the gathers -/

variable (x : FVec Ideal S50000x96 .f32)

/-- The per-edge stage: the square root of the feature sum is the distance between the two endpoint rows. -/
theorem edge_dist (hr : ∀ i, (e i).toNat < 50000) (p : Fin 800000) :
    val_main_v21 (F := Ideal) x e (ix1 p)
      = Cert.Spec.dist x (Cert.Spec.row (e (ix2 0 p))) (Cert.Spec.row (e (ix2 1 p))) := by
  rw [val_main_v21_apply, val_main_v20_apply, val_main_cst_apply, Ideal.hostUnary_sqrt_def, Ideal.ofBits_def,
    Ideal.ofBits_zero_f32, zero_add]
  unfold Cert.Spec.dist
  refine congrArg Ideal.sqrt (Finset.sum_congr rfl fun j _ => ?_)
  have hi : idx_main_v20 (ix1 p) j = ix2 p j :=
    funext fun a => Fin.ext (by match a with | ⟨0, _⟩ => rfl | ⟨1, _⟩ => rfl)
  have h8 : val_main_v8 (F := Ideal) x e (ix2 p j) = x (ix2 (Cert.Spec.row (e (ix2 0 p))) j) :=
    gather_row x (val_main_v7 (F := Ideal) e) p j _ (src_start e hr p) (hr _)
  have h17 : val_main_v17 (F := Ideal) x e (ix2 p j) = x (ix2 (Cert.Spec.row (e (ix2 1 p))) j) :=
    gather_row x (val_main_v16 (F := Ideal) e) p j _ (dst_start e hr p) (hr _)
  rw [hi, val_main_v19_apply, val_main_v18_apply, h8, h17]
  rfl

/-- The sum over the edges is the specification's total. -/
theorem edge_total (hr : ∀ i, (e i).toNat < 50000) (i : S_.Idx) :
    val_main_v22 (F := Ideal) x e i = Cert.Spec.total x e := by
  rw [val_main_v22_apply, val_main_cst_3_apply, Ideal.ofBits_def, Ideal.ofBits_zero_f32, zero_add, sum_idx1]
  exact Finset.sum_congr rfl fun k _ => edge_dist e x hr k

/-- The reference's result, stage by stage, is the specification's loss. -/
theorem ref_loss_val (hr : ∀ i, (e i).toNat < 50000) :
    val_main_v24 (F := Ideal) x e = fun _ => Cert.Spec.loss x e := by
  have h : val_main_v24 (F := Ideal) x e
      = mulf (constant (F := Ideal) (⟨0, ![]⟩ : Shape) .f32 0x3F800000#32)
          (Host.divf (val_main_v22 (F := Ideal) x e) (constant (F := Ideal) (⟨0, ![]⟩ : Shape) .f32 0x49435000#32)) := rfl
  rw [h, Cert.Spec.finish_eq, edge_total e x hr]
  rfl

/-- The result term the generated run states for `main_v24`, of the two argument arrays, is the loss. -/
theorem ref_loss (x : FVec Ideal S50000x96 .f32) (e : IVec S2x800000 32) (hr : ∀ i, (e i).toNat < 50000) :
    mulf (F := Ideal) (constant (F := Ideal) S_ .f32 0x3F800000#32) (Host.divf (F := Ideal) (Host.reduceAdd (F := Ideal) (Host.sqrt (F := Ideal) (Host.reduceAdd (F := Ideal) (mulf (F := Ideal) (subf (F := Ideal) (Host.gather gather_S50000x96_S800000x1_S800000x96_1_0_n_n_0_1_196 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))) (Host.gather gather_S50000x96_S800000x1_S800000x96_1_0_n_n_0_1_196 x (broadcastInDim S800000x1 ![0] bcast_S800000_S800000x1_0 (select (cmpi .slt (shapeCast _ (extractStridedSlice S1x800000 ![1, 0] e slices_S2x800000_S1x800000_1_0) shapeCasts_S1x800000_S800000) (broadcastInDim S800000 ![] bcast_S_S800000 (constantI S_ 32 0#32))) (addi (shapeCast _ (extractStridedSlice S1x800000 ![1, 0] e slices_S2x800000_S1x800000_1_0) shapeCasts_S1x800000_S800000) (broadcastInDim S800000 ![] bcast_S_S800000 (constantI S_ 32 50000#32))) (shapeCast _ (extractStridedSlice S1x800000 ![1, 0] e slices_S2x800000_S1x800000_1_0) shapeCasts_S1x800000_S800000))))) (subf (F := Ideal) (Host.gather gather_S50000x96_S800000x1_S800000x96_1_0_n_n_0_1_196 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))) (Host.gather gather_S50000x96_S800000x1_S800000x96_1_0_n_n_0_1_196 x (broadcastInDim S800000x1 ![0] bcast_S800000_S800000x1_0 (select (cmpi .slt (shapeCast _ (extractStridedSlice S1x800000 ![1, 0] e slices_S2x800000_S1x800000_1_0) shapeCasts_S1x800000_S800000) (broadcastInDim S800000 ![] bcast_S_S800000 (constantI S_ 32 0#32))) (addi (shapeCast _ (extractStridedSlice S1x800000 ![1, 0] e slices_S2x800000_S1x800000_1_0) shapeCasts_S1x800000_S800000) (broadcastInDim S800000 ![] bcast_S_S800000 (constantI S_ 32 50000#32))) (shapeCast _ (extractStridedSlice S1x800000 ![1, 0] e slices_S2x800000_S1x800000_1_0) shapeCasts_S1x800000_S800000)))))) (constant (F := Ideal) S_ .f32 0x00000000#32) reducesTo_S800000x96_S800000_d1 h_S_)) (constant (F := Ideal) S_ .f32 0x00000000#32) reducesTo_S800000_S_d0 h_S_) (constant (F := Ideal) S_ .f32 0x49435000#32))
      = fun _ => Cert.Spec.loss x e :=
  (val_main_v24_eq (F := Ideal) x e).trans (ref_loss_val e x hr)

/-! ## The run -/

/-- Every weakly fair execution of the reference terminates with the result at the loss of the two argument
    arrays, and the arguments unchanged. -/
theorem run_loss (m' : (ℓ : Loc nD τ sig) → Buf (Elt Ideal) ℓ) (ρ' : Dev nD → PrngReg)
    (hr : ∀ (c : Dev nD) i, (m' ((c.tc : Thread nD τ).loc main_arg1) i).toNat < 50000) :
    θ_run (defs (F := Ideal)) (onTc (τ := τ) (main (F := Ideal))) ⟨m', fun _ => 0, ρ'⟩ (fun r => ∀ c : Dev nD,
      r.2.mem ((c.tc : Thread nD τ).loc main_v24)
          = (fun _ => Cert.Spec.loss (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c => ⟨(h c).1.trans (ref_loss _ _ (hr c)), (h c).2⟩)
    (Cert.ReferenceIdeal.Value.run (F := Ideal) m' ρ')

/-- The reference runs and leaves its arguments unchanged, from any memory. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (Cert.ReferenceIdeal.Value.run (F := Ideal) m ρ)

end Cert.ReferenceIdeal.RefValue

end
-- ==== Proof.K.Tables.lean ====
/-
The contents of the sixteen regions' prefetched tables, and of the array their gathered windows read, as functions of
the launch contents only.

The program cuts each row of the edge list (row 0: source nodes, row 1: destination nodes; 800000 edges) into 16 chunks of
50000 edges; region K's two tables are chunk K of the two rows, flattened, and windows 0 and 1 of every region read the
node features reshaped to [50000, 1, 96]. No region writes any of these arrays, so each region is entered with them as the
first host stretch left them; what the later stretches add is one slice and one reshape per table.

Laid out from the template: the per-item lemmas "V<J>_main_v4 / _v5 / _v6" (items 2 to 31, one text) and the sections
"Region 1" to "Region 15" (one text, region 1's, with the region number, its two table buffers, its valuations, its host
stretch and its slice fact substituted). Everything before them and the section "Region 0" is the template's own text,
copied unchanged.
-/
import proofs.«418705_j10376640987952_2_alg».proof.Proof.K.FrameCond
import Idealize.ShloMosaic.Lib.StableHlo.Run
import Idealize.ShloMosaic.Lib.Pipeline.Value
import Idealize.ShloMosaic.Lib.ValueIdx

set_option maxRecDepth 1400

noncomputable section

namespace Cert.Kernel.Tables

open Cert.Kernel Cert.Kernel.Gen Cert.Kernel.GenP
open Idealize.ShloMosaic Idealize.ShloMosaic.TcCoe

variable {F : FTy → Type} [FloatOps F]
variable (m : (ℓ : Loc nD τ sig) → Buf (Elt F) ℓ)

/-- The one device. -/
abbrev c0 : Dev nD := 0

theorem dev_eq (c : Dev nD) : c = c0 := Subsingleton.elim _ _

/-- The edge list as launched: row 0 the source nodes, row 1 the destination nodes. -/
abbrev edges : (⟨S2x800000, .i32⟩ : BufTy).Contents (Elt F) := m ((c0 : Thread nD τ).loc main_arg1)

/-- Row `k` of the edge list: 800000 node numbers. -/
def rowOf (k : Fin 2) : (⟨S1x800000, .i32⟩ : BufTy).Contents (Elt F) :=
  match k with
  | 0 => extractStridedSlice S1x800000 ![0, 0] (edges m) slices_S2x800000_S1x800000_0_0
  | 1 => extractStridedSlice S1x800000 ![1, 0] (edges m) slices_S2x800000_S1x800000_1_0

/-- Row `k` of the edge list cut into 16 chunks of 50000 edges. -/
def chunks (k : Fin 2) : (⟨S16x50000, .i32⟩ : BufTy).Contents (Elt F) :=
  shapeCast S16x50000 (shapeCast S800000 (rowOf m k) shapeCasts_S1x800000_S800000) shapeCasts_S800000_S16x50000

/-- Chunk `off 0` of a 16-chunk array, as a flat table of 50000 words. -/
def chunk (x : (⟨S16x50000, .i32⟩ : BufTy).Contents (Elt F)) (off : Fin 2 → Nat) (h : S16x50000.Slices off S1x50000) :
    (⟨S50000, .i32⟩ : BufTy).Contents (Elt F) :=
  shapeCast S50000 (extractStridedSlice S1x50000 off x h) shapeCasts_S1x50000_S50000

/-- The node features as launched. -/
abbrev nodes : (⟨S50000x96, .f32⟩ : BufTy).Contents (Elt F) := m ((c0 : Thread nD τ).loc main_arg0)

/-- The node features with a unit axis added. -/
def feat : (⟨S50000x1x96, .f32⟩ : BufTy).Contents (Elt F) :=
  shapeCast S50000x1x96 (nodes m) shapeCasts_S50000x96_S50000x1x96

/-! ## Reading the layout operations at an index -/

section Reads
variable {α : Type} {s t : Shape}

/-- What holds of every entry of an array holds of every entry of a reshape of it. -/
theorem shapeCast_all (P : α → Prop) (x : s.Idx → α) (h : s.ShapeCasts t) (hx : ∀ i, P (x i)) (j : t.Idx) :
    P (shapeCast t x h j) := hx _

/-- What holds of every entry of an array holds of every entry of a slice of it. -/
theorem slice_all (P : α → Prop) (off : Fin s.rank → Nat) (x : s.Idx → α) (h : s.Slices off t) (hx : ∀ i, P (x i)) (j : t.Idx) :
    P (extractStridedSlice t off x h j) := hx _

end Reads

theorem rowOf_apply (k : Fin 2) (j : Fin 800000) : rowOf m k (ValueIdx.ix2 (0 : Fin 1) j) = edges m (ValueIdx.ix2 k j) := by
  match k with
  | 0 =>
    show extractStridedSlice S1x800000 ![0, 0] (edges m) slices_S2x800000_S1x800000_0_0 _ = _
    refine extractStridedSlice_apply _ _ _ _ _ fun a => ?_
    match a with
    | ⟨0, _⟩ => rfl
    | ⟨1, _⟩ => show j.val = 0 + j.val; omega
  | 1 =>
    show extractStridedSlice S1x800000 ![1, 0] (edges m) slices_S2x800000_S1x800000_1_0 _ = _
    refine extractStridedSlice_apply _ _ _ _ _ fun a => ?_
    match a with
    | ⟨0, _⟩ => rfl
    | ⟨1, _⟩ => show j.val = 0 + j.val; omega

theorem chunks_apply (k : Fin 2) (r : Fin 16) (i : Fin 50000) :
    chunks m k (ValueIdx.ix2 r i) = edges m (ValueIdx.ix2 k ⟨r.val * 50000 + i.val, by omega⟩) := by
  unfold chunks
  refine (shapeCast_apply _ _ (ValueIdx.ix2 r i) (ValueIdx.ix1 (⟨r.val * 50000 + i.val, by omega⟩ : Fin 800000)) ?_).trans ?_
  · rw [Shape.rowMajor_val_one, Shape.rowMajor_val_two]; rfl
  refine (shapeCast_apply _ _ _ (ValueIdx.ix2 (0 : Fin 1) (⟨r.val * 50000 + i.val, by omega⟩ : Fin 800000)) ?_).trans ?_
  · rw [Shape.rowMajor_val_one, Shape.rowMajor_val_two]; show 0 * 800000 + (r.val * 50000 + i.val) = r.val * 50000 + i.val; omega
  exact rowOf_apply m k _

theorem chunk_apply (x : (⟨S16x50000, .i32⟩ : BufTy).Contents (Elt F)) (off : Fin 2 → Nat) (h : S16x50000.Slices off S1x50000)
    (r : Fin 16) (h0 : off 0 = r.val) (h1 : off 1 = 0) (i : Fin 50000) : chunk x off h (ValueIdx.ix1 i) = x (ValueIdx.ix2 r i) := by
  unfold chunk
  refine (shapeCast_apply _ _ (ValueIdx.ix1 i) (ValueIdx.ix2 (0 : Fin 1) i) ?_).trans ?_
  · rw [Shape.rowMajor_val_one, Shape.rowMajor_val_two]; show 0 * 50000 + i.val = i.val; omega
  refine extractStridedSlice_apply _ _ _ _ _ fun a => ?_
  match a with
  | ⟨0, _⟩ => show r.val = off 0 + 0; omega
  | ⟨1, _⟩ => show i.val = off 1 + i.val; omega

theorem feat_apply (r : Fin 50000) (j : Fin 96) :
    feat m (ValueIdx.ix3 r (0 : Fin 1) j) = m ((c0 : Thread nD τ).loc main_arg0) (ValueIdx.ix2 r j) := by
  unfold feat
  refine shapeCast_apply (nodes m) _ _ _ ?_
  show (S50000x96.rowMajor _).val = (S50000x1x96.rowMajor _).val
  rw [Shape.rowMajor_val_two, Shape.rowMajor_val_three]
  show r.val * 96 + j.val = (r.val * 1 + 0) * 96 + j.val
  omega

/-- Every word of the edge list below the node count: so is every word of a row, of its chunks, and of a chunk. -/
theorem chunk_lt (hr : ∀ i, (edges m i).toNat < 50000) (k : Fin 2) (off : Fin 2 → Nat) (h : S16x50000.Slices off S1x50000)
    (i : S50000.Idx) : (chunk (chunks m k) off h i).toNat < 50000 := by
  have h1 : ∀ j, (rowOf m k j).toNat < 50000 := by
    match k with
    | 0 => exact fun j => hr _
    | 1 => exact fun j => hr _
  have h2 : ∀ j, (chunks m k j).toNat < 50000 :=
    shapeCast_all (fun w : BitVec 32 => w.toNat < 50000) _ _ (shapeCast_all (fun w : BitVec 32 => w.toNat < 50000) _ _ h1)
  exact shapeCast_all (fun w : BitVec 32 => w.toNat < 50000) _ _ (slice_all (fun w : BitVec 32 => w.toNat < 50000) _ _ _ h2) i

/-! ## What the first host stretch leaves -/

theorem V1_main_v4 (outs : Outs (F := F)) (c : Dev nD) : V1 m c main_v4 = chunks m 0 := by
  rw [dev_eq c]
  show StableHlo.after hostOps0 _ (Proc.devRef .tc main_v4) = _
  after_results
  rfl

theorem V1_main_v5 (outs : Outs (F := F)) (c : Dev nD) : V1 m c main_v5 = chunks m 1 := by
  rw [dev_eq c]
  show StableHlo.after hostOps0 _ (Proc.devRef .tc main_v5) = _
  after_results
  rfl

theorem V1_main_v6 (outs : Outs (F := F)) (c : Dev nD) : V1 m c main_v6 = feat m := by
  rw [dev_eq c]
  show StableHlo.after hostOps0 _ (Proc.devRef .tc main_v6) = _
  after_results
  rfl

/-! ## No later item writes the chunked rows or the reshaped features -/

theorem V2_main_v4 (outs : Outs (F := F)) (c : Dev nD) : V2 m outs c main_v4 = chunks m 0 :=
  (V2_of m outs c main_v4 (by decide)).trans (V1_main_v4 m outs c)
theorem V2_main_v5 (outs : Outs (F := F)) (c : Dev nD) : V2 m outs c main_v5 = chunks m 1 :=
  (V2_of m outs c main_v5 (by decide)).trans (V1_main_v5 m outs c)
theorem V2_main_v6 (outs : Outs (F := F)) (c : Dev nD) : V2 m outs c main_v6 = feat m :=
  (V2_of m outs c main_v6 (by decide)).trans (V1_main_v6 m outs c)

theorem V3_main_v4 (outs : Outs (F := F)) (c : Dev nD) : V3 m outs c main_v4 = chunks m 0 :=
  (V3_of m outs c main_v4 (by decide)).trans (V2_main_v4 m outs c)
theorem V3_main_v5 (outs : Outs (F := F)) (c : Dev nD) : V3 m outs c main_v5 = chunks m 1 :=
  (V3_of m outs c main_v5 (by decide)).trans (V2_main_v5 m outs c)
theorem V3_main_v6 (outs : Outs (F := F)) (c : Dev nD) : V3 m outs c main_v6 = feat m :=
  (V3_of m outs c main_v6 (by decide)).trans (V2_main_v6 m outs c)

theorem V4_main_v4 (outs : Outs (F := F)) (c : Dev nD) : V4 m outs c main_v4 = chunks m 0 :=
  (V4_of m outs c main_v4 (by decide)).trans (V3_main_v4 m outs c)
theorem V4_main_v5 (outs : Outs (F := F)) (c : Dev nD) : V4 m outs c main_v5 = chunks m 1 :=
  (V4_of m outs c main_v5 (by decide)).trans (V3_main_v5 m outs c)
theorem V4_main_v6 (outs : Outs (F := F)) (c : Dev nD) : V4 m outs c main_v6 = feat m :=
  (V4_of m outs c main_v6 (by decide)).trans (V3_main_v6 m outs c)

theorem V5_main_v4 (outs : Outs (F := F)) (c : Dev nD) : V5 m outs c main_v4 = chunks m 0 :=
  (V5_of m outs c main_v4 (by decide)).trans (V4_main_v4 m outs c)
theorem V5_main_v5 (outs : Outs (F := F)) (c : Dev nD) : V5 m outs c main_v5 = chunks m 1 :=
  (V5_of m outs c main_v5 (by decide)).trans (V4_main_v5 m outs c)
theorem V5_main_v6 (outs : Outs (F := F)) (c : Dev nD) : V5 m outs c main_v6 = feat m :=
  (V5_of m outs c main_v6 (by decide)).trans (V4_main_v6 m outs c)

theorem V6_main_v4 (outs : Outs (F := F)) (c : Dev nD) : V6 m outs c main_v4 = chunks m 0 :=
  (V6_of m outs c main_v4 (by decide)).trans (V5_main_v4 m outs c)
theorem V6_main_v5 (outs : Outs (F := F)) (c : Dev nD) : V6 m outs c main_v5 = chunks m 1 :=
  (V6_of m outs c main_v5 (by decide)).trans (V5_main_v5 m outs c)
theorem V6_main_v6 (outs : Outs (F := F)) (c : Dev nD) : V6 m outs c main_v6 = feat m :=
  (V6_of m outs c main_v6 (by decide)).trans (V5_main_v6 m outs c)

theorem V7_main_v4 (outs : Outs (F := F)) (c : Dev nD) : V7 m outs c main_v4 = chunks m 0 :=
  (V7_of m outs c main_v4 (by decide)).trans (V6_main_v4 m outs c)
theorem V7_main_v5 (outs : Outs (F := F)) (c : Dev nD) : V7 m outs c main_v5 = chunks m 1 :=
  (V7_of m outs c main_v5 (by decide)).trans (V6_main_v5 m outs c)
theorem V7_main_v6 (outs : Outs (F := F)) (c : Dev nD) : V7 m outs c main_v6 = feat m :=
  (V7_of m outs c main_v6 (by decide)).trans (V6_main_v6 m outs c)

theorem V8_main_v4 (outs : Outs (F := F)) (c : Dev nD) : V8 m outs c main_v4 = chunks m 0 :=
  (V8_of m outs c main_v4 (by decide)).trans (V7_main_v4 m outs c)
theorem V8_main_v5 (outs : Outs (F := F)) (c : Dev nD) : V8 m outs c main_v5 = chunks m 1 :=
  (V8_of m outs c main_v5 (by decide)).trans (V7_main_v5 m outs c)
theorem V8_main_v6 (outs : Outs (F := F)) (c : Dev nD) : V8 m outs c main_v6 = feat m :=
  (V8_of m outs c main_v6 (by decide)).trans (V7_main_v6 m outs c)

theorem V9_main_v4 (outs : Outs (F := F)) (c : Dev nD) : V9 m outs c main_v4 = chunks m 0 :=
  (V9_of m outs c main_v4 (by decide)).trans (V8_main_v4 m outs c)
theorem V9_main_v5 (outs : Outs (F := F)) (c : Dev nD) : V9 m outs c main_v5 = chunks m 1 :=
  (V9_of m outs c main_v5 (by decide)).trans (V8_main_v5 m outs c)
theorem V9_main_v6 (outs : Outs (F := F)) (c : Dev nD) : V9 m outs c main_v6 = feat m :=
  (V9_of m outs c main_v6 (by decide)).trans (V8_main_v6 m outs c)

theorem V10_main_v4 (outs : Outs (F := F)) (c : Dev nD) : V10 m outs c main_v4 = chunks m 0 :=
  (V10_of m outs c main_v4 (by decide)).trans (V9_main_v4 m outs c)
theorem V10_main_v5 (outs : Outs (F := F)) (c : Dev nD) : V10 m outs c main_v5 = chunks m 1 :=
  (V10_of m outs c main_v5 (by decide)).trans (V9_main_v5 m outs c)
theorem V10_main_v6 (outs : Outs (F := F)) (c : Dev nD) : V10 m outs c main_v6 = feat m :=
  (V10_of m outs c main_v6 (by decide)).trans (V9_main_v6 m outs c)

theorem V11_main_v4 (outs : Outs (F := F)) (c : Dev nD) : V11 m outs c main_v4 = chunks m 0 :=
  (V11_of m outs c main_v4 (by decide)).trans (V10_main_v4 m outs c)
theorem V11_main_v5 (outs : Outs (F := F)) (c : Dev nD) : V11 m outs c main_v5 = chunks m 1 :=
  (V11_of m outs c main_v5 (by decide)).trans (V10_main_v5 m outs c)
theorem V11_main_v6 (outs : Outs (F := F)) (c : Dev nD) : V11 m outs c main_v6 = feat m :=
  (V11_of m outs c main_v6 (by decide)).trans (V10_main_v6 m outs c)

theorem V12_main_v4 (outs : Outs (F := F)) (c : Dev nD) : V12 m outs c main_v4 = chunks m 0 :=
  (V12_of m outs c main_v4 (by decide)).trans (V11_main_v4 m outs c)
theorem V12_main_v5 (outs : Outs (F := F)) (c : Dev nD) : V12 m outs c main_v5 = chunks m 1 :=
  (V12_of m outs c main_v5 (by decide)).trans (V11_main_v5 m outs c)
theorem V12_main_v6 (outs : Outs (F := F)) (c : Dev nD) : V12 m outs c main_v6 = feat m :=
  (V12_of m outs c main_v6 (by decide)).trans (V11_main_v6 m outs c)

theorem V13_main_v4 (outs : Outs (F := F)) (c : Dev nD) : V13 m outs c main_v4 = chunks m 0 :=
  (V13_of m outs c main_v4 (by decide)).trans (V12_main_v4 m outs c)
theorem V13_main_v5 (outs : Outs (F := F)) (c : Dev nD) : V13 m outs c main_v5 = chunks m 1 :=
  (V13_of m outs c main_v5 (by decide)).trans (V12_main_v5 m outs c)
theorem V13_main_v6 (outs : Outs (F := F)) (c : Dev nD) : V13 m outs c main_v6 = feat m :=
  (V13_of m outs c main_v6 (by decide)).trans (V12_main_v6 m outs c)

theorem V14_main_v4 (outs : Outs (F := F)) (c : Dev nD) : V14 m outs c main_v4 = chunks m 0 :=
  (V14_of m outs c main_v4 (by decide)).trans (V13_main_v4 m outs c)
theorem V14_main_v5 (outs : Outs (F := F)) (c : Dev nD) : V14 m outs c main_v5 = chunks m 1 :=
  (V14_of m outs c main_v5 (by decide)).trans (V13_main_v5 m outs c)
theorem V14_main_v6 (outs : Outs (F := F)) (c : Dev nD) : V14 m outs c main_v6 = feat m :=
  (V14_of m outs c main_v6 (by decide)).trans (V13_main_v6 m outs c)

theorem V15_main_v4 (outs : Outs (F := F)) (c : Dev nD) : V15 m outs c main_v4 = chunks m 0 :=
  (V15_of m outs c main_v4 (by decide)).trans (V14_main_v4 m outs c)
theorem V15_main_v5 (outs : Outs (F := F)) (c : Dev nD) : V15 m outs c main_v5 = chunks m 1 :=
  (V15_of m outs c main_v5 (by decide)).trans (V14_main_v5 m outs c)
theorem V15_main_v6 (outs : Outs (F := F)) (c : Dev nD) : V15 m outs c main_v6 = feat m :=
  (V15_of m outs c main_v6 (by decide)).trans (V14_main_v6 m outs c)

theorem V16_main_v4 (outs : Outs (F := F)) (c : Dev nD) : V16 m outs c main_v4 = chunks m 0 :=
  (V16_of m outs c main_v4 (by decide)).trans (V15_main_v4 m outs c)
theorem V16_main_v5 (outs : Outs (F := F)) (c : Dev nD) : V16 m outs c main_v5 = chunks m 1 :=
  (V16_of m outs c main_v5 (by decide)).trans (V15_main_v5 m outs c)
theorem V16_main_v6 (outs : Outs (F := F)) (c : Dev nD) : V16 m outs c main_v6 = feat m :=
  (V16_of m outs c main_v6 (by decide)).trans (V15_main_v6 m outs c)

theorem V17_main_v4 (outs : Outs (F := F)) (c : Dev nD) : V17 m outs c main_v4 = chunks m 0 :=
  (V17_of m outs c main_v4 (by decide)).trans (V16_main_v4 m outs c)
theorem V17_main_v5 (outs : Outs (F := F)) (c : Dev nD) : V17 m outs c main_v5 = chunks m 1 :=
  (V17_of m outs c main_v5 (by decide)).trans (V16_main_v5 m outs c)
theorem V17_main_v6 (outs : Outs (F := F)) (c : Dev nD) : V17 m outs c main_v6 = feat m :=
  (V17_of m outs c main_v6 (by decide)).trans (V16_main_v6 m outs c)

theorem V18_main_v4 (outs : Outs (F := F)) (c : Dev nD) : V18 m outs c main_v4 = chunks m 0 :=
  (V18_of m outs c main_v4 (by decide)).trans (V17_main_v4 m outs c)
theorem V18_main_v5 (outs : Outs (F := F)) (c : Dev nD) : V18 m outs c main_v5 = chunks m 1 :=
  (V18_of m outs c main_v5 (by decide)).trans (V17_main_v5 m outs c)
theorem V18_main_v6 (outs : Outs (F := F)) (c : Dev nD) : V18 m outs c main_v6 = feat m :=
  (V18_of m outs c main_v6 (by decide)).trans (V17_main_v6 m outs c)

theorem V19_main_v4 (outs : Outs (F := F)) (c : Dev nD) : V19 m outs c main_v4 = chunks m 0 :=
  (V19_of m outs c main_v4 (by decide)).trans (V18_main_v4 m outs c)
theorem V19_main_v5 (outs : Outs (F := F)) (c : Dev nD) : V19 m outs c main_v5 = chunks m 1 :=
  (V19_of m outs c main_v5 (by decide)).trans (V18_main_v5 m outs c)
theorem V19_main_v6 (outs : Outs (F := F)) (c : Dev nD) : V19 m outs c main_v6 = feat m :=
  (V19_of m outs c main_v6 (by decide)).trans (V18_main_v6 m outs c)

theorem V20_main_v4 (outs : Outs (F := F)) (c : Dev nD) : V20 m outs c main_v4 = chunks m 0 :=
  (V20_of m outs c main_v4 (by decide)).trans (V19_main_v4 m outs c)
theorem V20_main_v5 (outs : Outs (F := F)) (c : Dev nD) : V20 m outs c main_v5 = chunks m 1 :=
  (V20_of m outs c main_v5 (by decide)).trans (V19_main_v5 m outs c)
theorem V20_main_v6 (outs : Outs (F := F)) (c : Dev nD) : V20 m outs c main_v6 = feat m :=
  (V20_of m outs c main_v6 (by decide)).trans (V19_main_v6 m outs c)

theorem V21_main_v4 (outs : Outs (F := F)) (c : Dev nD) : V21 m outs c main_v4 = chunks m 0 :=
  (V21_of m outs c main_v4 (by decide)).trans (V20_main_v4 m outs c)
theorem V21_main_v5 (outs : Outs (F := F)) (c : Dev nD) : V21 m outs c main_v5 = chunks m 1 :=
  (V21_of m outs c main_v5 (by decide)).trans (V20_main_v5 m outs c)
theorem V21_main_v6 (outs : Outs (F := F)) (c : Dev nD) : V21 m outs c main_v6 = feat m :=
  (V21_of m outs c main_v6 (by decide)).trans (V20_main_v6 m outs c)

theorem V22_main_v4 (outs : Outs (F := F)) (c : Dev nD) : V22 m outs c main_v4 = chunks m 0 :=
  (V22_of m outs c main_v4 (by decide)).trans (V21_main_v4 m outs c)
theorem V22_main_v5 (outs : Outs (F := F)) (c : Dev nD) : V22 m outs c main_v5 = chunks m 1 :=
  (V22_of m outs c main_v5 (by decide)).trans (V21_main_v5 m outs c)
theorem V22_main_v6 (outs : Outs (F := F)) (c : Dev nD) : V22 m outs c main_v6 = feat m :=
  (V22_of m outs c main_v6 (by decide)).trans (V21_main_v6 m outs c)

theorem V23_main_v4 (outs : Outs (F := F)) (c : Dev nD) : V23 m outs c main_v4 = chunks m 0 :=
  (V23_of m outs c main_v4 (by decide)).trans (V22_main_v4 m outs c)
theorem V23_main_v5 (outs : Outs (F := F)) (c : Dev nD) : V23 m outs c main_v5 = chunks m 1 :=
  (V23_of m outs c main_v5 (by decide)).trans (V22_main_v5 m outs c)
theorem V23_main_v6 (outs : Outs (F := F)) (c : Dev nD) : V23 m outs c main_v6 = feat m :=
  (V23_of m outs c main_v6 (by decide)).trans (V22_main_v6 m outs c)

theorem V24_main_v4 (outs : Outs (F := F)) (c : Dev nD) : V24 m outs c main_v4 = chunks m 0 :=
  (V24_of m outs c main_v4 (by decide)).trans (V23_main_v4 m outs c)
theorem V24_main_v5 (outs : Outs (F := F)) (c : Dev nD) : V24 m outs c main_v5 = chunks m 1 :=
  (V24_of m outs c main_v5 (by decide)).trans (V23_main_v5 m outs c)
theorem V24_main_v6 (outs : Outs (F := F)) (c : Dev nD) : V24 m outs c main_v6 = feat m :=
  (V24_of m outs c main_v6 (by decide)).trans (V23_main_v6 m outs c)

theorem V25_main_v4 (outs : Outs (F := F)) (c : Dev nD) : V25 m outs c main_v4 = chunks m 0 :=
  (V25_of m outs c main_v4 (by decide)).trans (V24_main_v4 m outs c)
theorem V25_main_v5 (outs : Outs (F := F)) (c : Dev nD) : V25 m outs c main_v5 = chunks m 1 :=
  (V25_of m outs c main_v5 (by decide)).trans (V24_main_v5 m outs c)
theorem V25_main_v6 (outs : Outs (F := F)) (c : Dev nD) : V25 m outs c main_v6 = feat m :=
  (V25_of m outs c main_v6 (by decide)).trans (V24_main_v6 m outs c)

theorem V26_main_v4 (outs : Outs (F := F)) (c : Dev nD) : V26 m outs c main_v4 = chunks m 0 :=
  (V26_of m outs c main_v4 (by decide)).trans (V25_main_v4 m outs c)
theorem V26_main_v5 (outs : Outs (F := F)) (c : Dev nD) : V26 m outs c main_v5 = chunks m 1 :=
  (V26_of m outs c main_v5 (by decide)).trans (V25_main_v5 m outs c)
theorem V26_main_v6 (outs : Outs (F := F)) (c : Dev nD) : V26 m outs c main_v6 = feat m :=
  (V26_of m outs c main_v6 (by decide)).trans (V25_main_v6 m outs c)

theorem V27_main_v4 (outs : Outs (F := F)) (c : Dev nD) : V27 m outs c main_v4 = chunks m 0 :=
  (V27_of m outs c main_v4 (by decide)).trans (V26_main_v4 m outs c)
theorem V27_main_v5 (outs : Outs (F := F)) (c : Dev nD) : V27 m outs c main_v5 = chunks m 1 :=
  (V27_of m outs c main_v5 (by decide)).trans (V26_main_v5 m outs c)
theorem V27_main_v6 (outs : Outs (F := F)) (c : Dev nD) : V27 m outs c main_v6 = feat m :=
  (V27_of m outs c main_v6 (by decide)).trans (V26_main_v6 m outs c)

theorem V28_main_v4 (outs : Outs (F := F)) (c : Dev nD) : V28 m outs c main_v4 = chunks m 0 :=
  (V28_of m outs c main_v4 (by decide)).trans (V27_main_v4 m outs c)
theorem V28_main_v5 (outs : Outs (F := F)) (c : Dev nD) : V28 m outs c main_v5 = chunks m 1 :=
  (V28_of m outs c main_v5 (by decide)).trans (V27_main_v5 m outs c)
theorem V28_main_v6 (outs : Outs (F := F)) (c : Dev nD) : V28 m outs c main_v6 = feat m :=
  (V28_of m outs c main_v6 (by decide)).trans (V27_main_v6 m outs c)

theorem V29_main_v4 (outs : Outs (F := F)) (c : Dev nD) : V29 m outs c main_v4 = chunks m 0 :=
  (V29_of m outs c main_v4 (by decide)).trans (V28_main_v4 m outs c)
theorem V29_main_v5 (outs : Outs (F := F)) (c : Dev nD) : V29 m outs c main_v5 = chunks m 1 :=
  (V29_of m outs c main_v5 (by decide)).trans (V28_main_v5 m outs c)
theorem V29_main_v6 (outs : Outs (F := F)) (c : Dev nD) : V29 m outs c main_v6 = feat m :=
  (V29_of m outs c main_v6 (by decide)).trans (V28_main_v6 m outs c)

theorem V30_main_v4 (outs : Outs (F := F)) (c : Dev nD) : V30 m outs c main_v4 = chunks m 0 :=
  (V30_of m outs c main_v4 (by decide)).trans (V29_main_v4 m outs c)
theorem V30_main_v5 (outs : Outs (F := F)) (c : Dev nD) : V30 m outs c main_v5 = chunks m 1 :=
  (V30_of m outs c main_v5 (by decide)).trans (V29_main_v5 m outs c)
theorem V30_main_v6 (outs : Outs (F := F)) (c : Dev nD) : V30 m outs c main_v6 = feat m :=
  (V30_of m outs c main_v6 (by decide)).trans (V29_main_v6 m outs c)

theorem V31_main_v4 (outs : Outs (F := F)) (c : Dev nD) : V31 m outs c main_v4 = chunks m 0 :=
  (V31_of m outs c main_v4 (by decide)).trans (V30_main_v4 m outs c)
theorem V31_main_v5 (outs : Outs (F := F)) (c : Dev nD) : V31 m outs c main_v5 = chunks m 1 :=
  (V31_of m outs c main_v5 (by decide)).trans (V30_main_v5 m outs c)
theorem V31_main_v6 (outs : Outs (F := F)) (c : Dev nD) : V31 m outs c main_v6 = feat m :=
  (V31_of m outs c main_v6 (by decide)).trans (V30_main_v6 m outs c)

/-! ## Region 0: its two tables are chunk 0 of the source and of the destination nodes -/

/-- Table `k` of region 0 (0: source nodes, 1: destination nodes of its 50000 edges), as words. -/
def tab0 (k : Fin 2) : (⟨S50000, .i32⟩ : BufTy).Contents (Elt F) :=
  chunk (chunks m k) ![0, 0] slices_S16x50000_S1x50000_0_0

/-- The contents of region 0's two prefetched tables, as a function of the launch contents only. -/
def tbl0 : pre0.Contents (Elt F) := fun
  | 0 => tab0 m 0
  | 1 => tab0 m 1
  | ⟨_ + 2, h⟩ => absurd h (Nat.not_lt.2 (Nat.le_add_left _ _))

theorem tbl0_zero : tbl0 m 0 = tab0 m 0 := rfl
theorem tbl0_one : tbl0 m 1 = tab0 m 1 := rfl

/-- Region 0 is entered with its tables at `tbl0`. -/
theorem tbl0_of_V (outs : Outs (F := F)) (c : Dev nD) (k : Fin pre0.K) : V1 m c (pre0.ref k) = tbl0 m k := by
  match k with
  | 0 =>
    rw [dev_eq c]
    show StableHlo.after hostOps0 _ (Proc.devRef .tc main_v8) = _
    after_results
    rfl
  | 1 =>
    rw [dev_eq c]
    show StableHlo.after hostOps0 _ (Proc.devRef .tc main_v10) = _
    after_results
    rfl

/-- Region 0 is entered with the node features in its windows' array. -/
theorem feat0_of_V (outs : Outs (F := F)) (c : Dev nD) : V1 m c main_v6 = feat m := V1_main_v6 m outs c

/-- Every table word of region 0 is a word of the edge list. -/
theorem tab0_apply (k : Fin 2) (i : Fin 50000) :
    tab0 m k (ValueIdx.ix1 i) = edges m (ValueIdx.ix2 k ⟨0 * 50000 + i.val, by omega⟩) :=
  (chunk_apply _ _ _ ⟨0, by omega⟩ rfl rfl i).trans (chunks_apply m k _ i)

theorem tab0_lt (hr : ∀ i, (edges m i).toNat < 50000) (k : Fin 2) (i : S50000.Idx) : (tab0 m k i).toNat < 50000 :=
  chunk_lt m hr k _ _ i

/-- Tables whose words are node numbers put every block of region 0's two gathered windows inside the feature array. -/
theorem ok0_of_lt (pf : pre0.Contents (Elt F)) (h0 : ∀ i : S50000.Idx, (pf 0 i).toNat < 50000)
    (h1 : ∀ i : S50000.Idx, (pf 1 i).toNat < 50000) : ok0 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok0_of (hr : ∀ i, (edges m i).toNat < 50000) : ok0 (tbl0 m) :=
  ok0_of_lt (tbl0 m) (tab0_lt m hr 0) (tab0_lt m hr 1)

/-- Region 0's tables, admissible. -/
def adm0 (hr : ∀ i, (edges m i).toNat < 50000) : (pcfg0 (F := F)).Adm := ⟨tbl0 m, ok0_of m hr⟩

/-! ## Region 1: its two tables are chunk 1 of the source and of the destination nodes -/

/-- Table `k` of region 1 (0: source nodes, 1: destination nodes of its 50000 edges), as words. -/
def tab1 (k : Fin 2) : (⟨S50000, .i32⟩ : BufTy).Contents (Elt F) :=
  chunk (chunks m k) ![1, 0] slices_S16x50000_S1x50000_1_0

/-- The contents of region 1's two prefetched tables, as a function of the launch contents only. -/
def tbl1 : pre1.Contents (Elt F) := fun
  | 0 => tab1 m 0
  | 1 => tab1 m 1
  | ⟨_ + 2, h⟩ => absurd h (Nat.not_lt.2 (Nat.le_add_left _ _))

theorem tbl1_zero : tbl1 m 0 = tab1 m 0 := rfl
theorem tbl1_one : tbl1 m 1 = tab1 m 1 := rfl

/-- Region 1 is entered with its tables at `tbl1`: the host stretch before it slices chunk 1 off the two chunked rows,
    which no earlier item has written since the first stretch made them. -/
theorem tbl1_of_V (outs : Outs (F := F)) (c : Dev nD) (k : Fin pre1.K) : V3 m outs c (pre1.ref k) = tbl1 m k := by
  match k with
  | 0 =>
    show StableHlo.after hostOps1 (V2 m outs c) (Proc.devRef .tc main_v15) = _
    after_results
    rw [show V2 m outs c (Proc.devRef .tc main_v4) = chunks m 0 from V2_main_v4 m outs c]
    rfl
  | 1 =>
    show StableHlo.after hostOps1 (V2 m outs c) (Proc.devRef .tc main_v17) = _
    after_results
    rw [show V2 m outs c (Proc.devRef .tc main_v5) = chunks m 1 from V2_main_v5 m outs c]
    rfl

/-- Region 1 is entered with the node features in its windows' array. -/
theorem feat1_of_V (outs : Outs (F := F)) (c : Dev nD) : V3 m outs c main_v6 = feat m := V3_main_v6 m outs c

/-- Every table word of region 1 is a word of the edge list. -/
theorem tab1_apply (k : Fin 2) (i : Fin 50000) :
    tab1 m k (ValueIdx.ix1 i) = edges m (ValueIdx.ix2 k ⟨1 * 50000 + i.val, by omega⟩) :=
  (chunk_apply _ _ _ ⟨1, by omega⟩ rfl rfl i).trans (chunks_apply m k _ i)

theorem tab1_lt (hr : ∀ i, (edges m i).toNat < 50000) (k : Fin 2) (i : S50000.Idx) : (tab1 m k i).toNat < 50000 :=
  chunk_lt m hr k _ _ i

/-- Tables whose words are node numbers put every block of region 1's two gathered windows inside the feature array. -/
theorem ok1_of_lt (pf : pre1.Contents (Elt F)) (h0 : ∀ i : S50000.Idx, (pf 0 i).toNat < 50000)
    (h1 : ∀ i : S50000.Idx, (pf 1 i).toNat < 50000) : ok1 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok1_of (hr : ∀ i, (edges m i).toNat < 50000) : ok1 (tbl1 m) :=
  ok1_of_lt (tbl1 m) (tab1_lt m hr 0) (tab1_lt m hr 1)

/-- Region 1's tables, admissible. -/
def adm1 (hr : ∀ i, (edges m i).toNat < 50000) : (pcfg1 (F := F)).Adm := ⟨tbl1 m, ok1_of m hr⟩

/-! ## Region 2: its two tables are chunk 2 of the source and of the destination nodes -/

/-- Table `k` of region 2 (0: source nodes, 1: destination nodes of its 50000 edges), as words. -/
def tab2 (k : Fin 2) : (⟨S50000, .i32⟩ : BufTy).Contents (Elt F) :=
  chunk (chunks m k) ![2, 0] slices_S16x50000_S1x50000_2_0

/-- The contents of region 2's two prefetched tables, as a function of the launch contents only. -/
def tbl2 : pre2.Contents (Elt F) := fun
  | 0 => tab2 m 0
  | 1 => tab2 m 1
  | ⟨_ + 2, h⟩ => absurd h (Nat.not_lt.2 (Nat.le_add_left _ _))

theorem tbl2_zero : tbl2 m 0 = tab2 m 0 := rfl
theorem tbl2_one : tbl2 m 1 = tab2 m 1 := rfl

/-- Region 2 is entered with its tables at `tbl2`: the host stretch before it slices chunk 2 off the two chunked rows,
    which no earlier item has written since the first stretch made them. -/
theorem tbl2_of_V (outs : Outs (F := F)) (c : Dev nD) (k : Fin pre2.K) : V5 m outs c (pre2.ref k) = tbl2 m k := by
  match k with
  | 0 =>
    show StableHlo.after hostOps2 (V4 m outs c) (Proc.devRef .tc main_v22) = _
    after_results
    rw [show V4 m outs c (Proc.devRef .tc main_v4) = chunks m 0 from V4_main_v4 m outs c]
    rfl
  | 1 =>
    show StableHlo.after hostOps2 (V4 m outs c) (Proc.devRef .tc main_v24) = _
    after_results
    rw [show V4 m outs c (Proc.devRef .tc main_v5) = chunks m 1 from V4_main_v5 m outs c]
    rfl

/-- Region 2 is entered with the node features in its windows' array. -/
theorem feat2_of_V (outs : Outs (F := F)) (c : Dev nD) : V5 m outs c main_v6 = feat m := V5_main_v6 m outs c

/-- Every table word of region 2 is a word of the edge list. -/
theorem tab2_apply (k : Fin 2) (i : Fin 50000) :
    tab2 m k (ValueIdx.ix1 i) = edges m (ValueIdx.ix2 k ⟨2 * 50000 + i.val, by omega⟩) :=
  (chunk_apply _ _ _ ⟨2, by omega⟩ rfl rfl i).trans (chunks_apply m k _ i)

theorem tab2_lt (hr : ∀ i, (edges m i).toNat < 50000) (k : Fin 2) (i : S50000.Idx) : (tab2 m k i).toNat < 50000 :=
  chunk_lt m hr k _ _ i

/-- Tables whose words are node numbers put every block of region 2's two gathered windows inside the feature array. -/
theorem ok2_of_lt (pf : pre2.Contents (Elt F)) (h0 : ∀ i : S50000.Idx, (pf 0 i).toNat < 50000)
    (h1 : ∀ i : S50000.Idx, (pf 1 i).toNat < 50000) : ok2 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok2_of (hr : ∀ i, (edges m i).toNat < 50000) : ok2 (tbl2 m) :=
  ok2_of_lt (tbl2 m) (tab2_lt m hr 0) (tab2_lt m hr 1)

/-- Region 2's tables, admissible. -/
def adm2 (hr : ∀ i, (edges m i).toNat < 50000) : (pcfg2 (F := F)).Adm := ⟨tbl2 m, ok2_of m hr⟩

/-! ## Region 3: its two tables are chunk 3 of the source and of the destination nodes -/

/-- Table `k` of region 3 (0: source nodes, 1: destination nodes of its 50000 edges), as words. -/
def tab3 (k : Fin 2) : (⟨S50000, .i32⟩ : BufTy).Contents (Elt F) :=
  chunk (chunks m k) ![3, 0] slices_S16x50000_S1x50000_3_0

/-- The contents of region 3's two prefetched tables, as a function of the launch contents only. -/
def tbl3 : pre3.Contents (Elt F) := fun
  | 0 => tab3 m 0
  | 1 => tab3 m 1
  | ⟨_ + 2, h⟩ => absurd h (Nat.not_lt.2 (Nat.le_add_left _ _))

theorem tbl3_zero : tbl3 m 0 = tab3 m 0 := rfl
theorem tbl3_one : tbl3 m 1 = tab3 m 1 := rfl

/-- Region 3 is entered with its tables at `tbl3`: the host stretch before it slices chunk 3 off the two chunked rows,
    which no earlier item has written since the first stretch made them. -/
theorem tbl3_of_V (outs : Outs (F := F)) (c : Dev nD) (k : Fin pre3.K) : V7 m outs c (pre3.ref k) = tbl3 m k := by
  match k with
  | 0 =>
    show StableHlo.after hostOps3 (V6 m outs c) (Proc.devRef .tc main_v29) = _
    after_results
    rw [show V6 m outs c (Proc.devRef .tc main_v4) = chunks m 0 from V6_main_v4 m outs c]
    rfl
  | 1 =>
    show StableHlo.after hostOps3 (V6 m outs c) (Proc.devRef .tc main_v31) = _
    after_results
    rw [show V6 m outs c (Proc.devRef .tc main_v5) = chunks m 1 from V6_main_v5 m outs c]
    rfl

/-- Region 3 is entered with the node features in its windows' array. -/
theorem feat3_of_V (outs : Outs (F := F)) (c : Dev nD) : V7 m outs c main_v6 = feat m := V7_main_v6 m outs c

/-- Every table word of region 3 is a word of the edge list. -/
theorem tab3_apply (k : Fin 2) (i : Fin 50000) :
    tab3 m k (ValueIdx.ix1 i) = edges m (ValueIdx.ix2 k ⟨3 * 50000 + i.val, by omega⟩) :=
  (chunk_apply _ _ _ ⟨3, by omega⟩ rfl rfl i).trans (chunks_apply m k _ i)

theorem tab3_lt (hr : ∀ i, (edges m i).toNat < 50000) (k : Fin 2) (i : S50000.Idx) : (tab3 m k i).toNat < 50000 :=
  chunk_lt m hr k _ _ i

/-- Tables whose words are node numbers put every block of region 3's two gathered windows inside the feature array. -/
theorem ok3_of_lt (pf : pre3.Contents (Elt F)) (h0 : ∀ i : S50000.Idx, (pf 0 i).toNat < 50000)
    (h1 : ∀ i : S50000.Idx, (pf 1 i).toNat < 50000) : ok3 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok3_of (hr : ∀ i, (edges m i).toNat < 50000) : ok3 (tbl3 m) :=
  ok3_of_lt (tbl3 m) (tab3_lt m hr 0) (tab3_lt m hr 1)

/-- Region 3's tables, admissible. -/
def adm3 (hr : ∀ i, (edges m i).toNat < 50000) : (pcfg3 (F := F)).Adm := ⟨tbl3 m, ok3_of m hr⟩

/-! ## Region 4: its two tables are chunk 4 of the source and of the destination nodes -/

/-- Table `k` of region 4 (0: source nodes, 1: destination nodes of its 50000 edges), as words. -/
def tab4 (k : Fin 2) : (⟨S50000, .i32⟩ : BufTy).Contents (Elt F) :=
  chunk (chunks m k) ![4, 0] slices_S16x50000_S1x50000_4_0

/-- The contents of region 4's two prefetched tables, as a function of the launch contents only. -/
def tbl4 : pre4.Contents (Elt F) := fun
  | 0 => tab4 m 0
  | 1 => tab4 m 1
  | ⟨_ + 2, h⟩ => absurd h (Nat.not_lt.2 (Nat.le_add_left _ _))

theorem tbl4_zero : tbl4 m 0 = tab4 m 0 := rfl
theorem tbl4_one : tbl4 m 1 = tab4 m 1 := rfl

/-- Region 4 is entered with its tables at `tbl4`: the host stretch before it slices chunk 4 off the two chunked rows,
    which no earlier item has written since the first stretch made them. -/
theorem tbl4_of_V (outs : Outs (F := F)) (c : Dev nD) (k : Fin pre4.K) : V9 m outs c (pre4.ref k) = tbl4 m k := by
  match k with
  | 0 =>
    show StableHlo.after hostOps4 (V8 m outs c) (Proc.devRef .tc main_v36) = _
    after_results
    rw [show V8 m outs c (Proc.devRef .tc main_v4) = chunks m 0 from V8_main_v4 m outs c]
    rfl
  | 1 =>
    show StableHlo.after hostOps4 (V8 m outs c) (Proc.devRef .tc main_v38) = _
    after_results
    rw [show V8 m outs c (Proc.devRef .tc main_v5) = chunks m 1 from V8_main_v5 m outs c]
    rfl

/-- Region 4 is entered with the node features in its windows' array. -/
theorem feat4_of_V (outs : Outs (F := F)) (c : Dev nD) : V9 m outs c main_v6 = feat m := V9_main_v6 m outs c

/-- Every table word of region 4 is a word of the edge list. -/
theorem tab4_apply (k : Fin 2) (i : Fin 50000) :
    tab4 m k (ValueIdx.ix1 i) = edges m (ValueIdx.ix2 k ⟨4 * 50000 + i.val, by omega⟩) :=
  (chunk_apply _ _ _ ⟨4, by omega⟩ rfl rfl i).trans (chunks_apply m k _ i)

theorem tab4_lt (hr : ∀ i, (edges m i).toNat < 50000) (k : Fin 2) (i : S50000.Idx) : (tab4 m k i).toNat < 50000 :=
  chunk_lt m hr k _ _ i

/-- Tables whose words are node numbers put every block of region 4's two gathered windows inside the feature array. -/
theorem ok4_of_lt (pf : pre4.Contents (Elt F)) (h0 : ∀ i : S50000.Idx, (pf 0 i).toNat < 50000)
    (h1 : ∀ i : S50000.Idx, (pf 1 i).toNat < 50000) : ok4 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok4_of (hr : ∀ i, (edges m i).toNat < 50000) : ok4 (tbl4 m) :=
  ok4_of_lt (tbl4 m) (tab4_lt m hr 0) (tab4_lt m hr 1)

/-- Region 4's tables, admissible. -/
def adm4 (hr : ∀ i, (edges m i).toNat < 50000) : (pcfg4 (F := F)).Adm := ⟨tbl4 m, ok4_of m hr⟩

/-! ## Region 5: its two tables are chunk 5 of the source and of the destination nodes -/

/-- Table `k` of region 5 (0: source nodes, 1: destination nodes of its 50000 edges), as words. -/
def tab5 (k : Fin 2) : (⟨S50000, .i32⟩ : BufTy).Contents (Elt F) :=
  chunk (chunks m k) ![5, 0] slices_S16x50000_S1x50000_5_0

/-- The contents of region 5's two prefetched tables, as a function of the launch contents only. -/
def tbl5 : pre5.Contents (Elt F) := fun
  | 0 => tab5 m 0
  | 1 => tab5 m 1
  | ⟨_ + 2, h⟩ => absurd h (Nat.not_lt.2 (Nat.le_add_left _ _))

theorem tbl5_zero : tbl5 m 0 = tab5 m 0 := rfl
theorem tbl5_one : tbl5 m 1 = tab5 m 1 := rfl

/-- Region 5 is entered with its tables at `tbl5`: the host stretch before it slices chunk 5 off the two chunked rows,
    which no earlier item has written since the first stretch made them. -/
theorem tbl5_of_V (outs : Outs (F := F)) (c : Dev nD) (k : Fin pre5.K) : V11 m outs c (pre5.ref k) = tbl5 m k := by
  match k with
  | 0 =>
    show StableHlo.after hostOps5 (V10 m outs c) (Proc.devRef .tc main_v43) = _
    after_results
    rw [show V10 m outs c (Proc.devRef .tc main_v4) = chunks m 0 from V10_main_v4 m outs c]
    rfl
  | 1 =>
    show StableHlo.after hostOps5 (V10 m outs c) (Proc.devRef .tc main_v45) = _
    after_results
    rw [show V10 m outs c (Proc.devRef .tc main_v5) = chunks m 1 from V10_main_v5 m outs c]
    rfl

/-- Region 5 is entered with the node features in its windows' array. -/
theorem feat5_of_V (outs : Outs (F := F)) (c : Dev nD) : V11 m outs c main_v6 = feat m := V11_main_v6 m outs c

/-- Every table word of region 5 is a word of the edge list. -/
theorem tab5_apply (k : Fin 2) (i : Fin 50000) :
    tab5 m k (ValueIdx.ix1 i) = edges m (ValueIdx.ix2 k ⟨5 * 50000 + i.val, by omega⟩) :=
  (chunk_apply _ _ _ ⟨5, by omega⟩ rfl rfl i).trans (chunks_apply m k _ i)

theorem tab5_lt (hr : ∀ i, (edges m i).toNat < 50000) (k : Fin 2) (i : S50000.Idx) : (tab5 m k i).toNat < 50000 :=
  chunk_lt m hr k _ _ i

/-- Tables whose words are node numbers put every block of region 5's two gathered windows inside the feature array. -/
theorem ok5_of_lt (pf : pre5.Contents (Elt F)) (h0 : ∀ i : S50000.Idx, (pf 0 i).toNat < 50000)
    (h1 : ∀ i : S50000.Idx, (pf 1 i).toNat < 50000) : ok5 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok5_of (hr : ∀ i, (edges m i).toNat < 50000) : ok5 (tbl5 m) :=
  ok5_of_lt (tbl5 m) (tab5_lt m hr 0) (tab5_lt m hr 1)

/-- Region 5's tables, admissible. -/
def adm5 (hr : ∀ i, (edges m i).toNat < 50000) : (pcfg5 (F := F)).Adm := ⟨tbl5 m, ok5_of m hr⟩

/-! ## Region 6: its two tables are chunk 6 of the source and of the destination nodes -/

/-- Table `k` of region 6 (0: source nodes, 1: destination nodes of its 50000 edges), as words. -/
def tab6 (k : Fin 2) : (⟨S50000, .i32⟩ : BufTy).Contents (Elt F) :=
  chunk (chunks m k) ![6, 0] slices_S16x50000_S1x50000_6_0

/-- The contents of region 6's two prefetched tables, as a function of the launch contents only. -/
def tbl6 : pre6.Contents (Elt F) := fun
  | 0 => tab6 m 0
  | 1 => tab6 m 1
  | ⟨_ + 2, h⟩ => absurd h (Nat.not_lt.2 (Nat.le_add_left _ _))

theorem tbl6_zero : tbl6 m 0 = tab6 m 0 := rfl
theorem tbl6_one : tbl6 m 1 = tab6 m 1 := rfl

/-- Region 6 is entered with its tables at `tbl6`: the host stretch before it slices chunk 6 off the two chunked rows,
    which no earlier item has written since the first stretch made them. -/
theorem tbl6_of_V (outs : Outs (F := F)) (c : Dev nD) (k : Fin pre6.K) : V13 m outs c (pre6.ref k) = tbl6 m k := by
  match k with
  | 0 =>
    show StableHlo.after hostOps6 (V12 m outs c) (Proc.devRef .tc main_v50) = _
    after_results
    rw [show V12 m outs c (Proc.devRef .tc main_v4) = chunks m 0 from V12_main_v4 m outs c]
    rfl
  | 1 =>
    show StableHlo.after hostOps6 (V12 m outs c) (Proc.devRef .tc main_v52) = _
    after_results
    rw [show V12 m outs c (Proc.devRef .tc main_v5) = chunks m 1 from V12_main_v5 m outs c]
    rfl

/-- Region 6 is entered with the node features in its windows' array. -/
theorem feat6_of_V (outs : Outs (F := F)) (c : Dev nD) : V13 m outs c main_v6 = feat m := V13_main_v6 m outs c

/-- Every table word of region 6 is a word of the edge list. -/
theorem tab6_apply (k : Fin 2) (i : Fin 50000) :
    tab6 m k (ValueIdx.ix1 i) = edges m (ValueIdx.ix2 k ⟨6 * 50000 + i.val, by omega⟩) :=
  (chunk_apply _ _ _ ⟨6, by omega⟩ rfl rfl i).trans (chunks_apply m k _ i)

theorem tab6_lt (hr : ∀ i, (edges m i).toNat < 50000) (k : Fin 2) (i : S50000.Idx) : (tab6 m k i).toNat < 50000 :=
  chunk_lt m hr k _ _ i

/-- Tables whose words are node numbers put every block of region 6's two gathered windows inside the feature array. -/
theorem ok6_of_lt (pf : pre6.Contents (Elt F)) (h0 : ∀ i : S50000.Idx, (pf 0 i).toNat < 50000)
    (h1 : ∀ i : S50000.Idx, (pf 1 i).toNat < 50000) : ok6 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok6_of (hr : ∀ i, (edges m i).toNat < 50000) : ok6 (tbl6 m) :=
  ok6_of_lt (tbl6 m) (tab6_lt m hr 0) (tab6_lt m hr 1)

/-- Region 6's tables, admissible. -/
def adm6 (hr : ∀ i, (edges m i).toNat < 50000) : (pcfg6 (F := F)).Adm := ⟨tbl6 m, ok6_of m hr⟩

/-! ## Region 7: its two tables are chunk 7 of the source and of the destination nodes -/

/-- Table `k` of region 7 (0: source nodes, 1: destination nodes of its 50000 edges), as words. -/
def tab7 (k : Fin 2) : (⟨S50000, .i32⟩ : BufTy).Contents (Elt F) :=
  chunk (chunks m k) ![7, 0] slices_S16x50000_S1x50000_7_0

/-- The contents of region 7's two prefetched tables, as a function of the launch contents only. -/
def tbl7 : pre7.Contents (Elt F) := fun
  | 0 => tab7 m 0
  | 1 => tab7 m 1
  | ⟨_ + 2, h⟩ => absurd h (Nat.not_lt.2 (Nat.le_add_left _ _))

theorem tbl7_zero : tbl7 m 0 = tab7 m 0 := rfl
theorem tbl7_one : tbl7 m 1 = tab7 m 1 := rfl

/-- Region 7 is entered with its tables at `tbl7`: the host stretch before it slices chunk 7 off the two chunked rows,
    which no earlier item has written since the first stretch made them. -/
theorem tbl7_of_V (outs : Outs (F := F)) (c : Dev nD) (k : Fin pre7.K) : V15 m outs c (pre7.ref k) = tbl7 m k := by
  match k with
  | 0 =>
    show StableHlo.after hostOps7 (V14 m outs c) (Proc.devRef .tc main_v57) = _
    after_results
    rw [show V14 m outs c (Proc.devRef .tc main_v4) = chunks m 0 from V14_main_v4 m outs c]
    rfl
  | 1 =>
    show StableHlo.after hostOps7 (V14 m outs c) (Proc.devRef .tc main_v59) = _
    after_results
    rw [show V14 m outs c (Proc.devRef .tc main_v5) = chunks m 1 from V14_main_v5 m outs c]
    rfl

/-- Region 7 is entered with the node features in its windows' array. -/
theorem feat7_of_V (outs : Outs (F := F)) (c : Dev nD) : V15 m outs c main_v6 = feat m := V15_main_v6 m outs c

/-- Every table word of region 7 is a word of the edge list. -/
theorem tab7_apply (k : Fin 2) (i : Fin 50000) :
    tab7 m k (ValueIdx.ix1 i) = edges m (ValueIdx.ix2 k ⟨7 * 50000 + i.val, by omega⟩) :=
  (chunk_apply _ _ _ ⟨7, by omega⟩ rfl rfl i).trans (chunks_apply m k _ i)

theorem tab7_lt (hr : ∀ i, (edges m i).toNat < 50000) (k : Fin 2) (i : S50000.Idx) : (tab7 m k i).toNat < 50000 :=
  chunk_lt m hr k _ _ i

/-- Tables whose words are node numbers put every block of region 7's two gathered windows inside the feature array. -/
theorem ok7_of_lt (pf : pre7.Contents (Elt F)) (h0 : ∀ i : S50000.Idx, (pf 0 i).toNat < 50000)
    (h1 : ∀ i : S50000.Idx, (pf 1 i).toNat < 50000) : ok7 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok7_of (hr : ∀ i, (edges m i).toNat < 50000) : ok7 (tbl7 m) :=
  ok7_of_lt (tbl7 m) (tab7_lt m hr 0) (tab7_lt m hr 1)

/-- Region 7's tables, admissible. -/
def adm7 (hr : ∀ i, (edges m i).toNat < 50000) : (pcfg7 (F := F)).Adm := ⟨tbl7 m, ok7_of m hr⟩

/-! ## Region 8: its two tables are chunk 8 of the source and of the destination nodes -/

/-- Table `k` of region 8 (0: source nodes, 1: destination nodes of its 50000 edges), as words. -/
def tab8 (k : Fin 2) : (⟨S50000, .i32⟩ : BufTy).Contents (Elt F) :=
  chunk (chunks m k) ![8, 0] slices_S16x50000_S1x50000_8_0

/-- The contents of region 8's two prefetched tables, as a function of the launch contents only. -/
def tbl8 : pre8.Contents (Elt F) := fun
  | 0 => tab8 m 0
  | 1 => tab8 m 1
  | ⟨_ + 2, h⟩ => absurd h (Nat.not_lt.2 (Nat.le_add_left _ _))

theorem tbl8_zero : tbl8 m 0 = tab8 m 0 := rfl
theorem tbl8_one : tbl8 m 1 = tab8 m 1 := rfl

/-- Region 8 is entered with its tables at `tbl8`: the host stretch before it slices chunk 8 off the two chunked rows,
    which no earlier item has written since the first stretch made them. -/
theorem tbl8_of_V (outs : Outs (F := F)) (c : Dev nD) (k : Fin pre8.K) : V17 m outs c (pre8.ref k) = tbl8 m k := by
  match k with
  | 0 =>
    show StableHlo.after hostOps8 (V16 m outs c) (Proc.devRef .tc main_v64) = _
    after_results
    rw [show V16 m outs c (Proc.devRef .tc main_v4) = chunks m 0 from V16_main_v4 m outs c]
    rfl
  | 1 =>
    show StableHlo.after hostOps8 (V16 m outs c) (Proc.devRef .tc main_v66) = _
    after_results
    rw [show V16 m outs c (Proc.devRef .tc main_v5) = chunks m 1 from V16_main_v5 m outs c]
    rfl

/-- Region 8 is entered with the node features in its windows' array. -/
theorem feat8_of_V (outs : Outs (F := F)) (c : Dev nD) : V17 m outs c main_v6 = feat m := V17_main_v6 m outs c

/-- Every table word of region 8 is a word of the edge list. -/
theorem tab8_apply (k : Fin 2) (i : Fin 50000) :
    tab8 m k (ValueIdx.ix1 i) = edges m (ValueIdx.ix2 k ⟨8 * 50000 + i.val, by omega⟩) :=
  (chunk_apply _ _ _ ⟨8, by omega⟩ rfl rfl i).trans (chunks_apply m k _ i)

theorem tab8_lt (hr : ∀ i, (edges m i).toNat < 50000) (k : Fin 2) (i : S50000.Idx) : (tab8 m k i).toNat < 50000 :=
  chunk_lt m hr k _ _ i

/-- Tables whose words are node numbers put every block of region 8's two gathered windows inside the feature array. -/
theorem ok8_of_lt (pf : pre8.Contents (Elt F)) (h0 : ∀ i : S50000.Idx, (pf 0 i).toNat < 50000)
    (h1 : ∀ i : S50000.Idx, (pf 1 i).toNat < 50000) : ok8 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok8_of (hr : ∀ i, (edges m i).toNat < 50000) : ok8 (tbl8 m) :=
  ok8_of_lt (tbl8 m) (tab8_lt m hr 0) (tab8_lt m hr 1)

/-- Region 8's tables, admissible. -/
def adm8 (hr : ∀ i, (edges m i).toNat < 50000) : (pcfg8 (F := F)).Adm := ⟨tbl8 m, ok8_of m hr⟩

/-! ## Region 9: its two tables are chunk 9 of the source and of the destination nodes -/

/-- Table `k` of region 9 (0: source nodes, 1: destination nodes of its 50000 edges), as words. -/
def tab9 (k : Fin 2) : (⟨S50000, .i32⟩ : BufTy).Contents (Elt F) :=
  chunk (chunks m k) ![9, 0] slices_S16x50000_S1x50000_9_0

/-- The contents of region 9's two prefetched tables, as a function of the launch contents only. -/
def tbl9 : pre9.Contents (Elt F) := fun
  | 0 => tab9 m 0
  | 1 => tab9 m 1
  | ⟨_ + 2, h⟩ => absurd h (Nat.not_lt.2 (Nat.le_add_left _ _))

theorem tbl9_zero : tbl9 m 0 = tab9 m 0 := rfl
theorem tbl9_one : tbl9 m 1 = tab9 m 1 := rfl

/-- Region 9 is entered with its tables at `tbl9`: the host stretch before it slices chunk 9 off the two chunked rows,
    which no earlier item has written since the first stretch made them. -/
theorem tbl9_of_V (outs : Outs (F := F)) (c : Dev nD) (k : Fin pre9.K) : V19 m outs c (pre9.ref k) = tbl9 m k := by
  match k with
  | 0 =>
    show StableHlo.after hostOps9 (V18 m outs c) (Proc.devRef .tc main_v71) = _
    after_results
    rw [show V18 m outs c (Proc.devRef .tc main_v4) = chunks m 0 from V18_main_v4 m outs c]
    rfl
  | 1 =>
    show StableHlo.after hostOps9 (V18 m outs c) (Proc.devRef .tc main_v73) = _
    after_results
    rw [show V18 m outs c (Proc.devRef .tc main_v5) = chunks m 1 from V18_main_v5 m outs c]
    rfl

/-- Region 9 is entered with the node features in its windows' array. -/
theorem feat9_of_V (outs : Outs (F := F)) (c : Dev nD) : V19 m outs c main_v6 = feat m := V19_main_v6 m outs c

/-- Every table word of region 9 is a word of the edge list. -/
theorem tab9_apply (k : Fin 2) (i : Fin 50000) :
    tab9 m k (ValueIdx.ix1 i) = edges m (ValueIdx.ix2 k ⟨9 * 50000 + i.val, by omega⟩) :=
  (chunk_apply _ _ _ ⟨9, by omega⟩ rfl rfl i).trans (chunks_apply m k _ i)

theorem tab9_lt (hr : ∀ i, (edges m i).toNat < 50000) (k : Fin 2) (i : S50000.Idx) : (tab9 m k i).toNat < 50000 :=
  chunk_lt m hr k _ _ i

/-- Tables whose words are node numbers put every block of region 9's two gathered windows inside the feature array. -/
theorem ok9_of_lt (pf : pre9.Contents (Elt F)) (h0 : ∀ i : S50000.Idx, (pf 0 i).toNat < 50000)
    (h1 : ∀ i : S50000.Idx, (pf 1 i).toNat < 50000) : ok9 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok9_of (hr : ∀ i, (edges m i).toNat < 50000) : ok9 (tbl9 m) :=
  ok9_of_lt (tbl9 m) (tab9_lt m hr 0) (tab9_lt m hr 1)

/-- Region 9's tables, admissible. -/
def adm9 (hr : ∀ i, (edges m i).toNat < 50000) : (pcfg9 (F := F)).Adm := ⟨tbl9 m, ok9_of m hr⟩

/-! ## Region 10: its two tables are chunk 10 of the source and of the destination nodes -/

/-- Table `k` of region 10 (0: source nodes, 1: destination nodes of its 50000 edges), as words. -/
def tab10 (k : Fin 2) : (⟨S50000, .i32⟩ : BufTy).Contents (Elt F) :=
  chunk (chunks m k) ![10, 0] slices_S16x50000_S1x50000_10_0

/-- The contents of region 10's two prefetched tables, as a function of the launch contents only. -/
def tbl10 : pre10.Contents (Elt F) := fun
  | 0 => tab10 m 0
  | 1 => tab10 m 1
  | ⟨_ + 2, h⟩ => absurd h (Nat.not_lt.2 (Nat.le_add_left _ _))

theorem tbl10_zero : tbl10 m 0 = tab10 m 0 := rfl
theorem tbl10_one : tbl10 m 1 = tab10 m 1 := rfl

/-- Region 10 is entered with its tables at `tbl10`: the host stretch before it slices chunk 10 off the two chunked rows,
    which no earlier item has written since the first stretch made them. -/
theorem tbl10_of_V (outs : Outs (F := F)) (c : Dev nD) (k : Fin pre10.K) : V21 m outs c (pre10.ref k) = tbl10 m k := by
  match k with
  | 0 =>
    show StableHlo.after hostOps10 (V20 m outs c) (Proc.devRef .tc main_v78) = _
    after_results
    rw [show V20 m outs c (Proc.devRef .tc main_v4) = chunks m 0 from V20_main_v4 m outs c]
    rfl
  | 1 =>
    show StableHlo.after hostOps10 (V20 m outs c) (Proc.devRef .tc main_v80) = _
    after_results
    rw [show V20 m outs c (Proc.devRef .tc main_v5) = chunks m 1 from V20_main_v5 m outs c]
    rfl

/-- Region 10 is entered with the node features in its windows' array. -/
theorem feat10_of_V (outs : Outs (F := F)) (c : Dev nD) : V21 m outs c main_v6 = feat m := V21_main_v6 m outs c

/-- Every table word of region 10 is a word of the edge list. -/
theorem tab10_apply (k : Fin 2) (i : Fin 50000) :
    tab10 m k (ValueIdx.ix1 i) = edges m (ValueIdx.ix2 k ⟨10 * 50000 + i.val, by omega⟩) :=
  (chunk_apply _ _ _ ⟨10, by omega⟩ rfl rfl i).trans (chunks_apply m k _ i)

theorem tab10_lt (hr : ∀ i, (edges m i).toNat < 50000) (k : Fin 2) (i : S50000.Idx) : (tab10 m k i).toNat < 50000 :=
  chunk_lt m hr k _ _ i

/-- Tables whose words are node numbers put every block of region 10's two gathered windows inside the feature array. -/
theorem ok10_of_lt (pf : pre10.Contents (Elt F)) (h0 : ∀ i : S50000.Idx, (pf 0 i).toNat < 50000)
    (h1 : ∀ i : S50000.Idx, (pf 1 i).toNat < 50000) : ok10 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok10_of (hr : ∀ i, (edges m i).toNat < 50000) : ok10 (tbl10 m) :=
  ok10_of_lt (tbl10 m) (tab10_lt m hr 0) (tab10_lt m hr 1)

/-- Region 10's tables, admissible. -/
def adm10 (hr : ∀ i, (edges m i).toNat < 50000) : (pcfg10 (F := F)).Adm := ⟨tbl10 m, ok10_of m hr⟩

/-! ## Region 11: its two tables are chunk 11 of the source and of the destination nodes -/

/-- Table `k` of region 11 (0: source nodes, 1: destination nodes of its 50000 edges), as words. -/
def tab11 (k : Fin 2) : (⟨S50000, .i32⟩ : BufTy).Contents (Elt F) :=
  chunk (chunks m k) ![11, 0] slices_S16x50000_S1x50000_11_0

/-- The contents of region 11's two prefetched tables, as a function of the launch contents only. -/
def tbl11 : pre11.Contents (Elt F) := fun
  | 0 => tab11 m 0
  | 1 => tab11 m 1
  | ⟨_ + 2, h⟩ => absurd h (Nat.not_lt.2 (Nat.le_add_left _ _))

theorem tbl11_zero : tbl11 m 0 = tab11 m 0 := rfl
theorem tbl11_one : tbl11 m 1 = tab11 m 1 := rfl

/-- Region 11 is entered with its tables at `tbl11`: the host stretch before it slices chunk 11 off the two chunked rows,
    which no earlier item has written since the first stretch made them. -/
theorem tbl11_of_V (outs : Outs (F := F)) (c : Dev nD) (k : Fin pre11.K) : V23 m outs c (pre11.ref k) = tbl11 m k := by
  match k with
  | 0 =>
    show StableHlo.after hostOps11 (V22 m outs c) (Proc.devRef .tc main_v85) = _
    after_results
    rw [show V22 m outs c (Proc.devRef .tc main_v4) = chunks m 0 from V22_main_v4 m outs c]
    rfl
  | 1 =>
    show StableHlo.after hostOps11 (V22 m outs c) (Proc.devRef .tc main_v87) = _
    after_results
    rw [show V22 m outs c (Proc.devRef .tc main_v5) = chunks m 1 from V22_main_v5 m outs c]
    rfl

/-- Region 11 is entered with the node features in its windows' array. -/
theorem feat11_of_V (outs : Outs (F := F)) (c : Dev nD) : V23 m outs c main_v6 = feat m := V23_main_v6 m outs c

/-- Every table word of region 11 is a word of the edge list. -/
theorem tab11_apply (k : Fin 2) (i : Fin 50000) :
    tab11 m k (ValueIdx.ix1 i) = edges m (ValueIdx.ix2 k ⟨11 * 50000 + i.val, by omega⟩) :=
  (chunk_apply _ _ _ ⟨11, by omega⟩ rfl rfl i).trans (chunks_apply m k _ i)

theorem tab11_lt (hr : ∀ i, (edges m i).toNat < 50000) (k : Fin 2) (i : S50000.Idx) : (tab11 m k i).toNat < 50000 :=
  chunk_lt m hr k _ _ i

/-- Tables whose words are node numbers put every block of region 11's two gathered windows inside the feature array. -/
theorem ok11_of_lt (pf : pre11.Contents (Elt F)) (h0 : ∀ i : S50000.Idx, (pf 0 i).toNat < 50000)
    (h1 : ∀ i : S50000.Idx, (pf 1 i).toNat < 50000) : ok11 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok11_of (hr : ∀ i, (edges m i).toNat < 50000) : ok11 (tbl11 m) :=
  ok11_of_lt (tbl11 m) (tab11_lt m hr 0) (tab11_lt m hr 1)

/-- Region 11's tables, admissible. -/
def adm11 (hr : ∀ i, (edges m i).toNat < 50000) : (pcfg11 (F := F)).Adm := ⟨tbl11 m, ok11_of m hr⟩

/-! ## Region 12: its two tables are chunk 12 of the source and of the destination nodes -/

/-- Table `k` of region 12 (0: source nodes, 1: destination nodes of its 50000 edges), as words. -/
def tab12 (k : Fin 2) : (⟨S50000, .i32⟩ : BufTy).Contents (Elt F) :=
  chunk (chunks m k) ![12, 0] slices_S16x50000_S1x50000_12_0

/-- The contents of region 12's two prefetched tables, as a function of the launch contents only. -/
def tbl12 : pre12.Contents (Elt F) := fun
  | 0 => tab12 m 0
  | 1 => tab12 m 1
  | ⟨_ + 2, h⟩ => absurd h (Nat.not_lt.2 (Nat.le_add_left _ _))

theorem tbl12_zero : tbl12 m 0 = tab12 m 0 := rfl
theorem tbl12_one : tbl12 m 1 = tab12 m 1 := rfl

/-- Region 12 is entered with its tables at `tbl12`: the host stretch before it slices chunk 12 off the two chunked rows,
    which no earlier item has written since the first stretch made them. -/
theorem tbl12_of_V (outs : Outs (F := F)) (c : Dev nD) (k : Fin pre12.K) : V25 m outs c (pre12.ref k) = tbl12 m k := by
  match k with
  | 0 =>
    show StableHlo.after hostOps12 (V24 m outs c) (Proc.devRef .tc main_v92) = _
    after_results
    rw [show V24 m outs c (Proc.devRef .tc main_v4) = chunks m 0 from V24_main_v4 m outs c]
    rfl
  | 1 =>
    show StableHlo.after hostOps12 (V24 m outs c) (Proc.devRef .tc main_v94) = _
    after_results
    rw [show V24 m outs c (Proc.devRef .tc main_v5) = chunks m 1 from V24_main_v5 m outs c]
    rfl

/-- Region 12 is entered with the node features in its windows' array. -/
theorem feat12_of_V (outs : Outs (F := F)) (c : Dev nD) : V25 m outs c main_v6 = feat m := V25_main_v6 m outs c

/-- Every table word of region 12 is a word of the edge list. -/
theorem tab12_apply (k : Fin 2) (i : Fin 50000) :
    tab12 m k (ValueIdx.ix1 i) = edges m (ValueIdx.ix2 k ⟨12 * 50000 + i.val, by omega⟩) :=
  (chunk_apply _ _ _ ⟨12, by omega⟩ rfl rfl i).trans (chunks_apply m k _ i)

theorem tab12_lt (hr : ∀ i, (edges m i).toNat < 50000) (k : Fin 2) (i : S50000.Idx) : (tab12 m k i).toNat < 50000 :=
  chunk_lt m hr k _ _ i

/-- Tables whose words are node numbers put every block of region 12's two gathered windows inside the feature array. -/
theorem ok12_of_lt (pf : pre12.Contents (Elt F)) (h0 : ∀ i : S50000.Idx, (pf 0 i).toNat < 50000)
    (h1 : ∀ i : S50000.Idx, (pf 1 i).toNat < 50000) : ok12 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok12_of (hr : ∀ i, (edges m i).toNat < 50000) : ok12 (tbl12 m) :=
  ok12_of_lt (tbl12 m) (tab12_lt m hr 0) (tab12_lt m hr 1)

/-- Region 12's tables, admissible. -/
def adm12 (hr : ∀ i, (edges m i).toNat < 50000) : (pcfg12 (F := F)).Adm := ⟨tbl12 m, ok12_of m hr⟩

/-! ## Region 13: its two tables are chunk 13 of the source and of the destination nodes -/

/-- Table `k` of region 13 (0: source nodes, 1: destination nodes of its 50000 edges), as words. -/
def tab13 (k : Fin 2) : (⟨S50000, .i32⟩ : BufTy).Contents (Elt F) :=
  chunk (chunks m k) ![13, 0] slices_S16x50000_S1x50000_13_0

/-- The contents of region 13's two prefetched tables, as a function of the launch contents only. -/
def tbl13 : pre13.Contents (Elt F) := fun
  | 0 => tab13 m 0
  | 1 => tab13 m 1
  | ⟨_ + 2, h⟩ => absurd h (Nat.not_lt.2 (Nat.le_add_left _ _))

theorem tbl13_zero : tbl13 m 0 = tab13 m 0 := rfl
theorem tbl13_one : tbl13 m 1 = tab13 m 1 := rfl

/-- Region 13 is entered with its tables at `tbl13`: the host stretch before it slices chunk 13 off the two chunked rows,
    which no earlier item has written since the first stretch made them. -/
theorem tbl13_of_V (outs : Outs (F := F)) (c : Dev nD) (k : Fin pre13.K) : V27 m outs c (pre13.ref k) = tbl13 m k := by
  match k with
  | 0 =>
    show StableHlo.after hostOps13 (V26 m outs c) (Proc.devRef .tc main_v99) = _
    after_results
    rw [show V26 m outs c (Proc.devRef .tc main_v4) = chunks m 0 from V26_main_v4 m outs c]
    rfl
  | 1 =>
    show StableHlo.after hostOps13 (V26 m outs c) (Proc.devRef .tc main_v101) = _
    after_results
    rw [show V26 m outs c (Proc.devRef .tc main_v5) = chunks m 1 from V26_main_v5 m outs c]
    rfl

/-- Region 13 is entered with the node features in its windows' array. -/
theorem feat13_of_V (outs : Outs (F := F)) (c : Dev nD) : V27 m outs c main_v6 = feat m := V27_main_v6 m outs c

/-- Every table word of region 13 is a word of the edge list. -/
theorem tab13_apply (k : Fin 2) (i : Fin 50000) :
    tab13 m k (ValueIdx.ix1 i) = edges m (ValueIdx.ix2 k ⟨13 * 50000 + i.val, by omega⟩) :=
  (chunk_apply _ _ _ ⟨13, by omega⟩ rfl rfl i).trans (chunks_apply m k _ i)

theorem tab13_lt (hr : ∀ i, (edges m i).toNat < 50000) (k : Fin 2) (i : S50000.Idx) : (tab13 m k i).toNat < 50000 :=
  chunk_lt m hr k _ _ i

/-- Tables whose words are node numbers put every block of region 13's two gathered windows inside the feature array. -/
theorem ok13_of_lt (pf : pre13.Contents (Elt F)) (h0 : ∀ i : S50000.Idx, (pf 0 i).toNat < 50000)
    (h1 : ∀ i : S50000.Idx, (pf 1 i).toNat < 50000) : ok13 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok13_of (hr : ∀ i, (edges m i).toNat < 50000) : ok13 (tbl13 m) :=
  ok13_of_lt (tbl13 m) (tab13_lt m hr 0) (tab13_lt m hr 1)

/-- Region 13's tables, admissible. -/
def adm13 (hr : ∀ i, (edges m i).toNat < 50000) : (pcfg13 (F := F)).Adm := ⟨tbl13 m, ok13_of m hr⟩

/-! ## Region 14: its two tables are chunk 14 of the source and of the destination nodes -/

/-- Table `k` of region 14 (0: source nodes, 1: destination nodes of its 50000 edges), as words. -/
def tab14 (k : Fin 2) : (⟨S50000, .i32⟩ : BufTy).Contents (Elt F) :=
  chunk (chunks m k) ![14, 0] slices_S16x50000_S1x50000_14_0

/-- The contents of region 14's two prefetched tables, as a function of the launch contents only. -/
def tbl14 : pre14.Contents (Elt F) := fun
  | 0 => tab14 m 0
  | 1 => tab14 m 1
  | ⟨_ + 2, h⟩ => absurd h (Nat.not_lt.2 (Nat.le_add_left _ _))

theorem tbl14_zero : tbl14 m 0 = tab14 m 0 := rfl
theorem tbl14_one : tbl14 m 1 = tab14 m 1 := rfl

/-- Region 14 is entered with its tables at `tbl14`: the host stretch before it slices chunk 14 off the two chunked rows,
    which no earlier item has written since the first stretch made them. -/
theorem tbl14_of_V (outs : Outs (F := F)) (c : Dev nD) (k : Fin pre14.K) : V29 m outs c (pre14.ref k) = tbl14 m k := by
  match k with
  | 0 =>
    show StableHlo.after hostOps14 (V28 m outs c) (Proc.devRef .tc main_v106) = _
    after_results
    rw [show V28 m outs c (Proc.devRef .tc main_v4) = chunks m 0 from V28_main_v4 m outs c]
    rfl
  | 1 =>
    show StableHlo.after hostOps14 (V28 m outs c) (Proc.devRef .tc main_v108) = _
    after_results
    rw [show V28 m outs c (Proc.devRef .tc main_v5) = chunks m 1 from V28_main_v5 m outs c]
    rfl

/-- Region 14 is entered with the node features in its windows' array. -/
theorem feat14_of_V (outs : Outs (F := F)) (c : Dev nD) : V29 m outs c main_v6 = feat m := V29_main_v6 m outs c

/-- Every table word of region 14 is a word of the edge list. -/
theorem tab14_apply (k : Fin 2) (i : Fin 50000) :
    tab14 m k (ValueIdx.ix1 i) = edges m (ValueIdx.ix2 k ⟨14 * 50000 + i.val, by omega⟩) :=
  (chunk_apply _ _ _ ⟨14, by omega⟩ rfl rfl i).trans (chunks_apply m k _ i)

theorem tab14_lt (hr : ∀ i, (edges m i).toNat < 50000) (k : Fin 2) (i : S50000.Idx) : (tab14 m k i).toNat < 50000 :=
  chunk_lt m hr k _ _ i

/-- Tables whose words are node numbers put every block of region 14's two gathered windows inside the feature array. -/
theorem ok14_of_lt (pf : pre14.Contents (Elt F)) (h0 : ∀ i : S50000.Idx, (pf 0 i).toNat < 50000)
    (h1 : ∀ i : S50000.Idx, (pf 1 i).toNat < 50000) : ok14 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok14_of (hr : ∀ i, (edges m i).toNat < 50000) : ok14 (tbl14 m) :=
  ok14_of_lt (tbl14 m) (tab14_lt m hr 0) (tab14_lt m hr 1)

/-- Region 14's tables, admissible. -/
def adm14 (hr : ∀ i, (edges m i).toNat < 50000) : (pcfg14 (F := F)).Adm := ⟨tbl14 m, ok14_of m hr⟩

/-! ## Region 15: its two tables are chunk 15 of the source and of the destination nodes -/

/-- Table `k` of region 15 (0: source nodes, 1: destination nodes of its 50000 edges), as words. -/
def tab15 (k : Fin 2) : (⟨S50000, .i32⟩ : BufTy).Contents (Elt F) :=
  chunk (chunks m k) ![15, 0] slices_S16x50000_S1x50000_15_0

/-- The contents of region 15's two prefetched tables, as a function of the launch contents only. -/
def tbl15 : pre15.Contents (Elt F) := fun
  | 0 => tab15 m 0
  | 1 => tab15 m 1
  | ⟨_ + 2, h⟩ => absurd h (Nat.not_lt.2 (Nat.le_add_left _ _))

theorem tbl15_zero : tbl15 m 0 = tab15 m 0 := rfl
theorem tbl15_one : tbl15 m 1 = tab15 m 1 := rfl

/-- Region 15 is entered with its tables at `tbl15`: the host stretch before it slices chunk 15 off the two chunked rows,
    which no earlier item has written since the first stretch made them. -/
theorem tbl15_of_V (outs : Outs (F := F)) (c : Dev nD) (k : Fin pre15.K) : V31 m outs c (pre15.ref k) = tbl15 m k := by
  match k with
  | 0 =>
    show StableHlo.after hostOps15 (V30 m outs c) (Proc.devRef .tc main_v113) = _
    after_results
    rw [show V30 m outs c (Proc.devRef .tc main_v4) = chunks m 0 from V30_main_v4 m outs c]
    rfl
  | 1 =>
    show StableHlo.after hostOps15 (V30 m outs c) (Proc.devRef .tc main_v115) = _
    after_results
    rw [show V30 m outs c (Proc.devRef .tc main_v5) = chunks m 1 from V30_main_v5 m outs c]
    rfl

/-- Region 15 is entered with the node features in its windows' array. -/
theorem feat15_of_V (outs : Outs (F := F)) (c : Dev nD) : V31 m outs c main_v6 = feat m := V31_main_v6 m outs c

/-- Every table word of region 15 is a word of the edge list. -/
theorem tab15_apply (k : Fin 2) (i : Fin 50000) :
    tab15 m k (ValueIdx.ix1 i) = edges m (ValueIdx.ix2 k ⟨15 * 50000 + i.val, by omega⟩) :=
  (chunk_apply _ _ _ ⟨15, by omega⟩ rfl rfl i).trans (chunks_apply m k _ i)

theorem tab15_lt (hr : ∀ i, (edges m i).toNat < 50000) (k : Fin 2) (i : S50000.Idx) : (tab15 m k i).toNat < 50000 :=
  chunk_lt m hr k _ _ i

/-- Tables whose words are node numbers put every block of region 15's two gathered windows inside the feature array. -/
theorem ok15_of_lt (pf : pre15.Contents (Elt F)) (h0 : ∀ i : S50000.Idx, (pf 0 i).toNat < 50000)
    (h1 : ∀ i : S50000.Idx, (pf 1 i).toNat < 50000) : ok15 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok15_of (hr : ∀ i, (edges m i).toNat < 50000) : ok15 (tbl15 m) :=
  ok15_of_lt (tbl15 m) (tab15_lt m hr 0) (tab15_lt m hr 1)

/-- Region 15's tables, admissible. -/
def adm15 (hr : ∀ i, (edges m i).toNat < 50000) : (pcfg15 (F := F)).Adm := ⟨tbl15 m, ok15_of m hr⟩

end Cert.Kernel.Tables
-- ==== Proof.K.Chain.lean ====
/-
The valuations between the items of the program with the regions' outputs tied down.

Between two items the unscoped buffers hold: the launch contents, then what each host stretch computes, then — after a
region — the same but for the region's output array, which holds what the region leaves. What region K leaves is a
function of the valuation it is entered from; given these sixteen functions (`Leaves`), the valuations `W1 … W33` are
defined outright, each from the previous one, and the family `outs` read off them makes the valuations `V1 … V33`,
which are stated over an arbitrary family, equal to them.  The tables' and the features' contents at each region's entry
carry over.

Laid out from the template: the fields of `Leaves`, the definitions `W2 … W33`, the cases of `outs`, and the sections
"Item 3 …" onwards (one text each, region 0's, with the region number, its output buffer, its valuations and its host
stretch substituted).  The rest is the template's own text, copied unchanged.
-/
import proofs.«418705_j10376640987952_2_alg».proof.Proof.K.Tables

set_option maxRecDepth 1400

noncomputable section

namespace Cert.Kernel.Chain

open Cert.Kernel Cert.Kernel.Gen Cert.Kernel.GenP Cert.Kernel.Tables
open Idealize.ShloMosaic Idealize.ShloMosaic.TcCoe

/-- What each region leaves in its output array, as a function of the valuations (one per device) it is entered from. -/
structure Leaves (F : FTy → Type) where
  o0 : (Dev nD → Valuation τ sig (Elt F)) → (c : Dev nD) → Buf (Elt F) ((c : Thread nD τ).loc main_v11)
  o1 : (Dev nD → Valuation τ sig (Elt F)) → (c : Dev nD) → Buf (Elt F) ((c : Thread nD τ).loc main_v18)
  o2 : (Dev nD → Valuation τ sig (Elt F)) → (c : Dev nD) → Buf (Elt F) ((c : Thread nD τ).loc main_v25)
  o3 : (Dev nD → Valuation τ sig (Elt F)) → (c : Dev nD) → Buf (Elt F) ((c : Thread nD τ).loc main_v32)
  o4 : (Dev nD → Valuation τ sig (Elt F)) → (c : Dev nD) → Buf (Elt F) ((c : Thread nD τ).loc main_v39)
  o5 : (Dev nD → Valuation τ sig (Elt F)) → (c : Dev nD) → Buf (Elt F) ((c : Thread nD τ).loc main_v46)
  o6 : (Dev nD → Valuation τ sig (Elt F)) → (c : Dev nD) → Buf (Elt F) ((c : Thread nD τ).loc main_v53)
  o7 : (Dev nD → Valuation τ sig (Elt F)) → (c : Dev nD) → Buf (Elt F) ((c : Thread nD τ).loc main_v60)
  o8 : (Dev nD → Valuation τ sig (Elt F)) → (c : Dev nD) → Buf (Elt F) ((c : Thread nD τ).loc main_v67)
  o9 : (Dev nD → Valuation τ sig (Elt F)) → (c : Dev nD) → Buf (Elt F) ((c : Thread nD τ).loc main_v74)
  o10 : (Dev nD → Valuation τ sig (Elt F)) → (c : Dev nD) → Buf (Elt F) ((c : Thread nD τ).loc main_v81)
  o11 : (Dev nD → Valuation τ sig (Elt F)) → (c : Dev nD) → Buf (Elt F) ((c : Thread nD τ).loc main_v88)
  o12 : (Dev nD → Valuation τ sig (Elt F)) → (c : Dev nD) → Buf (Elt F) ((c : Thread nD τ).loc main_v95)
  o13 : (Dev nD → Valuation τ sig (Elt F)) → (c : Dev nD) → Buf (Elt F) ((c : Thread nD τ).loc main_v102)
  o14 : (Dev nD → Valuation τ sig (Elt F)) → (c : Dev nD) → Buf (Elt F) ((c : Thread nD τ).loc main_v109)
  o15 : (Dev nD → Valuation τ sig (Elt F)) → (c : Dev nD) → Buf (Elt F) ((c : Thread nD τ).loc main_v116)

variable {F : FTy → Type} [FloatOps F]
variable (m : (ℓ : Loc nD τ sig) → Buf (Elt F) ℓ) (L : Leaves F)

/-! ## The valuations -/

/-- The unscoped buffers after item 0, the first host stretch (nothing of `L` is read yet). -/
def W1 (L : Leaves F) (c : Dev nD) : Valuation τ sig (Elt F) := V1 m c
/-- After item 1, region 0: its output array holds what the region leaves, the rest is as it was entered. -/
def W2 (c : Dev nD) : Valuation τ sig (Elt F) := Function.update (W1 m L c) main_v11 (L.o0 (W1 m L) c)
/-- After item 2, the host stretch that follows region 0. -/
def W3 (c : Dev nD) : Valuation τ sig (Elt F) := StableHlo.after hostOps1 (W2 m L c)
/-- After item 3, region 1: its output array holds what the region leaves, the rest is as it was entered. -/
def W4 (c : Dev nD) : Valuation τ sig (Elt F) := Function.update (W3 m L c) main_v18 (L.o1 (W3 m L) c)
/-- After item 4, the host stretch that follows region 1. -/
def W5 (c : Dev nD) : Valuation τ sig (Elt F) := StableHlo.after hostOps2 (W4 m L c)
/-- After item 5, region 2: its output array holds what the region leaves, the rest is as it was entered. -/
def W6 (c : Dev nD) : Valuation τ sig (Elt F) := Function.update (W5 m L c) main_v25 (L.o2 (W5 m L) c)
/-- After item 6, the host stretch that follows region 2. -/
def W7 (c : Dev nD) : Valuation τ sig (Elt F) := StableHlo.after hostOps3 (W6 m L c)
/-- After item 7, region 3: its output array holds what the region leaves, the rest is as it was entered. -/
def W8 (c : Dev nD) : Valuation τ sig (Elt F) := Function.update (W7 m L c) main_v32 (L.o3 (W7 m L) c)
/-- After item 8, the host stretch that follows region 3. -/
def W9 (c : Dev nD) : Valuation τ sig (Elt F) := StableHlo.after hostOps4 (W8 m L c)
/-- After item 9, region 4: its output array holds what the region leaves, the rest is as it was entered. -/
def W10 (c : Dev nD) : Valuation τ sig (Elt F) := Function.update (W9 m L c) main_v39 (L.o4 (W9 m L) c)
/-- After item 10, the host stretch that follows region 4. -/
def W11 (c : Dev nD) : Valuation τ sig (Elt F) := StableHlo.after hostOps5 (W10 m L c)
/-- After item 11, region 5: its output array holds what the region leaves, the rest is as it was entered. -/
def W12 (c : Dev nD) : Valuation τ sig (Elt F) := Function.update (W11 m L c) main_v46 (L.o5 (W11 m L) c)
/-- After item 12, the host stretch that follows region 5. -/
def W13 (c : Dev nD) : Valuation τ sig (Elt F) := StableHlo.after hostOps6 (W12 m L c)
/-- After item 13, region 6: its output array holds what the region leaves, the rest is as it was entered. -/
def W14 (c : Dev nD) : Valuation τ sig (Elt F) := Function.update (W13 m L c) main_v53 (L.o6 (W13 m L) c)
/-- After item 14, the host stretch that follows region 6. -/
def W15 (c : Dev nD) : Valuation τ sig (Elt F) := StableHlo.after hostOps7 (W14 m L c)
/-- After item 15, region 7: its output array holds what the region leaves, the rest is as it was entered. -/
def W16 (c : Dev nD) : Valuation τ sig (Elt F) := Function.update (W15 m L c) main_v60 (L.o7 (W15 m L) c)
/-- After item 16, the host stretch that follows region 7. -/
def W17 (c : Dev nD) : Valuation τ sig (Elt F) := StableHlo.after hostOps8 (W16 m L c)
/-- After item 17, region 8: its output array holds what the region leaves, the rest is as it was entered. -/
def W18 (c : Dev nD) : Valuation τ sig (Elt F) := Function.update (W17 m L c) main_v67 (L.o8 (W17 m L) c)
/-- After item 18, the host stretch that follows region 8. -/
def W19 (c : Dev nD) : Valuation τ sig (Elt F) := StableHlo.after hostOps9 (W18 m L c)
/-- After item 19, region 9: its output array holds what the region leaves, the rest is as it was entered. -/
def W20 (c : Dev nD) : Valuation τ sig (Elt F) := Function.update (W19 m L c) main_v74 (L.o9 (W19 m L) c)
/-- After item 20, the host stretch that follows region 9. -/
def W21 (c : Dev nD) : Valuation τ sig (Elt F) := StableHlo.after hostOps10 (W20 m L c)
/-- After item 21, region 10: its output array holds what the region leaves, the rest is as it was entered. -/
def W22 (c : Dev nD) : Valuation τ sig (Elt F) := Function.update (W21 m L c) main_v81 (L.o10 (W21 m L) c)
/-- After item 22, the host stretch that follows region 10. -/
def W23 (c : Dev nD) : Valuation τ sig (Elt F) := StableHlo.after hostOps11 (W22 m L c)
/-- After item 23, region 11: its output array holds what the region leaves, the rest is as it was entered. -/
def W24 (c : Dev nD) : Valuation τ sig (Elt F) := Function.update (W23 m L c) main_v88 (L.o11 (W23 m L) c)
/-- After item 24, the host stretch that follows region 11. -/
def W25 (c : Dev nD) : Valuation τ sig (Elt F) := StableHlo.after hostOps12 (W24 m L c)
/-- After item 25, region 12: its output array holds what the region leaves, the rest is as it was entered. -/
def W26 (c : Dev nD) : Valuation τ sig (Elt F) := Function.update (W25 m L c) main_v95 (L.o12 (W25 m L) c)
/-- After item 26, the host stretch that follows region 12. -/
def W27 (c : Dev nD) : Valuation τ sig (Elt F) := StableHlo.after hostOps13 (W26 m L c)
/-- After item 27, region 13: its output array holds what the region leaves, the rest is as it was entered. -/
def W28 (c : Dev nD) : Valuation τ sig (Elt F) := Function.update (W27 m L c) main_v102 (L.o13 (W27 m L) c)
/-- After item 28, the host stretch that follows region 13. -/
def W29 (c : Dev nD) : Valuation τ sig (Elt F) := StableHlo.after hostOps14 (W28 m L c)
/-- After item 29, region 14: its output array holds what the region leaves, the rest is as it was entered. -/
def W30 (c : Dev nD) : Valuation τ sig (Elt F) := Function.update (W29 m L c) main_v109 (L.o14 (W29 m L) c)
/-- After item 30, the host stretch that follows region 14. -/
def W31 (c : Dev nD) : Valuation τ sig (Elt F) := StableHlo.after hostOps15 (W30 m L c)
/-- After item 31, region 15: its output array holds what the region leaves, the rest is as it was entered. -/
def W32 (c : Dev nD) : Valuation τ sig (Elt F) := Function.update (W31 m L c) main_v116 (L.o15 (W31 m L) c)
/-- After item 32, the host stretch that follows region 15. -/
def W33 (c : Dev nD) : Valuation τ sig (Elt F) := StableHlo.after hostOps16 (W32 m L c)

/-- The contents the regions leave, read off the valuations: after region K (item 2K+1) its output array holds what
    `W(2K+2)` holds there. -/
def outs : Outs (F := F) := fun J r c =>
  match J with
  | 2 => W2 m L c r
  | 4 => W4 m L c r
  | 6 => W6 m L c r
  | 8 => W8 m L c r
  | 10 => W10 m L c r
  | 12 => W12 m L c r
  | 14 => W14 m L c r
  | 16 => W16 m L c r
  | 18 => W18 m L c r
  | 20 => W20 m L c r
  | 22 => W22 m L c r
  | 24 => W24 m L c r
  | 26 => W26 m L c r
  | 28 => W28 m L c r
  | 30 => W30 m L c r
  | 32 => W32 m L c r
  | _ => W1 m L c r

/-! ## The valuations over `outs` are these -/

theorem V1_eq (c : Dev nD) : V1 m c = W1 m L c := rfl

/-! ### Item 2 (region 0) and item 3 (the host stretch after it) -/

/-- What `outs` says region 0 leaves is what `L` says it leaves from the valuation it is entered from. -/
theorem outs_apply_0 (c : Dev nD) : outs m L 2 main_v11 c = L.o0 (W1 m L) c := by
  show W2 m L c (Proc.devRef .tc main_v11) = _
  unfold W2
  exact Function.update_self ..

theorem V2_eq (c : Dev nD) : V2 m (outs m L) c = W2 m L c := by
  unfold W2
  rw [← outs_apply_0 m L c, ← V1_eq m L c]

theorem V3_eq (c : Dev nD) : V3 m (outs m L) c = W3 m L c := by
  show StableHlo.after hostOps1 (V2 m (outs m L) c) = StableHlo.after hostOps1 (W2 m L c)
  rw [V2_eq m L c]

/-- Region 0 is entered with its tables at `tbl0`. -/
theorem W_tbl0 (c : Dev nD) (k : Fin pre0.K) : W1 m L c (pre0.ref k) = tbl0 m k :=
  (congrFun (V1_eq m L c).symm _).trans (tbl0_of_V m (outs m L) c k)

/-- Region 0 is entered with the node features in its windows' array. -/
theorem W_feat0 (c : Dev nD) : W1 m L c main_v6 = feat m :=
  (congrFun (V1_eq m L c).symm _).trans (feat0_of_V m (outs m L) c)

/-- Region 0 changes its output array only. -/
theorem W_keep_0 (c : Dev nD) (b : Ref sig .tc) (hb : b ≠ main_v11) : W2 m L c b = W1 m L c b := by
  unfold W2
  exact Function.update_of_ne (StableHlo.devRef_ne_of_ne hb) ..

theorem W_out_0 (c : Dev nD) : W2 m L c main_v11 = L.o0 (W1 m L) c := by
  unfold W2
  exact Function.update_self ..

/-! ### Item 4 (region 1) and item 5 (the host stretch after it) -/

/-- What `outs` says region 1 leaves is what `L` says it leaves from the valuation it is entered from. -/
theorem outs_apply_1 (c : Dev nD) : outs m L 4 main_v18 c = L.o1 (W3 m L) c := by
  show W4 m L c (Proc.devRef .tc main_v18) = _
  unfold W4
  exact Function.update_self ..

theorem V4_eq (c : Dev nD) : V4 m (outs m L) c = W4 m L c := by
  unfold W4
  rw [← outs_apply_1 m L c, ← V3_eq m L c]

theorem V5_eq (c : Dev nD) : V5 m (outs m L) c = W5 m L c := by
  show StableHlo.after hostOps2 (V4 m (outs m L) c) = StableHlo.after hostOps2 (W4 m L c)
  rw [V4_eq m L c]

/-- Region 1 is entered with its tables at `tbl1`. -/
theorem W_tbl1 (c : Dev nD) (k : Fin pre1.K) : W3 m L c (pre1.ref k) = tbl1 m k :=
  (congrFun (V3_eq m L c).symm _).trans (tbl1_of_V m (outs m L) c k)

/-- Region 1 is entered with the node features in its windows' array. -/
theorem W_feat1 (c : Dev nD) : W3 m L c main_v6 = feat m :=
  (congrFun (V3_eq m L c).symm _).trans (feat1_of_V m (outs m L) c)

/-- Region 1 changes its output array only. -/
theorem W_keep_1 (c : Dev nD) (b : Ref sig .tc) (hb : b ≠ main_v18) : W4 m L c b = W3 m L c b := by
  unfold W4
  exact Function.update_of_ne (StableHlo.devRef_ne_of_ne hb) ..

theorem W_out_1 (c : Dev nD) : W4 m L c main_v18 = L.o1 (W3 m L) c := by
  unfold W4
  exact Function.update_self ..

/-! ### Item 6 (region 2) and item 7 (the host stretch after it) -/

/-- What `outs` says region 2 leaves is what `L` says it leaves from the valuation it is entered from. -/
theorem outs_apply_2 (c : Dev nD) : outs m L 6 main_v25 c = L.o2 (W5 m L) c := by
  show W6 m L c (Proc.devRef .tc main_v25) = _
  unfold W6
  exact Function.update_self ..

theorem V6_eq (c : Dev nD) : V6 m (outs m L) c = W6 m L c := by
  unfold W6
  rw [← outs_apply_2 m L c, ← V5_eq m L c]

theorem V7_eq (c : Dev nD) : V7 m (outs m L) c = W7 m L c := by
  show StableHlo.after hostOps3 (V6 m (outs m L) c) = StableHlo.after hostOps3 (W6 m L c)
  rw [V6_eq m L c]

/-- Region 2 is entered with its tables at `tbl2`. -/
theorem W_tbl2 (c : Dev nD) (k : Fin pre2.K) : W5 m L c (pre2.ref k) = tbl2 m k :=
  (congrFun (V5_eq m L c).symm _).trans (tbl2_of_V m (outs m L) c k)

/-- Region 2 is entered with the node features in its windows' array. -/
theorem W_feat2 (c : Dev nD) : W5 m L c main_v6 = feat m :=
  (congrFun (V5_eq m L c).symm _).trans (feat2_of_V m (outs m L) c)

/-- Region 2 changes its output array only. -/
theorem W_keep_2 (c : Dev nD) (b : Ref sig .tc) (hb : b ≠ main_v25) : W6 m L c b = W5 m L c b := by
  unfold W6
  exact Function.update_of_ne (StableHlo.devRef_ne_of_ne hb) ..

theorem W_out_2 (c : Dev nD) : W6 m L c main_v25 = L.o2 (W5 m L) c := by
  unfold W6
  exact Function.update_self ..

/-! ### Item 8 (region 3) and item 9 (the host stretch after it) -/

/-- What `outs` says region 3 leaves is what `L` says it leaves from the valuation it is entered from. -/
theorem outs_apply_3 (c : Dev nD) : outs m L 8 main_v32 c = L.o3 (W7 m L) c := by
  show W8 m L c (Proc.devRef .tc main_v32) = _
  unfold W8
  exact Function.update_self ..

theorem V8_eq (c : Dev nD) : V8 m (outs m L) c = W8 m L c := by
  unfold W8
  rw [← outs_apply_3 m L c, ← V7_eq m L c]

theorem V9_eq (c : Dev nD) : V9 m (outs m L) c = W9 m L c := by
  show StableHlo.after hostOps4 (V8 m (outs m L) c) = StableHlo.after hostOps4 (W8 m L c)
  rw [V8_eq m L c]

/-- Region 3 is entered with its tables at `tbl3`. -/
theorem W_tbl3 (c : Dev nD) (k : Fin pre3.K) : W7 m L c (pre3.ref k) = tbl3 m k :=
  (congrFun (V7_eq m L c).symm _).trans (tbl3_of_V m (outs m L) c k)

/-- Region 3 is entered with the node features in its windows' array. -/
theorem W_feat3 (c : Dev nD) : W7 m L c main_v6 = feat m :=
  (congrFun (V7_eq m L c).symm _).trans (feat3_of_V m (outs m L) c)

/-- Region 3 changes its output array only. -/
theorem W_keep_3 (c : Dev nD) (b : Ref sig .tc) (hb : b ≠ main_v32) : W8 m L c b = W7 m L c b := by
  unfold W8
  exact Function.update_of_ne (StableHlo.devRef_ne_of_ne hb) ..

theorem W_out_3 (c : Dev nD) : W8 m L c main_v32 = L.o3 (W7 m L) c := by
  unfold W8
  exact Function.update_self ..

/-! ### Item 10 (region 4) and item 11 (the host stretch after it) -/

/-- What `outs` says region 4 leaves is what `L` says it leaves from the valuation it is entered from. -/
theorem outs_apply_4 (c : Dev nD) : outs m L 10 main_v39 c = L.o4 (W9 m L) c := by
  show W10 m L c (Proc.devRef .tc main_v39) = _
  unfold W10
  exact Function.update_self ..

theorem V10_eq (c : Dev nD) : V10 m (outs m L) c = W10 m L c := by
  unfold W10
  rw [← outs_apply_4 m L c, ← V9_eq m L c]

theorem V11_eq (c : Dev nD) : V11 m (outs m L) c = W11 m L c := by
  show StableHlo.after hostOps5 (V10 m (outs m L) c) = StableHlo.after hostOps5 (W10 m L c)
  rw [V10_eq m L c]

/-- Region 4 is entered with its tables at `tbl4`. -/
theorem W_tbl4 (c : Dev nD) (k : Fin pre4.K) : W9 m L c (pre4.ref k) = tbl4 m k :=
  (congrFun (V9_eq m L c).symm _).trans (tbl4_of_V m (outs m L) c k)

/-- Region 4 is entered with the node features in its windows' array. -/
theorem W_feat4 (c : Dev nD) : W9 m L c main_v6 = feat m :=
  (congrFun (V9_eq m L c).symm _).trans (feat4_of_V m (outs m L) c)

/-- Region 4 changes its output array only. -/
theorem W_keep_4 (c : Dev nD) (b : Ref sig .tc) (hb : b ≠ main_v39) : W10 m L c b = W9 m L c b := by
  unfold W10
  exact Function.update_of_ne (StableHlo.devRef_ne_of_ne hb) ..

theorem W_out_4 (c : Dev nD) : W10 m L c main_v39 = L.o4 (W9 m L) c := by
  unfold W10
  exact Function.update_self ..

/-! ### Item 12 (region 5) and item 13 (the host stretch after it) -/

/-- What `outs` says region 5 leaves is what `L` says it leaves from the valuation it is entered from. -/
theorem outs_apply_5 (c : Dev nD) : outs m L 12 main_v46 c = L.o5 (W11 m L) c := by
  show W12 m L c (Proc.devRef .tc main_v46) = _
  unfold W12
  exact Function.update_self ..

theorem V12_eq (c : Dev nD) : V12 m (outs m L) c = W12 m L c := by
  unfold W12
  rw [← outs_apply_5 m L c, ← V11_eq m L c]

theorem V13_eq (c : Dev nD) : V13 m (outs m L) c = W13 m L c := by
  show StableHlo.after hostOps6 (V12 m (outs m L) c) = StableHlo.after hostOps6 (W12 m L c)
  rw [V12_eq m L c]

/-- Region 5 is entered with its tables at `tbl5`. -/
theorem W_tbl5 (c : Dev nD) (k : Fin pre5.K) : W11 m L c (pre5.ref k) = tbl5 m k :=
  (congrFun (V11_eq m L c).symm _).trans (tbl5_of_V m (outs m L) c k)

/-- Region 5 is entered with the node features in its windows' array. -/
theorem W_feat5 (c : Dev nD) : W11 m L c main_v6 = feat m :=
  (congrFun (V11_eq m L c).symm _).trans (feat5_of_V m (outs m L) c)

/-- Region 5 changes its output array only. -/
theorem W_keep_5 (c : Dev nD) (b : Ref sig .tc) (hb : b ≠ main_v46) : W12 m L c b = W11 m L c b := by
  unfold W12
  exact Function.update_of_ne (StableHlo.devRef_ne_of_ne hb) ..

theorem W_out_5 (c : Dev nD) : W12 m L c main_v46 = L.o5 (W11 m L) c := by
  unfold W12
  exact Function.update_self ..

/-! ### Item 14 (region 6) and item 15 (the host stretch after it) -/

/-- What `outs` says region 6 leaves is what `L` says it leaves from the valuation it is entered from. -/
theorem outs_apply_6 (c : Dev nD) : outs m L 14 main_v53 c = L.o6 (W13 m L) c := by
  show W14 m L c (Proc.devRef .tc main_v53) = _
  unfold W14
  exact Function.update_self ..

theorem V14_eq (c : Dev nD) : V14 m (outs m L) c = W14 m L c := by
  unfold W14
  rw [← outs_apply_6 m L c, ← V13_eq m L c]

theorem V15_eq (c : Dev nD) : V15 m (outs m L) c = W15 m L c := by
  show StableHlo.after hostOps7 (V14 m (outs m L) c) = StableHlo.after hostOps7 (W14 m L c)
  rw [V14_eq m L c]

/-- Region 6 is entered with its tables at `tbl6`. -/
theorem W_tbl6 (c : Dev nD) (k : Fin pre6.K) : W13 m L c (pre6.ref k) = tbl6 m k :=
  (congrFun (V13_eq m L c).symm _).trans (tbl6_of_V m (outs m L) c k)

/-- Region 6 is entered with the node features in its windows' array. -/
theorem W_feat6 (c : Dev nD) : W13 m L c main_v6 = feat m :=
  (congrFun (V13_eq m L c).symm _).trans (feat6_of_V m (outs m L) c)

/-- Region 6 changes its output array only. -/
theorem W_keep_6 (c : Dev nD) (b : Ref sig .tc) (hb : b ≠ main_v53) : W14 m L c b = W13 m L c b := by
  unfold W14
  exact Function.update_of_ne (StableHlo.devRef_ne_of_ne hb) ..

theorem W_out_6 (c : Dev nD) : W14 m L c main_v53 = L.o6 (W13 m L) c := by
  unfold W14
  exact Function.update_self ..

/-! ### Item 16 (region 7) and item 17 (the host stretch after it) -/

/-- What `outs` says region 7 leaves is what `L` says it leaves from the valuation it is entered from. -/
theorem outs_apply_7 (c : Dev nD) : outs m L 16 main_v60 c = L.o7 (W15 m L) c := by
  show W16 m L c (Proc.devRef .tc main_v60) = _
  unfold W16
  exact Function.update_self ..

theorem V16_eq (c : Dev nD) : V16 m (outs m L) c = W16 m L c := by
  unfold W16
  rw [← outs_apply_7 m L c, ← V15_eq m L c]

theorem V17_eq (c : Dev nD) : V17 m (outs m L) c = W17 m L c := by
  show StableHlo.after hostOps8 (V16 m (outs m L) c) = StableHlo.after hostOps8 (W16 m L c)
  rw [V16_eq m L c]

/-- Region 7 is entered with its tables at `tbl7`. -/
theorem W_tbl7 (c : Dev nD) (k : Fin pre7.K) : W15 m L c (pre7.ref k) = tbl7 m k :=
  (congrFun (V15_eq m L c).symm _).trans (tbl7_of_V m (outs m L) c k)

/-- Region 7 is entered with the node features in its windows' array. -/
theorem W_feat7 (c : Dev nD) : W15 m L c main_v6 = feat m :=
  (congrFun (V15_eq m L c).symm _).trans (feat7_of_V m (outs m L) c)

/-- Region 7 changes its output array only. -/
theorem W_keep_7 (c : Dev nD) (b : Ref sig .tc) (hb : b ≠ main_v60) : W16 m L c b = W15 m L c b := by
  unfold W16
  exact Function.update_of_ne (StableHlo.devRef_ne_of_ne hb) ..

theorem W_out_7 (c : Dev nD) : W16 m L c main_v60 = L.o7 (W15 m L) c := by
  unfold W16
  exact Function.update_self ..

/-! ### Item 18 (region 8) and item 19 (the host stretch after it) -/

/-- What `outs` says region 8 leaves is what `L` says it leaves from the valuation it is entered from. -/
theorem outs_apply_8 (c : Dev nD) : outs m L 18 main_v67 c = L.o8 (W17 m L) c := by
  show W18 m L c (Proc.devRef .tc main_v67) = _
  unfold W18
  exact Function.update_self ..

theorem V18_eq (c : Dev nD) : V18 m (outs m L) c = W18 m L c := by
  unfold W18
  rw [← outs_apply_8 m L c, ← V17_eq m L c]

theorem V19_eq (c : Dev nD) : V19 m (outs m L) c = W19 m L c := by
  show StableHlo.after hostOps9 (V18 m (outs m L) c) = StableHlo.after hostOps9 (W18 m L c)
  rw [V18_eq m L c]

/-- Region 8 is entered with its tables at `tbl8`. -/
theorem W_tbl8 (c : Dev nD) (k : Fin pre8.K) : W17 m L c (pre8.ref k) = tbl8 m k :=
  (congrFun (V17_eq m L c).symm _).trans (tbl8_of_V m (outs m L) c k)

/-- Region 8 is entered with the node features in its windows' array. -/
theorem W_feat8 (c : Dev nD) : W17 m L c main_v6 = feat m :=
  (congrFun (V17_eq m L c).symm _).trans (feat8_of_V m (outs m L) c)

/-- Region 8 changes its output array only. -/
theorem W_keep_8 (c : Dev nD) (b : Ref sig .tc) (hb : b ≠ main_v67) : W18 m L c b = W17 m L c b := by
  unfold W18
  exact Function.update_of_ne (StableHlo.devRef_ne_of_ne hb) ..

theorem W_out_8 (c : Dev nD) : W18 m L c main_v67 = L.o8 (W17 m L) c := by
  unfold W18
  exact Function.update_self ..

/-! ### Item 20 (region 9) and item 21 (the host stretch after it) -/

/-- What `outs` says region 9 leaves is what `L` says it leaves from the valuation it is entered from. -/
theorem outs_apply_9 (c : Dev nD) : outs m L 20 main_v74 c = L.o9 (W19 m L) c := by
  show W20 m L c (Proc.devRef .tc main_v74) = _
  unfold W20
  exact Function.update_self ..

theorem V20_eq (c : Dev nD) : V20 m (outs m L) c = W20 m L c := by
  unfold W20
  rw [← outs_apply_9 m L c, ← V19_eq m L c]

theorem V21_eq (c : Dev nD) : V21 m (outs m L) c = W21 m L c := by
  show StableHlo.after hostOps10 (V20 m (outs m L) c) = StableHlo.after hostOps10 (W20 m L c)
  rw [V20_eq m L c]

/-- Region 9 is entered with its tables at `tbl9`. -/
theorem W_tbl9 (c : Dev nD) (k : Fin pre9.K) : W19 m L c (pre9.ref k) = tbl9 m k :=
  (congrFun (V19_eq m L c).symm _).trans (tbl9_of_V m (outs m L) c k)

/-- Region 9 is entered with the node features in its windows' array. -/
theorem W_feat9 (c : Dev nD) : W19 m L c main_v6 = feat m :=
  (congrFun (V19_eq m L c).symm _).trans (feat9_of_V m (outs m L) c)

/-- Region 9 changes its output array only. -/
theorem W_keep_9 (c : Dev nD) (b : Ref sig .tc) (hb : b ≠ main_v74) : W20 m L c b = W19 m L c b := by
  unfold W20
  exact Function.update_of_ne (StableHlo.devRef_ne_of_ne hb) ..

theorem W_out_9 (c : Dev nD) : W20 m L c main_v74 = L.o9 (W19 m L) c := by
  unfold W20
  exact Function.update_self ..

/-! ### Item 22 (region 10) and item 23 (the host stretch after it) -/

/-- What `outs` says region 10 leaves is what `L` says it leaves from the valuation it is entered from. -/
theorem outs_apply_10 (c : Dev nD) : outs m L 22 main_v81 c = L.o10 (W21 m L) c := by
  show W22 m L c (Proc.devRef .tc main_v81) = _
  unfold W22
  exact Function.update_self ..

theorem V22_eq (c : Dev nD) : V22 m (outs m L) c = W22 m L c := by
  unfold W22
  rw [← outs_apply_10 m L c, ← V21_eq m L c]

theorem V23_eq (c : Dev nD) : V23 m (outs m L) c = W23 m L c := by
  show StableHlo.after hostOps11 (V22 m (outs m L) c) = StableHlo.after hostOps11 (W22 m L c)
  rw [V22_eq m L c]

/-- Region 10 is entered with its tables at `tbl10`. -/
theorem W_tbl10 (c : Dev nD) (k : Fin pre10.K) : W21 m L c (pre10.ref k) = tbl10 m k :=
  (congrFun (V21_eq m L c).symm _).trans (tbl10_of_V m (outs m L) c k)

/-- Region 10 is entered with the node features in its windows' array. -/
theorem W_feat10 (c : Dev nD) : W21 m L c main_v6 = feat m :=
  (congrFun (V21_eq m L c).symm _).trans (feat10_of_V m (outs m L) c)

/-- Region 10 changes its output array only. -/
theorem W_keep_10 (c : Dev nD) (b : Ref sig .tc) (hb : b ≠ main_v81) : W22 m L c b = W21 m L c b := by
  unfold W22
  exact Function.update_of_ne (StableHlo.devRef_ne_of_ne hb) ..

theorem W_out_10 (c : Dev nD) : W22 m L c main_v81 = L.o10 (W21 m L) c := by
  unfold W22
  exact Function.update_self ..

/-! ### Item 24 (region 11) and item 25 (the host stretch after it) -/

/-- What `outs` says region 11 leaves is what `L` says it leaves from the valuation it is entered from. -/
theorem outs_apply_11 (c : Dev nD) : outs m L 24 main_v88 c = L.o11 (W23 m L) c := by
  show W24 m L c (Proc.devRef .tc main_v88) = _
  unfold W24
  exact Function.update_self ..

theorem V24_eq (c : Dev nD) : V24 m (outs m L) c = W24 m L c := by
  unfold W24
  rw [← outs_apply_11 m L c, ← V23_eq m L c]

theorem V25_eq (c : Dev nD) : V25 m (outs m L) c = W25 m L c := by
  show StableHlo.after hostOps12 (V24 m (outs m L) c) = StableHlo.after hostOps12 (W24 m L c)
  rw [V24_eq m L c]

/-- Region 11 is entered with its tables at `tbl11`. -/
theorem W_tbl11 (c : Dev nD) (k : Fin pre11.K) : W23 m L c (pre11.ref k) = tbl11 m k :=
  (congrFun (V23_eq m L c).symm _).trans (tbl11_of_V m (outs m L) c k)

/-- Region 11 is entered with the node features in its windows' array. -/
theorem W_feat11 (c : Dev nD) : W23 m L c main_v6 = feat m :=
  (congrFun (V23_eq m L c).symm _).trans (feat11_of_V m (outs m L) c)

/-- Region 11 changes its output array only. -/
theorem W_keep_11 (c : Dev nD) (b : Ref sig .tc) (hb : b ≠ main_v88) : W24 m L c b = W23 m L c b := by
  unfold W24
  exact Function.update_of_ne (StableHlo.devRef_ne_of_ne hb) ..

theorem W_out_11 (c : Dev nD) : W24 m L c main_v88 = L.o11 (W23 m L) c := by
  unfold W24
  exact Function.update_self ..

/-! ### Item 26 (region 12) and item 27 (the host stretch after it) -/

/-- What `outs` says region 12 leaves is what `L` says it leaves from the valuation it is entered from. -/
theorem outs_apply_12 (c : Dev nD) : outs m L 26 main_v95 c = L.o12 (W25 m L) c := by
  show W26 m L c (Proc.devRef .tc main_v95) = _
  unfold W26
  exact Function.update_self ..

theorem V26_eq (c : Dev nD) : V26 m (outs m L) c = W26 m L c := by
  unfold W26
  rw [← outs_apply_12 m L c, ← V25_eq m L c]

theorem V27_eq (c : Dev nD) : V27 m (outs m L) c = W27 m L c := by
  show StableHlo.after hostOps13 (V26 m (outs m L) c) = StableHlo.after hostOps13 (W26 m L c)
  rw [V26_eq m L c]

/-- Region 12 is entered with its tables at `tbl12`. -/
theorem W_tbl12 (c : Dev nD) (k : Fin pre12.K) : W25 m L c (pre12.ref k) = tbl12 m k :=
  (congrFun (V25_eq m L c).symm _).trans (tbl12_of_V m (outs m L) c k)

/-- Region 12 is entered with the node features in its windows' array. -/
theorem W_feat12 (c : Dev nD) : W25 m L c main_v6 = feat m :=
  (congrFun (V25_eq m L c).symm _).trans (feat12_of_V m (outs m L) c)

/-- Region 12 changes its output array only. -/
theorem W_keep_12 (c : Dev nD) (b : Ref sig .tc) (hb : b ≠ main_v95) : W26 m L c b = W25 m L c b := by
  unfold W26
  exact Function.update_of_ne (StableHlo.devRef_ne_of_ne hb) ..

theorem W_out_12 (c : Dev nD) : W26 m L c main_v95 = L.o12 (W25 m L) c := by
  unfold W26
  exact Function.update_self ..

/-! ### Item 28 (region 13) and item 29 (the host stretch after it) -/

/-- What `outs` says region 13 leaves is what `L` says it leaves from the valuation it is entered from. -/
theorem outs_apply_13 (c : Dev nD) : outs m L 28 main_v102 c = L.o13 (W27 m L) c := by
  show W28 m L c (Proc.devRef .tc main_v102) = _
  unfold W28
  exact Function.update_self ..

theorem V28_eq (c : Dev nD) : V28 m (outs m L) c = W28 m L c := by
  unfold W28
  rw [← outs_apply_13 m L c, ← V27_eq m L c]

theorem V29_eq (c : Dev nD) : V29 m (outs m L) c = W29 m L c := by
  show StableHlo.after hostOps14 (V28 m (outs m L) c) = StableHlo.after hostOps14 (W28 m L c)
  rw [V28_eq m L c]

/-- Region 13 is entered with its tables at `tbl13`. -/
theorem W_tbl13 (c : Dev nD) (k : Fin pre13.K) : W27 m L c (pre13.ref k) = tbl13 m k :=
  (congrFun (V27_eq m L c).symm _).trans (tbl13_of_V m (outs m L) c k)

/-- Region 13 is entered with the node features in its windows' array. -/
theorem W_feat13 (c : Dev nD) : W27 m L c main_v6 = feat m :=
  (congrFun (V27_eq m L c).symm _).trans (feat13_of_V m (outs m L) c)

/-- Region 13 changes its output array only. -/
theorem W_keep_13 (c : Dev nD) (b : Ref sig .tc) (hb : b ≠ main_v102) : W28 m L c b = W27 m L c b := by
  unfold W28
  exact Function.update_of_ne (StableHlo.devRef_ne_of_ne hb) ..

theorem W_out_13 (c : Dev nD) : W28 m L c main_v102 = L.o13 (W27 m L) c := by
  unfold W28
  exact Function.update_self ..

/-! ### Item 30 (region 14) and item 31 (the host stretch after it) -/

/-- What `outs` says region 14 leaves is what `L` says it leaves from the valuation it is entered from. -/
theorem outs_apply_14 (c : Dev nD) : outs m L 30 main_v109 c = L.o14 (W29 m L) c := by
  show W30 m L c (Proc.devRef .tc main_v109) = _
  unfold W30
  exact Function.update_self ..

theorem V30_eq (c : Dev nD) : V30 m (outs m L) c = W30 m L c := by
  unfold W30
  rw [← outs_apply_14 m L c, ← V29_eq m L c]

theorem V31_eq (c : Dev nD) : V31 m (outs m L) c = W31 m L c := by
  show StableHlo.after hostOps15 (V30 m (outs m L) c) = StableHlo.after hostOps15 (W30 m L c)
  rw [V30_eq m L c]

/-- Region 14 is entered with its tables at `tbl14`. -/
theorem W_tbl14 (c : Dev nD) (k : Fin pre14.K) : W29 m L c (pre14.ref k) = tbl14 m k :=
  (congrFun (V29_eq m L c).symm _).trans (tbl14_of_V m (outs m L) c k)

/-- Region 14 is entered with the node features in its windows' array. -/
theorem W_feat14 (c : Dev nD) : W29 m L c main_v6 = feat m :=
  (congrFun (V29_eq m L c).symm _).trans (feat14_of_V m (outs m L) c)

/-- Region 14 changes its output array only. -/
theorem W_keep_14 (c : Dev nD) (b : Ref sig .tc) (hb : b ≠ main_v109) : W30 m L c b = W29 m L c b := by
  unfold W30
  exact Function.update_of_ne (StableHlo.devRef_ne_of_ne hb) ..

theorem W_out_14 (c : Dev nD) : W30 m L c main_v109 = L.o14 (W29 m L) c := by
  unfold W30
  exact Function.update_self ..

/-! ### Item 32 (region 15) and item 33 (the host stretch after it) -/

/-- What `outs` says region 15 leaves is what `L` says it leaves from the valuation it is entered from. -/
theorem outs_apply_15 (c : Dev nD) : outs m L 32 main_v116 c = L.o15 (W31 m L) c := by
  show W32 m L c (Proc.devRef .tc main_v116) = _
  unfold W32
  exact Function.update_self ..

theorem V32_eq (c : Dev nD) : V32 m (outs m L) c = W32 m L c := by
  unfold W32
  rw [← outs_apply_15 m L c, ← V31_eq m L c]

theorem V33_eq (c : Dev nD) : V33 m (outs m L) c = W33 m L c := by
  show StableHlo.after hostOps16 (V32 m (outs m L) c) = StableHlo.after hostOps16 (W32 m L c)
  rw [V32_eq m L c]

/-- Region 15 is entered with its tables at `tbl15`. -/
theorem W_tbl15 (c : Dev nD) (k : Fin pre15.K) : W31 m L c (pre15.ref k) = tbl15 m k :=
  (congrFun (V31_eq m L c).symm _).trans (tbl15_of_V m (outs m L) c k)

/-- Region 15 is entered with the node features in its windows' array. -/
theorem W_feat15 (c : Dev nD) : W31 m L c main_v6 = feat m :=
  (congrFun (V31_eq m L c).symm _).trans (feat15_of_V m (outs m L) c)

/-- Region 15 changes its output array only. -/
theorem W_keep_15 (c : Dev nD) (b : Ref sig .tc) (hb : b ≠ main_v116) : W32 m L c b = W31 m L c b := by
  unfold W32
  exact Function.update_of_ne (StableHlo.devRef_ne_of_ne hb) ..

theorem W_out_15 (c : Dev nD) : W32 m L c main_v116 = L.o15 (W31 m L) c := by
  unfold W32
  exact Function.update_self ..

end Cert.Kernel.Chain
-- ==== Proof.K.Run00.lean ====
import proofs.«418705_j10376640987952_2_alg».proof.Proof.Gen.Kernel.Launch
import proofs.«418705_j10376640987952_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

/-!
The body of pallas_call 0 of the program, run once per kind of grid point.

The body keeps one running sum in a one-word scratch. At a point it reads the two staged feature rows
`x3` (source node) and `x4` (destination node), forms `√(∑ⱼ (x3ⱼ − x4ⱼ)²)` and adds it to the scratch
(the payload `k0_pay2 x3 x4 xs` of the scratch's old word `xs`). At the FIRST point the scratch is first
reset to zero (`k0_pay1`), so it ends at `k0_pay2 x3 x4 k0_pay1`; at the LAST point the new sum is also
copied into the output's staging word. The three statements below say exactly that, for any staging
buffers the pipeline may hand the body.
-/

set_option maxRecDepth 16384

noncomputable section

namespace Cert.Kernel.Chunk0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid point is the first one: the condition of the body's first conditional. -/
abbrev condA (i : grid0.Coords) : Prop := (Scalar.cmpi .ne (Scalar.extui (Scalar.cmpi .eq (BitVec.ofNat 32 (i 0).val) 0#32)) 0#32) = 1#1
/-- The grid point is the last one: the condition of the body's second conditional. -/
abbrev condC (i : grid0.Coords) : Prop := k0_cond2 i = 1#1

theorem hz2 : (![0, 0] : Fin S1x1.rank → ℕ) = fun _ => 0 := by
  funext a; fin_cases a <;> rfl

theorem hz3 : (![0, 0, 0] : Fin S1x1x96.rank → ℕ) = fun _ => 0 := by
  funext a; fin_cases a <;> rfl

set_option maxHeartbeats 1000000 in
/-- The first point: whatever the scratch held, it ends at the update of the zero word by the two rows;
    the output's buffer is not touched. -/
theorem specA (c : Dev nD) (i : grid0.Coords) (arg1 : Memref sig .tc .smem S50000 .i32) (harg1 : arg1.IsWhole) (arg2 : Memref sig .tc .smem S50000 .i32) (harg2 : arg2.IsWhole)
    (arg3 : Memref sig .tc .vmem S1x1x96 .f32) (harg3 : arg3.IsWhole) (arg4 : Memref sig .tc .vmem S1x1x96 .f32) (harg4 : arg4.IsWhole)
    (arg5 : Memref sig .tc .vmem S1x1 .f32) (harg5 : arg5.IsWhole) (arg6 : Memref sig .tc .vmem S1x1 .f32) (harg6 : arg6.IsWhole)
    (hA : condA i) (hC : ¬condC i) (x3 x4 : Vec F S1x1x96 .f32) (xo : Vec F S1x1 .f32) (E : Set ℕ) (K : PUnit → sProp 𝕄) :
    iprop(owns (c : Thread nD τ) arg3 fullShare x3 ∗ owns (c : Thread nD τ) arg4 fullShare x4 ∗ owns (c : Thread nD τ) arg5 fullShare xo ∗ (∃ d, owns (c : Thread nD τ) arg6 fullShare d)
        ∗ (iprop(owns (c : Thread nD τ) arg3 fullShare x3 ∗ owns (c : Thread nD τ) arg4 fullShare x4 ∗ owns (c : Thread nD τ) arg5 fullShare xo
            ∗ owns (c : Thread nD τ) arg6 fullShare (k0_pay2 x3 x4 (k0_pay1 (F := F)))) -∗ K ⟨⟩))
      ⊢ wp frame (wpE (defs₀ (F := F)) Variants.none c none) E (cc0__chunk_kernel i arg1 harg1 arg2 harg2 arg3 harg3 arg4 harg4 arg5 harg5 arg6 harg6) K := by
  simp only [cc0__chunk_kernel_eq_skeleton]; unfold cc0__chunk_kernel_skel
  unfold owns
  iintro ⟨⟨%f3, %hf3, H3⟩, ⟨%f4, %hf4, H4⟩, ⟨%f5, %hf5, H5⟩, ⟨%d6, %f6, -, H6⟩, Hk⟩
  obtain rfl := harg3.eq_unread hf3; obtain rfl := harg4.eq_unread hf4; obtain rfl := harg5.eq_unread hf5
  sl_exec (disch := first | exact hA | exact hC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H6
  ipureintro
  sl_unfold_words
  rw [View.read_writes_eq_canon _ _ _ (fun y => ⟨_, List.mem_cons_self .., View.mem_set_unit_zero (S := S1x1) hz2 inb_S1x1_S1x1_0_0 y⟩),
    View.canon_cons_unit_zero (S := S1x1) hz2, View.readCov_unit_zero (S := S1x1) _ hz2]
  simp only [View.readAt_eq_ld, harg3.read_unread, harg4.read_unread, View.ld_unit_zero (S := S1x1x96) hz3]

set_option maxHeartbeats 1000000 in
/-- A middle point: the scratch, found at `xs`, ends at the update of `xs` by the two rows; the output's
    buffer is not touched. -/
theorem specB (c : Dev nD) (i : grid0.Coords) (arg1 : Memref sig .tc .smem S50000 .i32) (harg1 : arg1.IsWhole) (arg2 : Memref sig .tc .smem S50000 .i32) (harg2 : arg2.IsWhole)
    (arg3 : Memref sig .tc .vmem S1x1x96 .f32) (harg3 : arg3.IsWhole) (arg4 : Memref sig .tc .vmem S1x1x96 .f32) (harg4 : arg4.IsWhole)
    (arg5 : Memref sig .tc .vmem S1x1 .f32) (harg5 : arg5.IsWhole) (arg6 : Memref sig .tc .vmem S1x1 .f32) (harg6 : arg6.IsWhole)
    (hA : ¬condA i) (hC : ¬condC i) (x3 x4 : Vec F S1x1x96 .f32) (xs xo : Vec F S1x1 .f32) (E : Set ℕ) (K : PUnit → sProp 𝕄) :
    iprop(owns (c : Thread nD τ) arg3 fullShare x3 ∗ owns (c : Thread nD τ) arg4 fullShare x4 ∗ owns (c : Thread nD τ) arg5 fullShare xo ∗ owns (c : Thread nD τ) arg6 fullShare xs
        ∗ (iprop(owns (c : Thread nD τ) arg3 fullShare x3 ∗ owns (c : Thread nD τ) arg4 fullShare x4 ∗ owns (c : Thread nD τ) arg5 fullShare xo
            ∗ owns (c : Thread nD τ) arg6 fullShare (k0_pay2 x3 x4 xs)) -∗ K ⟨⟩))
      ⊢ wp frame (wpE (defs₀ (F := F)) Variants.none c none) E (cc0__chunk_kernel i arg1 harg1 arg2 harg2 arg3 harg3 arg4 harg4 arg5 harg5 arg6 harg6) K := by
  simp only [cc0__chunk_kernel_eq_skeleton]; unfold cc0__chunk_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg5.eq_unread hf5; obtain rfl := harg6.eq_unread hf6
  sl_exec (disch := first | exact hA | exact hC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H6
  ipureintro
  sl_unfold_words
  rw [View.read_writes_eq_canon _ _ _ (fun y => ⟨_, List.mem_cons_self .., View.mem_set_unit_zero (S := S1x1) hz2 inb_S1x1_S1x1_0_0 y⟩), View.canon_unit_zero (S := S1x1) hz2]
  simp only [View.readAt_eq_ld, harg3.read_unread, harg4.read_unread, harg6.read_unread, View.ld_unit_zero (S := S1x1x96) hz3, View.ld_unit_zero (S := S1x1) hz2]

set_option maxHeartbeats 1000000 in
/-- The last point: the scratch, found at `xs`, ends at the update of `xs` by the two rows, and the
    output's buffer, whatever it held, ends at the same word. -/
theorem specC (c : Dev nD) (i : grid0.Coords) (arg1 : Memref sig .tc .smem S50000 .i32) (harg1 : arg1.IsWhole) (arg2 : Memref sig .tc .smem S50000 .i32) (harg2 : arg2.IsWhole)
    (arg3 : Memref sig .tc .vmem S1x1x96 .f32) (harg3 : arg3.IsWhole) (arg4 : Memref sig .tc .vmem S1x1x96 .f32) (harg4 : arg4.IsWhole)
    (arg5 : Memref sig .tc .vmem S1x1 .f32) (harg5 : arg5.IsWhole) (arg6 : Memref sig .tc .vmem S1x1 .f32) (harg6 : arg6.IsWhole)
    (hA : ¬condA i) (hC : condC i) (x3 x4 : Vec F S1x1x96 .f32) (xs : Vec F S1x1 .f32) (E : Set ℕ) (K : PUnit → sProp 𝕄) :
    iprop(owns (c : Thread nD τ) arg3 fullShare x3 ∗ owns (c : Thread nD τ) arg4 fullShare x4 ∗ (∃ d, owns (c : Thread nD τ) arg5 fullShare d) ∗ owns (c : Thread nD τ) arg6 fullShare xs
        ∗ (iprop(owns (c : Thread nD τ) arg3 fullShare x3 ∗ owns (c : Thread nD τ) arg4 fullShare x4 ∗ owns (c : Thread nD τ) arg5 fullShare (k0_pay2 x3 x4 xs)
            ∗ owns (c : Thread nD τ) arg6 fullShare (k0_pay2 x3 x4 xs)) -∗ K ⟨⟩))
      ⊢ wp frame (wpE (defs₀ (F := F)) Variants.none c none) E (cc0__chunk_kernel i arg1 harg1 arg2 harg2 arg3 harg3 arg4 harg4 arg5 harg5 arg6 harg6) K := by
  simp only [cc0__chunk_kernel_eq_skeleton]; unfold cc0__chunk_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hA | exact hC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    rw [View.read_writes_eq_canon _ _ _ (fun y => ⟨_, List.mem_cons_self .., View.mem_set_unit_zero (S := S1x1) hz2 inb_S1x1_S1x1_0_0 y⟩), View.canon_unit_zero (S := S1x1) hz2,
      View.readCov_unit_zero (S := S1x1) _ hz2]
    simp only [View.readAt_eq_ld, harg3.read_unread, harg4.read_unread, harg6.read_unread, View.ld_unit_zero (S := S1x1x96) hz3, View.ld_unit_zero (S := S1x1) hz2]
  iexists _; isplitr; swap; · iexact H6
  ipureintro
  sl_unfold_words
  rw [View.read_writes_eq_canon _ _ _ (fun y => ⟨_, List.mem_cons_self .., View.mem_set_unit_zero (S := S1x1) hz2 inb_S1x1_S1x1_0_0 y⟩), View.canon_unit_zero (S := S1x1) hz2]
  simp only [View.readAt_eq_ld, harg3.read_unread, harg4.read_unread, harg6.read_unread, View.ld_unit_zero (S := S1x1x96) hz3, View.ld_unit_zero (S := S1x1) hz2]

end Cert.Kernel.Chunk0

end
-- ==== Proof.LibCondWords.lean ====
import Idealize.ShloMosaic.PureOps
import Idealize.ShloMosaic.Lib.Affine

/-!
General facts about the word arithmetic a `pl.when(i == k)` lowers to: an equality compare of two 32-bit
words, the one-bit result widened to 32 bits, and a compare of that with zero. On grid coordinates below
`2 ^ 32` the chain holds exactly when the two numbers are equal.
-/

namespace Cert.LibCondWords

open Idealize.ShloMosaic

/-- A one-bit word is zero or one. -/
theorem bit_cases : ∀ b : BitVec 1, b = 0#1 ∨ b = 1#1 := by decide

/-- Two numbers below `2 ^ 32` are equal exactly when their 32-bit words compare equal. -/
theorem eq_word_iff (n k : ℕ) (hn : n < 2 ^ 32) (hk : k < 2 ^ 32) :
    Scalar.cmpi .eq (BitVec.ofNat 32 n) (BitVec.ofNat 32 k) = 1#1 ↔ n = k := by
  rw [show Scalar.cmpi .eq (BitVec.ofNat 32 n) (BitVec.ofNat 32 k) = IntOp.cmpi .eq (BitVec.ofNat 32 n) (BitVec.ofNat 32 k) from rfl,
    IntOp.cmpi_eq]
  constructor
  · intro h
    have h' := congrArg BitVec.toNat h
    rw [BitVec.toNat_ofNat, BitVec.toNat_ofNat, Nat.mod_eq_of_lt hn, Nat.mod_eq_of_lt hk] at h'
    exact h'
  · rintro rfl; rfl

/-- The whole chain `(zext (n == k)) != 0` holds exactly when `n = k`. -/
theorem when_eq_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  rcases bit_cases (Scalar.cmpi .eq (BitVec.ofNat 32 n) (BitVec.ofNat 32 k)) with h | h
  · rw [h]
    constructor
    · intro h'; exact absurd h' (by decide)
    · intro hnk; rw [(eq_word_iff n k hn hk).mpr hnk] at h; exact absurd h (by decide)
  · rw [h]
    exact ⟨fun _ => (eq_word_iff n k hn hk).mp h, fun _ => by decide⟩

end Cert.LibCondWords
-- ==== Proof.K.Dat00.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 0 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-! ## The grid's points and the two conditions -/

/-- The grid point is the first one: the condition of the body's first conditional. -/
abbrev cA (i : grid0.Coords) : Prop := (Scalar.cmpi .ne (Scalar.extui (Scalar.cmpi .eq (BitVec.ofNat 32 (i 0).val) 0#32)) 0#32) = 1#1
/-- The grid point is the last one: the condition of the body's second conditional. -/
abbrev cC (i : grid0.Coords) : Prop := k0_cond2 i = 1#1

/-- This call's kernel function is the first call's: the same text. -/
theorem kernel_eq : cc0__chunk_kernel (F := F) = cc0__chunk_kernel (F := F) := rfl

theorem N_eq : (cfg0 a).N = 50000 := N_0

/-- On the one-axis grid the coordinate of point `t` is `t`. -/
theorem coord_val (t : Fin (cfg0 a).N) : (((cfg0 a).grid.coords t) 0).val = t.val := by
  have h : t.val < 50000 := lt_of_lt_of_eq t.isLt (N_eq a)
  show t.val / (cfg0 a).grid.stride 0 % 50000 = t.val
  rw [show (cfg0 a).grid.stride 0 = 1 from rfl, Nat.div_one, Nat.mod_eq_of_lt h]

/-- The first conditional is taken at point 0 only. -/
theorem hcA (t : Fin (cfg0 a).N) : cA ((cfg0 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg0 a).N) : cC ((cfg0 a).grid.coords t) ↔ t.val = 49999 := by
  have h : t.val < 50000 := lt_of_lt_of_eq t.isLt (N_eq a)
  unfold cC k0_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The source row and the destination row staged at point `t`. -/
abbrev b3 (c : Dev nD) (t : Fin (cfg0 a).N) : Vec F S1x1x96 .f32 := iblk a V c 0 t
abbrev b4 (c : Dev nD) (t : Fin (cfg0 a).N) : Vec F S1x1x96 .f32 := iblk a V c 1 t

/-- What the scratch holds after point `n`. -/
def acc (c : Dev nD) : (n : ℕ) → n < (cfg0 a).N → Vec F S1x1 .f32
  | 0, h => k0_pay2 (b3 a V c ⟨0, h⟩) (b4 a V c ⟨0, h⟩) (k0_pay1 (F := F))
  | n + 1, h => k0_pay2 (b3 a V c ⟨n + 1, h⟩) (b4 a V c ⟨n + 1, h⟩) (acc c n (Nat.lt_of_succ_lt h))

theorem acc_pos (c : Dev nD) (t : Fin (cfg0 a).N) (ht : t.val ≠ 0) :
    acc a V c t.val t.isLt = k0_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc0_scratch0

/-- The two prefetched tables held whole at the admissible contents. -/
abbrev tblsHeld (c : Dev nD) : sProp 𝕄 := Pipeline.prefHeld (Ix := Unit) (Name := ℕ) (U := UR sig nD τ) (Lvl := ℕ) pre0 c (fun _ => fullShare) a.1

/-- Before point `n`: the tables; before the first point every other scoped buffer at anything, afterwards the
    scratch at what point `n - 1` left and the others at anything. -/
def PhiS (c : Dev nD) : (n : ℕ) → n ≤ (cfg0 a).N → sProp 𝕄
  | 0, _ => iprop(tblsHeld a c ∗ Pipeline.scopedRest (Ix := Unit) (Name := ℕ) (U := UR sig nD τ) (Lvl := ℕ) (Val := Elt F) spec0 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec0 c [cc0_scratch0])

theorem PhiS_pos (c : Dev nD) (n : ℕ) (h : n ≤ (cfg0 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec0 c [cc0_scratch0]) := by
  cases n with
  | zero => exact absurd rfl hz
  | succ n => rfl

/-! ## The proof data -/

def dat (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg0 a).W) : (dat a V c).A w = V c (Pipeline.arrRef spec0 w) := by
  dsimp only [dat]

theorem after_0 (c : Dev nD) (t : Fin (cfg0 a).N) : (dat a V c).after 0 t = iblk a V c 0 t := rfl
theorem after_1 (c : Dev nD) (t : Fin (cfg0 a).N) : (dat a V c).after 1 t = iblk a V c 1 t := rfl
theorem after_2 (c : Dev nD) (t : Fin (cfg0 a).N) : (dat a V c).after 2 t = acc a V c t.val t.isLt := rfl

/-- Each input's current staging buffer holds its block at every point, fetched there or not. -/
theorem before_0 (c : Dev nD) (t : Fin (cfg0 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg0 a).N) (h : ¬cC ((cfg0 a).grid.coords t)) : (cfg0 a).idle 2 ((cfg0 a).grid.coords t) = true := by
  show (!(k0_cond2 ((cfg0 a).grid.coords t) == 1#1)) = true
  simpa using h

theorem live_2 (t : Fin (cfg0 a).N) (h : cC ((cfg0 a).grid.coords t)) : (cfg0 a).idle 2 ((cfg0 a).grid.coords t) = false := by
  show (!(k0_cond2 ((cfg0 a).grid.coords t) == 1#1)) = false
  simpa using h

theorem live_0 (t : Fin (cfg0 a).N) : (cfg0 a).idle 0 ((cfg0 a).grid.coords t) = false := rfl
theorem live_1 (t : Fin (cfg0 a).N) : (cfg0 a).idle 1 ((cfg0 a).grid.coords t) = false := rfl

/-- The result's block index never moves, so it is written back at the last point only. -/
theorem noflush_2 (t : Fin (cfg0 a).N) (h : t.val ≠ 49999) : ((cfg0 a).win 2).flush t = false := by
  have hN : (cfg0 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg0 a).N) (d) : (dat a V c).before 0 t d = (dat a V c).after 0 t :=
  (before_0 a V c t d).trans (after_0 a V c t).symm
theorem keep_1 (c : Dev nD) (t : Fin (cfg0 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg0 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k0_pay2 (b3 a V c ⟨0, hn⟩) (b4 a V c ⟨0, hn⟩) (k0_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg0 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg0 a).N) : Memref sig .tc .vmem S1x1x96 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S1x1x96 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x1 .f32 := spec0_2.stage ((cfg0 a).slots t 2)
abbrev hs2 (t : Fin (cfg0 a).N) : (ms2 a t).IsWhole := hstage0_2 (((cfg0 a).slots t 2).cast nbuf0_2)

/-- The body as the pipeline calls it at point `t`. -/
abbrev bodyAt (t : Fin (cfg0 a).N) : Prog (TpuEff nD τ sig (Elt F) Λ₀ .tc) PUnit :=
  cc0__chunk_kernel ((cfg0 a).grid.coords t) (Memref.whole main_v8) (Memref.isWhole_whole _) (Memref.whole main_v10) (Memref.isWhole_whole _)
    (ms0 a t) (hs0 a t) (ms1 a t) (hs1 a t) (ms2 a t) (hs2 a t) (Memref.whole cc0_scratch0) (Memref.isWhole_whole _)

/-- What the body is called with at point `t`, -/
def bodyPre (c : Dev nD) (t : Fin (cfg0 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg0 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg0 a).N) :
    (dat a V c).leavesExact 0 t = owns (c : Thread nD τ) (ms0 a t) fullShare ((dat a V c).after 0 t) := by
  unfold Dat.leavesExact; rw [live_0]; rfl
theorem leaves_1 (c : Dev nD) (t : Fin (cfg0 a).N) :
    (dat a V c).leavesExact 1 t = owns (c : Thread nD τ) (ms1 a t) fullShare ((dat a V c).after 1 t) := by
  unfold Dat.leavesExact; rw [live_1]; rfl
theorem leaves_2_idle (c : Dev nD) (t : Fin (cfg0 a).N) (hC : ¬cC ((cfg0 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg0 a).N) (hC : cC ((cfg0 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg0 a).grid.coords t) := (hcA a t).mpr h0
    have hC : ¬cC ((cfg0 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec0 c) from by
      obtain ⟨n, hn⟩ := t; obtain rfl : n = 0 := h0; rfl]
    rw [scopedRest0_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec0 c [cc0_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg0 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec0 c [cc0_scratch0]) from rfl]
    have hA : ¬cA ((cfg0 a).grid.coords t) := fun h => h0 ((hcA a t).mp h)
    by_cases hl : t.val = 49999
    · -- the last point
      have hC : cC ((cfg0 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg0 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg0 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg0 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W0, bigSep_W0]
  exact sound_body a V c t

end Cert.Kernel.Chunk0

end
-- ==== Proof.K.Dat01.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 1 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-! ## The grid's points and the two conditions -/

/-- The grid point is the first one: the condition of the body's first conditional. -/
abbrev cA (i : grid1.Coords) : Prop := (Scalar.cmpi .ne (Scalar.extui (Scalar.cmpi .eq (BitVec.ofNat 32 (i 0).val) 0#32)) 0#32) = 1#1
/-- The grid point is the last one: the condition of the body's second conditional. -/
abbrev cC (i : grid1.Coords) : Prop := k1_cond2 i = 1#1

/-- This call's kernel function is the first call's: the same text. -/
theorem kernel_eq : cc1__chunk_kernel (F := F) = cc0__chunk_kernel (F := F) := rfl

theorem N_eq : (cfg1 a).N = 50000 := N_1

/-- On the one-axis grid the coordinate of point `t` is `t`. -/
theorem coord_val (t : Fin (cfg1 a).N) : (((cfg1 a).grid.coords t) 0).val = t.val := by
  have h : t.val < 50000 := lt_of_lt_of_eq t.isLt (N_eq a)
  show t.val / (cfg1 a).grid.stride 0 % 50000 = t.val
  rw [show (cfg1 a).grid.stride 0 = 1 from rfl, Nat.div_one, Nat.mod_eq_of_lt h]

/-- The first conditional is taken at point 0 only. -/
theorem hcA (t : Fin (cfg1 a).N) : cA ((cfg1 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg1 a).N) : cC ((cfg1 a).grid.coords t) ↔ t.val = 49999 := by
  have h : t.val < 50000 := lt_of_lt_of_eq t.isLt (N_eq a)
  unfold cC k1_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The source row and the destination row staged at point `t`. -/
abbrev b3 (c : Dev nD) (t : Fin (cfg1 a).N) : Vec F S1x1x96 .f32 := iblk a V c 0 t
abbrev b4 (c : Dev nD) (t : Fin (cfg1 a).N) : Vec F S1x1x96 .f32 := iblk a V c 1 t

/-- What the scratch holds after point `n`. -/
def acc (c : Dev nD) : (n : ℕ) → n < (cfg1 a).N → Vec F S1x1 .f32
  | 0, h => k1_pay2 (b3 a V c ⟨0, h⟩) (b4 a V c ⟨0, h⟩) (k1_pay1 (F := F))
  | n + 1, h => k1_pay2 (b3 a V c ⟨n + 1, h⟩) (b4 a V c ⟨n + 1, h⟩) (acc c n (Nat.lt_of_succ_lt h))

theorem acc_pos (c : Dev nD) (t : Fin (cfg1 a).N) (ht : t.val ≠ 0) :
    acc a V c t.val t.isLt = k1_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc1_scratch0

/-- The two prefetched tables held whole at the admissible contents. -/
abbrev tblsHeld (c : Dev nD) : sProp 𝕄 := Pipeline.prefHeld (Ix := Unit) (Name := ℕ) (U := UR sig nD τ) (Lvl := ℕ) pre1 c (fun _ => fullShare) a.1

/-- Before point `n`: the tables; before the first point every other scoped buffer at anything, afterwards the
    scratch at what point `n - 1` left and the others at anything. -/
def PhiS (c : Dev nD) : (n : ℕ) → n ≤ (cfg1 a).N → sProp 𝕄
  | 0, _ => iprop(tblsHeld a c ∗ Pipeline.scopedRest (Ix := Unit) (Name := ℕ) (U := UR sig nD τ) (Lvl := ℕ) (Val := Elt F) spec1 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec1 c [cc1_scratch0])

theorem PhiS_pos (c : Dev nD) (n : ℕ) (h : n ≤ (cfg1 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec1 c [cc1_scratch0]) := by
  cases n with
  | zero => exact absurd rfl hz
  | succ n => rfl

/-! ## The proof data -/

def dat (c : Dev nD) : Dat τ (Elt F) Unit ℕ (UR sig nD τ) ℕ (cfg1 a) c where
  A w := V c (Pipeline.arrRef spec1 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg1 a).W) : (dat a V c).A w = V c (Pipeline.arrRef spec1 w) := by
  dsimp only [dat]

theorem after_0 (c : Dev nD) (t : Fin (cfg1 a).N) : (dat a V c).after 0 t = iblk a V c 0 t := rfl
theorem after_1 (c : Dev nD) (t : Fin (cfg1 a).N) : (dat a V c).after 1 t = iblk a V c 1 t := rfl
theorem after_2 (c : Dev nD) (t : Fin (cfg1 a).N) : (dat a V c).after 2 t = acc a V c t.val t.isLt := rfl

/-- Each input's current staging buffer holds its block at every point, fetched there or not. -/
theorem before_0 (c : Dev nD) (t : Fin (cfg1 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg1 a).N) (h : ¬cC ((cfg1 a).grid.coords t)) : (cfg1 a).idle 2 ((cfg1 a).grid.coords t) = true := by
  show (!(k1_cond2 ((cfg1 a).grid.coords t) == 1#1)) = true
  simpa using h

theorem live_2 (t : Fin (cfg1 a).N) (h : cC ((cfg1 a).grid.coords t)) : (cfg1 a).idle 2 ((cfg1 a).grid.coords t) = false := by
  show (!(k1_cond2 ((cfg1 a).grid.coords t) == 1#1)) = false
  simpa using h

theorem live_0 (t : Fin (cfg1 a).N) : (cfg1 a).idle 0 ((cfg1 a).grid.coords t) = false := rfl
theorem live_1 (t : Fin (cfg1 a).N) : (cfg1 a).idle 1 ((cfg1 a).grid.coords t) = false := rfl

/-- The result's block index never moves, so it is written back at the last point only. -/
theorem noflush_2 (t : Fin (cfg1 a).N) (h : t.val ≠ 49999) : ((cfg1 a).win 2).flush t = false := by
  have hN : (cfg1 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg1 a).N) (d) : (dat a V c).before 0 t d = (dat a V c).after 0 t :=
  (before_0 a V c t d).trans (after_0 a V c t).symm
theorem keep_1 (c : Dev nD) (t : Fin (cfg1 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg1 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k1_pay2 (b3 a V c ⟨0, hn⟩) (b4 a V c ⟨0, hn⟩) (k1_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg1 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg1 a).N) : Memref sig .tc .vmem S1x1x96 .f32 := spec1_0.stage ((cfg1 a).slots t 0)
abbrev hs0 (t : Fin (cfg1 a).N) : (ms0 a t).IsWhole := hstage1_0 (((cfg1 a).slots t 0).cast nbuf1_0)
abbrev ms1 (t : Fin (cfg1 a).N) : Memref sig .tc .vmem S1x1x96 .f32 := spec1_1.stage ((cfg1 a).slots t 1)
abbrev hs1 (t : Fin (cfg1 a).N) : (ms1 a t).IsWhole := hstage1_1 (((cfg1 a).slots t 1).cast nbuf1_1)
abbrev ms2 (t : Fin (cfg1 a).N) : Memref sig .tc .vmem S1x1 .f32 := spec1_2.stage ((cfg1 a).slots t 2)
abbrev hs2 (t : Fin (cfg1 a).N) : (ms2 a t).IsWhole := hstage1_2 (((cfg1 a).slots t 2).cast nbuf1_2)

/-- The body as the pipeline calls it at point `t`. -/
abbrev bodyAt (t : Fin (cfg1 a).N) : Prog (TpuEff nD τ sig (Elt F) Λ₀ .tc) PUnit :=
  cc1__chunk_kernel ((cfg1 a).grid.coords t) (Memref.whole main_v15) (Memref.isWhole_whole _) (Memref.whole main_v17) (Memref.isWhole_whole _)
    (ms0 a t) (hs0 a t) (ms1 a t) (hs1 a t) (ms2 a t) (hs2 a t) (Memref.whole cc1_scratch0) (Memref.isWhole_whole _)

/-- What the body is called with at point `t`, -/
def bodyPre (c : Dev nD) (t : Fin (cfg1 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg1 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg1 a).N) :
    (dat a V c).leavesExact 0 t = owns (c : Thread nD τ) (ms0 a t) fullShare ((dat a V c).after 0 t) := by
  unfold Dat.leavesExact; rw [live_0]; rfl
theorem leaves_1 (c : Dev nD) (t : Fin (cfg1 a).N) :
    (dat a V c).leavesExact 1 t = owns (c : Thread nD τ) (ms1 a t) fullShare ((dat a V c).after 1 t) := by
  unfold Dat.leavesExact; rw [live_1]; rfl
theorem leaves_2_idle (c : Dev nD) (t : Fin (cfg1 a).N) (hC : ¬cC ((cfg1 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg1 a).N) (hC : cC ((cfg1 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg1 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg1 a).grid.coords t) := (hcA a t).mpr h0
    have hC : ¬cC ((cfg1 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec1 c) from by
      obtain ⟨n, hn⟩ := t; obtain rfl : n = 0 := h0; rfl]
    rw [scopedRest1_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec1 c [cc1_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg1 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec1 c [cc1_scratch0]) from rfl]
    have hA : ¬cA ((cfg1 a).grid.coords t) := fun h => h0 ((hcA a t).mp h)
    by_cases hl : t.val = 49999
    · -- the last point
      have hC : cC ((cfg1 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg1 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg1 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg1 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W1, bigSep_W1]
  exact sound_body a V c t

end Cert.Kernel.Chunk1

end
-- ==== Proof.K.Dat02.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 2 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg2 (F := F)).Adm)
variable (V : (c : Dev nD) → (b : Ref sig .tc) → Buf (Elt F) ((c : Thread nD τ).loc b))

/-! ## The grid's points and the two conditions -/

/-- The grid point is the first one: the condition of the body's first conditional. -/
abbrev cA (i : grid2.Coords) : Prop := (Scalar.cmpi .ne (Scalar.extui (Scalar.cmpi .eq (BitVec.ofNat 32 (i 0).val) 0#32)) 0#32) = 1#1
/-- The grid point is the last one: the condition of the body's second conditional. -/
abbrev cC (i : grid2.Coords) : Prop := k2_cond2 i = 1#1

/-- This call's kernel function is the first call's: the same text. -/
theorem kernel_eq : cc2__chunk_kernel (F := F) = cc0__chunk_kernel (F := F) := rfl

theorem N_eq : (cfg2 a).N = 50000 := N_2

/-- On the one-axis grid the coordinate of point `t` is `t`. -/
theorem coord_val (t : Fin (cfg2 a).N) : (((cfg2 a).grid.coords t) 0).val = t.val := by
  have h : t.val < 50000 := lt_of_lt_of_eq t.isLt (N_eq a)
  show t.val / (cfg2 a).grid.stride 0 % 50000 = t.val
  rw [show (cfg2 a).grid.stride 0 = 1 from rfl, Nat.div_one, Nat.mod_eq_of_lt h]

/-- The first conditional is taken at point 0 only. -/
theorem hcA (t : Fin (cfg2 a).N) : cA ((cfg2 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg2 a).N) : cC ((cfg2 a).grid.coords t) ↔ t.val = 49999 := by
  have h : t.val < 50000 := lt_of_lt_of_eq t.isLt (N_eq a)
  unfold cC k2_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The source row and the destination row staged at point `t`. -/
abbrev b3 (c : Dev nD) (t : Fin (cfg2 a).N) : Vec F S1x1x96 .f32 := iblk a V c 0 t
abbrev b4 (c : Dev nD) (t : Fin (cfg2 a).N) : Vec F S1x1x96 .f32 := iblk a V c 1 t

/-- What the scratch holds after point `n`. -/
def acc (c : Dev nD) : (n : ℕ) → n < (cfg2 a).N → Vec F S1x1 .f32
  | 0, h => k2_pay2 (b3 a V c ⟨0, h⟩) (b4 a V c ⟨0, h⟩) (k2_pay1 (F := F))
  | n + 1, h => k2_pay2 (b3 a V c ⟨n + 1, h⟩) (b4 a V c ⟨n + 1, h⟩) (acc c n (Nat.lt_of_succ_lt h))

theorem acc_pos (c : Dev nD) (t : Fin (cfg2 a).N) (ht : t.val ≠ 0) :
    acc a V c t.val t.isLt = k2_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc2_scratch0

/-- The two prefetched tables held whole at the admissible contents. -/
abbrev tblsHeld (c : Dev nD) : sProp 𝕄 := Pipeline.prefHeld (Ix := Unit) (Name := ℕ) (U := UR sig nD τ) (Lvl := ℕ) pre2 c (fun _ => fullShare) a.1

/-- Before point `n`: the tables; before the first point every other scoped buffer at anything, afterwards the
    scratch at what point `n - 1` left and the others at anything. -/
def PhiS (c : Dev nD) : (n : ℕ) → n ≤ (cfg2 a).N → sProp 𝕄
  | 0, _ => iprop(tblsHeld a c ∗ Pipeline.scopedRest (Ix := Unit) (Name := ℕ) (U := UR sig nD τ) (Lvl := ℕ) (Val := Elt F) spec2 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec2 c [cc2_scratch0])

theorem PhiS_pos (c : Dev nD) (n : ℕ) (h : n ≤ (cfg2 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec2 c [cc2_scratch0]) := by
  cases n with
  | zero => exact absurd rfl hz
  | succ n => rfl

/-! ## The proof data -/

def dat (c : Dev nD) : Dat τ (Elt F) Unit ℕ (UR sig nD τ) ℕ (cfg2 a) c where
  A w := V c (Pipeline.arrRef spec2 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg2 a).W) : (dat a V c).A w = V c (Pipeline.arrRef spec2 w) := by
  dsimp only [dat]

theorem after_0 (c : Dev nD) (t : Fin (cfg2 a).N) : (dat a V c).after 0 t = iblk a V c 0 t := rfl
theorem after_1 (c : Dev nD) (t : Fin (cfg2 a).N) : (dat a V c).after 1 t = iblk a V c 1 t := rfl
theorem after_2 (c : Dev nD) (t : Fin (cfg2 a).N) : (dat a V c).after 2 t = acc a V c t.val t.isLt := rfl

/-- Each input's current staging buffer holds its block at every point, fetched there or not. -/
theorem before_0 (c : Dev nD) (t : Fin (cfg2 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg2 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg2 a).N) (h : ¬cC ((cfg2 a).grid.coords t)) : (cfg2 a).idle 2 ((cfg2 a).grid.coords t) = true := by
  show (!(k2_cond2 ((cfg2 a).grid.coords t) == 1#1)) = true
  simpa using h

theorem live_2 (t : Fin (cfg2 a).N) (h : cC ((cfg2 a).grid.coords t)) : (cfg2 a).idle 2 ((cfg2 a).grid.coords t) = false := by
  show (!(k2_cond2 ((cfg2 a).grid.coords t) == 1#1)) = false
  simpa using h

theorem live_0 (t : Fin (cfg2 a).N) : (cfg2 a).idle 0 ((cfg2 a).grid.coords t) = false := rfl
theorem live_1 (t : Fin (cfg2 a).N) : (cfg2 a).idle 1 ((cfg2 a).grid.coords t) = false := rfl

/-- The result's block index never moves, so it is written back at the last point only. -/
theorem noflush_2 (t : Fin (cfg2 a).N) (h : t.val ≠ 49999) : ((cfg2 a).win 2).flush t = false := by
  have hN : (cfg2 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg2 a).N) (d) : (dat a V c).before 0 t d = (dat a V c).after 0 t :=
  (before_0 a V c t d).trans (after_0 a V c t).symm
theorem keep_1 (c : Dev nD) (t : Fin (cfg2 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg2 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k2_pay2 (b3 a V c ⟨0, hn⟩) (b4 a V c ⟨0, hn⟩) (k2_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg2 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg2 a).N) : Memref sig .tc .vmem S1x1x96 .f32 := spec2_0.stage ((cfg2 a).slots t 0)
abbrev hs0 (t : Fin (cfg2 a).N) : (ms0 a t).IsWhole := hstage2_0 (((cfg2 a).slots t 0).cast nbuf2_0)
abbrev ms1 (t : Fin (cfg2 a).N) : Memref sig .tc .vmem S1x1x96 .f32 := spec2_1.stage ((cfg2 a).slots t 1)
abbrev hs1 (t : Fin (cfg2 a).N) : (ms1 a t).IsWhole := hstage2_1 (((cfg2 a).slots t 1).cast nbuf2_1)
abbrev ms2 (t : Fin (cfg2 a).N) : Memref sig .tc .vmem S1x1 .f32 := spec2_2.stage ((cfg2 a).slots t 2)
abbrev hs2 (t : Fin (cfg2 a).N) : (ms2 a t).IsWhole := hstage2_2 (((cfg2 a).slots t 2).cast nbuf2_2)

/-- The body as the pipeline calls it at point `t`. -/
abbrev bodyAt (t : Fin (cfg2 a).N) : Prog (TpuEff nD τ sig (Elt F) Λ₀ .tc) PUnit :=
  cc2__chunk_kernel ((cfg2 a).grid.coords t) (Memref.whole main_v22) (Memref.isWhole_whole _) (Memref.whole main_v24) (Memref.isWhole_whole _)
    (ms0 a t) (hs0 a t) (ms1 a t) (hs1 a t) (ms2 a t) (hs2 a t) (Memref.whole cc2_scratch0) (Memref.isWhole_whole _)

/-- What the body is called with at point `t`, -/
def bodyPre (c : Dev nD) (t : Fin (cfg2 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg2 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg2 a).N) :
    (dat a V c).leavesExact 0 t = owns (c : Thread nD τ) (ms0 a t) fullShare ((dat a V c).after 0 t) := by
  unfold Dat.leavesExact; rw [live_0]; rfl
theorem leaves_1 (c : Dev nD) (t : Fin (cfg2 a).N) :
    (dat a V c).leavesExact 1 t = owns (c : Thread nD τ) (ms1 a t) fullShare ((dat a V c).after 1 t) := by
  unfold Dat.leavesExact; rw [live_1]; rfl
theorem leaves_2_idle (c : Dev nD) (t : Fin (cfg2 a).N) (hC : ¬cC ((cfg2 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg2 a).N) (hC : cC ((cfg2 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg2 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg2 a).grid.coords t) := (hcA a t).mpr h0
    have hC : ¬cC ((cfg2 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec2 c) from by
      obtain ⟨n, hn⟩ := t; obtain rfl : n = 0 := h0; rfl]
    rw [scopedRest2_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec2 c [cc2_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg2 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec2 c [cc2_scratch0]) from rfl]
    have hA : ¬cA ((cfg2 a).grid.coords t) := fun h => h0 ((hcA a t).mp h)
    by_cases hl : t.val = 49999
    · -- the last point
      have hC : cC ((cfg2 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg2 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg2 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg2 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W2, bigSep_W2]
  exact sound_body a V c t

end Cert.Kernel.Chunk2

end
-- ==== Proof.K.Dat03.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 3 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
variable (V : (c : Dev nD) → (b : Ref sig .tc) → Buf (Elt F) ((c : Thread nD τ).loc b))

/-! ## The grid's points and the two conditions -/

/-- The grid point is the first one: the condition of the body's first conditional. -/
abbrev cA (i : grid3.Coords) : Prop := (Scalar.cmpi .ne (Scalar.extui (Scalar.cmpi .eq (BitVec.ofNat 32 (i 0).val) 0#32)) 0#32) = 1#1
/-- The grid point is the last one: the condition of the body's second conditional. -/
abbrev cC (i : grid3.Coords) : Prop := k3_cond2 i = 1#1

/-- This call's kernel function is the first call's: the same text. -/
theorem kernel_eq : cc3__chunk_kernel (F := F) = cc0__chunk_kernel (F := F) := rfl

theorem N_eq : (cfg3 a).N = 50000 := N_3

/-- On the one-axis grid the coordinate of point `t` is `t`. -/
theorem coord_val (t : Fin (cfg3 a).N) : (((cfg3 a).grid.coords t) 0).val = t.val := by
  have h : t.val < 50000 := lt_of_lt_of_eq t.isLt (N_eq a)
  show t.val / (cfg3 a).grid.stride 0 % 50000 = t.val
  rw [show (cfg3 a).grid.stride 0 = 1 from rfl, Nat.div_one, Nat.mod_eq_of_lt h]

/-- The first conditional is taken at point 0 only. -/
theorem hcA (t : Fin (cfg3 a).N) : cA ((cfg3 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg3 a).N) : cC ((cfg3 a).grid.coords t) ↔ t.val = 49999 := by
  have h : t.val < 50000 := lt_of_lt_of_eq t.isLt (N_eq a)
  unfold cC k3_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The source row and the destination row staged at point `t`. -/
abbrev b3 (c : Dev nD) (t : Fin (cfg3 a).N) : Vec F S1x1x96 .f32 := iblk a V c 0 t
abbrev b4 (c : Dev nD) (t : Fin (cfg3 a).N) : Vec F S1x1x96 .f32 := iblk a V c 1 t

/-- What the scratch holds after point `n`. -/
def acc (c : Dev nD) : (n : ℕ) → n < (cfg3 a).N → Vec F S1x1 .f32
  | 0, h => k3_pay2 (b3 a V c ⟨0, h⟩) (b4 a V c ⟨0, h⟩) (k3_pay1 (F := F))
  | n + 1, h => k3_pay2 (b3 a V c ⟨n + 1, h⟩) (b4 a V c ⟨n + 1, h⟩) (acc c n (Nat.lt_of_succ_lt h))

theorem acc_pos (c : Dev nD) (t : Fin (cfg3 a).N) (ht : t.val ≠ 0) :
    acc a V c t.val t.isLt = k3_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc3_scratch0

/-- The two prefetched tables held whole at the admissible contents. -/
abbrev tblsHeld (c : Dev nD) : sProp 𝕄 := Pipeline.prefHeld (Ix := Unit) (Name := ℕ) (U := UR sig nD τ) (Lvl := ℕ) pre3 c (fun _ => fullShare) a.1

/-- Before point `n`: the tables; before the first point every other scoped buffer at anything, afterwards the
    scratch at what point `n - 1` left and the others at anything. -/
def PhiS (c : Dev nD) : (n : ℕ) → n ≤ (cfg3 a).N → sProp 𝕄
  | 0, _ => iprop(tblsHeld a c ∗ Pipeline.scopedRest (Ix := Unit) (Name := ℕ) (U := UR sig nD τ) (Lvl := ℕ) (Val := Elt F) spec3 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec3 c [cc3_scratch0])

theorem PhiS_pos (c : Dev nD) (n : ℕ) (h : n ≤ (cfg3 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec3 c [cc3_scratch0]) := by
  cases n with
  | zero => exact absurd rfl hz
  | succ n => rfl

/-! ## The proof data -/

def dat (c : Dev nD) : Dat τ (Elt F) Unit ℕ (UR sig nD τ) ℕ (cfg3 a) c where
  A w := V c (Pipeline.arrRef spec3 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg3 a).W) : (dat a V c).A w = V c (Pipeline.arrRef spec3 w) := by
  dsimp only [dat]

theorem after_0 (c : Dev nD) (t : Fin (cfg3 a).N) : (dat a V c).after 0 t = iblk a V c 0 t := rfl
theorem after_1 (c : Dev nD) (t : Fin (cfg3 a).N) : (dat a V c).after 1 t = iblk a V c 1 t := rfl
theorem after_2 (c : Dev nD) (t : Fin (cfg3 a).N) : (dat a V c).after 2 t = acc a V c t.val t.isLt := rfl

/-- Each input's current staging buffer holds its block at every point, fetched there or not. -/
theorem before_0 (c : Dev nD) (t : Fin (cfg3 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg3 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg3 a).N) (h : ¬cC ((cfg3 a).grid.coords t)) : (cfg3 a).idle 2 ((cfg3 a).grid.coords t) = true := by
  show (!(k3_cond2 ((cfg3 a).grid.coords t) == 1#1)) = true
  simpa using h

theorem live_2 (t : Fin (cfg3 a).N) (h : cC ((cfg3 a).grid.coords t)) : (cfg3 a).idle 2 ((cfg3 a).grid.coords t) = false := by
  show (!(k3_cond2 ((cfg3 a).grid.coords t) == 1#1)) = false
  simpa using h

theorem live_0 (t : Fin (cfg3 a).N) : (cfg3 a).idle 0 ((cfg3 a).grid.coords t) = false := rfl
theorem live_1 (t : Fin (cfg3 a).N) : (cfg3 a).idle 1 ((cfg3 a).grid.coords t) = false := rfl

/-- The result's block index never moves, so it is written back at the last point only. -/
theorem noflush_2 (t : Fin (cfg3 a).N) (h : t.val ≠ 49999) : ((cfg3 a).win 2).flush t = false := by
  have hN : (cfg3 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg3 a).N) (d) : (dat a V c).before 0 t d = (dat a V c).after 0 t :=
  (before_0 a V c t d).trans (after_0 a V c t).symm
theorem keep_1 (c : Dev nD) (t : Fin (cfg3 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg3 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k3_pay2 (b3 a V c ⟨0, hn⟩) (b4 a V c ⟨0, hn⟩) (k3_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg3 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg3 a).N) : Memref sig .tc .vmem S1x1x96 .f32 := spec3_0.stage ((cfg3 a).slots t 0)
abbrev hs0 (t : Fin (cfg3 a).N) : (ms0 a t).IsWhole := hstage3_0 (((cfg3 a).slots t 0).cast nbuf3_0)
abbrev ms1 (t : Fin (cfg3 a).N) : Memref sig .tc .vmem S1x1x96 .f32 := spec3_1.stage ((cfg3 a).slots t 1)
abbrev hs1 (t : Fin (cfg3 a).N) : (ms1 a t).IsWhole := hstage3_1 (((cfg3 a).slots t 1).cast nbuf3_1)
abbrev ms2 (t : Fin (cfg3 a).N) : Memref sig .tc .vmem S1x1 .f32 := spec3_2.stage ((cfg3 a).slots t 2)
abbrev hs2 (t : Fin (cfg3 a).N) : (ms2 a t).IsWhole := hstage3_2 (((cfg3 a).slots t 2).cast nbuf3_2)

/-- The body as the pipeline calls it at point `t`. -/
abbrev bodyAt (t : Fin (cfg3 a).N) : Prog (TpuEff nD τ sig (Elt F) Λ₀ .tc) PUnit :=
  cc3__chunk_kernel ((cfg3 a).grid.coords t) (Memref.whole main_v29) (Memref.isWhole_whole _) (Memref.whole main_v31) (Memref.isWhole_whole _)
    (ms0 a t) (hs0 a t) (ms1 a t) (hs1 a t) (ms2 a t) (hs2 a t) (Memref.whole cc3_scratch0) (Memref.isWhole_whole _)

/-- What the body is called with at point `t`, -/
def bodyPre (c : Dev nD) (t : Fin (cfg3 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg3 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg3 a).N) :
    (dat a V c).leavesExact 0 t = owns (c : Thread nD τ) (ms0 a t) fullShare ((dat a V c).after 0 t) := by
  unfold Dat.leavesExact; rw [live_0]; rfl
theorem leaves_1 (c : Dev nD) (t : Fin (cfg3 a).N) :
    (dat a V c).leavesExact 1 t = owns (c : Thread nD τ) (ms1 a t) fullShare ((dat a V c).after 1 t) := by
  unfold Dat.leavesExact; rw [live_1]; rfl
theorem leaves_2_idle (c : Dev nD) (t : Fin (cfg3 a).N) (hC : ¬cC ((cfg3 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg3 a).N) (hC : cC ((cfg3 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg3 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg3 a).grid.coords t) := (hcA a t).mpr h0
    have hC : ¬cC ((cfg3 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec3 c) from by
      obtain ⟨n, hn⟩ := t; obtain rfl : n = 0 := h0; rfl]
    rw [scopedRest3_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec3 c [cc3_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg3 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec3 c [cc3_scratch0]) from rfl]
    have hA : ¬cA ((cfg3 a).grid.coords t) := fun h => h0 ((hcA a t).mp h)
    by_cases hl : t.val = 49999
    · -- the last point
      have hC : cC ((cfg3 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg3 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg3 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg3 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W3, bigSep_W3]
  exact sound_body a V c t

end Cert.Kernel.Chunk3

end
-- ==== Proof.K.Dat04.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 4 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg4 (F := F)).Adm)
variable (V : (c : Dev nD) → (b : Ref sig .tc) → Buf (Elt F) ((c : Thread nD τ).loc b))

/-! ## The grid's points and the two conditions -/

/-- The grid point is the first one: the condition of the body's first conditional. -/
abbrev cA (i : grid4.Coords) : Prop := (Scalar.cmpi .ne (Scalar.extui (Scalar.cmpi .eq (BitVec.ofNat 32 (i 0).val) 0#32)) 0#32) = 1#1
/-- The grid point is the last one: the condition of the body's second conditional. -/
abbrev cC (i : grid4.Coords) : Prop := k4_cond2 i = 1#1

/-- This call's kernel function is the first call's: the same text. -/
theorem kernel_eq : cc4__chunk_kernel (F := F) = cc0__chunk_kernel (F := F) := rfl

theorem N_eq : (cfg4 a).N = 50000 := N_4

/-- On the one-axis grid the coordinate of point `t` is `t`. -/
theorem coord_val (t : Fin (cfg4 a).N) : (((cfg4 a).grid.coords t) 0).val = t.val := by
  have h : t.val < 50000 := lt_of_lt_of_eq t.isLt (N_eq a)
  show t.val / (cfg4 a).grid.stride 0 % 50000 = t.val
  rw [show (cfg4 a).grid.stride 0 = 1 from rfl, Nat.div_one, Nat.mod_eq_of_lt h]

/-- The first conditional is taken at point 0 only. -/
theorem hcA (t : Fin (cfg4 a).N) : cA ((cfg4 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg4 a).N) : cC ((cfg4 a).grid.coords t) ↔ t.val = 49999 := by
  have h : t.val < 50000 := lt_of_lt_of_eq t.isLt (N_eq a)
  unfold cC k4_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- The source row and the destination row staged at point `t`. -/
abbrev b3 (c : Dev nD) (t : Fin (cfg4 a).N) : Vec F S1x1x96 .f32 := iblk a V c 0 t
abbrev b4 (c : Dev nD) (t : Fin (cfg4 a).N) : Vec F S1x1x96 .f32 := iblk a V c 1 t

/-- What the scratch holds after point `n`. -/
def acc (c : Dev nD) : (n : ℕ) → n < (cfg4 a).N → Vec F S1x1 .f32
  | 0, h => k4_pay2 (b3 a V c ⟨0, h⟩) (b4 a V c ⟨0, h⟩) (k4_pay1 (F := F))
  | n + 1, h => k4_pay2 (b3 a V c ⟨n + 1, h⟩) (b4 a V c ⟨n + 1, h⟩) (acc c n (Nat.lt_of_succ_lt h))

theorem acc_pos (c : Dev nD) (t : Fin (cfg4 a).N) (ht : t.val ≠ 0) :
    acc a V c t.val t.isLt = k4_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc4_scratch0

/-- The two prefetched tables held whole at the admissible contents. -/
abbrev tblsHeld (c : Dev nD) : sProp 𝕄 := Pipeline.prefHeld (Ix := Unit) (Name := ℕ) (U := UR sig nD τ) (Lvl := ℕ) pre4 c (fun _ => fullShare) a.1

/-- Before point `n`: the tables; before the first point every other scoped buffer at anything, afterwards the
    scratch at what point `n - 1` left and the others at anything. -/
def PhiS (c : Dev nD) : (n : ℕ) → n ≤ (cfg4 a).N → sProp 𝕄
  | 0, _ => iprop(tblsHeld a c ∗ Pipeline.scopedRest (Ix := Unit) (Name := ℕ) (U := UR sig nD τ) (Lvl := ℕ) (Val := Elt F) spec4 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec4 c [cc4_scratch0])

theorem PhiS_pos (c : Dev nD) (n : ℕ) (h : n ≤ (cfg4 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec4 c [cc4_scratch0]) := by
  cases n with
  | zero => exact absurd rfl hz
  | succ n => rfl

/-! ## The proof data -/

def dat (c : Dev nD) : Dat τ (Elt F) Unit ℕ (UR sig nD τ) ℕ (cfg4 a) c where
  A w := V c (Pipeline.arrRef spec4 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg4 a).W) : (dat a V c).A w = V c (Pipeline.arrRef spec4 w) := by
  dsimp only [dat]

theorem after_0 (c : Dev nD) (t : Fin (cfg4 a).N) : (dat a V c).after 0 t = iblk a V c 0 t := rfl
theorem after_1 (c : Dev nD) (t : Fin (cfg4 a).N) : (dat a V c).after 1 t = iblk a V c 1 t := rfl
theorem after_2 (c : Dev nD) (t : Fin (cfg4 a).N) : (dat a V c).after 2 t = acc a V c t.val t.isLt := rfl

/-- Each input's current staging buffer holds its block at every point, fetched there or not. -/
theorem before_0 (c : Dev nD) (t : Fin (cfg4 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg4 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg4 a).N) (h : ¬cC ((cfg4 a).grid.coords t)) : (cfg4 a).idle 2 ((cfg4 a).grid.coords t) = true := by
  show (!(k4_cond2 ((cfg4 a).grid.coords t) == 1#1)) = true
  simpa using h

theorem live_2 (t : Fin (cfg4 a).N) (h : cC ((cfg4 a).grid.coords t)) : (cfg4 a).idle 2 ((cfg4 a).grid.coords t) = false := by
  show (!(k4_cond2 ((cfg4 a).grid.coords t) == 1#1)) = false
  simpa using h

theorem live_0 (t : Fin (cfg4 a).N) : (cfg4 a).idle 0 ((cfg4 a).grid.coords t) = false := rfl
theorem live_1 (t : Fin (cfg4 a).N) : (cfg4 a).idle 1 ((cfg4 a).grid.coords t) = false := rfl

/-- The result's block index never moves, so it is written back at the last point only. -/
theorem noflush_2 (t : Fin (cfg4 a).N) (h : t.val ≠ 49999) : ((cfg4 a).win 2).flush t = false := by
  have hN : (cfg4 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg4 a).N) (d) : (dat a V c).before 0 t d = (dat a V c).after 0 t :=
  (before_0 a V c t d).trans (after_0 a V c t).symm
theorem keep_1 (c : Dev nD) (t : Fin (cfg4 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg4 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k4_pay2 (b3 a V c ⟨0, hn⟩) (b4 a V c ⟨0, hn⟩) (k4_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg4 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg4 a).N) : Memref sig .tc .vmem S1x1x96 .f32 := spec4_0.stage ((cfg4 a).slots t 0)
abbrev hs0 (t : Fin (cfg4 a).N) : (ms0 a t).IsWhole := hstage4_0 (((cfg4 a).slots t 0).cast nbuf4_0)
abbrev ms1 (t : Fin (cfg4 a).N) : Memref sig .tc .vmem S1x1x96 .f32 := spec4_1.stage ((cfg4 a).slots t 1)
abbrev hs1 (t : Fin (cfg4 a).N) : (ms1 a t).IsWhole := hstage4_1 (((cfg4 a).slots t 1).cast nbuf4_1)
abbrev ms2 (t : Fin (cfg4 a).N) : Memref sig .tc .vmem S1x1 .f32 := spec4_2.stage ((cfg4 a).slots t 2)
abbrev hs2 (t : Fin (cfg4 a).N) : (ms2 a t).IsWhole := hstage4_2 (((cfg4 a).slots t 2).cast nbuf4_2)

/-- The body as the pipeline calls it at point `t`. -/
abbrev bodyAt (t : Fin (cfg4 a).N) : Prog (TpuEff nD τ sig (Elt F) Λ₀ .tc) PUnit :=
  cc4__chunk_kernel ((cfg4 a).grid.coords t) (Memref.whole main_v36) (Memref.isWhole_whole _) (Memref.whole main_v38) (Memref.isWhole_whole _)
    (ms0 a t) (hs0 a t) (ms1 a t) (hs1 a t) (ms2 a t) (hs2 a t) (Memref.whole cc4_scratch0) (Memref.isWhole_whole _)

/-- What the body is called with at point `t`, -/
def bodyPre (c : Dev nD) (t : Fin (cfg4 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg4 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg4 a).N) :
    (dat a V c).leavesExact 0 t = owns (c : Thread nD τ) (ms0 a t) fullShare ((dat a V c).after 0 t) := by
  unfold Dat.leavesExact; rw [live_0]; rfl
theorem leaves_1 (c : Dev nD) (t : Fin (cfg4 a).N) :
    (dat a V c).leavesExact 1 t = owns (c : Thread nD τ) (ms1 a t) fullShare ((dat a V c).after 1 t) := by
  unfold Dat.leavesExact; rw [live_1]; rfl
theorem leaves_2_idle (c : Dev nD) (t : Fin (cfg4 a).N) (hC : ¬cC ((cfg4 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg4 a).N) (hC : cC ((cfg4 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg4 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg4 a).grid.coords t) := (hcA a t).mpr h0
    have hC : ¬cC ((cfg4 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec4 c) from by
      obtain ⟨n, hn⟩ := t; obtain rfl : n = 0 := h0; rfl]
    rw [scopedRest4_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec4 c [cc4_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg4 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec4 c [cc4_scratch0]) from rfl]
    have hA : ¬cA ((cfg4 a).grid.coords t) := fun h => h0 ((hcA a t).mp h)
    by_cases hl : t.val = 49999
    · -- the last point
      have hC : cC ((cfg4 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg4 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg4 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg4 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W4, bigSep_W4]
  exact sound_body a V c t

end Cert.Kernel.Chunk4

end
-- ==== Proof.K.Dat05.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 5 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg5 (F := F)).Adm)
variable (V : (c : Dev nD) → (b : Ref sig .tc) → Buf (Elt F) ((c : Thread nD τ).loc b))

/-! ## The grid's points and the two conditions -/

/-- The grid point is the first one: the condition of the body's first conditional. -/
abbrev cA (i : grid5.Coords) : Prop := (Scalar.cmpi .ne (Scalar.extui (Scalar.cmpi .eq (BitVec.ofNat 32 (i 0).val) 0#32)) 0#32) = 1#1
/-- The grid point is the last one: the condition of the body's second conditional. -/
abbrev cC (i : grid5.Coords) : Prop := k5_cond2 i = 1#1

/-- This call's kernel function is the first call's: the same text. -/
theorem kernel_eq : cc5__chunk_kernel (F := F) = cc0__chunk_kernel (F := F) := rfl

theorem N_eq : (cfg5 a).N = 50000 := N_5

/-- On the one-axis grid the coordinate of point `t` is `t`. -/
theorem coord_val (t : Fin (cfg5 a).N) : (((cfg5 a).grid.coords t) 0).val = t.val := by
  have h : t.val < 50000 := lt_of_lt_of_eq t.isLt (N_eq a)
  show t.val / (cfg5 a).grid.stride 0 % 50000 = t.val
  rw [show (cfg5 a).grid.stride 0 = 1 from rfl, Nat.div_one, Nat.mod_eq_of_lt h]

/-- The first conditional is taken at point 0 only. -/
theorem hcA (t : Fin (cfg5 a).N) : cA ((cfg5 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg5 a).N) : cC ((cfg5 a).grid.coords t) ↔ t.val = 49999 := by
  have h : t.val < 50000 := lt_of_lt_of_eq t.isLt (N_eq a)
  unfold cC k5_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- The source row and the destination row staged at point `t`. -/
abbrev b3 (c : Dev nD) (t : Fin (cfg5 a).N) : Vec F S1x1x96 .f32 := iblk a V c 0 t
abbrev b4 (c : Dev nD) (t : Fin (cfg5 a).N) : Vec F S1x1x96 .f32 := iblk a V c 1 t

/-- What the scratch holds after point `n`. -/
def acc (c : Dev nD) : (n : ℕ) → n < (cfg5 a).N → Vec F S1x1 .f32
  | 0, h => k5_pay2 (b3 a V c ⟨0, h⟩) (b4 a V c ⟨0, h⟩) (k5_pay1 (F := F))
  | n + 1, h => k5_pay2 (b3 a V c ⟨n + 1, h⟩) (b4 a V c ⟨n + 1, h⟩) (acc c n (Nat.lt_of_succ_lt h))

theorem acc_pos (c : Dev nD) (t : Fin (cfg5 a).N) (ht : t.val ≠ 0) :
    acc a V c t.val t.isLt = k5_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc5_scratch0

/-- The two prefetched tables held whole at the admissible contents. -/
abbrev tblsHeld (c : Dev nD) : sProp 𝕄 := Pipeline.prefHeld (Ix := Unit) (Name := ℕ) (U := UR sig nD τ) (Lvl := ℕ) pre5 c (fun _ => fullShare) a.1

/-- Before point `n`: the tables; before the first point every other scoped buffer at anything, afterwards the
    scratch at what point `n - 1` left and the others at anything. -/
def PhiS (c : Dev nD) : (n : ℕ) → n ≤ (cfg5 a).N → sProp 𝕄
  | 0, _ => iprop(tblsHeld a c ∗ Pipeline.scopedRest (Ix := Unit) (Name := ℕ) (U := UR sig nD τ) (Lvl := ℕ) (Val := Elt F) spec5 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec5 c [cc5_scratch0])

theorem PhiS_pos (c : Dev nD) (n : ℕ) (h : n ≤ (cfg5 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec5 c [cc5_scratch0]) := by
  cases n with
  | zero => exact absurd rfl hz
  | succ n => rfl

/-! ## The proof data -/

def dat (c : Dev nD) : Dat τ (Elt F) Unit ℕ (UR sig nD τ) ℕ (cfg5 a) c where
  A w := V c (Pipeline.arrRef spec5 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg5 a).W) : (dat a V c).A w = V c (Pipeline.arrRef spec5 w) := by
  dsimp only [dat]

theorem after_0 (c : Dev nD) (t : Fin (cfg5 a).N) : (dat a V c).after 0 t = iblk a V c 0 t := rfl
theorem after_1 (c : Dev nD) (t : Fin (cfg5 a).N) : (dat a V c).after 1 t = iblk a V c 1 t := rfl
theorem after_2 (c : Dev nD) (t : Fin (cfg5 a).N) : (dat a V c).after 2 t = acc a V c t.val t.isLt := rfl

/-- Each input's current staging buffer holds its block at every point, fetched there or not. -/
theorem before_0 (c : Dev nD) (t : Fin (cfg5 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg5 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg5 a).N) (h : ¬cC ((cfg5 a).grid.coords t)) : (cfg5 a).idle 2 ((cfg5 a).grid.coords t) = true := by
  show (!(k5_cond2 ((cfg5 a).grid.coords t) == 1#1)) = true
  simpa using h

theorem live_2 (t : Fin (cfg5 a).N) (h : cC ((cfg5 a).grid.coords t)) : (cfg5 a).idle 2 ((cfg5 a).grid.coords t) = false := by
  show (!(k5_cond2 ((cfg5 a).grid.coords t) == 1#1)) = false
  simpa using h

theorem live_0 (t : Fin (cfg5 a).N) : (cfg5 a).idle 0 ((cfg5 a).grid.coords t) = false := rfl
theorem live_1 (t : Fin (cfg5 a).N) : (cfg5 a).idle 1 ((cfg5 a).grid.coords t) = false := rfl

/-- The result's block index never moves, so it is written back at the last point only. -/
theorem noflush_2 (t : Fin (cfg5 a).N) (h : t.val ≠ 49999) : ((cfg5 a).win 2).flush t = false := by
  have hN : (cfg5 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg5 a).N) (d) : (dat a V c).before 0 t d = (dat a V c).after 0 t :=
  (before_0 a V c t d).trans (after_0 a V c t).symm
theorem keep_1 (c : Dev nD) (t : Fin (cfg5 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg5 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k5_pay2 (b3 a V c ⟨0, hn⟩) (b4 a V c ⟨0, hn⟩) (k5_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg5 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg5 a).N) : Memref sig .tc .vmem S1x1x96 .f32 := spec5_0.stage ((cfg5 a).slots t 0)
abbrev hs0 (t : Fin (cfg5 a).N) : (ms0 a t).IsWhole := hstage5_0 (((cfg5 a).slots t 0).cast nbuf5_0)
abbrev ms1 (t : Fin (cfg5 a).N) : Memref sig .tc .vmem S1x1x96 .f32 := spec5_1.stage ((cfg5 a).slots t 1)
abbrev hs1 (t : Fin (cfg5 a).N) : (ms1 a t).IsWhole := hstage5_1 (((cfg5 a).slots t 1).cast nbuf5_1)
abbrev ms2 (t : Fin (cfg5 a).N) : Memref sig .tc .vmem S1x1 .f32 := spec5_2.stage ((cfg5 a).slots t 2)
abbrev hs2 (t : Fin (cfg5 a).N) : (ms2 a t).IsWhole := hstage5_2 (((cfg5 a).slots t 2).cast nbuf5_2)

/-- The body as the pipeline calls it at point `t`. -/
abbrev bodyAt (t : Fin (cfg5 a).N) : Prog (TpuEff nD τ sig (Elt F) Λ₀ .tc) PUnit :=
  cc5__chunk_kernel ((cfg5 a).grid.coords t) (Memref.whole main_v43) (Memref.isWhole_whole _) (Memref.whole main_v45) (Memref.isWhole_whole _)
    (ms0 a t) (hs0 a t) (ms1 a t) (hs1 a t) (ms2 a t) (hs2 a t) (Memref.whole cc5_scratch0) (Memref.isWhole_whole _)

/-- What the body is called with at point `t`, -/
def bodyPre (c : Dev nD) (t : Fin (cfg5 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg5 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg5 a).N) :
    (dat a V c).leavesExact 0 t = owns (c : Thread nD τ) (ms0 a t) fullShare ((dat a V c).after 0 t) := by
  unfold Dat.leavesExact; rw [live_0]; rfl
theorem leaves_1 (c : Dev nD) (t : Fin (cfg5 a).N) :
    (dat a V c).leavesExact 1 t = owns (c : Thread nD τ) (ms1 a t) fullShare ((dat a V c).after 1 t) := by
  unfold Dat.leavesExact; rw [live_1]; rfl
theorem leaves_2_idle (c : Dev nD) (t : Fin (cfg5 a).N) (hC : ¬cC ((cfg5 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg5 a).N) (hC : cC ((cfg5 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg5 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg5 a).grid.coords t) := (hcA a t).mpr h0
    have hC : ¬cC ((cfg5 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec5 c) from by
      obtain ⟨n, hn⟩ := t; obtain rfl : n = 0 := h0; rfl]
    rw [scopedRest5_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec5 c [cc5_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg5 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec5 c [cc5_scratch0]) from rfl]
    have hA : ¬cA ((cfg5 a).grid.coords t) := fun h => h0 ((hcA a t).mp h)
    by_cases hl : t.val = 49999
    · -- the last point
      have hC : cC ((cfg5 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg5 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg5 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg5 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W5, bigSep_W5]
  exact sound_body a V c t

end Cert.Kernel.Chunk5

end
-- ==== Proof.K.Dat06.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 6 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg6 (F := F)).Adm)
variable (V : (c : Dev nD) → (b : Ref sig .tc) → Buf (Elt F) ((c : Thread nD τ).loc b))

/-! ## The grid's points and the two conditions -/

/-- The grid point is the first one: the condition of the body's first conditional. -/
abbrev cA (i : grid6.Coords) : Prop := (Scalar.cmpi .ne (Scalar.extui (Scalar.cmpi .eq (BitVec.ofNat 32 (i 0).val) 0#32)) 0#32) = 1#1
/-- The grid point is the last one: the condition of the body's second conditional. -/
abbrev cC (i : grid6.Coords) : Prop := k6_cond2 i = 1#1

/-- This call's kernel function is the first call's: the same text. -/
theorem kernel_eq : cc6__chunk_kernel (F := F) = cc0__chunk_kernel (F := F) := rfl

theorem N_eq : (cfg6 a).N = 50000 := N_6

/-- On the one-axis grid the coordinate of point `t` is `t`. -/
theorem coord_val (t : Fin (cfg6 a).N) : (((cfg6 a).grid.coords t) 0).val = t.val := by
  have h : t.val < 50000 := lt_of_lt_of_eq t.isLt (N_eq a)
  show t.val / (cfg6 a).grid.stride 0 % 50000 = t.val
  rw [show (cfg6 a).grid.stride 0 = 1 from rfl, Nat.div_one, Nat.mod_eq_of_lt h]

/-- The first conditional is taken at point 0 only. -/
theorem hcA (t : Fin (cfg6 a).N) : cA ((cfg6 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg6 a).N) : cC ((cfg6 a).grid.coords t) ↔ t.val = 49999 := by
  have h : t.val < 50000 := lt_of_lt_of_eq t.isLt (N_eq a)
  unfold cC k6_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- The source row and the destination row staged at point `t`. -/
abbrev b3 (c : Dev nD) (t : Fin (cfg6 a).N) : Vec F S1x1x96 .f32 := iblk a V c 0 t
abbrev b4 (c : Dev nD) (t : Fin (cfg6 a).N) : Vec F S1x1x96 .f32 := iblk a V c 1 t

/-- What the scratch holds after point `n`. -/
def acc (c : Dev nD) : (n : ℕ) → n < (cfg6 a).N → Vec F S1x1 .f32
  | 0, h => k6_pay2 (b3 a V c ⟨0, h⟩) (b4 a V c ⟨0, h⟩) (k6_pay1 (F := F))
  | n + 1, h => k6_pay2 (b3 a V c ⟨n + 1, h⟩) (b4 a V c ⟨n + 1, h⟩) (acc c n (Nat.lt_of_succ_lt h))

theorem acc_pos (c : Dev nD) (t : Fin (cfg6 a).N) (ht : t.val ≠ 0) :
    acc a V c t.val t.isLt = k6_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc6_scratch0

/-- The two prefetched tables held whole at the admissible contents. -/
abbrev tblsHeld (c : Dev nD) : sProp 𝕄 := Pipeline.prefHeld (Ix := Unit) (Name := ℕ) (U := UR sig nD τ) (Lvl := ℕ) pre6 c (fun _ => fullShare) a.1

/-- Before point `n`: the tables; before the first point every other scoped buffer at anything, afterwards the
    scratch at what point `n - 1` left and the others at anything. -/
def PhiS (c : Dev nD) : (n : ℕ) → n ≤ (cfg6 a).N → sProp 𝕄
  | 0, _ => iprop(tblsHeld a c ∗ Pipeline.scopedRest (Ix := Unit) (Name := ℕ) (U := UR sig nD τ) (Lvl := ℕ) (Val := Elt F) spec6 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec6 c [cc6_scratch0])

theorem PhiS_pos (c : Dev nD) (n : ℕ) (h : n ≤ (cfg6 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec6 c [cc6_scratch0]) := by
  cases n with
  | zero => exact absurd rfl hz
  | succ n => rfl

/-! ## The proof data -/

def dat (c : Dev nD) : Dat τ (Elt F) Unit ℕ (UR sig nD τ) ℕ (cfg6 a) c where
  A w := V c (Pipeline.arrRef spec6 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg6 a).W) : (dat a V c).A w = V c (Pipeline.arrRef spec6 w) := by
  dsimp only [dat]

theorem after_0 (c : Dev nD) (t : Fin (cfg6 a).N) : (dat a V c).after 0 t = iblk a V c 0 t := rfl
theorem after_1 (c : Dev nD) (t : Fin (cfg6 a).N) : (dat a V c).after 1 t = iblk a V c 1 t := rfl
theorem after_2 (c : Dev nD) (t : Fin (cfg6 a).N) : (dat a V c).after 2 t = acc a V c t.val t.isLt := rfl

/-- Each input's current staging buffer holds its block at every point, fetched there or not. -/
theorem before_0 (c : Dev nD) (t : Fin (cfg6 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg6 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg6 a).N) (h : ¬cC ((cfg6 a).grid.coords t)) : (cfg6 a).idle 2 ((cfg6 a).grid.coords t) = true := by
  show (!(k6_cond2 ((cfg6 a).grid.coords t) == 1#1)) = true
  simpa using h

theorem live_2 (t : Fin (cfg6 a).N) (h : cC ((cfg6 a).grid.coords t)) : (cfg6 a).idle 2 ((cfg6 a).grid.coords t) = false := by
  show (!(k6_cond2 ((cfg6 a).grid.coords t) == 1#1)) = false
  simpa using h

theorem live_0 (t : Fin (cfg6 a).N) : (cfg6 a).idle 0 ((cfg6 a).grid.coords t) = false := rfl
theorem live_1 (t : Fin (cfg6 a).N) : (cfg6 a).idle 1 ((cfg6 a).grid.coords t) = false := rfl

/-- The result's block index never moves, so it is written back at the last point only. -/
theorem noflush_2 (t : Fin (cfg6 a).N) (h : t.val ≠ 49999) : ((cfg6 a).win 2).flush t = false := by
  have hN : (cfg6 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg6 a).N) (d) : (dat a V c).before 0 t d = (dat a V c).after 0 t :=
  (before_0 a V c t d).trans (after_0 a V c t).symm
theorem keep_1 (c : Dev nD) (t : Fin (cfg6 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg6 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k6_pay2 (b3 a V c ⟨0, hn⟩) (b4 a V c ⟨0, hn⟩) (k6_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg6 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg6 a).N) : Memref sig .tc .vmem S1x1x96 .f32 := spec6_0.stage ((cfg6 a).slots t 0)
abbrev hs0 (t : Fin (cfg6 a).N) : (ms0 a t).IsWhole := hstage6_0 (((cfg6 a).slots t 0).cast nbuf6_0)
abbrev ms1 (t : Fin (cfg6 a).N) : Memref sig .tc .vmem S1x1x96 .f32 := spec6_1.stage ((cfg6 a).slots t 1)
abbrev hs1 (t : Fin (cfg6 a).N) : (ms1 a t).IsWhole := hstage6_1 (((cfg6 a).slots t 1).cast nbuf6_1)
abbrev ms2 (t : Fin (cfg6 a).N) : Memref sig .tc .vmem S1x1 .f32 := spec6_2.stage ((cfg6 a).slots t 2)
abbrev hs2 (t : Fin (cfg6 a).N) : (ms2 a t).IsWhole := hstage6_2 (((cfg6 a).slots t 2).cast nbuf6_2)

/-- The body as the pipeline calls it at point `t`. -/
abbrev bodyAt (t : Fin (cfg6 a).N) : Prog (TpuEff nD τ sig (Elt F) Λ₀ .tc) PUnit :=
  cc6__chunk_kernel ((cfg6 a).grid.coords t) (Memref.whole main_v50) (Memref.isWhole_whole _) (Memref.whole main_v52) (Memref.isWhole_whole _)
    (ms0 a t) (hs0 a t) (ms1 a t) (hs1 a t) (ms2 a t) (hs2 a t) (Memref.whole cc6_scratch0) (Memref.isWhole_whole _)

/-- What the body is called with at point `t`, -/
def bodyPre (c : Dev nD) (t : Fin (cfg6 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg6 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg6 a).N) :
    (dat a V c).leavesExact 0 t = owns (c : Thread nD τ) (ms0 a t) fullShare ((dat a V c).after 0 t) := by
  unfold Dat.leavesExact; rw [live_0]; rfl
theorem leaves_1 (c : Dev nD) (t : Fin (cfg6 a).N) :
    (dat a V c).leavesExact 1 t = owns (c : Thread nD τ) (ms1 a t) fullShare ((dat a V c).after 1 t) := by
  unfold Dat.leavesExact; rw [live_1]; rfl
theorem leaves_2_idle (c : Dev nD) (t : Fin (cfg6 a).N) (hC : ¬cC ((cfg6 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg6 a).N) (hC : cC ((cfg6 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg6 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg6 a).grid.coords t) := (hcA a t).mpr h0
    have hC : ¬cC ((cfg6 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec6 c) from by
      obtain ⟨n, hn⟩ := t; obtain rfl : n = 0 := h0; rfl]
    rw [scopedRest6_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec6 c [cc6_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg6 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec6 c [cc6_scratch0]) from rfl]
    have hA : ¬cA ((cfg6 a).grid.coords t) := fun h => h0 ((hcA a t).mp h)
    by_cases hl : t.val = 49999
    · -- the last point
      have hC : cC ((cfg6 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg6 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg6 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg6 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W6, bigSep_W6]
  exact sound_body a V c t

end Cert.Kernel.Chunk6

end
-- ==== Proof.K.Dat07.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 7 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg7 (F := F)).Adm)
variable (V : (c : Dev nD) → (b : Ref sig .tc) → Buf (Elt F) ((c : Thread nD τ).loc b))

/-! ## The grid's points and the two conditions -/

/-- The grid point is the first one: the condition of the body's first conditional. -/
abbrev cA (i : grid7.Coords) : Prop := (Scalar.cmpi .ne (Scalar.extui (Scalar.cmpi .eq (BitVec.ofNat 32 (i 0).val) 0#32)) 0#32) = 1#1
/-- The grid point is the last one: the condition of the body's second conditional. -/
abbrev cC (i : grid7.Coords) : Prop := k7_cond2 i = 1#1

/-- This call's kernel function is the first call's: the same text. -/
theorem kernel_eq : cc7__chunk_kernel (F := F) = cc0__chunk_kernel (F := F) := rfl

theorem N_eq : (cfg7 a).N = 50000 := N_7

/-- On the one-axis grid the coordinate of point `t` is `t`. -/
theorem coord_val (t : Fin (cfg7 a).N) : (((cfg7 a).grid.coords t) 0).val = t.val := by
  have h : t.val < 50000 := lt_of_lt_of_eq t.isLt (N_eq a)
  show t.val / (cfg7 a).grid.stride 0 % 50000 = t.val
  rw [show (cfg7 a).grid.stride 0 = 1 from rfl, Nat.div_one, Nat.mod_eq_of_lt h]

/-- The first conditional is taken at point 0 only. -/
theorem hcA (t : Fin (cfg7 a).N) : cA ((cfg7 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg7 a).N) : cC ((cfg7 a).grid.coords t) ↔ t.val = 49999 := by
  have h : t.val < 50000 := lt_of_lt_of_eq t.isLt (N_eq a)
  unfold cC k7_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- The source row and the destination row staged at point `t`. -/
abbrev b3 (c : Dev nD) (t : Fin (cfg7 a).N) : Vec F S1x1x96 .f32 := iblk a V c 0 t
abbrev b4 (c : Dev nD) (t : Fin (cfg7 a).N) : Vec F S1x1x96 .f32 := iblk a V c 1 t

/-- What the scratch holds after point `n`. -/
def acc (c : Dev nD) : (n : ℕ) → n < (cfg7 a).N → Vec F S1x1 .f32
  | 0, h => k7_pay2 (b3 a V c ⟨0, h⟩) (b4 a V c ⟨0, h⟩) (k7_pay1 (F := F))
  | n + 1, h => k7_pay2 (b3 a V c ⟨n + 1, h⟩) (b4 a V c ⟨n + 1, h⟩) (acc c n (Nat.lt_of_succ_lt h))

theorem acc_pos (c : Dev nD) (t : Fin (cfg7 a).N) (ht : t.val ≠ 0) :
    acc a V c t.val t.isLt = k7_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc7_scratch0

/-- The two prefetched tables held whole at the admissible contents. -/
abbrev tblsHeld (c : Dev nD) : sProp 𝕄 := Pipeline.prefHeld (Ix := Unit) (Name := ℕ) (U := UR sig nD τ) (Lvl := ℕ) pre7 c (fun _ => fullShare) a.1

/-- Before point `n`: the tables; before the first point every other scoped buffer at anything, afterwards the
    scratch at what point `n - 1` left and the others at anything. -/
def PhiS (c : Dev nD) : (n : ℕ) → n ≤ (cfg7 a).N → sProp 𝕄
  | 0, _ => iprop(tblsHeld a c ∗ Pipeline.scopedRest (Ix := Unit) (Name := ℕ) (U := UR sig nD τ) (Lvl := ℕ) (Val := Elt F) spec7 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec7 c [cc7_scratch0])

theorem PhiS_pos (c : Dev nD) (n : ℕ) (h : n ≤ (cfg7 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec7 c [cc7_scratch0]) := by
  cases n with
  | zero => exact absurd rfl hz
  | succ n => rfl

/-! ## The proof data -/

def dat (c : Dev nD) : Dat τ (Elt F) Unit ℕ (UR sig nD τ) ℕ (cfg7 a) c where
  A w := V c (Pipeline.arrRef spec7 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg7 a).W) : (dat a V c).A w = V c (Pipeline.arrRef spec7 w) := by
  dsimp only [dat]

theorem after_0 (c : Dev nD) (t : Fin (cfg7 a).N) : (dat a V c).after 0 t = iblk a V c 0 t := rfl
theorem after_1 (c : Dev nD) (t : Fin (cfg7 a).N) : (dat a V c).after 1 t = iblk a V c 1 t := rfl
theorem after_2 (c : Dev nD) (t : Fin (cfg7 a).N) : (dat a V c).after 2 t = acc a V c t.val t.isLt := rfl

/-- Each input's current staging buffer holds its block at every point, fetched there or not. -/
theorem before_0 (c : Dev nD) (t : Fin (cfg7 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg7 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg7 a).N) (h : ¬cC ((cfg7 a).grid.coords t)) : (cfg7 a).idle 2 ((cfg7 a).grid.coords t) = true := by
  show (!(k7_cond2 ((cfg7 a).grid.coords t) == 1#1)) = true
  simpa using h

theorem live_2 (t : Fin (cfg7 a).N) (h : cC ((cfg7 a).grid.coords t)) : (cfg7 a).idle 2 ((cfg7 a).grid.coords t) = false := by
  show (!(k7_cond2 ((cfg7 a).grid.coords t) == 1#1)) = false
  simpa using h

theorem live_0 (t : Fin (cfg7 a).N) : (cfg7 a).idle 0 ((cfg7 a).grid.coords t) = false := rfl
theorem live_1 (t : Fin (cfg7 a).N) : (cfg7 a).idle 1 ((cfg7 a).grid.coords t) = false := rfl

/-- The result's block index never moves, so it is written back at the last point only. -/
theorem noflush_2 (t : Fin (cfg7 a).N) (h : t.val ≠ 49999) : ((cfg7 a).win 2).flush t = false := by
  have hN : (cfg7 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg7 a).N) (d) : (dat a V c).before 0 t d = (dat a V c).after 0 t :=
  (before_0 a V c t d).trans (after_0 a V c t).symm
theorem keep_1 (c : Dev nD) (t : Fin (cfg7 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg7 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k7_pay2 (b3 a V c ⟨0, hn⟩) (b4 a V c ⟨0, hn⟩) (k7_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg7 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg7 a).N) : Memref sig .tc .vmem S1x1x96 .f32 := spec7_0.stage ((cfg7 a).slots t 0)
abbrev hs0 (t : Fin (cfg7 a).N) : (ms0 a t).IsWhole := hstage7_0 (((cfg7 a).slots t 0).cast nbuf7_0)
abbrev ms1 (t : Fin (cfg7 a).N) : Memref sig .tc .vmem S1x1x96 .f32 := spec7_1.stage ((cfg7 a).slots t 1)
abbrev hs1 (t : Fin (cfg7 a).N) : (ms1 a t).IsWhole := hstage7_1 (((cfg7 a).slots t 1).cast nbuf7_1)
abbrev ms2 (t : Fin (cfg7 a).N) : Memref sig .tc .vmem S1x1 .f32 := spec7_2.stage ((cfg7 a).slots t 2)
abbrev hs2 (t : Fin (cfg7 a).N) : (ms2 a t).IsWhole := hstage7_2 (((cfg7 a).slots t 2).cast nbuf7_2)

/-- The body as the pipeline calls it at point `t`. -/
abbrev bodyAt (t : Fin (cfg7 a).N) : Prog (TpuEff nD τ sig (Elt F) Λ₀ .tc) PUnit :=
  cc7__chunk_kernel ((cfg7 a).grid.coords t) (Memref.whole main_v57) (Memref.isWhole_whole _) (Memref.whole main_v59) (Memref.isWhole_whole _)
    (ms0 a t) (hs0 a t) (ms1 a t) (hs1 a t) (ms2 a t) (hs2 a t) (Memref.whole cc7_scratch0) (Memref.isWhole_whole _)

/-- What the body is called with at point `t`, -/
def bodyPre (c : Dev nD) (t : Fin (cfg7 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg7 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg7 a).N) :
    (dat a V c).leavesExact 0 t = owns (c : Thread nD τ) (ms0 a t) fullShare ((dat a V c).after 0 t) := by
  unfold Dat.leavesExact; rw [live_0]; rfl
theorem leaves_1 (c : Dev nD) (t : Fin (cfg7 a).N) :
    (dat a V c).leavesExact 1 t = owns (c : Thread nD τ) (ms1 a t) fullShare ((dat a V c).after 1 t) := by
  unfold Dat.leavesExact; rw [live_1]; rfl
theorem leaves_2_idle (c : Dev nD) (t : Fin (cfg7 a).N) (hC : ¬cC ((cfg7 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg7 a).N) (hC : cC ((cfg7 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg7 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg7 a).grid.coords t) := (hcA a t).mpr h0
    have hC : ¬cC ((cfg7 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec7 c) from by
      obtain ⟨n, hn⟩ := t; obtain rfl : n = 0 := h0; rfl]
    rw [scopedRest7_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec7 c [cc7_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg7 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec7 c [cc7_scratch0]) from rfl]
    have hA : ¬cA ((cfg7 a).grid.coords t) := fun h => h0 ((hcA a t).mp h)
    by_cases hl : t.val = 49999
    · -- the last point
      have hC : cC ((cfg7 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg7 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg7 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg7 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W7, bigSep_W7]
  exact sound_body a V c t

end Cert.Kernel.Chunk7

end
-- ==== Proof.K.Dat08.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 8 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg8 (F := F)).Adm)
variable (V : (c : Dev nD) → (b : Ref sig .tc) → Buf (Elt F) ((c : Thread nD τ).loc b))

/-! ## The grid's points and the two conditions -/

/-- The grid point is the first one: the condition of the body's first conditional. -/
abbrev cA (i : grid8.Coords) : Prop := (Scalar.cmpi .ne (Scalar.extui (Scalar.cmpi .eq (BitVec.ofNat 32 (i 0).val) 0#32)) 0#32) = 1#1
/-- The grid point is the last one: the condition of the body's second conditional. -/
abbrev cC (i : grid8.Coords) : Prop := k8_cond2 i = 1#1

/-- This call's kernel function is the first call's: the same text. -/
theorem kernel_eq : cc8__chunk_kernel (F := F) = cc0__chunk_kernel (F := F) := rfl

theorem N_eq : (cfg8 a).N = 50000 := N_8

/-- On the one-axis grid the coordinate of point `t` is `t`. -/
theorem coord_val (t : Fin (cfg8 a).N) : (((cfg8 a).grid.coords t) 0).val = t.val := by
  have h : t.val < 50000 := lt_of_lt_of_eq t.isLt (N_eq a)
  show t.val / (cfg8 a).grid.stride 0 % 50000 = t.val
  rw [show (cfg8 a).grid.stride 0 = 1 from rfl, Nat.div_one, Nat.mod_eq_of_lt h]

/-- The first conditional is taken at point 0 only. -/
theorem hcA (t : Fin (cfg8 a).N) : cA ((cfg8 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg8 a).N) : cC ((cfg8 a).grid.coords t) ↔ t.val = 49999 := by
  have h : t.val < 50000 := lt_of_lt_of_eq t.isLt (N_eq a)
  unfold cC k8_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- The source row and the destination row staged at point `t`. -/
abbrev b3 (c : Dev nD) (t : Fin (cfg8 a).N) : Vec F S1x1x96 .f32 := iblk a V c 0 t
abbrev b4 (c : Dev nD) (t : Fin (cfg8 a).N) : Vec F S1x1x96 .f32 := iblk a V c 1 t

/-- What the scratch holds after point `n`. -/
def acc (c : Dev nD) : (n : ℕ) → n < (cfg8 a).N → Vec F S1x1 .f32
  | 0, h => k8_pay2 (b3 a V c ⟨0, h⟩) (b4 a V c ⟨0, h⟩) (k8_pay1 (F := F))
  | n + 1, h => k8_pay2 (b3 a V c ⟨n + 1, h⟩) (b4 a V c ⟨n + 1, h⟩) (acc c n (Nat.lt_of_succ_lt h))

theorem acc_pos (c : Dev nD) (t : Fin (cfg8 a).N) (ht : t.val ≠ 0) :
    acc a V c t.val t.isLt = k8_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc8_scratch0

/-- The two prefetched tables held whole at the admissible contents. -/
abbrev tblsHeld (c : Dev nD) : sProp 𝕄 := Pipeline.prefHeld (Ix := Unit) (Name := ℕ) (U := UR sig nD τ) (Lvl := ℕ) pre8 c (fun _ => fullShare) a.1

/-- Before point `n`: the tables; before the first point every other scoped buffer at anything, afterwards the
    scratch at what point `n - 1` left and the others at anything. -/
def PhiS (c : Dev nD) : (n : ℕ) → n ≤ (cfg8 a).N → sProp 𝕄
  | 0, _ => iprop(tblsHeld a c ∗ Pipeline.scopedRest (Ix := Unit) (Name := ℕ) (U := UR sig nD τ) (Lvl := ℕ) (Val := Elt F) spec8 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec8 c [cc8_scratch0])

theorem PhiS_pos (c : Dev nD) (n : ℕ) (h : n ≤ (cfg8 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec8 c [cc8_scratch0]) := by
  cases n with
  | zero => exact absurd rfl hz
  | succ n => rfl

/-! ## The proof data -/

def dat (c : Dev nD) : Dat τ (Elt F) Unit ℕ (UR sig nD τ) ℕ (cfg8 a) c where
  A w := V c (Pipeline.arrRef spec8 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg8 a).W) : (dat a V c).A w = V c (Pipeline.arrRef spec8 w) := by
  dsimp only [dat]

theorem after_0 (c : Dev nD) (t : Fin (cfg8 a).N) : (dat a V c).after 0 t = iblk a V c 0 t := rfl
theorem after_1 (c : Dev nD) (t : Fin (cfg8 a).N) : (dat a V c).after 1 t = iblk a V c 1 t := rfl
theorem after_2 (c : Dev nD) (t : Fin (cfg8 a).N) : (dat a V c).after 2 t = acc a V c t.val t.isLt := rfl

/-- Each input's current staging buffer holds its block at every point, fetched there or not. -/
theorem before_0 (c : Dev nD) (t : Fin (cfg8 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg8 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg8 a).N) (h : ¬cC ((cfg8 a).grid.coords t)) : (cfg8 a).idle 2 ((cfg8 a).grid.coords t) = true := by
  show (!(k8_cond2 ((cfg8 a).grid.coords t) == 1#1)) = true
  simpa using h

theorem live_2 (t : Fin (cfg8 a).N) (h : cC ((cfg8 a).grid.coords t)) : (cfg8 a).idle 2 ((cfg8 a).grid.coords t) = false := by
  show (!(k8_cond2 ((cfg8 a).grid.coords t) == 1#1)) = false
  simpa using h

theorem live_0 (t : Fin (cfg8 a).N) : (cfg8 a).idle 0 ((cfg8 a).grid.coords t) = false := rfl
theorem live_1 (t : Fin (cfg8 a).N) : (cfg8 a).idle 1 ((cfg8 a).grid.coords t) = false := rfl

/-- The result's block index never moves, so it is written back at the last point only. -/
theorem noflush_2 (t : Fin (cfg8 a).N) (h : t.val ≠ 49999) : ((cfg8 a).win 2).flush t = false := by
  have hN : (cfg8 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg8 a).N) (d) : (dat a V c).before 0 t d = (dat a V c).after 0 t :=
  (before_0 a V c t d).trans (after_0 a V c t).symm
theorem keep_1 (c : Dev nD) (t : Fin (cfg8 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg8 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k8_pay2 (b3 a V c ⟨0, hn⟩) (b4 a V c ⟨0, hn⟩) (k8_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg8 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg8 a).N) : Memref sig .tc .vmem S1x1x96 .f32 := spec8_0.stage ((cfg8 a).slots t 0)
abbrev hs0 (t : Fin (cfg8 a).N) : (ms0 a t).IsWhole := hstage8_0 (((cfg8 a).slots t 0).cast nbuf8_0)
abbrev ms1 (t : Fin (cfg8 a).N) : Memref sig .tc .vmem S1x1x96 .f32 := spec8_1.stage ((cfg8 a).slots t 1)
abbrev hs1 (t : Fin (cfg8 a).N) : (ms1 a t).IsWhole := hstage8_1 (((cfg8 a).slots t 1).cast nbuf8_1)
abbrev ms2 (t : Fin (cfg8 a).N) : Memref sig .tc .vmem S1x1 .f32 := spec8_2.stage ((cfg8 a).slots t 2)
abbrev hs2 (t : Fin (cfg8 a).N) : (ms2 a t).IsWhole := hstage8_2 (((cfg8 a).slots t 2).cast nbuf8_2)

/-- The body as the pipeline calls it at point `t`. -/
abbrev bodyAt (t : Fin (cfg8 a).N) : Prog (TpuEff nD τ sig (Elt F) Λ₀ .tc) PUnit :=
  cc8__chunk_kernel ((cfg8 a).grid.coords t) (Memref.whole main_v64) (Memref.isWhole_whole _) (Memref.whole main_v66) (Memref.isWhole_whole _)
    (ms0 a t) (hs0 a t) (ms1 a t) (hs1 a t) (ms2 a t) (hs2 a t) (Memref.whole cc8_scratch0) (Memref.isWhole_whole _)

/-- What the body is called with at point `t`, -/
def bodyPre (c : Dev nD) (t : Fin (cfg8 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg8 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg8 a).N) :
    (dat a V c).leavesExact 0 t = owns (c : Thread nD τ) (ms0 a t) fullShare ((dat a V c).after 0 t) := by
  unfold Dat.leavesExact; rw [live_0]; rfl
theorem leaves_1 (c : Dev nD) (t : Fin (cfg8 a).N) :
    (dat a V c).leavesExact 1 t = owns (c : Thread nD τ) (ms1 a t) fullShare ((dat a V c).after 1 t) := by
  unfold Dat.leavesExact; rw [live_1]; rfl
theorem leaves_2_idle (c : Dev nD) (t : Fin (cfg8 a).N) (hC : ¬cC ((cfg8 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg8 a).N) (hC : cC ((cfg8 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg8 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg8 a).grid.coords t) := (hcA a t).mpr h0
    have hC : ¬cC ((cfg8 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec8 c) from by
      obtain ⟨n, hn⟩ := t; obtain rfl : n = 0 := h0; rfl]
    rw [scopedRest8_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec8 c [cc8_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg8 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec8 c [cc8_scratch0]) from rfl]
    have hA : ¬cA ((cfg8 a).grid.coords t) := fun h => h0 ((hcA a t).mp h)
    by_cases hl : t.val = 49999
    · -- the last point
      have hC : cC ((cfg8 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg8 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg8 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg8 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W8, bigSep_W8]
  exact sound_body a V c t

end Cert.Kernel.Chunk8

end
-- ==== Proof.K.Dat09.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 9 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg9 (F := F)).Adm)
variable (V : (c : Dev nD) → (b : Ref sig .tc) → Buf (Elt F) ((c : Thread nD τ).loc b))

/-! ## The grid's points and the two conditions -/

/-- The grid point is the first one: the condition of the body's first conditional. -/
abbrev cA (i : grid9.Coords) : Prop := (Scalar.cmpi .ne (Scalar.extui (Scalar.cmpi .eq (BitVec.ofNat 32 (i 0).val) 0#32)) 0#32) = 1#1
/-- The grid point is the last one: the condition of the body's second conditional. -/
abbrev cC (i : grid9.Coords) : Prop := k9_cond2 i = 1#1

/-- This call's kernel function is the first call's: the same text. -/
theorem kernel_eq : cc9__chunk_kernel (F := F) = cc0__chunk_kernel (F := F) := rfl

theorem N_eq : (cfg9 a).N = 50000 := N_9

/-- On the one-axis grid the coordinate of point `t` is `t`. -/
theorem coord_val (t : Fin (cfg9 a).N) : (((cfg9 a).grid.coords t) 0).val = t.val := by
  have h : t.val < 50000 := lt_of_lt_of_eq t.isLt (N_eq a)
  show t.val / (cfg9 a).grid.stride 0 % 50000 = t.val
  rw [show (cfg9 a).grid.stride 0 = 1 from rfl, Nat.div_one, Nat.mod_eq_of_lt h]

/-- The first conditional is taken at point 0 only. -/
theorem hcA (t : Fin (cfg9 a).N) : cA ((cfg9 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg9 a).N) : cC ((cfg9 a).grid.coords t) ↔ t.val = 49999 := by
  have h : t.val < 50000 := lt_of_lt_of_eq t.isLt (N_eq a)
  unfold cC k9_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- The source row and the destination row staged at point `t`. -/
abbrev b3 (c : Dev nD) (t : Fin (cfg9 a).N) : Vec F S1x1x96 .f32 := iblk a V c 0 t
abbrev b4 (c : Dev nD) (t : Fin (cfg9 a).N) : Vec F S1x1x96 .f32 := iblk a V c 1 t

/-- What the scratch holds after point `n`. -/
def acc (c : Dev nD) : (n : ℕ) → n < (cfg9 a).N → Vec F S1x1 .f32
  | 0, h => k9_pay2 (b3 a V c ⟨0, h⟩) (b4 a V c ⟨0, h⟩) (k9_pay1 (F := F))
  | n + 1, h => k9_pay2 (b3 a V c ⟨n + 1, h⟩) (b4 a V c ⟨n + 1, h⟩) (acc c n (Nat.lt_of_succ_lt h))

theorem acc_pos (c : Dev nD) (t : Fin (cfg9 a).N) (ht : t.val ≠ 0) :
    acc a V c t.val t.isLt = k9_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc9_scratch0

/-- The two prefetched tables held whole at the admissible contents. -/
abbrev tblsHeld (c : Dev nD) : sProp 𝕄 := Pipeline.prefHeld (Ix := Unit) (Name := ℕ) (U := UR sig nD τ) (Lvl := ℕ) pre9 c (fun _ => fullShare) a.1

/-- Before point `n`: the tables; before the first point every other scoped buffer at anything, afterwards the
    scratch at what point `n - 1` left and the others at anything. -/
def PhiS (c : Dev nD) : (n : ℕ) → n ≤ (cfg9 a).N → sProp 𝕄
  | 0, _ => iprop(tblsHeld a c ∗ Pipeline.scopedRest (Ix := Unit) (Name := ℕ) (U := UR sig nD τ) (Lvl := ℕ) (Val := Elt F) spec9 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec9 c [cc9_scratch0])

theorem PhiS_pos (c : Dev nD) (n : ℕ) (h : n ≤ (cfg9 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec9 c [cc9_scratch0]) := by
  cases n with
  | zero => exact absurd rfl hz
  | succ n => rfl

/-! ## The proof data -/

def dat (c : Dev nD) : Dat τ (Elt F) Unit ℕ (UR sig nD τ) ℕ (cfg9 a) c where
  A w := V c (Pipeline.arrRef spec9 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg9 a).W) : (dat a V c).A w = V c (Pipeline.arrRef spec9 w) := by
  dsimp only [dat]

theorem after_0 (c : Dev nD) (t : Fin (cfg9 a).N) : (dat a V c).after 0 t = iblk a V c 0 t := rfl
theorem after_1 (c : Dev nD) (t : Fin (cfg9 a).N) : (dat a V c).after 1 t = iblk a V c 1 t := rfl
theorem after_2 (c : Dev nD) (t : Fin (cfg9 a).N) : (dat a V c).after 2 t = acc a V c t.val t.isLt := rfl

/-- Each input's current staging buffer holds its block at every point, fetched there or not. -/
theorem before_0 (c : Dev nD) (t : Fin (cfg9 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg9 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg9 a).N) (h : ¬cC ((cfg9 a).grid.coords t)) : (cfg9 a).idle 2 ((cfg9 a).grid.coords t) = true := by
  show (!(k9_cond2 ((cfg9 a).grid.coords t) == 1#1)) = true
  simpa using h

theorem live_2 (t : Fin (cfg9 a).N) (h : cC ((cfg9 a).grid.coords t)) : (cfg9 a).idle 2 ((cfg9 a).grid.coords t) = false := by
  show (!(k9_cond2 ((cfg9 a).grid.coords t) == 1#1)) = false
  simpa using h

theorem live_0 (t : Fin (cfg9 a).N) : (cfg9 a).idle 0 ((cfg9 a).grid.coords t) = false := rfl
theorem live_1 (t : Fin (cfg9 a).N) : (cfg9 a).idle 1 ((cfg9 a).grid.coords t) = false := rfl

/-- The result's block index never moves, so it is written back at the last point only. -/
theorem noflush_2 (t : Fin (cfg9 a).N) (h : t.val ≠ 49999) : ((cfg9 a).win 2).flush t = false := by
  have hN : (cfg9 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg9 a).N) (d) : (dat a V c).before 0 t d = (dat a V c).after 0 t :=
  (before_0 a V c t d).trans (after_0 a V c t).symm
theorem keep_1 (c : Dev nD) (t : Fin (cfg9 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg9 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k9_pay2 (b3 a V c ⟨0, hn⟩) (b4 a V c ⟨0, hn⟩) (k9_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg9 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg9 a).N) : Memref sig .tc .vmem S1x1x96 .f32 := spec9_0.stage ((cfg9 a).slots t 0)
abbrev hs0 (t : Fin (cfg9 a).N) : (ms0 a t).IsWhole := hstage9_0 (((cfg9 a).slots t 0).cast nbuf9_0)
abbrev ms1 (t : Fin (cfg9 a).N) : Memref sig .tc .vmem S1x1x96 .f32 := spec9_1.stage ((cfg9 a).slots t 1)
abbrev hs1 (t : Fin (cfg9 a).N) : (ms1 a t).IsWhole := hstage9_1 (((cfg9 a).slots t 1).cast nbuf9_1)
abbrev ms2 (t : Fin (cfg9 a).N) : Memref sig .tc .vmem S1x1 .f32 := spec9_2.stage ((cfg9 a).slots t 2)
abbrev hs2 (t : Fin (cfg9 a).N) : (ms2 a t).IsWhole := hstage9_2 (((cfg9 a).slots t 2).cast nbuf9_2)

/-- The body as the pipeline calls it at point `t`. -/
abbrev bodyAt (t : Fin (cfg9 a).N) : Prog (TpuEff nD τ sig (Elt F) Λ₀ .tc) PUnit :=
  cc9__chunk_kernel ((cfg9 a).grid.coords t) (Memref.whole main_v71) (Memref.isWhole_whole _) (Memref.whole main_v73) (Memref.isWhole_whole _)
    (ms0 a t) (hs0 a t) (ms1 a t) (hs1 a t) (ms2 a t) (hs2 a t) (Memref.whole cc9_scratch0) (Memref.isWhole_whole _)

/-- What the body is called with at point `t`, -/
def bodyPre (c : Dev nD) (t : Fin (cfg9 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg9 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg9 a).N) :
    (dat a V c).leavesExact 0 t = owns (c : Thread nD τ) (ms0 a t) fullShare ((dat a V c).after 0 t) := by
  unfold Dat.leavesExact; rw [live_0]; rfl
theorem leaves_1 (c : Dev nD) (t : Fin (cfg9 a).N) :
    (dat a V c).leavesExact 1 t = owns (c : Thread nD τ) (ms1 a t) fullShare ((dat a V c).after 1 t) := by
  unfold Dat.leavesExact; rw [live_1]; rfl
theorem leaves_2_idle (c : Dev nD) (t : Fin (cfg9 a).N) (hC : ¬cC ((cfg9 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg9 a).N) (hC : cC ((cfg9 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg9 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg9 a).grid.coords t) := (hcA a t).mpr h0
    have hC : ¬cC ((cfg9 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec9 c) from by
      obtain ⟨n, hn⟩ := t; obtain rfl : n = 0 := h0; rfl]
    rw [scopedRest9_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec9 c [cc9_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg9 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec9 c [cc9_scratch0]) from rfl]
    have hA : ¬cA ((cfg9 a).grid.coords t) := fun h => h0 ((hcA a t).mp h)
    by_cases hl : t.val = 49999
    · -- the last point
      have hC : cC ((cfg9 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg9 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg9 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg9 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W9, bigSep_W9]
  exact sound_body a V c t

end Cert.Kernel.Chunk9

end
-- ==== Proof.K.Dat10.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 10 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg10 (F := F)).Adm)
variable (V : (c : Dev nD) → (b : Ref sig .tc) → Buf (Elt F) ((c : Thread nD τ).loc b))

/-! ## The grid's points and the two conditions -/

/-- The grid point is the first one: the condition of the body's first conditional. -/
abbrev cA (i : grid10.Coords) : Prop := (Scalar.cmpi .ne (Scalar.extui (Scalar.cmpi .eq (BitVec.ofNat 32 (i 0).val) 0#32)) 0#32) = 1#1
/-- The grid point is the last one: the condition of the body's second conditional. -/
abbrev cC (i : grid10.Coords) : Prop := k10_cond2 i = 1#1

/-- This call's kernel function is the first call's: the same text. -/
theorem kernel_eq : cc10__chunk_kernel (F := F) = cc0__chunk_kernel (F := F) := rfl

theorem N_eq : (cfg10 a).N = 50000 := N_10

/-- On the one-axis grid the coordinate of point `t` is `t`. -/
theorem coord_val (t : Fin (cfg10 a).N) : (((cfg10 a).grid.coords t) 0).val = t.val := by
  have h : t.val < 50000 := lt_of_lt_of_eq t.isLt (N_eq a)
  show t.val / (cfg10 a).grid.stride 0 % 50000 = t.val
  rw [show (cfg10 a).grid.stride 0 = 1 from rfl, Nat.div_one, Nat.mod_eq_of_lt h]

/-- The first conditional is taken at point 0 only. -/
theorem hcA (t : Fin (cfg10 a).N) : cA ((cfg10 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg10 a).N) : cC ((cfg10 a).grid.coords t) ↔ t.val = 49999 := by
  have h : t.val < 50000 := lt_of_lt_of_eq t.isLt (N_eq a)
  unfold cC k10_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- The source row and the destination row staged at point `t`. -/
abbrev b3 (c : Dev nD) (t : Fin (cfg10 a).N) : Vec F S1x1x96 .f32 := iblk a V c 0 t
abbrev b4 (c : Dev nD) (t : Fin (cfg10 a).N) : Vec F S1x1x96 .f32 := iblk a V c 1 t

/-- What the scratch holds after point `n`. -/
def acc (c : Dev nD) : (n : ℕ) → n < (cfg10 a).N → Vec F S1x1 .f32
  | 0, h => k10_pay2 (b3 a V c ⟨0, h⟩) (b4 a V c ⟨0, h⟩) (k10_pay1 (F := F))
  | n + 1, h => k10_pay2 (b3 a V c ⟨n + 1, h⟩) (b4 a V c ⟨n + 1, h⟩) (acc c n (Nat.lt_of_succ_lt h))

theorem acc_pos (c : Dev nD) (t : Fin (cfg10 a).N) (ht : t.val ≠ 0) :
    acc a V c t.val t.isLt = k10_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc10_scratch0

/-- The two prefetched tables held whole at the admissible contents. -/
abbrev tblsHeld (c : Dev nD) : sProp 𝕄 := Pipeline.prefHeld (Ix := Unit) (Name := ℕ) (U := UR sig nD τ) (Lvl := ℕ) pre10 c (fun _ => fullShare) a.1

/-- Before point `n`: the tables; before the first point every other scoped buffer at anything, afterwards the
    scratch at what point `n - 1` left and the others at anything. -/
def PhiS (c : Dev nD) : (n : ℕ) → n ≤ (cfg10 a).N → sProp 𝕄
  | 0, _ => iprop(tblsHeld a c ∗ Pipeline.scopedRest (Ix := Unit) (Name := ℕ) (U := UR sig nD τ) (Lvl := ℕ) (Val := Elt F) spec10 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec10 c [cc10_scratch0])

theorem PhiS_pos (c : Dev nD) (n : ℕ) (h : n ≤ (cfg10 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec10 c [cc10_scratch0]) := by
  cases n with
  | zero => exact absurd rfl hz
  | succ n => rfl

/-! ## The proof data -/

def dat (c : Dev nD) : Dat τ (Elt F) Unit ℕ (UR sig nD τ) ℕ (cfg10 a) c where
  A w := V c (Pipeline.arrRef spec10 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg10 a).W) : (dat a V c).A w = V c (Pipeline.arrRef spec10 w) := by
  dsimp only [dat]

theorem after_0 (c : Dev nD) (t : Fin (cfg10 a).N) : (dat a V c).after 0 t = iblk a V c 0 t := rfl
theorem after_1 (c : Dev nD) (t : Fin (cfg10 a).N) : (dat a V c).after 1 t = iblk a V c 1 t := rfl
theorem after_2 (c : Dev nD) (t : Fin (cfg10 a).N) : (dat a V c).after 2 t = acc a V c t.val t.isLt := rfl

/-- Each input's current staging buffer holds its block at every point, fetched there or not. -/
theorem before_0 (c : Dev nD) (t : Fin (cfg10 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg10 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg10 a).N) (h : ¬cC ((cfg10 a).grid.coords t)) : (cfg10 a).idle 2 ((cfg10 a).grid.coords t) = true := by
  show (!(k10_cond2 ((cfg10 a).grid.coords t) == 1#1)) = true
  simpa using h

theorem live_2 (t : Fin (cfg10 a).N) (h : cC ((cfg10 a).grid.coords t)) : (cfg10 a).idle 2 ((cfg10 a).grid.coords t) = false := by
  show (!(k10_cond2 ((cfg10 a).grid.coords t) == 1#1)) = false
  simpa using h

theorem live_0 (t : Fin (cfg10 a).N) : (cfg10 a).idle 0 ((cfg10 a).grid.coords t) = false := rfl
theorem live_1 (t : Fin (cfg10 a).N) : (cfg10 a).idle 1 ((cfg10 a).grid.coords t) = false := rfl

/-- The result's block index never moves, so it is written back at the last point only. -/
theorem noflush_2 (t : Fin (cfg10 a).N) (h : t.val ≠ 49999) : ((cfg10 a).win 2).flush t = false := by
  have hN : (cfg10 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg10 a).N) (d) : (dat a V c).before 0 t d = (dat a V c).after 0 t :=
  (before_0 a V c t d).trans (after_0 a V c t).symm
theorem keep_1 (c : Dev nD) (t : Fin (cfg10 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg10 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k10_pay2 (b3 a V c ⟨0, hn⟩) (b4 a V c ⟨0, hn⟩) (k10_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg10 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg10 a).N) : Memref sig .tc .vmem S1x1x96 .f32 := spec10_0.stage ((cfg10 a).slots t 0)
abbrev hs0 (t : Fin (cfg10 a).N) : (ms0 a t).IsWhole := hstage10_0 (((cfg10 a).slots t 0).cast nbuf10_0)
abbrev ms1 (t : Fin (cfg10 a).N) : Memref sig .tc .vmem S1x1x96 .f32 := spec10_1.stage ((cfg10 a).slots t 1)
abbrev hs1 (t : Fin (cfg10 a).N) : (ms1 a t).IsWhole := hstage10_1 (((cfg10 a).slots t 1).cast nbuf10_1)
abbrev ms2 (t : Fin (cfg10 a).N) : Memref sig .tc .vmem S1x1 .f32 := spec10_2.stage ((cfg10 a).slots t 2)
abbrev hs2 (t : Fin (cfg10 a).N) : (ms2 a t).IsWhole := hstage10_2 (((cfg10 a).slots t 2).cast nbuf10_2)

/-- The body as the pipeline calls it at point `t`. -/
abbrev bodyAt (t : Fin (cfg10 a).N) : Prog (TpuEff nD τ sig (Elt F) Λ₀ .tc) PUnit :=
  cc10__chunk_kernel ((cfg10 a).grid.coords t) (Memref.whole main_v78) (Memref.isWhole_whole _) (Memref.whole main_v80) (Memref.isWhole_whole _)
    (ms0 a t) (hs0 a t) (ms1 a t) (hs1 a t) (ms2 a t) (hs2 a t) (Memref.whole cc10_scratch0) (Memref.isWhole_whole _)

/-- What the body is called with at point `t`, -/
def bodyPre (c : Dev nD) (t : Fin (cfg10 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg10 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg10 a).N) :
    (dat a V c).leavesExact 0 t = owns (c : Thread nD τ) (ms0 a t) fullShare ((dat a V c).after 0 t) := by
  unfold Dat.leavesExact; rw [live_0]; rfl
theorem leaves_1 (c : Dev nD) (t : Fin (cfg10 a).N) :
    (dat a V c).leavesExact 1 t = owns (c : Thread nD τ) (ms1 a t) fullShare ((dat a V c).after 1 t) := by
  unfold Dat.leavesExact; rw [live_1]; rfl
theorem leaves_2_idle (c : Dev nD) (t : Fin (cfg10 a).N) (hC : ¬cC ((cfg10 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg10 a).N) (hC : cC ((cfg10 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg10 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg10 a).grid.coords t) := (hcA a t).mpr h0
    have hC : ¬cC ((cfg10 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec10 c) from by
      obtain ⟨n, hn⟩ := t; obtain rfl : n = 0 := h0; rfl]
    rw [scopedRest10_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec10 c [cc10_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg10 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec10 c [cc10_scratch0]) from rfl]
    have hA : ¬cA ((cfg10 a).grid.coords t) := fun h => h0 ((hcA a t).mp h)
    by_cases hl : t.val = 49999
    · -- the last point
      have hC : cC ((cfg10 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg10 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg10 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg10 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W10, bigSep_W10]
  exact sound_body a V c t

end Cert.Kernel.Chunk10

end
-- ==== Proof.K.Dat11.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 11 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg11 (F := F)).Adm)
variable (V : (c : Dev nD) → (b : Ref sig .tc) → Buf (Elt F) ((c : Thread nD τ).loc b))

/-! ## The grid's points and the two conditions -/

/-- The grid point is the first one: the condition of the body's first conditional. -/
abbrev cA (i : grid11.Coords) : Prop := (Scalar.cmpi .ne (Scalar.extui (Scalar.cmpi .eq (BitVec.ofNat 32 (i 0).val) 0#32)) 0#32) = 1#1
/-- The grid point is the last one: the condition of the body's second conditional. -/
abbrev cC (i : grid11.Coords) : Prop := k11_cond2 i = 1#1

/-- This call's kernel function is the first call's: the same text. -/
theorem kernel_eq : cc11__chunk_kernel (F := F) = cc0__chunk_kernel (F := F) := rfl

theorem N_eq : (cfg11 a).N = 50000 := N_11

/-- On the one-axis grid the coordinate of point `t` is `t`. -/
theorem coord_val (t : Fin (cfg11 a).N) : (((cfg11 a).grid.coords t) 0).val = t.val := by
  have h : t.val < 50000 := lt_of_lt_of_eq t.isLt (N_eq a)
  show t.val / (cfg11 a).grid.stride 0 % 50000 = t.val
  rw [show (cfg11 a).grid.stride 0 = 1 from rfl, Nat.div_one, Nat.mod_eq_of_lt h]

/-- The first conditional is taken at point 0 only. -/
theorem hcA (t : Fin (cfg11 a).N) : cA ((cfg11 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg11 a).N) : cC ((cfg11 a).grid.coords t) ↔ t.val = 49999 := by
  have h : t.val < 50000 := lt_of_lt_of_eq t.isLt (N_eq a)
  unfold cC k11_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- The source row and the destination row staged at point `t`. -/
abbrev b3 (c : Dev nD) (t : Fin (cfg11 a).N) : Vec F S1x1x96 .f32 := iblk a V c 0 t
abbrev b4 (c : Dev nD) (t : Fin (cfg11 a).N) : Vec F S1x1x96 .f32 := iblk a V c 1 t

/-- What the scratch holds after point `n`. -/
def acc (c : Dev nD) : (n : ℕ) → n < (cfg11 a).N → Vec F S1x1 .f32
  | 0, h => k11_pay2 (b3 a V c ⟨0, h⟩) (b4 a V c ⟨0, h⟩) (k11_pay1 (F := F))
  | n + 1, h => k11_pay2 (b3 a V c ⟨n + 1, h⟩) (b4 a V c ⟨n + 1, h⟩) (acc c n (Nat.lt_of_succ_lt h))

theorem acc_pos (c : Dev nD) (t : Fin (cfg11 a).N) (ht : t.val ≠ 0) :
    acc a V c t.val t.isLt = k11_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc11_scratch0

/-- The two prefetched tables held whole at the admissible contents. -/
abbrev tblsHeld (c : Dev nD) : sProp 𝕄 := Pipeline.prefHeld (Ix := Unit) (Name := ℕ) (U := UR sig nD τ) (Lvl := ℕ) pre11 c (fun _ => fullShare) a.1

/-- Before point `n`: the tables; before the first point every other scoped buffer at anything, afterwards the
    scratch at what point `n - 1` left and the others at anything. -/
def PhiS (c : Dev nD) : (n : ℕ) → n ≤ (cfg11 a).N → sProp 𝕄
  | 0, _ => iprop(tblsHeld a c ∗ Pipeline.scopedRest (Ix := Unit) (Name := ℕ) (U := UR sig nD τ) (Lvl := ℕ) (Val := Elt F) spec11 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec11 c [cc11_scratch0])

theorem PhiS_pos (c : Dev nD) (n : ℕ) (h : n ≤ (cfg11 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec11 c [cc11_scratch0]) := by
  cases n with
  | zero => exact absurd rfl hz
  | succ n => rfl

/-! ## The proof data -/

def dat (c : Dev nD) : Dat τ (Elt F) Unit ℕ (UR sig nD τ) ℕ (cfg11 a) c where
  A w := V c (Pipeline.arrRef spec11 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg11 a).W) : (dat a V c).A w = V c (Pipeline.arrRef spec11 w) := by
  dsimp only [dat]

theorem after_0 (c : Dev nD) (t : Fin (cfg11 a).N) : (dat a V c).after 0 t = iblk a V c 0 t := rfl
theorem after_1 (c : Dev nD) (t : Fin (cfg11 a).N) : (dat a V c).after 1 t = iblk a V c 1 t := rfl
theorem after_2 (c : Dev nD) (t : Fin (cfg11 a).N) : (dat a V c).after 2 t = acc a V c t.val t.isLt := rfl

/-- Each input's current staging buffer holds its block at every point, fetched there or not. -/
theorem before_0 (c : Dev nD) (t : Fin (cfg11 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg11 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg11 a).N) (h : ¬cC ((cfg11 a).grid.coords t)) : (cfg11 a).idle 2 ((cfg11 a).grid.coords t) = true := by
  show (!(k11_cond2 ((cfg11 a).grid.coords t) == 1#1)) = true
  simpa using h

theorem live_2 (t : Fin (cfg11 a).N) (h : cC ((cfg11 a).grid.coords t)) : (cfg11 a).idle 2 ((cfg11 a).grid.coords t) = false := by
  show (!(k11_cond2 ((cfg11 a).grid.coords t) == 1#1)) = false
  simpa using h

theorem live_0 (t : Fin (cfg11 a).N) : (cfg11 a).idle 0 ((cfg11 a).grid.coords t) = false := rfl
theorem live_1 (t : Fin (cfg11 a).N) : (cfg11 a).idle 1 ((cfg11 a).grid.coords t) = false := rfl

/-- The result's block index never moves, so it is written back at the last point only. -/
theorem noflush_2 (t : Fin (cfg11 a).N) (h : t.val ≠ 49999) : ((cfg11 a).win 2).flush t = false := by
  have hN : (cfg11 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg11 a).N) (d) : (dat a V c).before 0 t d = (dat a V c).after 0 t :=
  (before_0 a V c t d).trans (after_0 a V c t).symm
theorem keep_1 (c : Dev nD) (t : Fin (cfg11 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg11 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k11_pay2 (b3 a V c ⟨0, hn⟩) (b4 a V c ⟨0, hn⟩) (k11_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg11 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg11 a).N) : Memref sig .tc .vmem S1x1x96 .f32 := spec11_0.stage ((cfg11 a).slots t 0)
abbrev hs0 (t : Fin (cfg11 a).N) : (ms0 a t).IsWhole := hstage11_0 (((cfg11 a).slots t 0).cast nbuf11_0)
abbrev ms1 (t : Fin (cfg11 a).N) : Memref sig .tc .vmem S1x1x96 .f32 := spec11_1.stage ((cfg11 a).slots t 1)
abbrev hs1 (t : Fin (cfg11 a).N) : (ms1 a t).IsWhole := hstage11_1 (((cfg11 a).slots t 1).cast nbuf11_1)
abbrev ms2 (t : Fin (cfg11 a).N) : Memref sig .tc .vmem S1x1 .f32 := spec11_2.stage ((cfg11 a).slots t 2)
abbrev hs2 (t : Fin (cfg11 a).N) : (ms2 a t).IsWhole := hstage11_2 (((cfg11 a).slots t 2).cast nbuf11_2)

/-- The body as the pipeline calls it at point `t`. -/
abbrev bodyAt (t : Fin (cfg11 a).N) : Prog (TpuEff nD τ sig (Elt F) Λ₀ .tc) PUnit :=
  cc11__chunk_kernel ((cfg11 a).grid.coords t) (Memref.whole main_v85) (Memref.isWhole_whole _) (Memref.whole main_v87) (Memref.isWhole_whole _)
    (ms0 a t) (hs0 a t) (ms1 a t) (hs1 a t) (ms2 a t) (hs2 a t) (Memref.whole cc11_scratch0) (Memref.isWhole_whole _)

/-- What the body is called with at point `t`, -/
def bodyPre (c : Dev nD) (t : Fin (cfg11 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg11 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg11 a).N) :
    (dat a V c).leavesExact 0 t = owns (c : Thread nD τ) (ms0 a t) fullShare ((dat a V c).after 0 t) := by
  unfold Dat.leavesExact; rw [live_0]; rfl
theorem leaves_1 (c : Dev nD) (t : Fin (cfg11 a).N) :
    (dat a V c).leavesExact 1 t = owns (c : Thread nD τ) (ms1 a t) fullShare ((dat a V c).after 1 t) := by
  unfold Dat.leavesExact; rw [live_1]; rfl
theorem leaves_2_idle (c : Dev nD) (t : Fin (cfg11 a).N) (hC : ¬cC ((cfg11 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg11 a).N) (hC : cC ((cfg11 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg11 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg11 a).grid.coords t) := (hcA a t).mpr h0
    have hC : ¬cC ((cfg11 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec11 c) from by
      obtain ⟨n, hn⟩ := t; obtain rfl : n = 0 := h0; rfl]
    rw [scopedRest11_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec11 c [cc11_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg11 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec11 c [cc11_scratch0]) from rfl]
    have hA : ¬cA ((cfg11 a).grid.coords t) := fun h => h0 ((hcA a t).mp h)
    by_cases hl : t.val = 49999
    · -- the last point
      have hC : cC ((cfg11 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg11 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg11 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg11 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W11, bigSep_W11]
  exact sound_body a V c t

end Cert.Kernel.Chunk11

end
-- ==== Proof.K.Dat12.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 12 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg12 (F := F)).Adm)
variable (V : (c : Dev nD) → (b : Ref sig .tc) → Buf (Elt F) ((c : Thread nD τ).loc b))

/-! ## The grid's points and the two conditions -/

/-- The grid point is the first one: the condition of the body's first conditional. -/
abbrev cA (i : grid12.Coords) : Prop := (Scalar.cmpi .ne (Scalar.extui (Scalar.cmpi .eq (BitVec.ofNat 32 (i 0).val) 0#32)) 0#32) = 1#1
/-- The grid point is the last one: the condition of the body's second conditional. -/
abbrev cC (i : grid12.Coords) : Prop := k12_cond2 i = 1#1

/-- This call's kernel function is the first call's: the same text. -/
theorem kernel_eq : cc12__chunk_kernel (F := F) = cc0__chunk_kernel (F := F) := rfl

theorem N_eq : (cfg12 a).N = 50000 := N_12

/-- On the one-axis grid the coordinate of point `t` is `t`. -/
theorem coord_val (t : Fin (cfg12 a).N) : (((cfg12 a).grid.coords t) 0).val = t.val := by
  have h : t.val < 50000 := lt_of_lt_of_eq t.isLt (N_eq a)
  show t.val / (cfg12 a).grid.stride 0 % 50000 = t.val
  rw [show (cfg12 a).grid.stride 0 = 1 from rfl, Nat.div_one, Nat.mod_eq_of_lt h]

/-- The first conditional is taken at point 0 only. -/
theorem hcA (t : Fin (cfg12 a).N) : cA ((cfg12 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg12 a).N) : cC ((cfg12 a).grid.coords t) ↔ t.val = 49999 := by
  have h : t.val < 50000 := lt_of_lt_of_eq t.isLt (N_eq a)
  unfold cC k12_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- The source row and the destination row staged at point `t`. -/
abbrev b3 (c : Dev nD) (t : Fin (cfg12 a).N) : Vec F S1x1x96 .f32 := iblk a V c 0 t
abbrev b4 (c : Dev nD) (t : Fin (cfg12 a).N) : Vec F S1x1x96 .f32 := iblk a V c 1 t

/-- What the scratch holds after point `n`. -/
def acc (c : Dev nD) : (n : ℕ) → n < (cfg12 a).N → Vec F S1x1 .f32
  | 0, h => k12_pay2 (b3 a V c ⟨0, h⟩) (b4 a V c ⟨0, h⟩) (k12_pay1 (F := F))
  | n + 1, h => k12_pay2 (b3 a V c ⟨n + 1, h⟩) (b4 a V c ⟨n + 1, h⟩) (acc c n (Nat.lt_of_succ_lt h))

theorem acc_pos (c : Dev nD) (t : Fin (cfg12 a).N) (ht : t.val ≠ 0) :
    acc a V c t.val t.isLt = k12_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc12_scratch0

/-- The two prefetched tables held whole at the admissible contents. -/
abbrev tblsHeld (c : Dev nD) : sProp 𝕄 := Pipeline.prefHeld (Ix := Unit) (Name := ℕ) (U := UR sig nD τ) (Lvl := ℕ) pre12 c (fun _ => fullShare) a.1

/-- Before point `n`: the tables; before the first point every other scoped buffer at anything, afterwards the
    scratch at what point `n - 1` left and the others at anything. -/
def PhiS (c : Dev nD) : (n : ℕ) → n ≤ (cfg12 a).N → sProp 𝕄
  | 0, _ => iprop(tblsHeld a c ∗ Pipeline.scopedRest (Ix := Unit) (Name := ℕ) (U := UR sig nD τ) (Lvl := ℕ) (Val := Elt F) spec12 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec12 c [cc12_scratch0])

theorem PhiS_pos (c : Dev nD) (n : ℕ) (h : n ≤ (cfg12 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec12 c [cc12_scratch0]) := by
  cases n with
  | zero => exact absurd rfl hz
  | succ n => rfl

/-! ## The proof data -/

def dat (c : Dev nD) : Dat τ (Elt F) Unit ℕ (UR sig nD τ) ℕ (cfg12 a) c where
  A w := V c (Pipeline.arrRef spec12 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg12 a).W) : (dat a V c).A w = V c (Pipeline.arrRef spec12 w) := by
  dsimp only [dat]

theorem after_0 (c : Dev nD) (t : Fin (cfg12 a).N) : (dat a V c).after 0 t = iblk a V c 0 t := rfl
theorem after_1 (c : Dev nD) (t : Fin (cfg12 a).N) : (dat a V c).after 1 t = iblk a V c 1 t := rfl
theorem after_2 (c : Dev nD) (t : Fin (cfg12 a).N) : (dat a V c).after 2 t = acc a V c t.val t.isLt := rfl

/-- Each input's current staging buffer holds its block at every point, fetched there or not. -/
theorem before_0 (c : Dev nD) (t : Fin (cfg12 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg12 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg12 a).N) (h : ¬cC ((cfg12 a).grid.coords t)) : (cfg12 a).idle 2 ((cfg12 a).grid.coords t) = true := by
  show (!(k12_cond2 ((cfg12 a).grid.coords t) == 1#1)) = true
  simpa using h

theorem live_2 (t : Fin (cfg12 a).N) (h : cC ((cfg12 a).grid.coords t)) : (cfg12 a).idle 2 ((cfg12 a).grid.coords t) = false := by
  show (!(k12_cond2 ((cfg12 a).grid.coords t) == 1#1)) = false
  simpa using h

theorem live_0 (t : Fin (cfg12 a).N) : (cfg12 a).idle 0 ((cfg12 a).grid.coords t) = false := rfl
theorem live_1 (t : Fin (cfg12 a).N) : (cfg12 a).idle 1 ((cfg12 a).grid.coords t) = false := rfl

/-- The result's block index never moves, so it is written back at the last point only. -/
theorem noflush_2 (t : Fin (cfg12 a).N) (h : t.val ≠ 49999) : ((cfg12 a).win 2).flush t = false := by
  have hN : (cfg12 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg12 a).N) (d) : (dat a V c).before 0 t d = (dat a V c).after 0 t :=
  (before_0 a V c t d).trans (after_0 a V c t).symm
theorem keep_1 (c : Dev nD) (t : Fin (cfg12 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg12 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k12_pay2 (b3 a V c ⟨0, hn⟩) (b4 a V c ⟨0, hn⟩) (k12_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg12 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg12 a).N) : Memref sig .tc .vmem S1x1x96 .f32 := spec12_0.stage ((cfg12 a).slots t 0)
abbrev hs0 (t : Fin (cfg12 a).N) : (ms0 a t).IsWhole := hstage12_0 (((cfg12 a).slots t 0).cast nbuf12_0)
abbrev ms1 (t : Fin (cfg12 a).N) : Memref sig .tc .vmem S1x1x96 .f32 := spec12_1.stage ((cfg12 a).slots t 1)
abbrev hs1 (t : Fin (cfg12 a).N) : (ms1 a t).IsWhole := hstage12_1 (((cfg12 a).slots t 1).cast nbuf12_1)
abbrev ms2 (t : Fin (cfg12 a).N) : Memref sig .tc .vmem S1x1 .f32 := spec12_2.stage ((cfg12 a).slots t 2)
abbrev hs2 (t : Fin (cfg12 a).N) : (ms2 a t).IsWhole := hstage12_2 (((cfg12 a).slots t 2).cast nbuf12_2)

/-- The body as the pipeline calls it at point `t`. -/
abbrev bodyAt (t : Fin (cfg12 a).N) : Prog (TpuEff nD τ sig (Elt F) Λ₀ .tc) PUnit :=
  cc12__chunk_kernel ((cfg12 a).grid.coords t) (Memref.whole main_v92) (Memref.isWhole_whole _) (Memref.whole main_v94) (Memref.isWhole_whole _)
    (ms0 a t) (hs0 a t) (ms1 a t) (hs1 a t) (ms2 a t) (hs2 a t) (Memref.whole cc12_scratch0) (Memref.isWhole_whole _)

/-- What the body is called with at point `t`, -/
def bodyPre (c : Dev nD) (t : Fin (cfg12 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg12 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg12 a).N) :
    (dat a V c).leavesExact 0 t = owns (c : Thread nD τ) (ms0 a t) fullShare ((dat a V c).after 0 t) := by
  unfold Dat.leavesExact; rw [live_0]; rfl
theorem leaves_1 (c : Dev nD) (t : Fin (cfg12 a).N) :
    (dat a V c).leavesExact 1 t = owns (c : Thread nD τ) (ms1 a t) fullShare ((dat a V c).after 1 t) := by
  unfold Dat.leavesExact; rw [live_1]; rfl
theorem leaves_2_idle (c : Dev nD) (t : Fin (cfg12 a).N) (hC : ¬cC ((cfg12 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg12 a).N) (hC : cC ((cfg12 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg12 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg12 a).grid.coords t) := (hcA a t).mpr h0
    have hC : ¬cC ((cfg12 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec12 c) from by
      obtain ⟨n, hn⟩ := t; obtain rfl : n = 0 := h0; rfl]
    rw [scopedRest12_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec12 c [cc12_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg12 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec12 c [cc12_scratch0]) from rfl]
    have hA : ¬cA ((cfg12 a).grid.coords t) := fun h => h0 ((hcA a t).mp h)
    by_cases hl : t.val = 49999
    · -- the last point
      have hC : cC ((cfg12 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg12 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg12 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg12 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W12, bigSep_W12]
  exact sound_body a V c t

end Cert.Kernel.Chunk12

end
-- ==== Proof.K.Dat13.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 13 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg13 (F := F)).Adm)
variable (V : (c : Dev nD) → (b : Ref sig .tc) → Buf (Elt F) ((c : Thread nD τ).loc b))

/-! ## The grid's points and the two conditions -/

/-- The grid point is the first one: the condition of the body's first conditional. -/
abbrev cA (i : grid13.Coords) : Prop := (Scalar.cmpi .ne (Scalar.extui (Scalar.cmpi .eq (BitVec.ofNat 32 (i 0).val) 0#32)) 0#32) = 1#1
/-- The grid point is the last one: the condition of the body's second conditional. -/
abbrev cC (i : grid13.Coords) : Prop := k13_cond2 i = 1#1

/-- This call's kernel function is the first call's: the same text. -/
theorem kernel_eq : cc13__chunk_kernel (F := F) = cc0__chunk_kernel (F := F) := rfl

theorem N_eq : (cfg13 a).N = 50000 := N_13

/-- On the one-axis grid the coordinate of point `t` is `t`. -/
theorem coord_val (t : Fin (cfg13 a).N) : (((cfg13 a).grid.coords t) 0).val = t.val := by
  have h : t.val < 50000 := lt_of_lt_of_eq t.isLt (N_eq a)
  show t.val / (cfg13 a).grid.stride 0 % 50000 = t.val
  rw [show (cfg13 a).grid.stride 0 = 1 from rfl, Nat.div_one, Nat.mod_eq_of_lt h]

/-- The first conditional is taken at point 0 only. -/
theorem hcA (t : Fin (cfg13 a).N) : cA ((cfg13 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg13 a).N) : cC ((cfg13 a).grid.coords t) ↔ t.val = 49999 := by
  have h : t.val < 50000 := lt_of_lt_of_eq t.isLt (N_eq a)
  unfold cC k13_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- The source row and the destination row staged at point `t`. -/
abbrev b3 (c : Dev nD) (t : Fin (cfg13 a).N) : Vec F S1x1x96 .f32 := iblk a V c 0 t
abbrev b4 (c : Dev nD) (t : Fin (cfg13 a).N) : Vec F S1x1x96 .f32 := iblk a V c 1 t

/-- What the scratch holds after point `n`. -/
def acc (c : Dev nD) : (n : ℕ) → n < (cfg13 a).N → Vec F S1x1 .f32
  | 0, h => k13_pay2 (b3 a V c ⟨0, h⟩) (b4 a V c ⟨0, h⟩) (k13_pay1 (F := F))
  | n + 1, h => k13_pay2 (b3 a V c ⟨n + 1, h⟩) (b4 a V c ⟨n + 1, h⟩) (acc c n (Nat.lt_of_succ_lt h))

theorem acc_pos (c : Dev nD) (t : Fin (cfg13 a).N) (ht : t.val ≠ 0) :
    acc a V c t.val t.isLt = k13_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc13_scratch0

/-- The two prefetched tables held whole at the admissible contents. -/
abbrev tblsHeld (c : Dev nD) : sProp 𝕄 := Pipeline.prefHeld (Ix := Unit) (Name := ℕ) (U := UR sig nD τ) (Lvl := ℕ) pre13 c (fun _ => fullShare) a.1

/-- Before point `n`: the tables; before the first point every other scoped buffer at anything, afterwards the
    scratch at what point `n - 1` left and the others at anything. -/
def PhiS (c : Dev nD) : (n : ℕ) → n ≤ (cfg13 a).N → sProp 𝕄
  | 0, _ => iprop(tblsHeld a c ∗ Pipeline.scopedRest (Ix := Unit) (Name := ℕ) (U := UR sig nD τ) (Lvl := ℕ) (Val := Elt F) spec13 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec13 c [cc13_scratch0])

theorem PhiS_pos (c : Dev nD) (n : ℕ) (h : n ≤ (cfg13 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec13 c [cc13_scratch0]) := by
  cases n with
  | zero => exact absurd rfl hz
  | succ n => rfl

/-! ## The proof data -/

def dat (c : Dev nD) : Dat τ (Elt F) Unit ℕ (UR sig nD τ) ℕ (cfg13 a) c where
  A w := V c (Pipeline.arrRef spec13 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg13 a).W) : (dat a V c).A w = V c (Pipeline.arrRef spec13 w) := by
  dsimp only [dat]

theorem after_0 (c : Dev nD) (t : Fin (cfg13 a).N) : (dat a V c).after 0 t = iblk a V c 0 t := rfl
theorem after_1 (c : Dev nD) (t : Fin (cfg13 a).N) : (dat a V c).after 1 t = iblk a V c 1 t := rfl
theorem after_2 (c : Dev nD) (t : Fin (cfg13 a).N) : (dat a V c).after 2 t = acc a V c t.val t.isLt := rfl

/-- Each input's current staging buffer holds its block at every point, fetched there or not. -/
theorem before_0 (c : Dev nD) (t : Fin (cfg13 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg13 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg13 a).N) (h : ¬cC ((cfg13 a).grid.coords t)) : (cfg13 a).idle 2 ((cfg13 a).grid.coords t) = true := by
  show (!(k13_cond2 ((cfg13 a).grid.coords t) == 1#1)) = true
  simpa using h

theorem live_2 (t : Fin (cfg13 a).N) (h : cC ((cfg13 a).grid.coords t)) : (cfg13 a).idle 2 ((cfg13 a).grid.coords t) = false := by
  show (!(k13_cond2 ((cfg13 a).grid.coords t) == 1#1)) = false
  simpa using h

theorem live_0 (t : Fin (cfg13 a).N) : (cfg13 a).idle 0 ((cfg13 a).grid.coords t) = false := rfl
theorem live_1 (t : Fin (cfg13 a).N) : (cfg13 a).idle 1 ((cfg13 a).grid.coords t) = false := rfl

/-- The result's block index never moves, so it is written back at the last point only. -/
theorem noflush_2 (t : Fin (cfg13 a).N) (h : t.val ≠ 49999) : ((cfg13 a).win 2).flush t = false := by
  have hN : (cfg13 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg13 a).N) (d) : (dat a V c).before 0 t d = (dat a V c).after 0 t :=
  (before_0 a V c t d).trans (after_0 a V c t).symm
theorem keep_1 (c : Dev nD) (t : Fin (cfg13 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg13 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k13_pay2 (b3 a V c ⟨0, hn⟩) (b4 a V c ⟨0, hn⟩) (k13_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg13 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg13 a).N) : Memref sig .tc .vmem S1x1x96 .f32 := spec13_0.stage ((cfg13 a).slots t 0)
abbrev hs0 (t : Fin (cfg13 a).N) : (ms0 a t).IsWhole := hstage13_0 (((cfg13 a).slots t 0).cast nbuf13_0)
abbrev ms1 (t : Fin (cfg13 a).N) : Memref sig .tc .vmem S1x1x96 .f32 := spec13_1.stage ((cfg13 a).slots t 1)
abbrev hs1 (t : Fin (cfg13 a).N) : (ms1 a t).IsWhole := hstage13_1 (((cfg13 a).slots t 1).cast nbuf13_1)
abbrev ms2 (t : Fin (cfg13 a).N) : Memref sig .tc .vmem S1x1 .f32 := spec13_2.stage ((cfg13 a).slots t 2)
abbrev hs2 (t : Fin (cfg13 a).N) : (ms2 a t).IsWhole := hstage13_2 (((cfg13 a).slots t 2).cast nbuf13_2)

/-- The body as the pipeline calls it at point `t`. -/
abbrev bodyAt (t : Fin (cfg13 a).N) : Prog (TpuEff nD τ sig (Elt F) Λ₀ .tc) PUnit :=
  cc13__chunk_kernel ((cfg13 a).grid.coords t) (Memref.whole main_v99) (Memref.isWhole_whole _) (Memref.whole main_v101) (Memref.isWhole_whole _)
    (ms0 a t) (hs0 a t) (ms1 a t) (hs1 a t) (ms2 a t) (hs2 a t) (Memref.whole cc13_scratch0) (Memref.isWhole_whole _)

/-- What the body is called with at point `t`, -/
def bodyPre (c : Dev nD) (t : Fin (cfg13 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg13 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg13 a).N) :
    (dat a V c).leavesExact 0 t = owns (c : Thread nD τ) (ms0 a t) fullShare ((dat a V c).after 0 t) := by
  unfold Dat.leavesExact; rw [live_0]; rfl
theorem leaves_1 (c : Dev nD) (t : Fin (cfg13 a).N) :
    (dat a V c).leavesExact 1 t = owns (c : Thread nD τ) (ms1 a t) fullShare ((dat a V c).after 1 t) := by
  unfold Dat.leavesExact; rw [live_1]; rfl
theorem leaves_2_idle (c : Dev nD) (t : Fin (cfg13 a).N) (hC : ¬cC ((cfg13 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg13 a).N) (hC : cC ((cfg13 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg13 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg13 a).grid.coords t) := (hcA a t).mpr h0
    have hC : ¬cC ((cfg13 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec13 c) from by
      obtain ⟨n, hn⟩ := t; obtain rfl : n = 0 := h0; rfl]
    rw [scopedRest13_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec13 c [cc13_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg13 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec13 c [cc13_scratch0]) from rfl]
    have hA : ¬cA ((cfg13 a).grid.coords t) := fun h => h0 ((hcA a t).mp h)
    by_cases hl : t.val = 49999
    · -- the last point
      have hC : cC ((cfg13 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg13 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg13 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg13 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W13, bigSep_W13]
  exact sound_body a V c t

end Cert.Kernel.Chunk13

end
-- ==== Proof.K.Dat14.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 14 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg14 (F := F)).Adm)
variable (V : (c : Dev nD) → (b : Ref sig .tc) → Buf (Elt F) ((c : Thread nD τ).loc b))

/-! ## The grid's points and the two conditions -/

/-- The grid point is the first one: the condition of the body's first conditional. -/
abbrev cA (i : grid14.Coords) : Prop := (Scalar.cmpi .ne (Scalar.extui (Scalar.cmpi .eq (BitVec.ofNat 32 (i 0).val) 0#32)) 0#32) = 1#1
/-- The grid point is the last one: the condition of the body's second conditional. -/
abbrev cC (i : grid14.Coords) : Prop := k14_cond2 i = 1#1

/-- This call's kernel function is the first call's: the same text. -/
theorem kernel_eq : cc14__chunk_kernel (F := F) = cc0__chunk_kernel (F := F) := rfl

theorem N_eq : (cfg14 a).N = 50000 := N_14

/-- On the one-axis grid the coordinate of point `t` is `t`. -/
theorem coord_val (t : Fin (cfg14 a).N) : (((cfg14 a).grid.coords t) 0).val = t.val := by
  have h : t.val < 50000 := lt_of_lt_of_eq t.isLt (N_eq a)
  show t.val / (cfg14 a).grid.stride 0 % 50000 = t.val
  rw [show (cfg14 a).grid.stride 0 = 1 from rfl, Nat.div_one, Nat.mod_eq_of_lt h]

/-- The first conditional is taken at point 0 only. -/
theorem hcA (t : Fin (cfg14 a).N) : cA ((cfg14 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg14 a).N) : cC ((cfg14 a).grid.coords t) ↔ t.val = 49999 := by
  have h : t.val < 50000 := lt_of_lt_of_eq t.isLt (N_eq a)
  unfold cC k14_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- The source row and the destination row staged at point `t`. -/
abbrev b3 (c : Dev nD) (t : Fin (cfg14 a).N) : Vec F S1x1x96 .f32 := iblk a V c 0 t
abbrev b4 (c : Dev nD) (t : Fin (cfg14 a).N) : Vec F S1x1x96 .f32 := iblk a V c 1 t

/-- What the scratch holds after point `n`. -/
def acc (c : Dev nD) : (n : ℕ) → n < (cfg14 a).N → Vec F S1x1 .f32
  | 0, h => k14_pay2 (b3 a V c ⟨0, h⟩) (b4 a V c ⟨0, h⟩) (k14_pay1 (F := F))
  | n + 1, h => k14_pay2 (b3 a V c ⟨n + 1, h⟩) (b4 a V c ⟨n + 1, h⟩) (acc c n (Nat.lt_of_succ_lt h))

theorem acc_pos (c : Dev nD) (t : Fin (cfg14 a).N) (ht : t.val ≠ 0) :
    acc a V c t.val t.isLt = k14_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc14_scratch0

/-- The two prefetched tables held whole at the admissible contents. -/
abbrev tblsHeld (c : Dev nD) : sProp 𝕄 := Pipeline.prefHeld (Ix := Unit) (Name := ℕ) (U := UR sig nD τ) (Lvl := ℕ) pre14 c (fun _ => fullShare) a.1

/-- Before point `n`: the tables; before the first point every other scoped buffer at anything, afterwards the
    scratch at what point `n - 1` left and the others at anything. -/
def PhiS (c : Dev nD) : (n : ℕ) → n ≤ (cfg14 a).N → sProp 𝕄
  | 0, _ => iprop(tblsHeld a c ∗ Pipeline.scopedRest (Ix := Unit) (Name := ℕ) (U := UR sig nD τ) (Lvl := ℕ) (Val := Elt F) spec14 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec14 c [cc14_scratch0])

theorem PhiS_pos (c : Dev nD) (n : ℕ) (h : n ≤ (cfg14 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec14 c [cc14_scratch0]) := by
  cases n with
  | zero => exact absurd rfl hz
  | succ n => rfl

/-! ## The proof data -/

def dat (c : Dev nD) : Dat τ (Elt F) Unit ℕ (UR sig nD τ) ℕ (cfg14 a) c where
  A w := V c (Pipeline.arrRef spec14 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg14 a).W) : (dat a V c).A w = V c (Pipeline.arrRef spec14 w) := by
  dsimp only [dat]

theorem after_0 (c : Dev nD) (t : Fin (cfg14 a).N) : (dat a V c).after 0 t = iblk a V c 0 t := rfl
theorem after_1 (c : Dev nD) (t : Fin (cfg14 a).N) : (dat a V c).after 1 t = iblk a V c 1 t := rfl
theorem after_2 (c : Dev nD) (t : Fin (cfg14 a).N) : (dat a V c).after 2 t = acc a V c t.val t.isLt := rfl

/-- Each input's current staging buffer holds its block at every point, fetched there or not. -/
theorem before_0 (c : Dev nD) (t : Fin (cfg14 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg14 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg14 a).N) (h : ¬cC ((cfg14 a).grid.coords t)) : (cfg14 a).idle 2 ((cfg14 a).grid.coords t) = true := by
  show (!(k14_cond2 ((cfg14 a).grid.coords t) == 1#1)) = true
  simpa using h

theorem live_2 (t : Fin (cfg14 a).N) (h : cC ((cfg14 a).grid.coords t)) : (cfg14 a).idle 2 ((cfg14 a).grid.coords t) = false := by
  show (!(k14_cond2 ((cfg14 a).grid.coords t) == 1#1)) = false
  simpa using h

theorem live_0 (t : Fin (cfg14 a).N) : (cfg14 a).idle 0 ((cfg14 a).grid.coords t) = false := rfl
theorem live_1 (t : Fin (cfg14 a).N) : (cfg14 a).idle 1 ((cfg14 a).grid.coords t) = false := rfl

/-- The result's block index never moves, so it is written back at the last point only. -/
theorem noflush_2 (t : Fin (cfg14 a).N) (h : t.val ≠ 49999) : ((cfg14 a).win 2).flush t = false := by
  have hN : (cfg14 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg14 a).N) (d) : (dat a V c).before 0 t d = (dat a V c).after 0 t :=
  (before_0 a V c t d).trans (after_0 a V c t).symm
theorem keep_1 (c : Dev nD) (t : Fin (cfg14 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg14 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k14_pay2 (b3 a V c ⟨0, hn⟩) (b4 a V c ⟨0, hn⟩) (k14_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg14 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg14 a).N) : Memref sig .tc .vmem S1x1x96 .f32 := spec14_0.stage ((cfg14 a).slots t 0)
abbrev hs0 (t : Fin (cfg14 a).N) : (ms0 a t).IsWhole := hstage14_0 (((cfg14 a).slots t 0).cast nbuf14_0)
abbrev ms1 (t : Fin (cfg14 a).N) : Memref sig .tc .vmem S1x1x96 .f32 := spec14_1.stage ((cfg14 a).slots t 1)
abbrev hs1 (t : Fin (cfg14 a).N) : (ms1 a t).IsWhole := hstage14_1 (((cfg14 a).slots t 1).cast nbuf14_1)
abbrev ms2 (t : Fin (cfg14 a).N) : Memref sig .tc .vmem S1x1 .f32 := spec14_2.stage ((cfg14 a).slots t 2)
abbrev hs2 (t : Fin (cfg14 a).N) : (ms2 a t).IsWhole := hstage14_2 (((cfg14 a).slots t 2).cast nbuf14_2)

/-- The body as the pipeline calls it at point `t`. -/
abbrev bodyAt (t : Fin (cfg14 a).N) : Prog (TpuEff nD τ sig (Elt F) Λ₀ .tc) PUnit :=
  cc14__chunk_kernel ((cfg14 a).grid.coords t) (Memref.whole main_v106) (Memref.isWhole_whole _) (Memref.whole main_v108) (Memref.isWhole_whole _)
    (ms0 a t) (hs0 a t) (ms1 a t) (hs1 a t) (ms2 a t) (hs2 a t) (Memref.whole cc14_scratch0) (Memref.isWhole_whole _)

/-- What the body is called with at point `t`, -/
def bodyPre (c : Dev nD) (t : Fin (cfg14 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg14 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg14 a).N) :
    (dat a V c).leavesExact 0 t = owns (c : Thread nD τ) (ms0 a t) fullShare ((dat a V c).after 0 t) := by
  unfold Dat.leavesExact; rw [live_0]; rfl
theorem leaves_1 (c : Dev nD) (t : Fin (cfg14 a).N) :
    (dat a V c).leavesExact 1 t = owns (c : Thread nD τ) (ms1 a t) fullShare ((dat a V c).after 1 t) := by
  unfold Dat.leavesExact; rw [live_1]; rfl
theorem leaves_2_idle (c : Dev nD) (t : Fin (cfg14 a).N) (hC : ¬cC ((cfg14 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg14 a).N) (hC : cC ((cfg14 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg14 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg14 a).grid.coords t) := (hcA a t).mpr h0
    have hC : ¬cC ((cfg14 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec14 c) from by
      obtain ⟨n, hn⟩ := t; obtain rfl : n = 0 := h0; rfl]
    rw [scopedRest14_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec14 c [cc14_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg14 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec14 c [cc14_scratch0]) from rfl]
    have hA : ¬cA ((cfg14 a).grid.coords t) := fun h => h0 ((hcA a t).mp h)
    by_cases hl : t.val = 49999
    · -- the last point
      have hC : cC ((cfg14 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg14 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg14 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg14 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W14, bigSep_W14]
  exact sound_body a V c t

end Cert.Kernel.Chunk14

end
-- ==== Proof.K.Dat15.lean ====
import proofs.«418705_j10376640987952_2_alg».proof.Proof.K.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 15 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.Kernel.Chunk15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg15 (F := F)).Adm)
variable (V : (c : Dev nD) → (b : Ref sig .tc) → Buf (Elt F) ((c : Thread nD τ).loc b))

/-! ## The grid's points and the two conditions -/

/-- The grid point is the first one: the condition of the body's first conditional. -/
abbrev cA (i : grid15.Coords) : Prop := (Scalar.cmpi .ne (Scalar.extui (Scalar.cmpi .eq (BitVec.ofNat 32 (i 0).val) 0#32)) 0#32) = 1#1
/-- The grid point is the last one: the condition of the body's second conditional. -/
abbrev cC (i : grid15.Coords) : Prop := k15_cond2 i = 1#1

/-- This call's kernel function is the first call's: the same text. -/
theorem kernel_eq : cc15__chunk_kernel (F := F) = cc0__chunk_kernel (F := F) := rfl

theorem N_eq : (cfg15 a).N = 50000 := N_15

/-- On the one-axis grid the coordinate of point `t` is `t`. -/
theorem coord_val (t : Fin (cfg15 a).N) : (((cfg15 a).grid.coords t) 0).val = t.val := by
  have h : t.val < 50000 := lt_of_lt_of_eq t.isLt (N_eq a)
  show t.val / (cfg15 a).grid.stride 0 % 50000 = t.val
  rw [show (cfg15 a).grid.stride 0 = 1 from rfl, Nat.div_one, Nat.mod_eq_of_lt h]

/-- The first conditional is taken at point 0 only. -/
theorem hcA (t : Fin (cfg15 a).N) : cA ((cfg15 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg15 a).N) : cC ((cfg15 a).grid.coords t) ↔ t.val = 49999 := by
  have h : t.val < 50000 := lt_of_lt_of_eq t.isLt (N_eq a)
  unfold cC k15_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- The source row and the destination row staged at point `t`. -/
abbrev b3 (c : Dev nD) (t : Fin (cfg15 a).N) : Vec F S1x1x96 .f32 := iblk a V c 0 t
abbrev b4 (c : Dev nD) (t : Fin (cfg15 a).N) : Vec F S1x1x96 .f32 := iblk a V c 1 t

/-- What the scratch holds after point `n`. -/
def acc (c : Dev nD) : (n : ℕ) → n < (cfg15 a).N → Vec F S1x1 .f32
  | 0, h => k15_pay2 (b3 a V c ⟨0, h⟩) (b4 a V c ⟨0, h⟩) (k15_pay1 (F := F))
  | n + 1, h => k15_pay2 (b3 a V c ⟨n + 1, h⟩) (b4 a V c ⟨n + 1, h⟩) (acc c n (Nat.lt_of_succ_lt h))

theorem acc_pos (c : Dev nD) (t : Fin (cfg15 a).N) (ht : t.val ≠ 0) :
    acc a V c t.val t.isLt = k15_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc15_scratch0

/-- The two prefetched tables held whole at the admissible contents. -/
abbrev tblsHeld (c : Dev nD) : sProp 𝕄 := Pipeline.prefHeld (Ix := Unit) (Name := ℕ) (U := UR sig nD τ) (Lvl := ℕ) pre15 c (fun _ => fullShare) a.1

/-- Before point `n`: the tables; before the first point every other scoped buffer at anything, afterwards the
    scratch at what point `n - 1` left and the others at anything. -/
def PhiS (c : Dev nD) : (n : ℕ) → n ≤ (cfg15 a).N → sProp 𝕄
  | 0, _ => iprop(tblsHeld a c ∗ Pipeline.scopedRest (Ix := Unit) (Name := ℕ) (U := UR sig nD τ) (Lvl := ℕ) (Val := Elt F) spec15 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec15 c [cc15_scratch0])

theorem PhiS_pos (c : Dev nD) (n : ℕ) (h : n ≤ (cfg15 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec15 c [cc15_scratch0]) := by
  cases n with
  | zero => exact absurd rfl hz
  | succ n => rfl

/-! ## The proof data -/

def dat (c : Dev nD) : Dat τ (Elt F) Unit ℕ (UR sig nD τ) ℕ (cfg15 a) c where
  A w := V c (Pipeline.arrRef spec15 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg15 a).W) : (dat a V c).A w = V c (Pipeline.arrRef spec15 w) := by
  dsimp only [dat]

theorem after_0 (c : Dev nD) (t : Fin (cfg15 a).N) : (dat a V c).after 0 t = iblk a V c 0 t := rfl
theorem after_1 (c : Dev nD) (t : Fin (cfg15 a).N) : (dat a V c).after 1 t = iblk a V c 1 t := rfl
theorem after_2 (c : Dev nD) (t : Fin (cfg15 a).N) : (dat a V c).after 2 t = acc a V c t.val t.isLt := rfl

/-- Each input's current staging buffer holds its block at every point, fetched there or not. -/
theorem before_0 (c : Dev nD) (t : Fin (cfg15 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg15 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg15 a).N) (h : ¬cC ((cfg15 a).grid.coords t)) : (cfg15 a).idle 2 ((cfg15 a).grid.coords t) = true := by
  show (!(k15_cond2 ((cfg15 a).grid.coords t) == 1#1)) = true
  simpa using h

theorem live_2 (t : Fin (cfg15 a).N) (h : cC ((cfg15 a).grid.coords t)) : (cfg15 a).idle 2 ((cfg15 a).grid.coords t) = false := by
  show (!(k15_cond2 ((cfg15 a).grid.coords t) == 1#1)) = false
  simpa using h

theorem live_0 (t : Fin (cfg15 a).N) : (cfg15 a).idle 0 ((cfg15 a).grid.coords t) = false := rfl
theorem live_1 (t : Fin (cfg15 a).N) : (cfg15 a).idle 1 ((cfg15 a).grid.coords t) = false := rfl

/-- The result's block index never moves, so it is written back at the last point only. -/
theorem noflush_2 (t : Fin (cfg15 a).N) (h : t.val ≠ 49999) : ((cfg15 a).win 2).flush t = false := by
  have hN : (cfg15 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg15 a).N) (d) : (dat a V c).before 0 t d = (dat a V c).after 0 t :=
  (before_0 a V c t d).trans (after_0 a V c t).symm
theorem keep_1 (c : Dev nD) (t : Fin (cfg15 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg15 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k15_pay2 (b3 a V c ⟨0, hn⟩) (b4 a V c ⟨0, hn⟩) (k15_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg15 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg15 a).N) : Memref sig .tc .vmem S1x1x96 .f32 := spec15_0.stage ((cfg15 a).slots t 0)
abbrev hs0 (t : Fin (cfg15 a).N) : (ms0 a t).IsWhole := hstage15_0 (((cfg15 a).slots t 0).cast nbuf15_0)
abbrev ms1 (t : Fin (cfg15 a).N) : Memref sig .tc .vmem S1x1x96 .f32 := spec15_1.stage ((cfg15 a).slots t 1)
abbrev hs1 (t : Fin (cfg15 a).N) : (ms1 a t).IsWhole := hstage15_1 (((cfg15 a).slots t 1).cast nbuf15_1)
abbrev ms2 (t : Fin (cfg15 a).N) : Memref sig .tc .vmem S1x1 .f32 := spec15_2.stage ((cfg15 a).slots t 2)
abbrev hs2 (t : Fin (cfg15 a).N) : (ms2 a t).IsWhole := hstage15_2 (((cfg15 a).slots t 2).cast nbuf15_2)

/-- The body as the pipeline calls it at point `t`. -/
abbrev bodyAt (t : Fin (cfg15 a).N) : Prog (TpuEff nD τ sig (Elt F) Λ₀ .tc) PUnit :=
  cc15__chunk_kernel ((cfg15 a).grid.coords t) (Memref.whole main_v113) (Memref.isWhole_whole _) (Memref.whole main_v115) (Memref.isWhole_whole _)
    (ms0 a t) (hs0 a t) (ms1 a t) (hs1 a t) (ms2 a t) (hs2 a t) (Memref.whole cc15_scratch0) (Memref.isWhole_whole _)

/-- What the body is called with at point `t`, -/
def bodyPre (c : Dev nD) (t : Fin (cfg15 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg15 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg15 a).N) :
    (dat a V c).leavesExact 0 t = owns (c : Thread nD τ) (ms0 a t) fullShare ((dat a V c).after 0 t) := by
  unfold Dat.leavesExact; rw [live_0]; rfl
theorem leaves_1 (c : Dev nD) (t : Fin (cfg15 a).N) :
    (dat a V c).leavesExact 1 t = owns (c : Thread nD τ) (ms1 a t) fullShare ((dat a V c).after 1 t) := by
  unfold Dat.leavesExact; rw [live_1]; rfl
theorem leaves_2_idle (c : Dev nD) (t : Fin (cfg15 a).N) (hC : ¬cC ((cfg15 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg15 a).N) (hC : cC ((cfg15 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg15 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg15 a).grid.coords t) := (hcA a t).mpr h0
    have hC : ¬cC ((cfg15 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec15 c) from by
      obtain ⟨n, hn⟩ := t; obtain rfl : n = 0 := h0; rfl]
    rw [scopedRest15_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec15 c [cc15_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.Kernel.Chunk0.specA c ((cfg15 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec15 c [cc15_scratch0]) from rfl]
    have hA : ¬cA ((cfg15 a).grid.coords t) := fun h => h0 ((hcA a t).mp h)
    by_cases hl : t.val = 49999
    · -- the last point
      have hC : cC ((cfg15 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specC c ((cfg15 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg15 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.Kernel.Chunk0.specB c ((cfg15 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W15, bigSep_W15]
  exact sound_body a V c t

end Cert.Kernel.Chunk15

end
-- ==== Proof.K.PDats.lean ====
import proofs.«418705_j10376640987952_2_alg».proof.Proof.K.Chain
import proofs.«418705_j10376640987952_2_alg».proof.Proof.K.Dat00
import proofs.«418705_j10376640987952_2_alg».proof.Proof.K.Dat01
import proofs.«418705_j10376640987952_2_alg».proof.Proof.K.Dat02
import proofs.«418705_j10376640987952_2_alg».proof.Proof.K.Dat03
import proofs.«418705_j10376640987952_2_alg».proof.Proof.K.Dat04
import proofs.«418705_j10376640987952_2_alg».proof.Proof.K.Dat05
import proofs.«418705_j10376640987952_2_alg».proof.Proof.K.Dat06
import proofs.«418705_j10376640987952_2_alg».proof.Proof.K.Dat07
import proofs.«418705_j10376640987952_2_alg».proof.Proof.K.Dat08
import proofs.«418705_j10376640987952_2_alg».proof.Proof.K.Dat09
import proofs.«418705_j10376640987952_2_alg».proof.Proof.K.Dat10
import proofs.«418705_j10376640987952_2_alg».proof.Proof.K.Dat11
import proofs.«418705_j10376640987952_2_alg».proof.Proof.K.Dat12
import proofs.«418705_j10376640987952_2_alg».proof.Proof.K.Dat13
import proofs.«418705_j10376640987952_2_alg».proof.Proof.K.Dat14
import proofs.«418705_j10376640987952_2_alg».proof.Proof.K.Dat15

/-!
The sixteen pallas_calls together: what each leaves in its one-word result array as a function of the buffer
contents it is entered from (the last write-back of its proof data), the admissible contents of its two tables
(read off the edge list, every word a node number by the precondition), and the family of proof data, each call's
at the contents the chain of host stretches and earlier calls leaves.
-/

set_option maxRecDepth 1400

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-! What each call leaves in its result array, entered from the contents `Vin`: the array after the call's last
    write-back, as its proof data computes it. -/
set_option maxHeartbeats 2000000 in
def leave0 (Vin : Dev nD → Valuation τ sig (Elt F)) (c : Dev nD) : Buf (Elt F) ((c : Thread nD τ).loc main_v11) :=
  (Chunk0.dat (Tables.adm0 m hr) (fun c b => Vin c b) c).arrAt 2 (cfg0 (Tables.adm0 m hr)).N
set_option maxHeartbeats 2000000 in
def leave1 (Vin : Dev nD → Valuation τ sig (Elt F)) (c : Dev nD) : Buf (Elt F) ((c : Thread nD τ).loc main_v18) :=
  (Chunk1.dat (Tables.adm1 m hr) (fun c b => Vin c b) c).arrAt 2 (cfg1 (Tables.adm1 m hr)).N
set_option maxHeartbeats 2000000 in
def leave2 (Vin : Dev nD → Valuation τ sig (Elt F)) (c : Dev nD) : Buf (Elt F) ((c : Thread nD τ).loc main_v25) :=
  (Chunk2.dat (Tables.adm2 m hr) (fun c b => Vin c b) c).arrAt 2 (cfg2 (Tables.adm2 m hr)).N
set_option maxHeartbeats 2000000 in
def leave3 (Vin : Dev nD → Valuation τ sig (Elt F)) (c : Dev nD) : Buf (Elt F) ((c : Thread nD τ).loc main_v32) :=
  (Chunk3.dat (Tables.adm3 m hr) (fun c b => Vin c b) c).arrAt 2 (cfg3 (Tables.adm3 m hr)).N
set_option maxHeartbeats 2000000 in
def leave4 (Vin : Dev nD → Valuation τ sig (Elt F)) (c : Dev nD) : Buf (Elt F) ((c : Thread nD τ).loc main_v39) :=
  (Chunk4.dat (Tables.adm4 m hr) (fun c b => Vin c b) c).arrAt 2 (cfg4 (Tables.adm4 m hr)).N
set_option maxHeartbeats 2000000 in
def leave5 (Vin : Dev nD → Valuation τ sig (Elt F)) (c : Dev nD) : Buf (Elt F) ((c : Thread nD τ).loc main_v46) :=
  (Chunk5.dat (Tables.adm5 m hr) (fun c b => Vin c b) c).arrAt 2 (cfg5 (Tables.adm5 m hr)).N
set_option maxHeartbeats 2000000 in
def leave6 (Vin : Dev nD → Valuation τ sig (Elt F)) (c : Dev nD) : Buf (Elt F) ((c : Thread nD τ).loc main_v53) :=
  (Chunk6.dat (Tables.adm6 m hr) (fun c b => Vin c b) c).arrAt 2 (cfg6 (Tables.adm6 m hr)).N
set_option maxHeartbeats 2000000 in
def leave7 (Vin : Dev nD → Valuation τ sig (Elt F)) (c : Dev nD) : Buf (Elt F) ((c : Thread nD τ).loc main_v60) :=
  (Chunk7.dat (Tables.adm7 m hr) (fun c b => Vin c b) c).arrAt 2 (cfg7 (Tables.adm7 m hr)).N
set_option maxHeartbeats 2000000 in
def leave8 (Vin : Dev nD → Valuation τ sig (Elt F)) (c : Dev nD) : Buf (Elt F) ((c : Thread nD τ).loc main_v67) :=
  (Chunk8.dat (Tables.adm8 m hr) (fun c b => Vin c b) c).arrAt 2 (cfg8 (Tables.adm8 m hr)).N
set_option maxHeartbeats 2000000 in
def leave9 (Vin : Dev nD → Valuation τ sig (Elt F)) (c : Dev nD) : Buf (Elt F) ((c : Thread nD τ).loc main_v74) :=
  (Chunk9.dat (Tables.adm9 m hr) (fun c b => Vin c b) c).arrAt 2 (cfg9 (Tables.adm9 m hr)).N
set_option maxHeartbeats 2000000 in
def leave10 (Vin : Dev nD → Valuation τ sig (Elt F)) (c : Dev nD) : Buf (Elt F) ((c : Thread nD τ).loc main_v81) :=
  (Chunk10.dat (Tables.adm10 m hr) (fun c b => Vin c b) c).arrAt 2 (cfg10 (Tables.adm10 m hr)).N
set_option maxHeartbeats 2000000 in
def leave11 (Vin : Dev nD → Valuation τ sig (Elt F)) (c : Dev nD) : Buf (Elt F) ((c : Thread nD τ).loc main_v88) :=
  (Chunk11.dat (Tables.adm11 m hr) (fun c b => Vin c b) c).arrAt 2 (cfg11 (Tables.adm11 m hr)).N
set_option maxHeartbeats 2000000 in
def leave12 (Vin : Dev nD → Valuation τ sig (Elt F)) (c : Dev nD) : Buf (Elt F) ((c : Thread nD τ).loc main_v95) :=
  (Chunk12.dat (Tables.adm12 m hr) (fun c b => Vin c b) c).arrAt 2 (cfg12 (Tables.adm12 m hr)).N
set_option maxHeartbeats 2000000 in
def leave13 (Vin : Dev nD → Valuation τ sig (Elt F)) (c : Dev nD) : Buf (Elt F) ((c : Thread nD τ).loc main_v102) :=
  (Chunk13.dat (Tables.adm13 m hr) (fun c b => Vin c b) c).arrAt 2 (cfg13 (Tables.adm13 m hr)).N
set_option maxHeartbeats 2000000 in
def leave14 (Vin : Dev nD → Valuation τ sig (Elt F)) (c : Dev nD) : Buf (Elt F) ((c : Thread nD τ).loc main_v109) :=
  (Chunk14.dat (Tables.adm14 m hr) (fun c b => Vin c b) c).arrAt 2 (cfg14 (Tables.adm14 m hr)).N
set_option maxHeartbeats 2000000 in
def leave15 (Vin : Dev nD → Valuation τ sig (Elt F)) (c : Dev nD) : Buf (Elt F) ((c : Thread nD τ).loc main_v116) :=
  (Chunk15.dat (Tables.adm15 m hr) (fun c b => Vin c b) c).arrAt 2 (cfg15 (Tables.adm15 m hr)).N

/-- The sixteen together. -/
def leaves : Chain.Leaves F where
  o0 := leave0 m hr
  o1 := leave1 m hr
  o2 := leave2 m hr
  o3 := leave3 m hr
  o4 := leave4 m hr
  o5 := leave5 m hr
  o6 := leave6 m hr
  o7 := leave7 m hr
  o8 := leave8 m hr
  o9 := leave9 m hr
  o10 := leave10 m hr
  o11 := leave11 m hr
  o12 := leave12 m hr
  o13 := leave13 m hr
  o14 := leave14 m hr
  o15 := leave15 m hr

set_option maxHeartbeats 4000000 in
/-- The tables' admissible contents, call by call. -/
abbrev adm : (p : Fin 16) → (pcfgs (F := F) p).Adm
  | ⟨0, _⟩ => Tables.adm0 m hr
  | ⟨1, _⟩ => Tables.adm1 m hr
  | ⟨2, _⟩ => Tables.adm2 m hr
  | ⟨3, _⟩ => Tables.adm3 m hr
  | ⟨4, _⟩ => Tables.adm4 m hr
  | ⟨5, _⟩ => Tables.adm5 m hr
  | ⟨6, _⟩ => Tables.adm6 m hr
  | ⟨7, _⟩ => Tables.adm7 m hr
  | ⟨8, _⟩ => Tables.adm8 m hr
  | ⟨9, _⟩ => Tables.adm9 m hr
  | ⟨10, _⟩ => Tables.adm10 m hr
  | ⟨11, _⟩ => Tables.adm11 m hr
  | ⟨12, _⟩ => Tables.adm12 m hr
  | ⟨13, _⟩ => Tables.adm13 m hr
  | ⟨14, _⟩ => Tables.adm14 m hr
  | ⟨15, _⟩ => Tables.adm15 m hr
  | ⟨_ + 16, h⟩ => absurd h (Nat.not_lt.2 (Nat.le_add_left _ _))

set_option maxHeartbeats 8000000 in
/-- The proof data, call by call, each at the contents its call is entered from. -/
def pdats : (p : Fin 16) → (c : Dev nD) → Dat τ (Elt F) Unit ℕ (UR sig nD τ) ℕ (Pipeline.pin (pcfgs (F := F)) (adm m hr) p) c
  | ⟨0, _⟩ => fun c => Chunk0.dat (Tables.adm0 m hr) (fun c b => Chain.W1 m (leaves m hr) c b) c
  | ⟨1, _⟩ => fun c => Chunk1.dat (Tables.adm1 m hr) (fun c b => Chain.W3 m (leaves m hr) c b) c
  | ⟨2, _⟩ => fun c => Chunk2.dat (Tables.adm2 m hr) (fun c b => Chain.W5 m (leaves m hr) c b) c
  | ⟨3, _⟩ => fun c => Chunk3.dat (Tables.adm3 m hr) (fun c b => Chain.W7 m (leaves m hr) c b) c
  | ⟨4, _⟩ => fun c => Chunk4.dat (Tables.adm4 m hr) (fun c b => Chain.W9 m (leaves m hr) c b) c
  | ⟨5, _⟩ => fun c => Chunk5.dat (Tables.adm5 m hr) (fun c b => Chain.W11 m (leaves m hr) c b) c
  | ⟨6, _⟩ => fun c => Chunk6.dat (Tables.adm6 m hr) (fun c b => Chain.W13 m (leaves m hr) c b) c
  | ⟨7, _⟩ => fun c => Chunk7.dat (Tables.adm7 m hr) (fun c b => Chain.W15 m (leaves m hr) c b) c
  | ⟨8, _⟩ => fun c => Chunk8.dat (Tables.adm8 m hr) (fun c b => Chain.W17 m (leaves m hr) c b) c
  | ⟨9, _⟩ => fun c => Chunk9.dat (Tables.adm9 m hr) (fun c b => Chain.W19 m (leaves m hr) c b) c
  | ⟨10, _⟩ => fun c => Chunk10.dat (Tables.adm10 m hr) (fun c b => Chain.W21 m (leaves m hr) c b) c
  | ⟨11, _⟩ => fun c => Chunk11.dat (Tables.adm11 m hr) (fun c b => Chain.W23 m (leaves m hr) c b) c
  | ⟨12, _⟩ => fun c => Chunk12.dat (Tables.adm12 m hr) (fun c b => Chain.W25 m (leaves m hr) c b) c
  | ⟨13, _⟩ => fun c => Chunk13.dat (Tables.adm13 m hr) (fun c b => Chain.W27 m (leaves m hr) c b) c
  | ⟨14, _⟩ => fun c => Chunk14.dat (Tables.adm14 m hr) (fun c b => Chain.W29 m (leaves m hr) c b) c
  | ⟨15, _⟩ => fun c => Chunk15.dat (Tables.adm15 m hr) (fun c b => Chain.W31 m (leaves m hr) c b) c
  | ⟨_ + 16, h⟩ => absurd h (Nat.not_lt.2 (Nat.le_add_left _ _))

/-- No core owes another anything: no level is assigned. -/
abbrev L₀ : GSem nD τ sig → Finset Unit := fun _ => ∅
abbrev lv₀ : GSem nD τ sig → Unit → ℕ := fun _ _ => 0

/-- What rides beside the unscoped buffers between two items: the core owing nothing. -/
abbrev E (c : Dev nD) : sProp 𝕄 := iprop(∃ W, owes (c : Thread nD τ) (0 : CellTallies nD τ sig Unit) W)

end Cert.Kernel.Whole

end
-- ==== Proof.K.Gate00.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec0) : Finset (Ref sig .tc)) = {main_v6, main_v11} := by decide

variable (a : (pcfg0 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v6) ↦{fullShare} V main_v6) ∗ (((c : Thread nD τ).loc main_v11) ↦{fullShare} V main_v11)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg0 a) c)

/-- The pipeline's arrays, window by window: the input array at the two windows' shares, the output array whole. -/
theorem arrays_eq (hq0 : dat.q 0 = fullShare.left) (hq1 : dat.q 1 = fullShare.right)
    (Fv : (w : Fin (cfg0 a).W) → Buf (Elt F) (((cfg0 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v11) ↦{fullShare} Fv 2)) := by
  have s0 : dat.share (0 : Fin 3) = fullShare.left :=
    (if_neg (show ¬ ((cfg0 a).win (0 : Fin 3)).isOut = true from (by decide : ¬ (spec0 0).isOut = true))).trans hq0
  have s1 : dat.share (1 : Fin 3) = fullShare.right :=
    (if_neg (show ¬ ((cfg0 a).win (1 : Fin 3)).isOut = true from (by decide : ¬ (spec0 1).isOut = true))).trans hq1
  have s2 : dat.share (2 : Fin 3) = fullShare :=
    if_pos (show ((cfg0 a).win (2 : Fin 3)).isOut = true from (by decide : (spec0 2).isOut = true))
  unfold Pipeline.Dat.arrays
  rw [bigSep_W0, s0, s1, s2]
  exact congrArg₂ BI.sep (pt_whole c ((cfg0 a).win (0 : Fin 3)).arr (arr_whole0 0) _ (Fv 0))
    (congrArg₂ BI.sep (pt_whole c ((cfg0 a).win (1 : Fin 3)).arr (arr_whole0 1) _ (Fv 1))
      (pt_whole c ((cfg0 a).win (2 : Fin 3)).arr (arr_whole0 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v11 → V' b = V b) :
    (Pipeline.unscopedRest (Ix := Unit) (Name := ℕ) (U := UR sig nD τ) (Lvl := ℕ) spec0 c V' : sProp 𝕄)
      = Pipeline.unscopedRest spec0 c V := by
  unfold Pipeline.unscopedRest
  exact bigSep_congr fun b hb => by
    have hb' : b ≠ main_v11 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec0 w)) :
    StableHlo.held (c : Thread nD τ) (Pipeline.ucRefs τ sig) W
      ⊢ (iprop(dat.arrays (dat.arrAt · 0) ∗ Pipeline.prefHeld pre0 c (fun _ => fullShare) (fun k => W (pre0.ref k))
          ∗ Pipeline.unscopedRestP pre0 spec0 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts0, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v11) ↦{fullShare} W main_v11 : sProp 𝕄)
      = (((c : Thread nD τ).loc main_v11) ↦{fullShare} dat.arrAt 2 0) :=
    congrArg (fun f => (((c : Thread nD τ).loc main_v11) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec0 w)) (W' : Valuation τ sig (Elt F))
    (hout : W' main_v11 = dat.arrAt 2 (cfg0 a).N) (hne : ∀ b : Ref sig .tc, b ≠ main_v11 → W' b = W b) :
    (iprop(dat.arrays (dat.arrAt · (cfg0 a).N) ∗ Pipeline.prefHeld pre0 c (fun _ => fullShare) (fun k => W (pre0.ref k))
        ∗ Pipeline.unscopedRestP pre0 spec0 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts0, arrays_eq a c dat hq0 hq1]
  refine sep_mono ?_ .rfl
  have h0 : dat.arrAt 0 (cfg0 a).N = W' main_v6 :=
    ((dat.arrAt_in 0 (by decide : (spec0 0).isOut = false) _).trans (hA 0)).trans (hne main_v6 (by decide)).symm
  have h1 : dat.arrAt 1 (cfg0 a).N = W' main_v6 :=
    ((dat.arrAt_in 1 (by decide : (spec0 1).isOut = false) _).trans (hA 1)).trans (hne main_v6 (by decide)).symm
  have p0 : (((c : Thread nD τ).loc main_v6) ↦{fullShare.left} dat.arrAt 0 (cfg0 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg0 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v11) ↦{fullShare} dat.arrAt 2 (cfg0 a).N : sProp 𝕄)
      = (((c : Thread nD τ).loc main_v11) ↦{fullShare} W' main_v11) :=
    congrArg (fun f => (((c : Thread nD τ).loc main_v11) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate0

end
-- ==== Proof.K.Reg00.lean ====
import proofs.«418705_j10376640987952_2_alg».proof.Proof.K.PDats
import proofs.«418705_j10376640987952_2_alg».proof.Proof.K.Gate00

/-!
Pallas_call 0 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat0 (c : Dev nD) := Chunk0.dat (Tables.adm0 m hr) (fun c b => Chain.W1 m (leaves m hr) c b) c

/-- The tables' contents under the entry valuation are the admissible contents. -/
theorem tbl_entry0 (c : Dev nD) :
    (fun k => Chain.W1 m (leaves m hr) c (pre0.ref k)) = (Tables.adm0 m hr).1 :=
  funext fun k => Chain.W_tbl0 m (leaves m hr) c k

/-- The chain's contents of the result array after the call are the proof data's final array. -/
theorem out_entry0 (c : Dev nD) :
    Chain.W2 m (leaves m hr) c main_v11 = (dat0 m hr c).arrAt 2 (cfg0 (Tables.adm0 m hr)).N := by
  rw [Chain.W_out_0]
  dsimp only [leaves, leave0, dat0]

-- `iapply` of a library lemma stated over `pin pcs a p` unifies with the pinned configuration only when unification may
-- unfold plain definitions in a metavariable's type
set_option backward.isDefEq.respectTransparency.types false in
set_option maxHeartbeats 1600000 in
def reg0 : RegionSeg (pcfgs (F := F)) (adm m hr) (pdats m hr) () defs₀ Variants.none L₀ lv₀ 0 where
  win := winFacts₀0
  block_pos := block_pos0
  stage_whole := stage_whole0
  K := PEmpty
  osem k := k.elim
  ho := Pipeline.OwnSemFacts.none _
  hbody c := (Chunk0.body_obligation (Tables.adm0 m hr) (fun c b => Chain.W1 m (leaves m hr) c b) c).loose
  hwaits := Pipeline.hwaits_of_owed_zero _ _ _ _ L₀ lv₀ 0 fun _ _ => rfl
  pre c := iprop(StableHlo.held (c : Thread nD τ) (Pipeline.ucRefs τ sig) (Chain.W1 m (leaves m hr) c) ∗ E c)
  post c := iprop(StableHlo.held (c : Thread nD τ) (Pipeline.ucRefs τ sig) (Chain.W2 m (leaves m hr) c) ∗ E c)
  X _ := BI.emp
  Y c := Chunk0.tblsHeld (Tables.adm0 m hr) c
  Z c := Pipeline.unscopedRestP (Ix := Unit) (Name := ℕ) (U := UR sig nD τ) (Lvl := ℕ) pre0 spec0 c (fun b => Chain.W1 m (leaves m hr) c b)
  hentry c := by
    rw [Pipeline.ownSems0_none]
    have hent := Gate0.entry (Tables.adm0 m hr) c (dat0 m hr c) rfl rfl (Chain.W1 m (leaves m hr) c) (fun _ => rfl)
    rw [tbl_entry0 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 0 c).Φ 0 = iprop(Chunk0.tblsHeld (Tables.adm0 m hr) c
      ∗ Pipeline.scopedRest (Ix := Unit) (Name := ℕ) (U := UR sig nD τ) (Lvl := ℕ) (Val := Elt F) spec0 c) from rfl]
    iintro ⟨-, Hp, Hr⟩
    isplitl [Hp]; · iexact Hp
    iexact Hr
  hout c := by
    rw [Pipeline.ownSems0_none,
      show (pdats m hr 0 c).Φ (Fin.last _) = Chunk0.PhiS (Tables.adm0 m hr) (fun c b => Chain.W1 m (leaves m hr) c b) c
        (cfg0 (Tables.adm0 m hr)).N (le_refl _) from rfl,
      Chunk0.PhiS_pos _ _ c _ _ (by rw [Chunk0.N_eq]; decide),
      show (Pipeline.pin (pcfgs (F := F)) (adm m hr) 0).spec = spec0 from rfl, scopedRest0_split]
    iintro ⟨Hp, Hs, Hr⟩
    isplitl [Hp]; · iexact Hp
    isplitr; · iempintro
    isplitl [Hs]
    · iexists _; rw [← owns_whole]; iexact Hs
    iexact Hr
  hexit c := by
    have hex := Gate0.exit (Tables.adm0 m hr) c (dat0 m hr c) rfl rfl (Chain.W1 m (leaves m hr) c) (fun _ => rfl)
      (Chain.W2 m (leaves m hr) c) (out_entry0 m hr c) (Chain.W_keep_0 m (leaves m hr) c)
    rw [tbl_entry0 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate01.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec1) : Finset (Ref sig .tc)) = {main_v6, main_v18} := by decide

variable (a : (pcfg1 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v18) ↦{fullShare} V main_v18)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg1 a) c)

/-- The pipeline's arrays, window by window: the input array at the two windows' shares, the output array whole. -/
theorem arrays_eq (hq0 : dat.q 0 = fullShare.left) (hq1 : dat.q 1 = fullShare.right)
    (Fv : (w : Fin (cfg1 a).W) → Buf (Elt F) (((cfg1 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v18) ↦{fullShare} Fv 2)) := by
  have s0 : dat.share (0 : Fin 3) = fullShare.left :=
    (if_neg (show ¬ ((cfg1 a).win (0 : Fin 3)).isOut = true from (by decide : ¬ (spec1 0).isOut = true))).trans hq0
  have s1 : dat.share (1 : Fin 3) = fullShare.right :=
    (if_neg (show ¬ ((cfg1 a).win (1 : Fin 3)).isOut = true from (by decide : ¬ (spec1 1).isOut = true))).trans hq1
  have s2 : dat.share (2 : Fin 3) = fullShare :=
    if_pos (show ((cfg1 a).win (2 : Fin 3)).isOut = true from (by decide : (spec1 2).isOut = true))
  unfold Pipeline.Dat.arrays
  rw [bigSep_W1, s0, s1, s2]
  exact congrArg₂ BI.sep (pt_whole c ((cfg1 a).win (0 : Fin 3)).arr (arr_whole1 0) _ (Fv 0))
    (congrArg₂ BI.sep (pt_whole c ((cfg1 a).win (1 : Fin 3)).arr (arr_whole1 1) _ (Fv 1))
      (pt_whole c ((cfg1 a).win (2 : Fin 3)).arr (arr_whole1 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v18 → V' b = V b) :
    (Pipeline.unscopedRest (Ix := Unit) (Name := ℕ) (U := UR sig nD τ) (Lvl := ℕ) spec1 c V' : sProp 𝕄)
      = Pipeline.unscopedRest spec1 c V := by
  unfold Pipeline.unscopedRest
  exact bigSep_congr fun b hb => by
    have hb' : b ≠ main_v18 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec1 w)) :
    StableHlo.held (c : Thread nD τ) (Pipeline.ucRefs τ sig) W
      ⊢ (iprop(dat.arrays (dat.arrAt · 0) ∗ Pipeline.prefHeld pre1 c (fun _ => fullShare) (fun k => W (pre1.ref k))
          ∗ Pipeline.unscopedRestP pre1 spec1 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts1, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v18) ↦{fullShare} W main_v18 : sProp 𝕄)
      = (((c : Thread nD τ).loc main_v18) ↦{fullShare} dat.arrAt 2 0) :=
    congrArg (fun f => (((c : Thread nD τ).loc main_v18) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec1 w)) (W' : Valuation τ sig (Elt F))
    (hout : W' main_v18 = dat.arrAt 2 (cfg1 a).N) (hne : ∀ b : Ref sig .tc, b ≠ main_v18 → W' b = W b) :
    (iprop(dat.arrays (dat.arrAt · (cfg1 a).N) ∗ Pipeline.prefHeld pre1 c (fun _ => fullShare) (fun k => W (pre1.ref k))
        ∗ Pipeline.unscopedRestP pre1 spec1 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts1, arrays_eq a c dat hq0 hq1]
  refine sep_mono ?_ .rfl
  have h0 : dat.arrAt 0 (cfg1 a).N = W' main_v6 :=
    ((dat.arrAt_in 0 (by decide : (spec1 0).isOut = false) _).trans (hA 0)).trans (hne main_v6 (by decide)).symm
  have h1 : dat.arrAt 1 (cfg1 a).N = W' main_v6 :=
    ((dat.arrAt_in 1 (by decide : (spec1 1).isOut = false) _).trans (hA 1)).trans (hne main_v6 (by decide)).symm
  have p0 : (((c : Thread nD τ).loc main_v6) ↦{fullShare.left} dat.arrAt 0 (cfg1 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg1 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v18) ↦{fullShare} dat.arrAt 2 (cfg1 a).N : sProp 𝕄)
      = (((c : Thread nD τ).loc main_v18) ↦{fullShare} W' main_v18) :=
    congrArg (fun f => (((c : Thread nD τ).loc main_v18) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate1

end
-- ==== Proof.K.Reg01.lean ====
import proofs.«418705_j10376640987952_2_alg».proof.Proof.K.PDats
import proofs.«418705_j10376640987952_2_alg».proof.Proof.K.Gate01

/-!
Pallas_call 1 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat1 (c : Dev nD) := Chunk1.dat (Tables.adm1 m hr) (fun c b => Chain.W3 m (leaves m hr) c b) c

/-- The tables' contents under the entry valuation are the admissible contents. -/
theorem tbl_entry1 (c : Dev nD) :
    (fun k => Chain.W3 m (leaves m hr) c (pre1.ref k)) = (Tables.adm1 m hr).1 :=
  funext fun k => Chain.W_tbl1 m (leaves m hr) c k

/-- The chain's contents of the result array after the call are the proof data's final array. -/
theorem out_entry1 (c : Dev nD) :
    Chain.W4 m (leaves m hr) c main_v18 = (dat1 m hr c).arrAt 2 (cfg1 (Tables.adm1 m hr)).N := by
  rw [Chain.W_out_1]
  dsimp only [leaves, leave1, dat1]

-- `iapply` of a library lemma stated over `pin pcs a p` unifies with the pinned configuration only when unification may
-- unfold plain definitions in a metavariable's type
set_option backward.isDefEq.respectTransparency.types false in
set_option maxHeartbeats 1600000 in
def reg1 : RegionSeg (pcfgs (F := F)) (adm m hr) (pdats m hr) () defs₀ Variants.none L₀ lv₀ 1 where
  win := winFacts₀1
  block_pos := block_pos1
  stage_whole := stage_whole1
  K := PEmpty
  osem k := k.elim
  ho := Pipeline.OwnSemFacts.none _
  hbody c := (Chunk1.body_obligation (Tables.adm1 m hr) (fun c b => Chain.W3 m (leaves m hr) c b) c).loose
  hwaits := Pipeline.hwaits_of_owed_zero _ _ _ _ L₀ lv₀ 1 fun _ _ => rfl
  pre c := iprop(StableHlo.held (c : Thread nD τ) (Pipeline.ucRefs τ sig) (Chain.W3 m (leaves m hr) c) ∗ E c)
  post c := iprop(StableHlo.held (c : Thread nD τ) (Pipeline.ucRefs τ sig) (Chain.W4 m (leaves m hr) c) ∗ E c)
  X _ := BI.emp
  Y c := Chunk1.tblsHeld (Tables.adm1 m hr) c
  Z c := Pipeline.unscopedRestP (Ix := Unit) (Name := ℕ) (U := UR sig nD τ) (Lvl := ℕ) pre1 spec1 c (fun b => Chain.W3 m (leaves m hr) c b)
  hentry c := by
    rw [Pipeline.ownSems0_none]
    have hent := Gate1.entry (Tables.adm1 m hr) c (dat1 m hr c) rfl rfl (Chain.W3 m (leaves m hr) c) (fun _ => rfl)
    rw [tbl_entry1 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 1 c).Φ 0 = iprop(Chunk1.tblsHeld (Tables.adm1 m hr) c
      ∗ Pipeline.scopedRest (Ix := Unit) (Name := ℕ) (U := UR sig nD τ) (Lvl := ℕ) (Val := Elt F) spec1 c) from rfl]
    iintro ⟨-, Hp, Hr⟩
    isplitl [Hp]; · iexact Hp
    iexact Hr
  hout c := by
    rw [Pipeline.ownSems0_none,
      show (pdats m hr 1 c).Φ (Fin.last _) = Chunk1.PhiS (Tables.adm1 m hr) (fun c b => Chain.W3 m (leaves m hr) c b) c
        (cfg1 (Tables.adm1 m hr)).N (le_refl _) from rfl,
      Chunk1.PhiS_pos _ _ c _ _ (by rw [Chunk1.N_eq]; decide),
      show (Pipeline.pin (pcfgs (F := F)) (adm m hr) 1).spec = spec1 from rfl, scopedRest1_split]
    iintro ⟨Hp, Hs, Hr⟩
    isplitl [Hp]; · iexact Hp
    isplitr; · iempintro
    isplitl [Hs]
    · iexists _; rw [← owns_whole]; iexact Hs
    iexact Hr
  hexit c := by
    have hex := Gate1.exit (Tables.adm1 m hr) c (dat1 m hr c) rfl rfl (Chain.W3 m (leaves m hr) c) (fun _ => rfl)
      (Chain.W4 m (leaves m hr) c) (out_entry1 m hr c) (Chain.W_keep_1 m (leaves m hr) c)
    rw [tbl_entry1 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate02.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec2) : Finset (Ref sig .tc)) = {main_v6, main_v25} := by decide

variable (a : (pcfg2 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v6) ↦{fullShare} V main_v6) ∗ (((c : Thread nD τ).loc main_v25) ↦{fullShare} V main_v25)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg2 a) c)

/-- The pipeline's arrays, window by window: the input array at the two windows' shares, the output array whole. -/
theorem arrays_eq (hq0 : dat.q 0 = fullShare.left) (hq1 : dat.q 1 = fullShare.right)
    (Fv : (w : Fin (cfg2 a).W) → Buf (Elt F) (((cfg2 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v25) ↦{fullShare} Fv 2)) := by
  have s0 : dat.share (0 : Fin 3) = fullShare.left :=
    (if_neg (show ¬ ((cfg2 a).win (0 : Fin 3)).isOut = true from (by decide : ¬ (spec2 0).isOut = true))).trans hq0
  have s1 : dat.share (1 : Fin 3) = fullShare.right :=
    (if_neg (show ¬ ((cfg2 a).win (1 : Fin 3)).isOut = true from (by decide : ¬ (spec2 1).isOut = true))).trans hq1
  have s2 : dat.share (2 : Fin 3) = fullShare :=
    if_pos (show ((cfg2 a).win (2 : Fin 3)).isOut = true from (by decide : (spec2 2).isOut = true))
  unfold Pipeline.Dat.arrays
  rw [bigSep_W2, s0, s1, s2]
  exact congrArg₂ BI.sep (pt_whole c ((cfg2 a).win (0 : Fin 3)).arr (arr_whole2 0) _ (Fv 0))
    (congrArg₂ BI.sep (pt_whole c ((cfg2 a).win (1 : Fin 3)).arr (arr_whole2 1) _ (Fv 1))
      (pt_whole c ((cfg2 a).win (2 : Fin 3)).arr (arr_whole2 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec2 c V ∗ Pipeline.unscopedRest spec2 c V) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v25 → V' b = V b) :
    (Pipeline.unscopedRest (Ix := Unit) (Name := ℕ) (U := UR sig nD τ) (Lvl := ℕ) spec2 c V' : sProp 𝕄)
      = Pipeline.unscopedRest spec2 c V := by
  unfold Pipeline.unscopedRest
  exact bigSep_congr fun b hb => by
    have hb' : b ≠ main_v25 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec2 w)) :
    StableHlo.held (c : Thread nD τ) (Pipeline.ucRefs τ sig) W
      ⊢ (iprop(dat.arrays (dat.arrAt · 0) ∗ Pipeline.prefHeld pre2 c (fun _ => fullShare) (fun k => W (pre2.ref k))
          ∗ Pipeline.unscopedRestP pre2 spec2 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts2, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v25) ↦{fullShare} W main_v25 : sProp 𝕄)
      = (((c : Thread nD τ).loc main_v25) ↦{fullShare} dat.arrAt 2 0) :=
    congrArg (fun f => (((c : Thread nD τ).loc main_v25) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec2 w)) (W' : Valuation τ sig (Elt F))
    (hout : W' main_v25 = dat.arrAt 2 (cfg2 a).N) (hne : ∀ b : Ref sig .tc, b ≠ main_v25 → W' b = W b) :
    (iprop(dat.arrays (dat.arrAt · (cfg2 a).N) ∗ Pipeline.prefHeld pre2 c (fun _ => fullShare) (fun k => W (pre2.ref k))
        ∗ Pipeline.unscopedRestP pre2 spec2 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts2, arrays_eq a c dat hq0 hq1]
  refine sep_mono ?_ .rfl
  have h0 : dat.arrAt 0 (cfg2 a).N = W' main_v6 :=
    ((dat.arrAt_in 0 (by decide : (spec2 0).isOut = false) _).trans (hA 0)).trans (hne main_v6 (by decide)).symm
  have h1 : dat.arrAt 1 (cfg2 a).N = W' main_v6 :=
    ((dat.arrAt_in 1 (by decide : (spec2 1).isOut = false) _).trans (hA 1)).trans (hne main_v6 (by decide)).symm
  have p0 : (((c : Thread nD τ).loc main_v6) ↦{fullShare.left} dat.arrAt 0 (cfg2 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg2 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v25) ↦{fullShare} dat.arrAt 2 (cfg2 a).N : sProp 𝕄)
      = (((c : Thread nD τ).loc main_v25) ↦{fullShare} W' main_v25) :=
    congrArg (fun f => (((c : Thread nD τ).loc main_v25) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate2

end
-- ==== Proof.K.Reg02.lean ====
import proofs.«418705_j10376640987952_2_alg».proof.Proof.K.PDats
import proofs.«418705_j10376640987952_2_alg».proof.Proof.K.Gate02

/-!
Pallas_call 2 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat2 (c : Dev nD) := Chunk2.dat (Tables.adm2 m hr) (fun c b => Chain.W5 m (leaves m hr) c b) c

/-- The tables' contents under the entry valuation are the admissible contents. -/
theorem tbl_entry2 (c : Dev nD) :
    (fun k => Chain.W5 m (leaves m hr) c (pre2.ref k)) = (Tables.adm2 m hr).1 :=
  funext fun k => Chain.W_tbl2 m (leaves m hr) c k

/-- The chain's contents of the result array after the call are the proof data's final array. -/
theorem out_entry2 (c : Dev nD) :
    Chain.W6 m (leaves m hr) c main_v25 = (dat2 m hr c).arrAt 2 (cfg2 (Tables.adm2 m hr)).N := by
  rw [Chain.W_out_2]
  dsimp only [leaves, leave2, dat2]

-- `iapply` of a library lemma stated over `pin pcs a p` unifies with the pinned configuration only when unification may
-- unfold plain definitions in a metavariable's type
set_option backward.isDefEq.respectTransparency.types false in
set_option maxHeartbeats 1600000 in
def reg2 : RegionSeg (pcfgs (F := F)) (adm m hr) (pdats m hr) () defs₀ Variants.none L₀ lv₀ 2 where
  win := winFacts₀2
  block_pos := block_pos2
  stage_whole := stage_whole2
  K := PEmpty
  osem k := k.elim
  ho := Pipeline.OwnSemFacts.none _
  hbody c := (Chunk2.body_obligation (Tables.adm2 m hr) (fun c b => Chain.W5 m (leaves m hr) c b) c).loose
  hwaits := Pipeline.hwaits_of_owed_zero _ _ _ _ L₀ lv₀ 2 fun _ _ => rfl
  pre c := iprop(StableHlo.held (c : Thread nD τ) (Pipeline.ucRefs τ sig) (Chain.W5 m (leaves m hr) c) ∗ E c)
  post c := iprop(StableHlo.held (c : Thread nD τ) (Pipeline.ucRefs τ sig) (Chain.W6 m (leaves m hr) c) ∗ E c)
  X _ := BI.emp
  Y c := Chunk2.tblsHeld (Tables.adm2 m hr) c
  Z c := Pipeline.unscopedRestP (Ix := Unit) (Name := ℕ) (U := UR sig nD τ) (Lvl := ℕ) pre2 spec2 c (fun b => Chain.W5 m (leaves m hr) c b)
  hentry c := by
    rw [Pipeline.ownSems0_none]
    have hent := Gate2.entry (Tables.adm2 m hr) c (dat2 m hr c) rfl rfl (Chain.W5 m (leaves m hr) c) (fun _ => rfl)
    rw [tbl_entry2 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 2 c).Φ 0 = iprop(Chunk2.tblsHeld (Tables.adm2 m hr) c
      ∗ Pipeline.scopedRest (Ix := Unit) (Name := ℕ) (U := UR sig nD τ) (Lvl := ℕ) (Val := Elt F) spec2 c) from rfl]
    iintro ⟨-, Hp, Hr⟩
    isplitl [Hp]; · iexact Hp
    iexact Hr
  hout c := by
    rw [Pipeline.ownSems0_none,
      show (pdats m hr 2 c).Φ (Fin.last _) = Chunk2.PhiS (Tables.adm2 m hr) (fun c b => Chain.W5 m (leaves m hr) c b) c
        (cfg2 (Tables.adm2 m hr)).N (le_refl _) from rfl,
      Chunk2.PhiS_pos _ _ c _ _ (by rw [Chunk2.N_eq]; decide),
      show (Pipeline.pin (pcfgs (F := F)) (adm m hr) 2).spec = spec2 from rfl, scopedRest2_split]
    iintro ⟨Hp, Hs, Hr⟩
    isplitl [Hp]; · iexact Hp
    isplitr; · iempintro
    isplitl [Hs]
    · iexists _; rw [← owns_whole]; iexact Hs
    iexact Hr
  hexit c := by
    have hex := Gate2.exit (Tables.adm2 m hr) c (dat2 m hr c) rfl rfl (Chain.W5 m (leaves m hr) c) (fun _ => rfl)
      (Chain.W6 m (leaves m hr) c) (out_entry2 m hr c) (Chain.W_keep_2 m (leaves m hr) c)
    rw [tbl_entry2 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate03.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate3

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec3) : Finset (Ref sig .tc)) = {main_v6, main_v32} := by decide

variable (a : (pcfg3 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v6) ↦{fullShare} V main_v6) ∗ (((c : Thread nD τ).loc main_v32) ↦{fullShare} V main_v32)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg3 a) c)

/-- The pipeline's arrays, window by window: the input array at the two windows' shares, the output array whole. -/
theorem arrays_eq (hq0 : dat.q 0 = fullShare.left) (hq1 : dat.q 1 = fullShare.right)
    (Fv : (w : Fin (cfg3 a).W) → Buf (Elt F) (((cfg3 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v32) ↦{fullShare} Fv 2)) := by
  have s0 : dat.share (0 : Fin 3) = fullShare.left :=
    (if_neg (show ¬ ((cfg3 a).win (0 : Fin 3)).isOut = true from (by decide : ¬ (spec3 0).isOut = true))).trans hq0
  have s1 : dat.share (1 : Fin 3) = fullShare.right :=
    (if_neg (show ¬ ((cfg3 a).win (1 : Fin 3)).isOut = true from (by decide : ¬ (spec3 1).isOut = true))).trans hq1
  have s2 : dat.share (2 : Fin 3) = fullShare :=
    if_pos (show ((cfg3 a).win (2 : Fin 3)).isOut = true from (by decide : (spec3 2).isOut = true))
  unfold Pipeline.Dat.arrays
  rw [bigSep_W3, s0, s1, s2]
  exact congrArg₂ BI.sep (pt_whole c ((cfg3 a).win (0 : Fin 3)).arr (arr_whole3 0) _ (Fv 0))
    (congrArg₂ BI.sep (pt_whole c ((cfg3 a).win (1 : Fin 3)).arr (arr_whole3 1) _ (Fv 1))
      (pt_whole c ((cfg3 a).win (2 : Fin 3)).arr (arr_whole3 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec3 c V ∗ Pipeline.unscopedRest spec3 c V) := by
  classical
  have hA : Finset.univ.image (Pipeline.arrRef spec3) ⊆ Finset.univ.filter fun b : Ref sig .tc => ¬ b.isScoped := fun b hb => by
    obtain ⟨w, -, rfl⟩ := Finset.mem_image.mp hb
    exact Finset.mem_filter.mpr ⟨Finset.mem_univ _, by simp [winFacts₀3.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v32 → V' b = V b) :
    (Pipeline.unscopedRest (Ix := Unit) (Name := ℕ) (U := UR sig nD τ) (Lvl := ℕ) spec3 c V' : sProp 𝕄)
      = Pipeline.unscopedRest spec3 c V := by
  unfold Pipeline.unscopedRest
  exact bigSep_congr fun b hb => by
    have hb' : b ≠ main_v32 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec3 w)) :
    StableHlo.held (c : Thread nD τ) (Pipeline.ucRefs τ sig) W
      ⊢ (iprop(dat.arrays (dat.arrAt · 0) ∗ Pipeline.prefHeld pre3 c (fun _ => fullShare) (fun k => W (pre3.ref k))
          ∗ Pipeline.unscopedRestP pre3 spec3 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts3, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v32) ↦{fullShare} W main_v32 : sProp 𝕄)
      = (((c : Thread nD τ).loc main_v32) ↦{fullShare} dat.arrAt 2 0) :=
    congrArg (fun f => (((c : Thread nD τ).loc main_v32) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec3 w)) (W' : Valuation τ sig (Elt F))
    (hout : W' main_v32 = dat.arrAt 2 (cfg3 a).N) (hne : ∀ b : Ref sig .tc, b ≠ main_v32 → W' b = W b) :
    (iprop(dat.arrays (dat.arrAt · (cfg3 a).N) ∗ Pipeline.prefHeld pre3 c (fun _ => fullShare) (fun k => W (pre3.ref k))
        ∗ Pipeline.unscopedRestP pre3 spec3 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts3, arrays_eq a c dat hq0 hq1]
  refine sep_mono ?_ .rfl
  have h0 : dat.arrAt 0 (cfg3 a).N = W' main_v6 :=
    ((dat.arrAt_in 0 (by decide : (spec3 0).isOut = false) _).trans (hA 0)).trans (hne main_v6 (by decide)).symm
  have h1 : dat.arrAt 1 (cfg3 a).N = W' main_v6 :=
    ((dat.arrAt_in 1 (by decide : (spec3 1).isOut = false) _).trans (hA 1)).trans (hne main_v6 (by decide)).symm
  have p0 : (((c : Thread nD τ).loc main_v6) ↦{fullShare.left} dat.arrAt 0 (cfg3 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg3 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v32) ↦{fullShare} dat.arrAt 2 (cfg3 a).N : sProp 𝕄)
      = (((c : Thread nD τ).loc main_v32) ↦{fullShare} W' main_v32) :=
    congrArg (fun f => (((c : Thread nD τ).loc main_v32) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate3

end
-- ==== Proof.K.Reg03.lean ====
import proofs.«418705_j10376640987952_2_alg».proof.Proof.K.PDats
import proofs.«418705_j10376640987952_2_alg».proof.Proof.K.Gate03

/-!
Pallas_call 3 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat3 (c : Dev nD) := Chunk3.dat (Tables.adm3 m hr) (fun c b => Chain.W7 m (leaves m hr) c b) c

/-- The tables' contents under the entry valuation are the admissible contents. -/
theorem tbl_entry3 (c : Dev nD) :
    (fun k => Chain.W7 m (leaves m hr) c (pre3.ref k)) = (Tables.adm3 m hr).1 :=
  funext fun k => Chain.W_tbl3 m (leaves m hr) c k

/-- The chain's contents of the result array after the call are the proof data's final array. -/
theorem out_entry3 (c : Dev nD) :
    Chain.W8 m (leaves m hr) c main_v32 = (dat3 m hr c).arrAt 2 (cfg3 (Tables.adm3 m hr)).N := by
  rw [Chain.W_out_3]
  dsimp only [leaves, leave3, dat3]

-- `iapply` of a library lemma stated over `pin pcs a p` unifies with the pinned configuration only when unification may
-- unfold plain definitions in a metavariable's type
set_option backward.isDefEq.respectTransparency.types false in
set_option maxHeartbeats 1600000 in
def reg3 : RegionSeg (pcfgs (F := F)) (adm m hr) (pdats m hr) () defs₀ Variants.none L₀ lv₀ 3 where
  win := winFacts₀3
  block_pos := block_pos3
  stage_whole := stage_whole3
  K := PEmpty
  osem k := k.elim
  ho := Pipeline.OwnSemFacts.none _
  hbody c := (Chunk3.body_obligation (Tables.adm3 m hr) (fun c b => Chain.W7 m (leaves m hr) c b) c).loose
  hwaits := Pipeline.hwaits_of_owed_zero _ _ _ _ L₀ lv₀ 3 fun _ _ => rfl
  pre c := iprop(StableHlo.held (c : Thread nD τ) (Pipeline.ucRefs τ sig) (Chain.W7 m (leaves m hr) c) ∗ E c)
  post c := iprop(StableHlo.held (c : Thread nD τ) (Pipeline.ucRefs τ sig) (Chain.W8 m (leaves m hr) c) ∗ E c)
  X _ := BI.emp
  Y c := Chunk3.tblsHeld (Tables.adm3 m hr) c
  Z c := Pipeline.unscopedRestP (Ix := Unit) (Name := ℕ) (U := UR sig nD τ) (Lvl := ℕ) pre3 spec3 c (fun b => Chain.W7 m (leaves m hr) c b)
  hentry c := by
    rw [Pipeline.ownSems0_none]
    have hent := Gate3.entry (Tables.adm3 m hr) c (dat3 m hr c) rfl rfl (Chain.W7 m (leaves m hr) c) (fun _ => rfl)
    rw [tbl_entry3 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 3 c).Φ 0 = iprop(Chunk3.tblsHeld (Tables.adm3 m hr) c
      ∗ Pipeline.scopedRest (Ix := Unit) (Name := ℕ) (U := UR sig nD τ) (Lvl := ℕ) (Val := Elt F) spec3 c) from rfl]
    iintro ⟨-, Hp, Hr⟩
    isplitl [Hp]; · iexact Hp
    iexact Hr
  hout c := by
    rw [Pipeline.ownSems0_none,
      show (pdats m hr 3 c).Φ (Fin.last _) = Chunk3.PhiS (Tables.adm3 m hr) (fun c b => Chain.W7 m (leaves m hr) c b) c
        (cfg3 (Tables.adm3 m hr)).N (le_refl _) from rfl,
      Chunk3.PhiS_pos _ _ c _ _ (by rw [Chunk3.N_eq]; decide),
      show (Pipeline.pin (pcfgs (F := F)) (adm m hr) 3).spec = spec3 from rfl, scopedRest3_split]
    iintro ⟨Hp, Hs, Hr⟩
    isplitl [Hp]; · iexact Hp
    isplitr; · iempintro
    isplitl [Hs]
    · iexists _; rw [← owns_whole]; iexact Hs
    iexact Hr
  hexit c := by
    have hex := Gate3.exit (Tables.adm3 m hr) c (dat3 m hr c) rfl rfl (Chain.W7 m (leaves m hr) c) (fun _ => rfl)
      (Chain.W8 m (leaves m hr) c) (out_entry3 m hr c) (Chain.W_keep_3 m (leaves m hr) c)
    rw [tbl_entry3 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate04.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate4

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec4) : Finset (Ref sig .tc)) = {main_v6, main_v39} := by decide

variable (a : (pcfg4 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v6) ↦{fullShare} V main_v6) ∗ (((c : Thread nD τ).loc main_v39) ↦{fullShare} V main_v39)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg4 a) c)

/-- The pipeline's arrays, window by window: the input array at the two windows' shares, the output array whole. -/
theorem arrays_eq (hq0 : dat.q 0 = fullShare.left) (hq1 : dat.q 1 = fullShare.right)
    (Fv : (w : Fin (cfg4 a).W) → Buf (Elt F) (((cfg4 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v39) ↦{fullShare} Fv 2)) := by
  have s0 : dat.share (0 : Fin 3) = fullShare.left :=
    (if_neg (show ¬ ((cfg4 a).win (0 : Fin 3)).isOut = true from (by decide : ¬ (spec4 0).isOut = true))).trans hq0
  have s1 : dat.share (1 : Fin 3) = fullShare.right :=
    (if_neg (show ¬ ((cfg4 a).win (1 : Fin 3)).isOut = true from (by decide : ¬ (spec4 1).isOut = true))).trans hq1
  have s2 : dat.share (2 : Fin 3) = fullShare :=
    if_pos (show ((cfg4 a).win (2 : Fin 3)).isOut = true from (by decide : (spec4 2).isOut = true))
  unfold Pipeline.Dat.arrays
  rw [bigSep_W4, s0, s1, s2]
  exact congrArg₂ BI.sep (pt_whole c ((cfg4 a).win (0 : Fin 3)).arr (arr_whole4 0) _ (Fv 0))
    (congrArg₂ BI.sep (pt_whole c ((cfg4 a).win (1 : Fin 3)).arr (arr_whole4 1) _ (Fv 1))
      (pt_whole c ((cfg4 a).win (2 : Fin 3)).arr (arr_whole4 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec4 c V ∗ Pipeline.unscopedRest spec4 c V) := by
  classical
  have hA : Finset.univ.image (Pipeline.arrRef spec4) ⊆ Finset.univ.filter fun b : Ref sig .tc => ¬ b.isScoped := fun b hb => by
    obtain ⟨w, -, rfl⟩ := Finset.mem_image.mp hb
    exact Finset.mem_filter.mpr ⟨Finset.mem_univ _, by simp [winFacts₀4.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v39 → V' b = V b) :
    (Pipeline.unscopedRest (Ix := Unit) (Name := ℕ) (U := UR sig nD τ) (Lvl := ℕ) spec4 c V' : sProp 𝕄)
      = Pipeline.unscopedRest spec4 c V := by
  unfold Pipeline.unscopedRest
  exact bigSep_congr fun b hb => by
    have hb' : b ≠ main_v39 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec4 w)) :
    StableHlo.held (c : Thread nD τ) (Pipeline.ucRefs τ sig) W
      ⊢ (iprop(dat.arrays (dat.arrAt · 0) ∗ Pipeline.prefHeld pre4 c (fun _ => fullShare) (fun k => W (pre4.ref k))
          ∗ Pipeline.unscopedRestP pre4 spec4 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts4, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v39) ↦{fullShare} W main_v39 : sProp 𝕄)
      = (((c : Thread nD τ).loc main_v39) ↦{fullShare} dat.arrAt 2 0) :=
    congrArg (fun f => (((c : Thread nD τ).loc main_v39) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec4 w)) (W' : Valuation τ sig (Elt F))
    (hout : W' main_v39 = dat.arrAt 2 (cfg4 a).N) (hne : ∀ b : Ref sig .tc, b ≠ main_v39 → W' b = W b) :
    (iprop(dat.arrays (dat.arrAt · (cfg4 a).N) ∗ Pipeline.prefHeld pre4 c (fun _ => fullShare) (fun k => W (pre4.ref k))
        ∗ Pipeline.unscopedRestP pre4 spec4 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts4, arrays_eq a c dat hq0 hq1]
  refine sep_mono ?_ .rfl
  have h0 : dat.arrAt 0 (cfg4 a).N = W' main_v6 :=
    ((dat.arrAt_in 0 (by decide : (spec4 0).isOut = false) _).trans (hA 0)).trans (hne main_v6 (by decide)).symm
  have h1 : dat.arrAt 1 (cfg4 a).N = W' main_v6 :=
    ((dat.arrAt_in 1 (by decide : (spec4 1).isOut = false) _).trans (hA 1)).trans (hne main_v6 (by decide)).symm
  have p0 : (((c : Thread nD τ).loc main_v6) ↦{fullShare.left} dat.arrAt 0 (cfg4 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg4 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v39) ↦{fullShare} dat.arrAt 2 (cfg4 a).N : sProp 𝕄)
      = (((c : Thread nD τ).loc main_v39) ↦{fullShare} W' main_v39) :=
    congrArg (fun f => (((c : Thread nD τ).loc main_v39) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate4

end
-- ==== Proof.K.Reg04.lean ====
import proofs.«418705_j10376640987952_2_alg».proof.Proof.K.PDats
import proofs.«418705_j10376640987952_2_alg».proof.Proof.K.Gate04

/-!
Pallas_call 4 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat4 (c : Dev nD) := Chunk4.dat (Tables.adm4 m hr) (fun c b => Chain.W9 m (leaves m hr) c b) c

/-- The tables' contents under the entry valuation are the admissible contents. -/
theorem tbl_entry4 (c : Dev nD) :
    (fun k => Chain.W9 m (leaves m hr) c (pre4.ref k)) = (Tables.adm4 m hr).1 :=
  funext fun k => Chain.W_tbl4 m (leaves m hr) c k

/-- The chain's contents of the result array after the call are the proof data's final array. -/
theorem out_entry4 (c : Dev nD) :
    Chain.W10 m (leaves m hr) c main_v39 = (dat4 m hr c).arrAt 2 (cfg4 (Tables.adm4 m hr)).N := by
  rw [Chain.W_out_4]
  dsimp only [leaves, leave4, dat4]

-- `iapply` of a library lemma stated over `pin pcs a p` unifies with the pinned configuration only when unification may
-- unfold plain definitions in a metavariable's type
set_option backward.isDefEq.respectTransparency.types false in
set_option maxHeartbeats 1600000 in
def reg4 : RegionSeg (pcfgs (F := F)) (adm m hr) (pdats m hr) () defs₀ Variants.none L₀ lv₀ 4 where
  win := winFacts₀4
  block_pos := block_pos4
  stage_whole := stage_whole4
  K := PEmpty
  osem k := k.elim
  ho := Pipeline.OwnSemFacts.none _
  hbody c := (Chunk4.body_obligation (Tables.adm4 m hr) (fun c b => Chain.W9 m (leaves m hr) c b) c).loose
  hwaits := Pipeline.hwaits_of_owed_zero _ _ _ _ L₀ lv₀ 4 fun _ _ => rfl
  pre c := iprop(StableHlo.held (c : Thread nD τ) (Pipeline.ucRefs τ sig) (Chain.W9 m (leaves m hr) c) ∗ E c)
  post c := iprop(StableHlo.held (c : Thread nD τ) (Pipeline.ucRefs τ sig) (Chain.W10 m (leaves m hr) c) ∗ E c)
  X _ := BI.emp
  Y c := Chunk4.tblsHeld (Tables.adm4 m hr) c
  Z c := Pipeline.unscopedRestP (Ix := Unit) (Name := ℕ) (U := UR sig nD τ) (Lvl := ℕ) pre4 spec4 c (fun b => Chain.W9 m (leaves m hr) c b)
  hentry c := by
    rw [Pipeline.ownSems0_none]
    have hent := Gate4.entry (Tables.adm4 m hr) c (dat4 m hr c) rfl rfl (Chain.W9 m (leaves m hr) c) (fun _ => rfl)
    rw [tbl_entry4 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 4 c).Φ 0 = iprop(Chunk4.tblsHeld (Tables.adm4 m hr) c
      ∗ Pipeline.scopedRest (Ix := Unit) (Name := ℕ) (U := UR sig nD τ) (Lvl := ℕ) (Val := Elt F) spec4 c) from rfl]
    iintro ⟨-, Hp, Hr⟩
    isplitl [Hp]; · iexact Hp
    iexact Hr
  hout c := by
    rw [Pipeline.ownSems0_none,
      show (pdats m hr 4 c).Φ (Fin.last _) = Chunk4.PhiS (Tables.adm4 m hr) (fun c b => Chain.W9 m (leaves m hr) c b) c
        (cfg4 (Tables.adm4 m hr)).N (le_refl _) from rfl,
      Chunk4.PhiS_pos _ _ c _ _ (by rw [Chunk4.N_eq]; decide),
      show (Pipeline.pin (pcfgs (F := F)) (adm m hr) 4).spec = spec4 from rfl, scopedRest4_split]
    iintro ⟨Hp, Hs, Hr⟩
    isplitl [Hp]; · iexact Hp
    isplitr; · iempintro
    isplitl [Hs]
    · iexists _; rw [← owns_whole]; iexact Hs
    iexact Hr
  hexit c := by
    have hex := Gate4.exit (Tables.adm4 m hr) c (dat4 m hr c) rfl rfl (Chain.W9 m (leaves m hr) c) (fun _ => rfl)
      (Chain.W10 m (leaves m hr) c) (out_entry4 m hr c) (Chain.W_keep_4 m (leaves m hr) c)
    rw [tbl_entry4 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate05.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate5

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec5) : Finset (Ref sig .tc)) = {main_v6, main_v46} := by decide

variable (a : (pcfg5 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec5 c V : sProp 𝕄)
      = iprop((((c : Thread nD τ).loc main_v6) ↦{fullShare} V main_v6) ∗ (((c : Thread nD τ).loc main_v46) ↦{fullShare} V main_v46)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg5 a) c)

/-- The pipeline's arrays, window by window: the input array at the two windows' shares, the output array whole. -/
theorem arrays_eq (hq0 : dat.q 0 = fullShare.left) (hq1 : dat.q 1 = fullShare.right)
    (Fv : (w : Fin (cfg5 a).W) → Buf (Elt F) (((cfg5 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v46) ↦{fullShare} Fv 2)) := by
  have s0 : dat.share (0 : Fin 3) = fullShare.left :=
    (if_neg (show ¬ ((cfg5 a).win (0 : Fin 3)).isOut = true from (by decide : ¬ (spec5 0).isOut = true))).trans hq0
  have s1 : dat.share (1 : Fin 3) = fullShare.right :=
    (if_neg (show ¬ ((cfg5 a).win (1 : Fin 3)).isOut = true from (by decide : ¬ (spec5 1).isOut = true))).trans hq1
  have s2 : dat.share (2 : Fin 3) = fullShare :=
    if_pos (show ((cfg5 a).win (2 : Fin 3)).isOut = true from (by decide : (spec5 2).isOut = true))
  unfold Pipeline.Dat.arrays
  rw [bigSep_W5, s0, s1, s2]
  exact congrArg₂ BI.sep (pt_whole c ((cfg5 a).win (0 : Fin 3)).arr (arr_whole5 0) _ (Fv 0))
    (congrArg₂ BI.sep (pt_whole c ((cfg5 a).win (1 : Fin 3)).arr (arr_whole5 1) _ (Fv 1))
      (pt_whole c ((cfg5 a).win (2 : Fin 3)).arr (arr_whole5 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec5 c V ∗ Pipeline.unscopedRest spec5 c V) := by
  classical
  have hA : Finset.univ.image (Pipeline.arrRef spec5) ⊆ Finset.univ.filter fun b : Ref sig .tc => ¬ b.isScoped := fun b hb => by
    obtain ⟨w, -, rfl⟩ := Finset.mem_image.mp hb
    exact Finset.mem_filter.mpr ⟨Finset.mem_univ _, by simp [winFacts₀5.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v46 → V' b = V b) :
    (Pipeline.unscopedRest (Ix := Unit) (Name := ℕ) (U := UR sig nD τ) (Lvl := ℕ) spec5 c V' : sProp 𝕄)
      = Pipeline.unscopedRest spec5 c V := by
  unfold Pipeline.unscopedRest
  exact bigSep_congr fun b hb => by
    have hb' : b ≠ main_v46 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec5 w)) :
    StableHlo.held (c : Thread nD τ) (Pipeline.ucRefs τ sig) W
      ⊢ (iprop(dat.arrays (dat.arrAt · 0) ∗ Pipeline.prefHeld pre5 c (fun _ => fullShare) (fun k => W (pre5.ref k))
          ∗ Pipeline.unscopedRestP pre5 spec5 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts5, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v46) ↦{fullShare} W main_v46 : sProp 𝕄)
      = (((c : Thread nD τ).loc main_v46) ↦{fullShare} dat.arrAt 2 0) :=
    congrArg (fun f => (((c : Thread nD τ).loc main_v46) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec5 w)) (W' : Valuation τ sig (Elt F))
    (hout : W' main_v46 = dat.arrAt 2 (cfg5 a).N) (hne : ∀ b : Ref sig .tc, b ≠ main_v46 → W' b = W b) :
    (iprop(dat.arrays (dat.arrAt · (cfg5 a).N) ∗ Pipeline.prefHeld pre5 c (fun _ => fullShare) (fun k => W (pre5.ref k))
        ∗ Pipeline.unscopedRestP pre5 spec5 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts5, arrays_eq a c dat hq0 hq1]
  refine sep_mono ?_ .rfl
  have h0 : dat.arrAt 0 (cfg5 a).N = W' main_v6 :=
    ((dat.arrAt_in 0 (by decide : (spec5 0).isOut = false) _).trans (hA 0)).trans (hne main_v6 (by decide)).symm
  have h1 : dat.arrAt 1 (cfg5 a).N = W' main_v6 :=
    ((dat.arrAt_in 1 (by decide : (spec5 1).isOut = false) _).trans (hA 1)).trans (hne main_v6 (by decide)).symm
  have p0 : (((c : Thread nD τ).loc main_v6) ↦{fullShare.left} dat.arrAt 0 (cfg5 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg5 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v46) ↦{fullShare} dat.arrAt 2 (cfg5 a).N : sProp 𝕄)
      = (((c : Thread nD τ).loc main_v46) ↦{fullShare} W' main_v46) :=
    congrArg (fun f => (((c : Thread nD τ).loc main_v46) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate5

end
-- ==== Proof.K.Reg05.lean ====
import proofs.«418705_j10376640987952_2_alg».proof.Proof.K.PDats
import proofs.«418705_j10376640987952_2_alg».proof.Proof.K.Gate05

/-!
Pallas_call 5 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat5 (c : Dev nD) := Chunk5.dat (Tables.adm5 m hr) (fun c b => Chain.W11 m (leaves m hr) c b) c

/-- The tables' contents under the entry valuation are the admissible contents. -/
theorem tbl_entry5 (c : Dev nD) :
    (fun k => Chain.W11 m (leaves m hr) c (pre5.ref k)) = (Tables.adm5 m hr).1 :=
  funext fun k => Chain.W_tbl5 m (leaves m hr) c k

/-- The chain's contents of the result array after the call are the proof data's final array. -/
theorem out_entry5 (c : Dev nD) :
    Chain.W12 m (leaves m hr) c main_v46 = (dat5 m hr c).arrAt 2 (cfg5 (Tables.adm5 m hr)).N := by
  rw [Chain.W_out_5]
  dsimp only [leaves, leave5, dat5]

-- `iapply` of a library lemma stated over `pin pcs a p` unifies with the pinned configuration only when unification may
-- unfold plain definitions in a metavariable's type
set_option backward.isDefEq.respectTransparency.types false in
set_option maxHeartbeats 1600000 in
def reg5 : RegionSeg (pcfgs (F := F)) (adm m hr) (pdats m hr) () defs₀ Variants.none L₀ lv₀ 5 where
  win := winFacts₀5
  block_pos := block_pos5
  stage_whole := stage_whole5
  K := PEmpty
  osem k := k.elim
  ho := Pipeline.OwnSemFacts.none _
  hbody c := (Chunk5.body_obligation (Tables.adm5 m hr) (fun c b => Chain.W11 m (leaves m hr) c b) c).loose
  hwaits := Pipeline.hwaits_of_owed_zero _ _ _ _ L₀ lv₀ 5 fun _ _ => rfl
  pre c := iprop(StableHlo.held (c : Thread nD τ) (Pipeline.ucRefs τ sig) (Chain.W11 m (leaves m hr) c) ∗ E c)
  post c := iprop(StableHlo.held (c : Thread nD τ) (Pipeline.ucRefs τ sig) (Chain.W12 m (leaves m hr) c) ∗ E c)
  X _ := BI.emp
  Y c := Chunk5.tblsHeld (Tables.adm5 m hr) c
  Z c := Pipeline.unscopedRestP (Ix := Unit) (Name := ℕ) (U := UR sig nD τ) (Lvl := ℕ) pre5 spec5 c (fun b => Chain.W11 m (leaves m hr) c b)
  hentry c := by
    rw [Pipeline.ownSems0_none]
    have hent := Gate5.entry (Tables.adm5 m hr) c (dat5 m hr c) rfl rfl (Chain.W11 m (leaves m hr) c) (fun _ => rfl)
    rw [tbl_entry5 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 5 c).Φ 0 = iprop(Chunk5.tblsHeld (Tables.adm5 m hr) c
      ∗ Pipeline.scopedRest (Ix := Unit) (Name := ℕ) (U := UR sig nD τ) (Lvl := ℕ) (Val := Elt F) spec5 c) from rfl]
    iintro ⟨-, Hp, Hr⟩
    isplitl [Hp]; · iexact Hp
    iexact Hr
  hout c := by
    rw [Pipeline.ownSems0_none,
      show (pdats m hr 5 c).Φ (Fin.last _) = Chunk5.PhiS (Tables.adm5 m hr) (fun c b => Chain.W11 m (leaves m hr) c b) c
        (cfg5 (Tables.adm5 m hr)).N (le_refl _) from rfl,
      Chunk5.PhiS_pos _ _ c _ _ (by rw [Chunk5.N_eq]; decide),
      show (Pipeline.pin (pcfgs (F := F)) (adm m hr) 5).spec = spec5 from rfl, scopedRest5_split]
    iintro ⟨Hp, Hs, Hr⟩
    isplitl [Hp]; · iexact Hp
    isplitr; · iempintro
    isplitl [Hs]
    · iexists _; rw [← owns_whole]; iexact Hs
    iexact Hr
  hexit c := by
    have hex := Gate5.exit (Tables.adm5 m hr) c (dat5 m hr c) rfl rfl (Chain.W11 m (leaves m hr) c) (fun _ => rfl)
      (Chain.W12 m (leaves m hr) c) (out_entry5 m hr c) (Chain.W_keep_5 m (leaves m hr) c)
    rw [tbl_entry5 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate06.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate6

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec6) : Finset (Ref sig .tc)) = {main_v6, main_v53} := by decide

variable (a : (pcfg6 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec6 c V : sProp 𝕄)
      = iprop((((c : Thread nD τ).loc main_v6) ↦{fullShare} V main_v6) ∗ (((c : Thread nD τ).loc main_v53) ↦{fullShare} V main_v53)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg6 a) c)

/-- The pipeline's arrays, window by window: the input array at the two windows' shares, the output array whole. -/
theorem arrays_eq (hq0 : dat.q 0 = fullShare.left) (hq1 : dat.q 1 = fullShare.right)
    (Fv : (w : Fin (cfg6 a).W) → Buf (Elt F) (((cfg6 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v53) ↦{fullShare} Fv 2)) := by
  have s0 : dat.share (0 : Fin 3) = fullShare.left :=
    (if_neg (show ¬ ((cfg6 a).win (0 : Fin 3)).isOut = true from (by decide : ¬ (spec6 0).isOut = true))).trans hq0
  have s1 : dat.share (1 : Fin 3) = fullShare.right :=
    (if_neg (show ¬ ((cfg6 a).win (1 : Fin 3)).isOut = true from (by decide : ¬ (spec6 1).isOut = true))).trans hq1
  have s2 : dat.share (2 : Fin 3) = fullShare :=
    if_pos (show ((cfg6 a).win (2 : Fin 3)).isOut = true from (by decide : (spec6 2).isOut = true))
  unfold Pipeline.Dat.arrays
  rw [bigSep_W6, s0, s1, s2]
  exact congrArg₂ BI.sep (pt_whole c ((cfg6 a).win (0 : Fin 3)).arr (arr_whole6 0) _ (Fv 0))
    (congrArg₂ BI.sep (pt_whole c ((cfg6 a).win (1 : Fin 3)).arr (arr_whole6 1) _ (Fv 1))
      (pt_whole c ((cfg6 a).win (2 : Fin 3)).arr (arr_whole6 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec6 c V ∗ Pipeline.unscopedRest spec6 c V) := by
  classical
  have hA : Finset.univ.image (Pipeline.arrRef spec6) ⊆ Finset.univ.filter fun b : Ref sig .tc => ¬ b.isScoped := fun b hb => by
    obtain ⟨w, -, rfl⟩ := Finset.mem_image.mp hb
    exact Finset.mem_filter.mpr ⟨Finset.mem_univ _, by simp [winFacts₀6.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v53 → V' b = V b) :
    (Pipeline.unscopedRest (Ix := Unit) (Name := ℕ) (U := UR sig nD τ) (Lvl := ℕ) spec6 c V' : sProp 𝕄)
      = Pipeline.unscopedRest spec6 c V := by
  unfold Pipeline.unscopedRest
  exact bigSep_congr fun b hb => by
    have hb' : b ≠ main_v53 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec6 w)) :
    StableHlo.held (c : Thread nD τ) (Pipeline.ucRefs τ sig) W
      ⊢ (iprop(dat.arrays (dat.arrAt · 0) ∗ Pipeline.prefHeld pre6 c (fun _ => fullShare) (fun k => W (pre6.ref k))
          ∗ Pipeline.unscopedRestP pre6 spec6 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts6, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v53) ↦{fullShare} W main_v53 : sProp 𝕄)
      = (((c : Thread nD τ).loc main_v53) ↦{fullShare} dat.arrAt 2 0) :=
    congrArg (fun f => (((c : Thread nD τ).loc main_v53) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec6 w)) (W' : Valuation τ sig (Elt F))
    (hout : W' main_v53 = dat.arrAt 2 (cfg6 a).N) (hne : ∀ b : Ref sig .tc, b ≠ main_v53 → W' b = W b) :
    (iprop(dat.arrays (dat.arrAt · (cfg6 a).N) ∗ Pipeline.prefHeld pre6 c (fun _ => fullShare) (fun k => W (pre6.ref k))
        ∗ Pipeline.unscopedRestP pre6 spec6 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts6, arrays_eq a c dat hq0 hq1]
  refine sep_mono ?_ .rfl
  have h0 : dat.arrAt 0 (cfg6 a).N = W' main_v6 :=
    ((dat.arrAt_in 0 (by decide : (spec6 0).isOut = false) _).trans (hA 0)).trans (hne main_v6 (by decide)).symm
  have h1 : dat.arrAt 1 (cfg6 a).N = W' main_v6 :=
    ((dat.arrAt_in 1 (by decide : (spec6 1).isOut = false) _).trans (hA 1)).trans (hne main_v6 (by decide)).symm
  have p0 : (((c : Thread nD τ).loc main_v6) ↦{fullShare.left} dat.arrAt 0 (cfg6 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg6 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v53) ↦{fullShare} dat.arrAt 2 (cfg6 a).N : sProp 𝕄)
      = (((c : Thread nD τ).loc main_v53) ↦{fullShare} W' main_v53) :=
    congrArg (fun f => (((c : Thread nD τ).loc main_v53) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate6

end
-- ==== Proof.K.Reg06.lean ====
import proofs.«418705_j10376640987952_2_alg».proof.Proof.K.PDats
import proofs.«418705_j10376640987952_2_alg».proof.Proof.K.Gate06

/-!
Pallas_call 6 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat6 (c : Dev nD) := Chunk6.dat (Tables.adm6 m hr) (fun c b => Chain.W13 m (leaves m hr) c b) c

/-- The tables' contents under the entry valuation are the admissible contents. -/
theorem tbl_entry6 (c : Dev nD) :
    (fun k => Chain.W13 m (leaves m hr) c (pre6.ref k)) = (Tables.adm6 m hr).1 :=
  funext fun k => Chain.W_tbl6 m (leaves m hr) c k

/-- The chain's contents of the result array after the call are the proof data's final array. -/
theorem out_entry6 (c : Dev nD) :
    Chain.W14 m (leaves m hr) c main_v53 = (dat6 m hr c).arrAt 2 (cfg6 (Tables.adm6 m hr)).N := by
  rw [Chain.W_out_6]
  dsimp only [leaves, leave6, dat6]

-- `iapply` of a library lemma stated over `pin pcs a p` unifies with the pinned configuration only when unification may
-- unfold plain definitions in a metavariable's type
set_option backward.isDefEq.respectTransparency.types false in
set_option maxHeartbeats 1600000 in
def reg6 : RegionSeg (pcfgs (F := F)) (adm m hr) (pdats m hr) () defs₀ Variants.none L₀ lv₀ 6 where
  win := winFacts₀6
  block_pos := block_pos6
  stage_whole := stage_whole6
  K := PEmpty
  osem k := k.elim
  ho := Pipeline.OwnSemFacts.none _
  hbody c := (Chunk6.body_obligation (Tables.adm6 m hr) (fun c b => Chain.W13 m (leaves m hr) c b) c).loose
  hwaits := Pipeline.hwaits_of_owed_zero _ _ _ _ L₀ lv₀ 6 fun _ _ => rfl
  pre c := iprop(StableHlo.held (c : Thread nD τ) (Pipeline.ucRefs τ sig) (Chain.W13 m (leaves m hr) c) ∗ E c)
  post c := iprop(StableHlo.held (c : Thread nD τ) (Pipeline.ucRefs τ sig) (Chain.W14 m (leaves m hr) c) ∗ E c)
  X _ := BI.emp
  Y c := Chunk6.tblsHeld (Tables.adm6 m hr) c
  Z c := Pipeline.unscopedRestP (Ix := Unit) (Name := ℕ) (U := UR sig nD τ) (Lvl := ℕ) pre6 spec6 c (fun b => Chain.W13 m (leaves m hr) c b)
  hentry c := by
    rw [Pipeline.ownSems0_none]
    have hent := Gate6.entry (Tables.adm6 m hr) c (dat6 m hr c) rfl rfl (Chain.W13 m (leaves m hr) c) (fun _ => rfl)
    rw [tbl_entry6 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 6 c).Φ 0 = iprop(Chunk6.tblsHeld (Tables.adm6 m hr) c
      ∗ Pipeline.scopedRest (Ix := Unit) (Name := ℕ) (U := UR sig nD τ) (Lvl := ℕ) (Val := Elt F) spec6 c) from rfl]
    iintro ⟨-, Hp, Hr⟩
    isplitl [Hp]; · iexact Hp
    iexact Hr
  hout c := by
    rw [Pipeline.ownSems0_none,
      show (pdats m hr 6 c).Φ (Fin.last _) = Chunk6.PhiS (Tables.adm6 m hr) (fun c b => Chain.W13 m (leaves m hr) c b) c
        (cfg6 (Tables.adm6 m hr)).N (le_refl _) from rfl,
      Chunk6.PhiS_pos _ _ c _ _ (by rw [Chunk6.N_eq]; decide),
      show (Pipeline.pin (pcfgs (F := F)) (adm m hr) 6).spec = spec6 from rfl, scopedRest6_split]
    iintro ⟨Hp, Hs, Hr⟩
    isplitl [Hp]; · iexact Hp
    isplitr; · iempintro
    isplitl [Hs]
    · iexists _; rw [← owns_whole]; iexact Hs
    iexact Hr
  hexit c := by
    have hex := Gate6.exit (Tables.adm6 m hr) c (dat6 m hr c) rfl rfl (Chain.W13 m (leaves m hr) c) (fun _ => rfl)
      (Chain.W14 m (leaves m hr) c) (out_entry6 m hr c) (Chain.W_keep_6 m (leaves m hr) c)
    rw [tbl_entry6 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate07.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate7

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec7) : Finset (Ref sig .tc)) = {main_v6, main_v60} := by decide

variable (a : (pcfg7 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec7 c V : sProp 𝕄)
      = iprop((((c : Thread nD τ).loc main_v6) ↦{fullShare} V main_v6) ∗ (((c : Thread nD τ).loc main_v60) ↦{fullShare} V main_v60)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg7 a) c)

/-- The pipeline's arrays, window by window: the input array at the two windows' shares, the output array whole. -/
theorem arrays_eq (hq0 : dat.q 0 = fullShare.left) (hq1 : dat.q 1 = fullShare.right)
    (Fv : (w : Fin (cfg7 a).W) → Buf (Elt F) (((cfg7 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v60) ↦{fullShare} Fv 2)) := by
  have s0 : dat.share (0 : Fin 3) = fullShare.left :=
    (if_neg (show ¬ ((cfg7 a).win (0 : Fin 3)).isOut = true from (by decide : ¬ (spec7 0).isOut = true))).trans hq0
  have s1 : dat.share (1 : Fin 3) = fullShare.right :=
    (if_neg (show ¬ ((cfg7 a).win (1 : Fin 3)).isOut = true from (by decide : ¬ (spec7 1).isOut = true))).trans hq1
  have s2 : dat.share (2 : Fin 3) = fullShare :=
    if_pos (show ((cfg7 a).win (2 : Fin 3)).isOut = true from (by decide : (spec7 2).isOut = true))
  unfold Pipeline.Dat.arrays
  rw [bigSep_W7, s0, s1, s2]
  exact congrArg₂ BI.sep (pt_whole c ((cfg7 a).win (0 : Fin 3)).arr (arr_whole7 0) _ (Fv 0))
    (congrArg₂ BI.sep (pt_whole c ((cfg7 a).win (1 : Fin 3)).arr (arr_whole7 1) _ (Fv 1))
      (pt_whole c ((cfg7 a).win (2 : Fin 3)).arr (arr_whole7 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec7 c V ∗ Pipeline.unscopedRest spec7 c V) := by
  classical
  have hA : Finset.univ.image (Pipeline.arrRef spec7) ⊆ Finset.univ.filter fun b : Ref sig .tc => ¬ b.isScoped := fun b hb => by
    obtain ⟨w, -, rfl⟩ := Finset.mem_image.mp hb
    exact Finset.mem_filter.mpr ⟨Finset.mem_univ _, by simp [winFacts₀7.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v60 → V' b = V b) :
    (Pipeline.unscopedRest (Ix := Unit) (Name := ℕ) (U := UR sig nD τ) (Lvl := ℕ) spec7 c V' : sProp 𝕄)
      = Pipeline.unscopedRest spec7 c V := by
  unfold Pipeline.unscopedRest
  exact bigSep_congr fun b hb => by
    have hb' : b ≠ main_v60 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec7 w)) :
    StableHlo.held (c : Thread nD τ) (Pipeline.ucRefs τ sig) W
      ⊢ (iprop(dat.arrays (dat.arrAt · 0) ∗ Pipeline.prefHeld pre7 c (fun _ => fullShare) (fun k => W (pre7.ref k))
          ∗ Pipeline.unscopedRestP pre7 spec7 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts7, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v60) ↦{fullShare} W main_v60 : sProp 𝕄)
      = (((c : Thread nD τ).loc main_v60) ↦{fullShare} dat.arrAt 2 0) :=
    congrArg (fun f => (((c : Thread nD τ).loc main_v60) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec7 w)) (W' : Valuation τ sig (Elt F))
    (hout : W' main_v60 = dat.arrAt 2 (cfg7 a).N) (hne : ∀ b : Ref sig .tc, b ≠ main_v60 → W' b = W b) :
    (iprop(dat.arrays (dat.arrAt · (cfg7 a).N) ∗ Pipeline.prefHeld pre7 c (fun _ => fullShare) (fun k => W (pre7.ref k))
        ∗ Pipeline.unscopedRestP pre7 spec7 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts7, arrays_eq a c dat hq0 hq1]
  refine sep_mono ?_ .rfl
  have h0 : dat.arrAt 0 (cfg7 a).N = W' main_v6 :=
    ((dat.arrAt_in 0 (by decide : (spec7 0).isOut = false) _).trans (hA 0)).trans (hne main_v6 (by decide)).symm
  have h1 : dat.arrAt 1 (cfg7 a).N = W' main_v6 :=
    ((dat.arrAt_in 1 (by decide : (spec7 1).isOut = false) _).trans (hA 1)).trans (hne main_v6 (by decide)).symm
  have p0 : (((c : Thread nD τ).loc main_v6) ↦{fullShare.left} dat.arrAt 0 (cfg7 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg7 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v60) ↦{fullShare} dat.arrAt 2 (cfg7 a).N : sProp 𝕄)
      = (((c : Thread nD τ).loc main_v60) ↦{fullShare} W' main_v60) :=
    congrArg (fun f => (((c : Thread nD τ).loc main_v60) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate7

end
-- ==== Proof.K.Reg07.lean ====
import proofs.«418705_j10376640987952_2_alg».proof.Proof.K.PDats
import proofs.«418705_j10376640987952_2_alg».proof.Proof.K.Gate07

/-!
Pallas_call 7 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat7 (c : Dev nD) := Chunk7.dat (Tables.adm7 m hr) (fun c b => Chain.W15 m (leaves m hr) c b) c

/-- The tables' contents under the entry valuation are the admissible contents. -/
theorem tbl_entry7 (c : Dev nD) :
    (fun k => Chain.W15 m (leaves m hr) c (pre7.ref k)) = (Tables.adm7 m hr).1 :=
  funext fun k => Chain.W_tbl7 m (leaves m hr) c k

/-- The chain's contents of the result array after the call are the proof data's final array. -/
theorem out_entry7 (c : Dev nD) :
    Chain.W16 m (leaves m hr) c main_v60 = (dat7 m hr c).arrAt 2 (cfg7 (Tables.adm7 m hr)).N := by
  rw [Chain.W_out_7]
  dsimp only [leaves, leave7, dat7]

-- `iapply` of a library lemma stated over `pin pcs a p` unifies with the pinned configuration only when unification may
-- unfold plain definitions in a metavariable's type
set_option backward.isDefEq.respectTransparency.types false in
set_option maxHeartbeats 1600000 in
def reg7 : RegionSeg (pcfgs (F := F)) (adm m hr) (pdats m hr) () defs₀ Variants.none L₀ lv₀ 7 where
  win := winFacts₀7
  block_pos := block_pos7
  stage_whole := stage_whole7
  K := PEmpty
  osem k := k.elim
  ho := Pipeline.OwnSemFacts.none _
  hbody c := (Chunk7.body_obligation (Tables.adm7 m hr) (fun c b => Chain.W15 m (leaves m hr) c b) c).loose
  hwaits := Pipeline.hwaits_of_owed_zero _ _ _ _ L₀ lv₀ 7 fun _ _ => rfl
  pre c := iprop(StableHlo.held (c : Thread nD τ) (Pipeline.ucRefs τ sig) (Chain.W15 m (leaves m hr) c) ∗ E c)
  post c := iprop(StableHlo.held (c : Thread nD τ) (Pipeline.ucRefs τ sig) (Chain.W16 m (leaves m hr) c) ∗ E c)
  X _ := BI.emp
  Y c := Chunk7.tblsHeld (Tables.adm7 m hr) c
  Z c := Pipeline.unscopedRestP (Ix := Unit) (Name := ℕ) (U := UR sig nD τ) (Lvl := ℕ) pre7 spec7 c (fun b => Chain.W15 m (leaves m hr) c b)
  hentry c := by
    rw [Pipeline.ownSems0_none]
    have hent := Gate7.entry (Tables.adm7 m hr) c (dat7 m hr c) rfl rfl (Chain.W15 m (leaves m hr) c) (fun _ => rfl)
    rw [tbl_entry7 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 7 c).Φ 0 = iprop(Chunk7.tblsHeld (Tables.adm7 m hr) c
      ∗ Pipeline.scopedRest (Ix := Unit) (Name := ℕ) (U := UR sig nD τ) (Lvl := ℕ) (Val := Elt F) spec7 c) from rfl]
    iintro ⟨-, Hp, Hr⟩
    isplitl [Hp]; · iexact Hp
    iexact Hr
  hout c := by
    rw [Pipeline.ownSems0_none,
      show (pdats m hr 7 c).Φ (Fin.last _) = Chunk7.PhiS (Tables.adm7 m hr) (fun c b => Chain.W15 m (leaves m hr) c b) c
        (cfg7 (Tables.adm7 m hr)).N (le_refl _) from rfl,
      Chunk7.PhiS_pos _ _ c _ _ (by rw [Chunk7.N_eq]; decide),
      show (Pipeline.pin (pcfgs (F := F)) (adm m hr) 7).spec = spec7 from rfl, scopedRest7_split]
    iintro ⟨Hp, Hs, Hr⟩
    isplitl [Hp]; · iexact Hp
    isplitr; · iempintro
    isplitl [Hs]
    · iexists _; rw [← owns_whole]; iexact Hs
    iexact Hr
  hexit c := by
    have hex := Gate7.exit (Tables.adm7 m hr) c (dat7 m hr c) rfl rfl (Chain.W15 m (leaves m hr) c) (fun _ => rfl)
      (Chain.W16 m (leaves m hr) c) (out_entry7 m hr c) (Chain.W_keep_7 m (leaves m hr) c)
    rw [tbl_entry7 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate08.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate8

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec8) : Finset (Ref sig .tc)) = {main_v6, main_v67} := by decide

variable (a : (pcfg8 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec8 c V : sProp 𝕄)
      = iprop((((c : Thread nD τ).loc main_v6) ↦{fullShare} V main_v6) ∗ (((c : Thread nD τ).loc main_v67) ↦{fullShare} V main_v67)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg8 a) c)

/-- The pipeline's arrays, window by window: the input array at the two windows' shares, the output array whole. -/
theorem arrays_eq (hq0 : dat.q 0 = fullShare.left) (hq1 : dat.q 1 = fullShare.right)
    (Fv : (w : Fin (cfg8 a).W) → Buf (Elt F) (((cfg8 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v67) ↦{fullShare} Fv 2)) := by
  have s0 : dat.share (0 : Fin 3) = fullShare.left :=
    (if_neg (show ¬ ((cfg8 a).win (0 : Fin 3)).isOut = true from (by decide : ¬ (spec8 0).isOut = true))).trans hq0
  have s1 : dat.share (1 : Fin 3) = fullShare.right :=
    (if_neg (show ¬ ((cfg8 a).win (1 : Fin 3)).isOut = true from (by decide : ¬ (spec8 1).isOut = true))).trans hq1
  have s2 : dat.share (2 : Fin 3) = fullShare :=
    if_pos (show ((cfg8 a).win (2 : Fin 3)).isOut = true from (by decide : (spec8 2).isOut = true))
  unfold Pipeline.Dat.arrays
  rw [bigSep_W8, s0, s1, s2]
  exact congrArg₂ BI.sep (pt_whole c ((cfg8 a).win (0 : Fin 3)).arr (arr_whole8 0) _ (Fv 0))
    (congrArg₂ BI.sep (pt_whole c ((cfg8 a).win (1 : Fin 3)).arr (arr_whole8 1) _ (Fv 1))
      (pt_whole c ((cfg8 a).win (2 : Fin 3)).arr (arr_whole8 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec8 c V ∗ Pipeline.unscopedRest spec8 c V) := by
  classical
  have hA : Finset.univ.image (Pipeline.arrRef spec8) ⊆ Finset.univ.filter fun b : Ref sig .tc => ¬ b.isScoped := fun b hb => by
    obtain ⟨w, -, rfl⟩ := Finset.mem_image.mp hb
    exact Finset.mem_filter.mpr ⟨Finset.mem_univ _, by simp [winFacts₀8.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v67 → V' b = V b) :
    (Pipeline.unscopedRest (Ix := Unit) (Name := ℕ) (U := UR sig nD τ) (Lvl := ℕ) spec8 c V' : sProp 𝕄)
      = Pipeline.unscopedRest spec8 c V := by
  unfold Pipeline.unscopedRest
  exact bigSep_congr fun b hb => by
    have hb' : b ≠ main_v67 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec8 w)) :
    StableHlo.held (c : Thread nD τ) (Pipeline.ucRefs τ sig) W
      ⊢ (iprop(dat.arrays (dat.arrAt · 0) ∗ Pipeline.prefHeld pre8 c (fun _ => fullShare) (fun k => W (pre8.ref k))
          ∗ Pipeline.unscopedRestP pre8 spec8 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts8, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v67) ↦{fullShare} W main_v67 : sProp 𝕄)
      = (((c : Thread nD τ).loc main_v67) ↦{fullShare} dat.arrAt 2 0) :=
    congrArg (fun f => (((c : Thread nD τ).loc main_v67) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec8 w)) (W' : Valuation τ sig (Elt F))
    (hout : W' main_v67 = dat.arrAt 2 (cfg8 a).N) (hne : ∀ b : Ref sig .tc, b ≠ main_v67 → W' b = W b) :
    (iprop(dat.arrays (dat.arrAt · (cfg8 a).N) ∗ Pipeline.prefHeld pre8 c (fun _ => fullShare) (fun k => W (pre8.ref k))
        ∗ Pipeline.unscopedRestP pre8 spec8 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts8, arrays_eq a c dat hq0 hq1]
  refine sep_mono ?_ .rfl
  have h0 : dat.arrAt 0 (cfg8 a).N = W' main_v6 :=
    ((dat.arrAt_in 0 (by decide : (spec8 0).isOut = false) _).trans (hA 0)).trans (hne main_v6 (by decide)).symm
  have h1 : dat.arrAt 1 (cfg8 a).N = W' main_v6 :=
    ((dat.arrAt_in 1 (by decide : (spec8 1).isOut = false) _).trans (hA 1)).trans (hne main_v6 (by decide)).symm
  have p0 : (((c : Thread nD τ).loc main_v6) ↦{fullShare.left} dat.arrAt 0 (cfg8 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg8 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v67) ↦{fullShare} dat.arrAt 2 (cfg8 a).N : sProp 𝕄)
      = (((c : Thread nD τ).loc main_v67) ↦{fullShare} W' main_v67) :=
    congrArg (fun f => (((c : Thread nD τ).loc main_v67) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate8

end
-- ==== Proof.K.Reg08.lean ====
import proofs.«418705_j10376640987952_2_alg».proof.Proof.K.PDats
import proofs.«418705_j10376640987952_2_alg».proof.Proof.K.Gate08

/-!
Pallas_call 8 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat8 (c : Dev nD) := Chunk8.dat (Tables.adm8 m hr) (fun c b => Chain.W17 m (leaves m hr) c b) c

/-- The tables' contents under the entry valuation are the admissible contents. -/
theorem tbl_entry8 (c : Dev nD) :
    (fun k => Chain.W17 m (leaves m hr) c (pre8.ref k)) = (Tables.adm8 m hr).1 :=
  funext fun k => Chain.W_tbl8 m (leaves m hr) c k

/-- The chain's contents of the result array after the call are the proof data's final array. -/
theorem out_entry8 (c : Dev nD) :
    Chain.W18 m (leaves m hr) c main_v67 = (dat8 m hr c).arrAt 2 (cfg8 (Tables.adm8 m hr)).N := by
  rw [Chain.W_out_8]
  dsimp only [leaves, leave8, dat8]

-- `iapply` of a library lemma stated over `pin pcs a p` unifies with the pinned configuration only when unification may
-- unfold plain definitions in a metavariable's type
set_option backward.isDefEq.respectTransparency.types false in
set_option maxHeartbeats 1600000 in
def reg8 : RegionSeg (pcfgs (F := F)) (adm m hr) (pdats m hr) () defs₀ Variants.none L₀ lv₀ 8 where
  win := winFacts₀8
  block_pos := block_pos8
  stage_whole := stage_whole8
  K := PEmpty
  osem k := k.elim
  ho := Pipeline.OwnSemFacts.none _
  hbody c := (Chunk8.body_obligation (Tables.adm8 m hr) (fun c b => Chain.W17 m (leaves m hr) c b) c).loose
  hwaits := Pipeline.hwaits_of_owed_zero _ _ _ _ L₀ lv₀ 8 fun _ _ => rfl
  pre c := iprop(StableHlo.held (c : Thread nD τ) (Pipeline.ucRefs τ sig) (Chain.W17 m (leaves m hr) c) ∗ E c)
  post c := iprop(StableHlo.held (c : Thread nD τ) (Pipeline.ucRefs τ sig) (Chain.W18 m (leaves m hr) c) ∗ E c)
  X _ := BI.emp
  Y c := Chunk8.tblsHeld (Tables.adm8 m hr) c
  Z c := Pipeline.unscopedRestP (Ix := Unit) (Name := ℕ) (U := UR sig nD τ) (Lvl := ℕ) pre8 spec8 c (fun b => Chain.W17 m (leaves m hr) c b)
  hentry c := by
    rw [Pipeline.ownSems0_none]
    have hent := Gate8.entry (Tables.adm8 m hr) c (dat8 m hr c) rfl rfl (Chain.W17 m (leaves m hr) c) (fun _ => rfl)
    rw [tbl_entry8 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 8 c).Φ 0 = iprop(Chunk8.tblsHeld (Tables.adm8 m hr) c
      ∗ Pipeline.scopedRest (Ix := Unit) (Name := ℕ) (U := UR sig nD τ) (Lvl := ℕ) (Val := Elt F) spec8 c) from rfl]
    iintro ⟨-, Hp, Hr⟩
    isplitl [Hp]; · iexact Hp
    iexact Hr
  hout c := by
    rw [Pipeline.ownSems0_none,
      show (pdats m hr 8 c).Φ (Fin.last _) = Chunk8.PhiS (Tables.adm8 m hr) (fun c b => Chain.W17 m (leaves m hr) c b) c
        (cfg8 (Tables.adm8 m hr)).N (le_refl _) from rfl,
      Chunk8.PhiS_pos _ _ c _ _ (by rw [Chunk8.N_eq]; decide),
      show (Pipeline.pin (pcfgs (F := F)) (adm m hr) 8).spec = spec8 from rfl, scopedRest8_split]
    iintro ⟨Hp, Hs, Hr⟩
    isplitl [Hp]; · iexact Hp
    isplitr; · iempintro
    isplitl [Hs]
    · iexists _; rw [← owns_whole]; iexact Hs
    iexact Hr
  hexit c := by
    have hex := Gate8.exit (Tables.adm8 m hr) c (dat8 m hr c) rfl rfl (Chain.W17 m (leaves m hr) c) (fun _ => rfl)
      (Chain.W18 m (leaves m hr) c) (out_entry8 m hr c) (Chain.W_keep_8 m (leaves m hr) c)
    rw [tbl_entry8 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate09.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate9

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec9) : Finset (Ref sig .tc)) = {main_v6, main_v74} := by decide

variable (a : (pcfg9 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec9 c V : sProp 𝕄)
      = iprop((((c : Thread nD τ).loc main_v6) ↦{fullShare} V main_v6) ∗ (((c : Thread nD τ).loc main_v74) ↦{fullShare} V main_v74)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg9 a) c)

/-- The pipeline's arrays, window by window: the input array at the two windows' shares, the output array whole. -/
theorem arrays_eq (hq0 : dat.q 0 = fullShare.left) (hq1 : dat.q 1 = fullShare.right)
    (Fv : (w : Fin (cfg9 a).W) → Buf (Elt F) (((cfg9 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v74) ↦{fullShare} Fv 2)) := by
  have s0 : dat.share (0 : Fin 3) = fullShare.left :=
    (if_neg (show ¬ ((cfg9 a).win (0 : Fin 3)).isOut = true from (by decide : ¬ (spec9 0).isOut = true))).trans hq0
  have s1 : dat.share (1 : Fin 3) = fullShare.right :=
    (if_neg (show ¬ ((cfg9 a).win (1 : Fin 3)).isOut = true from (by decide : ¬ (spec9 1).isOut = true))).trans hq1
  have s2 : dat.share (2 : Fin 3) = fullShare :=
    if_pos (show ((cfg9 a).win (2 : Fin 3)).isOut = true from (by decide : (spec9 2).isOut = true))
  unfold Pipeline.Dat.arrays
  rw [bigSep_W9, s0, s1, s2]
  exact congrArg₂ BI.sep (pt_whole c ((cfg9 a).win (0 : Fin 3)).arr (arr_whole9 0) _ (Fv 0))
    (congrArg₂ BI.sep (pt_whole c ((cfg9 a).win (1 : Fin 3)).arr (arr_whole9 1) _ (Fv 1))
      (pt_whole c ((cfg9 a).win (2 : Fin 3)).arr (arr_whole9 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec9 c V ∗ Pipeline.unscopedRest spec9 c V) := by
  classical
  have hA : Finset.univ.image (Pipeline.arrRef spec9) ⊆ Finset.univ.filter fun b : Ref sig .tc => ¬ b.isScoped := fun b hb => by
    obtain ⟨w, -, rfl⟩ := Finset.mem_image.mp hb
    exact Finset.mem_filter.mpr ⟨Finset.mem_univ _, by simp [winFacts₀9.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v74 → V' b = V b) :
    (Pipeline.unscopedRest (Ix := Unit) (Name := ℕ) (U := UR sig nD τ) (Lvl := ℕ) spec9 c V' : sProp 𝕄)
      = Pipeline.unscopedRest spec9 c V := by
  unfold Pipeline.unscopedRest
  exact bigSep_congr fun b hb => by
    have hb' : b ≠ main_v74 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec9 w)) :
    StableHlo.held (c : Thread nD τ) (Pipeline.ucRefs τ sig) W
      ⊢ (iprop(dat.arrays (dat.arrAt · 0) ∗ Pipeline.prefHeld pre9 c (fun _ => fullShare) (fun k => W (pre9.ref k))
          ∗ Pipeline.unscopedRestP pre9 spec9 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts9, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v74) ↦{fullShare} W main_v74 : sProp 𝕄)
      = (((c : Thread nD τ).loc main_v74) ↦{fullShare} dat.arrAt 2 0) :=
    congrArg (fun f => (((c : Thread nD τ).loc main_v74) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec9 w)) (W' : Valuation τ sig (Elt F))
    (hout : W' main_v74 = dat.arrAt 2 (cfg9 a).N) (hne : ∀ b : Ref sig .tc, b ≠ main_v74 → W' b = W b) :
    (iprop(dat.arrays (dat.arrAt · (cfg9 a).N) ∗ Pipeline.prefHeld pre9 c (fun _ => fullShare) (fun k => W (pre9.ref k))
        ∗ Pipeline.unscopedRestP pre9 spec9 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts9, arrays_eq a c dat hq0 hq1]
  refine sep_mono ?_ .rfl
  have h0 : dat.arrAt 0 (cfg9 a).N = W' main_v6 :=
    ((dat.arrAt_in 0 (by decide : (spec9 0).isOut = false) _).trans (hA 0)).trans (hne main_v6 (by decide)).symm
  have h1 : dat.arrAt 1 (cfg9 a).N = W' main_v6 :=
    ((dat.arrAt_in 1 (by decide : (spec9 1).isOut = false) _).trans (hA 1)).trans (hne main_v6 (by decide)).symm
  have p0 : (((c : Thread nD τ).loc main_v6) ↦{fullShare.left} dat.arrAt 0 (cfg9 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg9 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v74) ↦{fullShare} dat.arrAt 2 (cfg9 a).N : sProp 𝕄)
      = (((c : Thread nD τ).loc main_v74) ↦{fullShare} W' main_v74) :=
    congrArg (fun f => (((c : Thread nD τ).loc main_v74) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate9

end
-- ==== Proof.K.Reg09.lean ====
import proofs.«418705_j10376640987952_2_alg».proof.Proof.K.PDats
import proofs.«418705_j10376640987952_2_alg».proof.Proof.K.Gate09

/-!
Pallas_call 9 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat9 (c : Dev nD) := Chunk9.dat (Tables.adm9 m hr) (fun c b => Chain.W19 m (leaves m hr) c b) c

/-- The tables' contents under the entry valuation are the admissible contents. -/
theorem tbl_entry9 (c : Dev nD) :
    (fun k => Chain.W19 m (leaves m hr) c (pre9.ref k)) = (Tables.adm9 m hr).1 :=
  funext fun k => Chain.W_tbl9 m (leaves m hr) c k

/-- The chain's contents of the result array after the call are the proof data's final array. -/
theorem out_entry9 (c : Dev nD) :
    Chain.W20 m (leaves m hr) c main_v74 = (dat9 m hr c).arrAt 2 (cfg9 (Tables.adm9 m hr)).N := by
  rw [Chain.W_out_9]
  dsimp only [leaves, leave9, dat9]

-- `iapply` of a library lemma stated over `pin pcs a p` unifies with the pinned configuration only when unification may
-- unfold plain definitions in a metavariable's type
set_option backward.isDefEq.respectTransparency.types false in
set_option maxHeartbeats 1600000 in
def reg9 : RegionSeg (pcfgs (F := F)) (adm m hr) (pdats m hr) () defs₀ Variants.none L₀ lv₀ 9 where
  win := winFacts₀9
  block_pos := block_pos9
  stage_whole := stage_whole9
  K := PEmpty
  osem k := k.elim
  ho := Pipeline.OwnSemFacts.none _
  hbody c := (Chunk9.body_obligation (Tables.adm9 m hr) (fun c b => Chain.W19 m (leaves m hr) c b) c).loose
  hwaits := Pipeline.hwaits_of_owed_zero _ _ _ _ L₀ lv₀ 9 fun _ _ => rfl
  pre c := iprop(StableHlo.held (c : Thread nD τ) (Pipeline.ucRefs τ sig) (Chain.W19 m (leaves m hr) c) ∗ E c)
  post c := iprop(StableHlo.held (c : Thread nD τ) (Pipeline.ucRefs τ sig) (Chain.W20 m (leaves m hr) c) ∗ E c)
  X _ := BI.emp
  Y c := Chunk9.tblsHeld (Tables.adm9 m hr) c
  Z c := Pipeline.unscopedRestP (Ix := Unit) (Name := ℕ) (U := UR sig nD τ) (Lvl := ℕ) pre9 spec9 c (fun b => Chain.W19 m (leaves m hr) c b)
  hentry c := by
    rw [Pipeline.ownSems0_none]
    have hent := Gate9.entry (Tables.adm9 m hr) c (dat9 m hr c) rfl rfl (Chain.W19 m (leaves m hr) c) (fun _ => rfl)
    rw [tbl_entry9 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 9 c).Φ 0 = iprop(Chunk9.tblsHeld (Tables.adm9 m hr) c
      ∗ Pipeline.scopedRest (Ix := Unit) (Name := ℕ) (U := UR sig nD τ) (Lvl := ℕ) (Val := Elt F) spec9 c) from rfl]
    iintro ⟨-, Hp, Hr⟩
    isplitl [Hp]; · iexact Hp
    iexact Hr
  hout c := by
    rw [Pipeline.ownSems0_none,
      show (pdats m hr 9 c).Φ (Fin.last _) = Chunk9.PhiS (Tables.adm9 m hr) (fun c b => Chain.W19 m (leaves m hr) c b) c
        (cfg9 (Tables.adm9 m hr)).N (le_refl _) from rfl,
      Chunk9.PhiS_pos _ _ c _ _ (by rw [Chunk9.N_eq]; decide),
      show (Pipeline.pin (pcfgs (F := F)) (adm m hr) 9).spec = spec9 from rfl, scopedRest9_split]
    iintro ⟨Hp, Hs, Hr⟩
    isplitl [Hp]; · iexact Hp
    isplitr; · iempintro
    isplitl [Hs]
    · iexists _; rw [← owns_whole]; iexact Hs
    iexact Hr
  hexit c := by
    have hex := Gate9.exit (Tables.adm9 m hr) c (dat9 m hr c) rfl rfl (Chain.W19 m (leaves m hr) c) (fun _ => rfl)
      (Chain.W20 m (leaves m hr) c) (out_entry9 m hr c) (Chain.W_keep_9 m (leaves m hr) c)
    rw [tbl_entry9 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate10.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate10

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec10) : Finset (Ref sig .tc)) = {main_v6, main_v81} := by decide

variable (a : (pcfg10 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec10 c V : sProp 𝕄)
      = iprop((((c : Thread nD τ).loc main_v6) ↦{fullShare} V main_v6) ∗ (((c : Thread nD τ).loc main_v81) ↦{fullShare} V main_v81)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg10 a) c)

/-- The pipeline's arrays, window by window: the input array at the two windows' shares, the output array whole. -/
theorem arrays_eq (hq0 : dat.q 0 = fullShare.left) (hq1 : dat.q 1 = fullShare.right)
    (Fv : (w : Fin (cfg10 a).W) → Buf (Elt F) (((cfg10 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v81) ↦{fullShare} Fv 2)) := by
  have s0 : dat.share (0 : Fin 3) = fullShare.left :=
    (if_neg (show ¬ ((cfg10 a).win (0 : Fin 3)).isOut = true from (by decide : ¬ (spec10 0).isOut = true))).trans hq0
  have s1 : dat.share (1 : Fin 3) = fullShare.right :=
    (if_neg (show ¬ ((cfg10 a).win (1 : Fin 3)).isOut = true from (by decide : ¬ (spec10 1).isOut = true))).trans hq1
  have s2 : dat.share (2 : Fin 3) = fullShare :=
    if_pos (show ((cfg10 a).win (2 : Fin 3)).isOut = true from (by decide : (spec10 2).isOut = true))
  unfold Pipeline.Dat.arrays
  rw [bigSep_W10, s0, s1, s2]
  exact congrArg₂ BI.sep (pt_whole c ((cfg10 a).win (0 : Fin 3)).arr (arr_whole10 0) _ (Fv 0))
    (congrArg₂ BI.sep (pt_whole c ((cfg10 a).win (1 : Fin 3)).arr (arr_whole10 1) _ (Fv 1))
      (pt_whole c ((cfg10 a).win (2 : Fin 3)).arr (arr_whole10 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec10 c V ∗ Pipeline.unscopedRest spec10 c V) := by
  classical
  have hA : Finset.univ.image (Pipeline.arrRef spec10) ⊆ Finset.univ.filter fun b : Ref sig .tc => ¬ b.isScoped := fun b hb => by
    obtain ⟨w, -, rfl⟩ := Finset.mem_image.mp hb
    exact Finset.mem_filter.mpr ⟨Finset.mem_univ _, by simp [winFacts₀10.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v81 → V' b = V b) :
    (Pipeline.unscopedRest (Ix := Unit) (Name := ℕ) (U := UR sig nD τ) (Lvl := ℕ) spec10 c V' : sProp 𝕄)
      = Pipeline.unscopedRest spec10 c V := by
  unfold Pipeline.unscopedRest
  exact bigSep_congr fun b hb => by
    have hb' : b ≠ main_v81 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec10 w)) :
    StableHlo.held (c : Thread nD τ) (Pipeline.ucRefs τ sig) W
      ⊢ (iprop(dat.arrays (dat.arrAt · 0) ∗ Pipeline.prefHeld pre10 c (fun _ => fullShare) (fun k => W (pre10.ref k))
          ∗ Pipeline.unscopedRestP pre10 spec10 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts10, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v81) ↦{fullShare} W main_v81 : sProp 𝕄)
      = (((c : Thread nD τ).loc main_v81) ↦{fullShare} dat.arrAt 2 0) :=
    congrArg (fun f => (((c : Thread nD τ).loc main_v81) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec10 w)) (W' : Valuation τ sig (Elt F))
    (hout : W' main_v81 = dat.arrAt 2 (cfg10 a).N) (hne : ∀ b : Ref sig .tc, b ≠ main_v81 → W' b = W b) :
    (iprop(dat.arrays (dat.arrAt · (cfg10 a).N) ∗ Pipeline.prefHeld pre10 c (fun _ => fullShare) (fun k => W (pre10.ref k))
        ∗ Pipeline.unscopedRestP pre10 spec10 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts10, arrays_eq a c dat hq0 hq1]
  refine sep_mono ?_ .rfl
  have h0 : dat.arrAt 0 (cfg10 a).N = W' main_v6 :=
    ((dat.arrAt_in 0 (by decide : (spec10 0).isOut = false) _).trans (hA 0)).trans (hne main_v6 (by decide)).symm
  have h1 : dat.arrAt 1 (cfg10 a).N = W' main_v6 :=
    ((dat.arrAt_in 1 (by decide : (spec10 1).isOut = false) _).trans (hA 1)).trans (hne main_v6 (by decide)).symm
  have p0 : (((c : Thread nD τ).loc main_v6) ↦{fullShare.left} dat.arrAt 0 (cfg10 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg10 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v81) ↦{fullShare} dat.arrAt 2 (cfg10 a).N : sProp 𝕄)
      = (((c : Thread nD τ).loc main_v81) ↦{fullShare} W' main_v81) :=
    congrArg (fun f => (((c : Thread nD τ).loc main_v81) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate10

end
-- ==== Proof.K.Reg10.lean ====
import proofs.«418705_j10376640987952_2_alg».proof.Proof.K.PDats
import proofs.«418705_j10376640987952_2_alg».proof.Proof.K.Gate10

/-!
Pallas_call 10 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat10 (c : Dev nD) := Chunk10.dat (Tables.adm10 m hr) (fun c b => Chain.W21 m (leaves m hr) c b) c

/-- The tables' contents under the entry valuation are the admissible contents. -/
theorem tbl_entry10 (c : Dev nD) :
    (fun k => Chain.W21 m (leaves m hr) c (pre10.ref k)) = (Tables.adm10 m hr).1 :=
  funext fun k => Chain.W_tbl10 m (leaves m hr) c k

/-- The chain's contents of the result array after the call are the proof data's final array. -/
theorem out_entry10 (c : Dev nD) :
    Chain.W22 m (leaves m hr) c main_v81 = (dat10 m hr c).arrAt 2 (cfg10 (Tables.adm10 m hr)).N := by
  rw [Chain.W_out_10]
  dsimp only [leaves, leave10, dat10]

-- `iapply` of a library lemma stated over `pin pcs a p` unifies with the pinned configuration only when unification may
-- unfold plain definitions in a metavariable's type
set_option backward.isDefEq.respectTransparency.types false in
set_option maxHeartbeats 1600000 in
def reg10 : RegionSeg (pcfgs (F := F)) (adm m hr) (pdats m hr) () defs₀ Variants.none L₀ lv₀ 10 where
  win := winFacts₀10
  block_pos := block_pos10
  stage_whole := stage_whole10
  K := PEmpty
  osem k := k.elim
  ho := Pipeline.OwnSemFacts.none _
  hbody c := (Chunk10.body_obligation (Tables.adm10 m hr) (fun c b => Chain.W21 m (leaves m hr) c b) c).loose
  hwaits := Pipeline.hwaits_of_owed_zero _ _ _ _ L₀ lv₀ 10 fun _ _ => rfl
  pre c := iprop(StableHlo.held (c : Thread nD τ) (Pipeline.ucRefs τ sig) (Chain.W21 m (leaves m hr) c) ∗ E c)
  post c := iprop(StableHlo.held (c : Thread nD τ) (Pipeline.ucRefs τ sig) (Chain.W22 m (leaves m hr) c) ∗ E c)
  X _ := BI.emp
  Y c := Chunk10.tblsHeld (Tables.adm10 m hr) c
  Z c := Pipeline.unscopedRestP (Ix := Unit) (Name := ℕ) (U := UR sig nD τ) (Lvl := ℕ) pre10 spec10 c (fun b => Chain.W21 m (leaves m hr) c b)
  hentry c := by
    rw [Pipeline.ownSems0_none]
    have hent := Gate10.entry (Tables.adm10 m hr) c (dat10 m hr c) rfl rfl (Chain.W21 m (leaves m hr) c) (fun _ => rfl)
    rw [tbl_entry10 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 10 c).Φ 0 = iprop(Chunk10.tblsHeld (Tables.adm10 m hr) c
      ∗ Pipeline.scopedRest (Ix := Unit) (Name := ℕ) (U := UR sig nD τ) (Lvl := ℕ) (Val := Elt F) spec10 c) from rfl]
    iintro ⟨-, Hp, Hr⟩
    isplitl [Hp]; · iexact Hp
    iexact Hr
  hout c := by
    rw [Pipeline.ownSems0_none,
      show (pdats m hr 10 c).Φ (Fin.last _) = Chunk10.PhiS (Tables.adm10 m hr) (fun c b => Chain.W21 m (leaves m hr) c b) c
        (cfg10 (Tables.adm10 m hr)).N (le_refl _) from rfl,
      Chunk10.PhiS_pos _ _ c _ _ (by rw [Chunk10.N_eq]; decide),
      show (Pipeline.pin (pcfgs (F := F)) (adm m hr) 10).spec = spec10 from rfl, scopedRest10_split]
    iintro ⟨Hp, Hs, Hr⟩
    isplitl [Hp]; · iexact Hp
    isplitr; · iempintro
    isplitl [Hs]
    · iexists _; rw [← owns_whole]; iexact Hs
    iexact Hr
  hexit c := by
    have hex := Gate10.exit (Tables.adm10 m hr) c (dat10 m hr c) rfl rfl (Chain.W21 m (leaves m hr) c) (fun _ => rfl)
      (Chain.W22 m (leaves m hr) c) (out_entry10 m hr c) (Chain.W_keep_10 m (leaves m hr) c)
    rw [tbl_entry10 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate11.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate11

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec11) : Finset (Ref sig .tc)) = {main_v6, main_v88} := by decide

variable (a : (pcfg11 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec11 c V : sProp 𝕄)
      = iprop((((c : Thread nD τ).loc main_v6) ↦{fullShare} V main_v6) ∗ (((c : Thread nD τ).loc main_v88) ↦{fullShare} V main_v88)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg11 a) c)

/-- The pipeline's arrays, window by window: the input array at the two windows' shares, the output array whole. -/
theorem arrays_eq (hq0 : dat.q 0 = fullShare.left) (hq1 : dat.q 1 = fullShare.right)
    (Fv : (w : Fin (cfg11 a).W) → Buf (Elt F) (((cfg11 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v88) ↦{fullShare} Fv 2)) := by
  have s0 : dat.share (0 : Fin 3) = fullShare.left :=
    (if_neg (show ¬ ((cfg11 a).win (0 : Fin 3)).isOut = true from (by decide : ¬ (spec11 0).isOut = true))).trans hq0
  have s1 : dat.share (1 : Fin 3) = fullShare.right :=
    (if_neg (show ¬ ((cfg11 a).win (1 : Fin 3)).isOut = true from (by decide : ¬ (spec11 1).isOut = true))).trans hq1
  have s2 : dat.share (2 : Fin 3) = fullShare :=
    if_pos (show ((cfg11 a).win (2 : Fin 3)).isOut = true from (by decide : (spec11 2).isOut = true))
  unfold Pipeline.Dat.arrays
  rw [bigSep_W11, s0, s1, s2]
  exact congrArg₂ BI.sep (pt_whole c ((cfg11 a).win (0 : Fin 3)).arr (arr_whole11 0) _ (Fv 0))
    (congrArg₂ BI.sep (pt_whole c ((cfg11 a).win (1 : Fin 3)).arr (arr_whole11 1) _ (Fv 1))
      (pt_whole c ((cfg11 a).win (2 : Fin 3)).arr (arr_whole11 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec11 c V ∗ Pipeline.unscopedRest spec11 c V) := by
  classical
  have hA : Finset.univ.image (Pipeline.arrRef spec11) ⊆ Finset.univ.filter fun b : Ref sig .tc => ¬ b.isScoped := fun b hb => by
    obtain ⟨w, -, rfl⟩ := Finset.mem_image.mp hb
    exact Finset.mem_filter.mpr ⟨Finset.mem_univ _, by simp [winFacts₀11.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v88 → V' b = V b) :
    (Pipeline.unscopedRest (Ix := Unit) (Name := ℕ) (U := UR sig nD τ) (Lvl := ℕ) spec11 c V' : sProp 𝕄)
      = Pipeline.unscopedRest spec11 c V := by
  unfold Pipeline.unscopedRest
  exact bigSep_congr fun b hb => by
    have hb' : b ≠ main_v88 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec11 w)) :
    StableHlo.held (c : Thread nD τ) (Pipeline.ucRefs τ sig) W
      ⊢ (iprop(dat.arrays (dat.arrAt · 0) ∗ Pipeline.prefHeld pre11 c (fun _ => fullShare) (fun k => W (pre11.ref k))
          ∗ Pipeline.unscopedRestP pre11 spec11 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts11, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v88) ↦{fullShare} W main_v88 : sProp 𝕄)
      = (((c : Thread nD τ).loc main_v88) ↦{fullShare} dat.arrAt 2 0) :=
    congrArg (fun f => (((c : Thread nD τ).loc main_v88) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec11 w)) (W' : Valuation τ sig (Elt F))
    (hout : W' main_v88 = dat.arrAt 2 (cfg11 a).N) (hne : ∀ b : Ref sig .tc, b ≠ main_v88 → W' b = W b) :
    (iprop(dat.arrays (dat.arrAt · (cfg11 a).N) ∗ Pipeline.prefHeld pre11 c (fun _ => fullShare) (fun k => W (pre11.ref k))
        ∗ Pipeline.unscopedRestP pre11 spec11 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts11, arrays_eq a c dat hq0 hq1]
  refine sep_mono ?_ .rfl
  have h0 : dat.arrAt 0 (cfg11 a).N = W' main_v6 :=
    ((dat.arrAt_in 0 (by decide : (spec11 0).isOut = false) _).trans (hA 0)).trans (hne main_v6 (by decide)).symm
  have h1 : dat.arrAt 1 (cfg11 a).N = W' main_v6 :=
    ((dat.arrAt_in 1 (by decide : (spec11 1).isOut = false) _).trans (hA 1)).trans (hne main_v6 (by decide)).symm
  have p0 : (((c : Thread nD τ).loc main_v6) ↦{fullShare.left} dat.arrAt 0 (cfg11 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg11 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v88) ↦{fullShare} dat.arrAt 2 (cfg11 a).N : sProp 𝕄)
      = (((c : Thread nD τ).loc main_v88) ↦{fullShare} W' main_v88) :=
    congrArg (fun f => (((c : Thread nD τ).loc main_v88) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate11

end
-- ==== Proof.K.Reg11.lean ====
import proofs.«418705_j10376640987952_2_alg».proof.Proof.K.PDats
import proofs.«418705_j10376640987952_2_alg».proof.Proof.K.Gate11

/-!
Pallas_call 11 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat11 (c : Dev nD) := Chunk11.dat (Tables.adm11 m hr) (fun c b => Chain.W23 m (leaves m hr) c b) c

/-- The tables' contents under the entry valuation are the admissible contents. -/
theorem tbl_entry11 (c : Dev nD) :
    (fun k => Chain.W23 m (leaves m hr) c (pre11.ref k)) = (Tables.adm11 m hr).1 :=
  funext fun k => Chain.W_tbl11 m (leaves m hr) c k

/-- The chain's contents of the result array after the call are the proof data's final array. -/
theorem out_entry11 (c : Dev nD) :
    Chain.W24 m (leaves m hr) c main_v88 = (dat11 m hr c).arrAt 2 (cfg11 (Tables.adm11 m hr)).N := by
  rw [Chain.W_out_11]
  dsimp only [leaves, leave11, dat11]

-- `iapply` of a library lemma stated over `pin pcs a p` unifies with the pinned configuration only when unification may
-- unfold plain definitions in a metavariable's type
set_option backward.isDefEq.respectTransparency.types false in
set_option maxHeartbeats 1600000 in
def reg11 : RegionSeg (pcfgs (F := F)) (adm m hr) (pdats m hr) () defs₀ Variants.none L₀ lv₀ 11 where
  win := winFacts₀11
  block_pos := block_pos11
  stage_whole := stage_whole11
  K := PEmpty
  osem k := k.elim
  ho := Pipeline.OwnSemFacts.none _
  hbody c := (Chunk11.body_obligation (Tables.adm11 m hr) (fun c b => Chain.W23 m (leaves m hr) c b) c).loose
  hwaits := Pipeline.hwaits_of_owed_zero _ _ _ _ L₀ lv₀ 11 fun _ _ => rfl
  pre c := iprop(StableHlo.held (c : Thread nD τ) (Pipeline.ucRefs τ sig) (Chain.W23 m (leaves m hr) c) ∗ E c)
  post c := iprop(StableHlo.held (c : Thread nD τ) (Pipeline.ucRefs τ sig) (Chain.W24 m (leaves m hr) c) ∗ E c)
  X _ := BI.emp
  Y c := Chunk11.tblsHeld (Tables.adm11 m hr) c
  Z c := Pipeline.unscopedRestP (Ix := Unit) (Name := ℕ) (U := UR sig nD τ) (Lvl := ℕ) pre11 spec11 c (fun b => Chain.W23 m (leaves m hr) c b)
  hentry c := by
    rw [Pipeline.ownSems0_none]
    have hent := Gate11.entry (Tables.adm11 m hr) c (dat11 m hr c) rfl rfl (Chain.W23 m (leaves m hr) c) (fun _ => rfl)
    rw [tbl_entry11 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 11 c).Φ 0 = iprop(Chunk11.tblsHeld (Tables.adm11 m hr) c
      ∗ Pipeline.scopedRest (Ix := Unit) (Name := ℕ) (U := UR sig nD τ) (Lvl := ℕ) (Val := Elt F) spec11 c) from rfl]
    iintro ⟨-, Hp, Hr⟩
    isplitl [Hp]; · iexact Hp
    iexact Hr
  hout c := by
    rw [Pipeline.ownSems0_none,
      show (pdats m hr 11 c).Φ (Fin.last _) = Chunk11.PhiS (Tables.adm11 m hr) (fun c b => Chain.W23 m (leaves m hr) c b) c
        (cfg11 (Tables.adm11 m hr)).N (le_refl _) from rfl,
      Chunk11.PhiS_pos _ _ c _ _ (by rw [Chunk11.N_eq]; decide),
      show (Pipeline.pin (pcfgs (F := F)) (adm m hr) 11).spec = spec11 from rfl, scopedRest11_split]
    iintro ⟨Hp, Hs, Hr⟩
    isplitl [Hp]; · iexact Hp
    isplitr; · iempintro
    isplitl [Hs]
    · iexists _; rw [← owns_whole]; iexact Hs
    iexact Hr
  hexit c := by
    have hex := Gate11.exit (Tables.adm11 m hr) c (dat11 m hr c) rfl rfl (Chain.W23 m (leaves m hr) c) (fun _ => rfl)
      (Chain.W24 m (leaves m hr) c) (out_entry11 m hr c) (Chain.W_keep_11 m (leaves m hr) c)
    rw [tbl_entry11 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate12.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate12

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec12) : Finset (Ref sig .tc)) = {main_v6, main_v95} := by decide

variable (a : (pcfg12 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec12 c V : sProp 𝕄)
      = iprop((((c : Thread nD τ).loc main_v6) ↦{fullShare} V main_v6) ∗ (((c : Thread nD τ).loc main_v95) ↦{fullShare} V main_v95)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg12 a) c)

/-- The pipeline's arrays, window by window: the input array at the two windows' shares, the output array whole. -/
theorem arrays_eq (hq0 : dat.q 0 = fullShare.left) (hq1 : dat.q 1 = fullShare.right)
    (Fv : (w : Fin (cfg12 a).W) → Buf (Elt F) (((cfg12 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v95) ↦{fullShare} Fv 2)) := by
  have s0 : dat.share (0 : Fin 3) = fullShare.left :=
    (if_neg (show ¬ ((cfg12 a).win (0 : Fin 3)).isOut = true from (by decide : ¬ (spec12 0).isOut = true))).trans hq0
  have s1 : dat.share (1 : Fin 3) = fullShare.right :=
    (if_neg (show ¬ ((cfg12 a).win (1 : Fin 3)).isOut = true from (by decide : ¬ (spec12 1).isOut = true))).trans hq1
  have s2 : dat.share (2 : Fin 3) = fullShare :=
    if_pos (show ((cfg12 a).win (2 : Fin 3)).isOut = true from (by decide : (spec12 2).isOut = true))
  unfold Pipeline.Dat.arrays
  rw [bigSep_W12, s0, s1, s2]
  exact congrArg₂ BI.sep (pt_whole c ((cfg12 a).win (0 : Fin 3)).arr (arr_whole12 0) _ (Fv 0))
    (congrArg₂ BI.sep (pt_whole c ((cfg12 a).win (1 : Fin 3)).arr (arr_whole12 1) _ (Fv 1))
      (pt_whole c ((cfg12 a).win (2 : Fin 3)).arr (arr_whole12 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec12 c V ∗ Pipeline.unscopedRest spec12 c V) := by
  classical
  have hA : Finset.univ.image (Pipeline.arrRef spec12) ⊆ Finset.univ.filter fun b : Ref sig .tc => ¬ b.isScoped := fun b hb => by
    obtain ⟨w, -, rfl⟩ := Finset.mem_image.mp hb
    exact Finset.mem_filter.mpr ⟨Finset.mem_univ _, by simp [winFacts₀12.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v95 → V' b = V b) :
    (Pipeline.unscopedRest (Ix := Unit) (Name := ℕ) (U := UR sig nD τ) (Lvl := ℕ) spec12 c V' : sProp 𝕄)
      = Pipeline.unscopedRest spec12 c V := by
  unfold Pipeline.unscopedRest
  exact bigSep_congr fun b hb => by
    have hb' : b ≠ main_v95 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec12 w)) :
    StableHlo.held (c : Thread nD τ) (Pipeline.ucRefs τ sig) W
      ⊢ (iprop(dat.arrays (dat.arrAt · 0) ∗ Pipeline.prefHeld pre12 c (fun _ => fullShare) (fun k => W (pre12.ref k))
          ∗ Pipeline.unscopedRestP pre12 spec12 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts12, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v95) ↦{fullShare} W main_v95 : sProp 𝕄)
      = (((c : Thread nD τ).loc main_v95) ↦{fullShare} dat.arrAt 2 0) :=
    congrArg (fun f => (((c : Thread nD τ).loc main_v95) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec12 w)) (W' : Valuation τ sig (Elt F))
    (hout : W' main_v95 = dat.arrAt 2 (cfg12 a).N) (hne : ∀ b : Ref sig .tc, b ≠ main_v95 → W' b = W b) :
    (iprop(dat.arrays (dat.arrAt · (cfg12 a).N) ∗ Pipeline.prefHeld pre12 c (fun _ => fullShare) (fun k => W (pre12.ref k))
        ∗ Pipeline.unscopedRestP pre12 spec12 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts12, arrays_eq a c dat hq0 hq1]
  refine sep_mono ?_ .rfl
  have h0 : dat.arrAt 0 (cfg12 a).N = W' main_v6 :=
    ((dat.arrAt_in 0 (by decide : (spec12 0).isOut = false) _).trans (hA 0)).trans (hne main_v6 (by decide)).symm
  have h1 : dat.arrAt 1 (cfg12 a).N = W' main_v6 :=
    ((dat.arrAt_in 1 (by decide : (spec12 1).isOut = false) _).trans (hA 1)).trans (hne main_v6 (by decide)).symm
  have p0 : (((c : Thread nD τ).loc main_v6) ↦{fullShare.left} dat.arrAt 0 (cfg12 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg12 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v95) ↦{fullShare} dat.arrAt 2 (cfg12 a).N : sProp 𝕄)
      = (((c : Thread nD τ).loc main_v95) ↦{fullShare} W' main_v95) :=
    congrArg (fun f => (((c : Thread nD τ).loc main_v95) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate12

end
-- ==== Proof.K.Reg12.lean ====
import proofs.«418705_j10376640987952_2_alg».proof.Proof.K.PDats
import proofs.«418705_j10376640987952_2_alg».proof.Proof.K.Gate12

/-!
Pallas_call 12 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat12 (c : Dev nD) := Chunk12.dat (Tables.adm12 m hr) (fun c b => Chain.W25 m (leaves m hr) c b) c

/-- The tables' contents under the entry valuation are the admissible contents. -/
theorem tbl_entry12 (c : Dev nD) :
    (fun k => Chain.W25 m (leaves m hr) c (pre12.ref k)) = (Tables.adm12 m hr).1 :=
  funext fun k => Chain.W_tbl12 m (leaves m hr) c k

/-- The chain's contents of the result array after the call are the proof data's final array. -/
theorem out_entry12 (c : Dev nD) :
    Chain.W26 m (leaves m hr) c main_v95 = (dat12 m hr c).arrAt 2 (cfg12 (Tables.adm12 m hr)).N := by
  rw [Chain.W_out_12]
  dsimp only [leaves, leave12, dat12]

-- `iapply` of a library lemma stated over `pin pcs a p` unifies with the pinned configuration only when unification may
-- unfold plain definitions in a metavariable's type
set_option backward.isDefEq.respectTransparency.types false in
set_option maxHeartbeats 1600000 in
def reg12 : RegionSeg (pcfgs (F := F)) (adm m hr) (pdats m hr) () defs₀ Variants.none L₀ lv₀ 12 where
  win := winFacts₀12
  block_pos := block_pos12
  stage_whole := stage_whole12
  K := PEmpty
  osem k := k.elim
  ho := Pipeline.OwnSemFacts.none _
  hbody c := (Chunk12.body_obligation (Tables.adm12 m hr) (fun c b => Chain.W25 m (leaves m hr) c b) c).loose
  hwaits := Pipeline.hwaits_of_owed_zero _ _ _ _ L₀ lv₀ 12 fun _ _ => rfl
  pre c := iprop(StableHlo.held (c : Thread nD τ) (Pipeline.ucRefs τ sig) (Chain.W25 m (leaves m hr) c) ∗ E c)
  post c := iprop(StableHlo.held (c : Thread nD τ) (Pipeline.ucRefs τ sig) (Chain.W26 m (leaves m hr) c) ∗ E c)
  X _ := BI.emp
  Y c := Chunk12.tblsHeld (Tables.adm12 m hr) c
  Z c := Pipeline.unscopedRestP (Ix := Unit) (Name := ℕ) (U := UR sig nD τ) (Lvl := ℕ) pre12 spec12 c (fun b => Chain.W25 m (leaves m hr) c b)
  hentry c := by
    rw [Pipeline.ownSems0_none]
    have hent := Gate12.entry (Tables.adm12 m hr) c (dat12 m hr c) rfl rfl (Chain.W25 m (leaves m hr) c) (fun _ => rfl)
    rw [tbl_entry12 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 12 c).Φ 0 = iprop(Chunk12.tblsHeld (Tables.adm12 m hr) c
      ∗ Pipeline.scopedRest (Ix := Unit) (Name := ℕ) (U := UR sig nD τ) (Lvl := ℕ) (Val := Elt F) spec12 c) from rfl]
    iintro ⟨-, Hp, Hr⟩
    isplitl [Hp]; · iexact Hp
    iexact Hr
  hout c := by
    rw [Pipeline.ownSems0_none,
      show (pdats m hr 12 c).Φ (Fin.last _) = Chunk12.PhiS (Tables.adm12 m hr) (fun c b => Chain.W25 m (leaves m hr) c b) c
        (cfg12 (Tables.adm12 m hr)).N (le_refl _) from rfl,
      Chunk12.PhiS_pos _ _ c _ _ (by rw [Chunk12.N_eq]; decide),
      show (Pipeline.pin (pcfgs (F := F)) (adm m hr) 12).spec = spec12 from rfl, scopedRest12_split]
    iintro ⟨Hp, Hs, Hr⟩
    isplitl [Hp]; · iexact Hp
    isplitr; · iempintro
    isplitl [Hs]
    · iexists _; rw [← owns_whole]; iexact Hs
    iexact Hr
  hexit c := by
    have hex := Gate12.exit (Tables.adm12 m hr) c (dat12 m hr c) rfl rfl (Chain.W25 m (leaves m hr) c) (fun _ => rfl)
      (Chain.W26 m (leaves m hr) c) (out_entry12 m hr c) (Chain.W_keep_12 m (leaves m hr) c)
    rw [tbl_entry12 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate13.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate13

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec13) : Finset (Ref sig .tc)) = {main_v6, main_v102} := by decide

variable (a : (pcfg13 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec13 c V : sProp 𝕄)
      = iprop((((c : Thread nD τ).loc main_v6) ↦{fullShare} V main_v6) ∗ (((c : Thread nD τ).loc main_v102) ↦{fullShare} V main_v102)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg13 a) c)

/-- The pipeline's arrays, window by window: the input array at the two windows' shares, the output array whole. -/
theorem arrays_eq (hq0 : dat.q 0 = fullShare.left) (hq1 : dat.q 1 = fullShare.right)
    (Fv : (w : Fin (cfg13 a).W) → Buf (Elt F) (((cfg13 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v102) ↦{fullShare} Fv 2)) := by
  have s0 : dat.share (0 : Fin 3) = fullShare.left :=
    (if_neg (show ¬ ((cfg13 a).win (0 : Fin 3)).isOut = true from (by decide : ¬ (spec13 0).isOut = true))).trans hq0
  have s1 : dat.share (1 : Fin 3) = fullShare.right :=
    (if_neg (show ¬ ((cfg13 a).win (1 : Fin 3)).isOut = true from (by decide : ¬ (spec13 1).isOut = true))).trans hq1
  have s2 : dat.share (2 : Fin 3) = fullShare :=
    if_pos (show ((cfg13 a).win (2 : Fin 3)).isOut = true from (by decide : (spec13 2).isOut = true))
  unfold Pipeline.Dat.arrays
  rw [bigSep_W13, s0, s1, s2]
  exact congrArg₂ BI.sep (pt_whole c ((cfg13 a).win (0 : Fin 3)).arr (arr_whole13 0) _ (Fv 0))
    (congrArg₂ BI.sep (pt_whole c ((cfg13 a).win (1 : Fin 3)).arr (arr_whole13 1) _ (Fv 1))
      (pt_whole c ((cfg13 a).win (2 : Fin 3)).arr (arr_whole13 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec13 c V ∗ Pipeline.unscopedRest spec13 c V) := by
  classical
  have hA : Finset.univ.image (Pipeline.arrRef spec13) ⊆ Finset.univ.filter fun b : Ref sig .tc => ¬ b.isScoped := fun b hb => by
    obtain ⟨w, -, rfl⟩ := Finset.mem_image.mp hb
    exact Finset.mem_filter.mpr ⟨Finset.mem_univ _, by simp [winFacts₀13.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v102 → V' b = V b) :
    (Pipeline.unscopedRest (Ix := Unit) (Name := ℕ) (U := UR sig nD τ) (Lvl := ℕ) spec13 c V' : sProp 𝕄)
      = Pipeline.unscopedRest spec13 c V := by
  unfold Pipeline.unscopedRest
  exact bigSep_congr fun b hb => by
    have hb' : b ≠ main_v102 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec13 w)) :
    StableHlo.held (c : Thread nD τ) (Pipeline.ucRefs τ sig) W
      ⊢ (iprop(dat.arrays (dat.arrAt · 0) ∗ Pipeline.prefHeld pre13 c (fun _ => fullShare) (fun k => W (pre13.ref k))
          ∗ Pipeline.unscopedRestP pre13 spec13 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts13, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v102) ↦{fullShare} W main_v102 : sProp 𝕄)
      = (((c : Thread nD τ).loc main_v102) ↦{fullShare} dat.arrAt 2 0) :=
    congrArg (fun f => (((c : Thread nD τ).loc main_v102) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec13 w)) (W' : Valuation τ sig (Elt F))
    (hout : W' main_v102 = dat.arrAt 2 (cfg13 a).N) (hne : ∀ b : Ref sig .tc, b ≠ main_v102 → W' b = W b) :
    (iprop(dat.arrays (dat.arrAt · (cfg13 a).N) ∗ Pipeline.prefHeld pre13 c (fun _ => fullShare) (fun k => W (pre13.ref k))
        ∗ Pipeline.unscopedRestP pre13 spec13 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts13, arrays_eq a c dat hq0 hq1]
  refine sep_mono ?_ .rfl
  have h0 : dat.arrAt 0 (cfg13 a).N = W' main_v6 :=
    ((dat.arrAt_in 0 (by decide : (spec13 0).isOut = false) _).trans (hA 0)).trans (hne main_v6 (by decide)).symm
  have h1 : dat.arrAt 1 (cfg13 a).N = W' main_v6 :=
    ((dat.arrAt_in 1 (by decide : (spec13 1).isOut = false) _).trans (hA 1)).trans (hne main_v6 (by decide)).symm
  have p0 : (((c : Thread nD τ).loc main_v6) ↦{fullShare.left} dat.arrAt 0 (cfg13 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg13 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v102) ↦{fullShare} dat.arrAt 2 (cfg13 a).N : sProp 𝕄)
      = (((c : Thread nD τ).loc main_v102) ↦{fullShare} W' main_v102) :=
    congrArg (fun f => (((c : Thread nD τ).loc main_v102) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate13

end
-- ==== Proof.K.Reg13.lean ====
import proofs.«418705_j10376640987952_2_alg».proof.Proof.K.PDats
import proofs.«418705_j10376640987952_2_alg».proof.Proof.K.Gate13

/-!
Pallas_call 13 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat13 (c : Dev nD) := Chunk13.dat (Tables.adm13 m hr) (fun c b => Chain.W27 m (leaves m hr) c b) c

/-- The tables' contents under the entry valuation are the admissible contents. -/
theorem tbl_entry13 (c : Dev nD) :
    (fun k => Chain.W27 m (leaves m hr) c (pre13.ref k)) = (Tables.adm13 m hr).1 :=
  funext fun k => Chain.W_tbl13 m (leaves m hr) c k

/-- The chain's contents of the result array after the call are the proof data's final array. -/
theorem out_entry13 (c : Dev nD) :
    Chain.W28 m (leaves m hr) c main_v102 = (dat13 m hr c).arrAt 2 (cfg13 (Tables.adm13 m hr)).N := by
  rw [Chain.W_out_13]
  dsimp only [leaves, leave13, dat13]

-- `iapply` of a library lemma stated over `pin pcs a p` unifies with the pinned configuration only when unification may
-- unfold plain definitions in a metavariable's type
set_option backward.isDefEq.respectTransparency.types false in
set_option maxHeartbeats 1600000 in
def reg13 : RegionSeg (pcfgs (F := F)) (adm m hr) (pdats m hr) () defs₀ Variants.none L₀ lv₀ 13 where
  win := winFacts₀13
  block_pos := block_pos13
  stage_whole := stage_whole13
  K := PEmpty
  osem k := k.elim
  ho := Pipeline.OwnSemFacts.none _
  hbody c := (Chunk13.body_obligation (Tables.adm13 m hr) (fun c b => Chain.W27 m (leaves m hr) c b) c).loose
  hwaits := Pipeline.hwaits_of_owed_zero _ _ _ _ L₀ lv₀ 13 fun _ _ => rfl
  pre c := iprop(StableHlo.held (c : Thread nD τ) (Pipeline.ucRefs τ sig) (Chain.W27 m (leaves m hr) c) ∗ E c)
  post c := iprop(StableHlo.held (c : Thread nD τ) (Pipeline.ucRefs τ sig) (Chain.W28 m (leaves m hr) c) ∗ E c)
  X _ := BI.emp
  Y c := Chunk13.tblsHeld (Tables.adm13 m hr) c
  Z c := Pipeline.unscopedRestP (Ix := Unit) (Name := ℕ) (U := UR sig nD τ) (Lvl := ℕ) pre13 spec13 c (fun b => Chain.W27 m (leaves m hr) c b)
  hentry c := by
    rw [Pipeline.ownSems0_none]
    have hent := Gate13.entry (Tables.adm13 m hr) c (dat13 m hr c) rfl rfl (Chain.W27 m (leaves m hr) c) (fun _ => rfl)
    rw [tbl_entry13 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 13 c).Φ 0 = iprop(Chunk13.tblsHeld (Tables.adm13 m hr) c
      ∗ Pipeline.scopedRest (Ix := Unit) (Name := ℕ) (U := UR sig nD τ) (Lvl := ℕ) (Val := Elt F) spec13 c) from rfl]
    iintro ⟨-, Hp, Hr⟩
    isplitl [Hp]; · iexact Hp
    iexact Hr
  hout c := by
    rw [Pipeline.ownSems0_none,
      show (pdats m hr 13 c).Φ (Fin.last _) = Chunk13.PhiS (Tables.adm13 m hr) (fun c b => Chain.W27 m (leaves m hr) c b) c
        (cfg13 (Tables.adm13 m hr)).N (le_refl _) from rfl,
      Chunk13.PhiS_pos _ _ c _ _ (by rw [Chunk13.N_eq]; decide),
      show (Pipeline.pin (pcfgs (F := F)) (adm m hr) 13).spec = spec13 from rfl, scopedRest13_split]
    iintro ⟨Hp, Hs, Hr⟩
    isplitl [Hp]; · iexact Hp
    isplitr; · iempintro
    isplitl [Hs]
    · iexists _; rw [← owns_whole]; iexact Hs
    iexact Hr
  hexit c := by
    have hex := Gate13.exit (Tables.adm13 m hr) c (dat13 m hr c) rfl rfl (Chain.W27 m (leaves m hr) c) (fun _ => rfl)
      (Chain.W28 m (leaves m hr) c) (out_entry13 m hr c) (Chain.W_keep_13 m (leaves m hr) c)
    rw [tbl_entry13 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate14.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate14

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec14) : Finset (Ref sig .tc)) = {main_v6, main_v109} := by decide

variable (a : (pcfg14 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec14 c V : sProp 𝕄)
      = iprop((((c : Thread nD τ).loc main_v6) ↦{fullShare} V main_v6) ∗ (((c : Thread nD τ).loc main_v109) ↦{fullShare} V main_v109)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg14 a) c)

/-- The pipeline's arrays, window by window: the input array at the two windows' shares, the output array whole. -/
theorem arrays_eq (hq0 : dat.q 0 = fullShare.left) (hq1 : dat.q 1 = fullShare.right)
    (Fv : (w : Fin (cfg14 a).W) → Buf (Elt F) (((cfg14 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v109) ↦{fullShare} Fv 2)) := by
  have s0 : dat.share (0 : Fin 3) = fullShare.left :=
    (if_neg (show ¬ ((cfg14 a).win (0 : Fin 3)).isOut = true from (by decide : ¬ (spec14 0).isOut = true))).trans hq0
  have s1 : dat.share (1 : Fin 3) = fullShare.right :=
    (if_neg (show ¬ ((cfg14 a).win (1 : Fin 3)).isOut = true from (by decide : ¬ (spec14 1).isOut = true))).trans hq1
  have s2 : dat.share (2 : Fin 3) = fullShare :=
    if_pos (show ((cfg14 a).win (2 : Fin 3)).isOut = true from (by decide : (spec14 2).isOut = true))
  unfold Pipeline.Dat.arrays
  rw [bigSep_W14, s0, s1, s2]
  exact congrArg₂ BI.sep (pt_whole c ((cfg14 a).win (0 : Fin 3)).arr (arr_whole14 0) _ (Fv 0))
    (congrArg₂ BI.sep (pt_whole c ((cfg14 a).win (1 : Fin 3)).arr (arr_whole14 1) _ (Fv 1))
      (pt_whole c ((cfg14 a).win (2 : Fin 3)).arr (arr_whole14 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec14 c V ∗ Pipeline.unscopedRest spec14 c V) := by
  classical
  have hA : Finset.univ.image (Pipeline.arrRef spec14) ⊆ Finset.univ.filter fun b : Ref sig .tc => ¬ b.isScoped := fun b hb => by
    obtain ⟨w, -, rfl⟩ := Finset.mem_image.mp hb
    exact Finset.mem_filter.mpr ⟨Finset.mem_univ _, by simp [winFacts₀14.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v109 → V' b = V b) :
    (Pipeline.unscopedRest (Ix := Unit) (Name := ℕ) (U := UR sig nD τ) (Lvl := ℕ) spec14 c V' : sProp 𝕄)
      = Pipeline.unscopedRest spec14 c V := by
  unfold Pipeline.unscopedRest
  exact bigSep_congr fun b hb => by
    have hb' : b ≠ main_v109 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec14 w)) :
    StableHlo.held (c : Thread nD τ) (Pipeline.ucRefs τ sig) W
      ⊢ (iprop(dat.arrays (dat.arrAt · 0) ∗ Pipeline.prefHeld pre14 c (fun _ => fullShare) (fun k => W (pre14.ref k))
          ∗ Pipeline.unscopedRestP pre14 spec14 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts14, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v109) ↦{fullShare} W main_v109 : sProp 𝕄)
      = (((c : Thread nD τ).loc main_v109) ↦{fullShare} dat.arrAt 2 0) :=
    congrArg (fun f => (((c : Thread nD τ).loc main_v109) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec14 w)) (W' : Valuation τ sig (Elt F))
    (hout : W' main_v109 = dat.arrAt 2 (cfg14 a).N) (hne : ∀ b : Ref sig .tc, b ≠ main_v109 → W' b = W b) :
    (iprop(dat.arrays (dat.arrAt · (cfg14 a).N) ∗ Pipeline.prefHeld pre14 c (fun _ => fullShare) (fun k => W (pre14.ref k))
        ∗ Pipeline.unscopedRestP pre14 spec14 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts14, arrays_eq a c dat hq0 hq1]
  refine sep_mono ?_ .rfl
  have h0 : dat.arrAt 0 (cfg14 a).N = W' main_v6 :=
    ((dat.arrAt_in 0 (by decide : (spec14 0).isOut = false) _).trans (hA 0)).trans (hne main_v6 (by decide)).symm
  have h1 : dat.arrAt 1 (cfg14 a).N = W' main_v6 :=
    ((dat.arrAt_in 1 (by decide : (spec14 1).isOut = false) _).trans (hA 1)).trans (hne main_v6 (by decide)).symm
  have p0 : (((c : Thread nD τ).loc main_v6) ↦{fullShare.left} dat.arrAt 0 (cfg14 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg14 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v109) ↦{fullShare} dat.arrAt 2 (cfg14 a).N : sProp 𝕄)
      = (((c : Thread nD τ).loc main_v109) ↦{fullShare} W' main_v109) :=
    congrArg (fun f => (((c : Thread nD τ).loc main_v109) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate14

end
-- ==== Proof.K.Reg14.lean ====
import proofs.«418705_j10376640987952_2_alg».proof.Proof.K.PDats
import proofs.«418705_j10376640987952_2_alg».proof.Proof.K.Gate14

/-!
Pallas_call 14 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat14 (c : Dev nD) := Chunk14.dat (Tables.adm14 m hr) (fun c b => Chain.W29 m (leaves m hr) c b) c

/-- The tables' contents under the entry valuation are the admissible contents. -/
theorem tbl_entry14 (c : Dev nD) :
    (fun k => Chain.W29 m (leaves m hr) c (pre14.ref k)) = (Tables.adm14 m hr).1 :=
  funext fun k => Chain.W_tbl14 m (leaves m hr) c k

/-- The chain's contents of the result array after the call are the proof data's final array. -/
theorem out_entry14 (c : Dev nD) :
    Chain.W30 m (leaves m hr) c main_v109 = (dat14 m hr c).arrAt 2 (cfg14 (Tables.adm14 m hr)).N := by
  rw [Chain.W_out_14]
  dsimp only [leaves, leave14, dat14]

-- `iapply` of a library lemma stated over `pin pcs a p` unifies with the pinned configuration only when unification may
-- unfold plain definitions in a metavariable's type
set_option backward.isDefEq.respectTransparency.types false in
set_option maxHeartbeats 1600000 in
def reg14 : RegionSeg (pcfgs (F := F)) (adm m hr) (pdats m hr) () defs₀ Variants.none L₀ lv₀ 14 where
  win := winFacts₀14
  block_pos := block_pos14
  stage_whole := stage_whole14
  K := PEmpty
  osem k := k.elim
  ho := Pipeline.OwnSemFacts.none _
  hbody c := (Chunk14.body_obligation (Tables.adm14 m hr) (fun c b => Chain.W29 m (leaves m hr) c b) c).loose
  hwaits := Pipeline.hwaits_of_owed_zero _ _ _ _ L₀ lv₀ 14 fun _ _ => rfl
  pre c := iprop(StableHlo.held (c : Thread nD τ) (Pipeline.ucRefs τ sig) (Chain.W29 m (leaves m hr) c) ∗ E c)
  post c := iprop(StableHlo.held (c : Thread nD τ) (Pipeline.ucRefs τ sig) (Chain.W30 m (leaves m hr) c) ∗ E c)
  X _ := BI.emp
  Y c := Chunk14.tblsHeld (Tables.adm14 m hr) c
  Z c := Pipeline.unscopedRestP (Ix := Unit) (Name := ℕ) (U := UR sig nD τ) (Lvl := ℕ) pre14 spec14 c (fun b => Chain.W29 m (leaves m hr) c b)
  hentry c := by
    rw [Pipeline.ownSems0_none]
    have hent := Gate14.entry (Tables.adm14 m hr) c (dat14 m hr c) rfl rfl (Chain.W29 m (leaves m hr) c) (fun _ => rfl)
    rw [tbl_entry14 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 14 c).Φ 0 = iprop(Chunk14.tblsHeld (Tables.adm14 m hr) c
      ∗ Pipeline.scopedRest (Ix := Unit) (Name := ℕ) (U := UR sig nD τ) (Lvl := ℕ) (Val := Elt F) spec14 c) from rfl]
    iintro ⟨-, Hp, Hr⟩
    isplitl [Hp]; · iexact Hp
    iexact Hr
  hout c := by
    rw [Pipeline.ownSems0_none,
      show (pdats m hr 14 c).Φ (Fin.last _) = Chunk14.PhiS (Tables.adm14 m hr) (fun c b => Chain.W29 m (leaves m hr) c b) c
        (cfg14 (Tables.adm14 m hr)).N (le_refl _) from rfl,
      Chunk14.PhiS_pos _ _ c _ _ (by rw [Chunk14.N_eq]; decide),
      show (Pipeline.pin (pcfgs (F := F)) (adm m hr) 14).spec = spec14 from rfl, scopedRest14_split]
    iintro ⟨Hp, Hs, Hr⟩
    isplitl [Hp]; · iexact Hp
    isplitr; · iempintro
    isplitl [Hs]
    · iexists _; rw [← owns_whole]; iexact Hs
    iexact Hr
  hexit c := by
    have hex := Gate14.exit (Tables.adm14 m hr) c (dat14 m hr c) rfl rfl (Chain.W29 m (leaves m hr) c) (fun _ => rfl)
      (Chain.W30 m (leaves m hr) c) (out_entry14 m hr c) (Chain.W_keep_14 m (leaves m hr) c)
    rw [tbl_entry14 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.Gate15.lean ====
import proofs.«418705_j10376640987952_2_alg».proof.Proof.Gen.Kernel.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.Kernel.Gate15

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec15) : Finset (Ref sig .tc)) = {main_v6, main_v116} := by decide

variable (a : (pcfg15 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec15 c V : sProp 𝕄)
      = iprop((((c : Thread nD τ).loc main_v6) ↦{fullShare} V main_v6) ∗ (((c : Thread nD τ).loc main_v116) ↦{fullShare} V main_v116)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg15 a) c)

/-- The pipeline's arrays, window by window: the input array at the two windows' shares, the output array whole. -/
theorem arrays_eq (hq0 : dat.q 0 = fullShare.left) (hq1 : dat.q 1 = fullShare.right)
    (Fv : (w : Fin (cfg15 a).W) → Buf (Elt F) (((cfg15 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v116) ↦{fullShare} Fv 2)) := by
  have s0 : dat.share (0 : Fin 3) = fullShare.left :=
    (if_neg (show ¬ ((cfg15 a).win (0 : Fin 3)).isOut = true from (by decide : ¬ (spec15 0).isOut = true))).trans hq0
  have s1 : dat.share (1 : Fin 3) = fullShare.right :=
    (if_neg (show ¬ ((cfg15 a).win (1 : Fin 3)).isOut = true from (by decide : ¬ (spec15 1).isOut = true))).trans hq1
  have s2 : dat.share (2 : Fin 3) = fullShare :=
    if_pos (show ((cfg15 a).win (2 : Fin 3)).isOut = true from (by decide : (spec15 2).isOut = true))
  unfold Pipeline.Dat.arrays
  rw [bigSep_W15, s0, s1, s2]
  exact congrArg₂ BI.sep (pt_whole c ((cfg15 a).win (0 : Fin 3)).arr (arr_whole15 0) _ (Fv 0))
    (congrArg₂ BI.sep (pt_whole c ((cfg15 a).win (1 : Fin 3)).arr (arr_whole15 1) _ (Fv 1))
      (pt_whole c ((cfg15 a).win (2 : Fin 3)).arr (arr_whole15 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec15 c V ∗ Pipeline.unscopedRest spec15 c V) := by
  classical
  have hA : Finset.univ.image (Pipeline.arrRef spec15) ⊆ Finset.univ.filter fun b : Ref sig .tc => ¬ b.isScoped := fun b hb => by
    obtain ⟨w, -, rfl⟩ := Finset.mem_image.mp hb
    exact Finset.mem_filter.mpr ⟨Finset.mem_univ _, by simp [winFacts₀15.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v116 → V' b = V b) :
    (Pipeline.unscopedRest (Ix := Unit) (Name := ℕ) (U := UR sig nD τ) (Lvl := ℕ) spec15 c V' : sProp 𝕄)
      = Pipeline.unscopedRest spec15 c V := by
  unfold Pipeline.unscopedRest
  exact bigSep_congr fun b hb => by
    have hb' : b ≠ main_v116 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec15 w)) :
    StableHlo.held (c : Thread nD τ) (Pipeline.ucRefs τ sig) W
      ⊢ (iprop(dat.arrays (dat.arrAt · 0) ∗ Pipeline.prefHeld pre15 c (fun _ => fullShare) (fun k => W (pre15.ref k))
          ∗ Pipeline.unscopedRestP pre15 spec15 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts15, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v116) ↦{fullShare} W main_v116 : sProp 𝕄)
      = (((c : Thread nD τ).loc main_v116) ↦{fullShare} dat.arrAt 2 0) :=
    congrArg (fun f => (((c : Thread nD τ).loc main_v116) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec15 w)) (W' : Valuation τ sig (Elt F))
    (hout : W' main_v116 = dat.arrAt 2 (cfg15 a).N) (hne : ∀ b : Ref sig .tc, b ≠ main_v116 → W' b = W b) :
    (iprop(dat.arrays (dat.arrAt · (cfg15 a).N) ∗ Pipeline.prefHeld pre15 c (fun _ => fullShare) (fun k => W (pre15.ref k))
        ∗ Pipeline.unscopedRestP pre15 spec15 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts15, arrays_eq a c dat hq0 hq1]
  refine sep_mono ?_ .rfl
  have h0 : dat.arrAt 0 (cfg15 a).N = W' main_v6 :=
    ((dat.arrAt_in 0 (by decide : (spec15 0).isOut = false) _).trans (hA 0)).trans (hne main_v6 (by decide)).symm
  have h1 : dat.arrAt 1 (cfg15 a).N = W' main_v6 :=
    ((dat.arrAt_in 1 (by decide : (spec15 1).isOut = false) _).trans (hA 1)).trans (hne main_v6 (by decide)).symm
  have p0 : (((c : Thread nD τ).loc main_v6) ↦{fullShare.left} dat.arrAt 0 (cfg15 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg15 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v116) ↦{fullShare} dat.arrAt 2 (cfg15 a).N : sProp 𝕄)
      = (((c : Thread nD τ).loc main_v116) ↦{fullShare} W' main_v116) :=
    congrArg (fun f => (((c : Thread nD τ).loc main_v116) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.Kernel.Gate15

end
-- ==== Proof.K.Reg15.lean ====
import proofs.«418705_j10376640987952_2_alg».proof.Proof.K.PDats
import proofs.«418705_j10376640987952_2_alg».proof.Proof.K.Gate15

/-!
Pallas_call 15 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat15 (c : Dev nD) := Chunk15.dat (Tables.adm15 m hr) (fun c b => Chain.W31 m (leaves m hr) c b) c

/-- The tables' contents under the entry valuation are the admissible contents. -/
theorem tbl_entry15 (c : Dev nD) :
    (fun k => Chain.W31 m (leaves m hr) c (pre15.ref k)) = (Tables.adm15 m hr).1 :=
  funext fun k => Chain.W_tbl15 m (leaves m hr) c k

/-- The chain's contents of the result array after the call are the proof data's final array. -/
theorem out_entry15 (c : Dev nD) :
    Chain.W32 m (leaves m hr) c main_v116 = (dat15 m hr c).arrAt 2 (cfg15 (Tables.adm15 m hr)).N := by
  rw [Chain.W_out_15]
  dsimp only [leaves, leave15, dat15]

-- `iapply` of a library lemma stated over `pin pcs a p` unifies with the pinned configuration only when unification may
-- unfold plain definitions in a metavariable's type
set_option backward.isDefEq.respectTransparency.types false in
set_option maxHeartbeats 1600000 in
def reg15 : RegionSeg (pcfgs (F := F)) (adm m hr) (pdats m hr) () defs₀ Variants.none L₀ lv₀ 15 where
  win := winFacts₀15
  block_pos := block_pos15
  stage_whole := stage_whole15
  K := PEmpty
  osem k := k.elim
  ho := Pipeline.OwnSemFacts.none _
  hbody c := (Chunk15.body_obligation (Tables.adm15 m hr) (fun c b => Chain.W31 m (leaves m hr) c b) c).loose
  hwaits := Pipeline.hwaits_of_owed_zero _ _ _ _ L₀ lv₀ 15 fun _ _ => rfl
  pre c := iprop(StableHlo.held (c : Thread nD τ) (Pipeline.ucRefs τ sig) (Chain.W31 m (leaves m hr) c) ∗ E c)
  post c := iprop(StableHlo.held (c : Thread nD τ) (Pipeline.ucRefs τ sig) (Chain.W32 m (leaves m hr) c) ∗ E c)
  X _ := BI.emp
  Y c := Chunk15.tblsHeld (Tables.adm15 m hr) c
  Z c := Pipeline.unscopedRestP (Ix := Unit) (Name := ℕ) (U := UR sig nD τ) (Lvl := ℕ) pre15 spec15 c (fun b => Chain.W31 m (leaves m hr) c b)
  hentry c := by
    rw [Pipeline.ownSems0_none]
    have hent := Gate15.entry (Tables.adm15 m hr) c (dat15 m hr c) rfl rfl (Chain.W31 m (leaves m hr) c) (fun _ => rfl)
    rw [tbl_entry15 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 15 c).Φ 0 = iprop(Chunk15.tblsHeld (Tables.adm15 m hr) c
      ∗ Pipeline.scopedRest (Ix := Unit) (Name := ℕ) (U := UR sig nD τ) (Lvl := ℕ) (Val := Elt F) spec15 c) from rfl]
    iintro ⟨-, Hp, Hr⟩
    isplitl [Hp]; · iexact Hp
    iexact Hr
  hout c := by
    rw [Pipeline.ownSems0_none,
      show (pdats m hr 15 c).Φ (Fin.last _) = Chunk15.PhiS (Tables.adm15 m hr) (fun c b => Chain.W31 m (leaves m hr) c b) c
        (cfg15 (Tables.adm15 m hr)).N (le_refl _) from rfl,
      Chunk15.PhiS_pos _ _ c _ _ (by rw [Chunk15.N_eq]; decide),
      show (Pipeline.pin (pcfgs (F := F)) (adm m hr) 15).spec = spec15 from rfl, scopedRest15_split]
    iintro ⟨Hp, Hs, Hr⟩
    isplitl [Hp]; · iexact Hp
    isplitr; · iempintro
    isplitl [Hs]
    · iexists _; rw [← owns_whole]; iexact Hs
    iexact Hr
  hexit c := by
    have hex := Gate15.exit (Tables.adm15 m hr) c (dat15 m hr c) rfl rfl (Chain.W31 m (leaves m hr) c) (fun _ => rfl)
      (Chain.W32 m (leaves m hr) c) (out_entry15 m hr c) (Chain.W_keep_15 m (leaves m hr) c)
    rw [tbl_entry15 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.Kernel.Whole

end
-- ==== Proof.K.WholeRun.lean ====
import proofs.«418705_j10376640987952_2_alg».proof.Proof.K.FrameCond
import proofs.«418705_j10376640987952_2_alg».proof.Proof.K.Reg00
import proofs.«418705_j10376640987952_2_alg».proof.Proof.K.Reg01
import proofs.«418705_j10376640987952_2_alg».proof.Proof.K.Reg02
import proofs.«418705_j10376640987952_2_alg».proof.Proof.K.Reg03
import proofs.«418705_j10376640987952_2_alg».proof.Proof.K.Reg04
import proofs.«418705_j10376640987952_2_alg».proof.Proof.K.Reg05
import proofs.«418705_j10376640987952_2_alg».proof.Proof.K.Reg06
import proofs.«418705_j10376640987952_2_alg».proof.Proof.K.Reg07
import proofs.«418705_j10376640987952_2_alg».proof.Proof.K.Reg08
import proofs.«418705_j10376640987952_2_alg».proof.Proof.K.Reg09
import proofs.«418705_j10376640987952_2_alg».proof.Proof.K.Reg10
import proofs.«418705_j10376640987952_2_alg».proof.Proof.K.Reg11
import proofs.«418705_j10376640987952_2_alg».proof.Proof.K.Reg12
import proofs.«418705_j10376640987952_2_alg».proof.Proof.K.Reg13
import proofs.«418705_j10376640987952_2_alg».proof.Proof.K.Reg14
import proofs.«418705_j10376640987952_2_alg».proof.Proof.K.Reg15

/-!
The whole program's run: every weakly fair execution from a memory whose edge list names nodes only terminates,
nothing faulting; the two arguments end as launched, and the result buffer holds what the last host stretch
computes from the sixteen calls' results — the patched conditional frame applied to the sixteen region records,
with the contents between items those of the chain.
-/

set_option maxRecDepth 1400

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

set_option backward.isDefEq.respectTransparency.types false in
set_option maxHeartbeats 4000000 in
theorem run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v120) = V33 m (Chain.outs m (leaves m hr)) c main_v120) :=
  frame_cond (F := F) m (emb₁ : Emb (URounds (GSem nD τ sig) Unit) 𝕄) () Variants.none L₀ lv₀ (fun _ _ => rfl) ρ
    (Chain.outs m (leaves m hr)) (adm m hr) (pdats m hr) 0 (fun _ => iprop(emp))
    (initOf (Pipeline.cells (Pipeline.pin (pcfgs (F := F)) (adm m hr)) (cellOf_inj (adm m hr)))
      (Pipeline.launchToks (Pipeline.pin (pcfgs (F := F)) (adm m hr)) (cellOf_inj (adm m hr))))
    (by
      iintro Hu; imodintro
      isplitl [Hu]
      · iapply (show (ownU (initOf (Pipeline.cells (Pipeline.pin (pcfgs (F := F)) (adm m hr)) (cellOf_inj (adm m hr)))
            (Pipeline.launchToks (Pipeline.pin (pcfgs (F := F)) (adm m hr)) (cellOf_inj (adm m hr)))) : sProp 𝕄)
          ⊢ BI.own ((emb₁ : Emb (URounds (GSem nD τ sig) Unit) 𝕄) (initOf (Pipeline.cells (Pipeline.pin (pcfgs (F := F)) (adm m hr)) (cellOf_inj (adm m hr)))
            (Pipeline.launchToks (Pipeline.pin (pcfgs (F := F)) (adm m hr)) (cellOf_inj (adm m hr))))) from .rfl)
        iexact Hu
      iapply (show (BI.emp : sProp 𝕄) ⊢ bigSep Finset.univ (fun _ : Dev nD => (BI.emp : sProp 𝕄)) from by rw [BI.bigSep_emp_const])
      iempintro)
    (fun _ => E)
    (by
      refine Pipeline.initEach L₀ lv₀ fun c => ?_
      iintro ⟨⟨-, HO, -, -, -⟩, -⟩
      imodintro
      iexists ∅; iexact HO)
    (fun c => .rfl)
    (reg0 m hr) (fun c => by rw [Chain.V1_eq m (leaves m hr) c]; exact .rfl) (fun c => by rw [Chain.V2_eq m (leaves m hr) c]; exact .rfl)
    (reg1 m hr) (fun c => by rw [Chain.V3_eq m (leaves m hr) c]; exact .rfl) (fun c => by rw [Chain.V4_eq m (leaves m hr) c]; exact .rfl)
    (reg2 m hr) (fun c => by rw [Chain.V5_eq m (leaves m hr) c]; exact .rfl) (fun c => by rw [Chain.V6_eq m (leaves m hr) c]; exact .rfl)
    (reg3 m hr) (fun c => by rw [Chain.V7_eq m (leaves m hr) c]; exact .rfl) (fun c => by rw [Chain.V8_eq m (leaves m hr) c]; exact .rfl)
    (reg4 m hr) (fun c => by rw [Chain.V9_eq m (leaves m hr) c]; exact .rfl) (fun c => by rw [Chain.V10_eq m (leaves m hr) c]; exact .rfl)
    (reg5 m hr) (fun c => by rw [Chain.V11_eq m (leaves m hr) c]; exact .rfl) (fun c => by rw [Chain.V12_eq m (leaves m hr) c]; exact .rfl)
    (reg6 m hr) (fun c => by rw [Chain.V13_eq m (leaves m hr) c]; exact .rfl) (fun c => by rw [Chain.V14_eq m (leaves m hr) c]; exact .rfl)
    (reg7 m hr) (fun c => by rw [Chain.V15_eq m (leaves m hr) c]; exact .rfl) (fun c => by rw [Chain.V16_eq m (leaves m hr) c]; exact .rfl)
    (reg8 m hr) (fun c => by rw [Chain.V17_eq m (leaves m hr) c]; exact .rfl) (fun c => by rw [Chain.V18_eq m (leaves m hr) c]; exact .rfl)
    (reg9 m hr) (fun c => by rw [Chain.V19_eq m (leaves m hr) c]; exact .rfl) (fun c => by rw [Chain.V20_eq m (leaves m hr) c]; exact .rfl)
    (reg10 m hr) (fun c => by rw [Chain.V21_eq m (leaves m hr) c]; exact .rfl) (fun c => by rw [Chain.V22_eq m (leaves m hr) c]; exact .rfl)
    (reg11 m hr) (fun c => by rw [Chain.V23_eq m (leaves m hr) c]; exact .rfl) (fun c => by rw [Chain.V24_eq m (leaves m hr) c]; exact .rfl)
    (reg12 m hr) (fun c => by rw [Chain.V25_eq m (leaves m hr) c]; exact .rfl) (fun c => by rw [Chain.V26_eq m (leaves m hr) c]; exact .rfl)
    (reg13 m hr) (fun c => by rw [Chain.V27_eq m (leaves m hr) c]; exact .rfl) (fun c => by rw [Chain.V28_eq m (leaves m hr) c]; exact .rfl)
    (reg14 m hr) (fun c => by rw [Chain.V29_eq m (leaves m hr) c]; exact .rfl) (fun c => by rw [Chain.V30_eq m (leaves m hr) c]; exact .rfl)
    (reg15 m hr) (fun c => by rw [Chain.V31_eq m (leaves m hr) c]; exact .rfl) (fun c => by rw [Chain.V32_eq m (leaves m hr) c]; exact .rfl)

end Cert.Kernel.Whole

end
-- ==== Proof.KI.Tables.lean ====
/-
The contents of the sixteen regions' prefetched tables, and of the array their gathered windows read, as functions of
the launch contents only.

The program cuts each row of the edge list (row 0: source nodes, row 1: destination nodes; 800000 edges) into 16 chunks of
50000 edges; region K's two tables are chunk K of the two rows, flattened, and windows 0 and 1 of every region read the
node features reshaped to [50000, 1, 96]. No region writes any of these arrays, so each region is entered with them as the
first host stretch left them; what the later stretches add is one slice and one reshape per table.

Laid out from the template: the per-item lemmas "V<J>_main_v4 / _v5 / _v6" (items 2 to 31, one text) and the sections
"Region 1" to "Region 15" (one text, region 1's, with the region number, its two table buffers, its valuations, its host
stretch and its slice fact substituted). Everything before them and the section "Region 0" is the template's own text,
copied unchanged.
-/
import proofs.«418705_j10376640987952_2_alg».proof.Proof.KI.FrameCond
import Idealize.ShloMosaic.Lib.StableHlo.Run
import Idealize.ShloMosaic.Lib.Pipeline.Value
import Idealize.ShloMosaic.Lib.ValueIdx

set_option maxRecDepth 1400

noncomputable section

namespace Cert.KernelIdeal.Tables

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ)

/-- The one device. -/
abbrev c0 : Dev nD := 0

theorem dev_eq (c : Dev nD) : c = c0 := Subsingleton.elim _ _

/-- The edge list as launched: row 0 the source nodes, row 1 the destination nodes. -/
abbrev edges : (⟨S2x800000, .i32⟩ : BufTy).Contents (Elt F) := m ((c0 : Thread nD τ).loc main_arg1)

/-- Row `k` of the edge list: 800000 node numbers. -/
def rowOf (k : Fin 2) : (⟨S1x800000, .i32⟩ : BufTy).Contents (Elt F) :=
  match k with
  | 0 => extractStridedSlice S1x800000 ![0, 0] (edges m) slices_S2x800000_S1x800000_0_0
  | 1 => extractStridedSlice S1x800000 ![1, 0] (edges m) slices_S2x800000_S1x800000_1_0

/-- Row `k` of the edge list cut into 16 chunks of 50000 edges. -/
def chunks (k : Fin 2) : (⟨S16x50000, .i32⟩ : BufTy).Contents (Elt F) :=
  shapeCast S16x50000 (shapeCast S800000 (rowOf m k) shapeCasts_S1x800000_S800000) shapeCasts_S800000_S16x50000

/-- Chunk `off 0` of a 16-chunk array, as a flat table of 50000 words. -/
def chunk (x : (⟨S16x50000, .i32⟩ : BufTy).Contents (Elt F)) (off : Fin 2 → Nat) (h : S16x50000.Slices off S1x50000) :
    (⟨S50000, .i32⟩ : BufTy).Contents (Elt F) :=
  shapeCast S50000 (extractStridedSlice S1x50000 off x h) shapeCasts_S1x50000_S50000

/-- The node features as launched. -/
abbrev nodes : (⟨S50000x96, .f32⟩ : BufTy).Contents (Elt F) := m ((c0 : Thread nD τ).loc main_arg0)

/-- The node features with a unit axis added. -/
def feat : (⟨S50000x1x96, .f32⟩ : BufTy).Contents (Elt F) :=
  shapeCast S50000x1x96 (nodes m) shapeCasts_S50000x96_S50000x1x96

/-! ## Reading the layout operations at an index -/

section Reads
variable {α : Type} {s t : Shape}

/-- What holds of every entry of an array holds of every entry of a reshape of it. -/
theorem shapeCast_all (P : α → Prop) (x : s.Idx → α) (h : s.ShapeCasts t) (hx : ∀ i, P (x i)) (j : t.Idx) :
    P (shapeCast t x h j) := hx _

/-- What holds of every entry of an array holds of every entry of a slice of it. -/
theorem slice_all (P : α → Prop) (off : Fin s.rank → Nat) (x : s.Idx → α) (h : s.Slices off t) (hx : ∀ i, P (x i)) (j : t.Idx) :
    P (extractStridedSlice t off x h j) := hx _

end Reads

theorem rowOf_apply (k : Fin 2) (j : Fin 800000) : rowOf m k (ValueIdx.ix2 (0 : Fin 1) j) = edges m (ValueIdx.ix2 k j) := by
  match k with
  | 0 =>
    show extractStridedSlice S1x800000 ![0, 0] (edges m) slices_S2x800000_S1x800000_0_0 _ = _
    refine extractStridedSlice_apply _ _ _ _ _ fun a => ?_
    match a with
    | ⟨0, _⟩ => rfl
    | ⟨1, _⟩ => show j.val = 0 + j.val; omega
  | 1 =>
    show extractStridedSlice S1x800000 ![1, 0] (edges m) slices_S2x800000_S1x800000_1_0 _ = _
    refine extractStridedSlice_apply _ _ _ _ _ fun a => ?_
    match a with
    | ⟨0, _⟩ => rfl
    | ⟨1, _⟩ => show j.val = 0 + j.val; omega

theorem chunks_apply (k : Fin 2) (r : Fin 16) (i : Fin 50000) :
    chunks m k (ValueIdx.ix2 r i) = edges m (ValueIdx.ix2 k ⟨r.val * 50000 + i.val, by omega⟩) := by
  unfold chunks
  refine (shapeCast_apply _ _ (ValueIdx.ix2 r i) (ValueIdx.ix1 (⟨r.val * 50000 + i.val, by omega⟩ : Fin 800000)) ?_).trans ?_
  · rw [Shape.rowMajor_val_one, Shape.rowMajor_val_two]; rfl
  refine (shapeCast_apply _ _ _ (ValueIdx.ix2 (0 : Fin 1) (⟨r.val * 50000 + i.val, by omega⟩ : Fin 800000)) ?_).trans ?_
  · rw [Shape.rowMajor_val_one, Shape.rowMajor_val_two]; show 0 * 800000 + (r.val * 50000 + i.val) = r.val * 50000 + i.val; omega
  exact rowOf_apply m k _

theorem chunk_apply (x : (⟨S16x50000, .i32⟩ : BufTy).Contents (Elt F)) (off : Fin 2 → Nat) (h : S16x50000.Slices off S1x50000)
    (r : Fin 16) (h0 : off 0 = r.val) (h1 : off 1 = 0) (i : Fin 50000) : chunk x off h (ValueIdx.ix1 i) = x (ValueIdx.ix2 r i) := by
  unfold chunk
  refine (shapeCast_apply _ _ (ValueIdx.ix1 i) (ValueIdx.ix2 (0 : Fin 1) i) ?_).trans ?_
  · rw [Shape.rowMajor_val_one, Shape.rowMajor_val_two]; show 0 * 50000 + i.val = i.val; omega
  refine extractStridedSlice_apply _ _ _ _ _ fun a => ?_
  match a with
  | ⟨0, _⟩ => show r.val = off 0 + 0; omega
  | ⟨1, _⟩ => show i.val = off 1 + i.val; omega

theorem feat_apply (r : Fin 50000) (j : Fin 96) :
    feat m (ValueIdx.ix3 r (0 : Fin 1) j) = m ((c0 : Thread nD τ).loc main_arg0) (ValueIdx.ix2 r j) := by
  unfold feat
  refine shapeCast_apply (nodes m) _ _ _ ?_
  show (S50000x96.rowMajor _).val = (S50000x1x96.rowMajor _).val
  rw [Shape.rowMajor_val_two, Shape.rowMajor_val_three]
  show r.val * 96 + j.val = (r.val * 1 + 0) * 96 + j.val
  omega

/-- Every word of the edge list below the node count: so is every word of a row, of its chunks, and of a chunk. -/
theorem chunk_lt (hr : ∀ i, (edges m i).toNat < 50000) (k : Fin 2) (off : Fin 2 → Nat) (h : S16x50000.Slices off S1x50000)
    (i : S50000.Idx) : (chunk (chunks m k) off h i).toNat < 50000 := by
  have h1 : ∀ j, (rowOf m k j).toNat < 50000 := by
    match k with
    | 0 => exact fun j => hr _
    | 1 => exact fun j => hr _
  have h2 : ∀ j, (chunks m k j).toNat < 50000 :=
    shapeCast_all (fun w : BitVec 32 => w.toNat < 50000) _ _ (shapeCast_all (fun w : BitVec 32 => w.toNat < 50000) _ _ h1)
  exact shapeCast_all (fun w : BitVec 32 => w.toNat < 50000) _ _ (slice_all (fun w : BitVec 32 => w.toNat < 50000) _ _ _ h2) i

/-! ## What the first host stretch leaves -/

theorem V1_main_v4 (outs : Outs (F := F)) (c : Dev nD) : V1 m c main_v4 = chunks m 0 := by
  rw [dev_eq c]
  show StableHlo.after hostOps0 _ (Proc.devRef .tc main_v4) = _
  after_results
  rfl

theorem V1_main_v5 (outs : Outs (F := F)) (c : Dev nD) : V1 m c main_v5 = chunks m 1 := by
  rw [dev_eq c]
  show StableHlo.after hostOps0 _ (Proc.devRef .tc main_v5) = _
  after_results
  rfl

theorem V1_main_v6 (outs : Outs (F := F)) (c : Dev nD) : V1 m c main_v6 = feat m := by
  rw [dev_eq c]
  show StableHlo.after hostOps0 _ (Proc.devRef .tc main_v6) = _
  after_results
  rfl

/-! ## No later item writes the chunked rows or the reshaped features -/

theorem V2_main_v4 (outs : Outs (F := F)) (c : Dev nD) : V2 m outs c main_v4 = chunks m 0 :=
  (V2_of m outs c main_v4 (by decide)).trans (V1_main_v4 m outs c)
theorem V2_main_v5 (outs : Outs (F := F)) (c : Dev nD) : V2 m outs c main_v5 = chunks m 1 :=
  (V2_of m outs c main_v5 (by decide)).trans (V1_main_v5 m outs c)
theorem V2_main_v6 (outs : Outs (F := F)) (c : Dev nD) : V2 m outs c main_v6 = feat m :=
  (V2_of m outs c main_v6 (by decide)).trans (V1_main_v6 m outs c)

theorem V3_main_v4 (outs : Outs (F := F)) (c : Dev nD) : V3 m outs c main_v4 = chunks m 0 :=
  (V3_of m outs c main_v4 (by decide)).trans (V2_main_v4 m outs c)
theorem V3_main_v5 (outs : Outs (F := F)) (c : Dev nD) : V3 m outs c main_v5 = chunks m 1 :=
  (V3_of m outs c main_v5 (by decide)).trans (V2_main_v5 m outs c)
theorem V3_main_v6 (outs : Outs (F := F)) (c : Dev nD) : V3 m outs c main_v6 = feat m :=
  (V3_of m outs c main_v6 (by decide)).trans (V2_main_v6 m outs c)

theorem V4_main_v4 (outs : Outs (F := F)) (c : Dev nD) : V4 m outs c main_v4 = chunks m 0 :=
  (V4_of m outs c main_v4 (by decide)).trans (V3_main_v4 m outs c)
theorem V4_main_v5 (outs : Outs (F := F)) (c : Dev nD) : V4 m outs c main_v5 = chunks m 1 :=
  (V4_of m outs c main_v5 (by decide)).trans (V3_main_v5 m outs c)
theorem V4_main_v6 (outs : Outs (F := F)) (c : Dev nD) : V4 m outs c main_v6 = feat m :=
  (V4_of m outs c main_v6 (by decide)).trans (V3_main_v6 m outs c)

theorem V5_main_v4 (outs : Outs (F := F)) (c : Dev nD) : V5 m outs c main_v4 = chunks m 0 :=
  (V5_of m outs c main_v4 (by decide)).trans (V4_main_v4 m outs c)
theorem V5_main_v5 (outs : Outs (F := F)) (c : Dev nD) : V5 m outs c main_v5 = chunks m 1 :=
  (V5_of m outs c main_v5 (by decide)).trans (V4_main_v5 m outs c)
theorem V5_main_v6 (outs : Outs (F := F)) (c : Dev nD) : V5 m outs c main_v6 = feat m :=
  (V5_of m outs c main_v6 (by decide)).trans (V4_main_v6 m outs c)

theorem V6_main_v4 (outs : Outs (F := F)) (c : Dev nD) : V6 m outs c main_v4 = chunks m 0 :=
  (V6_of m outs c main_v4 (by decide)).trans (V5_main_v4 m outs c)
theorem V6_main_v5 (outs : Outs (F := F)) (c : Dev nD) : V6 m outs c main_v5 = chunks m 1 :=
  (V6_of m outs c main_v5 (by decide)).trans (V5_main_v5 m outs c)
theorem V6_main_v6 (outs : Outs (F := F)) (c : Dev nD) : V6 m outs c main_v6 = feat m :=
  (V6_of m outs c main_v6 (by decide)).trans (V5_main_v6 m outs c)

theorem V7_main_v4 (outs : Outs (F := F)) (c : Dev nD) : V7 m outs c main_v4 = chunks m 0 :=
  (V7_of m outs c main_v4 (by decide)).trans (V6_main_v4 m outs c)
theorem V7_main_v5 (outs : Outs (F := F)) (c : Dev nD) : V7 m outs c main_v5 = chunks m 1 :=
  (V7_of m outs c main_v5 (by decide)).trans (V6_main_v5 m outs c)
theorem V7_main_v6 (outs : Outs (F := F)) (c : Dev nD) : V7 m outs c main_v6 = feat m :=
  (V7_of m outs c main_v6 (by decide)).trans (V6_main_v6 m outs c)

theorem V8_main_v4 (outs : Outs (F := F)) (c : Dev nD) : V8 m outs c main_v4 = chunks m 0 :=
  (V8_of m outs c main_v4 (by decide)).trans (V7_main_v4 m outs c)
theorem V8_main_v5 (outs : Outs (F := F)) (c : Dev nD) : V8 m outs c main_v5 = chunks m 1 :=
  (V8_of m outs c main_v5 (by decide)).trans (V7_main_v5 m outs c)
theorem V8_main_v6 (outs : Outs (F := F)) (c : Dev nD) : V8 m outs c main_v6 = feat m :=
  (V8_of m outs c main_v6 (by decide)).trans (V7_main_v6 m outs c)

theorem V9_main_v4 (outs : Outs (F := F)) (c : Dev nD) : V9 m outs c main_v4 = chunks m 0 :=
  (V9_of m outs c main_v4 (by decide)).trans (V8_main_v4 m outs c)
theorem V9_main_v5 (outs : Outs (F := F)) (c : Dev nD) : V9 m outs c main_v5 = chunks m 1 :=
  (V9_of m outs c main_v5 (by decide)).trans (V8_main_v5 m outs c)
theorem V9_main_v6 (outs : Outs (F := F)) (c : Dev nD) : V9 m outs c main_v6 = feat m :=
  (V9_of m outs c main_v6 (by decide)).trans (V8_main_v6 m outs c)

theorem V10_main_v4 (outs : Outs (F := F)) (c : Dev nD) : V10 m outs c main_v4 = chunks m 0 :=
  (V10_of m outs c main_v4 (by decide)).trans (V9_main_v4 m outs c)
theorem V10_main_v5 (outs : Outs (F := F)) (c : Dev nD) : V10 m outs c main_v5 = chunks m 1 :=
  (V10_of m outs c main_v5 (by decide)).trans (V9_main_v5 m outs c)
theorem V10_main_v6 (outs : Outs (F := F)) (c : Dev nD) : V10 m outs c main_v6 = feat m :=
  (V10_of m outs c main_v6 (by decide)).trans (V9_main_v6 m outs c)

theorem V11_main_v4 (outs : Outs (F := F)) (c : Dev nD) : V11 m outs c main_v4 = chunks m 0 :=
  (V11_of m outs c main_v4 (by decide)).trans (V10_main_v4 m outs c)
theorem V11_main_v5 (outs : Outs (F := F)) (c : Dev nD) : V11 m outs c main_v5 = chunks m 1 :=
  (V11_of m outs c main_v5 (by decide)).trans (V10_main_v5 m outs c)
theorem V11_main_v6 (outs : Outs (F := F)) (c : Dev nD) : V11 m outs c main_v6 = feat m :=
  (V11_of m outs c main_v6 (by decide)).trans (V10_main_v6 m outs c)

theorem V12_main_v4 (outs : Outs (F := F)) (c : Dev nD) : V12 m outs c main_v4 = chunks m 0 :=
  (V12_of m outs c main_v4 (by decide)).trans (V11_main_v4 m outs c)
theorem V12_main_v5 (outs : Outs (F := F)) (c : Dev nD) : V12 m outs c main_v5 = chunks m 1 :=
  (V12_of m outs c main_v5 (by decide)).trans (V11_main_v5 m outs c)
theorem V12_main_v6 (outs : Outs (F := F)) (c : Dev nD) : V12 m outs c main_v6 = feat m :=
  (V12_of m outs c main_v6 (by decide)).trans (V11_main_v6 m outs c)

theorem V13_main_v4 (outs : Outs (F := F)) (c : Dev nD) : V13 m outs c main_v4 = chunks m 0 :=
  (V13_of m outs c main_v4 (by decide)).trans (V12_main_v4 m outs c)
theorem V13_main_v5 (outs : Outs (F := F)) (c : Dev nD) : V13 m outs c main_v5 = chunks m 1 :=
  (V13_of m outs c main_v5 (by decide)).trans (V12_main_v5 m outs c)
theorem V13_main_v6 (outs : Outs (F := F)) (c : Dev nD) : V13 m outs c main_v6 = feat m :=
  (V13_of m outs c main_v6 (by decide)).trans (V12_main_v6 m outs c)

theorem V14_main_v4 (outs : Outs (F := F)) (c : Dev nD) : V14 m outs c main_v4 = chunks m 0 :=
  (V14_of m outs c main_v4 (by decide)).trans (V13_main_v4 m outs c)
theorem V14_main_v5 (outs : Outs (F := F)) (c : Dev nD) : V14 m outs c main_v5 = chunks m 1 :=
  (V14_of m outs c main_v5 (by decide)).trans (V13_main_v5 m outs c)
theorem V14_main_v6 (outs : Outs (F := F)) (c : Dev nD) : V14 m outs c main_v6 = feat m :=
  (V14_of m outs c main_v6 (by decide)).trans (V13_main_v6 m outs c)

theorem V15_main_v4 (outs : Outs (F := F)) (c : Dev nD) : V15 m outs c main_v4 = chunks m 0 :=
  (V15_of m outs c main_v4 (by decide)).trans (V14_main_v4 m outs c)
theorem V15_main_v5 (outs : Outs (F := F)) (c : Dev nD) : V15 m outs c main_v5 = chunks m 1 :=
  (V15_of m outs c main_v5 (by decide)).trans (V14_main_v5 m outs c)
theorem V15_main_v6 (outs : Outs (F := F)) (c : Dev nD) : V15 m outs c main_v6 = feat m :=
  (V15_of m outs c main_v6 (by decide)).trans (V14_main_v6 m outs c)

theorem V16_main_v4 (outs : Outs (F := F)) (c : Dev nD) : V16 m outs c main_v4 = chunks m 0 :=
  (V16_of m outs c main_v4 (by decide)).trans (V15_main_v4 m outs c)
theorem V16_main_v5 (outs : Outs (F := F)) (c : Dev nD) : V16 m outs c main_v5 = chunks m 1 :=
  (V16_of m outs c main_v5 (by decide)).trans (V15_main_v5 m outs c)
theorem V16_main_v6 (outs : Outs (F := F)) (c : Dev nD) : V16 m outs c main_v6 = feat m :=
  (V16_of m outs c main_v6 (by decide)).trans (V15_main_v6 m outs c)

theorem V17_main_v4 (outs : Outs (F := F)) (c : Dev nD) : V17 m outs c main_v4 = chunks m 0 :=
  (V17_of m outs c main_v4 (by decide)).trans (V16_main_v4 m outs c)
theorem V17_main_v5 (outs : Outs (F := F)) (c : Dev nD) : V17 m outs c main_v5 = chunks m 1 :=
  (V17_of m outs c main_v5 (by decide)).trans (V16_main_v5 m outs c)
theorem V17_main_v6 (outs : Outs (F := F)) (c : Dev nD) : V17 m outs c main_v6 = feat m :=
  (V17_of m outs c main_v6 (by decide)).trans (V16_main_v6 m outs c)

theorem V18_main_v4 (outs : Outs (F := F)) (c : Dev nD) : V18 m outs c main_v4 = chunks m 0 :=
  (V18_of m outs c main_v4 (by decide)).trans (V17_main_v4 m outs c)
theorem V18_main_v5 (outs : Outs (F := F)) (c : Dev nD) : V18 m outs c main_v5 = chunks m 1 :=
  (V18_of m outs c main_v5 (by decide)).trans (V17_main_v5 m outs c)
theorem V18_main_v6 (outs : Outs (F := F)) (c : Dev nD) : V18 m outs c main_v6 = feat m :=
  (V18_of m outs c main_v6 (by decide)).trans (V17_main_v6 m outs c)

theorem V19_main_v4 (outs : Outs (F := F)) (c : Dev nD) : V19 m outs c main_v4 = chunks m 0 :=
  (V19_of m outs c main_v4 (by decide)).trans (V18_main_v4 m outs c)
theorem V19_main_v5 (outs : Outs (F := F)) (c : Dev nD) : V19 m outs c main_v5 = chunks m 1 :=
  (V19_of m outs c main_v5 (by decide)).trans (V18_main_v5 m outs c)
theorem V19_main_v6 (outs : Outs (F := F)) (c : Dev nD) : V19 m outs c main_v6 = feat m :=
  (V19_of m outs c main_v6 (by decide)).trans (V18_main_v6 m outs c)

theorem V20_main_v4 (outs : Outs (F := F)) (c : Dev nD) : V20 m outs c main_v4 = chunks m 0 :=
  (V20_of m outs c main_v4 (by decide)).trans (V19_main_v4 m outs c)
theorem V20_main_v5 (outs : Outs (F := F)) (c : Dev nD) : V20 m outs c main_v5 = chunks m 1 :=
  (V20_of m outs c main_v5 (by decide)).trans (V19_main_v5 m outs c)
theorem V20_main_v6 (outs : Outs (F := F)) (c : Dev nD) : V20 m outs c main_v6 = feat m :=
  (V20_of m outs c main_v6 (by decide)).trans (V19_main_v6 m outs c)

theorem V21_main_v4 (outs : Outs (F := F)) (c : Dev nD) : V21 m outs c main_v4 = chunks m 0 :=
  (V21_of m outs c main_v4 (by decide)).trans (V20_main_v4 m outs c)
theorem V21_main_v5 (outs : Outs (F := F)) (c : Dev nD) : V21 m outs c main_v5 = chunks m 1 :=
  (V21_of m outs c main_v5 (by decide)).trans (V20_main_v5 m outs c)
theorem V21_main_v6 (outs : Outs (F := F)) (c : Dev nD) : V21 m outs c main_v6 = feat m :=
  (V21_of m outs c main_v6 (by decide)).trans (V20_main_v6 m outs c)

theorem V22_main_v4 (outs : Outs (F := F)) (c : Dev nD) : V22 m outs c main_v4 = chunks m 0 :=
  (V22_of m outs c main_v4 (by decide)).trans (V21_main_v4 m outs c)
theorem V22_main_v5 (outs : Outs (F := F)) (c : Dev nD) : V22 m outs c main_v5 = chunks m 1 :=
  (V22_of m outs c main_v5 (by decide)).trans (V21_main_v5 m outs c)
theorem V22_main_v6 (outs : Outs (F := F)) (c : Dev nD) : V22 m outs c main_v6 = feat m :=
  (V22_of m outs c main_v6 (by decide)).trans (V21_main_v6 m outs c)

theorem V23_main_v4 (outs : Outs (F := F)) (c : Dev nD) : V23 m outs c main_v4 = chunks m 0 :=
  (V23_of m outs c main_v4 (by decide)).trans (V22_main_v4 m outs c)
theorem V23_main_v5 (outs : Outs (F := F)) (c : Dev nD) : V23 m outs c main_v5 = chunks m 1 :=
  (V23_of m outs c main_v5 (by decide)).trans (V22_main_v5 m outs c)
theorem V23_main_v6 (outs : Outs (F := F)) (c : Dev nD) : V23 m outs c main_v6 = feat m :=
  (V23_of m outs c main_v6 (by decide)).trans (V22_main_v6 m outs c)

theorem V24_main_v4 (outs : Outs (F := F)) (c : Dev nD) : V24 m outs c main_v4 = chunks m 0 :=
  (V24_of m outs c main_v4 (by decide)).trans (V23_main_v4 m outs c)
theorem V24_main_v5 (outs : Outs (F := F)) (c : Dev nD) : V24 m outs c main_v5 = chunks m 1 :=
  (V24_of m outs c main_v5 (by decide)).trans (V23_main_v5 m outs c)
theorem V24_main_v6 (outs : Outs (F := F)) (c : Dev nD) : V24 m outs c main_v6 = feat m :=
  (V24_of m outs c main_v6 (by decide)).trans (V23_main_v6 m outs c)

theorem V25_main_v4 (outs : Outs (F := F)) (c : Dev nD) : V25 m outs c main_v4 = chunks m 0 :=
  (V25_of m outs c main_v4 (by decide)).trans (V24_main_v4 m outs c)
theorem V25_main_v5 (outs : Outs (F := F)) (c : Dev nD) : V25 m outs c main_v5 = chunks m 1 :=
  (V25_of m outs c main_v5 (by decide)).trans (V24_main_v5 m outs c)
theorem V25_main_v6 (outs : Outs (F := F)) (c : Dev nD) : V25 m outs c main_v6 = feat m :=
  (V25_of m outs c main_v6 (by decide)).trans (V24_main_v6 m outs c)

theorem V26_main_v4 (outs : Outs (F := F)) (c : Dev nD) : V26 m outs c main_v4 = chunks m 0 :=
  (V26_of m outs c main_v4 (by decide)).trans (V25_main_v4 m outs c)
theorem V26_main_v5 (outs : Outs (F := F)) (c : Dev nD) : V26 m outs c main_v5 = chunks m 1 :=
  (V26_of m outs c main_v5 (by decide)).trans (V25_main_v5 m outs c)
theorem V26_main_v6 (outs : Outs (F := F)) (c : Dev nD) : V26 m outs c main_v6 = feat m :=
  (V26_of m outs c main_v6 (by decide)).trans (V25_main_v6 m outs c)

theorem V27_main_v4 (outs : Outs (F := F)) (c : Dev nD) : V27 m outs c main_v4 = chunks m 0 :=
  (V27_of m outs c main_v4 (by decide)).trans (V26_main_v4 m outs c)
theorem V27_main_v5 (outs : Outs (F := F)) (c : Dev nD) : V27 m outs c main_v5 = chunks m 1 :=
  (V27_of m outs c main_v5 (by decide)).trans (V26_main_v5 m outs c)
theorem V27_main_v6 (outs : Outs (F := F)) (c : Dev nD) : V27 m outs c main_v6 = feat m :=
  (V27_of m outs c main_v6 (by decide)).trans (V26_main_v6 m outs c)

theorem V28_main_v4 (outs : Outs (F := F)) (c : Dev nD) : V28 m outs c main_v4 = chunks m 0 :=
  (V28_of m outs c main_v4 (by decide)).trans (V27_main_v4 m outs c)
theorem V28_main_v5 (outs : Outs (F := F)) (c : Dev nD) : V28 m outs c main_v5 = chunks m 1 :=
  (V28_of m outs c main_v5 (by decide)).trans (V27_main_v5 m outs c)
theorem V28_main_v6 (outs : Outs (F := F)) (c : Dev nD) : V28 m outs c main_v6 = feat m :=
  (V28_of m outs c main_v6 (by decide)).trans (V27_main_v6 m outs c)

theorem V29_main_v4 (outs : Outs (F := F)) (c : Dev nD) : V29 m outs c main_v4 = chunks m 0 :=
  (V29_of m outs c main_v4 (by decide)).trans (V28_main_v4 m outs c)
theorem V29_main_v5 (outs : Outs (F := F)) (c : Dev nD) : V29 m outs c main_v5 = chunks m 1 :=
  (V29_of m outs c main_v5 (by decide)).trans (V28_main_v5 m outs c)
theorem V29_main_v6 (outs : Outs (F := F)) (c : Dev nD) : V29 m outs c main_v6 = feat m :=
  (V29_of m outs c main_v6 (by decide)).trans (V28_main_v6 m outs c)

theorem V30_main_v4 (outs : Outs (F := F)) (c : Dev nD) : V30 m outs c main_v4 = chunks m 0 :=
  (V30_of m outs c main_v4 (by decide)).trans (V29_main_v4 m outs c)
theorem V30_main_v5 (outs : Outs (F := F)) (c : Dev nD) : V30 m outs c main_v5 = chunks m 1 :=
  (V30_of m outs c main_v5 (by decide)).trans (V29_main_v5 m outs c)
theorem V30_main_v6 (outs : Outs (F := F)) (c : Dev nD) : V30 m outs c main_v6 = feat m :=
  (V30_of m outs c main_v6 (by decide)).trans (V29_main_v6 m outs c)

theorem V31_main_v4 (outs : Outs (F := F)) (c : Dev nD) : V31 m outs c main_v4 = chunks m 0 :=
  (V31_of m outs c main_v4 (by decide)).trans (V30_main_v4 m outs c)
theorem V31_main_v5 (outs : Outs (F := F)) (c : Dev nD) : V31 m outs c main_v5 = chunks m 1 :=
  (V31_of m outs c main_v5 (by decide)).trans (V30_main_v5 m outs c)
theorem V31_main_v6 (outs : Outs (F := F)) (c : Dev nD) : V31 m outs c main_v6 = feat m :=
  (V31_of m outs c main_v6 (by decide)).trans (V30_main_v6 m outs c)

/-! ## Region 0: its two tables are chunk 0 of the source and of the destination nodes -/

/-- Table `k` of region 0 (0: source nodes, 1: destination nodes of its 50000 edges), as words. -/
def tab0 (k : Fin 2) : (⟨S50000, .i32⟩ : BufTy).Contents (Elt F) :=
  chunk (chunks m k) ![0, 0] slices_S16x50000_S1x50000_0_0

/-- The contents of region 0's two prefetched tables, as a function of the launch contents only. -/
def tbl0 : pre0.Contents (Elt F) := fun
  | 0 => tab0 m 0
  | 1 => tab0 m 1
  | ⟨_ + 2, h⟩ => absurd h (Nat.not_lt.2 (Nat.le_add_left _ _))

theorem tbl0_zero : tbl0 m 0 = tab0 m 0 := rfl
theorem tbl0_one : tbl0 m 1 = tab0 m 1 := rfl

/-- Region 0 is entered with its tables at `tbl0`. -/
theorem tbl0_of_V (outs : Outs (F := F)) (c : Dev nD) (k : Fin pre0.K) : V1 m c (pre0.ref k) = tbl0 m k := by
  match k with
  | 0 =>
    rw [dev_eq c]
    show StableHlo.after hostOps0 _ (Proc.devRef .tc main_v8) = _
    after_results
    rfl
  | 1 =>
    rw [dev_eq c]
    show StableHlo.after hostOps0 _ (Proc.devRef .tc main_v10) = _
    after_results
    rfl

/-- Region 0 is entered with the node features in its windows' array. -/
theorem feat0_of_V (outs : Outs (F := F)) (c : Dev nD) : V1 m c main_v6 = feat m := V1_main_v6 m outs c

/-- Every table word of region 0 is a word of the edge list. -/
theorem tab0_apply (k : Fin 2) (i : Fin 50000) :
    tab0 m k (ValueIdx.ix1 i) = edges m (ValueIdx.ix2 k ⟨0 * 50000 + i.val, by omega⟩) :=
  (chunk_apply _ _ _ ⟨0, by omega⟩ rfl rfl i).trans (chunks_apply m k _ i)

theorem tab0_lt (hr : ∀ i, (edges m i).toNat < 50000) (k : Fin 2) (i : S50000.Idx) : (tab0 m k i).toNat < 50000 :=
  chunk_lt m hr k _ _ i

/-- Tables whose words are node numbers put every block of region 0's two gathered windows inside the feature array. -/
theorem ok0_of_lt (pf : pre0.Contents (Elt F)) (h0 : ∀ i : S50000.Idx, (pf 0 i).toNat < 50000)
    (h1 : ∀ i : S50000.Idx, (pf 1 i).toNat < 50000) : ok0 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok0_of (hr : ∀ i, (edges m i).toNat < 50000) : ok0 (tbl0 m) :=
  ok0_of_lt (tbl0 m) (tab0_lt m hr 0) (tab0_lt m hr 1)

/-- Region 0's tables, admissible. -/
def adm0 (hr : ∀ i, (edges m i).toNat < 50000) : (pcfg0 (F := F)).Adm := ⟨tbl0 m, ok0_of m hr⟩

/-! ## Region 1: its two tables are chunk 1 of the source and of the destination nodes -/

/-- Table `k` of region 1 (0: source nodes, 1: destination nodes of its 50000 edges), as words. -/
def tab1 (k : Fin 2) : (⟨S50000, .i32⟩ : BufTy).Contents (Elt F) :=
  chunk (chunks m k) ![1, 0] slices_S16x50000_S1x50000_1_0

/-- The contents of region 1's two prefetched tables, as a function of the launch contents only. -/
def tbl1 : pre1.Contents (Elt F) := fun
  | 0 => tab1 m 0
  | 1 => tab1 m 1
  | ⟨_ + 2, h⟩ => absurd h (Nat.not_lt.2 (Nat.le_add_left _ _))

theorem tbl1_zero : tbl1 m 0 = tab1 m 0 := rfl
theorem tbl1_one : tbl1 m 1 = tab1 m 1 := rfl

/-- Region 1 is entered with its tables at `tbl1`: the host stretch before it slices chunk 1 off the two chunked rows,
    which no earlier item has written since the first stretch made them. -/
theorem tbl1_of_V (outs : Outs (F := F)) (c : Dev nD) (k : Fin pre1.K) : V3 m outs c (pre1.ref k) = tbl1 m k := by
  match k with
  | 0 =>
    show StableHlo.after hostOps1 (V2 m outs c) (Proc.devRef .tc main_v15) = _
    after_results
    rw [show V2 m outs c (Proc.devRef .tc main_v4) = chunks m 0 from V2_main_v4 m outs c]
    rfl
  | 1 =>
    show StableHlo.after hostOps1 (V2 m outs c) (Proc.devRef .tc main_v17) = _
    after_results
    rw [show V2 m outs c (Proc.devRef .tc main_v5) = chunks m 1 from V2_main_v5 m outs c]
    rfl

/-- Region 1 is entered with the node features in its windows' array. -/
theorem feat1_of_V (outs : Outs (F := F)) (c : Dev nD) : V3 m outs c main_v6 = feat m := V3_main_v6 m outs c

/-- Every table word of region 1 is a word of the edge list. -/
theorem tab1_apply (k : Fin 2) (i : Fin 50000) :
    tab1 m k (ValueIdx.ix1 i) = edges m (ValueIdx.ix2 k ⟨1 * 50000 + i.val, by omega⟩) :=
  (chunk_apply _ _ _ ⟨1, by omega⟩ rfl rfl i).trans (chunks_apply m k _ i)

theorem tab1_lt (hr : ∀ i, (edges m i).toNat < 50000) (k : Fin 2) (i : S50000.Idx) : (tab1 m k i).toNat < 50000 :=
  chunk_lt m hr k _ _ i

/-- Tables whose words are node numbers put every block of region 1's two gathered windows inside the feature array. -/
theorem ok1_of_lt (pf : pre1.Contents (Elt F)) (h0 : ∀ i : S50000.Idx, (pf 0 i).toNat < 50000)
    (h1 : ∀ i : S50000.Idx, (pf 1 i).toNat < 50000) : ok1 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok1_of (hr : ∀ i, (edges m i).toNat < 50000) : ok1 (tbl1 m) :=
  ok1_of_lt (tbl1 m) (tab1_lt m hr 0) (tab1_lt m hr 1)

/-- Region 1's tables, admissible. -/
def adm1 (hr : ∀ i, (edges m i).toNat < 50000) : (pcfg1 (F := F)).Adm := ⟨tbl1 m, ok1_of m hr⟩

/-! ## Region 2: its two tables are chunk 2 of the source and of the destination nodes -/

/-- Table `k` of region 2 (0: source nodes, 1: destination nodes of its 50000 edges), as words. -/
def tab2 (k : Fin 2) : (⟨S50000, .i32⟩ : BufTy).Contents (Elt F) :=
  chunk (chunks m k) ![2, 0] slices_S16x50000_S1x50000_2_0

/-- The contents of region 2's two prefetched tables, as a function of the launch contents only. -/
def tbl2 : pre2.Contents (Elt F) := fun
  | 0 => tab2 m 0
  | 1 => tab2 m 1
  | ⟨_ + 2, h⟩ => absurd h (Nat.not_lt.2 (Nat.le_add_left _ _))

theorem tbl2_zero : tbl2 m 0 = tab2 m 0 := rfl
theorem tbl2_one : tbl2 m 1 = tab2 m 1 := rfl

/-- Region 2 is entered with its tables at `tbl2`: the host stretch before it slices chunk 2 off the two chunked rows,
    which no earlier item has written since the first stretch made them. -/
theorem tbl2_of_V (outs : Outs (F := F)) (c : Dev nD) (k : Fin pre2.K) : V5 m outs c (pre2.ref k) = tbl2 m k := by
  match k with
  | 0 =>
    show StableHlo.after hostOps2 (V4 m outs c) (Proc.devRef .tc main_v22) = _
    after_results
    rw [show V4 m outs c (Proc.devRef .tc main_v4) = chunks m 0 from V4_main_v4 m outs c]
    rfl
  | 1 =>
    show StableHlo.after hostOps2 (V4 m outs c) (Proc.devRef .tc main_v24) = _
    after_results
    rw [show V4 m outs c (Proc.devRef .tc main_v5) = chunks m 1 from V4_main_v5 m outs c]
    rfl

/-- Region 2 is entered with the node features in its windows' array. -/
theorem feat2_of_V (outs : Outs (F := F)) (c : Dev nD) : V5 m outs c main_v6 = feat m := V5_main_v6 m outs c

/-- Every table word of region 2 is a word of the edge list. -/
theorem tab2_apply (k : Fin 2) (i : Fin 50000) :
    tab2 m k (ValueIdx.ix1 i) = edges m (ValueIdx.ix2 k ⟨2 * 50000 + i.val, by omega⟩) :=
  (chunk_apply _ _ _ ⟨2, by omega⟩ rfl rfl i).trans (chunks_apply m k _ i)

theorem tab2_lt (hr : ∀ i, (edges m i).toNat < 50000) (k : Fin 2) (i : S50000.Idx) : (tab2 m k i).toNat < 50000 :=
  chunk_lt m hr k _ _ i

/-- Tables whose words are node numbers put every block of region 2's two gathered windows inside the feature array. -/
theorem ok2_of_lt (pf : pre2.Contents (Elt F)) (h0 : ∀ i : S50000.Idx, (pf 0 i).toNat < 50000)
    (h1 : ∀ i : S50000.Idx, (pf 1 i).toNat < 50000) : ok2 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok2_of (hr : ∀ i, (edges m i).toNat < 50000) : ok2 (tbl2 m) :=
  ok2_of_lt (tbl2 m) (tab2_lt m hr 0) (tab2_lt m hr 1)

/-- Region 2's tables, admissible. -/
def adm2 (hr : ∀ i, (edges m i).toNat < 50000) : (pcfg2 (F := F)).Adm := ⟨tbl2 m, ok2_of m hr⟩

/-! ## Region 3: its two tables are chunk 3 of the source and of the destination nodes -/

/-- Table `k` of region 3 (0: source nodes, 1: destination nodes of its 50000 edges), as words. -/
def tab3 (k : Fin 2) : (⟨S50000, .i32⟩ : BufTy).Contents (Elt F) :=
  chunk (chunks m k) ![3, 0] slices_S16x50000_S1x50000_3_0

/-- The contents of region 3's two prefetched tables, as a function of the launch contents only. -/
def tbl3 : pre3.Contents (Elt F) := fun
  | 0 => tab3 m 0
  | 1 => tab3 m 1
  | ⟨_ + 2, h⟩ => absurd h (Nat.not_lt.2 (Nat.le_add_left _ _))

theorem tbl3_zero : tbl3 m 0 = tab3 m 0 := rfl
theorem tbl3_one : tbl3 m 1 = tab3 m 1 := rfl

/-- Region 3 is entered with its tables at `tbl3`: the host stretch before it slices chunk 3 off the two chunked rows,
    which no earlier item has written since the first stretch made them. -/
theorem tbl3_of_V (outs : Outs (F := F)) (c : Dev nD) (k : Fin pre3.K) : V7 m outs c (pre3.ref k) = tbl3 m k := by
  match k with
  | 0 =>
    show StableHlo.after hostOps3 (V6 m outs c) (Proc.devRef .tc main_v29) = _
    after_results
    rw [show V6 m outs c (Proc.devRef .tc main_v4) = chunks m 0 from V6_main_v4 m outs c]
    rfl
  | 1 =>
    show StableHlo.after hostOps3 (V6 m outs c) (Proc.devRef .tc main_v31) = _
    after_results
    rw [show V6 m outs c (Proc.devRef .tc main_v5) = chunks m 1 from V6_main_v5 m outs c]
    rfl

/-- Region 3 is entered with the node features in its windows' array. -/
theorem feat3_of_V (outs : Outs (F := F)) (c : Dev nD) : V7 m outs c main_v6 = feat m := V7_main_v6 m outs c

/-- Every table word of region 3 is a word of the edge list. -/
theorem tab3_apply (k : Fin 2) (i : Fin 50000) :
    tab3 m k (ValueIdx.ix1 i) = edges m (ValueIdx.ix2 k ⟨3 * 50000 + i.val, by omega⟩) :=
  (chunk_apply _ _ _ ⟨3, by omega⟩ rfl rfl i).trans (chunks_apply m k _ i)

theorem tab3_lt (hr : ∀ i, (edges m i).toNat < 50000) (k : Fin 2) (i : S50000.Idx) : (tab3 m k i).toNat < 50000 :=
  chunk_lt m hr k _ _ i

/-- Tables whose words are node numbers put every block of region 3's two gathered windows inside the feature array. -/
theorem ok3_of_lt (pf : pre3.Contents (Elt F)) (h0 : ∀ i : S50000.Idx, (pf 0 i).toNat < 50000)
    (h1 : ∀ i : S50000.Idx, (pf 1 i).toNat < 50000) : ok3 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok3_of (hr : ∀ i, (edges m i).toNat < 50000) : ok3 (tbl3 m) :=
  ok3_of_lt (tbl3 m) (tab3_lt m hr 0) (tab3_lt m hr 1)

/-- Region 3's tables, admissible. -/
def adm3 (hr : ∀ i, (edges m i).toNat < 50000) : (pcfg3 (F := F)).Adm := ⟨tbl3 m, ok3_of m hr⟩

/-! ## Region 4: its two tables are chunk 4 of the source and of the destination nodes -/

/-- Table `k` of region 4 (0: source nodes, 1: destination nodes of its 50000 edges), as words. -/
def tab4 (k : Fin 2) : (⟨S50000, .i32⟩ : BufTy).Contents (Elt F) :=
  chunk (chunks m k) ![4, 0] slices_S16x50000_S1x50000_4_0

/-- The contents of region 4's two prefetched tables, as a function of the launch contents only. -/
def tbl4 : pre4.Contents (Elt F) := fun
  | 0 => tab4 m 0
  | 1 => tab4 m 1
  | ⟨_ + 2, h⟩ => absurd h (Nat.not_lt.2 (Nat.le_add_left _ _))

theorem tbl4_zero : tbl4 m 0 = tab4 m 0 := rfl
theorem tbl4_one : tbl4 m 1 = tab4 m 1 := rfl

/-- Region 4 is entered with its tables at `tbl4`: the host stretch before it slices chunk 4 off the two chunked rows,
    which no earlier item has written since the first stretch made them. -/
theorem tbl4_of_V (outs : Outs (F := F)) (c : Dev nD) (k : Fin pre4.K) : V9 m outs c (pre4.ref k) = tbl4 m k := by
  match k with
  | 0 =>
    show StableHlo.after hostOps4 (V8 m outs c) (Proc.devRef .tc main_v36) = _
    after_results
    rw [show V8 m outs c (Proc.devRef .tc main_v4) = chunks m 0 from V8_main_v4 m outs c]
    rfl
  | 1 =>
    show StableHlo.after hostOps4 (V8 m outs c) (Proc.devRef .tc main_v38) = _
    after_results
    rw [show V8 m outs c (Proc.devRef .tc main_v5) = chunks m 1 from V8_main_v5 m outs c]
    rfl

/-- Region 4 is entered with the node features in its windows' array. -/
theorem feat4_of_V (outs : Outs (F := F)) (c : Dev nD) : V9 m outs c main_v6 = feat m := V9_main_v6 m outs c

/-- Every table word of region 4 is a word of the edge list. -/
theorem tab4_apply (k : Fin 2) (i : Fin 50000) :
    tab4 m k (ValueIdx.ix1 i) = edges m (ValueIdx.ix2 k ⟨4 * 50000 + i.val, by omega⟩) :=
  (chunk_apply _ _ _ ⟨4, by omega⟩ rfl rfl i).trans (chunks_apply m k _ i)

theorem tab4_lt (hr : ∀ i, (edges m i).toNat < 50000) (k : Fin 2) (i : S50000.Idx) : (tab4 m k i).toNat < 50000 :=
  chunk_lt m hr k _ _ i

/-- Tables whose words are node numbers put every block of region 4's two gathered windows inside the feature array. -/
theorem ok4_of_lt (pf : pre4.Contents (Elt F)) (h0 : ∀ i : S50000.Idx, (pf 0 i).toNat < 50000)
    (h1 : ∀ i : S50000.Idx, (pf 1 i).toNat < 50000) : ok4 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok4_of (hr : ∀ i, (edges m i).toNat < 50000) : ok4 (tbl4 m) :=
  ok4_of_lt (tbl4 m) (tab4_lt m hr 0) (tab4_lt m hr 1)

/-- Region 4's tables, admissible. -/
def adm4 (hr : ∀ i, (edges m i).toNat < 50000) : (pcfg4 (F := F)).Adm := ⟨tbl4 m, ok4_of m hr⟩

/-! ## Region 5: its two tables are chunk 5 of the source and of the destination nodes -/

/-- Table `k` of region 5 (0: source nodes, 1: destination nodes of its 50000 edges), as words. -/
def tab5 (k : Fin 2) : (⟨S50000, .i32⟩ : BufTy).Contents (Elt F) :=
  chunk (chunks m k) ![5, 0] slices_S16x50000_S1x50000_5_0

/-- The contents of region 5's two prefetched tables, as a function of the launch contents only. -/
def tbl5 : pre5.Contents (Elt F) := fun
  | 0 => tab5 m 0
  | 1 => tab5 m 1
  | ⟨_ + 2, h⟩ => absurd h (Nat.not_lt.2 (Nat.le_add_left _ _))

theorem tbl5_zero : tbl5 m 0 = tab5 m 0 := rfl
theorem tbl5_one : tbl5 m 1 = tab5 m 1 := rfl

/-- Region 5 is entered with its tables at `tbl5`: the host stretch before it slices chunk 5 off the two chunked rows,
    which no earlier item has written since the first stretch made them. -/
theorem tbl5_of_V (outs : Outs (F := F)) (c : Dev nD) (k : Fin pre5.K) : V11 m outs c (pre5.ref k) = tbl5 m k := by
  match k with
  | 0 =>
    show StableHlo.after hostOps5 (V10 m outs c) (Proc.devRef .tc main_v43) = _
    after_results
    rw [show V10 m outs c (Proc.devRef .tc main_v4) = chunks m 0 from V10_main_v4 m outs c]
    rfl
  | 1 =>
    show StableHlo.after hostOps5 (V10 m outs c) (Proc.devRef .tc main_v45) = _
    after_results
    rw [show V10 m outs c (Proc.devRef .tc main_v5) = chunks m 1 from V10_main_v5 m outs c]
    rfl

/-- Region 5 is entered with the node features in its windows' array. -/
theorem feat5_of_V (outs : Outs (F := F)) (c : Dev nD) : V11 m outs c main_v6 = feat m := V11_main_v6 m outs c

/-- Every table word of region 5 is a word of the edge list. -/
theorem tab5_apply (k : Fin 2) (i : Fin 50000) :
    tab5 m k (ValueIdx.ix1 i) = edges m (ValueIdx.ix2 k ⟨5 * 50000 + i.val, by omega⟩) :=
  (chunk_apply _ _ _ ⟨5, by omega⟩ rfl rfl i).trans (chunks_apply m k _ i)

theorem tab5_lt (hr : ∀ i, (edges m i).toNat < 50000) (k : Fin 2) (i : S50000.Idx) : (tab5 m k i).toNat < 50000 :=
  chunk_lt m hr k _ _ i

/-- Tables whose words are node numbers put every block of region 5's two gathered windows inside the feature array. -/
theorem ok5_of_lt (pf : pre5.Contents (Elt F)) (h0 : ∀ i : S50000.Idx, (pf 0 i).toNat < 50000)
    (h1 : ∀ i : S50000.Idx, (pf 1 i).toNat < 50000) : ok5 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok5_of (hr : ∀ i, (edges m i).toNat < 50000) : ok5 (tbl5 m) :=
  ok5_of_lt (tbl5 m) (tab5_lt m hr 0) (tab5_lt m hr 1)

/-- Region 5's tables, admissible. -/
def adm5 (hr : ∀ i, (edges m i).toNat < 50000) : (pcfg5 (F := F)).Adm := ⟨tbl5 m, ok5_of m hr⟩

/-! ## Region 6: its two tables are chunk 6 of the source and of the destination nodes -/

/-- Table `k` of region 6 (0: source nodes, 1: destination nodes of its 50000 edges), as words. -/
def tab6 (k : Fin 2) : (⟨S50000, .i32⟩ : BufTy).Contents (Elt F) :=
  chunk (chunks m k) ![6, 0] slices_S16x50000_S1x50000_6_0

/-- The contents of region 6's two prefetched tables, as a function of the launch contents only. -/
def tbl6 : pre6.Contents (Elt F) := fun
  | 0 => tab6 m 0
  | 1 => tab6 m 1
  | ⟨_ + 2, h⟩ => absurd h (Nat.not_lt.2 (Nat.le_add_left _ _))

theorem tbl6_zero : tbl6 m 0 = tab6 m 0 := rfl
theorem tbl6_one : tbl6 m 1 = tab6 m 1 := rfl

/-- Region 6 is entered with its tables at `tbl6`: the host stretch before it slices chunk 6 off the two chunked rows,
    which no earlier item has written since the first stretch made them. -/
theorem tbl6_of_V (outs : Outs (F := F)) (c : Dev nD) (k : Fin pre6.K) : V13 m outs c (pre6.ref k) = tbl6 m k := by
  match k with
  | 0 =>
    show StableHlo.after hostOps6 (V12 m outs c) (Proc.devRef .tc main_v50) = _
    after_results
    rw [show V12 m outs c (Proc.devRef .tc main_v4) = chunks m 0 from V12_main_v4 m outs c]
    rfl
  | 1 =>
    show StableHlo.after hostOps6 (V12 m outs c) (Proc.devRef .tc main_v52) = _
    after_results
    rw [show V12 m outs c (Proc.devRef .tc main_v5) = chunks m 1 from V12_main_v5 m outs c]
    rfl

/-- Region 6 is entered with the node features in its windows' array. -/
theorem feat6_of_V (outs : Outs (F := F)) (c : Dev nD) : V13 m outs c main_v6 = feat m := V13_main_v6 m outs c

/-- Every table word of region 6 is a word of the edge list. -/
theorem tab6_apply (k : Fin 2) (i : Fin 50000) :
    tab6 m k (ValueIdx.ix1 i) = edges m (ValueIdx.ix2 k ⟨6 * 50000 + i.val, by omega⟩) :=
  (chunk_apply _ _ _ ⟨6, by omega⟩ rfl rfl i).trans (chunks_apply m k _ i)

theorem tab6_lt (hr : ∀ i, (edges m i).toNat < 50000) (k : Fin 2) (i : S50000.Idx) : (tab6 m k i).toNat < 50000 :=
  chunk_lt m hr k _ _ i

/-- Tables whose words are node numbers put every block of region 6's two gathered windows inside the feature array. -/
theorem ok6_of_lt (pf : pre6.Contents (Elt F)) (h0 : ∀ i : S50000.Idx, (pf 0 i).toNat < 50000)
    (h1 : ∀ i : S50000.Idx, (pf 1 i).toNat < 50000) : ok6 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok6_of (hr : ∀ i, (edges m i).toNat < 50000) : ok6 (tbl6 m) :=
  ok6_of_lt (tbl6 m) (tab6_lt m hr 0) (tab6_lt m hr 1)

/-- Region 6's tables, admissible. -/
def adm6 (hr : ∀ i, (edges m i).toNat < 50000) : (pcfg6 (F := F)).Adm := ⟨tbl6 m, ok6_of m hr⟩

/-! ## Region 7: its two tables are chunk 7 of the source and of the destination nodes -/

/-- Table `k` of region 7 (0: source nodes, 1: destination nodes of its 50000 edges), as words. -/
def tab7 (k : Fin 2) : (⟨S50000, .i32⟩ : BufTy).Contents (Elt F) :=
  chunk (chunks m k) ![7, 0] slices_S16x50000_S1x50000_7_0

/-- The contents of region 7's two prefetched tables, as a function of the launch contents only. -/
def tbl7 : pre7.Contents (Elt F) := fun
  | 0 => tab7 m 0
  | 1 => tab7 m 1
  | ⟨_ + 2, h⟩ => absurd h (Nat.not_lt.2 (Nat.le_add_left _ _))

theorem tbl7_zero : tbl7 m 0 = tab7 m 0 := rfl
theorem tbl7_one : tbl7 m 1 = tab7 m 1 := rfl

/-- Region 7 is entered with its tables at `tbl7`: the host stretch before it slices chunk 7 off the two chunked rows,
    which no earlier item has written since the first stretch made them. -/
theorem tbl7_of_V (outs : Outs (F := F)) (c : Dev nD) (k : Fin pre7.K) : V15 m outs c (pre7.ref k) = tbl7 m k := by
  match k with
  | 0 =>
    show StableHlo.after hostOps7 (V14 m outs c) (Proc.devRef .tc main_v57) = _
    after_results
    rw [show V14 m outs c (Proc.devRef .tc main_v4) = chunks m 0 from V14_main_v4 m outs c]
    rfl
  | 1 =>
    show StableHlo.after hostOps7 (V14 m outs c) (Proc.devRef .tc main_v59) = _
    after_results
    rw [show V14 m outs c (Proc.devRef .tc main_v5) = chunks m 1 from V14_main_v5 m outs c]
    rfl

/-- Region 7 is entered with the node features in its windows' array. -/
theorem feat7_of_V (outs : Outs (F := F)) (c : Dev nD) : V15 m outs c main_v6 = feat m := V15_main_v6 m outs c

/-- Every table word of region 7 is a word of the edge list. -/
theorem tab7_apply (k : Fin 2) (i : Fin 50000) :
    tab7 m k (ValueIdx.ix1 i) = edges m (ValueIdx.ix2 k ⟨7 * 50000 + i.val, by omega⟩) :=
  (chunk_apply _ _ _ ⟨7, by omega⟩ rfl rfl i).trans (chunks_apply m k _ i)

theorem tab7_lt (hr : ∀ i, (edges m i).toNat < 50000) (k : Fin 2) (i : S50000.Idx) : (tab7 m k i).toNat < 50000 :=
  chunk_lt m hr k _ _ i

/-- Tables whose words are node numbers put every block of region 7's two gathered windows inside the feature array. -/
theorem ok7_of_lt (pf : pre7.Contents (Elt F)) (h0 : ∀ i : S50000.Idx, (pf 0 i).toNat < 50000)
    (h1 : ∀ i : S50000.Idx, (pf 1 i).toNat < 50000) : ok7 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok7_of (hr : ∀ i, (edges m i).toNat < 50000) : ok7 (tbl7 m) :=
  ok7_of_lt (tbl7 m) (tab7_lt m hr 0) (tab7_lt m hr 1)

/-- Region 7's tables, admissible. -/
def adm7 (hr : ∀ i, (edges m i).toNat < 50000) : (pcfg7 (F := F)).Adm := ⟨tbl7 m, ok7_of m hr⟩

/-! ## Region 8: its two tables are chunk 8 of the source and of the destination nodes -/

/-- Table `k` of region 8 (0: source nodes, 1: destination nodes of its 50000 edges), as words. -/
def tab8 (k : Fin 2) : (⟨S50000, .i32⟩ : BufTy).Contents (Elt F) :=
  chunk (chunks m k) ![8, 0] slices_S16x50000_S1x50000_8_0

/-- The contents of region 8's two prefetched tables, as a function of the launch contents only. -/
def tbl8 : pre8.Contents (Elt F) := fun
  | 0 => tab8 m 0
  | 1 => tab8 m 1
  | ⟨_ + 2, h⟩ => absurd h (Nat.not_lt.2 (Nat.le_add_left _ _))

theorem tbl8_zero : tbl8 m 0 = tab8 m 0 := rfl
theorem tbl8_one : tbl8 m 1 = tab8 m 1 := rfl

/-- Region 8 is entered with its tables at `tbl8`: the host stretch before it slices chunk 8 off the two chunked rows,
    which no earlier item has written since the first stretch made them. -/
theorem tbl8_of_V (outs : Outs (F := F)) (c : Dev nD) (k : Fin pre8.K) : V17 m outs c (pre8.ref k) = tbl8 m k := by
  match k with
  | 0 =>
    show StableHlo.after hostOps8 (V16 m outs c) (Proc.devRef .tc main_v64) = _
    after_results
    rw [show V16 m outs c (Proc.devRef .tc main_v4) = chunks m 0 from V16_main_v4 m outs c]
    rfl
  | 1 =>
    show StableHlo.after hostOps8 (V16 m outs c) (Proc.devRef .tc main_v66) = _
    after_results
    rw [show V16 m outs c (Proc.devRef .tc main_v5) = chunks m 1 from V16_main_v5 m outs c]
    rfl

/-- Region 8 is entered with the node features in its windows' array. -/
theorem feat8_of_V (outs : Outs (F := F)) (c : Dev nD) : V17 m outs c main_v6 = feat m := V17_main_v6 m outs c

/-- Every table word of region 8 is a word of the edge list. -/
theorem tab8_apply (k : Fin 2) (i : Fin 50000) :
    tab8 m k (ValueIdx.ix1 i) = edges m (ValueIdx.ix2 k ⟨8 * 50000 + i.val, by omega⟩) :=
  (chunk_apply _ _ _ ⟨8, by omega⟩ rfl rfl i).trans (chunks_apply m k _ i)

theorem tab8_lt (hr : ∀ i, (edges m i).toNat < 50000) (k : Fin 2) (i : S50000.Idx) : (tab8 m k i).toNat < 50000 :=
  chunk_lt m hr k _ _ i

/-- Tables whose words are node numbers put every block of region 8's two gathered windows inside the feature array. -/
theorem ok8_of_lt (pf : pre8.Contents (Elt F)) (h0 : ∀ i : S50000.Idx, (pf 0 i).toNat < 50000)
    (h1 : ∀ i : S50000.Idx, (pf 1 i).toNat < 50000) : ok8 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok8_of (hr : ∀ i, (edges m i).toNat < 50000) : ok8 (tbl8 m) :=
  ok8_of_lt (tbl8 m) (tab8_lt m hr 0) (tab8_lt m hr 1)

/-- Region 8's tables, admissible. -/
def adm8 (hr : ∀ i, (edges m i).toNat < 50000) : (pcfg8 (F := F)).Adm := ⟨tbl8 m, ok8_of m hr⟩

/-! ## Region 9: its two tables are chunk 9 of the source and of the destination nodes -/

/-- Table `k` of region 9 (0: source nodes, 1: destination nodes of its 50000 edges), as words. -/
def tab9 (k : Fin 2) : (⟨S50000, .i32⟩ : BufTy).Contents (Elt F) :=
  chunk (chunks m k) ![9, 0] slices_S16x50000_S1x50000_9_0

/-- The contents of region 9's two prefetched tables, as a function of the launch contents only. -/
def tbl9 : pre9.Contents (Elt F) := fun
  | 0 => tab9 m 0
  | 1 => tab9 m 1
  | ⟨_ + 2, h⟩ => absurd h (Nat.not_lt.2 (Nat.le_add_left _ _))

theorem tbl9_zero : tbl9 m 0 = tab9 m 0 := rfl
theorem tbl9_one : tbl9 m 1 = tab9 m 1 := rfl

/-- Region 9 is entered with its tables at `tbl9`: the host stretch before it slices chunk 9 off the two chunked rows,
    which no earlier item has written since the first stretch made them. -/
theorem tbl9_of_V (outs : Outs (F := F)) (c : Dev nD) (k : Fin pre9.K) : V19 m outs c (pre9.ref k) = tbl9 m k := by
  match k with
  | 0 =>
    show StableHlo.after hostOps9 (V18 m outs c) (Proc.devRef .tc main_v71) = _
    after_results
    rw [show V18 m outs c (Proc.devRef .tc main_v4) = chunks m 0 from V18_main_v4 m outs c]
    rfl
  | 1 =>
    show StableHlo.after hostOps9 (V18 m outs c) (Proc.devRef .tc main_v73) = _
    after_results
    rw [show V18 m outs c (Proc.devRef .tc main_v5) = chunks m 1 from V18_main_v5 m outs c]
    rfl

/-- Region 9 is entered with the node features in its windows' array. -/
theorem feat9_of_V (outs : Outs (F := F)) (c : Dev nD) : V19 m outs c main_v6 = feat m := V19_main_v6 m outs c

/-- Every table word of region 9 is a word of the edge list. -/
theorem tab9_apply (k : Fin 2) (i : Fin 50000) :
    tab9 m k (ValueIdx.ix1 i) = edges m (ValueIdx.ix2 k ⟨9 * 50000 + i.val, by omega⟩) :=
  (chunk_apply _ _ _ ⟨9, by omega⟩ rfl rfl i).trans (chunks_apply m k _ i)

theorem tab9_lt (hr : ∀ i, (edges m i).toNat < 50000) (k : Fin 2) (i : S50000.Idx) : (tab9 m k i).toNat < 50000 :=
  chunk_lt m hr k _ _ i

/-- Tables whose words are node numbers put every block of region 9's two gathered windows inside the feature array. -/
theorem ok9_of_lt (pf : pre9.Contents (Elt F)) (h0 : ∀ i : S50000.Idx, (pf 0 i).toNat < 50000)
    (h1 : ∀ i : S50000.Idx, (pf 1 i).toNat < 50000) : ok9 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok9_of (hr : ∀ i, (edges m i).toNat < 50000) : ok9 (tbl9 m) :=
  ok9_of_lt (tbl9 m) (tab9_lt m hr 0) (tab9_lt m hr 1)

/-- Region 9's tables, admissible. -/
def adm9 (hr : ∀ i, (edges m i).toNat < 50000) : (pcfg9 (F := F)).Adm := ⟨tbl9 m, ok9_of m hr⟩

/-! ## Region 10: its two tables are chunk 10 of the source and of the destination nodes -/

/-- Table `k` of region 10 (0: source nodes, 1: destination nodes of its 50000 edges), as words. -/
def tab10 (k : Fin 2) : (⟨S50000, .i32⟩ : BufTy).Contents (Elt F) :=
  chunk (chunks m k) ![10, 0] slices_S16x50000_S1x50000_10_0

/-- The contents of region 10's two prefetched tables, as a function of the launch contents only. -/
def tbl10 : pre10.Contents (Elt F) := fun
  | 0 => tab10 m 0
  | 1 => tab10 m 1
  | ⟨_ + 2, h⟩ => absurd h (Nat.not_lt.2 (Nat.le_add_left _ _))

theorem tbl10_zero : tbl10 m 0 = tab10 m 0 := rfl
theorem tbl10_one : tbl10 m 1 = tab10 m 1 := rfl

/-- Region 10 is entered with its tables at `tbl10`: the host stretch before it slices chunk 10 off the two chunked rows,
    which no earlier item has written since the first stretch made them. -/
theorem tbl10_of_V (outs : Outs (F := F)) (c : Dev nD) (k : Fin pre10.K) : V21 m outs c (pre10.ref k) = tbl10 m k := by
  match k with
  | 0 =>
    show StableHlo.after hostOps10 (V20 m outs c) (Proc.devRef .tc main_v78) = _
    after_results
    rw [show V20 m outs c (Proc.devRef .tc main_v4) = chunks m 0 from V20_main_v4 m outs c]
    rfl
  | 1 =>
    show StableHlo.after hostOps10 (V20 m outs c) (Proc.devRef .tc main_v80) = _
    after_results
    rw [show V20 m outs c (Proc.devRef .tc main_v5) = chunks m 1 from V20_main_v5 m outs c]
    rfl

/-- Region 10 is entered with the node features in its windows' array. -/
theorem feat10_of_V (outs : Outs (F := F)) (c : Dev nD) : V21 m outs c main_v6 = feat m := V21_main_v6 m outs c

/-- Every table word of region 10 is a word of the edge list. -/
theorem tab10_apply (k : Fin 2) (i : Fin 50000) :
    tab10 m k (ValueIdx.ix1 i) = edges m (ValueIdx.ix2 k ⟨10 * 50000 + i.val, by omega⟩) :=
  (chunk_apply _ _ _ ⟨10, by omega⟩ rfl rfl i).trans (chunks_apply m k _ i)

theorem tab10_lt (hr : ∀ i, (edges m i).toNat < 50000) (k : Fin 2) (i : S50000.Idx) : (tab10 m k i).toNat < 50000 :=
  chunk_lt m hr k _ _ i

/-- Tables whose words are node numbers put every block of region 10's two gathered windows inside the feature array. -/
theorem ok10_of_lt (pf : pre10.Contents (Elt F)) (h0 : ∀ i : S50000.Idx, (pf 0 i).toNat < 50000)
    (h1 : ∀ i : S50000.Idx, (pf 1 i).toNat < 50000) : ok10 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok10_of (hr : ∀ i, (edges m i).toNat < 50000) : ok10 (tbl10 m) :=
  ok10_of_lt (tbl10 m) (tab10_lt m hr 0) (tab10_lt m hr 1)

/-- Region 10's tables, admissible. -/
def adm10 (hr : ∀ i, (edges m i).toNat < 50000) : (pcfg10 (F := F)).Adm := ⟨tbl10 m, ok10_of m hr⟩

/-! ## Region 11: its two tables are chunk 11 of the source and of the destination nodes -/

/-- Table `k` of region 11 (0: source nodes, 1: destination nodes of its 50000 edges), as words. -/
def tab11 (k : Fin 2) : (⟨S50000, .i32⟩ : BufTy).Contents (Elt F) :=
  chunk (chunks m k) ![11, 0] slices_S16x50000_S1x50000_11_0

/-- The contents of region 11's two prefetched tables, as a function of the launch contents only. -/
def tbl11 : pre11.Contents (Elt F) := fun
  | 0 => tab11 m 0
  | 1 => tab11 m 1
  | ⟨_ + 2, h⟩ => absurd h (Nat.not_lt.2 (Nat.le_add_left _ _))

theorem tbl11_zero : tbl11 m 0 = tab11 m 0 := rfl
theorem tbl11_one : tbl11 m 1 = tab11 m 1 := rfl

/-- Region 11 is entered with its tables at `tbl11`: the host stretch before it slices chunk 11 off the two chunked rows,
    which no earlier item has written since the first stretch made them. -/
theorem tbl11_of_V (outs : Outs (F := F)) (c : Dev nD) (k : Fin pre11.K) : V23 m outs c (pre11.ref k) = tbl11 m k := by
  match k with
  | 0 =>
    show StableHlo.after hostOps11 (V22 m outs c) (Proc.devRef .tc main_v85) = _
    after_results
    rw [show V22 m outs c (Proc.devRef .tc main_v4) = chunks m 0 from V22_main_v4 m outs c]
    rfl
  | 1 =>
    show StableHlo.after hostOps11 (V22 m outs c) (Proc.devRef .tc main_v87) = _
    after_results
    rw [show V22 m outs c (Proc.devRef .tc main_v5) = chunks m 1 from V22_main_v5 m outs c]
    rfl

/-- Region 11 is entered with the node features in its windows' array. -/
theorem feat11_of_V (outs : Outs (F := F)) (c : Dev nD) : V23 m outs c main_v6 = feat m := V23_main_v6 m outs c

/-- Every table word of region 11 is a word of the edge list. -/
theorem tab11_apply (k : Fin 2) (i : Fin 50000) :
    tab11 m k (ValueIdx.ix1 i) = edges m (ValueIdx.ix2 k ⟨11 * 50000 + i.val, by omega⟩) :=
  (chunk_apply _ _ _ ⟨11, by omega⟩ rfl rfl i).trans (chunks_apply m k _ i)

theorem tab11_lt (hr : ∀ i, (edges m i).toNat < 50000) (k : Fin 2) (i : S50000.Idx) : (tab11 m k i).toNat < 50000 :=
  chunk_lt m hr k _ _ i

/-- Tables whose words are node numbers put every block of region 11's two gathered windows inside the feature array. -/
theorem ok11_of_lt (pf : pre11.Contents (Elt F)) (h0 : ∀ i : S50000.Idx, (pf 0 i).toNat < 50000)
    (h1 : ∀ i : S50000.Idx, (pf 1 i).toNat < 50000) : ok11 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok11_of (hr : ∀ i, (edges m i).toNat < 50000) : ok11 (tbl11 m) :=
  ok11_of_lt (tbl11 m) (tab11_lt m hr 0) (tab11_lt m hr 1)

/-- Region 11's tables, admissible. -/
def adm11 (hr : ∀ i, (edges m i).toNat < 50000) : (pcfg11 (F := F)).Adm := ⟨tbl11 m, ok11_of m hr⟩

/-! ## Region 12: its two tables are chunk 12 of the source and of the destination nodes -/

/-- Table `k` of region 12 (0: source nodes, 1: destination nodes of its 50000 edges), as words. -/
def tab12 (k : Fin 2) : (⟨S50000, .i32⟩ : BufTy).Contents (Elt F) :=
  chunk (chunks m k) ![12, 0] slices_S16x50000_S1x50000_12_0

/-- The contents of region 12's two prefetched tables, as a function of the launch contents only. -/
def tbl12 : pre12.Contents (Elt F) := fun
  | 0 => tab12 m 0
  | 1 => tab12 m 1
  | ⟨_ + 2, h⟩ => absurd h (Nat.not_lt.2 (Nat.le_add_left _ _))

theorem tbl12_zero : tbl12 m 0 = tab12 m 0 := rfl
theorem tbl12_one : tbl12 m 1 = tab12 m 1 := rfl

/-- Region 12 is entered with its tables at `tbl12`: the host stretch before it slices chunk 12 off the two chunked rows,
    which no earlier item has written since the first stretch made them. -/
theorem tbl12_of_V (outs : Outs (F := F)) (c : Dev nD) (k : Fin pre12.K) : V25 m outs c (pre12.ref k) = tbl12 m k := by
  match k with
  | 0 =>
    show StableHlo.after hostOps12 (V24 m outs c) (Proc.devRef .tc main_v92) = _
    after_results
    rw [show V24 m outs c (Proc.devRef .tc main_v4) = chunks m 0 from V24_main_v4 m outs c]
    rfl
  | 1 =>
    show StableHlo.after hostOps12 (V24 m outs c) (Proc.devRef .tc main_v94) = _
    after_results
    rw [show V24 m outs c (Proc.devRef .tc main_v5) = chunks m 1 from V24_main_v5 m outs c]
    rfl

/-- Region 12 is entered with the node features in its windows' array. -/
theorem feat12_of_V (outs : Outs (F := F)) (c : Dev nD) : V25 m outs c main_v6 = feat m := V25_main_v6 m outs c

/-- Every table word of region 12 is a word of the edge list. -/
theorem tab12_apply (k : Fin 2) (i : Fin 50000) :
    tab12 m k (ValueIdx.ix1 i) = edges m (ValueIdx.ix2 k ⟨12 * 50000 + i.val, by omega⟩) :=
  (chunk_apply _ _ _ ⟨12, by omega⟩ rfl rfl i).trans (chunks_apply m k _ i)

theorem tab12_lt (hr : ∀ i, (edges m i).toNat < 50000) (k : Fin 2) (i : S50000.Idx) : (tab12 m k i).toNat < 50000 :=
  chunk_lt m hr k _ _ i

/-- Tables whose words are node numbers put every block of region 12's two gathered windows inside the feature array. -/
theorem ok12_of_lt (pf : pre12.Contents (Elt F)) (h0 : ∀ i : S50000.Idx, (pf 0 i).toNat < 50000)
    (h1 : ∀ i : S50000.Idx, (pf 1 i).toNat < 50000) : ok12 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok12_of (hr : ∀ i, (edges m i).toNat < 50000) : ok12 (tbl12 m) :=
  ok12_of_lt (tbl12 m) (tab12_lt m hr 0) (tab12_lt m hr 1)

/-- Region 12's tables, admissible. -/
def adm12 (hr : ∀ i, (edges m i).toNat < 50000) : (pcfg12 (F := F)).Adm := ⟨tbl12 m, ok12_of m hr⟩

/-! ## Region 13: its two tables are chunk 13 of the source and of the destination nodes -/

/-- Table `k` of region 13 (0: source nodes, 1: destination nodes of its 50000 edges), as words. -/
def tab13 (k : Fin 2) : (⟨S50000, .i32⟩ : BufTy).Contents (Elt F) :=
  chunk (chunks m k) ![13, 0] slices_S16x50000_S1x50000_13_0

/-- The contents of region 13's two prefetched tables, as a function of the launch contents only. -/
def tbl13 : pre13.Contents (Elt F) := fun
  | 0 => tab13 m 0
  | 1 => tab13 m 1
  | ⟨_ + 2, h⟩ => absurd h (Nat.not_lt.2 (Nat.le_add_left _ _))

theorem tbl13_zero : tbl13 m 0 = tab13 m 0 := rfl
theorem tbl13_one : tbl13 m 1 = tab13 m 1 := rfl

/-- Region 13 is entered with its tables at `tbl13`: the host stretch before it slices chunk 13 off the two chunked rows,
    which no earlier item has written since the first stretch made them. -/
theorem tbl13_of_V (outs : Outs (F := F)) (c : Dev nD) (k : Fin pre13.K) : V27 m outs c (pre13.ref k) = tbl13 m k := by
  match k with
  | 0 =>
    show StableHlo.after hostOps13 (V26 m outs c) (Proc.devRef .tc main_v99) = _
    after_results
    rw [show V26 m outs c (Proc.devRef .tc main_v4) = chunks m 0 from V26_main_v4 m outs c]
    rfl
  | 1 =>
    show StableHlo.after hostOps13 (V26 m outs c) (Proc.devRef .tc main_v101) = _
    after_results
    rw [show V26 m outs c (Proc.devRef .tc main_v5) = chunks m 1 from V26_main_v5 m outs c]
    rfl

/-- Region 13 is entered with the node features in its windows' array. -/
theorem feat13_of_V (outs : Outs (F := F)) (c : Dev nD) : V27 m outs c main_v6 = feat m := V27_main_v6 m outs c

/-- Every table word of region 13 is a word of the edge list. -/
theorem tab13_apply (k : Fin 2) (i : Fin 50000) :
    tab13 m k (ValueIdx.ix1 i) = edges m (ValueIdx.ix2 k ⟨13 * 50000 + i.val, by omega⟩) :=
  (chunk_apply _ _ _ ⟨13, by omega⟩ rfl rfl i).trans (chunks_apply m k _ i)

theorem tab13_lt (hr : ∀ i, (edges m i).toNat < 50000) (k : Fin 2) (i : S50000.Idx) : (tab13 m k i).toNat < 50000 :=
  chunk_lt m hr k _ _ i

/-- Tables whose words are node numbers put every block of region 13's two gathered windows inside the feature array. -/
theorem ok13_of_lt (pf : pre13.Contents (Elt F)) (h0 : ∀ i : S50000.Idx, (pf 0 i).toNat < 50000)
    (h1 : ∀ i : S50000.Idx, (pf 1 i).toNat < 50000) : ok13 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok13_of (hr : ∀ i, (edges m i).toNat < 50000) : ok13 (tbl13 m) :=
  ok13_of_lt (tbl13 m) (tab13_lt m hr 0) (tab13_lt m hr 1)

/-- Region 13's tables, admissible. -/
def adm13 (hr : ∀ i, (edges m i).toNat < 50000) : (pcfg13 (F := F)).Adm := ⟨tbl13 m, ok13_of m hr⟩

/-! ## Region 14: its two tables are chunk 14 of the source and of the destination nodes -/

/-- Table `k` of region 14 (0: source nodes, 1: destination nodes of its 50000 edges), as words. -/
def tab14 (k : Fin 2) : (⟨S50000, .i32⟩ : BufTy).Contents (Elt F) :=
  chunk (chunks m k) ![14, 0] slices_S16x50000_S1x50000_14_0

/-- The contents of region 14's two prefetched tables, as a function of the launch contents only. -/
def tbl14 : pre14.Contents (Elt F) := fun
  | 0 => tab14 m 0
  | 1 => tab14 m 1
  | ⟨_ + 2, h⟩ => absurd h (Nat.not_lt.2 (Nat.le_add_left _ _))

theorem tbl14_zero : tbl14 m 0 = tab14 m 0 := rfl
theorem tbl14_one : tbl14 m 1 = tab14 m 1 := rfl

/-- Region 14 is entered with its tables at `tbl14`: the host stretch before it slices chunk 14 off the two chunked rows,
    which no earlier item has written since the first stretch made them. -/
theorem tbl14_of_V (outs : Outs (F := F)) (c : Dev nD) (k : Fin pre14.K) : V29 m outs c (pre14.ref k) = tbl14 m k := by
  match k with
  | 0 =>
    show StableHlo.after hostOps14 (V28 m outs c) (Proc.devRef .tc main_v106) = _
    after_results
    rw [show V28 m outs c (Proc.devRef .tc main_v4) = chunks m 0 from V28_main_v4 m outs c]
    rfl
  | 1 =>
    show StableHlo.after hostOps14 (V28 m outs c) (Proc.devRef .tc main_v108) = _
    after_results
    rw [show V28 m outs c (Proc.devRef .tc main_v5) = chunks m 1 from V28_main_v5 m outs c]
    rfl

/-- Region 14 is entered with the node features in its windows' array. -/
theorem feat14_of_V (outs : Outs (F := F)) (c : Dev nD) : V29 m outs c main_v6 = feat m := V29_main_v6 m outs c

/-- Every table word of region 14 is a word of the edge list. -/
theorem tab14_apply (k : Fin 2) (i : Fin 50000) :
    tab14 m k (ValueIdx.ix1 i) = edges m (ValueIdx.ix2 k ⟨14 * 50000 + i.val, by omega⟩) :=
  (chunk_apply _ _ _ ⟨14, by omega⟩ rfl rfl i).trans (chunks_apply m k _ i)

theorem tab14_lt (hr : ∀ i, (edges m i).toNat < 50000) (k : Fin 2) (i : S50000.Idx) : (tab14 m k i).toNat < 50000 :=
  chunk_lt m hr k _ _ i

/-- Tables whose words are node numbers put every block of region 14's two gathered windows inside the feature array. -/
theorem ok14_of_lt (pf : pre14.Contents (Elt F)) (h0 : ∀ i : S50000.Idx, (pf 0 i).toNat < 50000)
    (h1 : ∀ i : S50000.Idx, (pf 1 i).toNat < 50000) : ok14 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok14_of (hr : ∀ i, (edges m i).toNat < 50000) : ok14 (tbl14 m) :=
  ok14_of_lt (tbl14 m) (tab14_lt m hr 0) (tab14_lt m hr 1)

/-- Region 14's tables, admissible. -/
def adm14 (hr : ∀ i, (edges m i).toNat < 50000) : (pcfg14 (F := F)).Adm := ⟨tbl14 m, ok14_of m hr⟩

/-! ## Region 15: its two tables are chunk 15 of the source and of the destination nodes -/

/-- Table `k` of region 15 (0: source nodes, 1: destination nodes of its 50000 edges), as words. -/
def tab15 (k : Fin 2) : (⟨S50000, .i32⟩ : BufTy).Contents (Elt F) :=
  chunk (chunks m k) ![15, 0] slices_S16x50000_S1x50000_15_0

/-- The contents of region 15's two prefetched tables, as a function of the launch contents only. -/
def tbl15 : pre15.Contents (Elt F) := fun
  | 0 => tab15 m 0
  | 1 => tab15 m 1
  | ⟨_ + 2, h⟩ => absurd h (Nat.not_lt.2 (Nat.le_add_left _ _))

theorem tbl15_zero : tbl15 m 0 = tab15 m 0 := rfl
theorem tbl15_one : tbl15 m 1 = tab15 m 1 := rfl

/-- Region 15 is entered with its tables at `tbl15`: the host stretch before it slices chunk 15 off the two chunked rows,
    which no earlier item has written since the first stretch made them. -/
theorem tbl15_of_V (outs : Outs (F := F)) (c : Dev nD) (k : Fin pre15.K) : V31 m outs c (pre15.ref k) = tbl15 m k := by
  match k with
  | 0 =>
    show StableHlo.after hostOps15 (V30 m outs c) (Proc.devRef .tc main_v113) = _
    after_results
    rw [show V30 m outs c (Proc.devRef .tc main_v4) = chunks m 0 from V30_main_v4 m outs c]
    rfl
  | 1 =>
    show StableHlo.after hostOps15 (V30 m outs c) (Proc.devRef .tc main_v115) = _
    after_results
    rw [show V30 m outs c (Proc.devRef .tc main_v5) = chunks m 1 from V30_main_v5 m outs c]
    rfl

/-- Region 15 is entered with the node features in its windows' array. -/
theorem feat15_of_V (outs : Outs (F := F)) (c : Dev nD) : V31 m outs c main_v6 = feat m := V31_main_v6 m outs c

/-- Every table word of region 15 is a word of the edge list. -/
theorem tab15_apply (k : Fin 2) (i : Fin 50000) :
    tab15 m k (ValueIdx.ix1 i) = edges m (ValueIdx.ix2 k ⟨15 * 50000 + i.val, by omega⟩) :=
  (chunk_apply _ _ _ ⟨15, by omega⟩ rfl rfl i).trans (chunks_apply m k _ i)

theorem tab15_lt (hr : ∀ i, (edges m i).toNat < 50000) (k : Fin 2) (i : S50000.Idx) : (tab15 m k i).toNat < 50000 :=
  chunk_lt m hr k _ _ i

/-- Tables whose words are node numbers put every block of region 15's two gathered windows inside the feature array. -/
theorem ok15_of_lt (pf : pre15.Contents (Elt F)) (h0 : ∀ i : S50000.Idx, (pf 0 i).toNat < 50000)
    (h1 : ∀ i : S50000.Idx, (pf 1 i).toNat < 50000) : ok15 pf := by
  refine ⟨fun i => ⟨fun a => ?_, .inl rfl⟩, fun i => ⟨fun a => ?_, .inl rfl⟩⟩
  · match a with
    | ⟨0, _⟩ =>
      show ((pf 0 _).toNat + 1) * 1 ≤ 50000
      rw [Nat.mul_one]
      exact h0 _
    | ⟨1, _⟩ => show (0 + 1) * 1 ≤ 1; omega
    | ⟨2, _⟩ => show (0 + 1) * 96 ≤ 96; omega
  · match a with
    | ⟨0, _⟩ =>
      show ((pf 1 _).toNat + 1) * 1 ≤ 50000
      rw [Nat.mul_one]
      exact h1 _
    | ⟨1, _⟩ => show (0 + 1) * 1 ≤ 1; omega
    | ⟨2, _⟩ => show (0 + 1) * 96 ≤ 96; omega

theorem ok15_of (hr : ∀ i, (edges m i).toNat < 50000) : ok15 (tbl15 m) :=
  ok15_of_lt (tbl15 m) (tab15_lt m hr 0) (tab15_lt m hr 1)

/-- Region 15's tables, admissible. -/
def adm15 (hr : ∀ i, (edges m i).toNat < 50000) : (pcfg15 (F := F)).Adm := ⟨tbl15 m, ok15_of m hr⟩

end Cert.KernelIdeal.Tables
-- ==== Proof.KI.Chain.lean ====
/-
The valuations between the items of the program with the regions' outputs tied down.

Between two items the unscoped buffers hold: the launch contents, then what each host stretch computes, then — after a
region — the same but for the region's output array, which holds what the region leaves. What region K leaves is a
function of the valuation it is entered from; given these sixteen functions (`Leaves`), the valuations `W1 … W33` are
defined outright, each from the previous one, and the family `outs` read off them makes the valuations `V1 … V33`,
which are stated over an arbitrary family, equal to them.  The tables' and the features' contents at each region's entry
carry over.

Laid out from the template: the fields of `Leaves`, the definitions `W2 … W33`, the cases of `outs`, and the sections
"Item 3 …" onwards (one text each, region 0's, with the region number, its output buffer, its valuations and its host
stretch substituted).  The rest is the template's own text, copied unchanged.
-/
import proofs.«418705_j10376640987952_2_alg».proof.Proof.KI.Tables

set_option maxRecDepth 1400

noncomputable section

namespace Cert.KernelIdeal.Chain

open Cert.KernelIdeal Cert.KernelIdeal.Gen Cert.KernelIdeal.GenP Cert.KernelIdeal.Tables
open Idealize.ShloMosaic Idealize.ShloMosaic.TcCoe

/-- What each region leaves in its output array, as a function of the valuations (one per device) it is entered from. -/
structure Leaves (F : FTy → Type) where
  o0 : (Dev nD → Valuation τ sig (Elt F)) → (c : Dev nD) → Buf (Elt F) ((c : Thread nD τ).loc main_v11)
  o1 : (Dev nD → Valuation τ sig (Elt F)) → (c : Dev nD) → Buf (Elt F) ((c : Thread nD τ).loc main_v18)
  o2 : (Dev nD → Valuation τ sig (Elt F)) → (c : Dev nD) → Buf (Elt F) ((c : Thread nD τ).loc main_v25)
  o3 : (Dev nD → Valuation τ sig (Elt F)) → (c : Dev nD) → Buf (Elt F) ((c : Thread nD τ).loc main_v32)
  o4 : (Dev nD → Valuation τ sig (Elt F)) → (c : Dev nD) → Buf (Elt F) ((c : Thread nD τ).loc main_v39)
  o5 : (Dev nD → Valuation τ sig (Elt F)) → (c : Dev nD) → Buf (Elt F) ((c : Thread nD τ).loc main_v46)
  o6 : (Dev nD → Valuation τ sig (Elt F)) → (c : Dev nD) → Buf (Elt F) ((c : Thread nD τ).loc main_v53)
  o7 : (Dev nD → Valuation τ sig (Elt F)) → (c : Dev nD) → Buf (Elt F) ((c : Thread nD τ).loc main_v60)
  o8 : (Dev nD → Valuation τ sig (Elt F)) → (c : Dev nD) → Buf (Elt F) ((c : Thread nD τ).loc main_v67)
  o9 : (Dev nD → Valuation τ sig (Elt F)) → (c : Dev nD) → Buf (Elt F) ((c : Thread nD τ).loc main_v74)
  o10 : (Dev nD → Valuation τ sig (Elt F)) → (c : Dev nD) → Buf (Elt F) ((c : Thread nD τ).loc main_v81)
  o11 : (Dev nD → Valuation τ sig (Elt F)) → (c : Dev nD) → Buf (Elt F) ((c : Thread nD τ).loc main_v88)
  o12 : (Dev nD → Valuation τ sig (Elt F)) → (c : Dev nD) → Buf (Elt F) ((c : Thread nD τ).loc main_v95)
  o13 : (Dev nD → Valuation τ sig (Elt F)) → (c : Dev nD) → Buf (Elt F) ((c : Thread nD τ).loc main_v102)
  o14 : (Dev nD → Valuation τ sig (Elt F)) → (c : Dev nD) → Buf (Elt F) ((c : Thread nD τ).loc main_v109)
  o15 : (Dev nD → Valuation τ sig (Elt F)) → (c : Dev nD) → Buf (Elt F) ((c : Thread nD τ).loc main_v116)

variable {F : FTy → Type} [FloatOps F]
variable (m : (ℓ : Loc nD τ sig) → Buf (Elt F) ℓ) (L : Leaves F)

/-! ## The valuations -/

/-- The unscoped buffers after item 0, the first host stretch (nothing of `L` is read yet). -/
def W1 (L : Leaves F) (c : Dev nD) : Valuation τ sig (Elt F) := V1 m c
/-- After item 1, region 0: its output array holds what the region leaves, the rest is as it was entered. -/
def W2 (c : Dev nD) : Valuation τ sig (Elt F) := Function.update (W1 m L c) main_v11 (L.o0 (W1 m L) c)
/-- After item 2, the host stretch that follows region 0. -/
def W3 (c : Dev nD) : Valuation τ sig (Elt F) := StableHlo.after hostOps1 (W2 m L c)
/-- After item 3, region 1: its output array holds what the region leaves, the rest is as it was entered. -/
def W4 (c : Dev nD) : Valuation τ sig (Elt F) := Function.update (W3 m L c) main_v18 (L.o1 (W3 m L) c)
/-- After item 4, the host stretch that follows region 1. -/
def W5 (c : Dev nD) : Valuation τ sig (Elt F) := StableHlo.after hostOps2 (W4 m L c)
/-- After item 5, region 2: its output array holds what the region leaves, the rest is as it was entered. -/
def W6 (c : Dev nD) : Valuation τ sig (Elt F) := Function.update (W5 m L c) main_v25 (L.o2 (W5 m L) c)
/-- After item 6, the host stretch that follows region 2. -/
def W7 (c : Dev nD) : Valuation τ sig (Elt F) := StableHlo.after hostOps3 (W6 m L c)
/-- After item 7, region 3: its output array holds what the region leaves, the rest is as it was entered. -/
def W8 (c : Dev nD) : Valuation τ sig (Elt F) := Function.update (W7 m L c) main_v32 (L.o3 (W7 m L) c)
/-- After item 8, the host stretch that follows region 3. -/
def W9 (c : Dev nD) : Valuation τ sig (Elt F) := StableHlo.after hostOps4 (W8 m L c)
/-- After item 9, region 4: its output array holds what the region leaves, the rest is as it was entered. -/
def W10 (c : Dev nD) : Valuation τ sig (Elt F) := Function.update (W9 m L c) main_v39 (L.o4 (W9 m L) c)
/-- After item 10, the host stretch that follows region 4. -/
def W11 (c : Dev nD) : Valuation τ sig (Elt F) := StableHlo.after hostOps5 (W10 m L c)
/-- After item 11, region 5: its output array holds what the region leaves, the rest is as it was entered. -/
def W12 (c : Dev nD) : Valuation τ sig (Elt F) := Function.update (W11 m L c) main_v46 (L.o5 (W11 m L) c)
/-- After item 12, the host stretch that follows region 5. -/
def W13 (c : Dev nD) : Valuation τ sig (Elt F) := StableHlo.after hostOps6 (W12 m L c)
/-- After item 13, region 6: its output array holds what the region leaves, the rest is as it was entered. -/
def W14 (c : Dev nD) : Valuation τ sig (Elt F) := Function.update (W13 m L c) main_v53 (L.o6 (W13 m L) c)
/-- After item 14, the host stretch that follows region 6. -/
def W15 (c : Dev nD) : Valuation τ sig (Elt F) := StableHlo.after hostOps7 (W14 m L c)
/-- After item 15, region 7: its output array holds what the region leaves, the rest is as it was entered. -/
def W16 (c : Dev nD) : Valuation τ sig (Elt F) := Function.update (W15 m L c) main_v60 (L.o7 (W15 m L) c)
/-- After item 16, the host stretch that follows region 7. -/
def W17 (c : Dev nD) : Valuation τ sig (Elt F) := StableHlo.after hostOps8 (W16 m L c)
/-- After item 17, region 8: its output array holds what the region leaves, the rest is as it was entered. -/
def W18 (c : Dev nD) : Valuation τ sig (Elt F) := Function.update (W17 m L c) main_v67 (L.o8 (W17 m L) c)
/-- After item 18, the host stretch that follows region 8. -/
def W19 (c : Dev nD) : Valuation τ sig (Elt F) := StableHlo.after hostOps9 (W18 m L c)
/-- After item 19, region 9: its output array holds what the region leaves, the rest is as it was entered. -/
def W20 (c : Dev nD) : Valuation τ sig (Elt F) := Function.update (W19 m L c) main_v74 (L.o9 (W19 m L) c)
/-- After item 20, the host stretch that follows region 9. -/
def W21 (c : Dev nD) : Valuation τ sig (Elt F) := StableHlo.after hostOps10 (W20 m L c)
/-- After item 21, region 10: its output array holds what the region leaves, the rest is as it was entered. -/
def W22 (c : Dev nD) : Valuation τ sig (Elt F) := Function.update (W21 m L c) main_v81 (L.o10 (W21 m L) c)
/-- After item 22, the host stretch that follows region 10. -/
def W23 (c : Dev nD) : Valuation τ sig (Elt F) := StableHlo.after hostOps11 (W22 m L c)
/-- After item 23, region 11: its output array holds what the region leaves, the rest is as it was entered. -/
def W24 (c : Dev nD) : Valuation τ sig (Elt F) := Function.update (W23 m L c) main_v88 (L.o11 (W23 m L) c)
/-- After item 24, the host stretch that follows region 11. -/
def W25 (c : Dev nD) : Valuation τ sig (Elt F) := StableHlo.after hostOps12 (W24 m L c)
/-- After item 25, region 12: its output array holds what the region leaves, the rest is as it was entered. -/
def W26 (c : Dev nD) : Valuation τ sig (Elt F) := Function.update (W25 m L c) main_v95 (L.o12 (W25 m L) c)
/-- After item 26, the host stretch that follows region 12. -/
def W27 (c : Dev nD) : Valuation τ sig (Elt F) := StableHlo.after hostOps13 (W26 m L c)
/-- After item 27, region 13: its output array holds what the region leaves, the rest is as it was entered. -/
def W28 (c : Dev nD) : Valuation τ sig (Elt F) := Function.update (W27 m L c) main_v102 (L.o13 (W27 m L) c)
/-- After item 28, the host stretch that follows region 13. -/
def W29 (c : Dev nD) : Valuation τ sig (Elt F) := StableHlo.after hostOps14 (W28 m L c)
/-- After item 29, region 14: its output array holds what the region leaves, the rest is as it was entered. -/
def W30 (c : Dev nD) : Valuation τ sig (Elt F) := Function.update (W29 m L c) main_v109 (L.o14 (W29 m L) c)
/-- After item 30, the host stretch that follows region 14. -/
def W31 (c : Dev nD) : Valuation τ sig (Elt F) := StableHlo.after hostOps15 (W30 m L c)
/-- After item 31, region 15: its output array holds what the region leaves, the rest is as it was entered. -/
def W32 (c : Dev nD) : Valuation τ sig (Elt F) := Function.update (W31 m L c) main_v116 (L.o15 (W31 m L) c)
/-- After item 32, the host stretch that follows region 15. -/
def W33 (c : Dev nD) : Valuation τ sig (Elt F) := StableHlo.after hostOps16 (W32 m L c)

/-- The contents the regions leave, read off the valuations: after region K (item 2K+1) its output array holds what
    `W(2K+2)` holds there. -/
def outs : Outs (F := F) := fun J r c =>
  match J with
  | 2 => W2 m L c r
  | 4 => W4 m L c r
  | 6 => W6 m L c r
  | 8 => W8 m L c r
  | 10 => W10 m L c r
  | 12 => W12 m L c r
  | 14 => W14 m L c r
  | 16 => W16 m L c r
  | 18 => W18 m L c r
  | 20 => W20 m L c r
  | 22 => W22 m L c r
  | 24 => W24 m L c r
  | 26 => W26 m L c r
  | 28 => W28 m L c r
  | 30 => W30 m L c r
  | 32 => W32 m L c r
  | _ => W1 m L c r

/-! ## The valuations over `outs` are these -/

theorem V1_eq (c : Dev nD) : V1 m c = W1 m L c := rfl

/-! ### Item 2 (region 0) and item 3 (the host stretch after it) -/

/-- What `outs` says region 0 leaves is what `L` says it leaves from the valuation it is entered from. -/
theorem outs_apply_0 (c : Dev nD) : outs m L 2 main_v11 c = L.o0 (W1 m L) c := by
  show W2 m L c (Proc.devRef .tc main_v11) = _
  unfold W2
  exact Function.update_self ..

theorem V2_eq (c : Dev nD) : V2 m (outs m L) c = W2 m L c := by
  unfold W2
  rw [← outs_apply_0 m L c, ← V1_eq m L c]

theorem V3_eq (c : Dev nD) : V3 m (outs m L) c = W3 m L c := by
  show StableHlo.after hostOps1 (V2 m (outs m L) c) = StableHlo.after hostOps1 (W2 m L c)
  rw [V2_eq m L c]

/-- Region 0 is entered with its tables at `tbl0`. -/
theorem W_tbl0 (c : Dev nD) (k : Fin pre0.K) : W1 m L c (pre0.ref k) = tbl0 m k :=
  (congrFun (V1_eq m L c).symm _).trans (tbl0_of_V m (outs m L) c k)

/-- Region 0 is entered with the node features in its windows' array. -/
theorem W_feat0 (c : Dev nD) : W1 m L c main_v6 = feat m :=
  (congrFun (V1_eq m L c).symm _).trans (feat0_of_V m (outs m L) c)

/-- Region 0 changes its output array only. -/
theorem W_keep_0 (c : Dev nD) (b : Ref sig .tc) (hb : b ≠ main_v11) : W2 m L c b = W1 m L c b := by
  unfold W2
  exact Function.update_of_ne (StableHlo.devRef_ne_of_ne hb) ..

theorem W_out_0 (c : Dev nD) : W2 m L c main_v11 = L.o0 (W1 m L) c := by
  unfold W2
  exact Function.update_self ..

/-! ### Item 4 (region 1) and item 5 (the host stretch after it) -/

/-- What `outs` says region 1 leaves is what `L` says it leaves from the valuation it is entered from. -/
theorem outs_apply_1 (c : Dev nD) : outs m L 4 main_v18 c = L.o1 (W3 m L) c := by
  show W4 m L c (Proc.devRef .tc main_v18) = _
  unfold W4
  exact Function.update_self ..

theorem V4_eq (c : Dev nD) : V4 m (outs m L) c = W4 m L c := by
  unfold W4
  rw [← outs_apply_1 m L c, ← V3_eq m L c]

theorem V5_eq (c : Dev nD) : V5 m (outs m L) c = W5 m L c := by
  show StableHlo.after hostOps2 (V4 m (outs m L) c) = StableHlo.after hostOps2 (W4 m L c)
  rw [V4_eq m L c]

/-- Region 1 is entered with its tables at `tbl1`. -/
theorem W_tbl1 (c : Dev nD) (k : Fin pre1.K) : W3 m L c (pre1.ref k) = tbl1 m k :=
  (congrFun (V3_eq m L c).symm _).trans (tbl1_of_V m (outs m L) c k)

/-- Region 1 is entered with the node features in its windows' array. -/
theorem W_feat1 (c : Dev nD) : W3 m L c main_v6 = feat m :=
  (congrFun (V3_eq m L c).symm _).trans (feat1_of_V m (outs m L) c)

/-- Region 1 changes its output array only. -/
theorem W_keep_1 (c : Dev nD) (b : Ref sig .tc) (hb : b ≠ main_v18) : W4 m L c b = W3 m L c b := by
  unfold W4
  exact Function.update_of_ne (StableHlo.devRef_ne_of_ne hb) ..

theorem W_out_1 (c : Dev nD) : W4 m L c main_v18 = L.o1 (W3 m L) c := by
  unfold W4
  exact Function.update_self ..

/-! ### Item 6 (region 2) and item 7 (the host stretch after it) -/

/-- What `outs` says region 2 leaves is what `L` says it leaves from the valuation it is entered from. -/
theorem outs_apply_2 (c : Dev nD) : outs m L 6 main_v25 c = L.o2 (W5 m L) c := by
  show W6 m L c (Proc.devRef .tc main_v25) = _
  unfold W6
  exact Function.update_self ..

theorem V6_eq (c : Dev nD) : V6 m (outs m L) c = W6 m L c := by
  unfold W6
  rw [← outs_apply_2 m L c, ← V5_eq m L c]

theorem V7_eq (c : Dev nD) : V7 m (outs m L) c = W7 m L c := by
  show StableHlo.after hostOps3 (V6 m (outs m L) c) = StableHlo.after hostOps3 (W6 m L c)
  rw [V6_eq m L c]

/-- Region 2 is entered with its tables at `tbl2`. -/
theorem W_tbl2 (c : Dev nD) (k : Fin pre2.K) : W5 m L c (pre2.ref k) = tbl2 m k :=
  (congrFun (V5_eq m L c).symm _).trans (tbl2_of_V m (outs m L) c k)

/-- Region 2 is entered with the node features in its windows' array. -/
theorem W_feat2 (c : Dev nD) : W5 m L c main_v6 = feat m :=
  (congrFun (V5_eq m L c).symm _).trans (feat2_of_V m (outs m L) c)

/-- Region 2 changes its output array only. -/
theorem W_keep_2 (c : Dev nD) (b : Ref sig .tc) (hb : b ≠ main_v25) : W6 m L c b = W5 m L c b := by
  unfold W6
  exact Function.update_of_ne (StableHlo.devRef_ne_of_ne hb) ..

theorem W_out_2 (c : Dev nD) : W6 m L c main_v25 = L.o2 (W5 m L) c := by
  unfold W6
  exact Function.update_self ..

/-! ### Item 8 (region 3) and item 9 (the host stretch after it) -/

/-- What `outs` says region 3 leaves is what `L` says it leaves from the valuation it is entered from. -/
theorem outs_apply_3 (c : Dev nD) : outs m L 8 main_v32 c = L.o3 (W7 m L) c := by
  show W8 m L c (Proc.devRef .tc main_v32) = _
  unfold W8
  exact Function.update_self ..

theorem V8_eq (c : Dev nD) : V8 m (outs m L) c = W8 m L c := by
  unfold W8
  rw [← outs_apply_3 m L c, ← V7_eq m L c]

theorem V9_eq (c : Dev nD) : V9 m (outs m L) c = W9 m L c := by
  show StableHlo.after hostOps4 (V8 m (outs m L) c) = StableHlo.after hostOps4 (W8 m L c)
  rw [V8_eq m L c]

/-- Region 3 is entered with its tables at `tbl3`. -/
theorem W_tbl3 (c : Dev nD) (k : Fin pre3.K) : W7 m L c (pre3.ref k) = tbl3 m k :=
  (congrFun (V7_eq m L c).symm _).trans (tbl3_of_V m (outs m L) c k)

/-- Region 3 is entered with the node features in its windows' array. -/
theorem W_feat3 (c : Dev nD) : W7 m L c main_v6 = feat m :=
  (congrFun (V7_eq m L c).symm _).trans (feat3_of_V m (outs m L) c)

/-- Region 3 changes its output array only. -/
theorem W_keep_3 (c : Dev nD) (b : Ref sig .tc) (hb : b ≠ main_v32) : W8 m L c b = W7 m L c b := by
  unfold W8
  exact Function.update_of_ne (StableHlo.devRef_ne_of_ne hb) ..

theorem W_out_3 (c : Dev nD) : W8 m L c main_v32 = L.o3 (W7 m L) c := by
  unfold W8
  exact Function.update_self ..

/-! ### Item 10 (region 4) and item 11 (the host stretch after it) -/

/-- What `outs` says region 4 leaves is what `L` says it leaves from the valuation it is entered from. -/
theorem outs_apply_4 (c : Dev nD) : outs m L 10 main_v39 c = L.o4 (W9 m L) c := by
  show W10 m L c (Proc.devRef .tc main_v39) = _
  unfold W10
  exact Function.update_self ..

theorem V10_eq (c : Dev nD) : V10 m (outs m L) c = W10 m L c := by
  unfold W10
  rw [← outs_apply_4 m L c, ← V9_eq m L c]

theorem V11_eq (c : Dev nD) : V11 m (outs m L) c = W11 m L c := by
  show StableHlo.after hostOps5 (V10 m (outs m L) c) = StableHlo.after hostOps5 (W10 m L c)
  rw [V10_eq m L c]

/-- Region 4 is entered with its tables at `tbl4`. -/
theorem W_tbl4 (c : Dev nD) (k : Fin pre4.K) : W9 m L c (pre4.ref k) = tbl4 m k :=
  (congrFun (V9_eq m L c).symm _).trans (tbl4_of_V m (outs m L) c k)

/-- Region 4 is entered with the node features in its windows' array. -/
theorem W_feat4 (c : Dev nD) : W9 m L c main_v6 = feat m :=
  (congrFun (V9_eq m L c).symm _).trans (feat4_of_V m (outs m L) c)

/-- Region 4 changes its output array only. -/
theorem W_keep_4 (c : Dev nD) (b : Ref sig .tc) (hb : b ≠ main_v39) : W10 m L c b = W9 m L c b := by
  unfold W10
  exact Function.update_of_ne (StableHlo.devRef_ne_of_ne hb) ..

theorem W_out_4 (c : Dev nD) : W10 m L c main_v39 = L.o4 (W9 m L) c := by
  unfold W10
  exact Function.update_self ..

/-! ### Item 12 (region 5) and item 13 (the host stretch after it) -/

/-- What `outs` says region 5 leaves is what `L` says it leaves from the valuation it is entered from. -/
theorem outs_apply_5 (c : Dev nD) : outs m L 12 main_v46 c = L.o5 (W11 m L) c := by
  show W12 m L c (Proc.devRef .tc main_v46) = _
  unfold W12
  exact Function.update_self ..

theorem V12_eq (c : Dev nD) : V12 m (outs m L) c = W12 m L c := by
  unfold W12
  rw [← outs_apply_5 m L c, ← V11_eq m L c]

theorem V13_eq (c : Dev nD) : V13 m (outs m L) c = W13 m L c := by
  show StableHlo.after hostOps6 (V12 m (outs m L) c) = StableHlo.after hostOps6 (W12 m L c)
  rw [V12_eq m L c]

/-- Region 5 is entered with its tables at `tbl5`. -/
theorem W_tbl5 (c : Dev nD) (k : Fin pre5.K) : W11 m L c (pre5.ref k) = tbl5 m k :=
  (congrFun (V11_eq m L c).symm _).trans (tbl5_of_V m (outs m L) c k)

/-- Region 5 is entered with the node features in its windows' array. -/
theorem W_feat5 (c : Dev nD) : W11 m L c main_v6 = feat m :=
  (congrFun (V11_eq m L c).symm _).trans (feat5_of_V m (outs m L) c)

/-- Region 5 changes its output array only. -/
theorem W_keep_5 (c : Dev nD) (b : Ref sig .tc) (hb : b ≠ main_v46) : W12 m L c b = W11 m L c b := by
  unfold W12
  exact Function.update_of_ne (StableHlo.devRef_ne_of_ne hb) ..

theorem W_out_5 (c : Dev nD) : W12 m L c main_v46 = L.o5 (W11 m L) c := by
  unfold W12
  exact Function.update_self ..

/-! ### Item 14 (region 6) and item 15 (the host stretch after it) -/

/-- What `outs` says region 6 leaves is what `L` says it leaves from the valuation it is entered from. -/
theorem outs_apply_6 (c : Dev nD) : outs m L 14 main_v53 c = L.o6 (W13 m L) c := by
  show W14 m L c (Proc.devRef .tc main_v53) = _
  unfold W14
  exact Function.update_self ..

theorem V14_eq (c : Dev nD) : V14 m (outs m L) c = W14 m L c := by
  unfold W14
  rw [← outs_apply_6 m L c, ← V13_eq m L c]

theorem V15_eq (c : Dev nD) : V15 m (outs m L) c = W15 m L c := by
  show StableHlo.after hostOps7 (V14 m (outs m L) c) = StableHlo.after hostOps7 (W14 m L c)
  rw [V14_eq m L c]

/-- Region 6 is entered with its tables at `tbl6`. -/
theorem W_tbl6 (c : Dev nD) (k : Fin pre6.K) : W13 m L c (pre6.ref k) = tbl6 m k :=
  (congrFun (V13_eq m L c).symm _).trans (tbl6_of_V m (outs m L) c k)

/-- Region 6 is entered with the node features in its windows' array. -/
theorem W_feat6 (c : Dev nD) : W13 m L c main_v6 = feat m :=
  (congrFun (V13_eq m L c).symm _).trans (feat6_of_V m (outs m L) c)

/-- Region 6 changes its output array only. -/
theorem W_keep_6 (c : Dev nD) (b : Ref sig .tc) (hb : b ≠ main_v53) : W14 m L c b = W13 m L c b := by
  unfold W14
  exact Function.update_of_ne (StableHlo.devRef_ne_of_ne hb) ..

theorem W_out_6 (c : Dev nD) : W14 m L c main_v53 = L.o6 (W13 m L) c := by
  unfold W14
  exact Function.update_self ..

/-! ### Item 16 (region 7) and item 17 (the host stretch after it) -/

/-- What `outs` says region 7 leaves is what `L` says it leaves from the valuation it is entered from. -/
theorem outs_apply_7 (c : Dev nD) : outs m L 16 main_v60 c = L.o7 (W15 m L) c := by
  show W16 m L c (Proc.devRef .tc main_v60) = _
  unfold W16
  exact Function.update_self ..

theorem V16_eq (c : Dev nD) : V16 m (outs m L) c = W16 m L c := by
  unfold W16
  rw [← outs_apply_7 m L c, ← V15_eq m L c]

theorem V17_eq (c : Dev nD) : V17 m (outs m L) c = W17 m L c := by
  show StableHlo.after hostOps8 (V16 m (outs m L) c) = StableHlo.after hostOps8 (W16 m L c)
  rw [V16_eq m L c]

/-- Region 7 is entered with its tables at `tbl7`. -/
theorem W_tbl7 (c : Dev nD) (k : Fin pre7.K) : W15 m L c (pre7.ref k) = tbl7 m k :=
  (congrFun (V15_eq m L c).symm _).trans (tbl7_of_V m (outs m L) c k)

/-- Region 7 is entered with the node features in its windows' array. -/
theorem W_feat7 (c : Dev nD) : W15 m L c main_v6 = feat m :=
  (congrFun (V15_eq m L c).symm _).trans (feat7_of_V m (outs m L) c)

/-- Region 7 changes its output array only. -/
theorem W_keep_7 (c : Dev nD) (b : Ref sig .tc) (hb : b ≠ main_v60) : W16 m L c b = W15 m L c b := by
  unfold W16
  exact Function.update_of_ne (StableHlo.devRef_ne_of_ne hb) ..

theorem W_out_7 (c : Dev nD) : W16 m L c main_v60 = L.o7 (W15 m L) c := by
  unfold W16
  exact Function.update_self ..

/-! ### Item 18 (region 8) and item 19 (the host stretch after it) -/

/-- What `outs` says region 8 leaves is what `L` says it leaves from the valuation it is entered from. -/
theorem outs_apply_8 (c : Dev nD) : outs m L 18 main_v67 c = L.o8 (W17 m L) c := by
  show W18 m L c (Proc.devRef .tc main_v67) = _
  unfold W18
  exact Function.update_self ..

theorem V18_eq (c : Dev nD) : V18 m (outs m L) c = W18 m L c := by
  unfold W18
  rw [← outs_apply_8 m L c, ← V17_eq m L c]

theorem V19_eq (c : Dev nD) : V19 m (outs m L) c = W19 m L c := by
  show StableHlo.after hostOps9 (V18 m (outs m L) c) = StableHlo.after hostOps9 (W18 m L c)
  rw [V18_eq m L c]

/-- Region 8 is entered with its tables at `tbl8`. -/
theorem W_tbl8 (c : Dev nD) (k : Fin pre8.K) : W17 m L c (pre8.ref k) = tbl8 m k :=
  (congrFun (V17_eq m L c).symm _).trans (tbl8_of_V m (outs m L) c k)

/-- Region 8 is entered with the node features in its windows' array. -/
theorem W_feat8 (c : Dev nD) : W17 m L c main_v6 = feat m :=
  (congrFun (V17_eq m L c).symm _).trans (feat8_of_V m (outs m L) c)

/-- Region 8 changes its output array only. -/
theorem W_keep_8 (c : Dev nD) (b : Ref sig .tc) (hb : b ≠ main_v67) : W18 m L c b = W17 m L c b := by
  unfold W18
  exact Function.update_of_ne (StableHlo.devRef_ne_of_ne hb) ..

theorem W_out_8 (c : Dev nD) : W18 m L c main_v67 = L.o8 (W17 m L) c := by
  unfold W18
  exact Function.update_self ..

/-! ### Item 20 (region 9) and item 21 (the host stretch after it) -/

/-- What `outs` says region 9 leaves is what `L` says it leaves from the valuation it is entered from. -/
theorem outs_apply_9 (c : Dev nD) : outs m L 20 main_v74 c = L.o9 (W19 m L) c := by
  show W20 m L c (Proc.devRef .tc main_v74) = _
  unfold W20
  exact Function.update_self ..

theorem V20_eq (c : Dev nD) : V20 m (outs m L) c = W20 m L c := by
  unfold W20
  rw [← outs_apply_9 m L c, ← V19_eq m L c]

theorem V21_eq (c : Dev nD) : V21 m (outs m L) c = W21 m L c := by
  show StableHlo.after hostOps10 (V20 m (outs m L) c) = StableHlo.after hostOps10 (W20 m L c)
  rw [V20_eq m L c]

/-- Region 9 is entered with its tables at `tbl9`. -/
theorem W_tbl9 (c : Dev nD) (k : Fin pre9.K) : W19 m L c (pre9.ref k) = tbl9 m k :=
  (congrFun (V19_eq m L c).symm _).trans (tbl9_of_V m (outs m L) c k)

/-- Region 9 is entered with the node features in its windows' array. -/
theorem W_feat9 (c : Dev nD) : W19 m L c main_v6 = feat m :=
  (congrFun (V19_eq m L c).symm _).trans (feat9_of_V m (outs m L) c)

/-- Region 9 changes its output array only. -/
theorem W_keep_9 (c : Dev nD) (b : Ref sig .tc) (hb : b ≠ main_v74) : W20 m L c b = W19 m L c b := by
  unfold W20
  exact Function.update_of_ne (StableHlo.devRef_ne_of_ne hb) ..

theorem W_out_9 (c : Dev nD) : W20 m L c main_v74 = L.o9 (W19 m L) c := by
  unfold W20
  exact Function.update_self ..

/-! ### Item 22 (region 10) and item 23 (the host stretch after it) -/

/-- What `outs` says region 10 leaves is what `L` says it leaves from the valuation it is entered from. -/
theorem outs_apply_10 (c : Dev nD) : outs m L 22 main_v81 c = L.o10 (W21 m L) c := by
  show W22 m L c (Proc.devRef .tc main_v81) = _
  unfold W22
  exact Function.update_self ..

theorem V22_eq (c : Dev nD) : V22 m (outs m L) c = W22 m L c := by
  unfold W22
  rw [← outs_apply_10 m L c, ← V21_eq m L c]

theorem V23_eq (c : Dev nD) : V23 m (outs m L) c = W23 m L c := by
  show StableHlo.after hostOps11 (V22 m (outs m L) c) = StableHlo.after hostOps11 (W22 m L c)
  rw [V22_eq m L c]

/-- Region 10 is entered with its tables at `tbl10`. -/
theorem W_tbl10 (c : Dev nD) (k : Fin pre10.K) : W21 m L c (pre10.ref k) = tbl10 m k :=
  (congrFun (V21_eq m L c).symm _).trans (tbl10_of_V m (outs m L) c k)

/-- Region 10 is entered with the node features in its windows' array. -/
theorem W_feat10 (c : Dev nD) : W21 m L c main_v6 = feat m :=
  (congrFun (V21_eq m L c).symm _).trans (feat10_of_V m (outs m L) c)

/-- Region 10 changes its output array only. -/
theorem W_keep_10 (c : Dev nD) (b : Ref sig .tc) (hb : b ≠ main_v81) : W22 m L c b = W21 m L c b := by
  unfold W22
  exact Function.update_of_ne (StableHlo.devRef_ne_of_ne hb) ..

theorem W_out_10 (c : Dev nD) : W22 m L c main_v81 = L.o10 (W21 m L) c := by
  unfold W22
  exact Function.update_self ..

/-! ### Item 24 (region 11) and item 25 (the host stretch after it) -/

/-- What `outs` says region 11 leaves is what `L` says it leaves from the valuation it is entered from. -/
theorem outs_apply_11 (c : Dev nD) : outs m L 24 main_v88 c = L.o11 (W23 m L) c := by
  show W24 m L c (Proc.devRef .tc main_v88) = _
  unfold W24
  exact Function.update_self ..

theorem V24_eq (c : Dev nD) : V24 m (outs m L) c = W24 m L c := by
  unfold W24
  rw [← outs_apply_11 m L c, ← V23_eq m L c]

theorem V25_eq (c : Dev nD) : V25 m (outs m L) c = W25 m L c := by
  show StableHlo.after hostOps12 (V24 m (outs m L) c) = StableHlo.after hostOps12 (W24 m L c)
  rw [V24_eq m L c]

/-- Region 11 is entered with its tables at `tbl11`. -/
theorem W_tbl11 (c : Dev nD) (k : Fin pre11.K) : W23 m L c (pre11.ref k) = tbl11 m k :=
  (congrFun (V23_eq m L c).symm _).trans (tbl11_of_V m (outs m L) c k)

/-- Region 11 is entered with the node features in its windows' array. -/
theorem W_feat11 (c : Dev nD) : W23 m L c main_v6 = feat m :=
  (congrFun (V23_eq m L c).symm _).trans (feat11_of_V m (outs m L) c)

/-- Region 11 changes its output array only. -/
theorem W_keep_11 (c : Dev nD) (b : Ref sig .tc) (hb : b ≠ main_v88) : W24 m L c b = W23 m L c b := by
  unfold W24
  exact Function.update_of_ne (StableHlo.devRef_ne_of_ne hb) ..

theorem W_out_11 (c : Dev nD) : W24 m L c main_v88 = L.o11 (W23 m L) c := by
  unfold W24
  exact Function.update_self ..

/-! ### Item 26 (region 12) and item 27 (the host stretch after it) -/

/-- What `outs` says region 12 leaves is what `L` says it leaves from the valuation it is entered from. -/
theorem outs_apply_12 (c : Dev nD) : outs m L 26 main_v95 c = L.o12 (W25 m L) c := by
  show W26 m L c (Proc.devRef .tc main_v95) = _
  unfold W26
  exact Function.update_self ..

theorem V26_eq (c : Dev nD) : V26 m (outs m L) c = W26 m L c := by
  unfold W26
  rw [← outs_apply_12 m L c, ← V25_eq m L c]

theorem V27_eq (c : Dev nD) : V27 m (outs m L) c = W27 m L c := by
  show StableHlo.after hostOps13 (V26 m (outs m L) c) = StableHlo.after hostOps13 (W26 m L c)
  rw [V26_eq m L c]

/-- Region 12 is entered with its tables at `tbl12`. -/
theorem W_tbl12 (c : Dev nD) (k : Fin pre12.K) : W25 m L c (pre12.ref k) = tbl12 m k :=
  (congrFun (V25_eq m L c).symm _).trans (tbl12_of_V m (outs m L) c k)

/-- Region 12 is entered with the node features in its windows' array. -/
theorem W_feat12 (c : Dev nD) : W25 m L c main_v6 = feat m :=
  (congrFun (V25_eq m L c).symm _).trans (feat12_of_V m (outs m L) c)

/-- Region 12 changes its output array only. -/
theorem W_keep_12 (c : Dev nD) (b : Ref sig .tc) (hb : b ≠ main_v95) : W26 m L c b = W25 m L c b := by
  unfold W26
  exact Function.update_of_ne (StableHlo.devRef_ne_of_ne hb) ..

theorem W_out_12 (c : Dev nD) : W26 m L c main_v95 = L.o12 (W25 m L) c := by
  unfold W26
  exact Function.update_self ..

/-! ### Item 28 (region 13) and item 29 (the host stretch after it) -/

/-- What `outs` says region 13 leaves is what `L` says it leaves from the valuation it is entered from. -/
theorem outs_apply_13 (c : Dev nD) : outs m L 28 main_v102 c = L.o13 (W27 m L) c := by
  show W28 m L c (Proc.devRef .tc main_v102) = _
  unfold W28
  exact Function.update_self ..

theorem V28_eq (c : Dev nD) : V28 m (outs m L) c = W28 m L c := by
  unfold W28
  rw [← outs_apply_13 m L c, ← V27_eq m L c]

theorem V29_eq (c : Dev nD) : V29 m (outs m L) c = W29 m L c := by
  show StableHlo.after hostOps14 (V28 m (outs m L) c) = StableHlo.after hostOps14 (W28 m L c)
  rw [V28_eq m L c]

/-- Region 13 is entered with its tables at `tbl13`. -/
theorem W_tbl13 (c : Dev nD) (k : Fin pre13.K) : W27 m L c (pre13.ref k) = tbl13 m k :=
  (congrFun (V27_eq m L c).symm _).trans (tbl13_of_V m (outs m L) c k)

/-- Region 13 is entered with the node features in its windows' array. -/
theorem W_feat13 (c : Dev nD) : W27 m L c main_v6 = feat m :=
  (congrFun (V27_eq m L c).symm _).trans (feat13_of_V m (outs m L) c)

/-- Region 13 changes its output array only. -/
theorem W_keep_13 (c : Dev nD) (b : Ref sig .tc) (hb : b ≠ main_v102) : W28 m L c b = W27 m L c b := by
  unfold W28
  exact Function.update_of_ne (StableHlo.devRef_ne_of_ne hb) ..

theorem W_out_13 (c : Dev nD) : W28 m L c main_v102 = L.o13 (W27 m L) c := by
  unfold W28
  exact Function.update_self ..

/-! ### Item 30 (region 14) and item 31 (the host stretch after it) -/

/-- What `outs` says region 14 leaves is what `L` says it leaves from the valuation it is entered from. -/
theorem outs_apply_14 (c : Dev nD) : outs m L 30 main_v109 c = L.o14 (W29 m L) c := by
  show W30 m L c (Proc.devRef .tc main_v109) = _
  unfold W30
  exact Function.update_self ..

theorem V30_eq (c : Dev nD) : V30 m (outs m L) c = W30 m L c := by
  unfold W30
  rw [← outs_apply_14 m L c, ← V29_eq m L c]

theorem V31_eq (c : Dev nD) : V31 m (outs m L) c = W31 m L c := by
  show StableHlo.after hostOps15 (V30 m (outs m L) c) = StableHlo.after hostOps15 (W30 m L c)
  rw [V30_eq m L c]

/-- Region 14 is entered with its tables at `tbl14`. -/
theorem W_tbl14 (c : Dev nD) (k : Fin pre14.K) : W29 m L c (pre14.ref k) = tbl14 m k :=
  (congrFun (V29_eq m L c).symm _).trans (tbl14_of_V m (outs m L) c k)

/-- Region 14 is entered with the node features in its windows' array. -/
theorem W_feat14 (c : Dev nD) : W29 m L c main_v6 = feat m :=
  (congrFun (V29_eq m L c).symm _).trans (feat14_of_V m (outs m L) c)

/-- Region 14 changes its output array only. -/
theorem W_keep_14 (c : Dev nD) (b : Ref sig .tc) (hb : b ≠ main_v109) : W30 m L c b = W29 m L c b := by
  unfold W30
  exact Function.update_of_ne (StableHlo.devRef_ne_of_ne hb) ..

theorem W_out_14 (c : Dev nD) : W30 m L c main_v109 = L.o14 (W29 m L) c := by
  unfold W30
  exact Function.update_self ..

/-! ### Item 32 (region 15) and item 33 (the host stretch after it) -/

/-- What `outs` says region 15 leaves is what `L` says it leaves from the valuation it is entered from. -/
theorem outs_apply_15 (c : Dev nD) : outs m L 32 main_v116 c = L.o15 (W31 m L) c := by
  show W32 m L c (Proc.devRef .tc main_v116) = _
  unfold W32
  exact Function.update_self ..

theorem V32_eq (c : Dev nD) : V32 m (outs m L) c = W32 m L c := by
  unfold W32
  rw [← outs_apply_15 m L c, ← V31_eq m L c]

theorem V33_eq (c : Dev nD) : V33 m (outs m L) c = W33 m L c := by
  show StableHlo.after hostOps16 (V32 m (outs m L) c) = StableHlo.after hostOps16 (W32 m L c)
  rw [V32_eq m L c]

/-- Region 15 is entered with its tables at `tbl15`. -/
theorem W_tbl15 (c : Dev nD) (k : Fin pre15.K) : W31 m L c (pre15.ref k) = tbl15 m k :=
  (congrFun (V31_eq m L c).symm _).trans (tbl15_of_V m (outs m L) c k)

/-- Region 15 is entered with the node features in its windows' array. -/
theorem W_feat15 (c : Dev nD) : W31 m L c main_v6 = feat m :=
  (congrFun (V31_eq m L c).symm _).trans (feat15_of_V m (outs m L) c)

/-- Region 15 changes its output array only. -/
theorem W_keep_15 (c : Dev nD) (b : Ref sig .tc) (hb : b ≠ main_v116) : W32 m L c b = W31 m L c b := by
  unfold W32
  exact Function.update_of_ne (StableHlo.devRef_ne_of_ne hb) ..

theorem W_out_15 (c : Dev nD) : W32 m L c main_v116 = L.o15 (W31 m L) c := by
  unfold W32
  exact Function.update_self ..

end Cert.KernelIdeal.Chain
-- ==== Proof.KI.Run00.lean ====
import proofs.«418705_j10376640987952_2_alg».proof.Proof.Gen.KernelIdeal.Launch
import proofs.«418705_j10376640987952_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

/-!
The body of pallas_call 0 of the program, run once per kind of grid point.

The body keeps one running sum in a one-word scratch. At a point it reads the two staged feature rows
`x3` (source node) and `x4` (destination node), forms `√(∑ⱼ (x3ⱼ − x4ⱼ)²)` and adds it to the scratch
(the payload `k0_pay2 x3 x4 xs` of the scratch's old word `xs`). At the FIRST point the scratch is first
reset to zero (`k0_pay1`), so it ends at `k0_pay2 x3 x4 k0_pay1`; at the LAST point the new sum is also
copied into the output's staging word. The three statements below say exactly that, for any staging
buffers the pipeline may hand the body.
-/

set_option maxRecDepth 16384

noncomputable section

namespace Cert.KernelIdeal.Chunk0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid point is the first one: the condition of the body's first conditional. -/
abbrev condA (i : grid0.Coords) : Prop := (Scalar.cmpi .ne (Scalar.extui (Scalar.cmpi .eq (BitVec.ofNat 32 (i 0).val) 0#32)) 0#32) = 1#1
/-- The grid point is the last one: the condition of the body's second conditional. -/
abbrev condC (i : grid0.Coords) : Prop := k0_cond2 i = 1#1

theorem hz2 : (![0, 0] : Fin S1x1.rank → ℕ) = fun _ => 0 := by
  funext a; fin_cases a <;> rfl

theorem hz3 : (![0, 0, 0] : Fin S1x1x96.rank → ℕ) = fun _ => 0 := by
  funext a; fin_cases a <;> rfl

set_option maxHeartbeats 1000000 in
/-- The first point: whatever the scratch held, it ends at the update of the zero word by the two rows;
    the output's buffer is not touched. -/
theorem specA (c : Dev nD) (i : grid0.Coords) (arg1 : Memref sig .tc .smem S50000 .i32) (harg1 : arg1.IsWhole) (arg2 : Memref sig .tc .smem S50000 .i32) (harg2 : arg2.IsWhole)
    (arg3 : Memref sig .tc .vmem S1x1x96 .f32) (harg3 : arg3.IsWhole) (arg4 : Memref sig .tc .vmem S1x1x96 .f32) (harg4 : arg4.IsWhole)
    (arg5 : Memref sig .tc .vmem S1x1 .f32) (harg5 : arg5.IsWhole) (arg6 : Memref sig .tc .vmem S1x1 .f32) (harg6 : arg6.IsWhole)
    (hA : condA i) (hC : ¬condC i) (x3 x4 : Vec F S1x1x96 .f32) (xo : Vec F S1x1 .f32) (E : Set ℕ) (K : PUnit → sProp 𝕄) :
    iprop(owns (c : Thread nD τ) arg3 fullShare x3 ∗ owns (c : Thread nD τ) arg4 fullShare x4 ∗ owns (c : Thread nD τ) arg5 fullShare xo ∗ (∃ d, owns (c : Thread nD τ) arg6 fullShare d)
        ∗ (iprop(owns (c : Thread nD τ) arg3 fullShare x3 ∗ owns (c : Thread nD τ) arg4 fullShare x4 ∗ owns (c : Thread nD τ) arg5 fullShare xo
            ∗ owns (c : Thread nD τ) arg6 fullShare (k0_pay2 x3 x4 (k0_pay1 (F := F)))) -∗ K ⟨⟩))
      ⊢ wp frame (wpE (defs₀ (F := F)) Variants.none c none) E (cc0__chunk_kernel i arg1 harg1 arg2 harg2 arg3 harg3 arg4 harg4 arg5 harg5 arg6 harg6) K := by
  simp only [cc0__chunk_kernel_eq_skeleton]; unfold cc0__chunk_kernel_skel
  unfold owns
  iintro ⟨⟨%f3, %hf3, H3⟩, ⟨%f4, %hf4, H4⟩, ⟨%f5, %hf5, H5⟩, ⟨%d6, %f6, -, H6⟩, Hk⟩
  obtain rfl := harg3.eq_unread hf3; obtain rfl := harg4.eq_unread hf4; obtain rfl := harg5.eq_unread hf5
  sl_exec (disch := first | exact hA | exact hC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H6
  ipureintro
  sl_unfold_words
  rw [View.read_writes_eq_canon _ _ _ (fun y => ⟨_, List.mem_cons_self .., View.mem_set_unit_zero (S := S1x1) hz2 inb_S1x1_S1x1_0_0 y⟩),
    View.canon_cons_unit_zero (S := S1x1) hz2, View.readCov_unit_zero (S := S1x1) _ hz2]
  simp only [View.readAt_eq_ld, harg3.read_unread, harg4.read_unread, View.ld_unit_zero (S := S1x1x96) hz3]

set_option maxHeartbeats 1000000 in
/-- A middle point: the scratch, found at `xs`, ends at the update of `xs` by the two rows; the output's
    buffer is not touched. -/
theorem specB (c : Dev nD) (i : grid0.Coords) (arg1 : Memref sig .tc .smem S50000 .i32) (harg1 : arg1.IsWhole) (arg2 : Memref sig .tc .smem S50000 .i32) (harg2 : arg2.IsWhole)
    (arg3 : Memref sig .tc .vmem S1x1x96 .f32) (harg3 : arg3.IsWhole) (arg4 : Memref sig .tc .vmem S1x1x96 .f32) (harg4 : arg4.IsWhole)
    (arg5 : Memref sig .tc .vmem S1x1 .f32) (harg5 : arg5.IsWhole) (arg6 : Memref sig .tc .vmem S1x1 .f32) (harg6 : arg6.IsWhole)
    (hA : ¬condA i) (hC : ¬condC i) (x3 x4 : Vec F S1x1x96 .f32) (xs xo : Vec F S1x1 .f32) (E : Set ℕ) (K : PUnit → sProp 𝕄) :
    iprop(owns (c : Thread nD τ) arg3 fullShare x3 ∗ owns (c : Thread nD τ) arg4 fullShare x4 ∗ owns (c : Thread nD τ) arg5 fullShare xo ∗ owns (c : Thread nD τ) arg6 fullShare xs
        ∗ (iprop(owns (c : Thread nD τ) arg3 fullShare x3 ∗ owns (c : Thread nD τ) arg4 fullShare x4 ∗ owns (c : Thread nD τ) arg5 fullShare xo
            ∗ owns (c : Thread nD τ) arg6 fullShare (k0_pay2 x3 x4 xs)) -∗ K ⟨⟩))
      ⊢ wp frame (wpE (defs₀ (F := F)) Variants.none c none) E (cc0__chunk_kernel i arg1 harg1 arg2 harg2 arg3 harg3 arg4 harg4 arg5 harg5 arg6 harg6) K := by
  simp only [cc0__chunk_kernel_eq_skeleton]; unfold cc0__chunk_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg5.eq_unread hf5; obtain rfl := harg6.eq_unread hf6
  sl_exec (disch := first | exact hA | exact hC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H6
  ipureintro
  sl_unfold_words
  rw [View.read_writes_eq_canon _ _ _ (fun y => ⟨_, List.mem_cons_self .., View.mem_set_unit_zero (S := S1x1) hz2 inb_S1x1_S1x1_0_0 y⟩), View.canon_unit_zero (S := S1x1) hz2]
  simp only [View.readAt_eq_ld, harg3.read_unread, harg4.read_unread, harg6.read_unread, View.ld_unit_zero (S := S1x1x96) hz3, View.ld_unit_zero (S := S1x1) hz2]

set_option maxHeartbeats 1000000 in
/-- The last point: the scratch, found at `xs`, ends at the update of `xs` by the two rows, and the
    output's buffer, whatever it held, ends at the same word. -/
theorem specC (c : Dev nD) (i : grid0.Coords) (arg1 : Memref sig .tc .smem S50000 .i32) (harg1 : arg1.IsWhole) (arg2 : Memref sig .tc .smem S50000 .i32) (harg2 : arg2.IsWhole)
    (arg3 : Memref sig .tc .vmem S1x1x96 .f32) (harg3 : arg3.IsWhole) (arg4 : Memref sig .tc .vmem S1x1x96 .f32) (harg4 : arg4.IsWhole)
    (arg5 : Memref sig .tc .vmem S1x1 .f32) (harg5 : arg5.IsWhole) (arg6 : Memref sig .tc .vmem S1x1 .f32) (harg6 : arg6.IsWhole)
    (hA : ¬condA i) (hC : condC i) (x3 x4 : Vec F S1x1x96 .f32) (xs : Vec F S1x1 .f32) (E : Set ℕ) (K : PUnit → sProp 𝕄) :
    iprop(owns (c : Thread nD τ) arg3 fullShare x3 ∗ owns (c : Thread nD τ) arg4 fullShare x4 ∗ (∃ d, owns (c : Thread nD τ) arg5 fullShare d) ∗ owns (c : Thread nD τ) arg6 fullShare xs
        ∗ (iprop(owns (c : Thread nD τ) arg3 fullShare x3 ∗ owns (c : Thread nD τ) arg4 fullShare x4 ∗ owns (c : Thread nD τ) arg5 fullShare (k0_pay2 x3 x4 xs)
            ∗ owns (c : Thread nD τ) arg6 fullShare (k0_pay2 x3 x4 xs)) -∗ K ⟨⟩))
      ⊢ wp frame (wpE (defs₀ (F := F)) Variants.none c none) E (cc0__chunk_kernel i arg1 harg1 arg2 harg2 arg3 harg3 arg4 harg4 arg5 harg5 arg6 harg6) K := by
  simp only [cc0__chunk_kernel_eq_skeleton]; unfold cc0__chunk_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hA | exact hC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    rw [View.read_writes_eq_canon _ _ _ (fun y => ⟨_, List.mem_cons_self .., View.mem_set_unit_zero (S := S1x1) hz2 inb_S1x1_S1x1_0_0 y⟩), View.canon_unit_zero (S := S1x1) hz2,
      View.readCov_unit_zero (S := S1x1) _ hz2]
    simp only [View.readAt_eq_ld, harg3.read_unread, harg4.read_unread, harg6.read_unread, View.ld_unit_zero (S := S1x1x96) hz3, View.ld_unit_zero (S := S1x1) hz2]
  iexists _; isplitr; swap; · iexact H6
  ipureintro
  sl_unfold_words
  rw [View.read_writes_eq_canon _ _ _ (fun y => ⟨_, List.mem_cons_self .., View.mem_set_unit_zero (S := S1x1) hz2 inb_S1x1_S1x1_0_0 y⟩), View.canon_unit_zero (S := S1x1) hz2]
  simp only [View.readAt_eq_ld, harg3.read_unread, harg4.read_unread, harg6.read_unread, View.ld_unit_zero (S := S1x1x96) hz3, View.ld_unit_zero (S := S1x1) hz2]

end Cert.KernelIdeal.Chunk0

end
-- ==== Proof.KI.Dat00.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 0 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-! ## The grid's points and the two conditions -/

/-- The grid point is the first one: the condition of the body's first conditional. -/
abbrev cA (i : grid0.Coords) : Prop := (Scalar.cmpi .ne (Scalar.extui (Scalar.cmpi .eq (BitVec.ofNat 32 (i 0).val) 0#32)) 0#32) = 1#1
/-- The grid point is the last one: the condition of the body's second conditional. -/
abbrev cC (i : grid0.Coords) : Prop := k0_cond2 i = 1#1

/-- This call's kernel function is the first call's: the same text. -/
theorem kernel_eq : cc0__chunk_kernel (F := F) = cc0__chunk_kernel (F := F) := rfl

theorem N_eq : (cfg0 a).N = 50000 := N_0

/-- On the one-axis grid the coordinate of point `t` is `t`. -/
theorem coord_val (t : Fin (cfg0 a).N) : (((cfg0 a).grid.coords t) 0).val = t.val := by
  have h : t.val < 50000 := lt_of_lt_of_eq t.isLt (N_eq a)
  show t.val / (cfg0 a).grid.stride 0 % 50000 = t.val
  rw [show (cfg0 a).grid.stride 0 = 1 from rfl, Nat.div_one, Nat.mod_eq_of_lt h]

/-- The first conditional is taken at point 0 only. -/
theorem hcA (t : Fin (cfg0 a).N) : cA ((cfg0 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg0 a).N) : cC ((cfg0 a).grid.coords t) ↔ t.val = 49999 := by
  have h : t.val < 50000 := lt_of_lt_of_eq t.isLt (N_eq a)
  unfold cC k0_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The source row and the destination row staged at point `t`. -/
abbrev b3 (c : Dev nD) (t : Fin (cfg0 a).N) : Vec F S1x1x96 .f32 := iblk a V c 0 t
abbrev b4 (c : Dev nD) (t : Fin (cfg0 a).N) : Vec F S1x1x96 .f32 := iblk a V c 1 t

/-- What the scratch holds after point `n`. -/
def acc (c : Dev nD) : (n : ℕ) → n < (cfg0 a).N → Vec F S1x1 .f32
  | 0, h => k0_pay2 (b3 a V c ⟨0, h⟩) (b4 a V c ⟨0, h⟩) (k0_pay1 (F := F))
  | n + 1, h => k0_pay2 (b3 a V c ⟨n + 1, h⟩) (b4 a V c ⟨n + 1, h⟩) (acc c n (Nat.lt_of_succ_lt h))

theorem acc_pos (c : Dev nD) (t : Fin (cfg0 a).N) (ht : t.val ≠ 0) :
    acc a V c t.val t.isLt = k0_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc0_scratch0

/-- The two prefetched tables held whole at the admissible contents. -/
abbrev tblsHeld (c : Dev nD) : sProp 𝕄 := Pipeline.prefHeld (Ix := Unit) (Name := ℕ) (U := UR sig nD τ) (Lvl := ℕ) pre0 c (fun _ => fullShare) a.1

/-- Before point `n`: the tables; before the first point every other scoped buffer at anything, afterwards the
    scratch at what point `n - 1` left and the others at anything. -/
def PhiS (c : Dev nD) : (n : ℕ) → n ≤ (cfg0 a).N → sProp 𝕄
  | 0, _ => iprop(tblsHeld a c ∗ Pipeline.scopedRest (Ix := Unit) (Name := ℕ) (U := UR sig nD τ) (Lvl := ℕ) (Val := Elt F) spec0 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec0 c [cc0_scratch0])

theorem PhiS_pos (c : Dev nD) (n : ℕ) (h : n ≤ (cfg0 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec0 c [cc0_scratch0]) := by
  cases n with
  | zero => exact absurd rfl hz
  | succ n => rfl

/-! ## The proof data -/

def dat (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg0 a).W) : (dat a V c).A w = V c (Pipeline.arrRef spec0 w) := by
  dsimp only [dat]

theorem after_0 (c : Dev nD) (t : Fin (cfg0 a).N) : (dat a V c).after 0 t = iblk a V c 0 t := rfl
theorem after_1 (c : Dev nD) (t : Fin (cfg0 a).N) : (dat a V c).after 1 t = iblk a V c 1 t := rfl
theorem after_2 (c : Dev nD) (t : Fin (cfg0 a).N) : (dat a V c).after 2 t = acc a V c t.val t.isLt := rfl

/-- Each input's current staging buffer holds its block at every point, fetched there or not. -/
theorem before_0 (c : Dev nD) (t : Fin (cfg0 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg0 a).N) (h : ¬cC ((cfg0 a).grid.coords t)) : (cfg0 a).idle 2 ((cfg0 a).grid.coords t) = true := by
  show (!(k0_cond2 ((cfg0 a).grid.coords t) == 1#1)) = true
  simpa using h

theorem live_2 (t : Fin (cfg0 a).N) (h : cC ((cfg0 a).grid.coords t)) : (cfg0 a).idle 2 ((cfg0 a).grid.coords t) = false := by
  show (!(k0_cond2 ((cfg0 a).grid.coords t) == 1#1)) = false
  simpa using h

theorem live_0 (t : Fin (cfg0 a).N) : (cfg0 a).idle 0 ((cfg0 a).grid.coords t) = false := rfl
theorem live_1 (t : Fin (cfg0 a).N) : (cfg0 a).idle 1 ((cfg0 a).grid.coords t) = false := rfl

/-- The result's block index never moves, so it is written back at the last point only. -/
theorem noflush_2 (t : Fin (cfg0 a).N) (h : t.val ≠ 49999) : ((cfg0 a).win 2).flush t = false := by
  have hN : (cfg0 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg0 a).N) (d) : (dat a V c).before 0 t d = (dat a V c).after 0 t :=
  (before_0 a V c t d).trans (after_0 a V c t).symm
theorem keep_1 (c : Dev nD) (t : Fin (cfg0 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg0 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k0_pay2 (b3 a V c ⟨0, hn⟩) (b4 a V c ⟨0, hn⟩) (k0_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg0 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg0 a).N) : Memref sig .tc .vmem S1x1x96 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S1x1x96 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x1 .f32 := spec0_2.stage ((cfg0 a).slots t 2)
abbrev hs2 (t : Fin (cfg0 a).N) : (ms2 a t).IsWhole := hstage0_2 (((cfg0 a).slots t 2).cast nbuf0_2)

/-- The body as the pipeline calls it at point `t`. -/
abbrev bodyAt (t : Fin (cfg0 a).N) : Prog (TpuEff nD τ sig (Elt F) Λ₀ .tc) PUnit :=
  cc0__chunk_kernel ((cfg0 a).grid.coords t) (Memref.whole main_v8) (Memref.isWhole_whole _) (Memref.whole main_v10) (Memref.isWhole_whole _)
    (ms0 a t) (hs0 a t) (ms1 a t) (hs1 a t) (ms2 a t) (hs2 a t) (Memref.whole cc0_scratch0) (Memref.isWhole_whole _)

/-- What the body is called with at point `t`, -/
def bodyPre (c : Dev nD) (t : Fin (cfg0 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg0 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg0 a).N) :
    (dat a V c).leavesExact 0 t = owns (c : Thread nD τ) (ms0 a t) fullShare ((dat a V c).after 0 t) := by
  unfold Dat.leavesExact; rw [live_0]; rfl
theorem leaves_1 (c : Dev nD) (t : Fin (cfg0 a).N) :
    (dat a V c).leavesExact 1 t = owns (c : Thread nD τ) (ms1 a t) fullShare ((dat a V c).after 1 t) := by
  unfold Dat.leavesExact; rw [live_1]; rfl
theorem leaves_2_idle (c : Dev nD) (t : Fin (cfg0 a).N) (hC : ¬cC ((cfg0 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg0 a).N) (hC : cC ((cfg0 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg0 a).grid.coords t) := (hcA a t).mpr h0
    have hC : ¬cC ((cfg0 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec0 c) from by
      obtain ⟨n, hn⟩ := t; obtain rfl : n = 0 := h0; rfl]
    rw [scopedRest0_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec0 c [cc0_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg0 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec0 c [cc0_scratch0]) from rfl]
    have hA : ¬cA ((cfg0 a).grid.coords t) := fun h => h0 ((hcA a t).mp h)
    by_cases hl : t.val = 49999
    · -- the last point
      have hC : cC ((cfg0 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg0 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg0 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg0 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W0, bigSep_W0]
  exact sound_body a V c t

end Cert.KernelIdeal.Chunk0

end
-- ==== Proof.KI.Dat01.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 1 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-! ## The grid's points and the two conditions -/

/-- The grid point is the first one: the condition of the body's first conditional. -/
abbrev cA (i : grid1.Coords) : Prop := (Scalar.cmpi .ne (Scalar.extui (Scalar.cmpi .eq (BitVec.ofNat 32 (i 0).val) 0#32)) 0#32) = 1#1
/-- The grid point is the last one: the condition of the body's second conditional. -/
abbrev cC (i : grid1.Coords) : Prop := k1_cond2 i = 1#1

/-- This call's kernel function is the first call's: the same text. -/
theorem kernel_eq : cc1__chunk_kernel (F := F) = cc0__chunk_kernel (F := F) := rfl

theorem N_eq : (cfg1 a).N = 50000 := N_1

/-- On the one-axis grid the coordinate of point `t` is `t`. -/
theorem coord_val (t : Fin (cfg1 a).N) : (((cfg1 a).grid.coords t) 0).val = t.val := by
  have h : t.val < 50000 := lt_of_lt_of_eq t.isLt (N_eq a)
  show t.val / (cfg1 a).grid.stride 0 % 50000 = t.val
  rw [show (cfg1 a).grid.stride 0 = 1 from rfl, Nat.div_one, Nat.mod_eq_of_lt h]

/-- The first conditional is taken at point 0 only. -/
theorem hcA (t : Fin (cfg1 a).N) : cA ((cfg1 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg1 a).N) : cC ((cfg1 a).grid.coords t) ↔ t.val = 49999 := by
  have h : t.val < 50000 := lt_of_lt_of_eq t.isLt (N_eq a)
  unfold cC k1_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The source row and the destination row staged at point `t`. -/
abbrev b3 (c : Dev nD) (t : Fin (cfg1 a).N) : Vec F S1x1x96 .f32 := iblk a V c 0 t
abbrev b4 (c : Dev nD) (t : Fin (cfg1 a).N) : Vec F S1x1x96 .f32 := iblk a V c 1 t

/-- What the scratch holds after point `n`. -/
def acc (c : Dev nD) : (n : ℕ) → n < (cfg1 a).N → Vec F S1x1 .f32
  | 0, h => k1_pay2 (b3 a V c ⟨0, h⟩) (b4 a V c ⟨0, h⟩) (k1_pay1 (F := F))
  | n + 1, h => k1_pay2 (b3 a V c ⟨n + 1, h⟩) (b4 a V c ⟨n + 1, h⟩) (acc c n (Nat.lt_of_succ_lt h))

theorem acc_pos (c : Dev nD) (t : Fin (cfg1 a).N) (ht : t.val ≠ 0) :
    acc a V c t.val t.isLt = k1_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc1_scratch0

/-- The two prefetched tables held whole at the admissible contents. -/
abbrev tblsHeld (c : Dev nD) : sProp 𝕄 := Pipeline.prefHeld (Ix := Unit) (Name := ℕ) (U := UR sig nD τ) (Lvl := ℕ) pre1 c (fun _ => fullShare) a.1

/-- Before point `n`: the tables; before the first point every other scoped buffer at anything, afterwards the
    scratch at what point `n - 1` left and the others at anything. -/
def PhiS (c : Dev nD) : (n : ℕ) → n ≤ (cfg1 a).N → sProp 𝕄
  | 0, _ => iprop(tblsHeld a c ∗ Pipeline.scopedRest (Ix := Unit) (Name := ℕ) (U := UR sig nD τ) (Lvl := ℕ) (Val := Elt F) spec1 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec1 c [cc1_scratch0])

theorem PhiS_pos (c : Dev nD) (n : ℕ) (h : n ≤ (cfg1 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec1 c [cc1_scratch0]) := by
  cases n with
  | zero => exact absurd rfl hz
  | succ n => rfl

/-! ## The proof data -/

def dat (c : Dev nD) : Dat τ (Elt F) Unit ℕ (UR sig nD τ) ℕ (cfg1 a) c where
  A w := V c (Pipeline.arrRef spec1 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg1 a).W) : (dat a V c).A w = V c (Pipeline.arrRef spec1 w) := by
  dsimp only [dat]

theorem after_0 (c : Dev nD) (t : Fin (cfg1 a).N) : (dat a V c).after 0 t = iblk a V c 0 t := rfl
theorem after_1 (c : Dev nD) (t : Fin (cfg1 a).N) : (dat a V c).after 1 t = iblk a V c 1 t := rfl
theorem after_2 (c : Dev nD) (t : Fin (cfg1 a).N) : (dat a V c).after 2 t = acc a V c t.val t.isLt := rfl

/-- Each input's current staging buffer holds its block at every point, fetched there or not. -/
theorem before_0 (c : Dev nD) (t : Fin (cfg1 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg1 a).N) (h : ¬cC ((cfg1 a).grid.coords t)) : (cfg1 a).idle 2 ((cfg1 a).grid.coords t) = true := by
  show (!(k1_cond2 ((cfg1 a).grid.coords t) == 1#1)) = true
  simpa using h

theorem live_2 (t : Fin (cfg1 a).N) (h : cC ((cfg1 a).grid.coords t)) : (cfg1 a).idle 2 ((cfg1 a).grid.coords t) = false := by
  show (!(k1_cond2 ((cfg1 a).grid.coords t) == 1#1)) = false
  simpa using h

theorem live_0 (t : Fin (cfg1 a).N) : (cfg1 a).idle 0 ((cfg1 a).grid.coords t) = false := rfl
theorem live_1 (t : Fin (cfg1 a).N) : (cfg1 a).idle 1 ((cfg1 a).grid.coords t) = false := rfl

/-- The result's block index never moves, so it is written back at the last point only. -/
theorem noflush_2 (t : Fin (cfg1 a).N) (h : t.val ≠ 49999) : ((cfg1 a).win 2).flush t = false := by
  have hN : (cfg1 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg1 a).N) (d) : (dat a V c).before 0 t d = (dat a V c).after 0 t :=
  (before_0 a V c t d).trans (after_0 a V c t).symm
theorem keep_1 (c : Dev nD) (t : Fin (cfg1 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg1 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k1_pay2 (b3 a V c ⟨0, hn⟩) (b4 a V c ⟨0, hn⟩) (k1_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg1 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg1 a).N) : Memref sig .tc .vmem S1x1x96 .f32 := spec1_0.stage ((cfg1 a).slots t 0)
abbrev hs0 (t : Fin (cfg1 a).N) : (ms0 a t).IsWhole := hstage1_0 (((cfg1 a).slots t 0).cast nbuf1_0)
abbrev ms1 (t : Fin (cfg1 a).N) : Memref sig .tc .vmem S1x1x96 .f32 := spec1_1.stage ((cfg1 a).slots t 1)
abbrev hs1 (t : Fin (cfg1 a).N) : (ms1 a t).IsWhole := hstage1_1 (((cfg1 a).slots t 1).cast nbuf1_1)
abbrev ms2 (t : Fin (cfg1 a).N) : Memref sig .tc .vmem S1x1 .f32 := spec1_2.stage ((cfg1 a).slots t 2)
abbrev hs2 (t : Fin (cfg1 a).N) : (ms2 a t).IsWhole := hstage1_2 (((cfg1 a).slots t 2).cast nbuf1_2)

/-- The body as the pipeline calls it at point `t`. -/
abbrev bodyAt (t : Fin (cfg1 a).N) : Prog (TpuEff nD τ sig (Elt F) Λ₀ .tc) PUnit :=
  cc1__chunk_kernel ((cfg1 a).grid.coords t) (Memref.whole main_v15) (Memref.isWhole_whole _) (Memref.whole main_v17) (Memref.isWhole_whole _)
    (ms0 a t) (hs0 a t) (ms1 a t) (hs1 a t) (ms2 a t) (hs2 a t) (Memref.whole cc1_scratch0) (Memref.isWhole_whole _)

/-- What the body is called with at point `t`, -/
def bodyPre (c : Dev nD) (t : Fin (cfg1 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg1 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg1 a).N) :
    (dat a V c).leavesExact 0 t = owns (c : Thread nD τ) (ms0 a t) fullShare ((dat a V c).after 0 t) := by
  unfold Dat.leavesExact; rw [live_0]; rfl
theorem leaves_1 (c : Dev nD) (t : Fin (cfg1 a).N) :
    (dat a V c).leavesExact 1 t = owns (c : Thread nD τ) (ms1 a t) fullShare ((dat a V c).after 1 t) := by
  unfold Dat.leavesExact; rw [live_1]; rfl
theorem leaves_2_idle (c : Dev nD) (t : Fin (cfg1 a).N) (hC : ¬cC ((cfg1 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg1 a).N) (hC : cC ((cfg1 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg1 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg1 a).grid.coords t) := (hcA a t).mpr h0
    have hC : ¬cC ((cfg1 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec1 c) from by
      obtain ⟨n, hn⟩ := t; obtain rfl : n = 0 := h0; rfl]
    rw [scopedRest1_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec1 c [cc1_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg1 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec1 c [cc1_scratch0]) from rfl]
    have hA : ¬cA ((cfg1 a).grid.coords t) := fun h => h0 ((hcA a t).mp h)
    by_cases hl : t.val = 49999
    · -- the last point
      have hC : cC ((cfg1 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg1 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg1 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg1 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W1, bigSep_W1]
  exact sound_body a V c t

end Cert.KernelIdeal.Chunk1

end
-- ==== Proof.KI.Dat02.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 2 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg2 (F := F)).Adm)
variable (V : (c : Dev nD) → (b : Ref sig .tc) → Buf (Elt F) ((c : Thread nD τ).loc b))

/-! ## The grid's points and the two conditions -/

/-- The grid point is the first one: the condition of the body's first conditional. -/
abbrev cA (i : grid2.Coords) : Prop := (Scalar.cmpi .ne (Scalar.extui (Scalar.cmpi .eq (BitVec.ofNat 32 (i 0).val) 0#32)) 0#32) = 1#1
/-- The grid point is the last one: the condition of the body's second conditional. -/
abbrev cC (i : grid2.Coords) : Prop := k2_cond2 i = 1#1

/-- This call's kernel function is the first call's: the same text. -/
theorem kernel_eq : cc2__chunk_kernel (F := F) = cc0__chunk_kernel (F := F) := rfl

theorem N_eq : (cfg2 a).N = 50000 := N_2

/-- On the one-axis grid the coordinate of point `t` is `t`. -/
theorem coord_val (t : Fin (cfg2 a).N) : (((cfg2 a).grid.coords t) 0).val = t.val := by
  have h : t.val < 50000 := lt_of_lt_of_eq t.isLt (N_eq a)
  show t.val / (cfg2 a).grid.stride 0 % 50000 = t.val
  rw [show (cfg2 a).grid.stride 0 = 1 from rfl, Nat.div_one, Nat.mod_eq_of_lt h]

/-- The first conditional is taken at point 0 only. -/
theorem hcA (t : Fin (cfg2 a).N) : cA ((cfg2 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg2 a).N) : cC ((cfg2 a).grid.coords t) ↔ t.val = 49999 := by
  have h : t.val < 50000 := lt_of_lt_of_eq t.isLt (N_eq a)
  unfold cC k2_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The source row and the destination row staged at point `t`. -/
abbrev b3 (c : Dev nD) (t : Fin (cfg2 a).N) : Vec F S1x1x96 .f32 := iblk a V c 0 t
abbrev b4 (c : Dev nD) (t : Fin (cfg2 a).N) : Vec F S1x1x96 .f32 := iblk a V c 1 t

/-- What the scratch holds after point `n`. -/
def acc (c : Dev nD) : (n : ℕ) → n < (cfg2 a).N → Vec F S1x1 .f32
  | 0, h => k2_pay2 (b3 a V c ⟨0, h⟩) (b4 a V c ⟨0, h⟩) (k2_pay1 (F := F))
  | n + 1, h => k2_pay2 (b3 a V c ⟨n + 1, h⟩) (b4 a V c ⟨n + 1, h⟩) (acc c n (Nat.lt_of_succ_lt h))

theorem acc_pos (c : Dev nD) (t : Fin (cfg2 a).N) (ht : t.val ≠ 0) :
    acc a V c t.val t.isLt = k2_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc2_scratch0

/-- The two prefetched tables held whole at the admissible contents. -/
abbrev tblsHeld (c : Dev nD) : sProp 𝕄 := Pipeline.prefHeld (Ix := Unit) (Name := ℕ) (U := UR sig nD τ) (Lvl := ℕ) pre2 c (fun _ => fullShare) a.1

/-- Before point `n`: the tables; before the first point every other scoped buffer at anything, afterwards the
    scratch at what point `n - 1` left and the others at anything. -/
def PhiS (c : Dev nD) : (n : ℕ) → n ≤ (cfg2 a).N → sProp 𝕄
  | 0, _ => iprop(tblsHeld a c ∗ Pipeline.scopedRest (Ix := Unit) (Name := ℕ) (U := UR sig nD τ) (Lvl := ℕ) (Val := Elt F) spec2 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec2 c [cc2_scratch0])

theorem PhiS_pos (c : Dev nD) (n : ℕ) (h : n ≤ (cfg2 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec2 c [cc2_scratch0]) := by
  cases n with
  | zero => exact absurd rfl hz
  | succ n => rfl

/-! ## The proof data -/

def dat (c : Dev nD) : Dat τ (Elt F) Unit ℕ (UR sig nD τ) ℕ (cfg2 a) c where
  A w := V c (Pipeline.arrRef spec2 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg2 a).W) : (dat a V c).A w = V c (Pipeline.arrRef spec2 w) := by
  dsimp only [dat]

theorem after_0 (c : Dev nD) (t : Fin (cfg2 a).N) : (dat a V c).after 0 t = iblk a V c 0 t := rfl
theorem after_1 (c : Dev nD) (t : Fin (cfg2 a).N) : (dat a V c).after 1 t = iblk a V c 1 t := rfl
theorem after_2 (c : Dev nD) (t : Fin (cfg2 a).N) : (dat a V c).after 2 t = acc a V c t.val t.isLt := rfl

/-- Each input's current staging buffer holds its block at every point, fetched there or not. -/
theorem before_0 (c : Dev nD) (t : Fin (cfg2 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg2 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg2 a).N) (h : ¬cC ((cfg2 a).grid.coords t)) : (cfg2 a).idle 2 ((cfg2 a).grid.coords t) = true := by
  show (!(k2_cond2 ((cfg2 a).grid.coords t) == 1#1)) = true
  simpa using h

theorem live_2 (t : Fin (cfg2 a).N) (h : cC ((cfg2 a).grid.coords t)) : (cfg2 a).idle 2 ((cfg2 a).grid.coords t) = false := by
  show (!(k2_cond2 ((cfg2 a).grid.coords t) == 1#1)) = false
  simpa using h

theorem live_0 (t : Fin (cfg2 a).N) : (cfg2 a).idle 0 ((cfg2 a).grid.coords t) = false := rfl
theorem live_1 (t : Fin (cfg2 a).N) : (cfg2 a).idle 1 ((cfg2 a).grid.coords t) = false := rfl

/-- The result's block index never moves, so it is written back at the last point only. -/
theorem noflush_2 (t : Fin (cfg2 a).N) (h : t.val ≠ 49999) : ((cfg2 a).win 2).flush t = false := by
  have hN : (cfg2 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg2 a).N) (d) : (dat a V c).before 0 t d = (dat a V c).after 0 t :=
  (before_0 a V c t d).trans (after_0 a V c t).symm
theorem keep_1 (c : Dev nD) (t : Fin (cfg2 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg2 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k2_pay2 (b3 a V c ⟨0, hn⟩) (b4 a V c ⟨0, hn⟩) (k2_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg2 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg2 a).N) : Memref sig .tc .vmem S1x1x96 .f32 := spec2_0.stage ((cfg2 a).slots t 0)
abbrev hs0 (t : Fin (cfg2 a).N) : (ms0 a t).IsWhole := hstage2_0 (((cfg2 a).slots t 0).cast nbuf2_0)
abbrev ms1 (t : Fin (cfg2 a).N) : Memref sig .tc .vmem S1x1x96 .f32 := spec2_1.stage ((cfg2 a).slots t 1)
abbrev hs1 (t : Fin (cfg2 a).N) : (ms1 a t).IsWhole := hstage2_1 (((cfg2 a).slots t 1).cast nbuf2_1)
abbrev ms2 (t : Fin (cfg2 a).N) : Memref sig .tc .vmem S1x1 .f32 := spec2_2.stage ((cfg2 a).slots t 2)
abbrev hs2 (t : Fin (cfg2 a).N) : (ms2 a t).IsWhole := hstage2_2 (((cfg2 a).slots t 2).cast nbuf2_2)

/-- The body as the pipeline calls it at point `t`. -/
abbrev bodyAt (t : Fin (cfg2 a).N) : Prog (TpuEff nD τ sig (Elt F) Λ₀ .tc) PUnit :=
  cc2__chunk_kernel ((cfg2 a).grid.coords t) (Memref.whole main_v22) (Memref.isWhole_whole _) (Memref.whole main_v24) (Memref.isWhole_whole _)
    (ms0 a t) (hs0 a t) (ms1 a t) (hs1 a t) (ms2 a t) (hs2 a t) (Memref.whole cc2_scratch0) (Memref.isWhole_whole _)

/-- What the body is called with at point `t`, -/
def bodyPre (c : Dev nD) (t : Fin (cfg2 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg2 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg2 a).N) :
    (dat a V c).leavesExact 0 t = owns (c : Thread nD τ) (ms0 a t) fullShare ((dat a V c).after 0 t) := by
  unfold Dat.leavesExact; rw [live_0]; rfl
theorem leaves_1 (c : Dev nD) (t : Fin (cfg2 a).N) :
    (dat a V c).leavesExact 1 t = owns (c : Thread nD τ) (ms1 a t) fullShare ((dat a V c).after 1 t) := by
  unfold Dat.leavesExact; rw [live_1]; rfl
theorem leaves_2_idle (c : Dev nD) (t : Fin (cfg2 a).N) (hC : ¬cC ((cfg2 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg2 a).N) (hC : cC ((cfg2 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg2 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg2 a).grid.coords t) := (hcA a t).mpr h0
    have hC : ¬cC ((cfg2 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec2 c) from by
      obtain ⟨n, hn⟩ := t; obtain rfl : n = 0 := h0; rfl]
    rw [scopedRest2_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec2 c [cc2_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg2 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec2 c [cc2_scratch0]) from rfl]
    have hA : ¬cA ((cfg2 a).grid.coords t) := fun h => h0 ((hcA a t).mp h)
    by_cases hl : t.val = 49999
    · -- the last point
      have hC : cC ((cfg2 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg2 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg2 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg2 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W2, bigSep_W2]
  exact sound_body a V c t

end Cert.KernelIdeal.Chunk2

end
-- ==== Proof.KI.Dat03.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 3 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
variable (V : (c : Dev nD) → (b : Ref sig .tc) → Buf (Elt F) ((c : Thread nD τ).loc b))

/-! ## The grid's points and the two conditions -/

/-- The grid point is the first one: the condition of the body's first conditional. -/
abbrev cA (i : grid3.Coords) : Prop := (Scalar.cmpi .ne (Scalar.extui (Scalar.cmpi .eq (BitVec.ofNat 32 (i 0).val) 0#32)) 0#32) = 1#1
/-- The grid point is the last one: the condition of the body's second conditional. -/
abbrev cC (i : grid3.Coords) : Prop := k3_cond2 i = 1#1

/-- This call's kernel function is the first call's: the same text. -/
theorem kernel_eq : cc3__chunk_kernel (F := F) = cc0__chunk_kernel (F := F) := rfl

theorem N_eq : (cfg3 a).N = 50000 := N_3

/-- On the one-axis grid the coordinate of point `t` is `t`. -/
theorem coord_val (t : Fin (cfg3 a).N) : (((cfg3 a).grid.coords t) 0).val = t.val := by
  have h : t.val < 50000 := lt_of_lt_of_eq t.isLt (N_eq a)
  show t.val / (cfg3 a).grid.stride 0 % 50000 = t.val
  rw [show (cfg3 a).grid.stride 0 = 1 from rfl, Nat.div_one, Nat.mod_eq_of_lt h]

/-- The first conditional is taken at point 0 only. -/
theorem hcA (t : Fin (cfg3 a).N) : cA ((cfg3 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg3 a).N) : cC ((cfg3 a).grid.coords t) ↔ t.val = 49999 := by
  have h : t.val < 50000 := lt_of_lt_of_eq t.isLt (N_eq a)
  unfold cC k3_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The source row and the destination row staged at point `t`. -/
abbrev b3 (c : Dev nD) (t : Fin (cfg3 a).N) : Vec F S1x1x96 .f32 := iblk a V c 0 t
abbrev b4 (c : Dev nD) (t : Fin (cfg3 a).N) : Vec F S1x1x96 .f32 := iblk a V c 1 t

/-- What the scratch holds after point `n`. -/
def acc (c : Dev nD) : (n : ℕ) → n < (cfg3 a).N → Vec F S1x1 .f32
  | 0, h => k3_pay2 (b3 a V c ⟨0, h⟩) (b4 a V c ⟨0, h⟩) (k3_pay1 (F := F))
  | n + 1, h => k3_pay2 (b3 a V c ⟨n + 1, h⟩) (b4 a V c ⟨n + 1, h⟩) (acc c n (Nat.lt_of_succ_lt h))

theorem acc_pos (c : Dev nD) (t : Fin (cfg3 a).N) (ht : t.val ≠ 0) :
    acc a V c t.val t.isLt = k3_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc3_scratch0

/-- The two prefetched tables held whole at the admissible contents. -/
abbrev tblsHeld (c : Dev nD) : sProp 𝕄 := Pipeline.prefHeld (Ix := Unit) (Name := ℕ) (U := UR sig nD τ) (Lvl := ℕ) pre3 c (fun _ => fullShare) a.1

/-- Before point `n`: the tables; before the first point every other scoped buffer at anything, afterwards the
    scratch at what point `n - 1` left and the others at anything. -/
def PhiS (c : Dev nD) : (n : ℕ) → n ≤ (cfg3 a).N → sProp 𝕄
  | 0, _ => iprop(tblsHeld a c ∗ Pipeline.scopedRest (Ix := Unit) (Name := ℕ) (U := UR sig nD τ) (Lvl := ℕ) (Val := Elt F) spec3 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec3 c [cc3_scratch0])

theorem PhiS_pos (c : Dev nD) (n : ℕ) (h : n ≤ (cfg3 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec3 c [cc3_scratch0]) := by
  cases n with
  | zero => exact absurd rfl hz
  | succ n => rfl

/-! ## The proof data -/

def dat (c : Dev nD) : Dat τ (Elt F) Unit ℕ (UR sig nD τ) ℕ (cfg3 a) c where
  A w := V c (Pipeline.arrRef spec3 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg3 a).W) : (dat a V c).A w = V c (Pipeline.arrRef spec3 w) := by
  dsimp only [dat]

theorem after_0 (c : Dev nD) (t : Fin (cfg3 a).N) : (dat a V c).after 0 t = iblk a V c 0 t := rfl
theorem after_1 (c : Dev nD) (t : Fin (cfg3 a).N) : (dat a V c).after 1 t = iblk a V c 1 t := rfl
theorem after_2 (c : Dev nD) (t : Fin (cfg3 a).N) : (dat a V c).after 2 t = acc a V c t.val t.isLt := rfl

/-- Each input's current staging buffer holds its block at every point, fetched there or not. -/
theorem before_0 (c : Dev nD) (t : Fin (cfg3 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg3 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg3 a).N) (h : ¬cC ((cfg3 a).grid.coords t)) : (cfg3 a).idle 2 ((cfg3 a).grid.coords t) = true := by
  show (!(k3_cond2 ((cfg3 a).grid.coords t) == 1#1)) = true
  simpa using h

theorem live_2 (t : Fin (cfg3 a).N) (h : cC ((cfg3 a).grid.coords t)) : (cfg3 a).idle 2 ((cfg3 a).grid.coords t) = false := by
  show (!(k3_cond2 ((cfg3 a).grid.coords t) == 1#1)) = false
  simpa using h

theorem live_0 (t : Fin (cfg3 a).N) : (cfg3 a).idle 0 ((cfg3 a).grid.coords t) = false := rfl
theorem live_1 (t : Fin (cfg3 a).N) : (cfg3 a).idle 1 ((cfg3 a).grid.coords t) = false := rfl

/-- The result's block index never moves, so it is written back at the last point only. -/
theorem noflush_2 (t : Fin (cfg3 a).N) (h : t.val ≠ 49999) : ((cfg3 a).win 2).flush t = false := by
  have hN : (cfg3 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg3 a).N) (d) : (dat a V c).before 0 t d = (dat a V c).after 0 t :=
  (before_0 a V c t d).trans (after_0 a V c t).symm
theorem keep_1 (c : Dev nD) (t : Fin (cfg3 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg3 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k3_pay2 (b3 a V c ⟨0, hn⟩) (b4 a V c ⟨0, hn⟩) (k3_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg3 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg3 a).N) : Memref sig .tc .vmem S1x1x96 .f32 := spec3_0.stage ((cfg3 a).slots t 0)
abbrev hs0 (t : Fin (cfg3 a).N) : (ms0 a t).IsWhole := hstage3_0 (((cfg3 a).slots t 0).cast nbuf3_0)
abbrev ms1 (t : Fin (cfg3 a).N) : Memref sig .tc .vmem S1x1x96 .f32 := spec3_1.stage ((cfg3 a).slots t 1)
abbrev hs1 (t : Fin (cfg3 a).N) : (ms1 a t).IsWhole := hstage3_1 (((cfg3 a).slots t 1).cast nbuf3_1)
abbrev ms2 (t : Fin (cfg3 a).N) : Memref sig .tc .vmem S1x1 .f32 := spec3_2.stage ((cfg3 a).slots t 2)
abbrev hs2 (t : Fin (cfg3 a).N) : (ms2 a t).IsWhole := hstage3_2 (((cfg3 a).slots t 2).cast nbuf3_2)

/-- The body as the pipeline calls it at point `t`. -/
abbrev bodyAt (t : Fin (cfg3 a).N) : Prog (TpuEff nD τ sig (Elt F) Λ₀ .tc) PUnit :=
  cc3__chunk_kernel ((cfg3 a).grid.coords t) (Memref.whole main_v29) (Memref.isWhole_whole _) (Memref.whole main_v31) (Memref.isWhole_whole _)
    (ms0 a t) (hs0 a t) (ms1 a t) (hs1 a t) (ms2 a t) (hs2 a t) (Memref.whole cc3_scratch0) (Memref.isWhole_whole _)

/-- What the body is called with at point `t`, -/
def bodyPre (c : Dev nD) (t : Fin (cfg3 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg3 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg3 a).N) :
    (dat a V c).leavesExact 0 t = owns (c : Thread nD τ) (ms0 a t) fullShare ((dat a V c).after 0 t) := by
  unfold Dat.leavesExact; rw [live_0]; rfl
theorem leaves_1 (c : Dev nD) (t : Fin (cfg3 a).N) :
    (dat a V c).leavesExact 1 t = owns (c : Thread nD τ) (ms1 a t) fullShare ((dat a V c).after 1 t) := by
  unfold Dat.leavesExact; rw [live_1]; rfl
theorem leaves_2_idle (c : Dev nD) (t : Fin (cfg3 a).N) (hC : ¬cC ((cfg3 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg3 a).N) (hC : cC ((cfg3 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg3 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg3 a).grid.coords t) := (hcA a t).mpr h0
    have hC : ¬cC ((cfg3 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec3 c) from by
      obtain ⟨n, hn⟩ := t; obtain rfl : n = 0 := h0; rfl]
    rw [scopedRest3_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec3 c [cc3_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg3 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec3 c [cc3_scratch0]) from rfl]
    have hA : ¬cA ((cfg3 a).grid.coords t) := fun h => h0 ((hcA a t).mp h)
    by_cases hl : t.val = 49999
    · -- the last point
      have hC : cC ((cfg3 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg3 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg3 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg3 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W3, bigSep_W3]
  exact sound_body a V c t

end Cert.KernelIdeal.Chunk3

end
-- ==== Proof.KI.Dat04.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 4 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg4 (F := F)).Adm)
variable (V : (c : Dev nD) → (b : Ref sig .tc) → Buf (Elt F) ((c : Thread nD τ).loc b))

/-! ## The grid's points and the two conditions -/

/-- The grid point is the first one: the condition of the body's first conditional. -/
abbrev cA (i : grid4.Coords) : Prop := (Scalar.cmpi .ne (Scalar.extui (Scalar.cmpi .eq (BitVec.ofNat 32 (i 0).val) 0#32)) 0#32) = 1#1
/-- The grid point is the last one: the condition of the body's second conditional. -/
abbrev cC (i : grid4.Coords) : Prop := k4_cond2 i = 1#1

/-- This call's kernel function is the first call's: the same text. -/
theorem kernel_eq : cc4__chunk_kernel (F := F) = cc0__chunk_kernel (F := F) := rfl

theorem N_eq : (cfg4 a).N = 50000 := N_4

/-- On the one-axis grid the coordinate of point `t` is `t`. -/
theorem coord_val (t : Fin (cfg4 a).N) : (((cfg4 a).grid.coords t) 0).val = t.val := by
  have h : t.val < 50000 := lt_of_lt_of_eq t.isLt (N_eq a)
  show t.val / (cfg4 a).grid.stride 0 % 50000 = t.val
  rw [show (cfg4 a).grid.stride 0 = 1 from rfl, Nat.div_one, Nat.mod_eq_of_lt h]

/-- The first conditional is taken at point 0 only. -/
theorem hcA (t : Fin (cfg4 a).N) : cA ((cfg4 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg4 a).N) : cC ((cfg4 a).grid.coords t) ↔ t.val = 49999 := by
  have h : t.val < 50000 := lt_of_lt_of_eq t.isLt (N_eq a)
  unfold cC k4_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- The source row and the destination row staged at point `t`. -/
abbrev b3 (c : Dev nD) (t : Fin (cfg4 a).N) : Vec F S1x1x96 .f32 := iblk a V c 0 t
abbrev b4 (c : Dev nD) (t : Fin (cfg4 a).N) : Vec F S1x1x96 .f32 := iblk a V c 1 t

/-- What the scratch holds after point `n`. -/
def acc (c : Dev nD) : (n : ℕ) → n < (cfg4 a).N → Vec F S1x1 .f32
  | 0, h => k4_pay2 (b3 a V c ⟨0, h⟩) (b4 a V c ⟨0, h⟩) (k4_pay1 (F := F))
  | n + 1, h => k4_pay2 (b3 a V c ⟨n + 1, h⟩) (b4 a V c ⟨n + 1, h⟩) (acc c n (Nat.lt_of_succ_lt h))

theorem acc_pos (c : Dev nD) (t : Fin (cfg4 a).N) (ht : t.val ≠ 0) :
    acc a V c t.val t.isLt = k4_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc4_scratch0

/-- The two prefetched tables held whole at the admissible contents. -/
abbrev tblsHeld (c : Dev nD) : sProp 𝕄 := Pipeline.prefHeld (Ix := Unit) (Name := ℕ) (U := UR sig nD τ) (Lvl := ℕ) pre4 c (fun _ => fullShare) a.1

/-- Before point `n`: the tables; before the first point every other scoped buffer at anything, afterwards the
    scratch at what point `n - 1` left and the others at anything. -/
def PhiS (c : Dev nD) : (n : ℕ) → n ≤ (cfg4 a).N → sProp 𝕄
  | 0, _ => iprop(tblsHeld a c ∗ Pipeline.scopedRest (Ix := Unit) (Name := ℕ) (U := UR sig nD τ) (Lvl := ℕ) (Val := Elt F) spec4 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec4 c [cc4_scratch0])

theorem PhiS_pos (c : Dev nD) (n : ℕ) (h : n ≤ (cfg4 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec4 c [cc4_scratch0]) := by
  cases n with
  | zero => exact absurd rfl hz
  | succ n => rfl

/-! ## The proof data -/

def dat (c : Dev nD) : Dat τ (Elt F) Unit ℕ (UR sig nD τ) ℕ (cfg4 a) c where
  A w := V c (Pipeline.arrRef spec4 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg4 a).W) : (dat a V c).A w = V c (Pipeline.arrRef spec4 w) := by
  dsimp only [dat]

theorem after_0 (c : Dev nD) (t : Fin (cfg4 a).N) : (dat a V c).after 0 t = iblk a V c 0 t := rfl
theorem after_1 (c : Dev nD) (t : Fin (cfg4 a).N) : (dat a V c).after 1 t = iblk a V c 1 t := rfl
theorem after_2 (c : Dev nD) (t : Fin (cfg4 a).N) : (dat a V c).after 2 t = acc a V c t.val t.isLt := rfl

/-- Each input's current staging buffer holds its block at every point, fetched there or not. -/
theorem before_0 (c : Dev nD) (t : Fin (cfg4 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg4 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg4 a).N) (h : ¬cC ((cfg4 a).grid.coords t)) : (cfg4 a).idle 2 ((cfg4 a).grid.coords t) = true := by
  show (!(k4_cond2 ((cfg4 a).grid.coords t) == 1#1)) = true
  simpa using h

theorem live_2 (t : Fin (cfg4 a).N) (h : cC ((cfg4 a).grid.coords t)) : (cfg4 a).idle 2 ((cfg4 a).grid.coords t) = false := by
  show (!(k4_cond2 ((cfg4 a).grid.coords t) == 1#1)) = false
  simpa using h

theorem live_0 (t : Fin (cfg4 a).N) : (cfg4 a).idle 0 ((cfg4 a).grid.coords t) = false := rfl
theorem live_1 (t : Fin (cfg4 a).N) : (cfg4 a).idle 1 ((cfg4 a).grid.coords t) = false := rfl

/-- The result's block index never moves, so it is written back at the last point only. -/
theorem noflush_2 (t : Fin (cfg4 a).N) (h : t.val ≠ 49999) : ((cfg4 a).win 2).flush t = false := by
  have hN : (cfg4 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg4 a).N) (d) : (dat a V c).before 0 t d = (dat a V c).after 0 t :=
  (before_0 a V c t d).trans (after_0 a V c t).symm
theorem keep_1 (c : Dev nD) (t : Fin (cfg4 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg4 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k4_pay2 (b3 a V c ⟨0, hn⟩) (b4 a V c ⟨0, hn⟩) (k4_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg4 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg4 a).N) : Memref sig .tc .vmem S1x1x96 .f32 := spec4_0.stage ((cfg4 a).slots t 0)
abbrev hs0 (t : Fin (cfg4 a).N) : (ms0 a t).IsWhole := hstage4_0 (((cfg4 a).slots t 0).cast nbuf4_0)
abbrev ms1 (t : Fin (cfg4 a).N) : Memref sig .tc .vmem S1x1x96 .f32 := spec4_1.stage ((cfg4 a).slots t 1)
abbrev hs1 (t : Fin (cfg4 a).N) : (ms1 a t).IsWhole := hstage4_1 (((cfg4 a).slots t 1).cast nbuf4_1)
abbrev ms2 (t : Fin (cfg4 a).N) : Memref sig .tc .vmem S1x1 .f32 := spec4_2.stage ((cfg4 a).slots t 2)
abbrev hs2 (t : Fin (cfg4 a).N) : (ms2 a t).IsWhole := hstage4_2 (((cfg4 a).slots t 2).cast nbuf4_2)

/-- The body as the pipeline calls it at point `t`. -/
abbrev bodyAt (t : Fin (cfg4 a).N) : Prog (TpuEff nD τ sig (Elt F) Λ₀ .tc) PUnit :=
  cc4__chunk_kernel ((cfg4 a).grid.coords t) (Memref.whole main_v36) (Memref.isWhole_whole _) (Memref.whole main_v38) (Memref.isWhole_whole _)
    (ms0 a t) (hs0 a t) (ms1 a t) (hs1 a t) (ms2 a t) (hs2 a t) (Memref.whole cc4_scratch0) (Memref.isWhole_whole _)

/-- What the body is called with at point `t`, -/
def bodyPre (c : Dev nD) (t : Fin (cfg4 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg4 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg4 a).N) :
    (dat a V c).leavesExact 0 t = owns (c : Thread nD τ) (ms0 a t) fullShare ((dat a V c).after 0 t) := by
  unfold Dat.leavesExact; rw [live_0]; rfl
theorem leaves_1 (c : Dev nD) (t : Fin (cfg4 a).N) :
    (dat a V c).leavesExact 1 t = owns (c : Thread nD τ) (ms1 a t) fullShare ((dat a V c).after 1 t) := by
  unfold Dat.leavesExact; rw [live_1]; rfl
theorem leaves_2_idle (c : Dev nD) (t : Fin (cfg4 a).N) (hC : ¬cC ((cfg4 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg4 a).N) (hC : cC ((cfg4 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg4 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg4 a).grid.coords t) := (hcA a t).mpr h0
    have hC : ¬cC ((cfg4 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec4 c) from by
      obtain ⟨n, hn⟩ := t; obtain rfl : n = 0 := h0; rfl]
    rw [scopedRest4_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec4 c [cc4_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg4 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec4 c [cc4_scratch0]) from rfl]
    have hA : ¬cA ((cfg4 a).grid.coords t) := fun h => h0 ((hcA a t).mp h)
    by_cases hl : t.val = 49999
    · -- the last point
      have hC : cC ((cfg4 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg4 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg4 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg4 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W4, bigSep_W4]
  exact sound_body a V c t

end Cert.KernelIdeal.Chunk4

end
-- ==== Proof.KI.Dat05.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 5 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg5 (F := F)).Adm)
variable (V : (c : Dev nD) → (b : Ref sig .tc) → Buf (Elt F) ((c : Thread nD τ).loc b))

/-! ## The grid's points and the two conditions -/

/-- The grid point is the first one: the condition of the body's first conditional. -/
abbrev cA (i : grid5.Coords) : Prop := (Scalar.cmpi .ne (Scalar.extui (Scalar.cmpi .eq (BitVec.ofNat 32 (i 0).val) 0#32)) 0#32) = 1#1
/-- The grid point is the last one: the condition of the body's second conditional. -/
abbrev cC (i : grid5.Coords) : Prop := k5_cond2 i = 1#1

/-- This call's kernel function is the first call's: the same text. -/
theorem kernel_eq : cc5__chunk_kernel (F := F) = cc0__chunk_kernel (F := F) := rfl

theorem N_eq : (cfg5 a).N = 50000 := N_5

/-- On the one-axis grid the coordinate of point `t` is `t`. -/
theorem coord_val (t : Fin (cfg5 a).N) : (((cfg5 a).grid.coords t) 0).val = t.val := by
  have h : t.val < 50000 := lt_of_lt_of_eq t.isLt (N_eq a)
  show t.val / (cfg5 a).grid.stride 0 % 50000 = t.val
  rw [show (cfg5 a).grid.stride 0 = 1 from rfl, Nat.div_one, Nat.mod_eq_of_lt h]

/-- The first conditional is taken at point 0 only. -/
theorem hcA (t : Fin (cfg5 a).N) : cA ((cfg5 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg5 a).N) : cC ((cfg5 a).grid.coords t) ↔ t.val = 49999 := by
  have h : t.val < 50000 := lt_of_lt_of_eq t.isLt (N_eq a)
  unfold cC k5_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- The source row and the destination row staged at point `t`. -/
abbrev b3 (c : Dev nD) (t : Fin (cfg5 a).N) : Vec F S1x1x96 .f32 := iblk a V c 0 t
abbrev b4 (c : Dev nD) (t : Fin (cfg5 a).N) : Vec F S1x1x96 .f32 := iblk a V c 1 t

/-- What the scratch holds after point `n`. -/
def acc (c : Dev nD) : (n : ℕ) → n < (cfg5 a).N → Vec F S1x1 .f32
  | 0, h => k5_pay2 (b3 a V c ⟨0, h⟩) (b4 a V c ⟨0, h⟩) (k5_pay1 (F := F))
  | n + 1, h => k5_pay2 (b3 a V c ⟨n + 1, h⟩) (b4 a V c ⟨n + 1, h⟩) (acc c n (Nat.lt_of_succ_lt h))

theorem acc_pos (c : Dev nD) (t : Fin (cfg5 a).N) (ht : t.val ≠ 0) :
    acc a V c t.val t.isLt = k5_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc5_scratch0

/-- The two prefetched tables held whole at the admissible contents. -/
abbrev tblsHeld (c : Dev nD) : sProp 𝕄 := Pipeline.prefHeld (Ix := Unit) (Name := ℕ) (U := UR sig nD τ) (Lvl := ℕ) pre5 c (fun _ => fullShare) a.1

/-- Before point `n`: the tables; before the first point every other scoped buffer at anything, afterwards the
    scratch at what point `n - 1` left and the others at anything. -/
def PhiS (c : Dev nD) : (n : ℕ) → n ≤ (cfg5 a).N → sProp 𝕄
  | 0, _ => iprop(tblsHeld a c ∗ Pipeline.scopedRest (Ix := Unit) (Name := ℕ) (U := UR sig nD τ) (Lvl := ℕ) (Val := Elt F) spec5 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec5 c [cc5_scratch0])

theorem PhiS_pos (c : Dev nD) (n : ℕ) (h : n ≤ (cfg5 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec5 c [cc5_scratch0]) := by
  cases n with
  | zero => exact absurd rfl hz
  | succ n => rfl

/-! ## The proof data -/

def dat (c : Dev nD) : Dat τ (Elt F) Unit ℕ (UR sig nD τ) ℕ (cfg5 a) c where
  A w := V c (Pipeline.arrRef spec5 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg5 a).W) : (dat a V c).A w = V c (Pipeline.arrRef spec5 w) := by
  dsimp only [dat]

theorem after_0 (c : Dev nD) (t : Fin (cfg5 a).N) : (dat a V c).after 0 t = iblk a V c 0 t := rfl
theorem after_1 (c : Dev nD) (t : Fin (cfg5 a).N) : (dat a V c).after 1 t = iblk a V c 1 t := rfl
theorem after_2 (c : Dev nD) (t : Fin (cfg5 a).N) : (dat a V c).after 2 t = acc a V c t.val t.isLt := rfl

/-- Each input's current staging buffer holds its block at every point, fetched there or not. -/
theorem before_0 (c : Dev nD) (t : Fin (cfg5 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg5 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg5 a).N) (h : ¬cC ((cfg5 a).grid.coords t)) : (cfg5 a).idle 2 ((cfg5 a).grid.coords t) = true := by
  show (!(k5_cond2 ((cfg5 a).grid.coords t) == 1#1)) = true
  simpa using h

theorem live_2 (t : Fin (cfg5 a).N) (h : cC ((cfg5 a).grid.coords t)) : (cfg5 a).idle 2 ((cfg5 a).grid.coords t) = false := by
  show (!(k5_cond2 ((cfg5 a).grid.coords t) == 1#1)) = false
  simpa using h

theorem live_0 (t : Fin (cfg5 a).N) : (cfg5 a).idle 0 ((cfg5 a).grid.coords t) = false := rfl
theorem live_1 (t : Fin (cfg5 a).N) : (cfg5 a).idle 1 ((cfg5 a).grid.coords t) = false := rfl

/-- The result's block index never moves, so it is written back at the last point only. -/
theorem noflush_2 (t : Fin (cfg5 a).N) (h : t.val ≠ 49999) : ((cfg5 a).win 2).flush t = false := by
  have hN : (cfg5 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg5 a).N) (d) : (dat a V c).before 0 t d = (dat a V c).after 0 t :=
  (before_0 a V c t d).trans (after_0 a V c t).symm
theorem keep_1 (c : Dev nD) (t : Fin (cfg5 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg5 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k5_pay2 (b3 a V c ⟨0, hn⟩) (b4 a V c ⟨0, hn⟩) (k5_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg5 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg5 a).N) : Memref sig .tc .vmem S1x1x96 .f32 := spec5_0.stage ((cfg5 a).slots t 0)
abbrev hs0 (t : Fin (cfg5 a).N) : (ms0 a t).IsWhole := hstage5_0 (((cfg5 a).slots t 0).cast nbuf5_0)
abbrev ms1 (t : Fin (cfg5 a).N) : Memref sig .tc .vmem S1x1x96 .f32 := spec5_1.stage ((cfg5 a).slots t 1)
abbrev hs1 (t : Fin (cfg5 a).N) : (ms1 a t).IsWhole := hstage5_1 (((cfg5 a).slots t 1).cast nbuf5_1)
abbrev ms2 (t : Fin (cfg5 a).N) : Memref sig .tc .vmem S1x1 .f32 := spec5_2.stage ((cfg5 a).slots t 2)
abbrev hs2 (t : Fin (cfg5 a).N) : (ms2 a t).IsWhole := hstage5_2 (((cfg5 a).slots t 2).cast nbuf5_2)

/-- The body as the pipeline calls it at point `t`. -/
abbrev bodyAt (t : Fin (cfg5 a).N) : Prog (TpuEff nD τ sig (Elt F) Λ₀ .tc) PUnit :=
  cc5__chunk_kernel ((cfg5 a).grid.coords t) (Memref.whole main_v43) (Memref.isWhole_whole _) (Memref.whole main_v45) (Memref.isWhole_whole _)
    (ms0 a t) (hs0 a t) (ms1 a t) (hs1 a t) (ms2 a t) (hs2 a t) (Memref.whole cc5_scratch0) (Memref.isWhole_whole _)

/-- What the body is called with at point `t`, -/
def bodyPre (c : Dev nD) (t : Fin (cfg5 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg5 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg5 a).N) :
    (dat a V c).leavesExact 0 t = owns (c : Thread nD τ) (ms0 a t) fullShare ((dat a V c).after 0 t) := by
  unfold Dat.leavesExact; rw [live_0]; rfl
theorem leaves_1 (c : Dev nD) (t : Fin (cfg5 a).N) :
    (dat a V c).leavesExact 1 t = owns (c : Thread nD τ) (ms1 a t) fullShare ((dat a V c).after 1 t) := by
  unfold Dat.leavesExact; rw [live_1]; rfl
theorem leaves_2_idle (c : Dev nD) (t : Fin (cfg5 a).N) (hC : ¬cC ((cfg5 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg5 a).N) (hC : cC ((cfg5 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg5 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg5 a).grid.coords t) := (hcA a t).mpr h0
    have hC : ¬cC ((cfg5 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec5 c) from by
      obtain ⟨n, hn⟩ := t; obtain rfl : n = 0 := h0; rfl]
    rw [scopedRest5_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec5 c [cc5_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg5 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec5 c [cc5_scratch0]) from rfl]
    have hA : ¬cA ((cfg5 a).grid.coords t) := fun h => h0 ((hcA a t).mp h)
    by_cases hl : t.val = 49999
    · -- the last point
      have hC : cC ((cfg5 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg5 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg5 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg5 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W5, bigSep_W5]
  exact sound_body a V c t

end Cert.KernelIdeal.Chunk5

end
-- ==== Proof.KI.Dat06.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 6 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg6 (F := F)).Adm)
variable (V : (c : Dev nD) → (b : Ref sig .tc) → Buf (Elt F) ((c : Thread nD τ).loc b))

/-! ## The grid's points and the two conditions -/

/-- The grid point is the first one: the condition of the body's first conditional. -/
abbrev cA (i : grid6.Coords) : Prop := (Scalar.cmpi .ne (Scalar.extui (Scalar.cmpi .eq (BitVec.ofNat 32 (i 0).val) 0#32)) 0#32) = 1#1
/-- The grid point is the last one: the condition of the body's second conditional. -/
abbrev cC (i : grid6.Coords) : Prop := k6_cond2 i = 1#1

/-- This call's kernel function is the first call's: the same text. -/
theorem kernel_eq : cc6__chunk_kernel (F := F) = cc0__chunk_kernel (F := F) := rfl

theorem N_eq : (cfg6 a).N = 50000 := N_6

/-- On the one-axis grid the coordinate of point `t` is `t`. -/
theorem coord_val (t : Fin (cfg6 a).N) : (((cfg6 a).grid.coords t) 0).val = t.val := by
  have h : t.val < 50000 := lt_of_lt_of_eq t.isLt (N_eq a)
  show t.val / (cfg6 a).grid.stride 0 % 50000 = t.val
  rw [show (cfg6 a).grid.stride 0 = 1 from rfl, Nat.div_one, Nat.mod_eq_of_lt h]

/-- The first conditional is taken at point 0 only. -/
theorem hcA (t : Fin (cfg6 a).N) : cA ((cfg6 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg6 a).N) : cC ((cfg6 a).grid.coords t) ↔ t.val = 49999 := by
  have h : t.val < 50000 := lt_of_lt_of_eq t.isLt (N_eq a)
  unfold cC k6_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- The source row and the destination row staged at point `t`. -/
abbrev b3 (c : Dev nD) (t : Fin (cfg6 a).N) : Vec F S1x1x96 .f32 := iblk a V c 0 t
abbrev b4 (c : Dev nD) (t : Fin (cfg6 a).N) : Vec F S1x1x96 .f32 := iblk a V c 1 t

/-- What the scratch holds after point `n`. -/
def acc (c : Dev nD) : (n : ℕ) → n < (cfg6 a).N → Vec F S1x1 .f32
  | 0, h => k6_pay2 (b3 a V c ⟨0, h⟩) (b4 a V c ⟨0, h⟩) (k6_pay1 (F := F))
  | n + 1, h => k6_pay2 (b3 a V c ⟨n + 1, h⟩) (b4 a V c ⟨n + 1, h⟩) (acc c n (Nat.lt_of_succ_lt h))

theorem acc_pos (c : Dev nD) (t : Fin (cfg6 a).N) (ht : t.val ≠ 0) :
    acc a V c t.val t.isLt = k6_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc6_scratch0

/-- The two prefetched tables held whole at the admissible contents. -/
abbrev tblsHeld (c : Dev nD) : sProp 𝕄 := Pipeline.prefHeld (Ix := Unit) (Name := ℕ) (U := UR sig nD τ) (Lvl := ℕ) pre6 c (fun _ => fullShare) a.1

/-- Before point `n`: the tables; before the first point every other scoped buffer at anything, afterwards the
    scratch at what point `n - 1` left and the others at anything. -/
def PhiS (c : Dev nD) : (n : ℕ) → n ≤ (cfg6 a).N → sProp 𝕄
  | 0, _ => iprop(tblsHeld a c ∗ Pipeline.scopedRest (Ix := Unit) (Name := ℕ) (U := UR sig nD τ) (Lvl := ℕ) (Val := Elt F) spec6 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec6 c [cc6_scratch0])

theorem PhiS_pos (c : Dev nD) (n : ℕ) (h : n ≤ (cfg6 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec6 c [cc6_scratch0]) := by
  cases n with
  | zero => exact absurd rfl hz
  | succ n => rfl

/-! ## The proof data -/

def dat (c : Dev nD) : Dat τ (Elt F) Unit ℕ (UR sig nD τ) ℕ (cfg6 a) c where
  A w := V c (Pipeline.arrRef spec6 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg6 a).W) : (dat a V c).A w = V c (Pipeline.arrRef spec6 w) := by
  dsimp only [dat]

theorem after_0 (c : Dev nD) (t : Fin (cfg6 a).N) : (dat a V c).after 0 t = iblk a V c 0 t := rfl
theorem after_1 (c : Dev nD) (t : Fin (cfg6 a).N) : (dat a V c).after 1 t = iblk a V c 1 t := rfl
theorem after_2 (c : Dev nD) (t : Fin (cfg6 a).N) : (dat a V c).after 2 t = acc a V c t.val t.isLt := rfl

/-- Each input's current staging buffer holds its block at every point, fetched there or not. -/
theorem before_0 (c : Dev nD) (t : Fin (cfg6 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg6 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg6 a).N) (h : ¬cC ((cfg6 a).grid.coords t)) : (cfg6 a).idle 2 ((cfg6 a).grid.coords t) = true := by
  show (!(k6_cond2 ((cfg6 a).grid.coords t) == 1#1)) = true
  simpa using h

theorem live_2 (t : Fin (cfg6 a).N) (h : cC ((cfg6 a).grid.coords t)) : (cfg6 a).idle 2 ((cfg6 a).grid.coords t) = false := by
  show (!(k6_cond2 ((cfg6 a).grid.coords t) == 1#1)) = false
  simpa using h

theorem live_0 (t : Fin (cfg6 a).N) : (cfg6 a).idle 0 ((cfg6 a).grid.coords t) = false := rfl
theorem live_1 (t : Fin (cfg6 a).N) : (cfg6 a).idle 1 ((cfg6 a).grid.coords t) = false := rfl

/-- The result's block index never moves, so it is written back at the last point only. -/
theorem noflush_2 (t : Fin (cfg6 a).N) (h : t.val ≠ 49999) : ((cfg6 a).win 2).flush t = false := by
  have hN : (cfg6 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg6 a).N) (d) : (dat a V c).before 0 t d = (dat a V c).after 0 t :=
  (before_0 a V c t d).trans (after_0 a V c t).symm
theorem keep_1 (c : Dev nD) (t : Fin (cfg6 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg6 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k6_pay2 (b3 a V c ⟨0, hn⟩) (b4 a V c ⟨0, hn⟩) (k6_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg6 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg6 a).N) : Memref sig .tc .vmem S1x1x96 .f32 := spec6_0.stage ((cfg6 a).slots t 0)
abbrev hs0 (t : Fin (cfg6 a).N) : (ms0 a t).IsWhole := hstage6_0 (((cfg6 a).slots t 0).cast nbuf6_0)
abbrev ms1 (t : Fin (cfg6 a).N) : Memref sig .tc .vmem S1x1x96 .f32 := spec6_1.stage ((cfg6 a).slots t 1)
abbrev hs1 (t : Fin (cfg6 a).N) : (ms1 a t).IsWhole := hstage6_1 (((cfg6 a).slots t 1).cast nbuf6_1)
abbrev ms2 (t : Fin (cfg6 a).N) : Memref sig .tc .vmem S1x1 .f32 := spec6_2.stage ((cfg6 a).slots t 2)
abbrev hs2 (t : Fin (cfg6 a).N) : (ms2 a t).IsWhole := hstage6_2 (((cfg6 a).slots t 2).cast nbuf6_2)

/-- The body as the pipeline calls it at point `t`. -/
abbrev bodyAt (t : Fin (cfg6 a).N) : Prog (TpuEff nD τ sig (Elt F) Λ₀ .tc) PUnit :=
  cc6__chunk_kernel ((cfg6 a).grid.coords t) (Memref.whole main_v50) (Memref.isWhole_whole _) (Memref.whole main_v52) (Memref.isWhole_whole _)
    (ms0 a t) (hs0 a t) (ms1 a t) (hs1 a t) (ms2 a t) (hs2 a t) (Memref.whole cc6_scratch0) (Memref.isWhole_whole _)

/-- What the body is called with at point `t`, -/
def bodyPre (c : Dev nD) (t : Fin (cfg6 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg6 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg6 a).N) :
    (dat a V c).leavesExact 0 t = owns (c : Thread nD τ) (ms0 a t) fullShare ((dat a V c).after 0 t) := by
  unfold Dat.leavesExact; rw [live_0]; rfl
theorem leaves_1 (c : Dev nD) (t : Fin (cfg6 a).N) :
    (dat a V c).leavesExact 1 t = owns (c : Thread nD τ) (ms1 a t) fullShare ((dat a V c).after 1 t) := by
  unfold Dat.leavesExact; rw [live_1]; rfl
theorem leaves_2_idle (c : Dev nD) (t : Fin (cfg6 a).N) (hC : ¬cC ((cfg6 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg6 a).N) (hC : cC ((cfg6 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg6 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg6 a).grid.coords t) := (hcA a t).mpr h0
    have hC : ¬cC ((cfg6 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec6 c) from by
      obtain ⟨n, hn⟩ := t; obtain rfl : n = 0 := h0; rfl]
    rw [scopedRest6_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec6 c [cc6_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg6 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec6 c [cc6_scratch0]) from rfl]
    have hA : ¬cA ((cfg6 a).grid.coords t) := fun h => h0 ((hcA a t).mp h)
    by_cases hl : t.val = 49999
    · -- the last point
      have hC : cC ((cfg6 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg6 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg6 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg6 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W6, bigSep_W6]
  exact sound_body a V c t

end Cert.KernelIdeal.Chunk6

end
-- ==== Proof.KI.Dat07.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 7 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg7 (F := F)).Adm)
variable (V : (c : Dev nD) → (b : Ref sig .tc) → Buf (Elt F) ((c : Thread nD τ).loc b))

/-! ## The grid's points and the two conditions -/

/-- The grid point is the first one: the condition of the body's first conditional. -/
abbrev cA (i : grid7.Coords) : Prop := (Scalar.cmpi .ne (Scalar.extui (Scalar.cmpi .eq (BitVec.ofNat 32 (i 0).val) 0#32)) 0#32) = 1#1
/-- The grid point is the last one: the condition of the body's second conditional. -/
abbrev cC (i : grid7.Coords) : Prop := k7_cond2 i = 1#1

/-- This call's kernel function is the first call's: the same text. -/
theorem kernel_eq : cc7__chunk_kernel (F := F) = cc0__chunk_kernel (F := F) := rfl

theorem N_eq : (cfg7 a).N = 50000 := N_7

/-- On the one-axis grid the coordinate of point `t` is `t`. -/
theorem coord_val (t : Fin (cfg7 a).N) : (((cfg7 a).grid.coords t) 0).val = t.val := by
  have h : t.val < 50000 := lt_of_lt_of_eq t.isLt (N_eq a)
  show t.val / (cfg7 a).grid.stride 0 % 50000 = t.val
  rw [show (cfg7 a).grid.stride 0 = 1 from rfl, Nat.div_one, Nat.mod_eq_of_lt h]

/-- The first conditional is taken at point 0 only. -/
theorem hcA (t : Fin (cfg7 a).N) : cA ((cfg7 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg7 a).N) : cC ((cfg7 a).grid.coords t) ↔ t.val = 49999 := by
  have h : t.val < 50000 := lt_of_lt_of_eq t.isLt (N_eq a)
  unfold cC k7_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- The source row and the destination row staged at point `t`. -/
abbrev b3 (c : Dev nD) (t : Fin (cfg7 a).N) : Vec F S1x1x96 .f32 := iblk a V c 0 t
abbrev b4 (c : Dev nD) (t : Fin (cfg7 a).N) : Vec F S1x1x96 .f32 := iblk a V c 1 t

/-- What the scratch holds after point `n`. -/
def acc (c : Dev nD) : (n : ℕ) → n < (cfg7 a).N → Vec F S1x1 .f32
  | 0, h => k7_pay2 (b3 a V c ⟨0, h⟩) (b4 a V c ⟨0, h⟩) (k7_pay1 (F := F))
  | n + 1, h => k7_pay2 (b3 a V c ⟨n + 1, h⟩) (b4 a V c ⟨n + 1, h⟩) (acc c n (Nat.lt_of_succ_lt h))

theorem acc_pos (c : Dev nD) (t : Fin (cfg7 a).N) (ht : t.val ≠ 0) :
    acc a V c t.val t.isLt = k7_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc7_scratch0

/-- The two prefetched tables held whole at the admissible contents. -/
abbrev tblsHeld (c : Dev nD) : sProp 𝕄 := Pipeline.prefHeld (Ix := Unit) (Name := ℕ) (U := UR sig nD τ) (Lvl := ℕ) pre7 c (fun _ => fullShare) a.1

/-- Before point `n`: the tables; before the first point every other scoped buffer at anything, afterwards the
    scratch at what point `n - 1` left and the others at anything. -/
def PhiS (c : Dev nD) : (n : ℕ) → n ≤ (cfg7 a).N → sProp 𝕄
  | 0, _ => iprop(tblsHeld a c ∗ Pipeline.scopedRest (Ix := Unit) (Name := ℕ) (U := UR sig nD τ) (Lvl := ℕ) (Val := Elt F) spec7 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec7 c [cc7_scratch0])

theorem PhiS_pos (c : Dev nD) (n : ℕ) (h : n ≤ (cfg7 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec7 c [cc7_scratch0]) := by
  cases n with
  | zero => exact absurd rfl hz
  | succ n => rfl

/-! ## The proof data -/

def dat (c : Dev nD) : Dat τ (Elt F) Unit ℕ (UR sig nD τ) ℕ (cfg7 a) c where
  A w := V c (Pipeline.arrRef spec7 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg7 a).W) : (dat a V c).A w = V c (Pipeline.arrRef spec7 w) := by
  dsimp only [dat]

theorem after_0 (c : Dev nD) (t : Fin (cfg7 a).N) : (dat a V c).after 0 t = iblk a V c 0 t := rfl
theorem after_1 (c : Dev nD) (t : Fin (cfg7 a).N) : (dat a V c).after 1 t = iblk a V c 1 t := rfl
theorem after_2 (c : Dev nD) (t : Fin (cfg7 a).N) : (dat a V c).after 2 t = acc a V c t.val t.isLt := rfl

/-- Each input's current staging buffer holds its block at every point, fetched there or not. -/
theorem before_0 (c : Dev nD) (t : Fin (cfg7 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg7 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg7 a).N) (h : ¬cC ((cfg7 a).grid.coords t)) : (cfg7 a).idle 2 ((cfg7 a).grid.coords t) = true := by
  show (!(k7_cond2 ((cfg7 a).grid.coords t) == 1#1)) = true
  simpa using h

theorem live_2 (t : Fin (cfg7 a).N) (h : cC ((cfg7 a).grid.coords t)) : (cfg7 a).idle 2 ((cfg7 a).grid.coords t) = false := by
  show (!(k7_cond2 ((cfg7 a).grid.coords t) == 1#1)) = false
  simpa using h

theorem live_0 (t : Fin (cfg7 a).N) : (cfg7 a).idle 0 ((cfg7 a).grid.coords t) = false := rfl
theorem live_1 (t : Fin (cfg7 a).N) : (cfg7 a).idle 1 ((cfg7 a).grid.coords t) = false := rfl

/-- The result's block index never moves, so it is written back at the last point only. -/
theorem noflush_2 (t : Fin (cfg7 a).N) (h : t.val ≠ 49999) : ((cfg7 a).win 2).flush t = false := by
  have hN : (cfg7 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg7 a).N) (d) : (dat a V c).before 0 t d = (dat a V c).after 0 t :=
  (before_0 a V c t d).trans (after_0 a V c t).symm
theorem keep_1 (c : Dev nD) (t : Fin (cfg7 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg7 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k7_pay2 (b3 a V c ⟨0, hn⟩) (b4 a V c ⟨0, hn⟩) (k7_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg7 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg7 a).N) : Memref sig .tc .vmem S1x1x96 .f32 := spec7_0.stage ((cfg7 a).slots t 0)
abbrev hs0 (t : Fin (cfg7 a).N) : (ms0 a t).IsWhole := hstage7_0 (((cfg7 a).slots t 0).cast nbuf7_0)
abbrev ms1 (t : Fin (cfg7 a).N) : Memref sig .tc .vmem S1x1x96 .f32 := spec7_1.stage ((cfg7 a).slots t 1)
abbrev hs1 (t : Fin (cfg7 a).N) : (ms1 a t).IsWhole := hstage7_1 (((cfg7 a).slots t 1).cast nbuf7_1)
abbrev ms2 (t : Fin (cfg7 a).N) : Memref sig .tc .vmem S1x1 .f32 := spec7_2.stage ((cfg7 a).slots t 2)
abbrev hs2 (t : Fin (cfg7 a).N) : (ms2 a t).IsWhole := hstage7_2 (((cfg7 a).slots t 2).cast nbuf7_2)

/-- The body as the pipeline calls it at point `t`. -/
abbrev bodyAt (t : Fin (cfg7 a).N) : Prog (TpuEff nD τ sig (Elt F) Λ₀ .tc) PUnit :=
  cc7__chunk_kernel ((cfg7 a).grid.coords t) (Memref.whole main_v57) (Memref.isWhole_whole _) (Memref.whole main_v59) (Memref.isWhole_whole _)
    (ms0 a t) (hs0 a t) (ms1 a t) (hs1 a t) (ms2 a t) (hs2 a t) (Memref.whole cc7_scratch0) (Memref.isWhole_whole _)

/-- What the body is called with at point `t`, -/
def bodyPre (c : Dev nD) (t : Fin (cfg7 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg7 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg7 a).N) :
    (dat a V c).leavesExact 0 t = owns (c : Thread nD τ) (ms0 a t) fullShare ((dat a V c).after 0 t) := by
  unfold Dat.leavesExact; rw [live_0]; rfl
theorem leaves_1 (c : Dev nD) (t : Fin (cfg7 a).N) :
    (dat a V c).leavesExact 1 t = owns (c : Thread nD τ) (ms1 a t) fullShare ((dat a V c).after 1 t) := by
  unfold Dat.leavesExact; rw [live_1]; rfl
theorem leaves_2_idle (c : Dev nD) (t : Fin (cfg7 a).N) (hC : ¬cC ((cfg7 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg7 a).N) (hC : cC ((cfg7 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg7 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg7 a).grid.coords t) := (hcA a t).mpr h0
    have hC : ¬cC ((cfg7 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec7 c) from by
      obtain ⟨n, hn⟩ := t; obtain rfl : n = 0 := h0; rfl]
    rw [scopedRest7_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec7 c [cc7_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg7 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec7 c [cc7_scratch0]) from rfl]
    have hA : ¬cA ((cfg7 a).grid.coords t) := fun h => h0 ((hcA a t).mp h)
    by_cases hl : t.val = 49999
    · -- the last point
      have hC : cC ((cfg7 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg7 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg7 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg7 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W7, bigSep_W7]
  exact sound_body a V c t

end Cert.KernelIdeal.Chunk7

end
-- ==== Proof.KI.Dat08.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 8 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg8 (F := F)).Adm)
variable (V : (c : Dev nD) → (b : Ref sig .tc) → Buf (Elt F) ((c : Thread nD τ).loc b))

/-! ## The grid's points and the two conditions -/

/-- The grid point is the first one: the condition of the body's first conditional. -/
abbrev cA (i : grid8.Coords) : Prop := (Scalar.cmpi .ne (Scalar.extui (Scalar.cmpi .eq (BitVec.ofNat 32 (i 0).val) 0#32)) 0#32) = 1#1
/-- The grid point is the last one: the condition of the body's second conditional. -/
abbrev cC (i : grid8.Coords) : Prop := k8_cond2 i = 1#1

/-- This call's kernel function is the first call's: the same text. -/
theorem kernel_eq : cc8__chunk_kernel (F := F) = cc0__chunk_kernel (F := F) := rfl

theorem N_eq : (cfg8 a).N = 50000 := N_8

/-- On the one-axis grid the coordinate of point `t` is `t`. -/
theorem coord_val (t : Fin (cfg8 a).N) : (((cfg8 a).grid.coords t) 0).val = t.val := by
  have h : t.val < 50000 := lt_of_lt_of_eq t.isLt (N_eq a)
  show t.val / (cfg8 a).grid.stride 0 % 50000 = t.val
  rw [show (cfg8 a).grid.stride 0 = 1 from rfl, Nat.div_one, Nat.mod_eq_of_lt h]

/-- The first conditional is taken at point 0 only. -/
theorem hcA (t : Fin (cfg8 a).N) : cA ((cfg8 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg8 a).N) : cC ((cfg8 a).grid.coords t) ↔ t.val = 49999 := by
  have h : t.val < 50000 := lt_of_lt_of_eq t.isLt (N_eq a)
  unfold cC k8_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- The source row and the destination row staged at point `t`. -/
abbrev b3 (c : Dev nD) (t : Fin (cfg8 a).N) : Vec F S1x1x96 .f32 := iblk a V c 0 t
abbrev b4 (c : Dev nD) (t : Fin (cfg8 a).N) : Vec F S1x1x96 .f32 := iblk a V c 1 t

/-- What the scratch holds after point `n`. -/
def acc (c : Dev nD) : (n : ℕ) → n < (cfg8 a).N → Vec F S1x1 .f32
  | 0, h => k8_pay2 (b3 a V c ⟨0, h⟩) (b4 a V c ⟨0, h⟩) (k8_pay1 (F := F))
  | n + 1, h => k8_pay2 (b3 a V c ⟨n + 1, h⟩) (b4 a V c ⟨n + 1, h⟩) (acc c n (Nat.lt_of_succ_lt h))

theorem acc_pos (c : Dev nD) (t : Fin (cfg8 a).N) (ht : t.val ≠ 0) :
    acc a V c t.val t.isLt = k8_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc8_scratch0

/-- The two prefetched tables held whole at the admissible contents. -/
abbrev tblsHeld (c : Dev nD) : sProp 𝕄 := Pipeline.prefHeld (Ix := Unit) (Name := ℕ) (U := UR sig nD τ) (Lvl := ℕ) pre8 c (fun _ => fullShare) a.1

/-- Before point `n`: the tables; before the first point every other scoped buffer at anything, afterwards the
    scratch at what point `n - 1` left and the others at anything. -/
def PhiS (c : Dev nD) : (n : ℕ) → n ≤ (cfg8 a).N → sProp 𝕄
  | 0, _ => iprop(tblsHeld a c ∗ Pipeline.scopedRest (Ix := Unit) (Name := ℕ) (U := UR sig nD τ) (Lvl := ℕ) (Val := Elt F) spec8 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec8 c [cc8_scratch0])

theorem PhiS_pos (c : Dev nD) (n : ℕ) (h : n ≤ (cfg8 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec8 c [cc8_scratch0]) := by
  cases n with
  | zero => exact absurd rfl hz
  | succ n => rfl

/-! ## The proof data -/

def dat (c : Dev nD) : Dat τ (Elt F) Unit ℕ (UR sig nD τ) ℕ (cfg8 a) c where
  A w := V c (Pipeline.arrRef spec8 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg8 a).W) : (dat a V c).A w = V c (Pipeline.arrRef spec8 w) := by
  dsimp only [dat]

theorem after_0 (c : Dev nD) (t : Fin (cfg8 a).N) : (dat a V c).after 0 t = iblk a V c 0 t := rfl
theorem after_1 (c : Dev nD) (t : Fin (cfg8 a).N) : (dat a V c).after 1 t = iblk a V c 1 t := rfl
theorem after_2 (c : Dev nD) (t : Fin (cfg8 a).N) : (dat a V c).after 2 t = acc a V c t.val t.isLt := rfl

/-- Each input's current staging buffer holds its block at every point, fetched there or not. -/
theorem before_0 (c : Dev nD) (t : Fin (cfg8 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg8 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg8 a).N) (h : ¬cC ((cfg8 a).grid.coords t)) : (cfg8 a).idle 2 ((cfg8 a).grid.coords t) = true := by
  show (!(k8_cond2 ((cfg8 a).grid.coords t) == 1#1)) = true
  simpa using h

theorem live_2 (t : Fin (cfg8 a).N) (h : cC ((cfg8 a).grid.coords t)) : (cfg8 a).idle 2 ((cfg8 a).grid.coords t) = false := by
  show (!(k8_cond2 ((cfg8 a).grid.coords t) == 1#1)) = false
  simpa using h

theorem live_0 (t : Fin (cfg8 a).N) : (cfg8 a).idle 0 ((cfg8 a).grid.coords t) = false := rfl
theorem live_1 (t : Fin (cfg8 a).N) : (cfg8 a).idle 1 ((cfg8 a).grid.coords t) = false := rfl

/-- The result's block index never moves, so it is written back at the last point only. -/
theorem noflush_2 (t : Fin (cfg8 a).N) (h : t.val ≠ 49999) : ((cfg8 a).win 2).flush t = false := by
  have hN : (cfg8 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg8 a).N) (d) : (dat a V c).before 0 t d = (dat a V c).after 0 t :=
  (before_0 a V c t d).trans (after_0 a V c t).symm
theorem keep_1 (c : Dev nD) (t : Fin (cfg8 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg8 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k8_pay2 (b3 a V c ⟨0, hn⟩) (b4 a V c ⟨0, hn⟩) (k8_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg8 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg8 a).N) : Memref sig .tc .vmem S1x1x96 .f32 := spec8_0.stage ((cfg8 a).slots t 0)
abbrev hs0 (t : Fin (cfg8 a).N) : (ms0 a t).IsWhole := hstage8_0 (((cfg8 a).slots t 0).cast nbuf8_0)
abbrev ms1 (t : Fin (cfg8 a).N) : Memref sig .tc .vmem S1x1x96 .f32 := spec8_1.stage ((cfg8 a).slots t 1)
abbrev hs1 (t : Fin (cfg8 a).N) : (ms1 a t).IsWhole := hstage8_1 (((cfg8 a).slots t 1).cast nbuf8_1)
abbrev ms2 (t : Fin (cfg8 a).N) : Memref sig .tc .vmem S1x1 .f32 := spec8_2.stage ((cfg8 a).slots t 2)
abbrev hs2 (t : Fin (cfg8 a).N) : (ms2 a t).IsWhole := hstage8_2 (((cfg8 a).slots t 2).cast nbuf8_2)

/-- The body as the pipeline calls it at point `t`. -/
abbrev bodyAt (t : Fin (cfg8 a).N) : Prog (TpuEff nD τ sig (Elt F) Λ₀ .tc) PUnit :=
  cc8__chunk_kernel ((cfg8 a).grid.coords t) (Memref.whole main_v64) (Memref.isWhole_whole _) (Memref.whole main_v66) (Memref.isWhole_whole _)
    (ms0 a t) (hs0 a t) (ms1 a t) (hs1 a t) (ms2 a t) (hs2 a t) (Memref.whole cc8_scratch0) (Memref.isWhole_whole _)

/-- What the body is called with at point `t`, -/
def bodyPre (c : Dev nD) (t : Fin (cfg8 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg8 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg8 a).N) :
    (dat a V c).leavesExact 0 t = owns (c : Thread nD τ) (ms0 a t) fullShare ((dat a V c).after 0 t) := by
  unfold Dat.leavesExact; rw [live_0]; rfl
theorem leaves_1 (c : Dev nD) (t : Fin (cfg8 a).N) :
    (dat a V c).leavesExact 1 t = owns (c : Thread nD τ) (ms1 a t) fullShare ((dat a V c).after 1 t) := by
  unfold Dat.leavesExact; rw [live_1]; rfl
theorem leaves_2_idle (c : Dev nD) (t : Fin (cfg8 a).N) (hC : ¬cC ((cfg8 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg8 a).N) (hC : cC ((cfg8 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg8 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg8 a).grid.coords t) := (hcA a t).mpr h0
    have hC : ¬cC ((cfg8 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec8 c) from by
      obtain ⟨n, hn⟩ := t; obtain rfl : n = 0 := h0; rfl]
    rw [scopedRest8_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec8 c [cc8_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg8 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec8 c [cc8_scratch0]) from rfl]
    have hA : ¬cA ((cfg8 a).grid.coords t) := fun h => h0 ((hcA a t).mp h)
    by_cases hl : t.val = 49999
    · -- the last point
      have hC : cC ((cfg8 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg8 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg8 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg8 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W8, bigSep_W8]
  exact sound_body a V c t

end Cert.KernelIdeal.Chunk8

end
-- ==== Proof.KI.Dat09.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 9 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg9 (F := F)).Adm)
variable (V : (c : Dev nD) → (b : Ref sig .tc) → Buf (Elt F) ((c : Thread nD τ).loc b))

/-! ## The grid's points and the two conditions -/

/-- The grid point is the first one: the condition of the body's first conditional. -/
abbrev cA (i : grid9.Coords) : Prop := (Scalar.cmpi .ne (Scalar.extui (Scalar.cmpi .eq (BitVec.ofNat 32 (i 0).val) 0#32)) 0#32) = 1#1
/-- The grid point is the last one: the condition of the body's second conditional. -/
abbrev cC (i : grid9.Coords) : Prop := k9_cond2 i = 1#1

/-- This call's kernel function is the first call's: the same text. -/
theorem kernel_eq : cc9__chunk_kernel (F := F) = cc0__chunk_kernel (F := F) := rfl

theorem N_eq : (cfg9 a).N = 50000 := N_9

/-- On the one-axis grid the coordinate of point `t` is `t`. -/
theorem coord_val (t : Fin (cfg9 a).N) : (((cfg9 a).grid.coords t) 0).val = t.val := by
  have h : t.val < 50000 := lt_of_lt_of_eq t.isLt (N_eq a)
  show t.val / (cfg9 a).grid.stride 0 % 50000 = t.val
  rw [show (cfg9 a).grid.stride 0 = 1 from rfl, Nat.div_one, Nat.mod_eq_of_lt h]

/-- The first conditional is taken at point 0 only. -/
theorem hcA (t : Fin (cfg9 a).N) : cA ((cfg9 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg9 a).N) : cC ((cfg9 a).grid.coords t) ↔ t.val = 49999 := by
  have h : t.val < 50000 := lt_of_lt_of_eq t.isLt (N_eq a)
  unfold cC k9_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- The source row and the destination row staged at point `t`. -/
abbrev b3 (c : Dev nD) (t : Fin (cfg9 a).N) : Vec F S1x1x96 .f32 := iblk a V c 0 t
abbrev b4 (c : Dev nD) (t : Fin (cfg9 a).N) : Vec F S1x1x96 .f32 := iblk a V c 1 t

/-- What the scratch holds after point `n`. -/
def acc (c : Dev nD) : (n : ℕ) → n < (cfg9 a).N → Vec F S1x1 .f32
  | 0, h => k9_pay2 (b3 a V c ⟨0, h⟩) (b4 a V c ⟨0, h⟩) (k9_pay1 (F := F))
  | n + 1, h => k9_pay2 (b3 a V c ⟨n + 1, h⟩) (b4 a V c ⟨n + 1, h⟩) (acc c n (Nat.lt_of_succ_lt h))

theorem acc_pos (c : Dev nD) (t : Fin (cfg9 a).N) (ht : t.val ≠ 0) :
    acc a V c t.val t.isLt = k9_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc9_scratch0

/-- The two prefetched tables held whole at the admissible contents. -/
abbrev tblsHeld (c : Dev nD) : sProp 𝕄 := Pipeline.prefHeld (Ix := Unit) (Name := ℕ) (U := UR sig nD τ) (Lvl := ℕ) pre9 c (fun _ => fullShare) a.1

/-- Before point `n`: the tables; before the first point every other scoped buffer at anything, afterwards the
    scratch at what point `n - 1` left and the others at anything. -/
def PhiS (c : Dev nD) : (n : ℕ) → n ≤ (cfg9 a).N → sProp 𝕄
  | 0, _ => iprop(tblsHeld a c ∗ Pipeline.scopedRest (Ix := Unit) (Name := ℕ) (U := UR sig nD τ) (Lvl := ℕ) (Val := Elt F) spec9 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec9 c [cc9_scratch0])

theorem PhiS_pos (c : Dev nD) (n : ℕ) (h : n ≤ (cfg9 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec9 c [cc9_scratch0]) := by
  cases n with
  | zero => exact absurd rfl hz
  | succ n => rfl

/-! ## The proof data -/

def dat (c : Dev nD) : Dat τ (Elt F) Unit ℕ (UR sig nD τ) ℕ (cfg9 a) c where
  A w := V c (Pipeline.arrRef spec9 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg9 a).W) : (dat a V c).A w = V c (Pipeline.arrRef spec9 w) := by
  dsimp only [dat]

theorem after_0 (c : Dev nD) (t : Fin (cfg9 a).N) : (dat a V c).after 0 t = iblk a V c 0 t := rfl
theorem after_1 (c : Dev nD) (t : Fin (cfg9 a).N) : (dat a V c).after 1 t = iblk a V c 1 t := rfl
theorem after_2 (c : Dev nD) (t : Fin (cfg9 a).N) : (dat a V c).after 2 t = acc a V c t.val t.isLt := rfl

/-- Each input's current staging buffer holds its block at every point, fetched there or not. -/
theorem before_0 (c : Dev nD) (t : Fin (cfg9 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg9 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg9 a).N) (h : ¬cC ((cfg9 a).grid.coords t)) : (cfg9 a).idle 2 ((cfg9 a).grid.coords t) = true := by
  show (!(k9_cond2 ((cfg9 a).grid.coords t) == 1#1)) = true
  simpa using h

theorem live_2 (t : Fin (cfg9 a).N) (h : cC ((cfg9 a).grid.coords t)) : (cfg9 a).idle 2 ((cfg9 a).grid.coords t) = false := by
  show (!(k9_cond2 ((cfg9 a).grid.coords t) == 1#1)) = false
  simpa using h

theorem live_0 (t : Fin (cfg9 a).N) : (cfg9 a).idle 0 ((cfg9 a).grid.coords t) = false := rfl
theorem live_1 (t : Fin (cfg9 a).N) : (cfg9 a).idle 1 ((cfg9 a).grid.coords t) = false := rfl

/-- The result's block index never moves, so it is written back at the last point only. -/
theorem noflush_2 (t : Fin (cfg9 a).N) (h : t.val ≠ 49999) : ((cfg9 a).win 2).flush t = false := by
  have hN : (cfg9 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg9 a).N) (d) : (dat a V c).before 0 t d = (dat a V c).after 0 t :=
  (before_0 a V c t d).trans (after_0 a V c t).symm
theorem keep_1 (c : Dev nD) (t : Fin (cfg9 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg9 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k9_pay2 (b3 a V c ⟨0, hn⟩) (b4 a V c ⟨0, hn⟩) (k9_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg9 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg9 a).N) : Memref sig .tc .vmem S1x1x96 .f32 := spec9_0.stage ((cfg9 a).slots t 0)
abbrev hs0 (t : Fin (cfg9 a).N) : (ms0 a t).IsWhole := hstage9_0 (((cfg9 a).slots t 0).cast nbuf9_0)
abbrev ms1 (t : Fin (cfg9 a).N) : Memref sig .tc .vmem S1x1x96 .f32 := spec9_1.stage ((cfg9 a).slots t 1)
abbrev hs1 (t : Fin (cfg9 a).N) : (ms1 a t).IsWhole := hstage9_1 (((cfg9 a).slots t 1).cast nbuf9_1)
abbrev ms2 (t : Fin (cfg9 a).N) : Memref sig .tc .vmem S1x1 .f32 := spec9_2.stage ((cfg9 a).slots t 2)
abbrev hs2 (t : Fin (cfg9 a).N) : (ms2 a t).IsWhole := hstage9_2 (((cfg9 a).slots t 2).cast nbuf9_2)

/-- The body as the pipeline calls it at point `t`. -/
abbrev bodyAt (t : Fin (cfg9 a).N) : Prog (TpuEff nD τ sig (Elt F) Λ₀ .tc) PUnit :=
  cc9__chunk_kernel ((cfg9 a).grid.coords t) (Memref.whole main_v71) (Memref.isWhole_whole _) (Memref.whole main_v73) (Memref.isWhole_whole _)
    (ms0 a t) (hs0 a t) (ms1 a t) (hs1 a t) (ms2 a t) (hs2 a t) (Memref.whole cc9_scratch0) (Memref.isWhole_whole _)

/-- What the body is called with at point `t`, -/
def bodyPre (c : Dev nD) (t : Fin (cfg9 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg9 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg9 a).N) :
    (dat a V c).leavesExact 0 t = owns (c : Thread nD τ) (ms0 a t) fullShare ((dat a V c).after 0 t) := by
  unfold Dat.leavesExact; rw [live_0]; rfl
theorem leaves_1 (c : Dev nD) (t : Fin (cfg9 a).N) :
    (dat a V c).leavesExact 1 t = owns (c : Thread nD τ) (ms1 a t) fullShare ((dat a V c).after 1 t) := by
  unfold Dat.leavesExact; rw [live_1]; rfl
theorem leaves_2_idle (c : Dev nD) (t : Fin (cfg9 a).N) (hC : ¬cC ((cfg9 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg9 a).N) (hC : cC ((cfg9 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg9 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg9 a).grid.coords t) := (hcA a t).mpr h0
    have hC : ¬cC ((cfg9 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec9 c) from by
      obtain ⟨n, hn⟩ := t; obtain rfl : n = 0 := h0; rfl]
    rw [scopedRest9_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec9 c [cc9_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg9 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec9 c [cc9_scratch0]) from rfl]
    have hA : ¬cA ((cfg9 a).grid.coords t) := fun h => h0 ((hcA a t).mp h)
    by_cases hl : t.val = 49999
    · -- the last point
      have hC : cC ((cfg9 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg9 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg9 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg9 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W9, bigSep_W9]
  exact sound_body a V c t

end Cert.KernelIdeal.Chunk9

end
-- ==== Proof.KI.Dat10.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 10 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg10 (F := F)).Adm)
variable (V : (c : Dev nD) → (b : Ref sig .tc) → Buf (Elt F) ((c : Thread nD τ).loc b))

/-! ## The grid's points and the two conditions -/

/-- The grid point is the first one: the condition of the body's first conditional. -/
abbrev cA (i : grid10.Coords) : Prop := (Scalar.cmpi .ne (Scalar.extui (Scalar.cmpi .eq (BitVec.ofNat 32 (i 0).val) 0#32)) 0#32) = 1#1
/-- The grid point is the last one: the condition of the body's second conditional. -/
abbrev cC (i : grid10.Coords) : Prop := k10_cond2 i = 1#1

/-- This call's kernel function is the first call's: the same text. -/
theorem kernel_eq : cc10__chunk_kernel (F := F) = cc0__chunk_kernel (F := F) := rfl

theorem N_eq : (cfg10 a).N = 50000 := N_10

/-- On the one-axis grid the coordinate of point `t` is `t`. -/
theorem coord_val (t : Fin (cfg10 a).N) : (((cfg10 a).grid.coords t) 0).val = t.val := by
  have h : t.val < 50000 := lt_of_lt_of_eq t.isLt (N_eq a)
  show t.val / (cfg10 a).grid.stride 0 % 50000 = t.val
  rw [show (cfg10 a).grid.stride 0 = 1 from rfl, Nat.div_one, Nat.mod_eq_of_lt h]

/-- The first conditional is taken at point 0 only. -/
theorem hcA (t : Fin (cfg10 a).N) : cA ((cfg10 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg10 a).N) : cC ((cfg10 a).grid.coords t) ↔ t.val = 49999 := by
  have h : t.val < 50000 := lt_of_lt_of_eq t.isLt (N_eq a)
  unfold cC k10_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- The source row and the destination row staged at point `t`. -/
abbrev b3 (c : Dev nD) (t : Fin (cfg10 a).N) : Vec F S1x1x96 .f32 := iblk a V c 0 t
abbrev b4 (c : Dev nD) (t : Fin (cfg10 a).N) : Vec F S1x1x96 .f32 := iblk a V c 1 t

/-- What the scratch holds after point `n`. -/
def acc (c : Dev nD) : (n : ℕ) → n < (cfg10 a).N → Vec F S1x1 .f32
  | 0, h => k10_pay2 (b3 a V c ⟨0, h⟩) (b4 a V c ⟨0, h⟩) (k10_pay1 (F := F))
  | n + 1, h => k10_pay2 (b3 a V c ⟨n + 1, h⟩) (b4 a V c ⟨n + 1, h⟩) (acc c n (Nat.lt_of_succ_lt h))

theorem acc_pos (c : Dev nD) (t : Fin (cfg10 a).N) (ht : t.val ≠ 0) :
    acc a V c t.val t.isLt = k10_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc10_scratch0

/-- The two prefetched tables held whole at the admissible contents. -/
abbrev tblsHeld (c : Dev nD) : sProp 𝕄 := Pipeline.prefHeld (Ix := Unit) (Name := ℕ) (U := UR sig nD τ) (Lvl := ℕ) pre10 c (fun _ => fullShare) a.1

/-- Before point `n`: the tables; before the first point every other scoped buffer at anything, afterwards the
    scratch at what point `n - 1` left and the others at anything. -/
def PhiS (c : Dev nD) : (n : ℕ) → n ≤ (cfg10 a).N → sProp 𝕄
  | 0, _ => iprop(tblsHeld a c ∗ Pipeline.scopedRest (Ix := Unit) (Name := ℕ) (U := UR sig nD τ) (Lvl := ℕ) (Val := Elt F) spec10 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec10 c [cc10_scratch0])

theorem PhiS_pos (c : Dev nD) (n : ℕ) (h : n ≤ (cfg10 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec10 c [cc10_scratch0]) := by
  cases n with
  | zero => exact absurd rfl hz
  | succ n => rfl

/-! ## The proof data -/

def dat (c : Dev nD) : Dat τ (Elt F) Unit ℕ (UR sig nD τ) ℕ (cfg10 a) c where
  A w := V c (Pipeline.arrRef spec10 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg10 a).W) : (dat a V c).A w = V c (Pipeline.arrRef spec10 w) := by
  dsimp only [dat]

theorem after_0 (c : Dev nD) (t : Fin (cfg10 a).N) : (dat a V c).after 0 t = iblk a V c 0 t := rfl
theorem after_1 (c : Dev nD) (t : Fin (cfg10 a).N) : (dat a V c).after 1 t = iblk a V c 1 t := rfl
theorem after_2 (c : Dev nD) (t : Fin (cfg10 a).N) : (dat a V c).after 2 t = acc a V c t.val t.isLt := rfl

/-- Each input's current staging buffer holds its block at every point, fetched there or not. -/
theorem before_0 (c : Dev nD) (t : Fin (cfg10 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg10 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg10 a).N) (h : ¬cC ((cfg10 a).grid.coords t)) : (cfg10 a).idle 2 ((cfg10 a).grid.coords t) = true := by
  show (!(k10_cond2 ((cfg10 a).grid.coords t) == 1#1)) = true
  simpa using h

theorem live_2 (t : Fin (cfg10 a).N) (h : cC ((cfg10 a).grid.coords t)) : (cfg10 a).idle 2 ((cfg10 a).grid.coords t) = false := by
  show (!(k10_cond2 ((cfg10 a).grid.coords t) == 1#1)) = false
  simpa using h

theorem live_0 (t : Fin (cfg10 a).N) : (cfg10 a).idle 0 ((cfg10 a).grid.coords t) = false := rfl
theorem live_1 (t : Fin (cfg10 a).N) : (cfg10 a).idle 1 ((cfg10 a).grid.coords t) = false := rfl

/-- The result's block index never moves, so it is written back at the last point only. -/
theorem noflush_2 (t : Fin (cfg10 a).N) (h : t.val ≠ 49999) : ((cfg10 a).win 2).flush t = false := by
  have hN : (cfg10 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg10 a).N) (d) : (dat a V c).before 0 t d = (dat a V c).after 0 t :=
  (before_0 a V c t d).trans (after_0 a V c t).symm
theorem keep_1 (c : Dev nD) (t : Fin (cfg10 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg10 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k10_pay2 (b3 a V c ⟨0, hn⟩) (b4 a V c ⟨0, hn⟩) (k10_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg10 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg10 a).N) : Memref sig .tc .vmem S1x1x96 .f32 := spec10_0.stage ((cfg10 a).slots t 0)
abbrev hs0 (t : Fin (cfg10 a).N) : (ms0 a t).IsWhole := hstage10_0 (((cfg10 a).slots t 0).cast nbuf10_0)
abbrev ms1 (t : Fin (cfg10 a).N) : Memref sig .tc .vmem S1x1x96 .f32 := spec10_1.stage ((cfg10 a).slots t 1)
abbrev hs1 (t : Fin (cfg10 a).N) : (ms1 a t).IsWhole := hstage10_1 (((cfg10 a).slots t 1).cast nbuf10_1)
abbrev ms2 (t : Fin (cfg10 a).N) : Memref sig .tc .vmem S1x1 .f32 := spec10_2.stage ((cfg10 a).slots t 2)
abbrev hs2 (t : Fin (cfg10 a).N) : (ms2 a t).IsWhole := hstage10_2 (((cfg10 a).slots t 2).cast nbuf10_2)

/-- The body as the pipeline calls it at point `t`. -/
abbrev bodyAt (t : Fin (cfg10 a).N) : Prog (TpuEff nD τ sig (Elt F) Λ₀ .tc) PUnit :=
  cc10__chunk_kernel ((cfg10 a).grid.coords t) (Memref.whole main_v78) (Memref.isWhole_whole _) (Memref.whole main_v80) (Memref.isWhole_whole _)
    (ms0 a t) (hs0 a t) (ms1 a t) (hs1 a t) (ms2 a t) (hs2 a t) (Memref.whole cc10_scratch0) (Memref.isWhole_whole _)

/-- What the body is called with at point `t`, -/
def bodyPre (c : Dev nD) (t : Fin (cfg10 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg10 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg10 a).N) :
    (dat a V c).leavesExact 0 t = owns (c : Thread nD τ) (ms0 a t) fullShare ((dat a V c).after 0 t) := by
  unfold Dat.leavesExact; rw [live_0]; rfl
theorem leaves_1 (c : Dev nD) (t : Fin (cfg10 a).N) :
    (dat a V c).leavesExact 1 t = owns (c : Thread nD τ) (ms1 a t) fullShare ((dat a V c).after 1 t) := by
  unfold Dat.leavesExact; rw [live_1]; rfl
theorem leaves_2_idle (c : Dev nD) (t : Fin (cfg10 a).N) (hC : ¬cC ((cfg10 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg10 a).N) (hC : cC ((cfg10 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg10 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg10 a).grid.coords t) := (hcA a t).mpr h0
    have hC : ¬cC ((cfg10 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec10 c) from by
      obtain ⟨n, hn⟩ := t; obtain rfl : n = 0 := h0; rfl]
    rw [scopedRest10_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec10 c [cc10_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg10 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec10 c [cc10_scratch0]) from rfl]
    have hA : ¬cA ((cfg10 a).grid.coords t) := fun h => h0 ((hcA a t).mp h)
    by_cases hl : t.val = 49999
    · -- the last point
      have hC : cC ((cfg10 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg10 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg10 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg10 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W10, bigSep_W10]
  exact sound_body a V c t

end Cert.KernelIdeal.Chunk10

end
-- ==== Proof.KI.Dat11.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 11 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg11 (F := F)).Adm)
variable (V : (c : Dev nD) → (b : Ref sig .tc) → Buf (Elt F) ((c : Thread nD τ).loc b))

/-! ## The grid's points and the two conditions -/

/-- The grid point is the first one: the condition of the body's first conditional. -/
abbrev cA (i : grid11.Coords) : Prop := (Scalar.cmpi .ne (Scalar.extui (Scalar.cmpi .eq (BitVec.ofNat 32 (i 0).val) 0#32)) 0#32) = 1#1
/-- The grid point is the last one: the condition of the body's second conditional. -/
abbrev cC (i : grid11.Coords) : Prop := k11_cond2 i = 1#1

/-- This call's kernel function is the first call's: the same text. -/
theorem kernel_eq : cc11__chunk_kernel (F := F) = cc0__chunk_kernel (F := F) := rfl

theorem N_eq : (cfg11 a).N = 50000 := N_11

/-- On the one-axis grid the coordinate of point `t` is `t`. -/
theorem coord_val (t : Fin (cfg11 a).N) : (((cfg11 a).grid.coords t) 0).val = t.val := by
  have h : t.val < 50000 := lt_of_lt_of_eq t.isLt (N_eq a)
  show t.val / (cfg11 a).grid.stride 0 % 50000 = t.val
  rw [show (cfg11 a).grid.stride 0 = 1 from rfl, Nat.div_one, Nat.mod_eq_of_lt h]

/-- The first conditional is taken at point 0 only. -/
theorem hcA (t : Fin (cfg11 a).N) : cA ((cfg11 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg11 a).N) : cC ((cfg11 a).grid.coords t) ↔ t.val = 49999 := by
  have h : t.val < 50000 := lt_of_lt_of_eq t.isLt (N_eq a)
  unfold cC k11_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- The source row and the destination row staged at point `t`. -/
abbrev b3 (c : Dev nD) (t : Fin (cfg11 a).N) : Vec F S1x1x96 .f32 := iblk a V c 0 t
abbrev b4 (c : Dev nD) (t : Fin (cfg11 a).N) : Vec F S1x1x96 .f32 := iblk a V c 1 t

/-- What the scratch holds after point `n`. -/
def acc (c : Dev nD) : (n : ℕ) → n < (cfg11 a).N → Vec F S1x1 .f32
  | 0, h => k11_pay2 (b3 a V c ⟨0, h⟩) (b4 a V c ⟨0, h⟩) (k11_pay1 (F := F))
  | n + 1, h => k11_pay2 (b3 a V c ⟨n + 1, h⟩) (b4 a V c ⟨n + 1, h⟩) (acc c n (Nat.lt_of_succ_lt h))

theorem acc_pos (c : Dev nD) (t : Fin (cfg11 a).N) (ht : t.val ≠ 0) :
    acc a V c t.val t.isLt = k11_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc11_scratch0

/-- The two prefetched tables held whole at the admissible contents. -/
abbrev tblsHeld (c : Dev nD) : sProp 𝕄 := Pipeline.prefHeld (Ix := Unit) (Name := ℕ) (U := UR sig nD τ) (Lvl := ℕ) pre11 c (fun _ => fullShare) a.1

/-- Before point `n`: the tables; before the first point every other scoped buffer at anything, afterwards the
    scratch at what point `n - 1` left and the others at anything. -/
def PhiS (c : Dev nD) : (n : ℕ) → n ≤ (cfg11 a).N → sProp 𝕄
  | 0, _ => iprop(tblsHeld a c ∗ Pipeline.scopedRest (Ix := Unit) (Name := ℕ) (U := UR sig nD τ) (Lvl := ℕ) (Val := Elt F) spec11 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec11 c [cc11_scratch0])

theorem PhiS_pos (c : Dev nD) (n : ℕ) (h : n ≤ (cfg11 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec11 c [cc11_scratch0]) := by
  cases n with
  | zero => exact absurd rfl hz
  | succ n => rfl

/-! ## The proof data -/

def dat (c : Dev nD) : Dat τ (Elt F) Unit ℕ (UR sig nD τ) ℕ (cfg11 a) c where
  A w := V c (Pipeline.arrRef spec11 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg11 a).W) : (dat a V c).A w = V c (Pipeline.arrRef spec11 w) := by
  dsimp only [dat]

theorem after_0 (c : Dev nD) (t : Fin (cfg11 a).N) : (dat a V c).after 0 t = iblk a V c 0 t := rfl
theorem after_1 (c : Dev nD) (t : Fin (cfg11 a).N) : (dat a V c).after 1 t = iblk a V c 1 t := rfl
theorem after_2 (c : Dev nD) (t : Fin (cfg11 a).N) : (dat a V c).after 2 t = acc a V c t.val t.isLt := rfl

/-- Each input's current staging buffer holds its block at every point, fetched there or not. -/
theorem before_0 (c : Dev nD) (t : Fin (cfg11 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg11 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg11 a).N) (h : ¬cC ((cfg11 a).grid.coords t)) : (cfg11 a).idle 2 ((cfg11 a).grid.coords t) = true := by
  show (!(k11_cond2 ((cfg11 a).grid.coords t) == 1#1)) = true
  simpa using h

theorem live_2 (t : Fin (cfg11 a).N) (h : cC ((cfg11 a).grid.coords t)) : (cfg11 a).idle 2 ((cfg11 a).grid.coords t) = false := by
  show (!(k11_cond2 ((cfg11 a).grid.coords t) == 1#1)) = false
  simpa using h

theorem live_0 (t : Fin (cfg11 a).N) : (cfg11 a).idle 0 ((cfg11 a).grid.coords t) = false := rfl
theorem live_1 (t : Fin (cfg11 a).N) : (cfg11 a).idle 1 ((cfg11 a).grid.coords t) = false := rfl

/-- The result's block index never moves, so it is written back at the last point only. -/
theorem noflush_2 (t : Fin (cfg11 a).N) (h : t.val ≠ 49999) : ((cfg11 a).win 2).flush t = false := by
  have hN : (cfg11 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg11 a).N) (d) : (dat a V c).before 0 t d = (dat a V c).after 0 t :=
  (before_0 a V c t d).trans (after_0 a V c t).symm
theorem keep_1 (c : Dev nD) (t : Fin (cfg11 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg11 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k11_pay2 (b3 a V c ⟨0, hn⟩) (b4 a V c ⟨0, hn⟩) (k11_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg11 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg11 a).N) : Memref sig .tc .vmem S1x1x96 .f32 := spec11_0.stage ((cfg11 a).slots t 0)
abbrev hs0 (t : Fin (cfg11 a).N) : (ms0 a t).IsWhole := hstage11_0 (((cfg11 a).slots t 0).cast nbuf11_0)
abbrev ms1 (t : Fin (cfg11 a).N) : Memref sig .tc .vmem S1x1x96 .f32 := spec11_1.stage ((cfg11 a).slots t 1)
abbrev hs1 (t : Fin (cfg11 a).N) : (ms1 a t).IsWhole := hstage11_1 (((cfg11 a).slots t 1).cast nbuf11_1)
abbrev ms2 (t : Fin (cfg11 a).N) : Memref sig .tc .vmem S1x1 .f32 := spec11_2.stage ((cfg11 a).slots t 2)
abbrev hs2 (t : Fin (cfg11 a).N) : (ms2 a t).IsWhole := hstage11_2 (((cfg11 a).slots t 2).cast nbuf11_2)

/-- The body as the pipeline calls it at point `t`. -/
abbrev bodyAt (t : Fin (cfg11 a).N) : Prog (TpuEff nD τ sig (Elt F) Λ₀ .tc) PUnit :=
  cc11__chunk_kernel ((cfg11 a).grid.coords t) (Memref.whole main_v85) (Memref.isWhole_whole _) (Memref.whole main_v87) (Memref.isWhole_whole _)
    (ms0 a t) (hs0 a t) (ms1 a t) (hs1 a t) (ms2 a t) (hs2 a t) (Memref.whole cc11_scratch0) (Memref.isWhole_whole _)

/-- What the body is called with at point `t`, -/
def bodyPre (c : Dev nD) (t : Fin (cfg11 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg11 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg11 a).N) :
    (dat a V c).leavesExact 0 t = owns (c : Thread nD τ) (ms0 a t) fullShare ((dat a V c).after 0 t) := by
  unfold Dat.leavesExact; rw [live_0]; rfl
theorem leaves_1 (c : Dev nD) (t : Fin (cfg11 a).N) :
    (dat a V c).leavesExact 1 t = owns (c : Thread nD τ) (ms1 a t) fullShare ((dat a V c).after 1 t) := by
  unfold Dat.leavesExact; rw [live_1]; rfl
theorem leaves_2_idle (c : Dev nD) (t : Fin (cfg11 a).N) (hC : ¬cC ((cfg11 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg11 a).N) (hC : cC ((cfg11 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg11 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg11 a).grid.coords t) := (hcA a t).mpr h0
    have hC : ¬cC ((cfg11 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec11 c) from by
      obtain ⟨n, hn⟩ := t; obtain rfl : n = 0 := h0; rfl]
    rw [scopedRest11_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec11 c [cc11_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg11 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec11 c [cc11_scratch0]) from rfl]
    have hA : ¬cA ((cfg11 a).grid.coords t) := fun h => h0 ((hcA a t).mp h)
    by_cases hl : t.val = 49999
    · -- the last point
      have hC : cC ((cfg11 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg11 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg11 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg11 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W11, bigSep_W11]
  exact sound_body a V c t

end Cert.KernelIdeal.Chunk11

end
-- ==== Proof.KI.Dat12.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 12 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg12 (F := F)).Adm)
variable (V : (c : Dev nD) → (b : Ref sig .tc) → Buf (Elt F) ((c : Thread nD τ).loc b))

/-! ## The grid's points and the two conditions -/

/-- The grid point is the first one: the condition of the body's first conditional. -/
abbrev cA (i : grid12.Coords) : Prop := (Scalar.cmpi .ne (Scalar.extui (Scalar.cmpi .eq (BitVec.ofNat 32 (i 0).val) 0#32)) 0#32) = 1#1
/-- The grid point is the last one: the condition of the body's second conditional. -/
abbrev cC (i : grid12.Coords) : Prop := k12_cond2 i = 1#1

/-- This call's kernel function is the first call's: the same text. -/
theorem kernel_eq : cc12__chunk_kernel (F := F) = cc0__chunk_kernel (F := F) := rfl

theorem N_eq : (cfg12 a).N = 50000 := N_12

/-- On the one-axis grid the coordinate of point `t` is `t`. -/
theorem coord_val (t : Fin (cfg12 a).N) : (((cfg12 a).grid.coords t) 0).val = t.val := by
  have h : t.val < 50000 := lt_of_lt_of_eq t.isLt (N_eq a)
  show t.val / (cfg12 a).grid.stride 0 % 50000 = t.val
  rw [show (cfg12 a).grid.stride 0 = 1 from rfl, Nat.div_one, Nat.mod_eq_of_lt h]

/-- The first conditional is taken at point 0 only. -/
theorem hcA (t : Fin (cfg12 a).N) : cA ((cfg12 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg12 a).N) : cC ((cfg12 a).grid.coords t) ↔ t.val = 49999 := by
  have h : t.val < 50000 := lt_of_lt_of_eq t.isLt (N_eq a)
  unfold cC k12_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- The source row and the destination row staged at point `t`. -/
abbrev b3 (c : Dev nD) (t : Fin (cfg12 a).N) : Vec F S1x1x96 .f32 := iblk a V c 0 t
abbrev b4 (c : Dev nD) (t : Fin (cfg12 a).N) : Vec F S1x1x96 .f32 := iblk a V c 1 t

/-- What the scratch holds after point `n`. -/
def acc (c : Dev nD) : (n : ℕ) → n < (cfg12 a).N → Vec F S1x1 .f32
  | 0, h => k12_pay2 (b3 a V c ⟨0, h⟩) (b4 a V c ⟨0, h⟩) (k12_pay1 (F := F))
  | n + 1, h => k12_pay2 (b3 a V c ⟨n + 1, h⟩) (b4 a V c ⟨n + 1, h⟩) (acc c n (Nat.lt_of_succ_lt h))

theorem acc_pos (c : Dev nD) (t : Fin (cfg12 a).N) (ht : t.val ≠ 0) :
    acc a V c t.val t.isLt = k12_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc12_scratch0

/-- The two prefetched tables held whole at the admissible contents. -/
abbrev tblsHeld (c : Dev nD) : sProp 𝕄 := Pipeline.prefHeld (Ix := Unit) (Name := ℕ) (U := UR sig nD τ) (Lvl := ℕ) pre12 c (fun _ => fullShare) a.1

/-- Before point `n`: the tables; before the first point every other scoped buffer at anything, afterwards the
    scratch at what point `n - 1` left and the others at anything. -/
def PhiS (c : Dev nD) : (n : ℕ) → n ≤ (cfg12 a).N → sProp 𝕄
  | 0, _ => iprop(tblsHeld a c ∗ Pipeline.scopedRest (Ix := Unit) (Name := ℕ) (U := UR sig nD τ) (Lvl := ℕ) (Val := Elt F) spec12 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec12 c [cc12_scratch0])

theorem PhiS_pos (c : Dev nD) (n : ℕ) (h : n ≤ (cfg12 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec12 c [cc12_scratch0]) := by
  cases n with
  | zero => exact absurd rfl hz
  | succ n => rfl

/-! ## The proof data -/

def dat (c : Dev nD) : Dat τ (Elt F) Unit ℕ (UR sig nD τ) ℕ (cfg12 a) c where
  A w := V c (Pipeline.arrRef spec12 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg12 a).W) : (dat a V c).A w = V c (Pipeline.arrRef spec12 w) := by
  dsimp only [dat]

theorem after_0 (c : Dev nD) (t : Fin (cfg12 a).N) : (dat a V c).after 0 t = iblk a V c 0 t := rfl
theorem after_1 (c : Dev nD) (t : Fin (cfg12 a).N) : (dat a V c).after 1 t = iblk a V c 1 t := rfl
theorem after_2 (c : Dev nD) (t : Fin (cfg12 a).N) : (dat a V c).after 2 t = acc a V c t.val t.isLt := rfl

/-- Each input's current staging buffer holds its block at every point, fetched there or not. -/
theorem before_0 (c : Dev nD) (t : Fin (cfg12 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg12 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg12 a).N) (h : ¬cC ((cfg12 a).grid.coords t)) : (cfg12 a).idle 2 ((cfg12 a).grid.coords t) = true := by
  show (!(k12_cond2 ((cfg12 a).grid.coords t) == 1#1)) = true
  simpa using h

theorem live_2 (t : Fin (cfg12 a).N) (h : cC ((cfg12 a).grid.coords t)) : (cfg12 a).idle 2 ((cfg12 a).grid.coords t) = false := by
  show (!(k12_cond2 ((cfg12 a).grid.coords t) == 1#1)) = false
  simpa using h

theorem live_0 (t : Fin (cfg12 a).N) : (cfg12 a).idle 0 ((cfg12 a).grid.coords t) = false := rfl
theorem live_1 (t : Fin (cfg12 a).N) : (cfg12 a).idle 1 ((cfg12 a).grid.coords t) = false := rfl

/-- The result's block index never moves, so it is written back at the last point only. -/
theorem noflush_2 (t : Fin (cfg12 a).N) (h : t.val ≠ 49999) : ((cfg12 a).win 2).flush t = false := by
  have hN : (cfg12 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg12 a).N) (d) : (dat a V c).before 0 t d = (dat a V c).after 0 t :=
  (before_0 a V c t d).trans (after_0 a V c t).symm
theorem keep_1 (c : Dev nD) (t : Fin (cfg12 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg12 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k12_pay2 (b3 a V c ⟨0, hn⟩) (b4 a V c ⟨0, hn⟩) (k12_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg12 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg12 a).N) : Memref sig .tc .vmem S1x1x96 .f32 := spec12_0.stage ((cfg12 a).slots t 0)
abbrev hs0 (t : Fin (cfg12 a).N) : (ms0 a t).IsWhole := hstage12_0 (((cfg12 a).slots t 0).cast nbuf12_0)
abbrev ms1 (t : Fin (cfg12 a).N) : Memref sig .tc .vmem S1x1x96 .f32 := spec12_1.stage ((cfg12 a).slots t 1)
abbrev hs1 (t : Fin (cfg12 a).N) : (ms1 a t).IsWhole := hstage12_1 (((cfg12 a).slots t 1).cast nbuf12_1)
abbrev ms2 (t : Fin (cfg12 a).N) : Memref sig .tc .vmem S1x1 .f32 := spec12_2.stage ((cfg12 a).slots t 2)
abbrev hs2 (t : Fin (cfg12 a).N) : (ms2 a t).IsWhole := hstage12_2 (((cfg12 a).slots t 2).cast nbuf12_2)

/-- The body as the pipeline calls it at point `t`. -/
abbrev bodyAt (t : Fin (cfg12 a).N) : Prog (TpuEff nD τ sig (Elt F) Λ₀ .tc) PUnit :=
  cc12__chunk_kernel ((cfg12 a).grid.coords t) (Memref.whole main_v92) (Memref.isWhole_whole _) (Memref.whole main_v94) (Memref.isWhole_whole _)
    (ms0 a t) (hs0 a t) (ms1 a t) (hs1 a t) (ms2 a t) (hs2 a t) (Memref.whole cc12_scratch0) (Memref.isWhole_whole _)

/-- What the body is called with at point `t`, -/
def bodyPre (c : Dev nD) (t : Fin (cfg12 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg12 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg12 a).N) :
    (dat a V c).leavesExact 0 t = owns (c : Thread nD τ) (ms0 a t) fullShare ((dat a V c).after 0 t) := by
  unfold Dat.leavesExact; rw [live_0]; rfl
theorem leaves_1 (c : Dev nD) (t : Fin (cfg12 a).N) :
    (dat a V c).leavesExact 1 t = owns (c : Thread nD τ) (ms1 a t) fullShare ((dat a V c).after 1 t) := by
  unfold Dat.leavesExact; rw [live_1]; rfl
theorem leaves_2_idle (c : Dev nD) (t : Fin (cfg12 a).N) (hC : ¬cC ((cfg12 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg12 a).N) (hC : cC ((cfg12 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg12 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg12 a).grid.coords t) := (hcA a t).mpr h0
    have hC : ¬cC ((cfg12 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec12 c) from by
      obtain ⟨n, hn⟩ := t; obtain rfl : n = 0 := h0; rfl]
    rw [scopedRest12_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec12 c [cc12_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg12 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec12 c [cc12_scratch0]) from rfl]
    have hA : ¬cA ((cfg12 a).grid.coords t) := fun h => h0 ((hcA a t).mp h)
    by_cases hl : t.val = 49999
    · -- the last point
      have hC : cC ((cfg12 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg12 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg12 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg12 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W12, bigSep_W12]
  exact sound_body a V c t

end Cert.KernelIdeal.Chunk12

end
-- ==== Proof.KI.Dat13.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 13 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg13 (F := F)).Adm)
variable (V : (c : Dev nD) → (b : Ref sig .tc) → Buf (Elt F) ((c : Thread nD τ).loc b))

/-! ## The grid's points and the two conditions -/

/-- The grid point is the first one: the condition of the body's first conditional. -/
abbrev cA (i : grid13.Coords) : Prop := (Scalar.cmpi .ne (Scalar.extui (Scalar.cmpi .eq (BitVec.ofNat 32 (i 0).val) 0#32)) 0#32) = 1#1
/-- The grid point is the last one: the condition of the body's second conditional. -/
abbrev cC (i : grid13.Coords) : Prop := k13_cond2 i = 1#1

/-- This call's kernel function is the first call's: the same text. -/
theorem kernel_eq : cc13__chunk_kernel (F := F) = cc0__chunk_kernel (F := F) := rfl

theorem N_eq : (cfg13 a).N = 50000 := N_13

/-- On the one-axis grid the coordinate of point `t` is `t`. -/
theorem coord_val (t : Fin (cfg13 a).N) : (((cfg13 a).grid.coords t) 0).val = t.val := by
  have h : t.val < 50000 := lt_of_lt_of_eq t.isLt (N_eq a)
  show t.val / (cfg13 a).grid.stride 0 % 50000 = t.val
  rw [show (cfg13 a).grid.stride 0 = 1 from rfl, Nat.div_one, Nat.mod_eq_of_lt h]

/-- The first conditional is taken at point 0 only. -/
theorem hcA (t : Fin (cfg13 a).N) : cA ((cfg13 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg13 a).N) : cC ((cfg13 a).grid.coords t) ↔ t.val = 49999 := by
  have h : t.val < 50000 := lt_of_lt_of_eq t.isLt (N_eq a)
  unfold cC k13_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- The source row and the destination row staged at point `t`. -/
abbrev b3 (c : Dev nD) (t : Fin (cfg13 a).N) : Vec F S1x1x96 .f32 := iblk a V c 0 t
abbrev b4 (c : Dev nD) (t : Fin (cfg13 a).N) : Vec F S1x1x96 .f32 := iblk a V c 1 t

/-- What the scratch holds after point `n`. -/
def acc (c : Dev nD) : (n : ℕ) → n < (cfg13 a).N → Vec F S1x1 .f32
  | 0, h => k13_pay2 (b3 a V c ⟨0, h⟩) (b4 a V c ⟨0, h⟩) (k13_pay1 (F := F))
  | n + 1, h => k13_pay2 (b3 a V c ⟨n + 1, h⟩) (b4 a V c ⟨n + 1, h⟩) (acc c n (Nat.lt_of_succ_lt h))

theorem acc_pos (c : Dev nD) (t : Fin (cfg13 a).N) (ht : t.val ≠ 0) :
    acc a V c t.val t.isLt = k13_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc13_scratch0

/-- The two prefetched tables held whole at the admissible contents. -/
abbrev tblsHeld (c : Dev nD) : sProp 𝕄 := Pipeline.prefHeld (Ix := Unit) (Name := ℕ) (U := UR sig nD τ) (Lvl := ℕ) pre13 c (fun _ => fullShare) a.1

/-- Before point `n`: the tables; before the first point every other scoped buffer at anything, afterwards the
    scratch at what point `n - 1` left and the others at anything. -/
def PhiS (c : Dev nD) : (n : ℕ) → n ≤ (cfg13 a).N → sProp 𝕄
  | 0, _ => iprop(tblsHeld a c ∗ Pipeline.scopedRest (Ix := Unit) (Name := ℕ) (U := UR sig nD τ) (Lvl := ℕ) (Val := Elt F) spec13 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec13 c [cc13_scratch0])

theorem PhiS_pos (c : Dev nD) (n : ℕ) (h : n ≤ (cfg13 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec13 c [cc13_scratch0]) := by
  cases n with
  | zero => exact absurd rfl hz
  | succ n => rfl

/-! ## The proof data -/

def dat (c : Dev nD) : Dat τ (Elt F) Unit ℕ (UR sig nD τ) ℕ (cfg13 a) c where
  A w := V c (Pipeline.arrRef spec13 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg13 a).W) : (dat a V c).A w = V c (Pipeline.arrRef spec13 w) := by
  dsimp only [dat]

theorem after_0 (c : Dev nD) (t : Fin (cfg13 a).N) : (dat a V c).after 0 t = iblk a V c 0 t := rfl
theorem after_1 (c : Dev nD) (t : Fin (cfg13 a).N) : (dat a V c).after 1 t = iblk a V c 1 t := rfl
theorem after_2 (c : Dev nD) (t : Fin (cfg13 a).N) : (dat a V c).after 2 t = acc a V c t.val t.isLt := rfl

/-- Each input's current staging buffer holds its block at every point, fetched there or not. -/
theorem before_0 (c : Dev nD) (t : Fin (cfg13 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg13 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg13 a).N) (h : ¬cC ((cfg13 a).grid.coords t)) : (cfg13 a).idle 2 ((cfg13 a).grid.coords t) = true := by
  show (!(k13_cond2 ((cfg13 a).grid.coords t) == 1#1)) = true
  simpa using h

theorem live_2 (t : Fin (cfg13 a).N) (h : cC ((cfg13 a).grid.coords t)) : (cfg13 a).idle 2 ((cfg13 a).grid.coords t) = false := by
  show (!(k13_cond2 ((cfg13 a).grid.coords t) == 1#1)) = false
  simpa using h

theorem live_0 (t : Fin (cfg13 a).N) : (cfg13 a).idle 0 ((cfg13 a).grid.coords t) = false := rfl
theorem live_1 (t : Fin (cfg13 a).N) : (cfg13 a).idle 1 ((cfg13 a).grid.coords t) = false := rfl

/-- The result's block index never moves, so it is written back at the last point only. -/
theorem noflush_2 (t : Fin (cfg13 a).N) (h : t.val ≠ 49999) : ((cfg13 a).win 2).flush t = false := by
  have hN : (cfg13 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg13 a).N) (d) : (dat a V c).before 0 t d = (dat a V c).after 0 t :=
  (before_0 a V c t d).trans (after_0 a V c t).symm
theorem keep_1 (c : Dev nD) (t : Fin (cfg13 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg13 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k13_pay2 (b3 a V c ⟨0, hn⟩) (b4 a V c ⟨0, hn⟩) (k13_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg13 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg13 a).N) : Memref sig .tc .vmem S1x1x96 .f32 := spec13_0.stage ((cfg13 a).slots t 0)
abbrev hs0 (t : Fin (cfg13 a).N) : (ms0 a t).IsWhole := hstage13_0 (((cfg13 a).slots t 0).cast nbuf13_0)
abbrev ms1 (t : Fin (cfg13 a).N) : Memref sig .tc .vmem S1x1x96 .f32 := spec13_1.stage ((cfg13 a).slots t 1)
abbrev hs1 (t : Fin (cfg13 a).N) : (ms1 a t).IsWhole := hstage13_1 (((cfg13 a).slots t 1).cast nbuf13_1)
abbrev ms2 (t : Fin (cfg13 a).N) : Memref sig .tc .vmem S1x1 .f32 := spec13_2.stage ((cfg13 a).slots t 2)
abbrev hs2 (t : Fin (cfg13 a).N) : (ms2 a t).IsWhole := hstage13_2 (((cfg13 a).slots t 2).cast nbuf13_2)

/-- The body as the pipeline calls it at point `t`. -/
abbrev bodyAt (t : Fin (cfg13 a).N) : Prog (TpuEff nD τ sig (Elt F) Λ₀ .tc) PUnit :=
  cc13__chunk_kernel ((cfg13 a).grid.coords t) (Memref.whole main_v99) (Memref.isWhole_whole _) (Memref.whole main_v101) (Memref.isWhole_whole _)
    (ms0 a t) (hs0 a t) (ms1 a t) (hs1 a t) (ms2 a t) (hs2 a t) (Memref.whole cc13_scratch0) (Memref.isWhole_whole _)

/-- What the body is called with at point `t`, -/
def bodyPre (c : Dev nD) (t : Fin (cfg13 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg13 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg13 a).N) :
    (dat a V c).leavesExact 0 t = owns (c : Thread nD τ) (ms0 a t) fullShare ((dat a V c).after 0 t) := by
  unfold Dat.leavesExact; rw [live_0]; rfl
theorem leaves_1 (c : Dev nD) (t : Fin (cfg13 a).N) :
    (dat a V c).leavesExact 1 t = owns (c : Thread nD τ) (ms1 a t) fullShare ((dat a V c).after 1 t) := by
  unfold Dat.leavesExact; rw [live_1]; rfl
theorem leaves_2_idle (c : Dev nD) (t : Fin (cfg13 a).N) (hC : ¬cC ((cfg13 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg13 a).N) (hC : cC ((cfg13 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg13 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg13 a).grid.coords t) := (hcA a t).mpr h0
    have hC : ¬cC ((cfg13 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec13 c) from by
      obtain ⟨n, hn⟩ := t; obtain rfl : n = 0 := h0; rfl]
    rw [scopedRest13_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec13 c [cc13_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg13 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec13 c [cc13_scratch0]) from rfl]
    have hA : ¬cA ((cfg13 a).grid.coords t) := fun h => h0 ((hcA a t).mp h)
    by_cases hl : t.val = 49999
    · -- the last point
      have hC : cC ((cfg13 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg13 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg13 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg13 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W13, bigSep_W13]
  exact sound_body a V c t

end Cert.KernelIdeal.Chunk13

end
-- ==== Proof.KI.Dat14.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 14 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg14 (F := F)).Adm)
variable (V : (c : Dev nD) → (b : Ref sig .tc) → Buf (Elt F) ((c : Thread nD τ).loc b))

/-! ## The grid's points and the two conditions -/

/-- The grid point is the first one: the condition of the body's first conditional. -/
abbrev cA (i : grid14.Coords) : Prop := (Scalar.cmpi .ne (Scalar.extui (Scalar.cmpi .eq (BitVec.ofNat 32 (i 0).val) 0#32)) 0#32) = 1#1
/-- The grid point is the last one: the condition of the body's second conditional. -/
abbrev cC (i : grid14.Coords) : Prop := k14_cond2 i = 1#1

/-- This call's kernel function is the first call's: the same text. -/
theorem kernel_eq : cc14__chunk_kernel (F := F) = cc0__chunk_kernel (F := F) := rfl

theorem N_eq : (cfg14 a).N = 50000 := N_14

/-- On the one-axis grid the coordinate of point `t` is `t`. -/
theorem coord_val (t : Fin (cfg14 a).N) : (((cfg14 a).grid.coords t) 0).val = t.val := by
  have h : t.val < 50000 := lt_of_lt_of_eq t.isLt (N_eq a)
  show t.val / (cfg14 a).grid.stride 0 % 50000 = t.val
  rw [show (cfg14 a).grid.stride 0 = 1 from rfl, Nat.div_one, Nat.mod_eq_of_lt h]

/-- The first conditional is taken at point 0 only. -/
theorem hcA (t : Fin (cfg14 a).N) : cA ((cfg14 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg14 a).N) : cC ((cfg14 a).grid.coords t) ↔ t.val = 49999 := by
  have h : t.val < 50000 := lt_of_lt_of_eq t.isLt (N_eq a)
  unfold cC k14_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- The source row and the destination row staged at point `t`. -/
abbrev b3 (c : Dev nD) (t : Fin (cfg14 a).N) : Vec F S1x1x96 .f32 := iblk a V c 0 t
abbrev b4 (c : Dev nD) (t : Fin (cfg14 a).N) : Vec F S1x1x96 .f32 := iblk a V c 1 t

/-- What the scratch holds after point `n`. -/
def acc (c : Dev nD) : (n : ℕ) → n < (cfg14 a).N → Vec F S1x1 .f32
  | 0, h => k14_pay2 (b3 a V c ⟨0, h⟩) (b4 a V c ⟨0, h⟩) (k14_pay1 (F := F))
  | n + 1, h => k14_pay2 (b3 a V c ⟨n + 1, h⟩) (b4 a V c ⟨n + 1, h⟩) (acc c n (Nat.lt_of_succ_lt h))

theorem acc_pos (c : Dev nD) (t : Fin (cfg14 a).N) (ht : t.val ≠ 0) :
    acc a V c t.val t.isLt = k14_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc14_scratch0

/-- The two prefetched tables held whole at the admissible contents. -/
abbrev tblsHeld (c : Dev nD) : sProp 𝕄 := Pipeline.prefHeld (Ix := Unit) (Name := ℕ) (U := UR sig nD τ) (Lvl := ℕ) pre14 c (fun _ => fullShare) a.1

/-- Before point `n`: the tables; before the first point every other scoped buffer at anything, afterwards the
    scratch at what point `n - 1` left and the others at anything. -/
def PhiS (c : Dev nD) : (n : ℕ) → n ≤ (cfg14 a).N → sProp 𝕄
  | 0, _ => iprop(tblsHeld a c ∗ Pipeline.scopedRest (Ix := Unit) (Name := ℕ) (U := UR sig nD τ) (Lvl := ℕ) (Val := Elt F) spec14 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec14 c [cc14_scratch0])

theorem PhiS_pos (c : Dev nD) (n : ℕ) (h : n ≤ (cfg14 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec14 c [cc14_scratch0]) := by
  cases n with
  | zero => exact absurd rfl hz
  | succ n => rfl

/-! ## The proof data -/

def dat (c : Dev nD) : Dat τ (Elt F) Unit ℕ (UR sig nD τ) ℕ (cfg14 a) c where
  A w := V c (Pipeline.arrRef spec14 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg14 a).W) : (dat a V c).A w = V c (Pipeline.arrRef spec14 w) := by
  dsimp only [dat]

theorem after_0 (c : Dev nD) (t : Fin (cfg14 a).N) : (dat a V c).after 0 t = iblk a V c 0 t := rfl
theorem after_1 (c : Dev nD) (t : Fin (cfg14 a).N) : (dat a V c).after 1 t = iblk a V c 1 t := rfl
theorem after_2 (c : Dev nD) (t : Fin (cfg14 a).N) : (dat a V c).after 2 t = acc a V c t.val t.isLt := rfl

/-- Each input's current staging buffer holds its block at every point, fetched there or not. -/
theorem before_0 (c : Dev nD) (t : Fin (cfg14 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg14 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg14 a).N) (h : ¬cC ((cfg14 a).grid.coords t)) : (cfg14 a).idle 2 ((cfg14 a).grid.coords t) = true := by
  show (!(k14_cond2 ((cfg14 a).grid.coords t) == 1#1)) = true
  simpa using h

theorem live_2 (t : Fin (cfg14 a).N) (h : cC ((cfg14 a).grid.coords t)) : (cfg14 a).idle 2 ((cfg14 a).grid.coords t) = false := by
  show (!(k14_cond2 ((cfg14 a).grid.coords t) == 1#1)) = false
  simpa using h

theorem live_0 (t : Fin (cfg14 a).N) : (cfg14 a).idle 0 ((cfg14 a).grid.coords t) = false := rfl
theorem live_1 (t : Fin (cfg14 a).N) : (cfg14 a).idle 1 ((cfg14 a).grid.coords t) = false := rfl

/-- The result's block index never moves, so it is written back at the last point only. -/
theorem noflush_2 (t : Fin (cfg14 a).N) (h : t.val ≠ 49999) : ((cfg14 a).win 2).flush t = false := by
  have hN : (cfg14 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg14 a).N) (d) : (dat a V c).before 0 t d = (dat a V c).after 0 t :=
  (before_0 a V c t d).trans (after_0 a V c t).symm
theorem keep_1 (c : Dev nD) (t : Fin (cfg14 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg14 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k14_pay2 (b3 a V c ⟨0, hn⟩) (b4 a V c ⟨0, hn⟩) (k14_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg14 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg14 a).N) : Memref sig .tc .vmem S1x1x96 .f32 := spec14_0.stage ((cfg14 a).slots t 0)
abbrev hs0 (t : Fin (cfg14 a).N) : (ms0 a t).IsWhole := hstage14_0 (((cfg14 a).slots t 0).cast nbuf14_0)
abbrev ms1 (t : Fin (cfg14 a).N) : Memref sig .tc .vmem S1x1x96 .f32 := spec14_1.stage ((cfg14 a).slots t 1)
abbrev hs1 (t : Fin (cfg14 a).N) : (ms1 a t).IsWhole := hstage14_1 (((cfg14 a).slots t 1).cast nbuf14_1)
abbrev ms2 (t : Fin (cfg14 a).N) : Memref sig .tc .vmem S1x1 .f32 := spec14_2.stage ((cfg14 a).slots t 2)
abbrev hs2 (t : Fin (cfg14 a).N) : (ms2 a t).IsWhole := hstage14_2 (((cfg14 a).slots t 2).cast nbuf14_2)

/-- The body as the pipeline calls it at point `t`. -/
abbrev bodyAt (t : Fin (cfg14 a).N) : Prog (TpuEff nD τ sig (Elt F) Λ₀ .tc) PUnit :=
  cc14__chunk_kernel ((cfg14 a).grid.coords t) (Memref.whole main_v106) (Memref.isWhole_whole _) (Memref.whole main_v108) (Memref.isWhole_whole _)
    (ms0 a t) (hs0 a t) (ms1 a t) (hs1 a t) (ms2 a t) (hs2 a t) (Memref.whole cc14_scratch0) (Memref.isWhole_whole _)

/-- What the body is called with at point `t`, -/
def bodyPre (c : Dev nD) (t : Fin (cfg14 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg14 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg14 a).N) :
    (dat a V c).leavesExact 0 t = owns (c : Thread nD τ) (ms0 a t) fullShare ((dat a V c).after 0 t) := by
  unfold Dat.leavesExact; rw [live_0]; rfl
theorem leaves_1 (c : Dev nD) (t : Fin (cfg14 a).N) :
    (dat a V c).leavesExact 1 t = owns (c : Thread nD τ) (ms1 a t) fullShare ((dat a V c).after 1 t) := by
  unfold Dat.leavesExact; rw [live_1]; rfl
theorem leaves_2_idle (c : Dev nD) (t : Fin (cfg14 a).N) (hC : ¬cC ((cfg14 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg14 a).N) (hC : cC ((cfg14 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg14 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg14 a).grid.coords t) := (hcA a t).mpr h0
    have hC : ¬cC ((cfg14 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec14 c) from by
      obtain ⟨n, hn⟩ := t; obtain rfl : n = 0 := h0; rfl]
    rw [scopedRest14_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec14 c [cc14_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg14 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec14 c [cc14_scratch0]) from rfl]
    have hA : ¬cA ((cfg14 a).grid.coords t) := fun h => h0 ((hcA a t).mp h)
    by_cases hl : t.val = 49999
    · -- the last point
      have hC : cC ((cfg14 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg14 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg14 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg14 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W14, bigSep_W14]
  exact sound_body a V c t

end Cert.KernelIdeal.Chunk14

end
-- ==== Proof.KI.Dat15.lean ====
import proofs.«418705_j10376640987952_2_alg».proof.Proof.KI.Run00
import proofs.«418705_j10376640987952_2_alg».proof.Proof.LibCondWords
import Idealize.ShloMosaic.Lib.Pipeline.Frame
import Idealize.ShloMosaic.Lib.Pipeline.FrameBody
import Idealize.ShloMosaic.Lib.Pipeline.Kit

/-!
The proof data of pallas_call 15 and its body obligation.

The call runs 50000 grid points. Point `t` stages row `src[t]` of the feature table in window 0 and row
`dst[t]` in window 1 (both windows are blocks of ONE array, the table reshaped to `[50000, 1, 96]`; the row
numbers are the words of the two prefetched tables), and the body adds the distance of the two rows to a
one-word scratch: after point `n` the scratch holds `acc n`, with `acc 0` the update of the zero word and
`acc (n+1)` the update of `acc n`. Window 2, the one-word result, is stored only at the last point, where it
receives `acc 49999`; at every other point the body leaves its staging word as it found it. The region's
invariant keeps the two tables, the scratch at `acc (n-1)` before point `n ≥ 1`, and the other scoped buffers.
-/

set_option maxRecDepth 16384

noncomputable section

namespace Cert.KernelIdeal.Chunk15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg15 (F := F)).Adm)
variable (V : (c : Dev nD) → (b : Ref sig .tc) → Buf (Elt F) ((c : Thread nD τ).loc b))

/-! ## The grid's points and the two conditions -/

/-- The grid point is the first one: the condition of the body's first conditional. -/
abbrev cA (i : grid15.Coords) : Prop := (Scalar.cmpi .ne (Scalar.extui (Scalar.cmpi .eq (BitVec.ofNat 32 (i 0).val) 0#32)) 0#32) = 1#1
/-- The grid point is the last one: the condition of the body's second conditional. -/
abbrev cC (i : grid15.Coords) : Prop := k15_cond2 i = 1#1

/-- This call's kernel function is the first call's: the same text. -/
theorem kernel_eq : cc15__chunk_kernel (F := F) = cc0__chunk_kernel (F := F) := rfl

theorem N_eq : (cfg15 a).N = 50000 := N_15

/-- On the one-axis grid the coordinate of point `t` is `t`. -/
theorem coord_val (t : Fin (cfg15 a).N) : (((cfg15 a).grid.coords t) 0).val = t.val := by
  have h : t.val < 50000 := lt_of_lt_of_eq t.isLt (N_eq a)
  show t.val / (cfg15 a).grid.stride 0 % 50000 = t.val
  rw [show (cfg15 a).grid.stride 0 = 1 from rfl, Nat.div_one, Nat.mod_eq_of_lt h]

/-- The first conditional is taken at point 0 only. -/
theorem hcA (t : Fin (cfg15 a).N) : cA ((cfg15 a).grid.coords t) ↔ t.val = 0 := by
  have h : t.val < 50000 := lt_of_lt_of_eq t.isLt (N_eq a)
  unfold cA; rw [coord_val a t]
  exact Cert.LibCondWords.when_eq_iff t.val 0 (Nat.lt_trans h (by decide)) (by decide)

/-- The second conditional is taken at the last point only. -/
theorem hcC (t : Fin (cfg15 a).N) : cC ((cfg15 a).grid.coords t) ↔ t.val = 49999 := by
  have h : t.val < 50000 := lt_of_lt_of_eq t.isLt (N_eq a)
  unfold cC k15_cond2; dsimp only; rw [coord_val a t]
  exact Cert.LibCondWords.when_eq_iff t.val 49999 (Nat.lt_trans h (by decide)) (by decide)

/-! ## The blocks and the running sum -/

/-- Window `w`'s block at point `t`, read off its array as the region finds it. -/
def iblk (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- The source row and the destination row staged at point `t`. -/
abbrev b3 (c : Dev nD) (t : Fin (cfg15 a).N) : Vec F S1x1x96 .f32 := iblk a V c 0 t
abbrev b4 (c : Dev nD) (t : Fin (cfg15 a).N) : Vec F S1x1x96 .f32 := iblk a V c 1 t

/-- What the scratch holds after point `n`. -/
def acc (c : Dev nD) : (n : ℕ) → n < (cfg15 a).N → Vec F S1x1 .f32
  | 0, h => k15_pay2 (b3 a V c ⟨0, h⟩) (b4 a V c ⟨0, h⟩) (k15_pay1 (F := F))
  | n + 1, h => k15_pay2 (b3 a V c ⟨n + 1, h⟩) (b4 a V c ⟨n + 1, h⟩) (acc c n (Nat.lt_of_succ_lt h))

theorem acc_pos (c : Dev nD) (t : Fin (cfg15 a).N) (ht : t.val ≠ 0) :
    acc a V c t.val t.isLt = k15_pay2 (b3 a V c t) (b4 a V c t) (acc a V c (t.val - 1) (Nat.lt_of_le_of_lt (Nat.sub_le _ _) t.isLt)) := by
  obtain ⟨n, hn⟩ := t
  cases n with
  | zero => exact absurd rfl ht
  | succ n => rfl

/-! ## The invariant -/

/-- The scratch as a memref. -/
abbrev scM : Memref sig .tc .vmem S1x1 .f32 := Memref.whole cc15_scratch0

/-- The two prefetched tables held whole at the admissible contents. -/
abbrev tblsHeld (c : Dev nD) : sProp 𝕄 := Pipeline.prefHeld (Ix := Unit) (Name := ℕ) (U := UR sig nD τ) (Lvl := ℕ) pre15 c (fun _ => fullShare) a.1

/-- Before point `n`: the tables; before the first point every other scoped buffer at anything, afterwards the
    scratch at what point `n - 1` left and the others at anything. -/
def PhiS (c : Dev nD) : (n : ℕ) → n ≤ (cfg15 a).N → sProp 𝕄
  | 0, _ => iprop(tblsHeld a c ∗ Pipeline.scopedRest (Ix := Unit) (Name := ℕ) (U := UR sig nD τ) (Lvl := ℕ) (Val := Elt F) spec15 c)
  | n + 1, hn => iprop(tblsHeld a c ∗ owns (c : Thread nD τ) scM fullShare (acc a V c n hn)
      ∗ Pipeline.scopedRestBut (Ix := Unit) (Name := ℕ) (U := UR sig nD τ) (Lvl := ℕ) (Val := Elt F) spec15 c [cc15_scratch0])

theorem PhiS_pos (c : Dev nD) (n : ℕ) (h : n ≤ (cfg15 a).N) (hz : n ≠ 0) :
    PhiS a V c n h = iprop(tblsHeld a c ∗ owns (c : Thread nD τ) scM fullShare (acc a V c (n - 1) (by omega))
      ∗ Pipeline.scopedRestBut (Ix := Unit) (Name := ℕ) (U := UR sig nD τ) (Lvl := ℕ) (Val := Elt F) spec15 c [cc15_scratch0]) := by
  cases n with
  | zero => exact absurd rfl hz
  | succ n => rfl

/-! ## The proof data -/

def dat (c : Dev nD) : Dat τ (Elt F) Unit ℕ (UR sig nD τ) ℕ (cfg15 a) c where
  A w := V c (Pipeline.arrRef spec15 w)
  after w t := match w with
    | ⟨0, _⟩ => iblk a V c 0 t
    | ⟨1, _⟩ => iblk a V c 1 t
    | ⟨2, _⟩ => acc a V c t.val t.isLt
  Φ t := PhiS a V c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin (cfg15 a).W) : (dat a V c).A w = V c (Pipeline.arrRef spec15 w) := by
  dsimp only [dat]

theorem after_0 (c : Dev nD) (t : Fin (cfg15 a).N) : (dat a V c).after 0 t = iblk a V c 0 t := rfl
theorem after_1 (c : Dev nD) (t : Fin (cfg15 a).N) : (dat a V c).after 1 t = iblk a V c 1 t := rfl
theorem after_2 (c : Dev nD) (t : Fin (cfg15 a).N) : (dat a V c).after 2 t = acc a V c t.val t.isLt := rfl

/-- Each input's current staging buffer holds its block at every point, fetched there or not. -/
theorem before_0 (c : Dev nD) (t : Fin (cfg15 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg15 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the result's window is idle, and when it is written back -/

theorem idle_2 (t : Fin (cfg15 a).N) (h : ¬cC ((cfg15 a).grid.coords t)) : (cfg15 a).idle 2 ((cfg15 a).grid.coords t) = true := by
  show (!(k15_cond2 ((cfg15 a).grid.coords t) == 1#1)) = true
  simpa using h

theorem live_2 (t : Fin (cfg15 a).N) (h : cC ((cfg15 a).grid.coords t)) : (cfg15 a).idle 2 ((cfg15 a).grid.coords t) = false := by
  show (!(k15_cond2 ((cfg15 a).grid.coords t) == 1#1)) = false
  simpa using h

theorem live_0 (t : Fin (cfg15 a).N) : (cfg15 a).idle 0 ((cfg15 a).grid.coords t) = false := rfl
theorem live_1 (t : Fin (cfg15 a).N) : (cfg15 a).idle 1 ((cfg15 a).grid.coords t) = false := rfl

/-- The result's block index never moves, so it is written back at the last point only. -/
theorem noflush_2 (t : Fin (cfg15 a).N) (h : t.val ≠ 49999) : ((cfg15 a).win 2).flush t = false := by
  have hN : (cfg15 a).grid.N = 50000 := N_eq a
  rw [Bool.eq_false_iff]
  intro hf
  rcases (Pipeline.Window.flush_out _ rfl t).mp hf with h1 | ⟨_, h2⟩
  · omega
  · exact h2 rfl

/-! ## The body obligation -/

/-- What the body leaves in an input's buffer is what it found there: the point's block. -/
theorem keep_0 (c : Dev nD) (t : Fin (cfg15 a).N) (d) : (dat a V c).before 0 t d = (dat a V c).after 0 t :=
  (before_0 a V c t d).trans (after_0 a V c t).symm
theorem keep_1 (c : Dev nD) (t : Fin (cfg15 a).N) (d) : (dat a V c).before 1 t d = (dat a V c).after 1 t :=
  (before_1 a V c t d).trans (after_1 a V c t).symm

/-- The update of the scratch at point `t`, stated at what the inputs' buffers hold when the body runs. -/
theorem acc_zero_at (c : Dev nD) (t : Fin (cfg15 a).N) (h0 : t.val = 0) (d0 d1) :
    k0_pay2 ((dat a V c).before 0 t d0) ((dat a V c).before 1 t d1) (k0_pay1 (F := F)) = acc a V c t.val t.isLt := by
  obtain ⟨n, hn⟩ := t
  obtain rfl : n = 0 := h0
  show _ = k15_pay2 (b3 a V c ⟨0, hn⟩) (b4 a V c ⟨0, hn⟩) (k15_pay1 (F := F))
  exact congrArg₂ (fun x y => k0_pay2 x y (k0_pay1 (F := F))) (before_0 a V c ⟨0, hn⟩ d0) (before_1 a V c ⟨0, hn⟩ d1)
theorem acc_pos_at (c : Dev nD) (t : Fin (cfg15 a).N) (h0 : t.val ≠ 0) (d0 d1) :
    k0_pay2 ((dat a V c).before 0 t d0) ((dat a V c).before 1 t d1) (acc a V c (t.val - 1) (Nat.lt_of_le_of_lt (Nat.sub_le _ _) t.isLt))
      = acc a V c t.val t.isLt := by
  rw [acc_pos a V c t h0]
  exact congrArg₂ (fun x y => k0_pay2 x y (acc a V c (t.val - 1) (Nat.lt_of_le_of_lt (Nat.sub_le _ _) t.isLt))) (before_0 a V c t d0) (before_1 a V c t d1)

/-- Each window's current staging memref at point `t`, spelled as the pipeline passes it, and its wholeness. -/
abbrev ms0 (t : Fin (cfg15 a).N) : Memref sig .tc .vmem S1x1x96 .f32 := spec15_0.stage ((cfg15 a).slots t 0)
abbrev hs0 (t : Fin (cfg15 a).N) : (ms0 a t).IsWhole := hstage15_0 (((cfg15 a).slots t 0).cast nbuf15_0)
abbrev ms1 (t : Fin (cfg15 a).N) : Memref sig .tc .vmem S1x1x96 .f32 := spec15_1.stage ((cfg15 a).slots t 1)
abbrev hs1 (t : Fin (cfg15 a).N) : (ms1 a t).IsWhole := hstage15_1 (((cfg15 a).slots t 1).cast nbuf15_1)
abbrev ms2 (t : Fin (cfg15 a).N) : Memref sig .tc .vmem S1x1 .f32 := spec15_2.stage ((cfg15 a).slots t 2)
abbrev hs2 (t : Fin (cfg15 a).N) : (ms2 a t).IsWhole := hstage15_2 (((cfg15 a).slots t 2).cast nbuf15_2)

/-- The body as the pipeline calls it at point `t`. -/
abbrev bodyAt (t : Fin (cfg15 a).N) : Prog (TpuEff nD τ sig (Elt F) Λ₀ .tc) PUnit :=
  cc15__chunk_kernel ((cfg15 a).grid.coords t) (Memref.whole main_v113) (Memref.isWhole_whole _) (Memref.whole main_v115) (Memref.isWhole_whole _)
    (ms0 a t) (hs0 a t) (ms1 a t) (hs1 a t) (ms2 a t) (hs2 a t) (Memref.whole cc15_scratch0) (Memref.isWhole_whole _)

/-- What the body is called with at point `t`, -/
def bodyPre (c : Dev nD) (t : Fin (cfg15 a).N) : sProp 𝕄 :=
  iprop(PhiS a V c t.val (Nat.le_of_lt t.isLt) ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg15 a).N) : sProp 𝕄 :=
  iprop(PhiS a V c (t.val + 1) t.isLt ∗ (dat a V c).owesAt () t.castSucc
    ∗ (dat a V c).leavesExact 0 t ∗ (dat a V c).leavesExact 1 t ∗ (dat a V c).leavesExact 2 t)

theorem leaves_0 (c : Dev nD) (t : Fin (cfg15 a).N) :
    (dat a V c).leavesExact 0 t = owns (c : Thread nD τ) (ms0 a t) fullShare ((dat a V c).after 0 t) := by
  unfold Dat.leavesExact; rw [live_0]; rfl
theorem leaves_1 (c : Dev nD) (t : Fin (cfg15 a).N) :
    (dat a V c).leavesExact 1 t = owns (c : Thread nD τ) (ms1 a t) fullShare ((dat a V c).after 1 t) := by
  unfold Dat.leavesExact; rw [live_1]; rfl
theorem leaves_2_idle (c : Dev nD) (t : Fin (cfg15 a).N) (hC : ¬cC ((cfg15 a).grid.coords t)) (hl : t.val ≠ 49999) :
    (dat a V c).leavesExact 2 t = iprop(∃ d, owns (c : Thread nD τ) (ms2 a t) fullShare ((dat a V c).before 2 t d)) :=
  Dat.leavesExact_idle (dat a V c) 2 t (idle_2 a t hC) (noflush_2 a t hl)
theorem leaves_2_live (c : Dev nD) (t : Fin (cfg15 a).N) (hC : cC ((cfg15 a).grid.coords t)) :
    (dat a V c).leavesExact 2 t = owns (c : Thread nD τ) (ms2 a t) fullShare (acc a V c t.val t.isLt) := by
  unfold Dat.leavesExact; rw [live_2 a t hC]; rfl

set_option maxHeartbeats 1600000 in
/-- The body at any point. At the first point the scratch is at anything and ends at `acc 0`; at a later point it
    is found at `acc (t - 1)` and ends at `acc t`; the inputs' buffers hold the point's blocks and are left so; the
    result's buffer is left as found except at the last point, where it ends at `acc 49999`. The tables and the
    other scoped buffers pass through unread; the core owes nothing throughout. -/
theorem sound_body (c : Dev nD) (t : Fin (cfg15 a).N) :
    bodyPre a V c t ⊢ wp frame (wpE (defs₀ (F := F)) Variants.none c none) Set.univ (bodyAt a t) (fun _ => bodyPost a V c t) := by
  unfold bodyPre bodyPost bodyAt
  have hN : t.val < 50000 := lt_of_lt_of_eq t.isLt (N_eq a)
  rw [leaves_0, leaves_1, kernel_eq]
  by_cases h0 : t.val = 0
  · -- the first point
    have hA : cA ((cfg15 a).grid.coords t) := (hcA a t).mpr h0
    have hC : ¬cC ((cfg15 a).grid.coords t) := fun h => by have := (hcC a t).mp h; omega
    rw [leaves_2_idle a V c t hC (by omega)]
    rw [show PhiS a V c t.val (Nat.le_of_lt t.isLt) = iprop(tblsHeld a c ∗ Pipeline.scopedRest (Ix := Unit) (Name := ℕ) (U := UR sig nD τ) (Lvl := ℕ) (Val := Elt F) spec15 c) from by
      obtain ⟨n, hn⟩ := t; obtain rfl : n = 0 := h0; rfl]
    rw [scopedRest15_split, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec15 c [cc15_scratch0]) from rfl]
    iintro ⟨⟨Ht, ⟨%fs, Hs⟩, Hr⟩, Ho, ⟨%d0, H0⟩, ⟨%d1, H1⟩, ⟨%d2, H2⟩⟩
    rw [← keep_0 a V c t d0, ← keep_1 a V c t d1, ← acc_zero_at a V c t h0 d0 d1]
    iapply (Cert.KernelIdeal.Chunk0.specA c ((cfg15 a).grid.coords t) _ _ _ _ _ _ _ _ _ _ _ _ hA hC ((dat a V c).before 0 t d0) ((dat a V c).before 1 t d1) ((dat a V c).before 2 t d2) Set.univ _)
    isplitl [H0]; · iexact H0
    isplitl [H1]; · iexact H1
    isplitl [H2]; · iexact H2
    isplitl [Hs]; · iexists fs; rw [owns_whole]; iexact Hs
    iintro ⟨H0, H1, H2, Hs⟩
    isplitl [Ht Hs Hr]
    · isplitl [Ht]; · iexact Ht
      isplitl [Hs]; · iexact Hs
      iexact Hr
    isplitl [Ho]; · iexact Ho
    isplitl [H0]; · iexact H0
    isplitl [H1]; · iexact H1
    iexists d2; iexact H2
  · rw [PhiS_pos a V c t.val (Nat.le_of_lt t.isLt) h0, show PhiS a V c (t.val + 1) t.isLt = iprop(tblsHeld a c ∗ owns (c : Thread nD τ) scM fullShare (acc a V c t.val t.isLt)
      ∗ Pipeline.scopedRestBut (Ix := Unit) (Name := ℕ) (U := UR sig nD τ) (Lvl := ℕ) (Val := Elt F) spec15 c [cc15_scratch0]) from rfl]
    have hA : ¬cA ((cfg15 a).grid.coords t) := fun h => h0 ((hcA a t).mp h)
    by_cases hl : t.val = 49999
    · -- the last point
      have hC : cC ((cfg15 a).grid.coords t) := (hcC a t).mpr hl
      rw [leaves_2_live a V c t hC]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specC c ((cfg15 a).grid.coords t) _ _ _ _ _ _ _ _ _ _ _ _ hA hC ((dat a V c).before 0 t d0) ((dat a V c).before 1 t d1) (acc a V c (t.val - 1) (Nat.lt_of_le_of_lt (Nat.sub_le _ _) t.isLt)) Set.univ _)
      isplitl [H0]; · iexact H0
      isplitl [H1]; · iexact H1
      isplitl [H2]; · iexists _; iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexact H2
    · -- a middle point
      have hC : ¬cC ((cfg15 a).grid.coords t) := fun h => hl ((hcC a t).mp h)
      rw [leaves_2_idle a V c t hC hl]
      iintro ⟨⟨Ht, Hs, Hr⟩, Ho, ⟨%d0, H0⟩, ⟨%d1, H1⟩, ⟨%d2, H2⟩⟩
      rw [← keep_0 a V c t d0, ← keep_1 a V c t d1, ← acc_pos_at a V c t h0 d0 d1]
      iapply (Cert.KernelIdeal.Chunk0.specB c ((cfg15 a).grid.coords t) _ _ _ _ _ _ _ _ _ _ _ _ hA hC ((dat a V c).before 0 t d0) ((dat a V c).before 1 t d1) (acc a V c (t.val - 1) (Nat.lt_of_le_of_lt (Nat.sub_le _ _) t.isLt)) ((dat a V c).before 2 t d2) Set.univ _)
      isplitl [H0]; · iexact H0
      isplitl [H1]; · iexact H1
      isplitl [H2]; · iexact H2
      isplitl [Hs]; · iexact Hs
      iintro ⟨H0, H1, H2, Hs⟩
      isplitl [Ht Hs Hr]
      · isplitl [Ht]; · iexact Ht
        isplitl [Hs]; · iexact Hs
        iexact Hr
      isplitl [Ho]; · iexact Ho
      isplitl [H0]; · iexact H0
      isplitl [H1]; · iexact H1
      iexists d2; iexact H2

/-- The library's body obligation, at every point. -/
theorem body_obligation (c : Dev nD) : BodyObligation (dat a V c) (defs₀ (F := F)) Variants.none () Set.univ := fun t => by
  rw [bigSep_W15, bigSep_W15]
  exact sound_body a V c t

end Cert.KernelIdeal.Chunk15

end
-- ==== Proof.KI.PDats.lean ====
import proofs.«418705_j10376640987952_2_alg».proof.Proof.KI.Chain
import proofs.«418705_j10376640987952_2_alg».proof.Proof.KI.Dat00
import proofs.«418705_j10376640987952_2_alg».proof.Proof.KI.Dat01
import proofs.«418705_j10376640987952_2_alg».proof.Proof.KI.Dat02
import proofs.«418705_j10376640987952_2_alg».proof.Proof.KI.Dat03
import proofs.«418705_j10376640987952_2_alg».proof.Proof.KI.Dat04
import proofs.«418705_j10376640987952_2_alg».proof.Proof.KI.Dat05
import proofs.«418705_j10376640987952_2_alg».proof.Proof.KI.Dat06
import proofs.«418705_j10376640987952_2_alg».proof.Proof.KI.Dat07
import proofs.«418705_j10376640987952_2_alg».proof.Proof.KI.Dat08
import proofs.«418705_j10376640987952_2_alg».proof.Proof.KI.Dat09
import proofs.«418705_j10376640987952_2_alg».proof.Proof.KI.Dat10
import proofs.«418705_j10376640987952_2_alg».proof.Proof.KI.Dat11
import proofs.«418705_j10376640987952_2_alg».proof.Proof.KI.Dat12
import proofs.«418705_j10376640987952_2_alg».proof.Proof.KI.Dat13
import proofs.«418705_j10376640987952_2_alg».proof.Proof.KI.Dat14
import proofs.«418705_j10376640987952_2_alg».proof.Proof.KI.Dat15

/-!
The sixteen pallas_calls together: what each leaves in its one-word result array as a function of the buffer
contents it is entered from (the last write-back of its proof data), the admissible contents of its two tables
(read off the edge list, every word a node number by the precondition), and the family of proof data, each call's
at the contents the chain of host stretches and earlier calls leaves.
-/

set_option maxRecDepth 1400

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-! What each call leaves in its result array, entered from the contents `Vin`: the array after the call's last
    write-back, as its proof data computes it. -/
set_option maxHeartbeats 2000000 in
def leave0 (Vin : Dev nD → Valuation τ sig (Elt F)) (c : Dev nD) : Buf (Elt F) ((c : Thread nD τ).loc main_v11) :=
  (Chunk0.dat (Tables.adm0 m hr) (fun c b => Vin c b) c).arrAt 2 (cfg0 (Tables.adm0 m hr)).N
set_option maxHeartbeats 2000000 in
def leave1 (Vin : Dev nD → Valuation τ sig (Elt F)) (c : Dev nD) : Buf (Elt F) ((c : Thread nD τ).loc main_v18) :=
  (Chunk1.dat (Tables.adm1 m hr) (fun c b => Vin c b) c).arrAt 2 (cfg1 (Tables.adm1 m hr)).N
set_option maxHeartbeats 2000000 in
def leave2 (Vin : Dev nD → Valuation τ sig (Elt F)) (c : Dev nD) : Buf (Elt F) ((c : Thread nD τ).loc main_v25) :=
  (Chunk2.dat (Tables.adm2 m hr) (fun c b => Vin c b) c).arrAt 2 (cfg2 (Tables.adm2 m hr)).N
set_option maxHeartbeats 2000000 in
def leave3 (Vin : Dev nD → Valuation τ sig (Elt F)) (c : Dev nD) : Buf (Elt F) ((c : Thread nD τ).loc main_v32) :=
  (Chunk3.dat (Tables.adm3 m hr) (fun c b => Vin c b) c).arrAt 2 (cfg3 (Tables.adm3 m hr)).N
set_option maxHeartbeats 2000000 in
def leave4 (Vin : Dev nD → Valuation τ sig (Elt F)) (c : Dev nD) : Buf (Elt F) ((c : Thread nD τ).loc main_v39) :=
  (Chunk4.dat (Tables.adm4 m hr) (fun c b => Vin c b) c).arrAt 2 (cfg4 (Tables.adm4 m hr)).N
set_option maxHeartbeats 2000000 in
def leave5 (Vin : Dev nD → Valuation τ sig (Elt F)) (c : Dev nD) : Buf (Elt F) ((c : Thread nD τ).loc main_v46) :=
  (Chunk5.dat (Tables.adm5 m hr) (fun c b => Vin c b) c).arrAt 2 (cfg5 (Tables.adm5 m hr)).N
set_option maxHeartbeats 2000000 in
def leave6 (Vin : Dev nD → Valuation τ sig (Elt F)) (c : Dev nD) : Buf (Elt F) ((c : Thread nD τ).loc main_v53) :=
  (Chunk6.dat (Tables.adm6 m hr) (fun c b => Vin c b) c).arrAt 2 (cfg6 (Tables.adm6 m hr)).N
set_option maxHeartbeats 2000000 in
def leave7 (Vin : Dev nD → Valuation τ sig (Elt F)) (c : Dev nD) : Buf (Elt F) ((c : Thread nD τ).loc main_v60) :=
  (Chunk7.dat (Tables.adm7 m hr) (fun c b => Vin c b) c).arrAt 2 (cfg7 (Tables.adm7 m hr)).N
set_option maxHeartbeats 2000000 in
def leave8 (Vin : Dev nD → Valuation τ sig (Elt F)) (c : Dev nD) : Buf (Elt F) ((c : Thread nD τ).loc main_v67) :=
  (Chunk8.dat (Tables.adm8 m hr) (fun c b => Vin c b) c).arrAt 2 (cfg8 (Tables.adm8 m hr)).N
set_option maxHeartbeats 2000000 in
def leave9 (Vin : Dev nD → Valuation τ sig (Elt F)) (c : Dev nD) : Buf (Elt F) ((c : Thread nD τ).loc main_v74) :=
  (Chunk9.dat (Tables.adm9 m hr) (fun c b => Vin c b) c).arrAt 2 (cfg9 (Tables.adm9 m hr)).N
set_option maxHeartbeats 2000000 in
def leave10 (Vin : Dev nD → Valuation τ sig (Elt F)) (c : Dev nD) : Buf (Elt F) ((c : Thread nD τ).loc main_v81) :=
  (Chunk10.dat (Tables.adm10 m hr) (fun c b => Vin c b) c).arrAt 2 (cfg10 (Tables.adm10 m hr)).N
set_option maxHeartbeats 2000000 in
def leave11 (Vin : Dev nD → Valuation τ sig (Elt F)) (c : Dev nD) : Buf (Elt F) ((c : Thread nD τ).loc main_v88) :=
  (Chunk11.dat (Tables.adm11 m hr) (fun c b => Vin c b) c).arrAt 2 (cfg11 (Tables.adm11 m hr)).N
set_option maxHeartbeats 2000000 in
def leave12 (Vin : Dev nD → Valuation τ sig (Elt F)) (c : Dev nD) : Buf (Elt F) ((c : Thread nD τ).loc main_v95) :=
  (Chunk12.dat (Tables.adm12 m hr) (fun c b => Vin c b) c).arrAt 2 (cfg12 (Tables.adm12 m hr)).N
set_option maxHeartbeats 2000000 in
def leave13 (Vin : Dev nD → Valuation τ sig (Elt F)) (c : Dev nD) : Buf (Elt F) ((c : Thread nD τ).loc main_v102) :=
  (Chunk13.dat (Tables.adm13 m hr) (fun c b => Vin c b) c).arrAt 2 (cfg13 (Tables.adm13 m hr)).N
set_option maxHeartbeats 2000000 in
def leave14 (Vin : Dev nD → Valuation τ sig (Elt F)) (c : Dev nD) : Buf (Elt F) ((c : Thread nD τ).loc main_v109) :=
  (Chunk14.dat (Tables.adm14 m hr) (fun c b => Vin c b) c).arrAt 2 (cfg14 (Tables.adm14 m hr)).N
set_option maxHeartbeats 2000000 in
def leave15 (Vin : Dev nD → Valuation τ sig (Elt F)) (c : Dev nD) : Buf (Elt F) ((c : Thread nD τ).loc main_v116) :=
  (Chunk15.dat (Tables.adm15 m hr) (fun c b => Vin c b) c).arrAt 2 (cfg15 (Tables.adm15 m hr)).N

/-- The sixteen together. -/
def leaves : Chain.Leaves F where
  o0 := leave0 m hr
  o1 := leave1 m hr
  o2 := leave2 m hr
  o3 := leave3 m hr
  o4 := leave4 m hr
  o5 := leave5 m hr
  o6 := leave6 m hr
  o7 := leave7 m hr
  o8 := leave8 m hr
  o9 := leave9 m hr
  o10 := leave10 m hr
  o11 := leave11 m hr
  o12 := leave12 m hr
  o13 := leave13 m hr
  o14 := leave14 m hr
  o15 := leave15 m hr

set_option maxHeartbeats 4000000 in
/-- The tables' admissible contents, call by call. -/
abbrev adm : (p : Fin 16) → (pcfgs (F := F) p).Adm
  | ⟨0, _⟩ => Tables.adm0 m hr
  | ⟨1, _⟩ => Tables.adm1 m hr
  | ⟨2, _⟩ => Tables.adm2 m hr
  | ⟨3, _⟩ => Tables.adm3 m hr
  | ⟨4, _⟩ => Tables.adm4 m hr
  | ⟨5, _⟩ => Tables.adm5 m hr
  | ⟨6, _⟩ => Tables.adm6 m hr
  | ⟨7, _⟩ => Tables.adm7 m hr
  | ⟨8, _⟩ => Tables.adm8 m hr
  | ⟨9, _⟩ => Tables.adm9 m hr
  | ⟨10, _⟩ => Tables.adm10 m hr
  | ⟨11, _⟩ => Tables.adm11 m hr
  | ⟨12, _⟩ => Tables.adm12 m hr
  | ⟨13, _⟩ => Tables.adm13 m hr
  | ⟨14, _⟩ => Tables.adm14 m hr
  | ⟨15, _⟩ => Tables.adm15 m hr
  | ⟨_ + 16, h⟩ => absurd h (Nat.not_lt.2 (Nat.le_add_left _ _))

set_option maxHeartbeats 8000000 in
/-- The proof data, call by call, each at the contents its call is entered from. -/
def pdats : (p : Fin 16) → (c : Dev nD) → Dat τ (Elt F) Unit ℕ (UR sig nD τ) ℕ (Pipeline.pin (pcfgs (F := F)) (adm m hr) p) c
  | ⟨0, _⟩ => fun c => Chunk0.dat (Tables.adm0 m hr) (fun c b => Chain.W1 m (leaves m hr) c b) c
  | ⟨1, _⟩ => fun c => Chunk1.dat (Tables.adm1 m hr) (fun c b => Chain.W3 m (leaves m hr) c b) c
  | ⟨2, _⟩ => fun c => Chunk2.dat (Tables.adm2 m hr) (fun c b => Chain.W5 m (leaves m hr) c b) c
  | ⟨3, _⟩ => fun c => Chunk3.dat (Tables.adm3 m hr) (fun c b => Chain.W7 m (leaves m hr) c b) c
  | ⟨4, _⟩ => fun c => Chunk4.dat (Tables.adm4 m hr) (fun c b => Chain.W9 m (leaves m hr) c b) c
  | ⟨5, _⟩ => fun c => Chunk5.dat (Tables.adm5 m hr) (fun c b => Chain.W11 m (leaves m hr) c b) c
  | ⟨6, _⟩ => fun c => Chunk6.dat (Tables.adm6 m hr) (fun c b => Chain.W13 m (leaves m hr) c b) c
  | ⟨7, _⟩ => fun c => Chunk7.dat (Tables.adm7 m hr) (fun c b => Chain.W15 m (leaves m hr) c b) c
  | ⟨8, _⟩ => fun c => Chunk8.dat (Tables.adm8 m hr) (fun c b => Chain.W17 m (leaves m hr) c b) c
  | ⟨9, _⟩ => fun c => Chunk9.dat (Tables.adm9 m hr) (fun c b => Chain.W19 m (leaves m hr) c b) c
  | ⟨10, _⟩ => fun c => Chunk10.dat (Tables.adm10 m hr) (fun c b => Chain.W21 m (leaves m hr) c b) c
  | ⟨11, _⟩ => fun c => Chunk11.dat (Tables.adm11 m hr) (fun c b => Chain.W23 m (leaves m hr) c b) c
  | ⟨12, _⟩ => fun c => Chunk12.dat (Tables.adm12 m hr) (fun c b => Chain.W25 m (leaves m hr) c b) c
  | ⟨13, _⟩ => fun c => Chunk13.dat (Tables.adm13 m hr) (fun c b => Chain.W27 m (leaves m hr) c b) c
  | ⟨14, _⟩ => fun c => Chunk14.dat (Tables.adm14 m hr) (fun c b => Chain.W29 m (leaves m hr) c b) c
  | ⟨15, _⟩ => fun c => Chunk15.dat (Tables.adm15 m hr) (fun c b => Chain.W31 m (leaves m hr) c b) c
  | ⟨_ + 16, h⟩ => absurd h (Nat.not_lt.2 (Nat.le_add_left _ _))

/-- No core owes another anything: no level is assigned. -/
abbrev L₀ : GSem nD τ sig → Finset Unit := fun _ => ∅
abbrev lv₀ : GSem nD τ sig → Unit → ℕ := fun _ _ => 0

/-- What rides beside the unscoped buffers between two items: the core owing nothing. -/
abbrev E (c : Dev nD) : sProp 𝕄 := iprop(∃ W, owes (c : Thread nD τ) (0 : CellTallies nD τ sig Unit) W)

end Cert.KernelIdeal.Whole

end
-- ==== Proof.KI.Gate00.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec0) : Finset (Ref sig .tc)) = {main_v6, main_v11} := by decide

variable (a : (pcfg0 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v6) ↦{fullShare} V main_v6) ∗ (((c : Thread nD τ).loc main_v11) ↦{fullShare} V main_v11)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg0 a) c)

/-- The pipeline's arrays, window by window: the input array at the two windows' shares, the output array whole. -/
theorem arrays_eq (hq0 : dat.q 0 = fullShare.left) (hq1 : dat.q 1 = fullShare.right)
    (Fv : (w : Fin (cfg0 a).W) → Buf (Elt F) (((cfg0 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v11) ↦{fullShare} Fv 2)) := by
  have s0 : dat.share (0 : Fin 3) = fullShare.left :=
    (if_neg (show ¬ ((cfg0 a).win (0 : Fin 3)).isOut = true from (by decide : ¬ (spec0 0).isOut = true))).trans hq0
  have s1 : dat.share (1 : Fin 3) = fullShare.right :=
    (if_neg (show ¬ ((cfg0 a).win (1 : Fin 3)).isOut = true from (by decide : ¬ (spec0 1).isOut = true))).trans hq1
  have s2 : dat.share (2 : Fin 3) = fullShare :=
    if_pos (show ((cfg0 a).win (2 : Fin 3)).isOut = true from (by decide : (spec0 2).isOut = true))
  unfold Pipeline.Dat.arrays
  rw [bigSep_W0, s0, s1, s2]
  exact congrArg₂ BI.sep (pt_whole c ((cfg0 a).win (0 : Fin 3)).arr (arr_whole0 0) _ (Fv 0))
    (congrArg₂ BI.sep (pt_whole c ((cfg0 a).win (1 : Fin 3)).arr (arr_whole0 1) _ (Fv 1))
      (pt_whole c ((cfg0 a).win (2 : Fin 3)).arr (arr_whole0 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v11 → V' b = V b) :
    (Pipeline.unscopedRest (Ix := Unit) (Name := ℕ) (U := UR sig nD τ) (Lvl := ℕ) spec0 c V' : sProp 𝕄)
      = Pipeline.unscopedRest spec0 c V := by
  unfold Pipeline.unscopedRest
  exact bigSep_congr fun b hb => by
    have hb' : b ≠ main_v11 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec0 w)) :
    StableHlo.held (c : Thread nD τ) (Pipeline.ucRefs τ sig) W
      ⊢ (iprop(dat.arrays (dat.arrAt · 0) ∗ Pipeline.prefHeld pre0 c (fun _ => fullShare) (fun k => W (pre0.ref k))
          ∗ Pipeline.unscopedRestP pre0 spec0 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts0, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v11) ↦{fullShare} W main_v11 : sProp 𝕄)
      = (((c : Thread nD τ).loc main_v11) ↦{fullShare} dat.arrAt 2 0) :=
    congrArg (fun f => (((c : Thread nD τ).loc main_v11) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec0 w)) (W' : Valuation τ sig (Elt F))
    (hout : W' main_v11 = dat.arrAt 2 (cfg0 a).N) (hne : ∀ b : Ref sig .tc, b ≠ main_v11 → W' b = W b) :
    (iprop(dat.arrays (dat.arrAt · (cfg0 a).N) ∗ Pipeline.prefHeld pre0 c (fun _ => fullShare) (fun k => W (pre0.ref k))
        ∗ Pipeline.unscopedRestP pre0 spec0 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts0, arrays_eq a c dat hq0 hq1]
  refine sep_mono ?_ .rfl
  have h0 : dat.arrAt 0 (cfg0 a).N = W' main_v6 :=
    ((dat.arrAt_in 0 (by decide : (spec0 0).isOut = false) _).trans (hA 0)).trans (hne main_v6 (by decide)).symm
  have h1 : dat.arrAt 1 (cfg0 a).N = W' main_v6 :=
    ((dat.arrAt_in 1 (by decide : (spec0 1).isOut = false) _).trans (hA 1)).trans (hne main_v6 (by decide)).symm
  have p0 : (((c : Thread nD τ).loc main_v6) ↦{fullShare.left} dat.arrAt 0 (cfg0 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg0 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v11) ↦{fullShare} dat.arrAt 2 (cfg0 a).N : sProp 𝕄)
      = (((c : Thread nD τ).loc main_v11) ↦{fullShare} W' main_v11) :=
    congrArg (fun f => (((c : Thread nD τ).loc main_v11) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate0

end
-- ==== Proof.KI.Reg00.lean ====
import proofs.«418705_j10376640987952_2_alg».proof.Proof.KI.PDats
import proofs.«418705_j10376640987952_2_alg».proof.Proof.KI.Gate00

/-!
Pallas_call 0 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat0 (c : Dev nD) := Chunk0.dat (Tables.adm0 m hr) (fun c b => Chain.W1 m (leaves m hr) c b) c

/-- The tables' contents under the entry valuation are the admissible contents. -/
theorem tbl_entry0 (c : Dev nD) :
    (fun k => Chain.W1 m (leaves m hr) c (pre0.ref k)) = (Tables.adm0 m hr).1 :=
  funext fun k => Chain.W_tbl0 m (leaves m hr) c k

/-- The chain's contents of the result array after the call are the proof data's final array. -/
theorem out_entry0 (c : Dev nD) :
    Chain.W2 m (leaves m hr) c main_v11 = (dat0 m hr c).arrAt 2 (cfg0 (Tables.adm0 m hr)).N := by
  rw [Chain.W_out_0]
  dsimp only [leaves, leave0, dat0]

-- `iapply` of a library lemma stated over `pin pcs a p` unifies with the pinned configuration only when unification may
-- unfold plain definitions in a metavariable's type
set_option backward.isDefEq.respectTransparency.types false in
set_option maxHeartbeats 1600000 in
def reg0 : RegionSeg (pcfgs (F := F)) (adm m hr) (pdats m hr) () defs₀ Variants.none L₀ lv₀ 0 where
  win := winFacts₀0
  block_pos := block_pos0
  stage_whole := stage_whole0
  K := PEmpty
  osem k := k.elim
  ho := Pipeline.OwnSemFacts.none _
  hbody c := (Chunk0.body_obligation (Tables.adm0 m hr) (fun c b => Chain.W1 m (leaves m hr) c b) c).loose
  hwaits := Pipeline.hwaits_of_owed_zero _ _ _ _ L₀ lv₀ 0 fun _ _ => rfl
  pre c := iprop(StableHlo.held (c : Thread nD τ) (Pipeline.ucRefs τ sig) (Chain.W1 m (leaves m hr) c) ∗ E c)
  post c := iprop(StableHlo.held (c : Thread nD τ) (Pipeline.ucRefs τ sig) (Chain.W2 m (leaves m hr) c) ∗ E c)
  X _ := BI.emp
  Y c := Chunk0.tblsHeld (Tables.adm0 m hr) c
  Z c := Pipeline.unscopedRestP (Ix := Unit) (Name := ℕ) (U := UR sig nD τ) (Lvl := ℕ) pre0 spec0 c (fun b => Chain.W1 m (leaves m hr) c b)
  hentry c := by
    rw [Pipeline.ownSems0_none]
    have hent := Gate0.entry (Tables.adm0 m hr) c (dat0 m hr c) rfl rfl (Chain.W1 m (leaves m hr) c) (fun _ => rfl)
    rw [tbl_entry0 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 0 c).Φ 0 = iprop(Chunk0.tblsHeld (Tables.adm0 m hr) c
      ∗ Pipeline.scopedRest (Ix := Unit) (Name := ℕ) (U := UR sig nD τ) (Lvl := ℕ) (Val := Elt F) spec0 c) from rfl]
    iintro ⟨-, Hp, Hr⟩
    isplitl [Hp]; · iexact Hp
    iexact Hr
  hout c := by
    rw [Pipeline.ownSems0_none,
      show (pdats m hr 0 c).Φ (Fin.last _) = Chunk0.PhiS (Tables.adm0 m hr) (fun c b => Chain.W1 m (leaves m hr) c b) c
        (cfg0 (Tables.adm0 m hr)).N (le_refl _) from rfl,
      Chunk0.PhiS_pos _ _ c _ _ (by rw [Chunk0.N_eq]; decide),
      show (Pipeline.pin (pcfgs (F := F)) (adm m hr) 0).spec = spec0 from rfl, scopedRest0_split]
    iintro ⟨Hp, Hs, Hr⟩
    isplitl [Hp]; · iexact Hp
    isplitr; · iempintro
    isplitl [Hs]
    · iexists _; rw [← owns_whole]; iexact Hs
    iexact Hr
  hexit c := by
    have hex := Gate0.exit (Tables.adm0 m hr) c (dat0 m hr c) rfl rfl (Chain.W1 m (leaves m hr) c) (fun _ => rfl)
      (Chain.W2 m (leaves m hr) c) (out_entry0 m hr c) (Chain.W_keep_0 m (leaves m hr) c)
    rw [tbl_entry0 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate01.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec1) : Finset (Ref sig .tc)) = {main_v6, main_v18} := by decide

variable (a : (pcfg1 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v18) ↦{fullShare} V main_v18)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg1 a) c)

/-- The pipeline's arrays, window by window: the input array at the two windows' shares, the output array whole. -/
theorem arrays_eq (hq0 : dat.q 0 = fullShare.left) (hq1 : dat.q 1 = fullShare.right)
    (Fv : (w : Fin (cfg1 a).W) → Buf (Elt F) (((cfg1 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v18) ↦{fullShare} Fv 2)) := by
  have s0 : dat.share (0 : Fin 3) = fullShare.left :=
    (if_neg (show ¬ ((cfg1 a).win (0 : Fin 3)).isOut = true from (by decide : ¬ (spec1 0).isOut = true))).trans hq0
  have s1 : dat.share (1 : Fin 3) = fullShare.right :=
    (if_neg (show ¬ ((cfg1 a).win (1 : Fin 3)).isOut = true from (by decide : ¬ (spec1 1).isOut = true))).trans hq1
  have s2 : dat.share (2 : Fin 3) = fullShare :=
    if_pos (show ((cfg1 a).win (2 : Fin 3)).isOut = true from (by decide : (spec1 2).isOut = true))
  unfold Pipeline.Dat.arrays
  rw [bigSep_W1, s0, s1, s2]
  exact congrArg₂ BI.sep (pt_whole c ((cfg1 a).win (0 : Fin 3)).arr (arr_whole1 0) _ (Fv 0))
    (congrArg₂ BI.sep (pt_whole c ((cfg1 a).win (1 : Fin 3)).arr (arr_whole1 1) _ (Fv 1))
      (pt_whole c ((cfg1 a).win (2 : Fin 3)).arr (arr_whole1 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v18 → V' b = V b) :
    (Pipeline.unscopedRest (Ix := Unit) (Name := ℕ) (U := UR sig nD τ) (Lvl := ℕ) spec1 c V' : sProp 𝕄)
      = Pipeline.unscopedRest spec1 c V := by
  unfold Pipeline.unscopedRest
  exact bigSep_congr fun b hb => by
    have hb' : b ≠ main_v18 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec1 w)) :
    StableHlo.held (c : Thread nD τ) (Pipeline.ucRefs τ sig) W
      ⊢ (iprop(dat.arrays (dat.arrAt · 0) ∗ Pipeline.prefHeld pre1 c (fun _ => fullShare) (fun k => W (pre1.ref k))
          ∗ Pipeline.unscopedRestP pre1 spec1 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts1, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v18) ↦{fullShare} W main_v18 : sProp 𝕄)
      = (((c : Thread nD τ).loc main_v18) ↦{fullShare} dat.arrAt 2 0) :=
    congrArg (fun f => (((c : Thread nD τ).loc main_v18) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec1 w)) (W' : Valuation τ sig (Elt F))
    (hout : W' main_v18 = dat.arrAt 2 (cfg1 a).N) (hne : ∀ b : Ref sig .tc, b ≠ main_v18 → W' b = W b) :
    (iprop(dat.arrays (dat.arrAt · (cfg1 a).N) ∗ Pipeline.prefHeld pre1 c (fun _ => fullShare) (fun k => W (pre1.ref k))
        ∗ Pipeline.unscopedRestP pre1 spec1 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts1, arrays_eq a c dat hq0 hq1]
  refine sep_mono ?_ .rfl
  have h0 : dat.arrAt 0 (cfg1 a).N = W' main_v6 :=
    ((dat.arrAt_in 0 (by decide : (spec1 0).isOut = false) _).trans (hA 0)).trans (hne main_v6 (by decide)).symm
  have h1 : dat.arrAt 1 (cfg1 a).N = W' main_v6 :=
    ((dat.arrAt_in 1 (by decide : (spec1 1).isOut = false) _).trans (hA 1)).trans (hne main_v6 (by decide)).symm
  have p0 : (((c : Thread nD τ).loc main_v6) ↦{fullShare.left} dat.arrAt 0 (cfg1 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg1 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v18) ↦{fullShare} dat.arrAt 2 (cfg1 a).N : sProp 𝕄)
      = (((c : Thread nD τ).loc main_v18) ↦{fullShare} W' main_v18) :=
    congrArg (fun f => (((c : Thread nD τ).loc main_v18) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate1

end
-- ==== Proof.KI.Reg01.lean ====
import proofs.«418705_j10376640987952_2_alg».proof.Proof.KI.PDats
import proofs.«418705_j10376640987952_2_alg».proof.Proof.KI.Gate01

/-!
Pallas_call 1 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat1 (c : Dev nD) := Chunk1.dat (Tables.adm1 m hr) (fun c b => Chain.W3 m (leaves m hr) c b) c

/-- The tables' contents under the entry valuation are the admissible contents. -/
theorem tbl_entry1 (c : Dev nD) :
    (fun k => Chain.W3 m (leaves m hr) c (pre1.ref k)) = (Tables.adm1 m hr).1 :=
  funext fun k => Chain.W_tbl1 m (leaves m hr) c k

/-- The chain's contents of the result array after the call are the proof data's final array. -/
theorem out_entry1 (c : Dev nD) :
    Chain.W4 m (leaves m hr) c main_v18 = (dat1 m hr c).arrAt 2 (cfg1 (Tables.adm1 m hr)).N := by
  rw [Chain.W_out_1]
  dsimp only [leaves, leave1, dat1]

-- `iapply` of a library lemma stated over `pin pcs a p` unifies with the pinned configuration only when unification may
-- unfold plain definitions in a metavariable's type
set_option backward.isDefEq.respectTransparency.types false in
set_option maxHeartbeats 1600000 in
def reg1 : RegionSeg (pcfgs (F := F)) (adm m hr) (pdats m hr) () defs₀ Variants.none L₀ lv₀ 1 where
  win := winFacts₀1
  block_pos := block_pos1
  stage_whole := stage_whole1
  K := PEmpty
  osem k := k.elim
  ho := Pipeline.OwnSemFacts.none _
  hbody c := (Chunk1.body_obligation (Tables.adm1 m hr) (fun c b => Chain.W3 m (leaves m hr) c b) c).loose
  hwaits := Pipeline.hwaits_of_owed_zero _ _ _ _ L₀ lv₀ 1 fun _ _ => rfl
  pre c := iprop(StableHlo.held (c : Thread nD τ) (Pipeline.ucRefs τ sig) (Chain.W3 m (leaves m hr) c) ∗ E c)
  post c := iprop(StableHlo.held (c : Thread nD τ) (Pipeline.ucRefs τ sig) (Chain.W4 m (leaves m hr) c) ∗ E c)
  X _ := BI.emp
  Y c := Chunk1.tblsHeld (Tables.adm1 m hr) c
  Z c := Pipeline.unscopedRestP (Ix := Unit) (Name := ℕ) (U := UR sig nD τ) (Lvl := ℕ) pre1 spec1 c (fun b => Chain.W3 m (leaves m hr) c b)
  hentry c := by
    rw [Pipeline.ownSems0_none]
    have hent := Gate1.entry (Tables.adm1 m hr) c (dat1 m hr c) rfl rfl (Chain.W3 m (leaves m hr) c) (fun _ => rfl)
    rw [tbl_entry1 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 1 c).Φ 0 = iprop(Chunk1.tblsHeld (Tables.adm1 m hr) c
      ∗ Pipeline.scopedRest (Ix := Unit) (Name := ℕ) (U := UR sig nD τ) (Lvl := ℕ) (Val := Elt F) spec1 c) from rfl]
    iintro ⟨-, Hp, Hr⟩
    isplitl [Hp]; · iexact Hp
    iexact Hr
  hout c := by
    rw [Pipeline.ownSems0_none,
      show (pdats m hr 1 c).Φ (Fin.last _) = Chunk1.PhiS (Tables.adm1 m hr) (fun c b => Chain.W3 m (leaves m hr) c b) c
        (cfg1 (Tables.adm1 m hr)).N (le_refl _) from rfl,
      Chunk1.PhiS_pos _ _ c _ _ (by rw [Chunk1.N_eq]; decide),
      show (Pipeline.pin (pcfgs (F := F)) (adm m hr) 1).spec = spec1 from rfl, scopedRest1_split]
    iintro ⟨Hp, Hs, Hr⟩
    isplitl [Hp]; · iexact Hp
    isplitr; · iempintro
    isplitl [Hs]
    · iexists _; rw [← owns_whole]; iexact Hs
    iexact Hr
  hexit c := by
    have hex := Gate1.exit (Tables.adm1 m hr) c (dat1 m hr c) rfl rfl (Chain.W3 m (leaves m hr) c) (fun _ => rfl)
      (Chain.W4 m (leaves m hr) c) (out_entry1 m hr c) (Chain.W_keep_1 m (leaves m hr) c)
    rw [tbl_entry1 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate02.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec2) : Finset (Ref sig .tc)) = {main_v6, main_v25} := by decide

variable (a : (pcfg2 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v6) ↦{fullShare} V main_v6) ∗ (((c : Thread nD τ).loc main_v25) ↦{fullShare} V main_v25)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg2 a) c)

/-- The pipeline's arrays, window by window: the input array at the two windows' shares, the output array whole. -/
theorem arrays_eq (hq0 : dat.q 0 = fullShare.left) (hq1 : dat.q 1 = fullShare.right)
    (Fv : (w : Fin (cfg2 a).W) → Buf (Elt F) (((cfg2 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v25) ↦{fullShare} Fv 2)) := by
  have s0 : dat.share (0 : Fin 3) = fullShare.left :=
    (if_neg (show ¬ ((cfg2 a).win (0 : Fin 3)).isOut = true from (by decide : ¬ (spec2 0).isOut = true))).trans hq0
  have s1 : dat.share (1 : Fin 3) = fullShare.right :=
    (if_neg (show ¬ ((cfg2 a).win (1 : Fin 3)).isOut = true from (by decide : ¬ (spec2 1).isOut = true))).trans hq1
  have s2 : dat.share (2 : Fin 3) = fullShare :=
    if_pos (show ((cfg2 a).win (2 : Fin 3)).isOut = true from (by decide : (spec2 2).isOut = true))
  unfold Pipeline.Dat.arrays
  rw [bigSep_W2, s0, s1, s2]
  exact congrArg₂ BI.sep (pt_whole c ((cfg2 a).win (0 : Fin 3)).arr (arr_whole2 0) _ (Fv 0))
    (congrArg₂ BI.sep (pt_whole c ((cfg2 a).win (1 : Fin 3)).arr (arr_whole2 1) _ (Fv 1))
      (pt_whole c ((cfg2 a).win (2 : Fin 3)).arr (arr_whole2 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec2 c V ∗ Pipeline.unscopedRest spec2 c V) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v25 → V' b = V b) :
    (Pipeline.unscopedRest (Ix := Unit) (Name := ℕ) (U := UR sig nD τ) (Lvl := ℕ) spec2 c V' : sProp 𝕄)
      = Pipeline.unscopedRest spec2 c V := by
  unfold Pipeline.unscopedRest
  exact bigSep_congr fun b hb => by
    have hb' : b ≠ main_v25 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec2 w)) :
    StableHlo.held (c : Thread nD τ) (Pipeline.ucRefs τ sig) W
      ⊢ (iprop(dat.arrays (dat.arrAt · 0) ∗ Pipeline.prefHeld pre2 c (fun _ => fullShare) (fun k => W (pre2.ref k))
          ∗ Pipeline.unscopedRestP pre2 spec2 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts2, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v25) ↦{fullShare} W main_v25 : sProp 𝕄)
      = (((c : Thread nD τ).loc main_v25) ↦{fullShare} dat.arrAt 2 0) :=
    congrArg (fun f => (((c : Thread nD τ).loc main_v25) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec2 w)) (W' : Valuation τ sig (Elt F))
    (hout : W' main_v25 = dat.arrAt 2 (cfg2 a).N) (hne : ∀ b : Ref sig .tc, b ≠ main_v25 → W' b = W b) :
    (iprop(dat.arrays (dat.arrAt · (cfg2 a).N) ∗ Pipeline.prefHeld pre2 c (fun _ => fullShare) (fun k => W (pre2.ref k))
        ∗ Pipeline.unscopedRestP pre2 spec2 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts2, arrays_eq a c dat hq0 hq1]
  refine sep_mono ?_ .rfl
  have h0 : dat.arrAt 0 (cfg2 a).N = W' main_v6 :=
    ((dat.arrAt_in 0 (by decide : (spec2 0).isOut = false) _).trans (hA 0)).trans (hne main_v6 (by decide)).symm
  have h1 : dat.arrAt 1 (cfg2 a).N = W' main_v6 :=
    ((dat.arrAt_in 1 (by decide : (spec2 1).isOut = false) _).trans (hA 1)).trans (hne main_v6 (by decide)).symm
  have p0 : (((c : Thread nD τ).loc main_v6) ↦{fullShare.left} dat.arrAt 0 (cfg2 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg2 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v25) ↦{fullShare} dat.arrAt 2 (cfg2 a).N : sProp 𝕄)
      = (((c : Thread nD τ).loc main_v25) ↦{fullShare} W' main_v25) :=
    congrArg (fun f => (((c : Thread nD τ).loc main_v25) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate2

end
-- ==== Proof.KI.Reg02.lean ====
import proofs.«418705_j10376640987952_2_alg».proof.Proof.KI.PDats
import proofs.«418705_j10376640987952_2_alg».proof.Proof.KI.Gate02

/-!
Pallas_call 2 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat2 (c : Dev nD) := Chunk2.dat (Tables.adm2 m hr) (fun c b => Chain.W5 m (leaves m hr) c b) c

/-- The tables' contents under the entry valuation are the admissible contents. -/
theorem tbl_entry2 (c : Dev nD) :
    (fun k => Chain.W5 m (leaves m hr) c (pre2.ref k)) = (Tables.adm2 m hr).1 :=
  funext fun k => Chain.W_tbl2 m (leaves m hr) c k

/-- The chain's contents of the result array after the call are the proof data's final array. -/
theorem out_entry2 (c : Dev nD) :
    Chain.W6 m (leaves m hr) c main_v25 = (dat2 m hr c).arrAt 2 (cfg2 (Tables.adm2 m hr)).N := by
  rw [Chain.W_out_2]
  dsimp only [leaves, leave2, dat2]

-- `iapply` of a library lemma stated over `pin pcs a p` unifies with the pinned configuration only when unification may
-- unfold plain definitions in a metavariable's type
set_option backward.isDefEq.respectTransparency.types false in
set_option maxHeartbeats 1600000 in
def reg2 : RegionSeg (pcfgs (F := F)) (adm m hr) (pdats m hr) () defs₀ Variants.none L₀ lv₀ 2 where
  win := winFacts₀2
  block_pos := block_pos2
  stage_whole := stage_whole2
  K := PEmpty
  osem k := k.elim
  ho := Pipeline.OwnSemFacts.none _
  hbody c := (Chunk2.body_obligation (Tables.adm2 m hr) (fun c b => Chain.W5 m (leaves m hr) c b) c).loose
  hwaits := Pipeline.hwaits_of_owed_zero _ _ _ _ L₀ lv₀ 2 fun _ _ => rfl
  pre c := iprop(StableHlo.held (c : Thread nD τ) (Pipeline.ucRefs τ sig) (Chain.W5 m (leaves m hr) c) ∗ E c)
  post c := iprop(StableHlo.held (c : Thread nD τ) (Pipeline.ucRefs τ sig) (Chain.W6 m (leaves m hr) c) ∗ E c)
  X _ := BI.emp
  Y c := Chunk2.tblsHeld (Tables.adm2 m hr) c
  Z c := Pipeline.unscopedRestP (Ix := Unit) (Name := ℕ) (U := UR sig nD τ) (Lvl := ℕ) pre2 spec2 c (fun b => Chain.W5 m (leaves m hr) c b)
  hentry c := by
    rw [Pipeline.ownSems0_none]
    have hent := Gate2.entry (Tables.adm2 m hr) c (dat2 m hr c) rfl rfl (Chain.W5 m (leaves m hr) c) (fun _ => rfl)
    rw [tbl_entry2 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 2 c).Φ 0 = iprop(Chunk2.tblsHeld (Tables.adm2 m hr) c
      ∗ Pipeline.scopedRest (Ix := Unit) (Name := ℕ) (U := UR sig nD τ) (Lvl := ℕ) (Val := Elt F) spec2 c) from rfl]
    iintro ⟨-, Hp, Hr⟩
    isplitl [Hp]; · iexact Hp
    iexact Hr
  hout c := by
    rw [Pipeline.ownSems0_none,
      show (pdats m hr 2 c).Φ (Fin.last _) = Chunk2.PhiS (Tables.adm2 m hr) (fun c b => Chain.W5 m (leaves m hr) c b) c
        (cfg2 (Tables.adm2 m hr)).N (le_refl _) from rfl,
      Chunk2.PhiS_pos _ _ c _ _ (by rw [Chunk2.N_eq]; decide),
      show (Pipeline.pin (pcfgs (F := F)) (adm m hr) 2).spec = spec2 from rfl, scopedRest2_split]
    iintro ⟨Hp, Hs, Hr⟩
    isplitl [Hp]; · iexact Hp
    isplitr; · iempintro
    isplitl [Hs]
    · iexists _; rw [← owns_whole]; iexact Hs
    iexact Hr
  hexit c := by
    have hex := Gate2.exit (Tables.adm2 m hr) c (dat2 m hr c) rfl rfl (Chain.W5 m (leaves m hr) c) (fun _ => rfl)
      (Chain.W6 m (leaves m hr) c) (out_entry2 m hr c) (Chain.W_keep_2 m (leaves m hr) c)
    rw [tbl_entry2 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate03.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec3) : Finset (Ref sig .tc)) = {main_v6, main_v32} := by decide

variable (a : (pcfg3 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v6) ↦{fullShare} V main_v6) ∗ (((c : Thread nD τ).loc main_v32) ↦{fullShare} V main_v32)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg3 a) c)

/-- The pipeline's arrays, window by window: the input array at the two windows' shares, the output array whole. -/
theorem arrays_eq (hq0 : dat.q 0 = fullShare.left) (hq1 : dat.q 1 = fullShare.right)
    (Fv : (w : Fin (cfg3 a).W) → Buf (Elt F) (((cfg3 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v32) ↦{fullShare} Fv 2)) := by
  have s0 : dat.share (0 : Fin 3) = fullShare.left :=
    (if_neg (show ¬ ((cfg3 a).win (0 : Fin 3)).isOut = true from (by decide : ¬ (spec3 0).isOut = true))).trans hq0
  have s1 : dat.share (1 : Fin 3) = fullShare.right :=
    (if_neg (show ¬ ((cfg3 a).win (1 : Fin 3)).isOut = true from (by decide : ¬ (spec3 1).isOut = true))).trans hq1
  have s2 : dat.share (2 : Fin 3) = fullShare :=
    if_pos (show ((cfg3 a).win (2 : Fin 3)).isOut = true from (by decide : (spec3 2).isOut = true))
  unfold Pipeline.Dat.arrays
  rw [bigSep_W3, s0, s1, s2]
  exact congrArg₂ BI.sep (pt_whole c ((cfg3 a).win (0 : Fin 3)).arr (arr_whole3 0) _ (Fv 0))
    (congrArg₂ BI.sep (pt_whole c ((cfg3 a).win (1 : Fin 3)).arr (arr_whole3 1) _ (Fv 1))
      (pt_whole c ((cfg3 a).win (2 : Fin 3)).arr (arr_whole3 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec3 c V ∗ Pipeline.unscopedRest spec3 c V) := by
  classical
  have hA : Finset.univ.image (Pipeline.arrRef spec3) ⊆ Finset.univ.filter fun b : Ref sig .tc => ¬ b.isScoped := fun b hb => by
    obtain ⟨w, -, rfl⟩ := Finset.mem_image.mp hb
    exact Finset.mem_filter.mpr ⟨Finset.mem_univ _, by simp [winFacts₀3.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v32 → V' b = V b) :
    (Pipeline.unscopedRest (Ix := Unit) (Name := ℕ) (U := UR sig nD τ) (Lvl := ℕ) spec3 c V' : sProp 𝕄)
      = Pipeline.unscopedRest spec3 c V := by
  unfold Pipeline.unscopedRest
  exact bigSep_congr fun b hb => by
    have hb' : b ≠ main_v32 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec3 w)) :
    StableHlo.held (c : Thread nD τ) (Pipeline.ucRefs τ sig) W
      ⊢ (iprop(dat.arrays (dat.arrAt · 0) ∗ Pipeline.prefHeld pre3 c (fun _ => fullShare) (fun k => W (pre3.ref k))
          ∗ Pipeline.unscopedRestP pre3 spec3 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts3, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v32) ↦{fullShare} W main_v32 : sProp 𝕄)
      = (((c : Thread nD τ).loc main_v32) ↦{fullShare} dat.arrAt 2 0) :=
    congrArg (fun f => (((c : Thread nD τ).loc main_v32) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec3 w)) (W' : Valuation τ sig (Elt F))
    (hout : W' main_v32 = dat.arrAt 2 (cfg3 a).N) (hne : ∀ b : Ref sig .tc, b ≠ main_v32 → W' b = W b) :
    (iprop(dat.arrays (dat.arrAt · (cfg3 a).N) ∗ Pipeline.prefHeld pre3 c (fun _ => fullShare) (fun k => W (pre3.ref k))
        ∗ Pipeline.unscopedRestP pre3 spec3 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts3, arrays_eq a c dat hq0 hq1]
  refine sep_mono ?_ .rfl
  have h0 : dat.arrAt 0 (cfg3 a).N = W' main_v6 :=
    ((dat.arrAt_in 0 (by decide : (spec3 0).isOut = false) _).trans (hA 0)).trans (hne main_v6 (by decide)).symm
  have h1 : dat.arrAt 1 (cfg3 a).N = W' main_v6 :=
    ((dat.arrAt_in 1 (by decide : (spec3 1).isOut = false) _).trans (hA 1)).trans (hne main_v6 (by decide)).symm
  have p0 : (((c : Thread nD τ).loc main_v6) ↦{fullShare.left} dat.arrAt 0 (cfg3 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg3 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v32) ↦{fullShare} dat.arrAt 2 (cfg3 a).N : sProp 𝕄)
      = (((c : Thread nD τ).loc main_v32) ↦{fullShare} W' main_v32) :=
    congrArg (fun f => (((c : Thread nD τ).loc main_v32) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate3

end
-- ==== Proof.KI.Reg03.lean ====
import proofs.«418705_j10376640987952_2_alg».proof.Proof.KI.PDats
import proofs.«418705_j10376640987952_2_alg».proof.Proof.KI.Gate03

/-!
Pallas_call 3 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat3 (c : Dev nD) := Chunk3.dat (Tables.adm3 m hr) (fun c b => Chain.W7 m (leaves m hr) c b) c

/-- The tables' contents under the entry valuation are the admissible contents. -/
theorem tbl_entry3 (c : Dev nD) :
    (fun k => Chain.W7 m (leaves m hr) c (pre3.ref k)) = (Tables.adm3 m hr).1 :=
  funext fun k => Chain.W_tbl3 m (leaves m hr) c k

/-- The chain's contents of the result array after the call are the proof data's final array. -/
theorem out_entry3 (c : Dev nD) :
    Chain.W8 m (leaves m hr) c main_v32 = (dat3 m hr c).arrAt 2 (cfg3 (Tables.adm3 m hr)).N := by
  rw [Chain.W_out_3]
  dsimp only [leaves, leave3, dat3]

-- `iapply` of a library lemma stated over `pin pcs a p` unifies with the pinned configuration only when unification may
-- unfold plain definitions in a metavariable's type
set_option backward.isDefEq.respectTransparency.types false in
set_option maxHeartbeats 1600000 in
def reg3 : RegionSeg (pcfgs (F := F)) (adm m hr) (pdats m hr) () defs₀ Variants.none L₀ lv₀ 3 where
  win := winFacts₀3
  block_pos := block_pos3
  stage_whole := stage_whole3
  K := PEmpty
  osem k := k.elim
  ho := Pipeline.OwnSemFacts.none _
  hbody c := (Chunk3.body_obligation (Tables.adm3 m hr) (fun c b => Chain.W7 m (leaves m hr) c b) c).loose
  hwaits := Pipeline.hwaits_of_owed_zero _ _ _ _ L₀ lv₀ 3 fun _ _ => rfl
  pre c := iprop(StableHlo.held (c : Thread nD τ) (Pipeline.ucRefs τ sig) (Chain.W7 m (leaves m hr) c) ∗ E c)
  post c := iprop(StableHlo.held (c : Thread nD τ) (Pipeline.ucRefs τ sig) (Chain.W8 m (leaves m hr) c) ∗ E c)
  X _ := BI.emp
  Y c := Chunk3.tblsHeld (Tables.adm3 m hr) c
  Z c := Pipeline.unscopedRestP (Ix := Unit) (Name := ℕ) (U := UR sig nD τ) (Lvl := ℕ) pre3 spec3 c (fun b => Chain.W7 m (leaves m hr) c b)
  hentry c := by
    rw [Pipeline.ownSems0_none]
    have hent := Gate3.entry (Tables.adm3 m hr) c (dat3 m hr c) rfl rfl (Chain.W7 m (leaves m hr) c) (fun _ => rfl)
    rw [tbl_entry3 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 3 c).Φ 0 = iprop(Chunk3.tblsHeld (Tables.adm3 m hr) c
      ∗ Pipeline.scopedRest (Ix := Unit) (Name := ℕ) (U := UR sig nD τ) (Lvl := ℕ) (Val := Elt F) spec3 c) from rfl]
    iintro ⟨-, Hp, Hr⟩
    isplitl [Hp]; · iexact Hp
    iexact Hr
  hout c := by
    rw [Pipeline.ownSems0_none,
      show (pdats m hr 3 c).Φ (Fin.last _) = Chunk3.PhiS (Tables.adm3 m hr) (fun c b => Chain.W7 m (leaves m hr) c b) c
        (cfg3 (Tables.adm3 m hr)).N (le_refl _) from rfl,
      Chunk3.PhiS_pos _ _ c _ _ (by rw [Chunk3.N_eq]; decide),
      show (Pipeline.pin (pcfgs (F := F)) (adm m hr) 3).spec = spec3 from rfl, scopedRest3_split]
    iintro ⟨Hp, Hs, Hr⟩
    isplitl [Hp]; · iexact Hp
    isplitr; · iempintro
    isplitl [Hs]
    · iexists _; rw [← owns_whole]; iexact Hs
    iexact Hr
  hexit c := by
    have hex := Gate3.exit (Tables.adm3 m hr) c (dat3 m hr c) rfl rfl (Chain.W7 m (leaves m hr) c) (fun _ => rfl)
      (Chain.W8 m (leaves m hr) c) (out_entry3 m hr c) (Chain.W_keep_3 m (leaves m hr) c)
    rw [tbl_entry3 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate04.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate4

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec4) : Finset (Ref sig .tc)) = {main_v6, main_v39} := by decide

variable (a : (pcfg4 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v6) ↦{fullShare} V main_v6) ∗ (((c : Thread nD τ).loc main_v39) ↦{fullShare} V main_v39)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg4 a) c)

/-- The pipeline's arrays, window by window: the input array at the two windows' shares, the output array whole. -/
theorem arrays_eq (hq0 : dat.q 0 = fullShare.left) (hq1 : dat.q 1 = fullShare.right)
    (Fv : (w : Fin (cfg4 a).W) → Buf (Elt F) (((cfg4 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v39) ↦{fullShare} Fv 2)) := by
  have s0 : dat.share (0 : Fin 3) = fullShare.left :=
    (if_neg (show ¬ ((cfg4 a).win (0 : Fin 3)).isOut = true from (by decide : ¬ (spec4 0).isOut = true))).trans hq0
  have s1 : dat.share (1 : Fin 3) = fullShare.right :=
    (if_neg (show ¬ ((cfg4 a).win (1 : Fin 3)).isOut = true from (by decide : ¬ (spec4 1).isOut = true))).trans hq1
  have s2 : dat.share (2 : Fin 3) = fullShare :=
    if_pos (show ((cfg4 a).win (2 : Fin 3)).isOut = true from (by decide : (spec4 2).isOut = true))
  unfold Pipeline.Dat.arrays
  rw [bigSep_W4, s0, s1, s2]
  exact congrArg₂ BI.sep (pt_whole c ((cfg4 a).win (0 : Fin 3)).arr (arr_whole4 0) _ (Fv 0))
    (congrArg₂ BI.sep (pt_whole c ((cfg4 a).win (1 : Fin 3)).arr (arr_whole4 1) _ (Fv 1))
      (pt_whole c ((cfg4 a).win (2 : Fin 3)).arr (arr_whole4 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec4 c V ∗ Pipeline.unscopedRest spec4 c V) := by
  classical
  have hA : Finset.univ.image (Pipeline.arrRef spec4) ⊆ Finset.univ.filter fun b : Ref sig .tc => ¬ b.isScoped := fun b hb => by
    obtain ⟨w, -, rfl⟩ := Finset.mem_image.mp hb
    exact Finset.mem_filter.mpr ⟨Finset.mem_univ _, by simp [winFacts₀4.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v39 → V' b = V b) :
    (Pipeline.unscopedRest (Ix := Unit) (Name := ℕ) (U := UR sig nD τ) (Lvl := ℕ) spec4 c V' : sProp 𝕄)
      = Pipeline.unscopedRest spec4 c V := by
  unfold Pipeline.unscopedRest
  exact bigSep_congr fun b hb => by
    have hb' : b ≠ main_v39 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec4 w)) :
    StableHlo.held (c : Thread nD τ) (Pipeline.ucRefs τ sig) W
      ⊢ (iprop(dat.arrays (dat.arrAt · 0) ∗ Pipeline.prefHeld pre4 c (fun _ => fullShare) (fun k => W (pre4.ref k))
          ∗ Pipeline.unscopedRestP pre4 spec4 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts4, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v39) ↦{fullShare} W main_v39 : sProp 𝕄)
      = (((c : Thread nD τ).loc main_v39) ↦{fullShare} dat.arrAt 2 0) :=
    congrArg (fun f => (((c : Thread nD τ).loc main_v39) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec4 w)) (W' : Valuation τ sig (Elt F))
    (hout : W' main_v39 = dat.arrAt 2 (cfg4 a).N) (hne : ∀ b : Ref sig .tc, b ≠ main_v39 → W' b = W b) :
    (iprop(dat.arrays (dat.arrAt · (cfg4 a).N) ∗ Pipeline.prefHeld pre4 c (fun _ => fullShare) (fun k => W (pre4.ref k))
        ∗ Pipeline.unscopedRestP pre4 spec4 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts4, arrays_eq a c dat hq0 hq1]
  refine sep_mono ?_ .rfl
  have h0 : dat.arrAt 0 (cfg4 a).N = W' main_v6 :=
    ((dat.arrAt_in 0 (by decide : (spec4 0).isOut = false) _).trans (hA 0)).trans (hne main_v6 (by decide)).symm
  have h1 : dat.arrAt 1 (cfg4 a).N = W' main_v6 :=
    ((dat.arrAt_in 1 (by decide : (spec4 1).isOut = false) _).trans (hA 1)).trans (hne main_v6 (by decide)).symm
  have p0 : (((c : Thread nD τ).loc main_v6) ↦{fullShare.left} dat.arrAt 0 (cfg4 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg4 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v39) ↦{fullShare} dat.arrAt 2 (cfg4 a).N : sProp 𝕄)
      = (((c : Thread nD τ).loc main_v39) ↦{fullShare} W' main_v39) :=
    congrArg (fun f => (((c : Thread nD τ).loc main_v39) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate4

end
-- ==== Proof.KI.Reg04.lean ====
import proofs.«418705_j10376640987952_2_alg».proof.Proof.KI.PDats
import proofs.«418705_j10376640987952_2_alg».proof.Proof.KI.Gate04

/-!
Pallas_call 4 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat4 (c : Dev nD) := Chunk4.dat (Tables.adm4 m hr) (fun c b => Chain.W9 m (leaves m hr) c b) c

/-- The tables' contents under the entry valuation are the admissible contents. -/
theorem tbl_entry4 (c : Dev nD) :
    (fun k => Chain.W9 m (leaves m hr) c (pre4.ref k)) = (Tables.adm4 m hr).1 :=
  funext fun k => Chain.W_tbl4 m (leaves m hr) c k

/-- The chain's contents of the result array after the call are the proof data's final array. -/
theorem out_entry4 (c : Dev nD) :
    Chain.W10 m (leaves m hr) c main_v39 = (dat4 m hr c).arrAt 2 (cfg4 (Tables.adm4 m hr)).N := by
  rw [Chain.W_out_4]
  dsimp only [leaves, leave4, dat4]

-- `iapply` of a library lemma stated over `pin pcs a p` unifies with the pinned configuration only when unification may
-- unfold plain definitions in a metavariable's type
set_option backward.isDefEq.respectTransparency.types false in
set_option maxHeartbeats 1600000 in
def reg4 : RegionSeg (pcfgs (F := F)) (adm m hr) (pdats m hr) () defs₀ Variants.none L₀ lv₀ 4 where
  win := winFacts₀4
  block_pos := block_pos4
  stage_whole := stage_whole4
  K := PEmpty
  osem k := k.elim
  ho := Pipeline.OwnSemFacts.none _
  hbody c := (Chunk4.body_obligation (Tables.adm4 m hr) (fun c b => Chain.W9 m (leaves m hr) c b) c).loose
  hwaits := Pipeline.hwaits_of_owed_zero _ _ _ _ L₀ lv₀ 4 fun _ _ => rfl
  pre c := iprop(StableHlo.held (c : Thread nD τ) (Pipeline.ucRefs τ sig) (Chain.W9 m (leaves m hr) c) ∗ E c)
  post c := iprop(StableHlo.held (c : Thread nD τ) (Pipeline.ucRefs τ sig) (Chain.W10 m (leaves m hr) c) ∗ E c)
  X _ := BI.emp
  Y c := Chunk4.tblsHeld (Tables.adm4 m hr) c
  Z c := Pipeline.unscopedRestP (Ix := Unit) (Name := ℕ) (U := UR sig nD τ) (Lvl := ℕ) pre4 spec4 c (fun b => Chain.W9 m (leaves m hr) c b)
  hentry c := by
    rw [Pipeline.ownSems0_none]
    have hent := Gate4.entry (Tables.adm4 m hr) c (dat4 m hr c) rfl rfl (Chain.W9 m (leaves m hr) c) (fun _ => rfl)
    rw [tbl_entry4 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 4 c).Φ 0 = iprop(Chunk4.tblsHeld (Tables.adm4 m hr) c
      ∗ Pipeline.scopedRest (Ix := Unit) (Name := ℕ) (U := UR sig nD τ) (Lvl := ℕ) (Val := Elt F) spec4 c) from rfl]
    iintro ⟨-, Hp, Hr⟩
    isplitl [Hp]; · iexact Hp
    iexact Hr
  hout c := by
    rw [Pipeline.ownSems0_none,
      show (pdats m hr 4 c).Φ (Fin.last _) = Chunk4.PhiS (Tables.adm4 m hr) (fun c b => Chain.W9 m (leaves m hr) c b) c
        (cfg4 (Tables.adm4 m hr)).N (le_refl _) from rfl,
      Chunk4.PhiS_pos _ _ c _ _ (by rw [Chunk4.N_eq]; decide),
      show (Pipeline.pin (pcfgs (F := F)) (adm m hr) 4).spec = spec4 from rfl, scopedRest4_split]
    iintro ⟨Hp, Hs, Hr⟩
    isplitl [Hp]; · iexact Hp
    isplitr; · iempintro
    isplitl [Hs]
    · iexists _; rw [← owns_whole]; iexact Hs
    iexact Hr
  hexit c := by
    have hex := Gate4.exit (Tables.adm4 m hr) c (dat4 m hr c) rfl rfl (Chain.W9 m (leaves m hr) c) (fun _ => rfl)
      (Chain.W10 m (leaves m hr) c) (out_entry4 m hr c) (Chain.W_keep_4 m (leaves m hr) c)
    rw [tbl_entry4 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate05.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec5) : Finset (Ref sig .tc)) = {main_v6, main_v46} := by decide

variable (a : (pcfg5 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec5 c V : sProp 𝕄)
      = iprop((((c : Thread nD τ).loc main_v6) ↦{fullShare} V main_v6) ∗ (((c : Thread nD τ).loc main_v46) ↦{fullShare} V main_v46)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg5 a) c)

/-- The pipeline's arrays, window by window: the input array at the two windows' shares, the output array whole. -/
theorem arrays_eq (hq0 : dat.q 0 = fullShare.left) (hq1 : dat.q 1 = fullShare.right)
    (Fv : (w : Fin (cfg5 a).W) → Buf (Elt F) (((cfg5 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v46) ↦{fullShare} Fv 2)) := by
  have s0 : dat.share (0 : Fin 3) = fullShare.left :=
    (if_neg (show ¬ ((cfg5 a).win (0 : Fin 3)).isOut = true from (by decide : ¬ (spec5 0).isOut = true))).trans hq0
  have s1 : dat.share (1 : Fin 3) = fullShare.right :=
    (if_neg (show ¬ ((cfg5 a).win (1 : Fin 3)).isOut = true from (by decide : ¬ (spec5 1).isOut = true))).trans hq1
  have s2 : dat.share (2 : Fin 3) = fullShare :=
    if_pos (show ((cfg5 a).win (2 : Fin 3)).isOut = true from (by decide : (spec5 2).isOut = true))
  unfold Pipeline.Dat.arrays
  rw [bigSep_W5, s0, s1, s2]
  exact congrArg₂ BI.sep (pt_whole c ((cfg5 a).win (0 : Fin 3)).arr (arr_whole5 0) _ (Fv 0))
    (congrArg₂ BI.sep (pt_whole c ((cfg5 a).win (1 : Fin 3)).arr (arr_whole5 1) _ (Fv 1))
      (pt_whole c ((cfg5 a).win (2 : Fin 3)).arr (arr_whole5 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec5 c V ∗ Pipeline.unscopedRest spec5 c V) := by
  classical
  have hA : Finset.univ.image (Pipeline.arrRef spec5) ⊆ Finset.univ.filter fun b : Ref sig .tc => ¬ b.isScoped := fun b hb => by
    obtain ⟨w, -, rfl⟩ := Finset.mem_image.mp hb
    exact Finset.mem_filter.mpr ⟨Finset.mem_univ _, by simp [winFacts₀5.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v46 → V' b = V b) :
    (Pipeline.unscopedRest (Ix := Unit) (Name := ℕ) (U := UR sig nD τ) (Lvl := ℕ) spec5 c V' : sProp 𝕄)
      = Pipeline.unscopedRest spec5 c V := by
  unfold Pipeline.unscopedRest
  exact bigSep_congr fun b hb => by
    have hb' : b ≠ main_v46 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec5 w)) :
    StableHlo.held (c : Thread nD τ) (Pipeline.ucRefs τ sig) W
      ⊢ (iprop(dat.arrays (dat.arrAt · 0) ∗ Pipeline.prefHeld pre5 c (fun _ => fullShare) (fun k => W (pre5.ref k))
          ∗ Pipeline.unscopedRestP pre5 spec5 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts5, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v46) ↦{fullShare} W main_v46 : sProp 𝕄)
      = (((c : Thread nD τ).loc main_v46) ↦{fullShare} dat.arrAt 2 0) :=
    congrArg (fun f => (((c : Thread nD τ).loc main_v46) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec5 w)) (W' : Valuation τ sig (Elt F))
    (hout : W' main_v46 = dat.arrAt 2 (cfg5 a).N) (hne : ∀ b : Ref sig .tc, b ≠ main_v46 → W' b = W b) :
    (iprop(dat.arrays (dat.arrAt · (cfg5 a).N) ∗ Pipeline.prefHeld pre5 c (fun _ => fullShare) (fun k => W (pre5.ref k))
        ∗ Pipeline.unscopedRestP pre5 spec5 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts5, arrays_eq a c dat hq0 hq1]
  refine sep_mono ?_ .rfl
  have h0 : dat.arrAt 0 (cfg5 a).N = W' main_v6 :=
    ((dat.arrAt_in 0 (by decide : (spec5 0).isOut = false) _).trans (hA 0)).trans (hne main_v6 (by decide)).symm
  have h1 : dat.arrAt 1 (cfg5 a).N = W' main_v6 :=
    ((dat.arrAt_in 1 (by decide : (spec5 1).isOut = false) _).trans (hA 1)).trans (hne main_v6 (by decide)).symm
  have p0 : (((c : Thread nD τ).loc main_v6) ↦{fullShare.left} dat.arrAt 0 (cfg5 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg5 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v46) ↦{fullShare} dat.arrAt 2 (cfg5 a).N : sProp 𝕄)
      = (((c : Thread nD τ).loc main_v46) ↦{fullShare} W' main_v46) :=
    congrArg (fun f => (((c : Thread nD τ).loc main_v46) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate5

end
-- ==== Proof.KI.Reg05.lean ====
import proofs.«418705_j10376640987952_2_alg».proof.Proof.KI.PDats
import proofs.«418705_j10376640987952_2_alg».proof.Proof.KI.Gate05

/-!
Pallas_call 5 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat5 (c : Dev nD) := Chunk5.dat (Tables.adm5 m hr) (fun c b => Chain.W11 m (leaves m hr) c b) c

/-- The tables' contents under the entry valuation are the admissible contents. -/
theorem tbl_entry5 (c : Dev nD) :
    (fun k => Chain.W11 m (leaves m hr) c (pre5.ref k)) = (Tables.adm5 m hr).1 :=
  funext fun k => Chain.W_tbl5 m (leaves m hr) c k

/-- The chain's contents of the result array after the call are the proof data's final array. -/
theorem out_entry5 (c : Dev nD) :
    Chain.W12 m (leaves m hr) c main_v46 = (dat5 m hr c).arrAt 2 (cfg5 (Tables.adm5 m hr)).N := by
  rw [Chain.W_out_5]
  dsimp only [leaves, leave5, dat5]

-- `iapply` of a library lemma stated over `pin pcs a p` unifies with the pinned configuration only when unification may
-- unfold plain definitions in a metavariable's type
set_option backward.isDefEq.respectTransparency.types false in
set_option maxHeartbeats 1600000 in
def reg5 : RegionSeg (pcfgs (F := F)) (adm m hr) (pdats m hr) () defs₀ Variants.none L₀ lv₀ 5 where
  win := winFacts₀5
  block_pos := block_pos5
  stage_whole := stage_whole5
  K := PEmpty
  osem k := k.elim
  ho := Pipeline.OwnSemFacts.none _
  hbody c := (Chunk5.body_obligation (Tables.adm5 m hr) (fun c b => Chain.W11 m (leaves m hr) c b) c).loose
  hwaits := Pipeline.hwaits_of_owed_zero _ _ _ _ L₀ lv₀ 5 fun _ _ => rfl
  pre c := iprop(StableHlo.held (c : Thread nD τ) (Pipeline.ucRefs τ sig) (Chain.W11 m (leaves m hr) c) ∗ E c)
  post c := iprop(StableHlo.held (c : Thread nD τ) (Pipeline.ucRefs τ sig) (Chain.W12 m (leaves m hr) c) ∗ E c)
  X _ := BI.emp
  Y c := Chunk5.tblsHeld (Tables.adm5 m hr) c
  Z c := Pipeline.unscopedRestP (Ix := Unit) (Name := ℕ) (U := UR sig nD τ) (Lvl := ℕ) pre5 spec5 c (fun b => Chain.W11 m (leaves m hr) c b)
  hentry c := by
    rw [Pipeline.ownSems0_none]
    have hent := Gate5.entry (Tables.adm5 m hr) c (dat5 m hr c) rfl rfl (Chain.W11 m (leaves m hr) c) (fun _ => rfl)
    rw [tbl_entry5 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 5 c).Φ 0 = iprop(Chunk5.tblsHeld (Tables.adm5 m hr) c
      ∗ Pipeline.scopedRest (Ix := Unit) (Name := ℕ) (U := UR sig nD τ) (Lvl := ℕ) (Val := Elt F) spec5 c) from rfl]
    iintro ⟨-, Hp, Hr⟩
    isplitl [Hp]; · iexact Hp
    iexact Hr
  hout c := by
    rw [Pipeline.ownSems0_none,
      show (pdats m hr 5 c).Φ (Fin.last _) = Chunk5.PhiS (Tables.adm5 m hr) (fun c b => Chain.W11 m (leaves m hr) c b) c
        (cfg5 (Tables.adm5 m hr)).N (le_refl _) from rfl,
      Chunk5.PhiS_pos _ _ c _ _ (by rw [Chunk5.N_eq]; decide),
      show (Pipeline.pin (pcfgs (F := F)) (adm m hr) 5).spec = spec5 from rfl, scopedRest5_split]
    iintro ⟨Hp, Hs, Hr⟩
    isplitl [Hp]; · iexact Hp
    isplitr; · iempintro
    isplitl [Hs]
    · iexists _; rw [← owns_whole]; iexact Hs
    iexact Hr
  hexit c := by
    have hex := Gate5.exit (Tables.adm5 m hr) c (dat5 m hr c) rfl rfl (Chain.W11 m (leaves m hr) c) (fun _ => rfl)
      (Chain.W12 m (leaves m hr) c) (out_entry5 m hr c) (Chain.W_keep_5 m (leaves m hr) c)
    rw [tbl_entry5 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate06.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate6

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec6) : Finset (Ref sig .tc)) = {main_v6, main_v53} := by decide

variable (a : (pcfg6 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec6 c V : sProp 𝕄)
      = iprop((((c : Thread nD τ).loc main_v6) ↦{fullShare} V main_v6) ∗ (((c : Thread nD τ).loc main_v53) ↦{fullShare} V main_v53)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg6 a) c)

/-- The pipeline's arrays, window by window: the input array at the two windows' shares, the output array whole. -/
theorem arrays_eq (hq0 : dat.q 0 = fullShare.left) (hq1 : dat.q 1 = fullShare.right)
    (Fv : (w : Fin (cfg6 a).W) → Buf (Elt F) (((cfg6 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v53) ↦{fullShare} Fv 2)) := by
  have s0 : dat.share (0 : Fin 3) = fullShare.left :=
    (if_neg (show ¬ ((cfg6 a).win (0 : Fin 3)).isOut = true from (by decide : ¬ (spec6 0).isOut = true))).trans hq0
  have s1 : dat.share (1 : Fin 3) = fullShare.right :=
    (if_neg (show ¬ ((cfg6 a).win (1 : Fin 3)).isOut = true from (by decide : ¬ (spec6 1).isOut = true))).trans hq1
  have s2 : dat.share (2 : Fin 3) = fullShare :=
    if_pos (show ((cfg6 a).win (2 : Fin 3)).isOut = true from (by decide : (spec6 2).isOut = true))
  unfold Pipeline.Dat.arrays
  rw [bigSep_W6, s0, s1, s2]
  exact congrArg₂ BI.sep (pt_whole c ((cfg6 a).win (0 : Fin 3)).arr (arr_whole6 0) _ (Fv 0))
    (congrArg₂ BI.sep (pt_whole c ((cfg6 a).win (1 : Fin 3)).arr (arr_whole6 1) _ (Fv 1))
      (pt_whole c ((cfg6 a).win (2 : Fin 3)).arr (arr_whole6 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec6 c V ∗ Pipeline.unscopedRest spec6 c V) := by
  classical
  have hA : Finset.univ.image (Pipeline.arrRef spec6) ⊆ Finset.univ.filter fun b : Ref sig .tc => ¬ b.isScoped := fun b hb => by
    obtain ⟨w, -, rfl⟩ := Finset.mem_image.mp hb
    exact Finset.mem_filter.mpr ⟨Finset.mem_univ _, by simp [winFacts₀6.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v53 → V' b = V b) :
    (Pipeline.unscopedRest (Ix := Unit) (Name := ℕ) (U := UR sig nD τ) (Lvl := ℕ) spec6 c V' : sProp 𝕄)
      = Pipeline.unscopedRest spec6 c V := by
  unfold Pipeline.unscopedRest
  exact bigSep_congr fun b hb => by
    have hb' : b ≠ main_v53 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec6 w)) :
    StableHlo.held (c : Thread nD τ) (Pipeline.ucRefs τ sig) W
      ⊢ (iprop(dat.arrays (dat.arrAt · 0) ∗ Pipeline.prefHeld pre6 c (fun _ => fullShare) (fun k => W (pre6.ref k))
          ∗ Pipeline.unscopedRestP pre6 spec6 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts6, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v53) ↦{fullShare} W main_v53 : sProp 𝕄)
      = (((c : Thread nD τ).loc main_v53) ↦{fullShare} dat.arrAt 2 0) :=
    congrArg (fun f => (((c : Thread nD τ).loc main_v53) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec6 w)) (W' : Valuation τ sig (Elt F))
    (hout : W' main_v53 = dat.arrAt 2 (cfg6 a).N) (hne : ∀ b : Ref sig .tc, b ≠ main_v53 → W' b = W b) :
    (iprop(dat.arrays (dat.arrAt · (cfg6 a).N) ∗ Pipeline.prefHeld pre6 c (fun _ => fullShare) (fun k => W (pre6.ref k))
        ∗ Pipeline.unscopedRestP pre6 spec6 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts6, arrays_eq a c dat hq0 hq1]
  refine sep_mono ?_ .rfl
  have h0 : dat.arrAt 0 (cfg6 a).N = W' main_v6 :=
    ((dat.arrAt_in 0 (by decide : (spec6 0).isOut = false) _).trans (hA 0)).trans (hne main_v6 (by decide)).symm
  have h1 : dat.arrAt 1 (cfg6 a).N = W' main_v6 :=
    ((dat.arrAt_in 1 (by decide : (spec6 1).isOut = false) _).trans (hA 1)).trans (hne main_v6 (by decide)).symm
  have p0 : (((c : Thread nD τ).loc main_v6) ↦{fullShare.left} dat.arrAt 0 (cfg6 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg6 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v53) ↦{fullShare} dat.arrAt 2 (cfg6 a).N : sProp 𝕄)
      = (((c : Thread nD τ).loc main_v53) ↦{fullShare} W' main_v53) :=
    congrArg (fun f => (((c : Thread nD τ).loc main_v53) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate6

end
-- ==== Proof.KI.Reg06.lean ====
import proofs.«418705_j10376640987952_2_alg».proof.Proof.KI.PDats
import proofs.«418705_j10376640987952_2_alg».proof.Proof.KI.Gate06

/-!
Pallas_call 6 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat6 (c : Dev nD) := Chunk6.dat (Tables.adm6 m hr) (fun c b => Chain.W13 m (leaves m hr) c b) c

/-- The tables' contents under the entry valuation are the admissible contents. -/
theorem tbl_entry6 (c : Dev nD) :
    (fun k => Chain.W13 m (leaves m hr) c (pre6.ref k)) = (Tables.adm6 m hr).1 :=
  funext fun k => Chain.W_tbl6 m (leaves m hr) c k

/-- The chain's contents of the result array after the call are the proof data's final array. -/
theorem out_entry6 (c : Dev nD) :
    Chain.W14 m (leaves m hr) c main_v53 = (dat6 m hr c).arrAt 2 (cfg6 (Tables.adm6 m hr)).N := by
  rw [Chain.W_out_6]
  dsimp only [leaves, leave6, dat6]

-- `iapply` of a library lemma stated over `pin pcs a p` unifies with the pinned configuration only when unification may
-- unfold plain definitions in a metavariable's type
set_option backward.isDefEq.respectTransparency.types false in
set_option maxHeartbeats 1600000 in
def reg6 : RegionSeg (pcfgs (F := F)) (adm m hr) (pdats m hr) () defs₀ Variants.none L₀ lv₀ 6 where
  win := winFacts₀6
  block_pos := block_pos6
  stage_whole := stage_whole6
  K := PEmpty
  osem k := k.elim
  ho := Pipeline.OwnSemFacts.none _
  hbody c := (Chunk6.body_obligation (Tables.adm6 m hr) (fun c b => Chain.W13 m (leaves m hr) c b) c).loose
  hwaits := Pipeline.hwaits_of_owed_zero _ _ _ _ L₀ lv₀ 6 fun _ _ => rfl
  pre c := iprop(StableHlo.held (c : Thread nD τ) (Pipeline.ucRefs τ sig) (Chain.W13 m (leaves m hr) c) ∗ E c)
  post c := iprop(StableHlo.held (c : Thread nD τ) (Pipeline.ucRefs τ sig) (Chain.W14 m (leaves m hr) c) ∗ E c)
  X _ := BI.emp
  Y c := Chunk6.tblsHeld (Tables.adm6 m hr) c
  Z c := Pipeline.unscopedRestP (Ix := Unit) (Name := ℕ) (U := UR sig nD τ) (Lvl := ℕ) pre6 spec6 c (fun b => Chain.W13 m (leaves m hr) c b)
  hentry c := by
    rw [Pipeline.ownSems0_none]
    have hent := Gate6.entry (Tables.adm6 m hr) c (dat6 m hr c) rfl rfl (Chain.W13 m (leaves m hr) c) (fun _ => rfl)
    rw [tbl_entry6 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 6 c).Φ 0 = iprop(Chunk6.tblsHeld (Tables.adm6 m hr) c
      ∗ Pipeline.scopedRest (Ix := Unit) (Name := ℕ) (U := UR sig nD τ) (Lvl := ℕ) (Val := Elt F) spec6 c) from rfl]
    iintro ⟨-, Hp, Hr⟩
    isplitl [Hp]; · iexact Hp
    iexact Hr
  hout c := by
    rw [Pipeline.ownSems0_none,
      show (pdats m hr 6 c).Φ (Fin.last _) = Chunk6.PhiS (Tables.adm6 m hr) (fun c b => Chain.W13 m (leaves m hr) c b) c
        (cfg6 (Tables.adm6 m hr)).N (le_refl _) from rfl,
      Chunk6.PhiS_pos _ _ c _ _ (by rw [Chunk6.N_eq]; decide),
      show (Pipeline.pin (pcfgs (F := F)) (adm m hr) 6).spec = spec6 from rfl, scopedRest6_split]
    iintro ⟨Hp, Hs, Hr⟩
    isplitl [Hp]; · iexact Hp
    isplitr; · iempintro
    isplitl [Hs]
    · iexists _; rw [← owns_whole]; iexact Hs
    iexact Hr
  hexit c := by
    have hex := Gate6.exit (Tables.adm6 m hr) c (dat6 m hr c) rfl rfl (Chain.W13 m (leaves m hr) c) (fun _ => rfl)
      (Chain.W14 m (leaves m hr) c) (out_entry6 m hr c) (Chain.W_keep_6 m (leaves m hr) c)
    rw [tbl_entry6 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate07.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate7

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec7) : Finset (Ref sig .tc)) = {main_v6, main_v60} := by decide

variable (a : (pcfg7 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec7 c V : sProp 𝕄)
      = iprop((((c : Thread nD τ).loc main_v6) ↦{fullShare} V main_v6) ∗ (((c : Thread nD τ).loc main_v60) ↦{fullShare} V main_v60)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg7 a) c)

/-- The pipeline's arrays, window by window: the input array at the two windows' shares, the output array whole. -/
theorem arrays_eq (hq0 : dat.q 0 = fullShare.left) (hq1 : dat.q 1 = fullShare.right)
    (Fv : (w : Fin (cfg7 a).W) → Buf (Elt F) (((cfg7 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v60) ↦{fullShare} Fv 2)) := by
  have s0 : dat.share (0 : Fin 3) = fullShare.left :=
    (if_neg (show ¬ ((cfg7 a).win (0 : Fin 3)).isOut = true from (by decide : ¬ (spec7 0).isOut = true))).trans hq0
  have s1 : dat.share (1 : Fin 3) = fullShare.right :=
    (if_neg (show ¬ ((cfg7 a).win (1 : Fin 3)).isOut = true from (by decide : ¬ (spec7 1).isOut = true))).trans hq1
  have s2 : dat.share (2 : Fin 3) = fullShare :=
    if_pos (show ((cfg7 a).win (2 : Fin 3)).isOut = true from (by decide : (spec7 2).isOut = true))
  unfold Pipeline.Dat.arrays
  rw [bigSep_W7, s0, s1, s2]
  exact congrArg₂ BI.sep (pt_whole c ((cfg7 a).win (0 : Fin 3)).arr (arr_whole7 0) _ (Fv 0))
    (congrArg₂ BI.sep (pt_whole c ((cfg7 a).win (1 : Fin 3)).arr (arr_whole7 1) _ (Fv 1))
      (pt_whole c ((cfg7 a).win (2 : Fin 3)).arr (arr_whole7 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec7 c V ∗ Pipeline.unscopedRest spec7 c V) := by
  classical
  have hA : Finset.univ.image (Pipeline.arrRef spec7) ⊆ Finset.univ.filter fun b : Ref sig .tc => ¬ b.isScoped := fun b hb => by
    obtain ⟨w, -, rfl⟩ := Finset.mem_image.mp hb
    exact Finset.mem_filter.mpr ⟨Finset.mem_univ _, by simp [winFacts₀7.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v60 → V' b = V b) :
    (Pipeline.unscopedRest (Ix := Unit) (Name := ℕ) (U := UR sig nD τ) (Lvl := ℕ) spec7 c V' : sProp 𝕄)
      = Pipeline.unscopedRest spec7 c V := by
  unfold Pipeline.unscopedRest
  exact bigSep_congr fun b hb => by
    have hb' : b ≠ main_v60 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec7 w)) :
    StableHlo.held (c : Thread nD τ) (Pipeline.ucRefs τ sig) W
      ⊢ (iprop(dat.arrays (dat.arrAt · 0) ∗ Pipeline.prefHeld pre7 c (fun _ => fullShare) (fun k => W (pre7.ref k))
          ∗ Pipeline.unscopedRestP pre7 spec7 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts7, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v60) ↦{fullShare} W main_v60 : sProp 𝕄)
      = (((c : Thread nD τ).loc main_v60) ↦{fullShare} dat.arrAt 2 0) :=
    congrArg (fun f => (((c : Thread nD τ).loc main_v60) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec7 w)) (W' : Valuation τ sig (Elt F))
    (hout : W' main_v60 = dat.arrAt 2 (cfg7 a).N) (hne : ∀ b : Ref sig .tc, b ≠ main_v60 → W' b = W b) :
    (iprop(dat.arrays (dat.arrAt · (cfg7 a).N) ∗ Pipeline.prefHeld pre7 c (fun _ => fullShare) (fun k => W (pre7.ref k))
        ∗ Pipeline.unscopedRestP pre7 spec7 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts7, arrays_eq a c dat hq0 hq1]
  refine sep_mono ?_ .rfl
  have h0 : dat.arrAt 0 (cfg7 a).N = W' main_v6 :=
    ((dat.arrAt_in 0 (by decide : (spec7 0).isOut = false) _).trans (hA 0)).trans (hne main_v6 (by decide)).symm
  have h1 : dat.arrAt 1 (cfg7 a).N = W' main_v6 :=
    ((dat.arrAt_in 1 (by decide : (spec7 1).isOut = false) _).trans (hA 1)).trans (hne main_v6 (by decide)).symm
  have p0 : (((c : Thread nD τ).loc main_v6) ↦{fullShare.left} dat.arrAt 0 (cfg7 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg7 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v60) ↦{fullShare} dat.arrAt 2 (cfg7 a).N : sProp 𝕄)
      = (((c : Thread nD τ).loc main_v60) ↦{fullShare} W' main_v60) :=
    congrArg (fun f => (((c : Thread nD τ).loc main_v60) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate7

end
-- ==== Proof.KI.Reg07.lean ====
import proofs.«418705_j10376640987952_2_alg».proof.Proof.KI.PDats
import proofs.«418705_j10376640987952_2_alg».proof.Proof.KI.Gate07

/-!
Pallas_call 7 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat7 (c : Dev nD) := Chunk7.dat (Tables.adm7 m hr) (fun c b => Chain.W15 m (leaves m hr) c b) c

/-- The tables' contents under the entry valuation are the admissible contents. -/
theorem tbl_entry7 (c : Dev nD) :
    (fun k => Chain.W15 m (leaves m hr) c (pre7.ref k)) = (Tables.adm7 m hr).1 :=
  funext fun k => Chain.W_tbl7 m (leaves m hr) c k

/-- The chain's contents of the result array after the call are the proof data's final array. -/
theorem out_entry7 (c : Dev nD) :
    Chain.W16 m (leaves m hr) c main_v60 = (dat7 m hr c).arrAt 2 (cfg7 (Tables.adm7 m hr)).N := by
  rw [Chain.W_out_7]
  dsimp only [leaves, leave7, dat7]

-- `iapply` of a library lemma stated over `pin pcs a p` unifies with the pinned configuration only when unification may
-- unfold plain definitions in a metavariable's type
set_option backward.isDefEq.respectTransparency.types false in
set_option maxHeartbeats 1600000 in
def reg7 : RegionSeg (pcfgs (F := F)) (adm m hr) (pdats m hr) () defs₀ Variants.none L₀ lv₀ 7 where
  win := winFacts₀7
  block_pos := block_pos7
  stage_whole := stage_whole7
  K := PEmpty
  osem k := k.elim
  ho := Pipeline.OwnSemFacts.none _
  hbody c := (Chunk7.body_obligation (Tables.adm7 m hr) (fun c b => Chain.W15 m (leaves m hr) c b) c).loose
  hwaits := Pipeline.hwaits_of_owed_zero _ _ _ _ L₀ lv₀ 7 fun _ _ => rfl
  pre c := iprop(StableHlo.held (c : Thread nD τ) (Pipeline.ucRefs τ sig) (Chain.W15 m (leaves m hr) c) ∗ E c)
  post c := iprop(StableHlo.held (c : Thread nD τ) (Pipeline.ucRefs τ sig) (Chain.W16 m (leaves m hr) c) ∗ E c)
  X _ := BI.emp
  Y c := Chunk7.tblsHeld (Tables.adm7 m hr) c
  Z c := Pipeline.unscopedRestP (Ix := Unit) (Name := ℕ) (U := UR sig nD τ) (Lvl := ℕ) pre7 spec7 c (fun b => Chain.W15 m (leaves m hr) c b)
  hentry c := by
    rw [Pipeline.ownSems0_none]
    have hent := Gate7.entry (Tables.adm7 m hr) c (dat7 m hr c) rfl rfl (Chain.W15 m (leaves m hr) c) (fun _ => rfl)
    rw [tbl_entry7 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 7 c).Φ 0 = iprop(Chunk7.tblsHeld (Tables.adm7 m hr) c
      ∗ Pipeline.scopedRest (Ix := Unit) (Name := ℕ) (U := UR sig nD τ) (Lvl := ℕ) (Val := Elt F) spec7 c) from rfl]
    iintro ⟨-, Hp, Hr⟩
    isplitl [Hp]; · iexact Hp
    iexact Hr
  hout c := by
    rw [Pipeline.ownSems0_none,
      show (pdats m hr 7 c).Φ (Fin.last _) = Chunk7.PhiS (Tables.adm7 m hr) (fun c b => Chain.W15 m (leaves m hr) c b) c
        (cfg7 (Tables.adm7 m hr)).N (le_refl _) from rfl,
      Chunk7.PhiS_pos _ _ c _ _ (by rw [Chunk7.N_eq]; decide),
      show (Pipeline.pin (pcfgs (F := F)) (adm m hr) 7).spec = spec7 from rfl, scopedRest7_split]
    iintro ⟨Hp, Hs, Hr⟩
    isplitl [Hp]; · iexact Hp
    isplitr; · iempintro
    isplitl [Hs]
    · iexists _; rw [← owns_whole]; iexact Hs
    iexact Hr
  hexit c := by
    have hex := Gate7.exit (Tables.adm7 m hr) c (dat7 m hr c) rfl rfl (Chain.W15 m (leaves m hr) c) (fun _ => rfl)
      (Chain.W16 m (leaves m hr) c) (out_entry7 m hr c) (Chain.W_keep_7 m (leaves m hr) c)
    rw [tbl_entry7 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate08.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate8

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec8) : Finset (Ref sig .tc)) = {main_v6, main_v67} := by decide

variable (a : (pcfg8 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec8 c V : sProp 𝕄)
      = iprop((((c : Thread nD τ).loc main_v6) ↦{fullShare} V main_v6) ∗ (((c : Thread nD τ).loc main_v67) ↦{fullShare} V main_v67)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg8 a) c)

/-- The pipeline's arrays, window by window: the input array at the two windows' shares, the output array whole. -/
theorem arrays_eq (hq0 : dat.q 0 = fullShare.left) (hq1 : dat.q 1 = fullShare.right)
    (Fv : (w : Fin (cfg8 a).W) → Buf (Elt F) (((cfg8 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v67) ↦{fullShare} Fv 2)) := by
  have s0 : dat.share (0 : Fin 3) = fullShare.left :=
    (if_neg (show ¬ ((cfg8 a).win (0 : Fin 3)).isOut = true from (by decide : ¬ (spec8 0).isOut = true))).trans hq0
  have s1 : dat.share (1 : Fin 3) = fullShare.right :=
    (if_neg (show ¬ ((cfg8 a).win (1 : Fin 3)).isOut = true from (by decide : ¬ (spec8 1).isOut = true))).trans hq1
  have s2 : dat.share (2 : Fin 3) = fullShare :=
    if_pos (show ((cfg8 a).win (2 : Fin 3)).isOut = true from (by decide : (spec8 2).isOut = true))
  unfold Pipeline.Dat.arrays
  rw [bigSep_W8, s0, s1, s2]
  exact congrArg₂ BI.sep (pt_whole c ((cfg8 a).win (0 : Fin 3)).arr (arr_whole8 0) _ (Fv 0))
    (congrArg₂ BI.sep (pt_whole c ((cfg8 a).win (1 : Fin 3)).arr (arr_whole8 1) _ (Fv 1))
      (pt_whole c ((cfg8 a).win (2 : Fin 3)).arr (arr_whole8 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec8 c V ∗ Pipeline.unscopedRest spec8 c V) := by
  classical
  have hA : Finset.univ.image (Pipeline.arrRef spec8) ⊆ Finset.univ.filter fun b : Ref sig .tc => ¬ b.isScoped := fun b hb => by
    obtain ⟨w, -, rfl⟩ := Finset.mem_image.mp hb
    exact Finset.mem_filter.mpr ⟨Finset.mem_univ _, by simp [winFacts₀8.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v67 → V' b = V b) :
    (Pipeline.unscopedRest (Ix := Unit) (Name := ℕ) (U := UR sig nD τ) (Lvl := ℕ) spec8 c V' : sProp 𝕄)
      = Pipeline.unscopedRest spec8 c V := by
  unfold Pipeline.unscopedRest
  exact bigSep_congr fun b hb => by
    have hb' : b ≠ main_v67 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec8 w)) :
    StableHlo.held (c : Thread nD τ) (Pipeline.ucRefs τ sig) W
      ⊢ (iprop(dat.arrays (dat.arrAt · 0) ∗ Pipeline.prefHeld pre8 c (fun _ => fullShare) (fun k => W (pre8.ref k))
          ∗ Pipeline.unscopedRestP pre8 spec8 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts8, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v67) ↦{fullShare} W main_v67 : sProp 𝕄)
      = (((c : Thread nD τ).loc main_v67) ↦{fullShare} dat.arrAt 2 0) :=
    congrArg (fun f => (((c : Thread nD τ).loc main_v67) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec8 w)) (W' : Valuation τ sig (Elt F))
    (hout : W' main_v67 = dat.arrAt 2 (cfg8 a).N) (hne : ∀ b : Ref sig .tc, b ≠ main_v67 → W' b = W b) :
    (iprop(dat.arrays (dat.arrAt · (cfg8 a).N) ∗ Pipeline.prefHeld pre8 c (fun _ => fullShare) (fun k => W (pre8.ref k))
        ∗ Pipeline.unscopedRestP pre8 spec8 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts8, arrays_eq a c dat hq0 hq1]
  refine sep_mono ?_ .rfl
  have h0 : dat.arrAt 0 (cfg8 a).N = W' main_v6 :=
    ((dat.arrAt_in 0 (by decide : (spec8 0).isOut = false) _).trans (hA 0)).trans (hne main_v6 (by decide)).symm
  have h1 : dat.arrAt 1 (cfg8 a).N = W' main_v6 :=
    ((dat.arrAt_in 1 (by decide : (spec8 1).isOut = false) _).trans (hA 1)).trans (hne main_v6 (by decide)).symm
  have p0 : (((c : Thread nD τ).loc main_v6) ↦{fullShare.left} dat.arrAt 0 (cfg8 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg8 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v67) ↦{fullShare} dat.arrAt 2 (cfg8 a).N : sProp 𝕄)
      = (((c : Thread nD τ).loc main_v67) ↦{fullShare} W' main_v67) :=
    congrArg (fun f => (((c : Thread nD τ).loc main_v67) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate8

end
-- ==== Proof.KI.Reg08.lean ====
import proofs.«418705_j10376640987952_2_alg».proof.Proof.KI.PDats
import proofs.«418705_j10376640987952_2_alg».proof.Proof.KI.Gate08

/-!
Pallas_call 8 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat8 (c : Dev nD) := Chunk8.dat (Tables.adm8 m hr) (fun c b => Chain.W17 m (leaves m hr) c b) c

/-- The tables' contents under the entry valuation are the admissible contents. -/
theorem tbl_entry8 (c : Dev nD) :
    (fun k => Chain.W17 m (leaves m hr) c (pre8.ref k)) = (Tables.adm8 m hr).1 :=
  funext fun k => Chain.W_tbl8 m (leaves m hr) c k

/-- The chain's contents of the result array after the call are the proof data's final array. -/
theorem out_entry8 (c : Dev nD) :
    Chain.W18 m (leaves m hr) c main_v67 = (dat8 m hr c).arrAt 2 (cfg8 (Tables.adm8 m hr)).N := by
  rw [Chain.W_out_8]
  dsimp only [leaves, leave8, dat8]

-- `iapply` of a library lemma stated over `pin pcs a p` unifies with the pinned configuration only when unification may
-- unfold plain definitions in a metavariable's type
set_option backward.isDefEq.respectTransparency.types false in
set_option maxHeartbeats 1600000 in
def reg8 : RegionSeg (pcfgs (F := F)) (adm m hr) (pdats m hr) () defs₀ Variants.none L₀ lv₀ 8 where
  win := winFacts₀8
  block_pos := block_pos8
  stage_whole := stage_whole8
  K := PEmpty
  osem k := k.elim
  ho := Pipeline.OwnSemFacts.none _
  hbody c := (Chunk8.body_obligation (Tables.adm8 m hr) (fun c b => Chain.W17 m (leaves m hr) c b) c).loose
  hwaits := Pipeline.hwaits_of_owed_zero _ _ _ _ L₀ lv₀ 8 fun _ _ => rfl
  pre c := iprop(StableHlo.held (c : Thread nD τ) (Pipeline.ucRefs τ sig) (Chain.W17 m (leaves m hr) c) ∗ E c)
  post c := iprop(StableHlo.held (c : Thread nD τ) (Pipeline.ucRefs τ sig) (Chain.W18 m (leaves m hr) c) ∗ E c)
  X _ := BI.emp
  Y c := Chunk8.tblsHeld (Tables.adm8 m hr) c
  Z c := Pipeline.unscopedRestP (Ix := Unit) (Name := ℕ) (U := UR sig nD τ) (Lvl := ℕ) pre8 spec8 c (fun b => Chain.W17 m (leaves m hr) c b)
  hentry c := by
    rw [Pipeline.ownSems0_none]
    have hent := Gate8.entry (Tables.adm8 m hr) c (dat8 m hr c) rfl rfl (Chain.W17 m (leaves m hr) c) (fun _ => rfl)
    rw [tbl_entry8 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 8 c).Φ 0 = iprop(Chunk8.tblsHeld (Tables.adm8 m hr) c
      ∗ Pipeline.scopedRest (Ix := Unit) (Name := ℕ) (U := UR sig nD τ) (Lvl := ℕ) (Val := Elt F) spec8 c) from rfl]
    iintro ⟨-, Hp, Hr⟩
    isplitl [Hp]; · iexact Hp
    iexact Hr
  hout c := by
    rw [Pipeline.ownSems0_none,
      show (pdats m hr 8 c).Φ (Fin.last _) = Chunk8.PhiS (Tables.adm8 m hr) (fun c b => Chain.W17 m (leaves m hr) c b) c
        (cfg8 (Tables.adm8 m hr)).N (le_refl _) from rfl,
      Chunk8.PhiS_pos _ _ c _ _ (by rw [Chunk8.N_eq]; decide),
      show (Pipeline.pin (pcfgs (F := F)) (adm m hr) 8).spec = spec8 from rfl, scopedRest8_split]
    iintro ⟨Hp, Hs, Hr⟩
    isplitl [Hp]; · iexact Hp
    isplitr; · iempintro
    isplitl [Hs]
    · iexists _; rw [← owns_whole]; iexact Hs
    iexact Hr
  hexit c := by
    have hex := Gate8.exit (Tables.adm8 m hr) c (dat8 m hr c) rfl rfl (Chain.W17 m (leaves m hr) c) (fun _ => rfl)
      (Chain.W18 m (leaves m hr) c) (out_entry8 m hr c) (Chain.W_keep_8 m (leaves m hr) c)
    rw [tbl_entry8 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate09.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate9

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec9) : Finset (Ref sig .tc)) = {main_v6, main_v74} := by decide

variable (a : (pcfg9 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec9 c V : sProp 𝕄)
      = iprop((((c : Thread nD τ).loc main_v6) ↦{fullShare} V main_v6) ∗ (((c : Thread nD τ).loc main_v74) ↦{fullShare} V main_v74)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg9 a) c)

/-- The pipeline's arrays, window by window: the input array at the two windows' shares, the output array whole. -/
theorem arrays_eq (hq0 : dat.q 0 = fullShare.left) (hq1 : dat.q 1 = fullShare.right)
    (Fv : (w : Fin (cfg9 a).W) → Buf (Elt F) (((cfg9 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v74) ↦{fullShare} Fv 2)) := by
  have s0 : dat.share (0 : Fin 3) = fullShare.left :=
    (if_neg (show ¬ ((cfg9 a).win (0 : Fin 3)).isOut = true from (by decide : ¬ (spec9 0).isOut = true))).trans hq0
  have s1 : dat.share (1 : Fin 3) = fullShare.right :=
    (if_neg (show ¬ ((cfg9 a).win (1 : Fin 3)).isOut = true from (by decide : ¬ (spec9 1).isOut = true))).trans hq1
  have s2 : dat.share (2 : Fin 3) = fullShare :=
    if_pos (show ((cfg9 a).win (2 : Fin 3)).isOut = true from (by decide : (spec9 2).isOut = true))
  unfold Pipeline.Dat.arrays
  rw [bigSep_W9, s0, s1, s2]
  exact congrArg₂ BI.sep (pt_whole c ((cfg9 a).win (0 : Fin 3)).arr (arr_whole9 0) _ (Fv 0))
    (congrArg₂ BI.sep (pt_whole c ((cfg9 a).win (1 : Fin 3)).arr (arr_whole9 1) _ (Fv 1))
      (pt_whole c ((cfg9 a).win (2 : Fin 3)).arr (arr_whole9 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec9 c V ∗ Pipeline.unscopedRest spec9 c V) := by
  classical
  have hA : Finset.univ.image (Pipeline.arrRef spec9) ⊆ Finset.univ.filter fun b : Ref sig .tc => ¬ b.isScoped := fun b hb => by
    obtain ⟨w, -, rfl⟩ := Finset.mem_image.mp hb
    exact Finset.mem_filter.mpr ⟨Finset.mem_univ _, by simp [winFacts₀9.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v74 → V' b = V b) :
    (Pipeline.unscopedRest (Ix := Unit) (Name := ℕ) (U := UR sig nD τ) (Lvl := ℕ) spec9 c V' : sProp 𝕄)
      = Pipeline.unscopedRest spec9 c V := by
  unfold Pipeline.unscopedRest
  exact bigSep_congr fun b hb => by
    have hb' : b ≠ main_v74 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec9 w)) :
    StableHlo.held (c : Thread nD τ) (Pipeline.ucRefs τ sig) W
      ⊢ (iprop(dat.arrays (dat.arrAt · 0) ∗ Pipeline.prefHeld pre9 c (fun _ => fullShare) (fun k => W (pre9.ref k))
          ∗ Pipeline.unscopedRestP pre9 spec9 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts9, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v74) ↦{fullShare} W main_v74 : sProp 𝕄)
      = (((c : Thread nD τ).loc main_v74) ↦{fullShare} dat.arrAt 2 0) :=
    congrArg (fun f => (((c : Thread nD τ).loc main_v74) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec9 w)) (W' : Valuation τ sig (Elt F))
    (hout : W' main_v74 = dat.arrAt 2 (cfg9 a).N) (hne : ∀ b : Ref sig .tc, b ≠ main_v74 → W' b = W b) :
    (iprop(dat.arrays (dat.arrAt · (cfg9 a).N) ∗ Pipeline.prefHeld pre9 c (fun _ => fullShare) (fun k => W (pre9.ref k))
        ∗ Pipeline.unscopedRestP pre9 spec9 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts9, arrays_eq a c dat hq0 hq1]
  refine sep_mono ?_ .rfl
  have h0 : dat.arrAt 0 (cfg9 a).N = W' main_v6 :=
    ((dat.arrAt_in 0 (by decide : (spec9 0).isOut = false) _).trans (hA 0)).trans (hne main_v6 (by decide)).symm
  have h1 : dat.arrAt 1 (cfg9 a).N = W' main_v6 :=
    ((dat.arrAt_in 1 (by decide : (spec9 1).isOut = false) _).trans (hA 1)).trans (hne main_v6 (by decide)).symm
  have p0 : (((c : Thread nD τ).loc main_v6) ↦{fullShare.left} dat.arrAt 0 (cfg9 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg9 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v74) ↦{fullShare} dat.arrAt 2 (cfg9 a).N : sProp 𝕄)
      = (((c : Thread nD τ).loc main_v74) ↦{fullShare} W' main_v74) :=
    congrArg (fun f => (((c : Thread nD τ).loc main_v74) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate9

end
-- ==== Proof.KI.Reg09.lean ====
import proofs.«418705_j10376640987952_2_alg».proof.Proof.KI.PDats
import proofs.«418705_j10376640987952_2_alg».proof.Proof.KI.Gate09

/-!
Pallas_call 9 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat9 (c : Dev nD) := Chunk9.dat (Tables.adm9 m hr) (fun c b => Chain.W19 m (leaves m hr) c b) c

/-- The tables' contents under the entry valuation are the admissible contents. -/
theorem tbl_entry9 (c : Dev nD) :
    (fun k => Chain.W19 m (leaves m hr) c (pre9.ref k)) = (Tables.adm9 m hr).1 :=
  funext fun k => Chain.W_tbl9 m (leaves m hr) c k

/-- The chain's contents of the result array after the call are the proof data's final array. -/
theorem out_entry9 (c : Dev nD) :
    Chain.W20 m (leaves m hr) c main_v74 = (dat9 m hr c).arrAt 2 (cfg9 (Tables.adm9 m hr)).N := by
  rw [Chain.W_out_9]
  dsimp only [leaves, leave9, dat9]

-- `iapply` of a library lemma stated over `pin pcs a p` unifies with the pinned configuration only when unification may
-- unfold plain definitions in a metavariable's type
set_option backward.isDefEq.respectTransparency.types false in
set_option maxHeartbeats 1600000 in
def reg9 : RegionSeg (pcfgs (F := F)) (adm m hr) (pdats m hr) () defs₀ Variants.none L₀ lv₀ 9 where
  win := winFacts₀9
  block_pos := block_pos9
  stage_whole := stage_whole9
  K := PEmpty
  osem k := k.elim
  ho := Pipeline.OwnSemFacts.none _
  hbody c := (Chunk9.body_obligation (Tables.adm9 m hr) (fun c b => Chain.W19 m (leaves m hr) c b) c).loose
  hwaits := Pipeline.hwaits_of_owed_zero _ _ _ _ L₀ lv₀ 9 fun _ _ => rfl
  pre c := iprop(StableHlo.held (c : Thread nD τ) (Pipeline.ucRefs τ sig) (Chain.W19 m (leaves m hr) c) ∗ E c)
  post c := iprop(StableHlo.held (c : Thread nD τ) (Pipeline.ucRefs τ sig) (Chain.W20 m (leaves m hr) c) ∗ E c)
  X _ := BI.emp
  Y c := Chunk9.tblsHeld (Tables.adm9 m hr) c
  Z c := Pipeline.unscopedRestP (Ix := Unit) (Name := ℕ) (U := UR sig nD τ) (Lvl := ℕ) pre9 spec9 c (fun b => Chain.W19 m (leaves m hr) c b)
  hentry c := by
    rw [Pipeline.ownSems0_none]
    have hent := Gate9.entry (Tables.adm9 m hr) c (dat9 m hr c) rfl rfl (Chain.W19 m (leaves m hr) c) (fun _ => rfl)
    rw [tbl_entry9 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 9 c).Φ 0 = iprop(Chunk9.tblsHeld (Tables.adm9 m hr) c
      ∗ Pipeline.scopedRest (Ix := Unit) (Name := ℕ) (U := UR sig nD τ) (Lvl := ℕ) (Val := Elt F) spec9 c) from rfl]
    iintro ⟨-, Hp, Hr⟩
    isplitl [Hp]; · iexact Hp
    iexact Hr
  hout c := by
    rw [Pipeline.ownSems0_none,
      show (pdats m hr 9 c).Φ (Fin.last _) = Chunk9.PhiS (Tables.adm9 m hr) (fun c b => Chain.W19 m (leaves m hr) c b) c
        (cfg9 (Tables.adm9 m hr)).N (le_refl _) from rfl,
      Chunk9.PhiS_pos _ _ c _ _ (by rw [Chunk9.N_eq]; decide),
      show (Pipeline.pin (pcfgs (F := F)) (adm m hr) 9).spec = spec9 from rfl, scopedRest9_split]
    iintro ⟨Hp, Hs, Hr⟩
    isplitl [Hp]; · iexact Hp
    isplitr; · iempintro
    isplitl [Hs]
    · iexists _; rw [← owns_whole]; iexact Hs
    iexact Hr
  hexit c := by
    have hex := Gate9.exit (Tables.adm9 m hr) c (dat9 m hr c) rfl rfl (Chain.W19 m (leaves m hr) c) (fun _ => rfl)
      (Chain.W20 m (leaves m hr) c) (out_entry9 m hr c) (Chain.W_keep_9 m (leaves m hr) c)
    rw [tbl_entry9 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate10.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate10

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec10) : Finset (Ref sig .tc)) = {main_v6, main_v81} := by decide

variable (a : (pcfg10 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec10 c V : sProp 𝕄)
      = iprop((((c : Thread nD τ).loc main_v6) ↦{fullShare} V main_v6) ∗ (((c : Thread nD τ).loc main_v81) ↦{fullShare} V main_v81)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg10 a) c)

/-- The pipeline's arrays, window by window: the input array at the two windows' shares, the output array whole. -/
theorem arrays_eq (hq0 : dat.q 0 = fullShare.left) (hq1 : dat.q 1 = fullShare.right)
    (Fv : (w : Fin (cfg10 a).W) → Buf (Elt F) (((cfg10 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v81) ↦{fullShare} Fv 2)) := by
  have s0 : dat.share (0 : Fin 3) = fullShare.left :=
    (if_neg (show ¬ ((cfg10 a).win (0 : Fin 3)).isOut = true from (by decide : ¬ (spec10 0).isOut = true))).trans hq0
  have s1 : dat.share (1 : Fin 3) = fullShare.right :=
    (if_neg (show ¬ ((cfg10 a).win (1 : Fin 3)).isOut = true from (by decide : ¬ (spec10 1).isOut = true))).trans hq1
  have s2 : dat.share (2 : Fin 3) = fullShare :=
    if_pos (show ((cfg10 a).win (2 : Fin 3)).isOut = true from (by decide : (spec10 2).isOut = true))
  unfold Pipeline.Dat.arrays
  rw [bigSep_W10, s0, s1, s2]
  exact congrArg₂ BI.sep (pt_whole c ((cfg10 a).win (0 : Fin 3)).arr (arr_whole10 0) _ (Fv 0))
    (congrArg₂ BI.sep (pt_whole c ((cfg10 a).win (1 : Fin 3)).arr (arr_whole10 1) _ (Fv 1))
      (pt_whole c ((cfg10 a).win (2 : Fin 3)).arr (arr_whole10 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec10 c V ∗ Pipeline.unscopedRest spec10 c V) := by
  classical
  have hA : Finset.univ.image (Pipeline.arrRef spec10) ⊆ Finset.univ.filter fun b : Ref sig .tc => ¬ b.isScoped := fun b hb => by
    obtain ⟨w, -, rfl⟩ := Finset.mem_image.mp hb
    exact Finset.mem_filter.mpr ⟨Finset.mem_univ _, by simp [winFacts₀10.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v81 → V' b = V b) :
    (Pipeline.unscopedRest (Ix := Unit) (Name := ℕ) (U := UR sig nD τ) (Lvl := ℕ) spec10 c V' : sProp 𝕄)
      = Pipeline.unscopedRest spec10 c V := by
  unfold Pipeline.unscopedRest
  exact bigSep_congr fun b hb => by
    have hb' : b ≠ main_v81 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec10 w)) :
    StableHlo.held (c : Thread nD τ) (Pipeline.ucRefs τ sig) W
      ⊢ (iprop(dat.arrays (dat.arrAt · 0) ∗ Pipeline.prefHeld pre10 c (fun _ => fullShare) (fun k => W (pre10.ref k))
          ∗ Pipeline.unscopedRestP pre10 spec10 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts10, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v81) ↦{fullShare} W main_v81 : sProp 𝕄)
      = (((c : Thread nD τ).loc main_v81) ↦{fullShare} dat.arrAt 2 0) :=
    congrArg (fun f => (((c : Thread nD τ).loc main_v81) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec10 w)) (W' : Valuation τ sig (Elt F))
    (hout : W' main_v81 = dat.arrAt 2 (cfg10 a).N) (hne : ∀ b : Ref sig .tc, b ≠ main_v81 → W' b = W b) :
    (iprop(dat.arrays (dat.arrAt · (cfg10 a).N) ∗ Pipeline.prefHeld pre10 c (fun _ => fullShare) (fun k => W (pre10.ref k))
        ∗ Pipeline.unscopedRestP pre10 spec10 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts10, arrays_eq a c dat hq0 hq1]
  refine sep_mono ?_ .rfl
  have h0 : dat.arrAt 0 (cfg10 a).N = W' main_v6 :=
    ((dat.arrAt_in 0 (by decide : (spec10 0).isOut = false) _).trans (hA 0)).trans (hne main_v6 (by decide)).symm
  have h1 : dat.arrAt 1 (cfg10 a).N = W' main_v6 :=
    ((dat.arrAt_in 1 (by decide : (spec10 1).isOut = false) _).trans (hA 1)).trans (hne main_v6 (by decide)).symm
  have p0 : (((c : Thread nD τ).loc main_v6) ↦{fullShare.left} dat.arrAt 0 (cfg10 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg10 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v81) ↦{fullShare} dat.arrAt 2 (cfg10 a).N : sProp 𝕄)
      = (((c : Thread nD τ).loc main_v81) ↦{fullShare} W' main_v81) :=
    congrArg (fun f => (((c : Thread nD τ).loc main_v81) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate10

end
-- ==== Proof.KI.Reg10.lean ====
import proofs.«418705_j10376640987952_2_alg».proof.Proof.KI.PDats
import proofs.«418705_j10376640987952_2_alg».proof.Proof.KI.Gate10

/-!
Pallas_call 10 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat10 (c : Dev nD) := Chunk10.dat (Tables.adm10 m hr) (fun c b => Chain.W21 m (leaves m hr) c b) c

/-- The tables' contents under the entry valuation are the admissible contents. -/
theorem tbl_entry10 (c : Dev nD) :
    (fun k => Chain.W21 m (leaves m hr) c (pre10.ref k)) = (Tables.adm10 m hr).1 :=
  funext fun k => Chain.W_tbl10 m (leaves m hr) c k

/-- The chain's contents of the result array after the call are the proof data's final array. -/
theorem out_entry10 (c : Dev nD) :
    Chain.W22 m (leaves m hr) c main_v81 = (dat10 m hr c).arrAt 2 (cfg10 (Tables.adm10 m hr)).N := by
  rw [Chain.W_out_10]
  dsimp only [leaves, leave10, dat10]

-- `iapply` of a library lemma stated over `pin pcs a p` unifies with the pinned configuration only when unification may
-- unfold plain definitions in a metavariable's type
set_option backward.isDefEq.respectTransparency.types false in
set_option maxHeartbeats 1600000 in
def reg10 : RegionSeg (pcfgs (F := F)) (adm m hr) (pdats m hr) () defs₀ Variants.none L₀ lv₀ 10 where
  win := winFacts₀10
  block_pos := block_pos10
  stage_whole := stage_whole10
  K := PEmpty
  osem k := k.elim
  ho := Pipeline.OwnSemFacts.none _
  hbody c := (Chunk10.body_obligation (Tables.adm10 m hr) (fun c b => Chain.W21 m (leaves m hr) c b) c).loose
  hwaits := Pipeline.hwaits_of_owed_zero _ _ _ _ L₀ lv₀ 10 fun _ _ => rfl
  pre c := iprop(StableHlo.held (c : Thread nD τ) (Pipeline.ucRefs τ sig) (Chain.W21 m (leaves m hr) c) ∗ E c)
  post c := iprop(StableHlo.held (c : Thread nD τ) (Pipeline.ucRefs τ sig) (Chain.W22 m (leaves m hr) c) ∗ E c)
  X _ := BI.emp
  Y c := Chunk10.tblsHeld (Tables.adm10 m hr) c
  Z c := Pipeline.unscopedRestP (Ix := Unit) (Name := ℕ) (U := UR sig nD τ) (Lvl := ℕ) pre10 spec10 c (fun b => Chain.W21 m (leaves m hr) c b)
  hentry c := by
    rw [Pipeline.ownSems0_none]
    have hent := Gate10.entry (Tables.adm10 m hr) c (dat10 m hr c) rfl rfl (Chain.W21 m (leaves m hr) c) (fun _ => rfl)
    rw [tbl_entry10 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 10 c).Φ 0 = iprop(Chunk10.tblsHeld (Tables.adm10 m hr) c
      ∗ Pipeline.scopedRest (Ix := Unit) (Name := ℕ) (U := UR sig nD τ) (Lvl := ℕ) (Val := Elt F) spec10 c) from rfl]
    iintro ⟨-, Hp, Hr⟩
    isplitl [Hp]; · iexact Hp
    iexact Hr
  hout c := by
    rw [Pipeline.ownSems0_none,
      show (pdats m hr 10 c).Φ (Fin.last _) = Chunk10.PhiS (Tables.adm10 m hr) (fun c b => Chain.W21 m (leaves m hr) c b) c
        (cfg10 (Tables.adm10 m hr)).N (le_refl _) from rfl,
      Chunk10.PhiS_pos _ _ c _ _ (by rw [Chunk10.N_eq]; decide),
      show (Pipeline.pin (pcfgs (F := F)) (adm m hr) 10).spec = spec10 from rfl, scopedRest10_split]
    iintro ⟨Hp, Hs, Hr⟩
    isplitl [Hp]; · iexact Hp
    isplitr; · iempintro
    isplitl [Hs]
    · iexists _; rw [← owns_whole]; iexact Hs
    iexact Hr
  hexit c := by
    have hex := Gate10.exit (Tables.adm10 m hr) c (dat10 m hr c) rfl rfl (Chain.W21 m (leaves m hr) c) (fun _ => rfl)
      (Chain.W22 m (leaves m hr) c) (out_entry10 m hr c) (Chain.W_keep_10 m (leaves m hr) c)
    rw [tbl_entry10 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate11.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate11

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec11) : Finset (Ref sig .tc)) = {main_v6, main_v88} := by decide

variable (a : (pcfg11 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec11 c V : sProp 𝕄)
      = iprop((((c : Thread nD τ).loc main_v6) ↦{fullShare} V main_v6) ∗ (((c : Thread nD τ).loc main_v88) ↦{fullShare} V main_v88)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg11 a) c)

/-- The pipeline's arrays, window by window: the input array at the two windows' shares, the output array whole. -/
theorem arrays_eq (hq0 : dat.q 0 = fullShare.left) (hq1 : dat.q 1 = fullShare.right)
    (Fv : (w : Fin (cfg11 a).W) → Buf (Elt F) (((cfg11 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v88) ↦{fullShare} Fv 2)) := by
  have s0 : dat.share (0 : Fin 3) = fullShare.left :=
    (if_neg (show ¬ ((cfg11 a).win (0 : Fin 3)).isOut = true from (by decide : ¬ (spec11 0).isOut = true))).trans hq0
  have s1 : dat.share (1 : Fin 3) = fullShare.right :=
    (if_neg (show ¬ ((cfg11 a).win (1 : Fin 3)).isOut = true from (by decide : ¬ (spec11 1).isOut = true))).trans hq1
  have s2 : dat.share (2 : Fin 3) = fullShare :=
    if_pos (show ((cfg11 a).win (2 : Fin 3)).isOut = true from (by decide : (spec11 2).isOut = true))
  unfold Pipeline.Dat.arrays
  rw [bigSep_W11, s0, s1, s2]
  exact congrArg₂ BI.sep (pt_whole c ((cfg11 a).win (0 : Fin 3)).arr (arr_whole11 0) _ (Fv 0))
    (congrArg₂ BI.sep (pt_whole c ((cfg11 a).win (1 : Fin 3)).arr (arr_whole11 1) _ (Fv 1))
      (pt_whole c ((cfg11 a).win (2 : Fin 3)).arr (arr_whole11 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec11 c V ∗ Pipeline.unscopedRest spec11 c V) := by
  classical
  have hA : Finset.univ.image (Pipeline.arrRef spec11) ⊆ Finset.univ.filter fun b : Ref sig .tc => ¬ b.isScoped := fun b hb => by
    obtain ⟨w, -, rfl⟩ := Finset.mem_image.mp hb
    exact Finset.mem_filter.mpr ⟨Finset.mem_univ _, by simp [winFacts₀11.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v88 → V' b = V b) :
    (Pipeline.unscopedRest (Ix := Unit) (Name := ℕ) (U := UR sig nD τ) (Lvl := ℕ) spec11 c V' : sProp 𝕄)
      = Pipeline.unscopedRest spec11 c V := by
  unfold Pipeline.unscopedRest
  exact bigSep_congr fun b hb => by
    have hb' : b ≠ main_v88 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec11 w)) :
    StableHlo.held (c : Thread nD τ) (Pipeline.ucRefs τ sig) W
      ⊢ (iprop(dat.arrays (dat.arrAt · 0) ∗ Pipeline.prefHeld pre11 c (fun _ => fullShare) (fun k => W (pre11.ref k))
          ∗ Pipeline.unscopedRestP pre11 spec11 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts11, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v88) ↦{fullShare} W main_v88 : sProp 𝕄)
      = (((c : Thread nD τ).loc main_v88) ↦{fullShare} dat.arrAt 2 0) :=
    congrArg (fun f => (((c : Thread nD τ).loc main_v88) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec11 w)) (W' : Valuation τ sig (Elt F))
    (hout : W' main_v88 = dat.arrAt 2 (cfg11 a).N) (hne : ∀ b : Ref sig .tc, b ≠ main_v88 → W' b = W b) :
    (iprop(dat.arrays (dat.arrAt · (cfg11 a).N) ∗ Pipeline.prefHeld pre11 c (fun _ => fullShare) (fun k => W (pre11.ref k))
        ∗ Pipeline.unscopedRestP pre11 spec11 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts11, arrays_eq a c dat hq0 hq1]
  refine sep_mono ?_ .rfl
  have h0 : dat.arrAt 0 (cfg11 a).N = W' main_v6 :=
    ((dat.arrAt_in 0 (by decide : (spec11 0).isOut = false) _).trans (hA 0)).trans (hne main_v6 (by decide)).symm
  have h1 : dat.arrAt 1 (cfg11 a).N = W' main_v6 :=
    ((dat.arrAt_in 1 (by decide : (spec11 1).isOut = false) _).trans (hA 1)).trans (hne main_v6 (by decide)).symm
  have p0 : (((c : Thread nD τ).loc main_v6) ↦{fullShare.left} dat.arrAt 0 (cfg11 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg11 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v88) ↦{fullShare} dat.arrAt 2 (cfg11 a).N : sProp 𝕄)
      = (((c : Thread nD τ).loc main_v88) ↦{fullShare} W' main_v88) :=
    congrArg (fun f => (((c : Thread nD τ).loc main_v88) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate11

end
-- ==== Proof.KI.Reg11.lean ====
import proofs.«418705_j10376640987952_2_alg».proof.Proof.KI.PDats
import proofs.«418705_j10376640987952_2_alg».proof.Proof.KI.Gate11

/-!
Pallas_call 11 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat11 (c : Dev nD) := Chunk11.dat (Tables.adm11 m hr) (fun c b => Chain.W23 m (leaves m hr) c b) c

/-- The tables' contents under the entry valuation are the admissible contents. -/
theorem tbl_entry11 (c : Dev nD) :
    (fun k => Chain.W23 m (leaves m hr) c (pre11.ref k)) = (Tables.adm11 m hr).1 :=
  funext fun k => Chain.W_tbl11 m (leaves m hr) c k

/-- The chain's contents of the result array after the call are the proof data's final array. -/
theorem out_entry11 (c : Dev nD) :
    Chain.W24 m (leaves m hr) c main_v88 = (dat11 m hr c).arrAt 2 (cfg11 (Tables.adm11 m hr)).N := by
  rw [Chain.W_out_11]
  dsimp only [leaves, leave11, dat11]

-- `iapply` of a library lemma stated over `pin pcs a p` unifies with the pinned configuration only when unification may
-- unfold plain definitions in a metavariable's type
set_option backward.isDefEq.respectTransparency.types false in
set_option maxHeartbeats 1600000 in
def reg11 : RegionSeg (pcfgs (F := F)) (adm m hr) (pdats m hr) () defs₀ Variants.none L₀ lv₀ 11 where
  win := winFacts₀11
  block_pos := block_pos11
  stage_whole := stage_whole11
  K := PEmpty
  osem k := k.elim
  ho := Pipeline.OwnSemFacts.none _
  hbody c := (Chunk11.body_obligation (Tables.adm11 m hr) (fun c b => Chain.W23 m (leaves m hr) c b) c).loose
  hwaits := Pipeline.hwaits_of_owed_zero _ _ _ _ L₀ lv₀ 11 fun _ _ => rfl
  pre c := iprop(StableHlo.held (c : Thread nD τ) (Pipeline.ucRefs τ sig) (Chain.W23 m (leaves m hr) c) ∗ E c)
  post c := iprop(StableHlo.held (c : Thread nD τ) (Pipeline.ucRefs τ sig) (Chain.W24 m (leaves m hr) c) ∗ E c)
  X _ := BI.emp
  Y c := Chunk11.tblsHeld (Tables.adm11 m hr) c
  Z c := Pipeline.unscopedRestP (Ix := Unit) (Name := ℕ) (U := UR sig nD τ) (Lvl := ℕ) pre11 spec11 c (fun b => Chain.W23 m (leaves m hr) c b)
  hentry c := by
    rw [Pipeline.ownSems0_none]
    have hent := Gate11.entry (Tables.adm11 m hr) c (dat11 m hr c) rfl rfl (Chain.W23 m (leaves m hr) c) (fun _ => rfl)
    rw [tbl_entry11 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 11 c).Φ 0 = iprop(Chunk11.tblsHeld (Tables.adm11 m hr) c
      ∗ Pipeline.scopedRest (Ix := Unit) (Name := ℕ) (U := UR sig nD τ) (Lvl := ℕ) (Val := Elt F) spec11 c) from rfl]
    iintro ⟨-, Hp, Hr⟩
    isplitl [Hp]; · iexact Hp
    iexact Hr
  hout c := by
    rw [Pipeline.ownSems0_none,
      show (pdats m hr 11 c).Φ (Fin.last _) = Chunk11.PhiS (Tables.adm11 m hr) (fun c b => Chain.W23 m (leaves m hr) c b) c
        (cfg11 (Tables.adm11 m hr)).N (le_refl _) from rfl,
      Chunk11.PhiS_pos _ _ c _ _ (by rw [Chunk11.N_eq]; decide),
      show (Pipeline.pin (pcfgs (F := F)) (adm m hr) 11).spec = spec11 from rfl, scopedRest11_split]
    iintro ⟨Hp, Hs, Hr⟩
    isplitl [Hp]; · iexact Hp
    isplitr; · iempintro
    isplitl [Hs]
    · iexists _; rw [← owns_whole]; iexact Hs
    iexact Hr
  hexit c := by
    have hex := Gate11.exit (Tables.adm11 m hr) c (dat11 m hr c) rfl rfl (Chain.W23 m (leaves m hr) c) (fun _ => rfl)
      (Chain.W24 m (leaves m hr) c) (out_entry11 m hr c) (Chain.W_keep_11 m (leaves m hr) c)
    rw [tbl_entry11 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate12.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate12

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec12) : Finset (Ref sig .tc)) = {main_v6, main_v95} := by decide

variable (a : (pcfg12 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec12 c V : sProp 𝕄)
      = iprop((((c : Thread nD τ).loc main_v6) ↦{fullShare} V main_v6) ∗ (((c : Thread nD τ).loc main_v95) ↦{fullShare} V main_v95)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg12 a) c)

/-- The pipeline's arrays, window by window: the input array at the two windows' shares, the output array whole. -/
theorem arrays_eq (hq0 : dat.q 0 = fullShare.left) (hq1 : dat.q 1 = fullShare.right)
    (Fv : (w : Fin (cfg12 a).W) → Buf (Elt F) (((cfg12 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v95) ↦{fullShare} Fv 2)) := by
  have s0 : dat.share (0 : Fin 3) = fullShare.left :=
    (if_neg (show ¬ ((cfg12 a).win (0 : Fin 3)).isOut = true from (by decide : ¬ (spec12 0).isOut = true))).trans hq0
  have s1 : dat.share (1 : Fin 3) = fullShare.right :=
    (if_neg (show ¬ ((cfg12 a).win (1 : Fin 3)).isOut = true from (by decide : ¬ (spec12 1).isOut = true))).trans hq1
  have s2 : dat.share (2 : Fin 3) = fullShare :=
    if_pos (show ((cfg12 a).win (2 : Fin 3)).isOut = true from (by decide : (spec12 2).isOut = true))
  unfold Pipeline.Dat.arrays
  rw [bigSep_W12, s0, s1, s2]
  exact congrArg₂ BI.sep (pt_whole c ((cfg12 a).win (0 : Fin 3)).arr (arr_whole12 0) _ (Fv 0))
    (congrArg₂ BI.sep (pt_whole c ((cfg12 a).win (1 : Fin 3)).arr (arr_whole12 1) _ (Fv 1))
      (pt_whole c ((cfg12 a).win (2 : Fin 3)).arr (arr_whole12 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec12 c V ∗ Pipeline.unscopedRest spec12 c V) := by
  classical
  have hA : Finset.univ.image (Pipeline.arrRef spec12) ⊆ Finset.univ.filter fun b : Ref sig .tc => ¬ b.isScoped := fun b hb => by
    obtain ⟨w, -, rfl⟩ := Finset.mem_image.mp hb
    exact Finset.mem_filter.mpr ⟨Finset.mem_univ _, by simp [winFacts₀12.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v95 → V' b = V b) :
    (Pipeline.unscopedRest (Ix := Unit) (Name := ℕ) (U := UR sig nD τ) (Lvl := ℕ) spec12 c V' : sProp 𝕄)
      = Pipeline.unscopedRest spec12 c V := by
  unfold Pipeline.unscopedRest
  exact bigSep_congr fun b hb => by
    have hb' : b ≠ main_v95 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec12 w)) :
    StableHlo.held (c : Thread nD τ) (Pipeline.ucRefs τ sig) W
      ⊢ (iprop(dat.arrays (dat.arrAt · 0) ∗ Pipeline.prefHeld pre12 c (fun _ => fullShare) (fun k => W (pre12.ref k))
          ∗ Pipeline.unscopedRestP pre12 spec12 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts12, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v95) ↦{fullShare} W main_v95 : sProp 𝕄)
      = (((c : Thread nD τ).loc main_v95) ↦{fullShare} dat.arrAt 2 0) :=
    congrArg (fun f => (((c : Thread nD τ).loc main_v95) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec12 w)) (W' : Valuation τ sig (Elt F))
    (hout : W' main_v95 = dat.arrAt 2 (cfg12 a).N) (hne : ∀ b : Ref sig .tc, b ≠ main_v95 → W' b = W b) :
    (iprop(dat.arrays (dat.arrAt · (cfg12 a).N) ∗ Pipeline.prefHeld pre12 c (fun _ => fullShare) (fun k => W (pre12.ref k))
        ∗ Pipeline.unscopedRestP pre12 spec12 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts12, arrays_eq a c dat hq0 hq1]
  refine sep_mono ?_ .rfl
  have h0 : dat.arrAt 0 (cfg12 a).N = W' main_v6 :=
    ((dat.arrAt_in 0 (by decide : (spec12 0).isOut = false) _).trans (hA 0)).trans (hne main_v6 (by decide)).symm
  have h1 : dat.arrAt 1 (cfg12 a).N = W' main_v6 :=
    ((dat.arrAt_in 1 (by decide : (spec12 1).isOut = false) _).trans (hA 1)).trans (hne main_v6 (by decide)).symm
  have p0 : (((c : Thread nD τ).loc main_v6) ↦{fullShare.left} dat.arrAt 0 (cfg12 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg12 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v95) ↦{fullShare} dat.arrAt 2 (cfg12 a).N : sProp 𝕄)
      = (((c : Thread nD τ).loc main_v95) ↦{fullShare} W' main_v95) :=
    congrArg (fun f => (((c : Thread nD τ).loc main_v95) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate12

end
-- ==== Proof.KI.Reg12.lean ====
import proofs.«418705_j10376640987952_2_alg».proof.Proof.KI.PDats
import proofs.«418705_j10376640987952_2_alg».proof.Proof.KI.Gate12

/-!
Pallas_call 12 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat12 (c : Dev nD) := Chunk12.dat (Tables.adm12 m hr) (fun c b => Chain.W25 m (leaves m hr) c b) c

/-- The tables' contents under the entry valuation are the admissible contents. -/
theorem tbl_entry12 (c : Dev nD) :
    (fun k => Chain.W25 m (leaves m hr) c (pre12.ref k)) = (Tables.adm12 m hr).1 :=
  funext fun k => Chain.W_tbl12 m (leaves m hr) c k

/-- The chain's contents of the result array after the call are the proof data's final array. -/
theorem out_entry12 (c : Dev nD) :
    Chain.W26 m (leaves m hr) c main_v95 = (dat12 m hr c).arrAt 2 (cfg12 (Tables.adm12 m hr)).N := by
  rw [Chain.W_out_12]
  dsimp only [leaves, leave12, dat12]

-- `iapply` of a library lemma stated over `pin pcs a p` unifies with the pinned configuration only when unification may
-- unfold plain definitions in a metavariable's type
set_option backward.isDefEq.respectTransparency.types false in
set_option maxHeartbeats 1600000 in
def reg12 : RegionSeg (pcfgs (F := F)) (adm m hr) (pdats m hr) () defs₀ Variants.none L₀ lv₀ 12 where
  win := winFacts₀12
  block_pos := block_pos12
  stage_whole := stage_whole12
  K := PEmpty
  osem k := k.elim
  ho := Pipeline.OwnSemFacts.none _
  hbody c := (Chunk12.body_obligation (Tables.adm12 m hr) (fun c b => Chain.W25 m (leaves m hr) c b) c).loose
  hwaits := Pipeline.hwaits_of_owed_zero _ _ _ _ L₀ lv₀ 12 fun _ _ => rfl
  pre c := iprop(StableHlo.held (c : Thread nD τ) (Pipeline.ucRefs τ sig) (Chain.W25 m (leaves m hr) c) ∗ E c)
  post c := iprop(StableHlo.held (c : Thread nD τ) (Pipeline.ucRefs τ sig) (Chain.W26 m (leaves m hr) c) ∗ E c)
  X _ := BI.emp
  Y c := Chunk12.tblsHeld (Tables.adm12 m hr) c
  Z c := Pipeline.unscopedRestP (Ix := Unit) (Name := ℕ) (U := UR sig nD τ) (Lvl := ℕ) pre12 spec12 c (fun b => Chain.W25 m (leaves m hr) c b)
  hentry c := by
    rw [Pipeline.ownSems0_none]
    have hent := Gate12.entry (Tables.adm12 m hr) c (dat12 m hr c) rfl rfl (Chain.W25 m (leaves m hr) c) (fun _ => rfl)
    rw [tbl_entry12 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 12 c).Φ 0 = iprop(Chunk12.tblsHeld (Tables.adm12 m hr) c
      ∗ Pipeline.scopedRest (Ix := Unit) (Name := ℕ) (U := UR sig nD τ) (Lvl := ℕ) (Val := Elt F) spec12 c) from rfl]
    iintro ⟨-, Hp, Hr⟩
    isplitl [Hp]; · iexact Hp
    iexact Hr
  hout c := by
    rw [Pipeline.ownSems0_none,
      show (pdats m hr 12 c).Φ (Fin.last _) = Chunk12.PhiS (Tables.adm12 m hr) (fun c b => Chain.W25 m (leaves m hr) c b) c
        (cfg12 (Tables.adm12 m hr)).N (le_refl _) from rfl,
      Chunk12.PhiS_pos _ _ c _ _ (by rw [Chunk12.N_eq]; decide),
      show (Pipeline.pin (pcfgs (F := F)) (adm m hr) 12).spec = spec12 from rfl, scopedRest12_split]
    iintro ⟨Hp, Hs, Hr⟩
    isplitl [Hp]; · iexact Hp
    isplitr; · iempintro
    isplitl [Hs]
    · iexists _; rw [← owns_whole]; iexact Hs
    iexact Hr
  hexit c := by
    have hex := Gate12.exit (Tables.adm12 m hr) c (dat12 m hr c) rfl rfl (Chain.W25 m (leaves m hr) c) (fun _ => rfl)
      (Chain.W26 m (leaves m hr) c) (out_entry12 m hr c) (Chain.W_keep_12 m (leaves m hr) c)
    rw [tbl_entry12 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate13.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate13

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec13) : Finset (Ref sig .tc)) = {main_v6, main_v102} := by decide

variable (a : (pcfg13 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec13 c V : sProp 𝕄)
      = iprop((((c : Thread nD τ).loc main_v6) ↦{fullShare} V main_v6) ∗ (((c : Thread nD τ).loc main_v102) ↦{fullShare} V main_v102)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg13 a) c)

/-- The pipeline's arrays, window by window: the input array at the two windows' shares, the output array whole. -/
theorem arrays_eq (hq0 : dat.q 0 = fullShare.left) (hq1 : dat.q 1 = fullShare.right)
    (Fv : (w : Fin (cfg13 a).W) → Buf (Elt F) (((cfg13 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v102) ↦{fullShare} Fv 2)) := by
  have s0 : dat.share (0 : Fin 3) = fullShare.left :=
    (if_neg (show ¬ ((cfg13 a).win (0 : Fin 3)).isOut = true from (by decide : ¬ (spec13 0).isOut = true))).trans hq0
  have s1 : dat.share (1 : Fin 3) = fullShare.right :=
    (if_neg (show ¬ ((cfg13 a).win (1 : Fin 3)).isOut = true from (by decide : ¬ (spec13 1).isOut = true))).trans hq1
  have s2 : dat.share (2 : Fin 3) = fullShare :=
    if_pos (show ((cfg13 a).win (2 : Fin 3)).isOut = true from (by decide : (spec13 2).isOut = true))
  unfold Pipeline.Dat.arrays
  rw [bigSep_W13, s0, s1, s2]
  exact congrArg₂ BI.sep (pt_whole c ((cfg13 a).win (0 : Fin 3)).arr (arr_whole13 0) _ (Fv 0))
    (congrArg₂ BI.sep (pt_whole c ((cfg13 a).win (1 : Fin 3)).arr (arr_whole13 1) _ (Fv 1))
      (pt_whole c ((cfg13 a).win (2 : Fin 3)).arr (arr_whole13 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec13 c V ∗ Pipeline.unscopedRest spec13 c V) := by
  classical
  have hA : Finset.univ.image (Pipeline.arrRef spec13) ⊆ Finset.univ.filter fun b : Ref sig .tc => ¬ b.isScoped := fun b hb => by
    obtain ⟨w, -, rfl⟩ := Finset.mem_image.mp hb
    exact Finset.mem_filter.mpr ⟨Finset.mem_univ _, by simp [winFacts₀13.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v102 → V' b = V b) :
    (Pipeline.unscopedRest (Ix := Unit) (Name := ℕ) (U := UR sig nD τ) (Lvl := ℕ) spec13 c V' : sProp 𝕄)
      = Pipeline.unscopedRest spec13 c V := by
  unfold Pipeline.unscopedRest
  exact bigSep_congr fun b hb => by
    have hb' : b ≠ main_v102 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec13 w)) :
    StableHlo.held (c : Thread nD τ) (Pipeline.ucRefs τ sig) W
      ⊢ (iprop(dat.arrays (dat.arrAt · 0) ∗ Pipeline.prefHeld pre13 c (fun _ => fullShare) (fun k => W (pre13.ref k))
          ∗ Pipeline.unscopedRestP pre13 spec13 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts13, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v102) ↦{fullShare} W main_v102 : sProp 𝕄)
      = (((c : Thread nD τ).loc main_v102) ↦{fullShare} dat.arrAt 2 0) :=
    congrArg (fun f => (((c : Thread nD τ).loc main_v102) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec13 w)) (W' : Valuation τ sig (Elt F))
    (hout : W' main_v102 = dat.arrAt 2 (cfg13 a).N) (hne : ∀ b : Ref sig .tc, b ≠ main_v102 → W' b = W b) :
    (iprop(dat.arrays (dat.arrAt · (cfg13 a).N) ∗ Pipeline.prefHeld pre13 c (fun _ => fullShare) (fun k => W (pre13.ref k))
        ∗ Pipeline.unscopedRestP pre13 spec13 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts13, arrays_eq a c dat hq0 hq1]
  refine sep_mono ?_ .rfl
  have h0 : dat.arrAt 0 (cfg13 a).N = W' main_v6 :=
    ((dat.arrAt_in 0 (by decide : (spec13 0).isOut = false) _).trans (hA 0)).trans (hne main_v6 (by decide)).symm
  have h1 : dat.arrAt 1 (cfg13 a).N = W' main_v6 :=
    ((dat.arrAt_in 1 (by decide : (spec13 1).isOut = false) _).trans (hA 1)).trans (hne main_v6 (by decide)).symm
  have p0 : (((c : Thread nD τ).loc main_v6) ↦{fullShare.left} dat.arrAt 0 (cfg13 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg13 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v102) ↦{fullShare} dat.arrAt 2 (cfg13 a).N : sProp 𝕄)
      = (((c : Thread nD τ).loc main_v102) ↦{fullShare} W' main_v102) :=
    congrArg (fun f => (((c : Thread nD τ).loc main_v102) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate13

end
-- ==== Proof.KI.Reg13.lean ====
import proofs.«418705_j10376640987952_2_alg».proof.Proof.KI.PDats
import proofs.«418705_j10376640987952_2_alg».proof.Proof.KI.Gate13

/-!
Pallas_call 13 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat13 (c : Dev nD) := Chunk13.dat (Tables.adm13 m hr) (fun c b => Chain.W27 m (leaves m hr) c b) c

/-- The tables' contents under the entry valuation are the admissible contents. -/
theorem tbl_entry13 (c : Dev nD) :
    (fun k => Chain.W27 m (leaves m hr) c (pre13.ref k)) = (Tables.adm13 m hr).1 :=
  funext fun k => Chain.W_tbl13 m (leaves m hr) c k

/-- The chain's contents of the result array after the call are the proof data's final array. -/
theorem out_entry13 (c : Dev nD) :
    Chain.W28 m (leaves m hr) c main_v102 = (dat13 m hr c).arrAt 2 (cfg13 (Tables.adm13 m hr)).N := by
  rw [Chain.W_out_13]
  dsimp only [leaves, leave13, dat13]

-- `iapply` of a library lemma stated over `pin pcs a p` unifies with the pinned configuration only when unification may
-- unfold plain definitions in a metavariable's type
set_option backward.isDefEq.respectTransparency.types false in
set_option maxHeartbeats 1600000 in
def reg13 : RegionSeg (pcfgs (F := F)) (adm m hr) (pdats m hr) () defs₀ Variants.none L₀ lv₀ 13 where
  win := winFacts₀13
  block_pos := block_pos13
  stage_whole := stage_whole13
  K := PEmpty
  osem k := k.elim
  ho := Pipeline.OwnSemFacts.none _
  hbody c := (Chunk13.body_obligation (Tables.adm13 m hr) (fun c b => Chain.W27 m (leaves m hr) c b) c).loose
  hwaits := Pipeline.hwaits_of_owed_zero _ _ _ _ L₀ lv₀ 13 fun _ _ => rfl
  pre c := iprop(StableHlo.held (c : Thread nD τ) (Pipeline.ucRefs τ sig) (Chain.W27 m (leaves m hr) c) ∗ E c)
  post c := iprop(StableHlo.held (c : Thread nD τ) (Pipeline.ucRefs τ sig) (Chain.W28 m (leaves m hr) c) ∗ E c)
  X _ := BI.emp
  Y c := Chunk13.tblsHeld (Tables.adm13 m hr) c
  Z c := Pipeline.unscopedRestP (Ix := Unit) (Name := ℕ) (U := UR sig nD τ) (Lvl := ℕ) pre13 spec13 c (fun b => Chain.W27 m (leaves m hr) c b)
  hentry c := by
    rw [Pipeline.ownSems0_none]
    have hent := Gate13.entry (Tables.adm13 m hr) c (dat13 m hr c) rfl rfl (Chain.W27 m (leaves m hr) c) (fun _ => rfl)
    rw [tbl_entry13 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 13 c).Φ 0 = iprop(Chunk13.tblsHeld (Tables.adm13 m hr) c
      ∗ Pipeline.scopedRest (Ix := Unit) (Name := ℕ) (U := UR sig nD τ) (Lvl := ℕ) (Val := Elt F) spec13 c) from rfl]
    iintro ⟨-, Hp, Hr⟩
    isplitl [Hp]; · iexact Hp
    iexact Hr
  hout c := by
    rw [Pipeline.ownSems0_none,
      show (pdats m hr 13 c).Φ (Fin.last _) = Chunk13.PhiS (Tables.adm13 m hr) (fun c b => Chain.W27 m (leaves m hr) c b) c
        (cfg13 (Tables.adm13 m hr)).N (le_refl _) from rfl,
      Chunk13.PhiS_pos _ _ c _ _ (by rw [Chunk13.N_eq]; decide),
      show (Pipeline.pin (pcfgs (F := F)) (adm m hr) 13).spec = spec13 from rfl, scopedRest13_split]
    iintro ⟨Hp, Hs, Hr⟩
    isplitl [Hp]; · iexact Hp
    isplitr; · iempintro
    isplitl [Hs]
    · iexists _; rw [← owns_whole]; iexact Hs
    iexact Hr
  hexit c := by
    have hex := Gate13.exit (Tables.adm13 m hr) c (dat13 m hr c) rfl rfl (Chain.W27 m (leaves m hr) c) (fun _ => rfl)
      (Chain.W28 m (leaves m hr) c) (out_entry13 m hr c) (Chain.W_keep_13 m (leaves m hr) c)
    rw [tbl_entry13 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate14.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate14

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec14) : Finset (Ref sig .tc)) = {main_v6, main_v109} := by decide

variable (a : (pcfg14 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec14 c V : sProp 𝕄)
      = iprop((((c : Thread nD τ).loc main_v6) ↦{fullShare} V main_v6) ∗ (((c : Thread nD τ).loc main_v109) ↦{fullShare} V main_v109)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg14 a) c)

/-- The pipeline's arrays, window by window: the input array at the two windows' shares, the output array whole. -/
theorem arrays_eq (hq0 : dat.q 0 = fullShare.left) (hq1 : dat.q 1 = fullShare.right)
    (Fv : (w : Fin (cfg14 a).W) → Buf (Elt F) (((cfg14 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v109) ↦{fullShare} Fv 2)) := by
  have s0 : dat.share (0 : Fin 3) = fullShare.left :=
    (if_neg (show ¬ ((cfg14 a).win (0 : Fin 3)).isOut = true from (by decide : ¬ (spec14 0).isOut = true))).trans hq0
  have s1 : dat.share (1 : Fin 3) = fullShare.right :=
    (if_neg (show ¬ ((cfg14 a).win (1 : Fin 3)).isOut = true from (by decide : ¬ (spec14 1).isOut = true))).trans hq1
  have s2 : dat.share (2 : Fin 3) = fullShare :=
    if_pos (show ((cfg14 a).win (2 : Fin 3)).isOut = true from (by decide : (spec14 2).isOut = true))
  unfold Pipeline.Dat.arrays
  rw [bigSep_W14, s0, s1, s2]
  exact congrArg₂ BI.sep (pt_whole c ((cfg14 a).win (0 : Fin 3)).arr (arr_whole14 0) _ (Fv 0))
    (congrArg₂ BI.sep (pt_whole c ((cfg14 a).win (1 : Fin 3)).arr (arr_whole14 1) _ (Fv 1))
      (pt_whole c ((cfg14 a).win (2 : Fin 3)).arr (arr_whole14 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec14 c V ∗ Pipeline.unscopedRest spec14 c V) := by
  classical
  have hA : Finset.univ.image (Pipeline.arrRef spec14) ⊆ Finset.univ.filter fun b : Ref sig .tc => ¬ b.isScoped := fun b hb => by
    obtain ⟨w, -, rfl⟩ := Finset.mem_image.mp hb
    exact Finset.mem_filter.mpr ⟨Finset.mem_univ _, by simp [winFacts₀14.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v109 → V' b = V b) :
    (Pipeline.unscopedRest (Ix := Unit) (Name := ℕ) (U := UR sig nD τ) (Lvl := ℕ) spec14 c V' : sProp 𝕄)
      = Pipeline.unscopedRest spec14 c V := by
  unfold Pipeline.unscopedRest
  exact bigSep_congr fun b hb => by
    have hb' : b ≠ main_v109 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec14 w)) :
    StableHlo.held (c : Thread nD τ) (Pipeline.ucRefs τ sig) W
      ⊢ (iprop(dat.arrays (dat.arrAt · 0) ∗ Pipeline.prefHeld pre14 c (fun _ => fullShare) (fun k => W (pre14.ref k))
          ∗ Pipeline.unscopedRestP pre14 spec14 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts14, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v109) ↦{fullShare} W main_v109 : sProp 𝕄)
      = (((c : Thread nD τ).loc main_v109) ↦{fullShare} dat.arrAt 2 0) :=
    congrArg (fun f => (((c : Thread nD τ).loc main_v109) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec14 w)) (W' : Valuation τ sig (Elt F))
    (hout : W' main_v109 = dat.arrAt 2 (cfg14 a).N) (hne : ∀ b : Ref sig .tc, b ≠ main_v109 → W' b = W b) :
    (iprop(dat.arrays (dat.arrAt · (cfg14 a).N) ∗ Pipeline.prefHeld pre14 c (fun _ => fullShare) (fun k => W (pre14.ref k))
        ∗ Pipeline.unscopedRestP pre14 spec14 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts14, arrays_eq a c dat hq0 hq1]
  refine sep_mono ?_ .rfl
  have h0 : dat.arrAt 0 (cfg14 a).N = W' main_v6 :=
    ((dat.arrAt_in 0 (by decide : (spec14 0).isOut = false) _).trans (hA 0)).trans (hne main_v6 (by decide)).symm
  have h1 : dat.arrAt 1 (cfg14 a).N = W' main_v6 :=
    ((dat.arrAt_in 1 (by decide : (spec14 1).isOut = false) _).trans (hA 1)).trans (hne main_v6 (by decide)).symm
  have p0 : (((c : Thread nD τ).loc main_v6) ↦{fullShare.left} dat.arrAt 0 (cfg14 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg14 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v109) ↦{fullShare} dat.arrAt 2 (cfg14 a).N : sProp 𝕄)
      = (((c : Thread nD τ).loc main_v109) ↦{fullShare} W' main_v109) :=
    congrArg (fun f => (((c : Thread nD τ).loc main_v109) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate14

end
-- ==== Proof.KI.Reg14.lean ====
import proofs.«418705_j10376640987952_2_alg».proof.Proof.KI.PDats
import proofs.«418705_j10376640987952_2_alg».proof.Proof.KI.Gate14

/-!
Pallas_call 14 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat14 (c : Dev nD) := Chunk14.dat (Tables.adm14 m hr) (fun c b => Chain.W29 m (leaves m hr) c b) c

/-- The tables' contents under the entry valuation are the admissible contents. -/
theorem tbl_entry14 (c : Dev nD) :
    (fun k => Chain.W29 m (leaves m hr) c (pre14.ref k)) = (Tables.adm14 m hr).1 :=
  funext fun k => Chain.W_tbl14 m (leaves m hr) c k

/-- The chain's contents of the result array after the call are the proof data's final array. -/
theorem out_entry14 (c : Dev nD) :
    Chain.W30 m (leaves m hr) c main_v109 = (dat14 m hr c).arrAt 2 (cfg14 (Tables.adm14 m hr)).N := by
  rw [Chain.W_out_14]
  dsimp only [leaves, leave14, dat14]

-- `iapply` of a library lemma stated over `pin pcs a p` unifies with the pinned configuration only when unification may
-- unfold plain definitions in a metavariable's type
set_option backward.isDefEq.respectTransparency.types false in
set_option maxHeartbeats 1600000 in
def reg14 : RegionSeg (pcfgs (F := F)) (adm m hr) (pdats m hr) () defs₀ Variants.none L₀ lv₀ 14 where
  win := winFacts₀14
  block_pos := block_pos14
  stage_whole := stage_whole14
  K := PEmpty
  osem k := k.elim
  ho := Pipeline.OwnSemFacts.none _
  hbody c := (Chunk14.body_obligation (Tables.adm14 m hr) (fun c b => Chain.W29 m (leaves m hr) c b) c).loose
  hwaits := Pipeline.hwaits_of_owed_zero _ _ _ _ L₀ lv₀ 14 fun _ _ => rfl
  pre c := iprop(StableHlo.held (c : Thread nD τ) (Pipeline.ucRefs τ sig) (Chain.W29 m (leaves m hr) c) ∗ E c)
  post c := iprop(StableHlo.held (c : Thread nD τ) (Pipeline.ucRefs τ sig) (Chain.W30 m (leaves m hr) c) ∗ E c)
  X _ := BI.emp
  Y c := Chunk14.tblsHeld (Tables.adm14 m hr) c
  Z c := Pipeline.unscopedRestP (Ix := Unit) (Name := ℕ) (U := UR sig nD τ) (Lvl := ℕ) pre14 spec14 c (fun b => Chain.W29 m (leaves m hr) c b)
  hentry c := by
    rw [Pipeline.ownSems0_none]
    have hent := Gate14.entry (Tables.adm14 m hr) c (dat14 m hr c) rfl rfl (Chain.W29 m (leaves m hr) c) (fun _ => rfl)
    rw [tbl_entry14 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 14 c).Φ 0 = iprop(Chunk14.tblsHeld (Tables.adm14 m hr) c
      ∗ Pipeline.scopedRest (Ix := Unit) (Name := ℕ) (U := UR sig nD τ) (Lvl := ℕ) (Val := Elt F) spec14 c) from rfl]
    iintro ⟨-, Hp, Hr⟩
    isplitl [Hp]; · iexact Hp
    iexact Hr
  hout c := by
    rw [Pipeline.ownSems0_none,
      show (pdats m hr 14 c).Φ (Fin.last _) = Chunk14.PhiS (Tables.adm14 m hr) (fun c b => Chain.W29 m (leaves m hr) c b) c
        (cfg14 (Tables.adm14 m hr)).N (le_refl _) from rfl,
      Chunk14.PhiS_pos _ _ c _ _ (by rw [Chunk14.N_eq]; decide),
      show (Pipeline.pin (pcfgs (F := F)) (adm m hr) 14).spec = spec14 from rfl, scopedRest14_split]
    iintro ⟨Hp, Hs, Hr⟩
    isplitl [Hp]; · iexact Hp
    isplitr; · iempintro
    isplitl [Hs]
    · iexists _; rw [← owns_whole]; iexact Hs
    iexact Hr
  hexit c := by
    have hex := Gate14.exit (Tables.adm14 m hr) c (dat14 m hr c) rfl rfl (Chain.W29 m (leaves m hr) c) (fun _ => rfl)
      (Chain.W30 m (leaves m hr) c) (out_entry14 m hr c) (Chain.W_keep_14 m (leaves m hr) c)
    rw [tbl_entry14 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.Gate15.lean ====
import proofs.«418705_j10376640987952_2_alg».proof.Proof.Gen.KernelIdeal.Launch
import Idealize.ShloMosaic.Lib.Pipeline.Regions
import Idealize.ShloMosaic.Lib.Pipeline.Launch
import Idealize.ShloMosaic.Lib.Pipeline.Frame
import Idealize.ShloMosaic.Lib.Pipeline.Dat

/-!
  A kernel region's ENTRY and EXIT over the core's unscoped buffers, for a pipeline two of whose windows share an array.

  The pipeline has three windows: windows 0 and 1 are input windows staging blocks of one and the same array, window 2
  is the output window on the region's own [1, 1] array. Between items a core holds every unscoped buffer whole at a
  valuation. The pipeline wants, per window, its array at the window's share: the shared input array's full share is
  dealt to its two windows as the left and the right half, the output array is held whole. So

    * at ENTRY the core's unscoped buffers split into the two distinct buffers behind the arrays and the rest; the input
      buffer's full share splits into its halves, one per window; the rest splits into the prefetched tables and what
      is left;
    * at EXIT the two halves of the input array (an input array is never written: it still holds its entry contents)
      rejoin to the full share, the output array holds what the region left, and everything is put back at any
      valuation that has the output array there and agrees with the entry valuation elsewhere.
-/

set_option maxRecDepth 1400

noncomputable section

namespace Cert.KernelIdeal.Gate15

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the three windows' arrays are two: the shared input array and the output array. -/
theorem arr_image : (Finset.univ.image (Pipeline.arrRef spec15) : Finset (Ref sig .tc)) = {main_v6, main_v116} := by decide

variable (a : (pcfg15 (F := F)).Adm) (c : Dev nD)

/-- The distinct buffers behind the arrays, held whole: the input array and the output array. -/
theorem arrBufs_eq (V : (b : Ref sig .tc) → Buf (Elt F) ((c : Thread nD τ).loc b)) :
    (Pipeline.arrBufs (Ix := Unit) (Name := ℕ) (U := UR sig nD τ) (Lvl := ℕ) spec15 c V : sProp 𝕄)
      = iprop((((c : Thread nD τ).loc main_v6) ↦{fullShare} V main_v6) ∗ (((c : Thread nD τ).loc main_v116) ↦{fullShare} V main_v116)) := by
  unfold Pipeline.arrBufs
  rw [arr_image, bigSep_insert (by decide), bigSep_singleton]
  rfl

/-- A whole buffer's memref held on all its elements is the buffer held. -/
theorem pt_whole {sp : Space} {S : Shape} {e : EltTy} (M : Memref sig .tc sp S e) (hM : M.IsWhole) (q : PosShare TreeShare)
    (f : Buf (Elt F) (M.view.loc (c : Thread nD τ))) :
    (M.view.loc (c : Thread nD τ) ↦[M.view.set]{q} f : sProp 𝕄) = (M.view.loc (c : Thread nD τ) ↦{q} f) := by
  rw [hM.set_eq_univ]

variable (dat : Pipeline.Dat τ (Elt F) Unit ℕ (UR sig nD τ) ℕ (cfg15 a) c)

/-- The pipeline's arrays, window by window: the input array at the two windows' shares, the output array whole. -/
theorem arrays_eq (hq0 : dat.q 0 = fullShare.left) (hq1 : dat.q 1 = fullShare.right)
    (Fv : (w : Fin (cfg15 a).W) → Buf (Elt F) (((cfg15 a).win w).arr.view.loc (c : Thread nD τ))) :
    (dat.arrays Fv : sProp 𝕄)
      = iprop((((c : Thread nD τ).loc main_v6) ↦{fullShare.left} Fv 0) ∗ (((c : Thread nD τ).loc main_v6) ↦{fullShare.right} Fv 1)
          ∗ (((c : Thread nD τ).loc main_v116) ↦{fullShare} Fv 2)) := by
  have s0 : dat.share (0 : Fin 3) = fullShare.left :=
    (if_neg (show ¬ ((cfg15 a).win (0 : Fin 3)).isOut = true from (by decide : ¬ (spec15 0).isOut = true))).trans hq0
  have s1 : dat.share (1 : Fin 3) = fullShare.right :=
    (if_neg (show ¬ ((cfg15 a).win (1 : Fin 3)).isOut = true from (by decide : ¬ (spec15 1).isOut = true))).trans hq1
  have s2 : dat.share (2 : Fin 3) = fullShare :=
    if_pos (show ((cfg15 a).win (2 : Fin 3)).isOut = true from (by decide : (spec15 2).isOut = true))
  unfold Pipeline.Dat.arrays
  rw [bigSep_W15, s0, s1, s2]
  exact congrArg₂ BI.sep (pt_whole c ((cfg15 a).win (0 : Fin 3)).arr (arr_whole15 0) _ (Fv 0))
    (congrArg₂ BI.sep (pt_whole c ((cfg15 a).win (1 : Fin 3)).arr (arr_whole15 1) _ (Fv 1))
      (pt_whole c ((cfg15 a).win (2 : Fin 3)).arr (arr_whole15 2) _ (Fv 2)))

/-- The core's unscoped buffers are the two buffers behind the arrays, and the rest. -/
theorem unscopedBufs_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec15 c V ∗ Pipeline.unscopedRest spec15 c V) := by
  classical
  have hA : Finset.univ.image (Pipeline.arrRef spec15) ⊆ Finset.univ.filter fun b : Ref sig .tc => ¬ b.isScoped := fun b hb => by
    obtain ⟨w, -, rfl⟩ := Finset.mem_image.mp hb
    exact Finset.mem_filter.mpr ⟨Finset.mem_univ _, by simp [winFacts₀15.arr_unscoped w]⟩
  unfold unscopedBufs Pipeline.unscopedRest Pipeline.arrBufs
  rw [bigSep_sdiff_split hA]
  rfl

/-- The rest reads a valuation only off the arrays: two valuations that agree off the output array give one rest. -/
theorem unscopedRest_congr (V V' : (b : Ref sig .tc) → Buf (Elt F) ((c : Thread nD τ).loc b)) (h : ∀ b, b ≠ main_v116 → V' b = V b) :
    (Pipeline.unscopedRest (Ix := Unit) (Name := ℕ) (U := UR sig nD τ) (Lvl := ℕ) spec15 c V' : sProp 𝕄)
      = Pipeline.unscopedRest spec15 c V := by
  unfold Pipeline.unscopedRest
  exact bigSep_congr fun b hb => by
    have hb' : b ≠ main_v116 := fun e => (Finset.mem_sdiff.mp hb).2 (by rw [e, arr_image]; decide)
    rw [h b hb']

/-- ENTRY. The core's unscoped buffers at a valuation `W` from which the proof data's entry contents are read are the
    pipeline's arrays at those contents — the input array's full share dealt left and right to its two windows —, the
    prefetched tables held whole, and the rest. -/
theorem entry (hq0 : dat.q 0 = fullShare.left) (hq1 : dat.q 1 = fullShare.right) (W : Valuation τ sig (Elt F))
    (hA : ∀ w, dat.A w = W (Pipeline.arrRef spec15 w)) :
    StableHlo.held (c : Thread nD τ) (Pipeline.ucRefs τ sig) W
      ⊢ (iprop(dat.arrays (dat.arrAt · 0) ∗ Pipeline.prefHeld pre15 c (fun _ => fullShare) (fun k => W (pre15.ref k))
          ∗ Pipeline.unscopedRestP pre15 spec15 c (fun b => W b)) : sProp 𝕄) := by
  rw [← Pipeline.unscopedBufs_held (Ix := Unit) (Name := ℕ) (U := UR sig nD τ) (Lvl := ℕ) c W,
    unscopedBufs_split, arrBufs_eq, Pipeline.unscopedRest_split preFacts15, arrays_eq a c dat hq0 hq1]
  refine sep_mono ?_ .rfl
  have p0 : (((c : Thread nD τ).loc main_v6) ↦{fullShare.left} W main_v6 : sProp 𝕄)
      = (((c : Thread nD τ).loc main_v6) ↦{fullShare.left} dat.arrAt 0 0) :=
    congrArg (fun f => (((c : Thread nD τ).loc main_v6) ↦{fullShare.left} f : sProp 𝕄)) (hA 0).symm
  have p1 : (((c : Thread nD τ).loc main_v6) ↦{fullShare.right} W main_v6 : sProp 𝕄)
      = (((c : Thread nD τ).loc main_v6) ↦{fullShare.right} dat.arrAt 1 0) :=
    congrArg (fun f => (((c : Thread nD τ).loc main_v6) ↦{fullShare.right} f : sProp 𝕄)) (hA 1).symm
  have p2 : (((c : Thread nD τ).loc main_v116) ↦{fullShare} W main_v116 : sProp 𝕄)
      = (((c : Thread nD τ).loc main_v116) ↦{fullShare} dat.arrAt 2 0) :=
    congrArg (fun f => (((c : Thread nD τ).loc main_v116) ↦{fullShare} f : sProp 𝕄)) (hA 2).symm
  exact ((sep_mono (pointsTo_share (PosShare.mem_left_op_right fullShare)).1 .rfl).trans sep_assoc.1).trans
    (Entails.of_eq (congrArg₂ BI.sep p0 (congrArg₂ BI.sep p1 p2)))

/-- EXIT. The pipeline's arrays as the region leaves them — the two halves of the input array, never written, and the
    output array —, the tables and the rest are the core's unscoped buffers at any valuation `W'` that has the output
    array at what the region left and agrees with `W` elsewhere. -/
theorem exit (hq0 : dat.q 0 = fullShare.left) (hq1 : dat.q 1 = fullShare.right) (W : Valuation τ sig (Elt F))
    (hA : ∀ w, dat.A w = W (Pipeline.arrRef spec15 w)) (W' : Valuation τ sig (Elt F))
    (hout : W' main_v116 = dat.arrAt 2 (cfg15 a).N) (hne : ∀ b : Ref sig .tc, b ≠ main_v116 → W' b = W b) :
    (iprop(dat.arrays (dat.arrAt · (cfg15 a).N) ∗ Pipeline.prefHeld pre15 c (fun _ => fullShare) (fun k => W (pre15.ref k))
        ∗ Pipeline.unscopedRestP pre15 spec15 c (fun b => W b)) : sProp 𝕄)
      ⊢ StableHlo.held (c : Thread nD τ) (Pipeline.ucRefs τ sig) W' := by
  rw [← Pipeline.unscopedBufs_held (Ix := Unit) (Name := ℕ) (U := UR sig nD τ) (Lvl := ℕ) c W',
    unscopedBufs_split, arrBufs_eq, unscopedRest_congr c (fun b => W b) (fun b => W' b) hne,
    Pipeline.unscopedRest_split preFacts15, arrays_eq a c dat hq0 hq1]
  refine sep_mono ?_ .rfl
  have h0 : dat.arrAt 0 (cfg15 a).N = W' main_v6 :=
    ((dat.arrAt_in 0 (by decide : (spec15 0).isOut = false) _).trans (hA 0)).trans (hne main_v6 (by decide)).symm
  have h1 : dat.arrAt 1 (cfg15 a).N = W' main_v6 :=
    ((dat.arrAt_in 1 (by decide : (spec15 1).isOut = false) _).trans (hA 1)).trans (hne main_v6 (by decide)).symm
  have p0 : (((c : Thread nD τ).loc main_v6) ↦{fullShare.left} dat.arrAt 0 (cfg15 a).N : sProp 𝕄)
      = (((c : Thread nD τ).loc main_v6) ↦{fullShare.left} W' main_v6) :=
    congrArg (fun f => (((c : Thread nD τ).loc main_v6) ↦{fullShare.left} f : sProp 𝕄)) h0
  have p1 : (((c : Thread nD τ).loc main_v6) ↦{fullShare.right} dat.arrAt 1 (cfg15 a).N : sProp 𝕄)
      = (((c : Thread nD τ).loc main_v6) ↦{fullShare.right} W' main_v6) :=
    congrArg (fun f => (((c : Thread nD τ).loc main_v6) ↦{fullShare.right} f : sProp 𝕄)) h1
  have p2 : (((c : Thread nD τ).loc main_v116) ↦{fullShare} dat.arrAt 2 (cfg15 a).N : sProp 𝕄)
      = (((c : Thread nD τ).loc main_v116) ↦{fullShare} W' main_v116) :=
    congrArg (fun f => (((c : Thread nD τ).loc main_v116) ↦{fullShare} f : sProp 𝕄)) hout.symm
  exact (Entails.of_eq (congrArg₂ BI.sep p0 (congrArg₂ BI.sep p1 p2))).trans
    (sep_assoc.2.trans (sep_mono (pointsTo_share (PosShare.mem_left_op_right fullShare)).2 .rfl))

end Cert.KernelIdeal.Gate15

end
-- ==== Proof.KI.Reg15.lean ====
import proofs.«418705_j10376640987952_2_alg».proof.Proof.KI.PDats
import proofs.«418705_j10376640987952_2_alg».proof.Proof.KI.Gate15

/-!
Pallas_call 15 as a region of the whole program.

Entered with every unscoped buffer held at the contents the chain leaves before it (beside the core owing nothing),
the region takes out its three windows' arrays — the feature table once for each of the two input windows, at half
shares, and its one-word result array —, its two tables, and lets the rest of the unscoped buffers pass by; the
tables and the scoped buffers make the invariant at the first point; the invariant at the last point gives them
back (the scratch at whatever the last point left); and the arrays at their final contents, the tables and the rest
make the buffers held at the contents the chain has after the call: the same but for the result array, which holds
what the last point wrote.
-/

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

/-- The call's proof data, spelled out. -/
abbrev dat15 (c : Dev nD) := Chunk15.dat (Tables.adm15 m hr) (fun c b => Chain.W31 m (leaves m hr) c b) c

/-- The tables' contents under the entry valuation are the admissible contents. -/
theorem tbl_entry15 (c : Dev nD) :
    (fun k => Chain.W31 m (leaves m hr) c (pre15.ref k)) = (Tables.adm15 m hr).1 :=
  funext fun k => Chain.W_tbl15 m (leaves m hr) c k

/-- The chain's contents of the result array after the call are the proof data's final array. -/
theorem out_entry15 (c : Dev nD) :
    Chain.W32 m (leaves m hr) c main_v116 = (dat15 m hr c).arrAt 2 (cfg15 (Tables.adm15 m hr)).N := by
  rw [Chain.W_out_15]
  dsimp only [leaves, leave15, dat15]

-- `iapply` of a library lemma stated over `pin pcs a p` unifies with the pinned configuration only when unification may
-- unfold plain definitions in a metavariable's type
set_option backward.isDefEq.respectTransparency.types false in
set_option maxHeartbeats 1600000 in
def reg15 : RegionSeg (pcfgs (F := F)) (adm m hr) (pdats m hr) () defs₀ Variants.none L₀ lv₀ 15 where
  win := winFacts₀15
  block_pos := block_pos15
  stage_whole := stage_whole15
  K := PEmpty
  osem k := k.elim
  ho := Pipeline.OwnSemFacts.none _
  hbody c := (Chunk15.body_obligation (Tables.adm15 m hr) (fun c b => Chain.W31 m (leaves m hr) c b) c).loose
  hwaits := Pipeline.hwaits_of_owed_zero _ _ _ _ L₀ lv₀ 15 fun _ _ => rfl
  pre c := iprop(StableHlo.held (c : Thread nD τ) (Pipeline.ucRefs τ sig) (Chain.W31 m (leaves m hr) c) ∗ E c)
  post c := iprop(StableHlo.held (c : Thread nD τ) (Pipeline.ucRefs τ sig) (Chain.W32 m (leaves m hr) c) ∗ E c)
  X _ := BI.emp
  Y c := Chunk15.tblsHeld (Tables.adm15 m hr) c
  Z c := Pipeline.unscopedRestP (Ix := Unit) (Name := ℕ) (U := UR sig nD τ) (Lvl := ℕ) pre15 spec15 c (fun b => Chain.W31 m (leaves m hr) c b)
  hentry c := by
    rw [Pipeline.ownSems0_none]
    have hent := Gate15.entry (Tables.adm15 m hr) c (dat15 m hr c) rfl rfl (Chain.W31 m (leaves m hr) c) (fun _ => rfl)
    rw [tbl_entry15 m hr c] at hent
    iintro ⟨⟨Hh, HO⟩, -, -⟩
    ihave H := hent $$ Hh
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m hr 15 c).Φ 0 = iprop(Chunk15.tblsHeld (Tables.adm15 m hr) c
      ∗ Pipeline.scopedRest (Ix := Unit) (Name := ℕ) (U := UR sig nD τ) (Lvl := ℕ) (Val := Elt F) spec15 c) from rfl]
    iintro ⟨-, Hp, Hr⟩
    isplitl [Hp]; · iexact Hp
    iexact Hr
  hout c := by
    rw [Pipeline.ownSems0_none,
      show (pdats m hr 15 c).Φ (Fin.last _) = Chunk15.PhiS (Tables.adm15 m hr) (fun c b => Chain.W31 m (leaves m hr) c b) c
        (cfg15 (Tables.adm15 m hr)).N (le_refl _) from rfl,
      Chunk15.PhiS_pos _ _ c _ _ (by rw [Chunk15.N_eq]; decide),
      show (Pipeline.pin (pcfgs (F := F)) (adm m hr) 15).spec = spec15 from rfl, scopedRest15_split]
    iintro ⟨Hp, Hs, Hr⟩
    isplitl [Hp]; · iexact Hp
    isplitr; · iempintro
    isplitl [Hs]
    · iexists _; rw [← owns_whole]; iexact Hs
    iexact Hr
  hexit c := by
    have hex := Gate15.exit (Tables.adm15 m hr) c (dat15 m hr c) rfl rfl (Chain.W31 m (leaves m hr) c) (fun _ => rfl)
      (Chain.W32 m (leaves m hr) c) (out_entry15 m hr c) (Chain.W_keep_15 m (leaves m hr) c)
    rw [tbl_entry15 m hr c] at hex
    iintro ⟨Ha, HO, Hp, Hz⟩
    imodintro
    isplitl [Ha Hp Hz]
    · iapply hex
      isplitl [Ha]; · iexact Ha
      isplitl [Hp]; · iexact Hp
      iexact Hz
    unfold Pipeline.Dat.owesAt Pipeline.owesWithin
    icases HO with ⟨%W, -, HO⟩; iexists W; iexact HO

end Cert.KernelIdeal.Whole

end
-- ==== Proof.KI.WholeRun.lean ====
import proofs.«418705_j10376640987952_2_alg».proof.Proof.KI.FrameCond
import proofs.«418705_j10376640987952_2_alg».proof.Proof.KI.Reg00
import proofs.«418705_j10376640987952_2_alg».proof.Proof.KI.Reg01
import proofs.«418705_j10376640987952_2_alg».proof.Proof.KI.Reg02
import proofs.«418705_j10376640987952_2_alg».proof.Proof.KI.Reg03
import proofs.«418705_j10376640987952_2_alg».proof.Proof.KI.Reg04
import proofs.«418705_j10376640987952_2_alg».proof.Proof.KI.Reg05
import proofs.«418705_j10376640987952_2_alg».proof.Proof.KI.Reg06
import proofs.«418705_j10376640987952_2_alg».proof.Proof.KI.Reg07
import proofs.«418705_j10376640987952_2_alg».proof.Proof.KI.Reg08
import proofs.«418705_j10376640987952_2_alg».proof.Proof.KI.Reg09
import proofs.«418705_j10376640987952_2_alg».proof.Proof.KI.Reg10
import proofs.«418705_j10376640987952_2_alg».proof.Proof.KI.Reg11
import proofs.«418705_j10376640987952_2_alg».proof.Proof.KI.Reg12
import proofs.«418705_j10376640987952_2_alg».proof.Proof.KI.Reg13
import proofs.«418705_j10376640987952_2_alg».proof.Proof.KI.Reg14
import proofs.«418705_j10376640987952_2_alg».proof.Proof.KI.Reg15

/-!
The whole program's run: every weakly fair execution from a memory whose edge list names nodes only terminates,
nothing faulting; the two arguments end as launched, and the result buffer holds what the last host stretch
computes from the sixteen calls' results — the patched conditional frame applied to the sixteen region records,
with the contents between items those of the chain.
-/

set_option maxRecDepth 1400

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hr : ∀ i, (Tables.edges m i).toNat < 50000)

set_option backward.isDefEq.respectTransparency.types false in
set_option maxHeartbeats 4000000 in
theorem run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v120) = V33 m (Chain.outs m (leaves m hr)) c main_v120) :=
  frame_cond (F := F) m (emb₁ : Emb (URounds (GSem nD τ sig) Unit) 𝕄) () Variants.none L₀ lv₀ (fun _ _ => rfl) ρ
    (Chain.outs m (leaves m hr)) (adm m hr) (pdats m hr) 0 (fun _ => iprop(emp))
    (initOf (Pipeline.cells (Pipeline.pin (pcfgs (F := F)) (adm m hr)) (cellOf_inj (adm m hr)))
      (Pipeline.launchToks (Pipeline.pin (pcfgs (F := F)) (adm m hr)) (cellOf_inj (adm m hr))))
    (by
      iintro Hu; imodintro
      isplitl [Hu]
      · iapply (show (ownU (initOf (Pipeline.cells (Pipeline.pin (pcfgs (F := F)) (adm m hr)) (cellOf_inj (adm m hr)))
            (Pipeline.launchToks (Pipeline.pin (pcfgs (F := F)) (adm m hr)) (cellOf_inj (adm m hr)))) : sProp 𝕄)
          ⊢ BI.own ((emb₁ : Emb (URounds (GSem nD τ sig) Unit) 𝕄) (initOf (Pipeline.cells (Pipeline.pin (pcfgs (F := F)) (adm m hr)) (cellOf_inj (adm m hr)))
            (Pipeline.launchToks (Pipeline.pin (pcfgs (F := F)) (adm m hr)) (cellOf_inj (adm m hr))))) from .rfl)
        iexact Hu
      iapply (show (BI.emp : sProp 𝕄) ⊢ bigSep Finset.univ (fun _ : Dev nD => (BI.emp : sProp 𝕄)) from by rw [BI.bigSep_emp_const])
      iempintro)
    (fun _ => E)
    (by
      refine Pipeline.initEach L₀ lv₀ fun c => ?_
      iintro ⟨⟨-, HO, -, -, -⟩, -⟩
      imodintro
      iexists ∅; iexact HO)
    (fun c => .rfl)
    (reg0 m hr) (fun c => by rw [Chain.V1_eq m (leaves m hr) c]; exact .rfl) (fun c => by rw [Chain.V2_eq m (leaves m hr) c]; exact .rfl)
    (reg1 m hr) (fun c => by rw [Chain.V3_eq m (leaves m hr) c]; exact .rfl) (fun c => by rw [Chain.V4_eq m (leaves m hr) c]; exact .rfl)
    (reg2 m hr) (fun c => by rw [Chain.V5_eq m (leaves m hr) c]; exact .rfl) (fun c => by rw [Chain.V6_eq m (leaves m hr) c]; exact .rfl)
    (reg3 m hr) (fun c => by rw [Chain.V7_eq m (leaves m hr) c]; exact .rfl) (fun c => by rw [Chain.V8_eq m (leaves m hr) c]; exact .rfl)
    (reg4 m hr) (fun c => by rw [Chain.V9_eq m (leaves m hr) c]; exact .rfl) (fun c => by rw [Chain.V10_eq m (leaves m hr) c]; exact .rfl)
    (reg5 m hr) (fun c => by rw [Chain.V11_eq m (leaves m hr) c]; exact .rfl) (fun c => by rw [Chain.V12_eq m (leaves m hr) c]; exact .rfl)
    (reg6 m hr) (fun c => by rw [Chain.V13_eq m (leaves m hr) c]; exact .rfl) (fun c => by rw [Chain.V14_eq m (leaves m hr) c]; exact .rfl)
    (reg7 m hr) (fun c => by rw [Chain.V15_eq m (leaves m hr) c]; exact .rfl) (fun c => by rw [Chain.V16_eq m (leaves m hr) c]; exact .rfl)
    (reg8 m hr) (fun c => by rw [Chain.V17_eq m (leaves m hr) c]; exact .rfl) (fun c => by rw [Chain.V18_eq m (leaves m hr) c]; exact .rfl)
    (reg9 m hr) (fun c => by rw [Chain.V19_eq m (leaves m hr) c]; exact .rfl) (fun c => by rw [Chain.V20_eq m (leaves m hr) c]; exact .rfl)
    (reg10 m hr) (fun c => by rw [Chain.V21_eq m (leaves m hr) c]; exact .rfl) (fun c => by rw [Chain.V22_eq m (leaves m hr) c]; exact .rfl)
    (reg11 m hr) (fun c => by rw [Chain.V23_eq m (leaves m hr) c]; exact .rfl) (fun c => by rw [Chain.V24_eq m (leaves m hr) c]; exact .rfl)
    (reg12 m hr) (fun c => by rw [Chain.V25_eq m (leaves m hr) c]; exact .rfl) (fun c => by rw [Chain.V26_eq m (leaves m hr) c]; exact .rfl)
    (reg13 m hr) (fun c => by rw [Chain.V27_eq m (leaves m hr) c]; exact .rfl) (fun c => by rw [Chain.V28_eq m (leaves m hr) c]; exact .rfl)
    (reg14 m hr) (fun c => by rw [Chain.V29_eq m (leaves m hr) c]; exact .rfl) (fun c => by rw [Chain.V30_eq m (leaves m hr) c]; exact .rfl)
    (reg15 m hr) (fun c => by rw [Chain.V31_eq m (leaves m hr) c]; exact .rfl) (fun c => by rw [Chain.V32_eq m (leaves m hr) c]; exact .rfl)

end Cert.KernelIdeal.Whole

end
-- ==== Proof.KI.Tail.lean ====
import proofs.«418705_j10376640987952_2_alg».proof.Proof.KI.FrameCond
import proofs.«418705_j10376640987952_2_alg».proof.Proof.Spec
import Idealize.ShloMosaic.Lib.ValueIdx
import Idealize.ShloMosaic.Lib.Pipeline.Value

/-!
  The host operations between and after the sixteen kernel regions, read at the ideal values.

  Region K (K = 0 … 15) leaves a [1, 1] array holding one extended real, S K. After each region the host casts that
  array to a scalar and adds it to a running sum that starts at the constant 0.0; after the last region it divides the
  sum by 800000 and multiplies 1.0 by the quotient. So the program's result is
      finish ((((0 + S 0) + S 1) + …) + S 15),
  the additions associated to the left, in program order, `finish` the specification's last two operations.
-/

set_option maxRecDepth 1400

noncomputable section

namespace Cert.KernelIdeal.Tail

open Cert.KernelIdeal Cert.KernelIdeal.Gen Cert.KernelIdeal.GenP
open Idealize.ShloMosaic Idealize.ShloMosaic.TcCoe Idealize.SL.Sem

/-- A [1, 1] array cast to a scalar reads, at the scalar's one index, the array's one entry: both row-major
    positions are below 1. -/
theorem scalar_of_1x1 {α : Type} (y : S1x1.Idx → α) (h : S1x1.ShapeCasts S_) (i : S_.Idx) :
    shapeCast S_ y h i = y (ValueIdx.ix2 (0 : Fin 1) (0 : Fin 1)) :=
  shapeCast_apply y h i (ValueIdx.ix2 (0 : Fin 1) (0 : Fin 1)) (by
    have h1 : (S1x1.rowMajor (ValueIdx.ix2 (0 : Fin 1) (0 : Fin 1))).val < 1 :=
      (S1x1.rowMajor (ValueIdx.ix2 (0 : Fin 1) (0 : Fin 1))).isLt
    have h2 : (S_.rowMajor i).val < 1 := (S_.rowMajor i).isLt
    omega)

variable (m : (ℓ : Loc nD τ sig) → Buf (Elt Ideal) ℓ) (outs : Outs (F := Ideal)) (c : Dev nD)

/-- The one entry of the [1, 1] array region K leaves. -/
def S : Fin 16 → EReal
  | ⟨0, _⟩ => (outs 2 main_v11 c) (ValueIdx.ix2 (0 : Fin 1) (0 : Fin 1))
  | ⟨1, _⟩ => (outs 4 main_v18 c) (ValueIdx.ix2 (0 : Fin 1) (0 : Fin 1))
  | ⟨2, _⟩ => (outs 6 main_v25 c) (ValueIdx.ix2 (0 : Fin 1) (0 : Fin 1))
  | ⟨3, _⟩ => (outs 8 main_v32 c) (ValueIdx.ix2 (0 : Fin 1) (0 : Fin 1))
  | ⟨4, _⟩ => (outs 10 main_v39 c) (ValueIdx.ix2 (0 : Fin 1) (0 : Fin 1))
  | ⟨5, _⟩ => (outs 12 main_v46 c) (ValueIdx.ix2 (0 : Fin 1) (0 : Fin 1))
  | ⟨6, _⟩ => (outs 14 main_v53 c) (ValueIdx.ix2 (0 : Fin 1) (0 : Fin 1))
  | ⟨7, _⟩ => (outs 16 main_v60 c) (ValueIdx.ix2 (0 : Fin 1) (0 : Fin 1))
  | ⟨8, _⟩ => (outs 18 main_v67 c) (ValueIdx.ix2 (0 : Fin 1) (0 : Fin 1))
  | ⟨9, _⟩ => (outs 20 main_v74 c) (ValueIdx.ix2 (0 : Fin 1) (0 : Fin 1))
  | ⟨10, _⟩ => (outs 22 main_v81 c) (ValueIdx.ix2 (0 : Fin 1) (0 : Fin 1))
  | ⟨11, _⟩ => (outs 24 main_v88 c) (ValueIdx.ix2 (0 : Fin 1) (0 : Fin 1))
  | ⟨12, _⟩ => (outs 26 main_v95 c) (ValueIdx.ix2 (0 : Fin 1) (0 : Fin 1))
  | ⟨13, _⟩ => (outs 28 main_v102 c) (ValueIdx.ix2 (0 : Fin 1) (0 : Fin 1))
  | ⟨14, _⟩ => (outs 30 main_v109 c) (ValueIdx.ix2 (0 : Fin 1) (0 : Fin 1))
  | ⟨15, _⟩ => (outs 32 main_v116 c) (ValueIdx.ix2 (0 : Fin 1) (0 : Fin 1))
  | ⟨_ + 16, h⟩ => absurd h (by omega)

/-- After the first region: the running sum is 0 + S 0 (the constant 0.0 is the extended real 0). -/
theorem acc0 : V3 m outs c main_v13 = fun _ => (0 : EReal) + S outs c 0 := by
  have e2 : V2 m outs c (Proc.devRef .tc main_v11) = outs 2 main_v11 c := Function.update_self ..
  show StableHlo.after hostOps1 (V2 m outs c) (Proc.devRef .tc main_v13) = _
  after_results
  rw [e2]
  funext i
  show Ideal.ofBits .f32 0x00000000#32 + shapeCast S_ (outs 2 main_v11 c) shapeCasts_S1x1_S_ i = _
  rw [Ideal.ofBits_zero_f32]
  exact congrArg (fun v => (0 : EReal) + v) (scalar_of_1x1 (outs 2 main_v11 c) shapeCasts_S1x1_S_ i)

/-- After region 1: the running sum gains S 1. The earlier sum is carried across the region (which writes only its own
    output array) and read by the stretch's addition. -/
theorem acc1 (t : EReal) (h : V3 m outs c main_v13 = fun _ => t) :
    V5 m outs c main_v20 = fun _ => t + S outs c 1 := by
  have e1 : V4 m outs c (Proc.devRef .tc main_v13) = fun _ => t := (V4_of m outs c main_v13 (by decide)).trans h
  have e2 : V4 m outs c (Proc.devRef .tc main_v18) = outs 4 main_v18 c := Function.update_self ..
  show StableHlo.after hostOps2 (V4 m outs c) (Proc.devRef .tc main_v20) = _
  after_results
  rw [e1, e2]
  funext i
  exact congrArg (fun v => t + v) (scalar_of_1x1 (outs 4 main_v18 c) shapeCasts_S1x1_S_ i)

/-- After region 2: the running sum gains S 2. The earlier sum is carried across the region (which writes only its own
    output array) and read by the stretch's addition. -/
theorem acc2 (t : EReal) (h : V5 m outs c main_v20 = fun _ => t) :
    V7 m outs c main_v27 = fun _ => t + S outs c 2 := by
  have e1 : V6 m outs c (Proc.devRef .tc main_v20) = fun _ => t := (V6_of m outs c main_v20 (by decide)).trans h
  have e2 : V6 m outs c (Proc.devRef .tc main_v25) = outs 6 main_v25 c := Function.update_self ..
  show StableHlo.after hostOps3 (V6 m outs c) (Proc.devRef .tc main_v27) = _
  after_results
  rw [e1, e2]
  funext i
  exact congrArg (fun v => t + v) (scalar_of_1x1 (outs 6 main_v25 c) shapeCasts_S1x1_S_ i)

/-- After region 3: the running sum gains S 3. The earlier sum is carried across the region (which writes only its own
    output array) and read by the stretch's addition. -/
theorem acc3 (t : EReal) (h : V7 m outs c main_v27 = fun _ => t) :
    V9 m outs c main_v34 = fun _ => t + S outs c 3 := by
  have e1 : V8 m outs c (Proc.devRef .tc main_v27) = fun _ => t := (V8_of m outs c main_v27 (by decide)).trans h
  have e2 : V8 m outs c (Proc.devRef .tc main_v32) = outs 8 main_v32 c := Function.update_self ..
  show StableHlo.after hostOps4 (V8 m outs c) (Proc.devRef .tc main_v34) = _
  after_results
  rw [e1, e2]
  funext i
  exact congrArg (fun v => t + v) (scalar_of_1x1 (outs 8 main_v32 c) shapeCasts_S1x1_S_ i)

/-- After region 4: the running sum gains S 4. The earlier sum is carried across the region (which writes only its own
    output array) and read by the stretch's addition. -/
theorem acc4 (t : EReal) (h : V9 m outs c main_v34 = fun _ => t) :
    V11 m outs c main_v41 = fun _ => t + S outs c 4 := by
  have e1 : V10 m outs c (Proc.devRef .tc main_v34) = fun _ => t := (V10_of m outs c main_v34 (by decide)).trans h
  have e2 : V10 m outs c (Proc.devRef .tc main_v39) = outs 10 main_v39 c := Function.update_self ..
  show StableHlo.after hostOps5 (V10 m outs c) (Proc.devRef .tc main_v41) = _
  after_results
  rw [e1, e2]
  funext i
  exact congrArg (fun v => t + v) (scalar_of_1x1 (outs 10 main_v39 c) shapeCasts_S1x1_S_ i)

/-- After region 5: the running sum gains S 5. The earlier sum is carried across the region (which writes only its own
    output array) and read by the stretch's addition. -/
theorem acc5 (t : EReal) (h : V11 m outs c main_v41 = fun _ => t) :
    V13 m outs c main_v48 = fun _ => t + S outs c 5 := by
  have e1 : V12 m outs c (Proc.devRef .tc main_v41) = fun _ => t := (V12_of m outs c main_v41 (by decide)).trans h
  have e2 : V12 m outs c (Proc.devRef .tc main_v46) = outs 12 main_v46 c := Function.update_self ..
  show StableHlo.after hostOps6 (V12 m outs c) (Proc.devRef .tc main_v48) = _
  after_results
  rw [e1, e2]
  funext i
  exact congrArg (fun v => t + v) (scalar_of_1x1 (outs 12 main_v46 c) shapeCasts_S1x1_S_ i)

/-- After region 6: the running sum gains S 6. The earlier sum is carried across the region (which writes only its own
    output array) and read by the stretch's addition. -/
theorem acc6 (t : EReal) (h : V13 m outs c main_v48 = fun _ => t) :
    V15 m outs c main_v55 = fun _ => t + S outs c 6 := by
  have e1 : V14 m outs c (Proc.devRef .tc main_v48) = fun _ => t := (V14_of m outs c main_v48 (by decide)).trans h
  have e2 : V14 m outs c (Proc.devRef .tc main_v53) = outs 14 main_v53 c := Function.update_self ..
  show StableHlo.after hostOps7 (V14 m outs c) (Proc.devRef .tc main_v55) = _
  after_results
  rw [e1, e2]
  funext i
  exact congrArg (fun v => t + v) (scalar_of_1x1 (outs 14 main_v53 c) shapeCasts_S1x1_S_ i)

/-- After region 7: the running sum gains S 7. The earlier sum is carried across the region (which writes only its own
    output array) and read by the stretch's addition. -/
theorem acc7 (t : EReal) (h : V15 m outs c main_v55 = fun _ => t) :
    V17 m outs c main_v62 = fun _ => t + S outs c 7 := by
  have e1 : V16 m outs c (Proc.devRef .tc main_v55) = fun _ => t := (V16_of m outs c main_v55 (by decide)).trans h
  have e2 : V16 m outs c (Proc.devRef .tc main_v60) = outs 16 main_v60 c := Function.update_self ..
  show StableHlo.after hostOps8 (V16 m outs c) (Proc.devRef .tc main_v62) = _
  after_results
  rw [e1, e2]
  funext i
  exact congrArg (fun v => t + v) (scalar_of_1x1 (outs 16 main_v60 c) shapeCasts_S1x1_S_ i)

/-- After region 8: the running sum gains S 8. The earlier sum is carried across the region (which writes only its own
    output array) and read by the stretch's addition. -/
theorem acc8 (t : EReal) (h : V17 m outs c main_v62 = fun _ => t) :
    V19 m outs c main_v69 = fun _ => t + S outs c 8 := by
  have e1 : V18 m outs c (Proc.devRef .tc main_v62) = fun _ => t := (V18_of m outs c main_v62 (by decide)).trans h
  have e2 : V18 m outs c (Proc.devRef .tc main_v67) = outs 18 main_v67 c := Function.update_self ..
  show StableHlo.after hostOps9 (V18 m outs c) (Proc.devRef .tc main_v69) = _
  after_results
  rw [e1, e2]
  funext i
  exact congrArg (fun v => t + v) (scalar_of_1x1 (outs 18 main_v67 c) shapeCasts_S1x1_S_ i)

/-- After region 9: the running sum gains S 9. The earlier sum is carried across the region (which writes only its own
    output array) and read by the stretch's addition. -/
theorem acc9 (t : EReal) (h : V19 m outs c main_v69 = fun _ => t) :
    V21 m outs c main_v76 = fun _ => t + S outs c 9 := by
  have e1 : V20 m outs c (Proc.devRef .tc main_v69) = fun _ => t := (V20_of m outs c main_v69 (by decide)).trans h
  have e2 : V20 m outs c (Proc.devRef .tc main_v74) = outs 20 main_v74 c := Function.update_self ..
  show StableHlo.after hostOps10 (V20 m outs c) (Proc.devRef .tc main_v76) = _
  after_results
  rw [e1, e2]
  funext i
  exact congrArg (fun v => t + v) (scalar_of_1x1 (outs 20 main_v74 c) shapeCasts_S1x1_S_ i)

/-- After region 10: the running sum gains S 10. The earlier sum is carried across the region (which writes only its own
    output array) and read by the stretch's addition. -/
theorem acc10 (t : EReal) (h : V21 m outs c main_v76 = fun _ => t) :
    V23 m outs c main_v83 = fun _ => t + S outs c 10 := by
  have e1 : V22 m outs c (Proc.devRef .tc main_v76) = fun _ => t := (V22_of m outs c main_v76 (by decide)).trans h
  have e2 : V22 m outs c (Proc.devRef .tc main_v81) = outs 22 main_v81 c := Function.update_self ..
  show StableHlo.after hostOps11 (V22 m outs c) (Proc.devRef .tc main_v83) = _
  after_results
  rw [e1, e2]
  funext i
  exact congrArg (fun v => t + v) (scalar_of_1x1 (outs 22 main_v81 c) shapeCasts_S1x1_S_ i)

/-- After region 11: the running sum gains S 11. The earlier sum is carried across the region (which writes only its own
    output array) and read by the stretch's addition. -/
theorem acc11 (t : EReal) (h : V23 m outs c main_v83 = fun _ => t) :
    V25 m outs c main_v90 = fun _ => t + S outs c 11 := by
  have e1 : V24 m outs c (Proc.devRef .tc main_v83) = fun _ => t := (V24_of m outs c main_v83 (by decide)).trans h
  have e2 : V24 m outs c (Proc.devRef .tc main_v88) = outs 24 main_v88 c := Function.update_self ..
  show StableHlo.after hostOps12 (V24 m outs c) (Proc.devRef .tc main_v90) = _
  after_results
  rw [e1, e2]
  funext i
  exact congrArg (fun v => t + v) (scalar_of_1x1 (outs 24 main_v88 c) shapeCasts_S1x1_S_ i)

/-- After region 12: the running sum gains S 12. The earlier sum is carried across the region (which writes only its own
    output array) and read by the stretch's addition. -/
theorem acc12 (t : EReal) (h : V25 m outs c main_v90 = fun _ => t) :
    V27 m outs c main_v97 = fun _ => t + S outs c 12 := by
  have e1 : V26 m outs c (Proc.devRef .tc main_v90) = fun _ => t := (V26_of m outs c main_v90 (by decide)).trans h
  have e2 : V26 m outs c (Proc.devRef .tc main_v95) = outs 26 main_v95 c := Function.update_self ..
  show StableHlo.after hostOps13 (V26 m outs c) (Proc.devRef .tc main_v97) = _
  after_results
  rw [e1, e2]
  funext i
  exact congrArg (fun v => t + v) (scalar_of_1x1 (outs 26 main_v95 c) shapeCasts_S1x1_S_ i)

/-- After region 13: the running sum gains S 13. The earlier sum is carried across the region (which writes only its own
    output array) and read by the stretch's addition. -/
theorem acc13 (t : EReal) (h : V27 m outs c main_v97 = fun _ => t) :
    V29 m outs c main_v104 = fun _ => t + S outs c 13 := by
  have e1 : V28 m outs c (Proc.devRef .tc main_v97) = fun _ => t := (V28_of m outs c main_v97 (by decide)).trans h
  have e2 : V28 m outs c (Proc.devRef .tc main_v102) = outs 28 main_v102 c := Function.update_self ..
  show StableHlo.after hostOps14 (V28 m outs c) (Proc.devRef .tc main_v104) = _
  after_results
  rw [e1, e2]
  funext i
  exact congrArg (fun v => t + v) (scalar_of_1x1 (outs 28 main_v102 c) shapeCasts_S1x1_S_ i)

/-- After region 14: the running sum gains S 14. The earlier sum is carried across the region (which writes only its own
    output array) and read by the stretch's addition. -/
theorem acc14 (t : EReal) (h : V29 m outs c main_v104 = fun _ => t) :
    V31 m outs c main_v111 = fun _ => t + S outs c 14 := by
  have e1 : V30 m outs c (Proc.devRef .tc main_v104) = fun _ => t := (V30_of m outs c main_v104 (by decide)).trans h
  have e2 : V30 m outs c (Proc.devRef .tc main_v109) = outs 30 main_v109 c := Function.update_self ..
  show StableHlo.after hostOps15 (V30 m outs c) (Proc.devRef .tc main_v111) = _
  after_results
  rw [e1, e2]
  funext i
  exact congrArg (fun v => t + v) (scalar_of_1x1 (outs 30 main_v109 c) shapeCasts_S1x1_S_ i)

/-- After region 15: the sum gains S 15, and the last two operations are the specification's `finish`. -/
theorem result_of_acc (t : EReal) (h : V31 m outs c main_v111 = fun _ => t) :
    V33 m outs c main_v120 = fun _ => Cert.Spec.finish (t + S outs c 15) := by
  have e1 : V32 m outs c (Proc.devRef .tc main_v111) = fun _ => t := (V32_of m outs c main_v111 (by decide)).trans h
  have e2 : V32 m outs c (Proc.devRef .tc main_v116) = outs 32 main_v116 c := Function.update_self ..
  show StableHlo.after hostOps16 (V32 m outs c) (Proc.devRef .tc main_v120) = _
  after_results
  rw [e1, e2]
  refine (Cert.Spec.finish_eq _).trans ?_
  funext _
  refine congrArg Cert.Spec.finish ?_
  exact congrArg (fun v => t + v) (scalar_of_1x1 (outs 32 main_v116 c) shapeCasts_S1x1_S_ ValueIdx.ix0)

/-- The program's result: `finish` of the sixteen regions' entries added to 0 one after the other, from the left. -/
theorem V33_v120 : V33 m outs c main_v120 = fun _ => Cert.Spec.finish (((((((((((((((((0 : EReal) + S outs c 0) + S outs c 1) + S outs c 2) + S outs c 3) + S outs c 4) + S outs c 5) + S outs c 6) + S outs c 7) + S outs c 8) + S outs c 9) + S outs c 10) + S outs c 11) + S outs c 12) + S outs c 13) + S outs c 14) + S outs c 15) :=
  result_of_acc m outs c _ (acc14 m outs c _ (acc13 m outs c _ (acc12 m outs c _ (acc11 m outs c _ (acc10 m outs c _ (acc9 m outs c _ (acc8 m outs c _ (acc7 m outs c _ (acc6 m outs c _ (acc5 m outs c _ (acc4 m outs c _ (acc3 m outs c _ (acc2 m outs c _ (acc1 m outs c _ (acc0 m outs c)))))))))))))))

end Cert.KernelIdeal.Tail

end
-- ==== Proof.KI.PayIdeal.lean ====
import proofs.«418705_j10376640987952_2_alg».proof.Proof.Gen.KernelIdeal.Skeleton
import proofs.«418705_j10376640987952_2_alg».proof.Proof.Spec
import Idealize.ShloMosaic.PureOps.Ideal.Laws
import Idealize.ShloMosaic.Lib.ValueIdx
import Idealize.ShloMosaic.Lib.Pipeline.Value

/-!
  The two values a chunk's body stores into its one-element accumulator, read over the extended reals.

  * The first is the splat of the zero word: it reads 0.
  * The second takes two rows `a`, `b` of 96 features and the accumulator's current element `s`, and is
    `s + √(∑ j, (a j - b j) * (a j - b j))`: the casts are identities, difference, product and sum are
    elementwise, the lane reduction starts from the neutral word and so is the plain sum over the 96
    lanes, and the square root is the ideal one.

  The sixteen chunks' bodies print the same two values, so the other fifteen pairs are the first pair.
-/

noncomputable section

open scoped BigOperators

namespace Cert.KernelIdeal.PayIdeal

open Idealize.ShloMosaic Cert.KernelIdeal Cert.KernelIdeal.Gen

variable [Cert.KernelIdeal.Facts]
open Cert.KernelIdeal.Facts₀ Cert.KernelIdeal.Facts

/-- The zero payload reads 0 at its one index. -/
theorem pay1_apply (y : S1x1.Idx) : k0_pay1 (F := Ideal) y = (0 : EReal) := by
  unfold k0_pay1
  rw [shapeCast_self]
  exact Ideal.ofBits_zero_f32

/-- Reducing a [1, 1, 96] block over its last axis into [1, 1]: the source index that lane `k` contributes
    to the result's one index is (0, 0, k), the two leading axes having extent one. -/
theorem lift_eq (y : S1x1.Idx) (k : Fin 96) :
    (Facts₀.reduces_S1x1x96_S1x1 : S1x1x96.Reduces [2] S1x1).lift y k = ValueIdx.ix3 0 0 k := by
  funext a
  match a with
  | ⟨0, _⟩ => exact @Subsingleton.elim (Fin 1) inferInstance _ _
  | ⟨1, _⟩ => exact @Subsingleton.elim (Fin 1) inferInstance _ _
  | ⟨2, _⟩ => rfl

/-- The accumulating payload: the accumulator's element plus the Euclidean distance between the two rows. -/
theorem pay2_apply (x3 x4 : Vec Ideal S1x1x96 .f32) (xs : Vec Ideal S1x1 .f32) (y : S1x1.Idx) :
    k0_pay2 (F := Ideal) x3 x4 xs y
      = (xs y : EReal) + Ideal.sqrt (∑ j : Fin 96, ((x3 (ValueIdx.ix3 0 0 j) : EReal) - x4 (ValueIdx.ix3 0 0 j))
          * (x3 (ValueIdx.ix3 0 0 j) - x4 (ValueIdx.ix3 0 0 j))) := by
  unfold k0_pay2
  -- the three casts keep the shape: identities
  rw [shapeCast_self, shapeCast_self, shapeCast_self]
  -- the sum with the accumulator, then the square root, are elementwise
  refine (ValueIdx.addf_apply _ _ y).trans ?_
  refine congrArg (fun t => (xs y : EReal) + Ideal.sqrt t) ?_
  -- the lane reduction from the neutral word is the sum over the 96 lanes
  refine (Ideal.multiReduction_add_single _ _ Facts₀.reduces_S1x1x96_S1x1 _ _ y).trans ?_
  refine Finset.sum_congr rfl (fun k _ => ?_)
  -- lane k reads index (0, 0, k); product and difference are elementwise
  rw [lift_eq y k]
  rfl

/-! ## The other fifteen chunks store the same two values -/

section Same
variable {F : FTy → Type} [FloatOps F]

theorem pay11_eq : k1_pay1 (F := F) = k0_pay1 (F := F) := rfl
theorem pay12_eq : k1_pay2 (F := F) = k0_pay2 (F := F) := rfl
theorem pay21_eq : k2_pay1 (F := F) = k0_pay1 (F := F) := rfl
theorem pay22_eq : k2_pay2 (F := F) = k0_pay2 (F := F) := rfl
theorem pay31_eq : k3_pay1 (F := F) = k0_pay1 (F := F) := rfl
theorem pay32_eq : k3_pay2 (F := F) = k0_pay2 (F := F) := rfl
theorem pay41_eq : k4_pay1 (F := F) = k0_pay1 (F := F) := rfl
theorem pay42_eq : k4_pay2 (F := F) = k0_pay2 (F := F) := rfl
theorem pay51_eq : k5_pay1 (F := F) = k0_pay1 (F := F) := rfl
theorem pay52_eq : k5_pay2 (F := F) = k0_pay2 (F := F) := rfl
theorem pay61_eq : k6_pay1 (F := F) = k0_pay1 (F := F) := rfl
theorem pay62_eq : k6_pay2 (F := F) = k0_pay2 (F := F) := rfl
theorem pay71_eq : k7_pay1 (F := F) = k0_pay1 (F := F) := rfl
theorem pay72_eq : k7_pay2 (F := F) = k0_pay2 (F := F) := rfl
theorem pay81_eq : k8_pay1 (F := F) = k0_pay1 (F := F) := rfl
theorem pay82_eq : k8_pay2 (F := F) = k0_pay2 (F := F) := rfl
theorem pay91_eq : k9_pay1 (F := F) = k0_pay1 (F := F) := rfl
theorem pay92_eq : k9_pay2 (F := F) = k0_pay2 (F := F) := rfl
theorem pay101_eq : k10_pay1 (F := F) = k0_pay1 (F := F) := rfl
theorem pay102_eq : k10_pay2 (F := F) = k0_pay2 (F := F) := rfl
theorem pay111_eq : k11_pay1 (F := F) = k0_pay1 (F := F) := rfl
theorem pay112_eq : k11_pay2 (F := F) = k0_pay2 (F := F) := rfl
theorem pay121_eq : k12_pay1 (F := F) = k0_pay1 (F := F) := rfl
theorem pay122_eq : k12_pay2 (F := F) = k0_pay2 (F := F) := rfl
theorem pay131_eq : k13_pay1 (F := F) = k0_pay1 (F := F) := rfl
theorem pay132_eq : k13_pay2 (F := F) = k0_pay2 (F := F) := rfl
theorem pay141_eq : k14_pay1 (F := F) = k0_pay1 (F := F) := rfl
theorem pay142_eq : k14_pay2 (F := F) = k0_pay2 (F := F) := rfl
theorem pay151_eq : k15_pay1 (F := F) = k0_pay1 (F := F) := rfl
theorem pay152_eq : k15_pay2 (F := F) = k0_pay2 (F := F) := rfl

end Same

end Cert.KernelIdeal.PayIdeal
-- ==== Proof.SumAlgebra.lean ====
import Mathlib.Data.EReal.Basic
import Mathlib.Algebra.BigOperators.Fin
import Mathlib.Data.Fintype.BigOperators
import Mathlib.Logic.Equiv.Fin.Basic

/-!
  Sums of extended reals, by the commutative-monoid laws of addition alone (associativity,
  commutativity, 0 neutral): no cancellation and no distributivity is used anywhere.

  * a running total that starts at `0 + d 0` and adds `d (n + 1)` at step `n + 1` is the sum of the
    terms met so far (`fold_eq_sum`, over ℕ; `fold_eq_sum_fin`, over an initial segment);
  * a left-nested chain of sixteen additions from 0 is the sum over `Fin 16` (`chain16`);
  * a sum over `m * n` positions is the sum over `m` blocks of the sums over the `n` positions of
    each block, position `K * n + i` being position `i` of block `K` (`sum_mul_split`,
    `split_16x50000`).
-/

open scoped BigOperators

namespace Cert.SumAlgebra

/-- A running total over ℕ is the sum of the terms up to the current one. -/
theorem fold_eq_sum (d : ℕ → EReal) (acc : ℕ → EReal) (h0 : acc 0 = 0 + d 0)
    (hs : ∀ n, acc (n + 1) = acc n + d (n + 1)) (n : ℕ) :
    acc n = ∑ i ∈ Finset.range (n + 1), d i := by
  induction n with
  | zero => rw [h0, zero_add, Finset.sum_range_one]
  | succ n ih => rw [hs n, ih, Finset.sum_range_succ _ (n + 1)]

/-- The same over an initial segment, stated at every stage: after step `n` the running total is
    the sum of the first `n + 1` terms. -/
theorem fold_eq_sum_fin_stage (N : ℕ) (d : Fin (N + 1) → EReal) (acc : ℕ → EReal) (h0 : acc 0 = 0 + d 0)
    (hs : ∀ n (h : n + 1 < N + 1), acc (n + 1) = acc n + d ⟨n + 1, h⟩) :
    ∀ n (hn : n < N + 1), acc n = ∑ i : Fin (n + 1), d ⟨i.val, lt_of_lt_of_le i.isLt hn⟩
  | 0, _ => by
    rw [h0, zero_add, Fin.sum_univ_castSucc, Fin.sum_univ_zero, zero_add]
    rfl
  | n + 1, hn => by
    rw [hs n hn, fold_eq_sum_fin_stage N d acc h0 hs n (Nat.lt_of_succ_lt hn), Fin.sum_univ_castSucc (n := n + 1)]
    rfl

/-- A running total over an initial segment of length `N + 1`, read at its last stage, is the sum of
    all the terms. -/
theorem fold_eq_sum_fin (N : ℕ) (d : Fin (N + 1) → EReal) (acc : ℕ → EReal) (h0 : acc 0 = 0 + d 0)
    (hs : ∀ n (h : n + 1 < N + 1), acc (n + 1) = acc n + d ⟨n + 1, h⟩) :
    acc N = ∑ i : Fin (N + 1), d i :=
  fold_eq_sum_fin_stage N d acc h0 hs N (Nat.lt_succ_self N)

/-- The instance at 50000 terms. -/
theorem fold_50000 (d : Fin 50000 → EReal) (acc : ℕ → EReal) (h0 : acc 0 = 0 + d ⟨0, by norm_num⟩)
    (hs : ∀ n (h : n + 1 < 50000), acc (n + 1) = acc n + d ⟨n + 1, h⟩) :
    acc 49999 = ∑ i : Fin 50000, d i :=
  fold_eq_sum_fin 49999 d acc h0 hs

/-- Sixteen additions nested to the left, starting from 0, make the sum over `Fin 16`. -/
theorem chain16 (S : Fin 16 → EReal) :
    (((((((((((((((((0 : EReal) + S 0) + S 1) + S 2) + S 3) + S 4) + S 5) + S 6) + S 7) + S 8) + S 9) + S 10)
      + S 11) + S 12) + S 13) + S 14) + S 15) = ∑ K : Fin 16, S K := by
  simp only [Fin.sum_univ_castSucc, Fin.sum_univ_zero]
  rfl

/-- Position `i` of block `K`, among `m` blocks of `n` positions, is a position below `m * n`. -/
theorem block_pos_lt {m n : ℕ} (K : Fin m) (i : Fin n) : K.val * n + i.val < m * n :=
  calc K.val * n + i.val < K.val * n + n := Nat.add_lt_add_left i.isLt _
    _ = (K.val + 1) * n := (Nat.succ_mul _ _).symm
    _ ≤ m * n := Nat.mul_le_mul_right _ K.isLt

/-- A sum over `m * n` positions, block by block: the positions are those of `m` blocks of `n`, and
    the sum may be taken in any order and grouping. -/
theorem sum_mul_split {m n N : ℕ} (hN : N = m * n) (f : Fin N → EReal) :
    (∑ k : Fin N, f k) = ∑ K : Fin m, ∑ i : Fin n, f ⟨K.val * n + i.val, hN ▸ block_pos_lt K i⟩ := by
  subst hN
  rw [← Fintype.sum_prod_type' (fun (K : Fin m) (i : Fin n) => f ⟨K.val * n + i.val, block_pos_lt K i⟩)]
  symm
  refine Fintype.sum_equiv finProdFinEquiv _ _ (fun x => ?_)
  refine congrArg f (Fin.ext ?_)
  show x.1.val * n + x.2.val = x.2.val + n * x.1.val
  rw [Nat.mul_comm, Nat.add_comm]

/-- The instance at 16 blocks of 50000. -/
theorem split_16x50000 (f : Fin 800000 → EReal) :
    (∑ k : Fin 800000, f k)
      = ∑ K : Fin 16, ∑ i : Fin 50000,
          f ⟨K.val * 50000 + i.val, by have := K.isLt; have := i.isLt; omega⟩ :=
  sum_mul_split (m := 16) (n := 50000) (by norm_num) f

end Cert.SumAlgebra
-- ==== Proof.KI.AccSum.lean ====
import proofs.«418705_j10376640987952_2_alg».proof.Proof.KI.PayIdeal
import proofs.«418705_j10376640987952_2_alg».proof.Proof.SumAlgebra

/-!
  One chunk's accumulation, abstractly.  At each of 50000 points a chunk stages two rows of 96 features and
  replaces its one-word accumulator `s` by `s + √(∑ j, (a j - b j) * (a j - b j))`, the first point starting
  from the zero word.  After the last point the accumulator holds the sum over the 50000 points of those
  distances: a running total from `0 + d 0` that adds `d (n + 1)` at step `n + 1` is the sum of the `d i`.
-/

noncomputable section

open scoped BigOperators

namespace Cert.KernelIdeal.AccSum

open Idealize.ShloMosaic Cert.KernelIdeal Cert.KernelIdeal.Gen

variable [Cert.KernelIdeal.Facts]

/-- After the last of the 50000 points the accumulator's element is the sum of the 50000 distances. -/
theorem acc_last (b3 b4 : Fin 50000 → Vec Ideal S1x1x96 .f32)
    (acc : (n : ℕ) → n < 50000 → Vec Ideal S1x1 .f32)
    (h0 : ∀ h, acc 0 h = k0_pay2 (F := Ideal) (b3 ⟨0, h⟩) (b4 ⟨0, h⟩) (k0_pay1 (F := Ideal)))
    (hs : ∀ n (h : n + 1 < 50000),
      acc (n + 1) h = k0_pay2 (F := Ideal) (b3 ⟨n + 1, h⟩) (b4 ⟨n + 1, h⟩) (acc n (Nat.lt_of_succ_lt h)))
    (y : S1x1.Idx) :
    (acc 49999 (by norm_num) y : EReal)
      = ∑ i : Fin 50000, Ideal.sqrt (∑ j : Fin 96, ((b3 i (ValueIdx.ix3 0 0 j) : EReal) - b4 i (ValueIdx.ix3 0 0 j))
          * (b3 i (ValueIdx.ix3 0 0 j) - b4 i (ValueIdx.ix3 0 0 j))) := by
  -- the running total as a sequence of extended reals (0 past the last point), and the terms it adds
  let A : ℕ → EReal := fun n => if h : n < 50000 then (acc n h y : EReal) else 0
  let d : Fin 50000 → EReal := fun i =>
    Ideal.sqrt (∑ j : Fin 96, ((b3 i (ValueIdx.ix3 0 0 j) : EReal) - b4 i (ValueIdx.ix3 0 0 j))
      * (b3 i (ValueIdx.ix3 0 0 j) - b4 i (ValueIdx.ix3 0 0 j)))
  have hA0 : A 0 = 0 + d ⟨0, by norm_num⟩ := by
    have h : (0 : ℕ) < 50000 := by norm_num
    show (if h : (0 : ℕ) < 50000 then (acc 0 h y : EReal) else 0) = _
    rw [dif_pos h, h0 h, PayIdeal.pay2_apply, PayIdeal.pay1_apply]
  have hAs : ∀ n (h : n + 1 < 50000), A (n + 1) = A n + d ⟨n + 1, h⟩ := by
    intro n h
    show (if h : n + 1 < 50000 then (acc (n + 1) h y : EReal) else 0)
      = (if h : n < 50000 then (acc n h y : EReal) else 0) + _
    rw [dif_pos h, dif_pos (Nat.lt_of_succ_lt h), hs n h, PayIdeal.pay2_apply]
  have hlast := Cert.SumAlgebra.fold_50000 d A hA0 hAs
  have h49999 : (49999 : ℕ) < 50000 := by norm_num
  have e : A 49999 = (acc 49999 h49999 y : EReal) := dif_pos h49999
  exact e.symm.trans hlast

end Cert.KernelIdeal.AccSum
-- ==== Proof.KI.BlkRead.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead

open Idealize.ShloMosaic Cert.KernelIdeal Cert.KernelIdeal.Gen

variable {F : FTy → Type} [FloatOps F]
variable [Cert.KernelIdeal.Facts]

/-- A grid of one axis: consecutive points differ in that axis's coordinate. -/
theorem stride0 : grid0.stride 0 = 1 := by decide

/-- The pipeline at any contents of the tables runs over the 50000 points of the grid. -/
theorem N0 (a : (pcfg0 (F := F)).Adm) : (cfg0 a).N = 50000 := N_0

theorem lt0 (a : (pcfg0 (F := F)).Adm) (t : Fin (cfg0 a).N) : t.val < 50000 := lt_of_lt_of_eq t.isLt (N0 a)

set_option maxHeartbeats 50000 in
/-- The one coordinate of the t-th point is t. -/
theorem coord0 (a : (pcfg0 (F := F)).Adm) (t : Fin (cfg0 a).N) : (((cfg0 a).grid.coords t) 0).val = t.val := by
  show t.val / grid0.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg0 (F := F)).Adm) (t : Fin (cfg0 a).N) :
    ((cfg0 a).win 0).index t = cc0_transform_0 Facts₀.k0_off1_inb Facts₀.numel1_S1 a.1 ((cfg0 a).grid.coords t) := rfl

set_option maxHeartbeats 50000 in
/-- The index map at coordinate i: (the word of table 0 at position i, 0, 0). -/
theorem transform0_0 (pf : pre0.Contents (Elt F)) (i : grid0.Coords) :
    cc0_transform_0 Facts₀.k0_off1_inb Facts₀.numel1_S1 pf i
      = ![(pf 0 (ValueIdx.ix1 (i 0))).toNat, 0, 0] := by
  unfold cc0_transform_0
  -- the one index of the unit rectangle at offset i is position i of the table
  have e : (Rect.unit (s := S50000) ![(Scalar.indexCast (BitVec.ofNat 32 (i 0).val)).toNat] S1.size (Facts₀.k0_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg0 (F := F)).Adm) (t : Fin (cfg0 a).N) (X : S50000x1x96.Idx → Elt F .f32) (j : Fin 96) (r : Fin 50000)
    (hr : r.val = (a.1 0 (ValueIdx.ix1 ⟨t.val, lt0 a t⟩)).toNat) :
    ((((cfg0 a).win 0).blk t).view.read (Elt F) X) (ValueIdx.ix3 0 0 j) = X (ValueIdx.ix3 r 0 j) := by
  show X ((((cfg0 a).win 0).blk t).view.emb (ValueIdx.ix3 0 0 j)) = X (ValueIdx.ix3 r 0 j)
  refine congrArg X ?_
  have hi : ((cfg0 a).win 0).index t = ![(a.1 0 (ValueIdx.ix1 ((cfg0 a).grid.coords t 0))).toNat, 0, 0] :=
    (index0_0 a t).trans (transform0_0 a.1 _)
  have hc : ((cfg0 a).grid.coords t 0) = ⟨t.val, lt0 a t⟩ := Fin.ext (coord0 a t)
  have h0 : ((cfg0 a).win 0).index t (0 : Fin 3) = r.val :=
    ((congrFun hi (0 : Fin 3)).trans (congrArg (fun z => (a.1 0 (ValueIdx.ix1 z)).toNat) hc)).trans hr.symm
  have h1 : ((cfg0 a).win 0).index t (1 : Fin 3) = 0 := congrFun hi (1 : Fin 3)
  have h2 : ((cfg0 a).win 0).index t (2 : Fin 3) = 0 := congrFun hi (2 : Fin 3)
  -- per axis: block index times extent, plus the coordinate inside the block
  funext ax
  refine Fin.ext ?_
  match ax with
  | ⟨0, _⟩ =>
    show ((cfg0 a).win 0).index t (0 : Fin 3) * 1 + 1 * 0 = r.val
    rw [h0]; omega
  | ⟨1, _⟩ =>
    show ((cfg0 a).win 0).index t (1 : Fin 3) * 1 + 1 * 0 = 0
    rw [h1]
  | ⟨2, _⟩ =>
    show ((cfg0 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg0 (F := F)).Adm) (t : Fin (cfg0 a).N) :
    ((cfg0 a).win 1).index t = cc0_transform_1 Facts₀.k0_off1_inb Facts₀.numel1_S1 a.1 ((cfg0 a).grid.coords t) := rfl

set_option maxHeartbeats 50000 in
/-- The index map at coordinate i: (the word of table 1 at position i, 0, 0). -/
theorem transform0_1 (pf : pre0.Contents (Elt F)) (i : grid0.Coords) :
    cc0_transform_1 Facts₀.k0_off1_inb Facts₀.numel1_S1 pf i
      = ![(pf 1 (ValueIdx.ix1 (i 0))).toNat, 0, 0] := by
  unfold cc0_transform_1
  have e : (Rect.unit (s := S50000) ![(Scalar.indexCast (BitVec.ofNat 32 (i 0).val)).toNat] S1.size (Facts₀.k0_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg0 (F := F)).Adm) (t : Fin (cfg0 a).N) (X : S50000x1x96.Idx → Elt F .f32) (j : Fin 96) (r : Fin 50000)
    (hr : r.val = (a.1 1 (ValueIdx.ix1 ⟨t.val, lt0 a t⟩)).toNat) :
    ((((cfg0 a).win 1).blk t).view.read (Elt F) X) (ValueIdx.ix3 0 0 j) = X (ValueIdx.ix3 r 0 j) := by
  show X ((((cfg0 a).win 1).blk t).view.emb (ValueIdx.ix3 0 0 j)) = X (ValueIdx.ix3 r 0 j)
  refine congrArg X ?_
  have hi : ((cfg0 a).win 1).index t = ![(a.1 1 (ValueIdx.ix1 ((cfg0 a).grid.coords t 0))).toNat, 0, 0] :=
    (index0_1 a t).trans (transform0_1 a.1 _)
  have hc : ((cfg0 a).grid.coords t 0) = ⟨t.val, lt0 a t⟩ := Fin.ext (coord0 a t)
  have h0 : ((cfg0 a).win 1).index t (0 : Fin 3) = r.val :=
    ((congrFun hi (0 : Fin 3)).trans (congrArg (fun z => (a.1 1 (ValueIdx.ix1 z)).toNat) hc)).trans hr.symm
  have h1 : ((cfg0 a).win 1).index t (1 : Fin 3) = 0 := congrFun hi (1 : Fin 3)
  have h2 : ((cfg0 a).win 1).index t (2 : Fin 3) = 0 := congrFun hi (2 : Fin 3)
  funext ax
  refine Fin.ext ?_
  match ax with
  | ⟨0, _⟩ =>
    show ((cfg0 a).win 1).index t (0 : Fin 3) * 1 + 1 * 0 = r.val
    rw [h0]; omega
  | ⟨1, _⟩ =>
    show ((cfg0 a).win 1).index t (1 : Fin 3) * 1 + 1 * 0 = 0
    rw [h1]
  | ⟨2, _⟩ =>
    show ((cfg0 a).win 1).index t (2 : Fin 3) * 96 + 1 * j.val = j.val
    rw [h2]; omega

end Cert.KernelIdeal.BlkRead
-- ==== Proof.KI.Val00.lean ====
import proofs.«418705_j10376640987952_2_alg».proof.Proof.KI.Dat00
import proofs.«418705_j10376640987952_2_alg».proof.Proof.KI.Tables
import proofs.«418705_j10376640987952_2_alg».proof.Proof.KI.AccSum
import proofs.«418705_j10376640987952_2_alg».proof.Proof.KI.BlkRead
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk0

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg0 (F := F)).Adm)
variable (V : (c : Dev nD) → (b : Ref sig .tc) → Buf (Elt F) ((c : Thread nD τ).loc b))

theorem last_lt : 49999 < (cfg0 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg0 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg0 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg0 (Tables.adm0 m hr)).N) : 0 * 50000 + t.val < 800000 := by
  have := lt_of_lt_of_eq t.isLt (N_eq (Tables.adm0 m hr)); omega

set_option maxHeartbeats 400000 in
/-- The row staged in window 0 at point t is the feature row of the source node of the chunk's t-th edge. -/
theorem b3_apply (hV6 : ∀ c, V c main_v6 = Tables.feat m) (c : Dev nD) (t : Fin (cfg0 (Tables.adm0 m hr)).N) (j : Fin 96) :
    b3 (Tables.adm0 m hr) V c t (ValueIdx.ix3 0 0 j)
      = Tables.nodes m (ValueIdx.ix2 (Cert.Spec.row (Tables.edges m (ValueIdx.ix2 0 ⟨0 * 50000 + t.val, pos_lt m hr t⟩))) j) := by
  have hlt : t.val < 50000 := lt_of_lt_of_eq t.isLt (N_eq (Tables.adm0 m hr))
  -- the table word at position t is the edge list's word at the chunk's t-th position
  have hw : ((Tables.adm0 m hr).1 0 (ValueIdx.ix1 ⟨t.val, hlt⟩))
      = Tables.edges m (ValueIdx.ix2 0 ⟨0 * 50000 + t.val, pos_lt m hr t⟩) := Tables.tab0_apply m 0 ⟨t.val, hlt⟩
  have hrow : (Cert.Spec.row (Tables.edges m (ValueIdx.ix2 0 ⟨0 * 50000 + t.val, pos_lt m hr t⟩))).val
      = ((Tables.adm0 m hr).1 0 (ValueIdx.ix1 ⟨t.val, hlt⟩)).toNat :=
    (Cert.Spec.row_val_of_lt (hr _)).trans (congrArg BitVec.toNat hw).symm
  show ((((cfg0 (Tables.adm0 m hr)).win 0).blk t).view.read (Elt F) (V c main_v6)) (ValueIdx.ix3 0 0 j) = _
  rw [hV6 c]
  refine (BlkRead.blk0_apply (Tables.adm0 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg0 (Tables.adm0 m hr)).N) (j : Fin 96) :
    b4 (Tables.adm0 m hr) V c t (ValueIdx.ix3 0 0 j)
      = Tables.nodes m (ValueIdx.ix2 (Cert.Spec.row (Tables.edges m (ValueIdx.ix2 1 ⟨0 * 50000 + t.val, pos_lt m hr t⟩))) j) := by
  have hlt : t.val < 50000 := lt_of_lt_of_eq t.isLt (N_eq (Tables.adm0 m hr))
  have hw : ((Tables.adm0 m hr).1 1 (ValueIdx.ix1 ⟨t.val, hlt⟩))
      = Tables.edges m (ValueIdx.ix2 1 ⟨0 * 50000 + t.val, pos_lt m hr t⟩) := Tables.tab0_apply m 1 ⟨t.val, hlt⟩
  have hrow : (Cert.Spec.row (Tables.edges m (ValueIdx.ix2 1 ⟨0 * 50000 + t.val, pos_lt m hr t⟩))).val
      = ((Tables.adm0 m hr).1 1 (ValueIdx.ix1 ⟨t.val, hlt⟩)).toNat :=
    (Cert.Spec.row_val_of_lt (hr _)).trans (congrArg BitVec.toNat hw).symm
  show ((((cfg0 (Tables.adm0 m hr)).win 1).blk t).view.read (Elt F) (V c main_v6)) (ValueIdx.ix3 0 0 j) = _
  rw [hV6 c]
  refine (BlkRead.blk1_apply (Tables.adm0 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm0 m hr) V c).arrAt 2 (cfg0 (Tables.adm0 m hr)).N) (ValueIdx.ix2 (0 : Fin 1) (0 : Fin 1))
      = ∑ i : Fin 50000, Cert.Spec.dist (Tables.nodes m)
          (Cert.Spec.row (Tables.edges m (ValueIdx.ix2 0 ⟨0 * 50000 + i.val, by omega⟩)))
          (Cert.Spec.row (Tables.edges m (ValueIdx.ix2 1 ⟨0 * 50000 + i.val, by omega⟩))) := by
  have hN : (cfg0 (Tables.adm0 m hr)).N = 50000 := N_eq (Tables.adm0 m hr)
  -- the result array holds the accumulator after the last point
  refine (congrFun (arr_final (Tables.adm0 m hr) V c) (ValueIdx.ix2 (0 : Fin 1) (0 : Fin 1))).trans ?_
  -- which is the sum of the distances between the staged rows
  refine (AccSum.acc_last
    (fun i => b3 (Tables.adm0 m hr) V c ⟨i.val, lt_of_lt_of_eq i.isLt hN.symm⟩)
    (fun i => b4 (Tables.adm0 m hr) V c ⟨i.val, lt_of_lt_of_eq i.isLt hN.symm⟩)
    (fun n h => acc (Tables.adm0 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk0
-- ==== Proof.KI.BlkRead1.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead1

open Idealize.ShloMosaic Cert.KernelIdeal Cert.KernelIdeal.Gen

variable {F : FTy → Type} [FloatOps F]
variable [Cert.KernelIdeal.Facts]

/-- A grid of one axis: consecutive points differ in that axis's coordinate. -/
theorem stride0 : grid1.stride 0 = 1 := by decide

/-- The pipeline at any contents of the tables runs over the 50000 points of the grid. -/
theorem N0 (a : (pcfg1 (F := F)).Adm) : (cfg1 a).N = 50000 := N_1

theorem lt0 (a : (pcfg1 (F := F)).Adm) (t : Fin (cfg1 a).N) : t.val < 50000 := lt_of_lt_of_eq t.isLt (N0 a)

set_option maxHeartbeats 50000 in
/-- The one coordinate of the t-th point is t. -/
theorem coord0 (a : (pcfg1 (F := F)).Adm) (t : Fin (cfg1 a).N) : (((cfg1 a).grid.coords t) 0).val = t.val := by
  show t.val / grid1.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg1 (F := F)).Adm) (t : Fin (cfg1 a).N) :
    ((cfg1 a).win 0).index t = cc1_transform_0 Facts₀.k1_off1_inb Facts₀.numel1_S1 a.1 ((cfg1 a).grid.coords t) := rfl

set_option maxHeartbeats 50000 in
/-- The index map at coordinate i: (the word of table 0 at position i, 0, 0). -/
theorem transform0_0 (pf : pre1.Contents (Elt F)) (i : grid1.Coords) :
    cc1_transform_0 Facts₀.k1_off1_inb Facts₀.numel1_S1 pf i
      = ![(pf 0 (ValueIdx.ix1 (i 0))).toNat, 0, 0] := by
  unfold cc1_transform_0
  -- the one index of the unit rectangle at offset i is position i of the table
  have e : (Rect.unit (s := S50000) ![(Scalar.indexCast (BitVec.ofNat 32 (i 0).val)).toNat] S1.size (Facts₀.k1_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg1 (F := F)).Adm) (t : Fin (cfg1 a).N) (X : S50000x1x96.Idx → Elt F .f32) (j : Fin 96) (r : Fin 50000)
    (hr : r.val = (a.1 0 (ValueIdx.ix1 ⟨t.val, lt0 a t⟩)).toNat) :
    ((((cfg1 a).win 0).blk t).view.read (Elt F) X) (ValueIdx.ix3 0 0 j) = X (ValueIdx.ix3 r 0 j) := by
  show X ((((cfg1 a).win 0).blk t).view.emb (ValueIdx.ix3 0 0 j)) = X (ValueIdx.ix3 r 0 j)
  refine congrArg X ?_
  have hi : ((cfg1 a).win 0).index t = ![(a.1 0 (ValueIdx.ix1 ((cfg1 a).grid.coords t 0))).toNat, 0, 0] :=
    (index0_0 a t).trans (transform0_0 a.1 _)
  have hc : ((cfg1 a).grid.coords t 0) = ⟨t.val, lt0 a t⟩ := Fin.ext (coord0 a t)
  have h0 : ((cfg1 a).win 0).index t (0 : Fin 3) = r.val :=
    ((congrFun hi (0 : Fin 3)).trans (congrArg (fun z => (a.1 0 (ValueIdx.ix1 z)).toNat) hc)).trans hr.symm
  have h1 : ((cfg1 a).win 0).index t (1 : Fin 3) = 0 := congrFun hi (1 : Fin 3)
  have h2 : ((cfg1 a).win 0).index t (2 : Fin 3) = 0 := congrFun hi (2 : Fin 3)
  -- per axis: block index times extent, plus the coordinate inside the block
  funext ax
  refine Fin.ext ?_
  match ax with
  | ⟨0, _⟩ =>
    show ((cfg1 a).win 0).index t (0 : Fin 3) * 1 + 1 * 0 = r.val
    rw [h0]; omega
  | ⟨1, _⟩ =>
    show ((cfg1 a).win 0).index t (1 : Fin 3) * 1 + 1 * 0 = 0
    rw [h1]
  | ⟨2, _⟩ =>
    show ((cfg1 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg1 (F := F)).Adm) (t : Fin (cfg1 a).N) :
    ((cfg1 a).win 1).index t = cc1_transform_1 Facts₀.k1_off1_inb Facts₀.numel1_S1 a.1 ((cfg1 a).grid.coords t) := rfl

set_option maxHeartbeats 50000 in
/-- The index map at coordinate i: (the word of table 1 at position i, 0, 0). -/
theorem transform0_1 (pf : pre1.Contents (Elt F)) (i : grid1.Coords) :
    cc1_transform_1 Facts₀.k1_off1_inb Facts₀.numel1_S1 pf i
      = ![(pf 1 (ValueIdx.ix1 (i 0))).toNat, 0, 0] := by
  unfold cc1_transform_1
  have e : (Rect.unit (s := S50000) ![(Scalar.indexCast (BitVec.ofNat 32 (i 0).val)).toNat] S1.size (Facts₀.k1_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg1 (F := F)).Adm) (t : Fin (cfg1 a).N) (X : S50000x1x96.Idx → Elt F .f32) (j : Fin 96) (r : Fin 50000)
    (hr : r.val = (a.1 1 (ValueIdx.ix1 ⟨t.val, lt0 a t⟩)).toNat) :
    ((((cfg1 a).win 1).blk t).view.read (Elt F) X) (ValueIdx.ix3 0 0 j) = X (ValueIdx.ix3 r 0 j) := by
  show X ((((cfg1 a).win 1).blk t).view.emb (ValueIdx.ix3 0 0 j)) = X (ValueIdx.ix3 r 0 j)
  refine congrArg X ?_
  have hi : ((cfg1 a).win 1).index t = ![(a.1 1 (ValueIdx.ix1 ((cfg1 a).grid.coords t 0))).toNat, 0, 0] :=
    (index0_1 a t).trans (transform0_1 a.1 _)
  have hc : ((cfg1 a).grid.coords t 0) = ⟨t.val, lt0 a t⟩ := Fin.ext (coord0 a t)
  have h0 : ((cfg1 a).win 1).index t (0 : Fin 3) = r.val :=
    ((congrFun hi (0 : Fin 3)).trans (congrArg (fun z => (a.1 1 (ValueIdx.ix1 z)).toNat) hc)).trans hr.symm
  have h1 : ((cfg1 a).win 1).index t (1 : Fin 3) = 0 := congrFun hi (1 : Fin 3)
  have h2 : ((cfg1 a).win 1).index t (2 : Fin 3) = 0 := congrFun hi (2 : Fin 3)
  funext ax
  refine Fin.ext ?_
  match ax with
  | ⟨0, _⟩ =>
    show ((cfg1 a).win 1).index t (0 : Fin 3) * 1 + 1 * 0 = r.val
    rw [h0]; omega
  | ⟨1, _⟩ =>
    show ((cfg1 a).win 1).index t (1 : Fin 3) * 1 + 1 * 0 = 0
    rw [h1]
  | ⟨2, _⟩ =>
    show ((cfg1 a).win 1).index t (2 : Fin 3) * 96 + 1 * j.val = j.val
    rw [h2]; omega

end Cert.KernelIdeal.BlkRead1
-- ==== Proof.KI.Val01.lean ====
import proofs.«418705_j10376640987952_2_alg».proof.Proof.KI.Dat01
import proofs.«418705_j10376640987952_2_alg».proof.Proof.KI.Tables
import proofs.«418705_j10376640987952_2_alg».proof.Proof.KI.AccSum
import proofs.«418705_j10376640987952_2_alg».proof.Proof.KI.BlkRead1
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk1

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg1 (F := F)).Adm)
variable (V : (c : Dev nD) → (b : Ref sig .tc) → Buf (Elt F) ((c : Thread nD τ).loc b))

theorem last_lt : 49999 < (cfg1 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg1 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg1 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg1 (Tables.adm1 m hr)).N) : 1 * 50000 + t.val < 800000 := by
  have := lt_of_lt_of_eq t.isLt (N_eq (Tables.adm1 m hr)); omega

set_option maxHeartbeats 400000 in
/-- The row staged in window 0 at point t is the feature row of the source node of the chunk's t-th edge. -/
theorem b3_apply (hV6 : ∀ c, V c main_v6 = Tables.feat m) (c : Dev nD) (t : Fin (cfg1 (Tables.adm1 m hr)).N) (j : Fin 96) :
    b3 (Tables.adm1 m hr) V c t (ValueIdx.ix3 0 0 j)
      = Tables.nodes m (ValueIdx.ix2 (Cert.Spec.row (Tables.edges m (ValueIdx.ix2 0 ⟨1 * 50000 + t.val, pos_lt m hr t⟩))) j) := by
  have hlt : t.val < 50000 := lt_of_lt_of_eq t.isLt (N_eq (Tables.adm1 m hr))
  -- the table word at position t is the edge list's word at the chunk's t-th position
  have hw : ((Tables.adm1 m hr).1 0 (ValueIdx.ix1 ⟨t.val, hlt⟩))
      = Tables.edges m (ValueIdx.ix2 0 ⟨1 * 50000 + t.val, pos_lt m hr t⟩) := Tables.tab1_apply m 0 ⟨t.val, hlt⟩
  have hrow : (Cert.Spec.row (Tables.edges m (ValueIdx.ix2 0 ⟨1 * 50000 + t.val, pos_lt m hr t⟩))).val
      = ((Tables.adm1 m hr).1 0 (ValueIdx.ix1 ⟨t.val, hlt⟩)).toNat :=
    (Cert.Spec.row_val_of_lt (hr _)).trans (congrArg BitVec.toNat hw).symm
  show ((((cfg1 (Tables.adm1 m hr)).win 0).blk t).view.read (Elt F) (V c main_v6)) (ValueIdx.ix3 0 0 j) = _
  rw [hV6 c]
  refine (BlkRead1.blk0_apply (Tables.adm1 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg1 (Tables.adm1 m hr)).N) (j : Fin 96) :
    b4 (Tables.adm1 m hr) V c t (ValueIdx.ix3 0 0 j)
      = Tables.nodes m (ValueIdx.ix2 (Cert.Spec.row (Tables.edges m (ValueIdx.ix2 1 ⟨1 * 50000 + t.val, pos_lt m hr t⟩))) j) := by
  have hlt : t.val < 50000 := lt_of_lt_of_eq t.isLt (N_eq (Tables.adm1 m hr))
  have hw : ((Tables.adm1 m hr).1 1 (ValueIdx.ix1 ⟨t.val, hlt⟩))
      = Tables.edges m (ValueIdx.ix2 1 ⟨1 * 50000 + t.val, pos_lt m hr t⟩) := Tables.tab1_apply m 1 ⟨t.val, hlt⟩
  have hrow : (Cert.Spec.row (Tables.edges m (ValueIdx.ix2 1 ⟨1 * 50000 + t.val, pos_lt m hr t⟩))).val
      = ((Tables.adm1 m hr).1 1 (ValueIdx.ix1 ⟨t.val, hlt⟩)).toNat :=
    (Cert.Spec.row_val_of_lt (hr _)).trans (congrArg BitVec.toNat hw).symm
  show ((((cfg1 (Tables.adm1 m hr)).win 1).blk t).view.read (Elt F) (V c main_v6)) (ValueIdx.ix3 0 0 j) = _
  rw [hV6 c]
  refine (BlkRead1.blk1_apply (Tables.adm1 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm1 m hr) V c).arrAt 2 (cfg1 (Tables.adm1 m hr)).N) (ValueIdx.ix2 (0 : Fin 1) (0 : Fin 1))
      = ∑ i : Fin 50000, Cert.Spec.dist (Tables.nodes m)
          (Cert.Spec.row (Tables.edges m (ValueIdx.ix2 0 ⟨1 * 50000 + i.val, by omega⟩)))
          (Cert.Spec.row (Tables.edges m (ValueIdx.ix2 1 ⟨1 * 50000 + i.val, by omega⟩))) := by
  have hN : (cfg1 (Tables.adm1 m hr)).N = 50000 := N_eq (Tables.adm1 m hr)
  -- the result array holds the accumulator after the last point
  refine (congrFun (arr_final (Tables.adm1 m hr) V c) (ValueIdx.ix2 (0 : Fin 1) (0 : Fin 1))).trans ?_
  -- which is the sum of the distances between the staged rows
  refine (AccSum.acc_last
    (fun i => b3 (Tables.adm1 m hr) V c ⟨i.val, lt_of_lt_of_eq i.isLt hN.symm⟩)
    (fun i => b4 (Tables.adm1 m hr) V c ⟨i.val, lt_of_lt_of_eq i.isLt hN.symm⟩)
    (fun n h => acc (Tables.adm1 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk1
-- ==== Proof.KI.BlkRead2.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead2

open Idealize.ShloMosaic Cert.KernelIdeal Cert.KernelIdeal.Gen

variable {F : FTy → Type} [FloatOps F]
variable [Cert.KernelIdeal.Facts]

/-- A grid of one axis: consecutive points differ in that axis's coordinate. -/
theorem stride0 : grid2.stride 0 = 1 := by decide

/-- The pipeline at any contents of the tables runs over the 50000 points of the grid. -/
theorem N0 (a : (pcfg2 (F := F)).Adm) : (cfg2 a).N = 50000 := N_2

theorem lt0 (a : (pcfg2 (F := F)).Adm) (t : Fin (cfg2 a).N) : t.val < 50000 := lt_of_lt_of_eq t.isLt (N0 a)

set_option maxHeartbeats 50000 in
/-- The one coordinate of the t-th point is t. -/
theorem coord0 (a : (pcfg2 (F := F)).Adm) (t : Fin (cfg2 a).N) : (((cfg2 a).grid.coords t) 0).val = t.val := by
  show t.val / grid2.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg2 (F := F)).Adm) (t : Fin (cfg2 a).N) :
    ((cfg2 a).win 0).index t = cc2_transform_0 Facts₀.k2_off1_inb Facts₀.numel1_S1 a.1 ((cfg2 a).grid.coords t) := rfl

set_option maxHeartbeats 50000 in
/-- The index map at coordinate i: (the word of table 0 at position i, 0, 0). -/
theorem transform0_0 (pf : pre2.Contents (Elt F)) (i : grid2.Coords) :
    cc2_transform_0 Facts₀.k2_off1_inb Facts₀.numel1_S1 pf i
      = ![(pf 0 (ValueIdx.ix1 (i 0))).toNat, 0, 0] := by
  unfold cc2_transform_0
  -- the one index of the unit rectangle at offset i is position i of the table
  have e : (Rect.unit (s := S50000) ![(Scalar.indexCast (BitVec.ofNat 32 (i 0).val)).toNat] S1.size (Facts₀.k2_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg2 (F := F)).Adm) (t : Fin (cfg2 a).N) (X : S50000x1x96.Idx → Elt F .f32) (j : Fin 96) (r : Fin 50000)
    (hr : r.val = (a.1 0 (ValueIdx.ix1 ⟨t.val, lt0 a t⟩)).toNat) :
    ((((cfg2 a).win 0).blk t).view.read (Elt F) X) (ValueIdx.ix3 0 0 j) = X (ValueIdx.ix3 r 0 j) := by
  show X ((((cfg2 a).win 0).blk t).view.emb (ValueIdx.ix3 0 0 j)) = X (ValueIdx.ix3 r 0 j)
  refine congrArg X ?_
  have hi : ((cfg2 a).win 0).index t = ![(a.1 0 (ValueIdx.ix1 ((cfg2 a).grid.coords t 0))).toNat, 0, 0] :=
    (index0_0 a t).trans (transform0_0 a.1 _)
  have hc : ((cfg2 a).grid.coords t 0) = ⟨t.val, lt0 a t⟩ := Fin.ext (coord0 a t)
  have h0 : ((cfg2 a).win 0).index t (0 : Fin 3) = r.val :=
    ((congrFun hi (0 : Fin 3)).trans (congrArg (fun z => (a.1 0 (ValueIdx.ix1 z)).toNat) hc)).trans hr.symm
  have h1 : ((cfg2 a).win 0).index t (1 : Fin 3) = 0 := congrFun hi (1 : Fin 3)
  have h2 : ((cfg2 a).win 0).index t (2 : Fin 3) = 0 := congrFun hi (2 : Fin 3)
  -- per axis: block index times extent, plus the coordinate inside the block
  funext ax
  refine Fin.ext ?_
  match ax with
  | ⟨0, _⟩ =>
    show ((cfg2 a).win 0).index t (0 : Fin 3) * 1 + 1 * 0 = r.val
    rw [h0]; omega
  | ⟨1, _⟩ =>
    show ((cfg2 a).win 0).index t (1 : Fin 3) * 1 + 1 * 0 = 0
    rw [h1]
  | ⟨2, _⟩ =>
    show ((cfg2 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg2 (F := F)).Adm) (t : Fin (cfg2 a).N) :
    ((cfg2 a).win 1).index t = cc2_transform_1 Facts₀.k2_off1_inb Facts₀.numel1_S1 a.1 ((cfg2 a).grid.coords t) := rfl

set_option maxHeartbeats 50000 in
/-- The index map at coordinate i: (the word of table 1 at position i, 0, 0). -/
theorem transform0_1 (pf : pre2.Contents (Elt F)) (i : grid2.Coords) :
    cc2_transform_1 Facts₀.k2_off1_inb Facts₀.numel1_S1 pf i
      = ![(pf 1 (ValueIdx.ix1 (i 0))).toNat, 0, 0] := by
  unfold cc2_transform_1
  have e : (Rect.unit (s := S50000) ![(Scalar.indexCast (BitVec.ofNat 32 (i 0).val)).toNat] S1.size (Facts₀.k2_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg2 (F := F)).Adm) (t : Fin (cfg2 a).N) (X : S50000x1x96.Idx → Elt F .f32) (j : Fin 96) (r : Fin 50000)
    (hr : r.val = (a.1 1 (ValueIdx.ix1 ⟨t.val, lt0 a t⟩)).toNat) :
    ((((cfg2 a).win 1).blk t).view.read (Elt F) X) (ValueIdx.ix3 0 0 j) = X (ValueIdx.ix3 r 0 j) := by
  show X ((((cfg2 a).win 1).blk t).view.emb (ValueIdx.ix3 0 0 j)) = X (ValueIdx.ix3 r 0 j)
  refine congrArg X ?_
  have hi : ((cfg2 a).win 1).index t = ![(a.1 1 (ValueIdx.ix1 ((cfg2 a).grid.coords t 0))).toNat, 0, 0] :=
    (index0_1 a t).trans (transform0_1 a.1 _)
  have hc : ((cfg2 a).grid.coords t 0) = ⟨t.val, lt0 a t⟩ := Fin.ext (coord0 a t)
  have h0 : ((cfg2 a).win 1).index t (0 : Fin 3) = r.val :=
    ((congrFun hi (0 : Fin 3)).trans (congrArg (fun z => (a.1 1 (ValueIdx.ix1 z)).toNat) hc)).trans hr.symm
  have h1 : ((cfg2 a).win 1).index t (1 : Fin 3) = 0 := congrFun hi (1 : Fin 3)
  have h2 : ((cfg2 a).win 1).index t (2 : Fin 3) = 0 := congrFun hi (2 : Fin 3)
  funext ax
  refine Fin.ext ?_
  match ax with
  | ⟨0, _⟩ =>
    show ((cfg2 a).win 1).index t (0 : Fin 3) * 1 + 1 * 0 = r.val
    rw [h0]; omega
  | ⟨1, _⟩ =>
    show ((cfg2 a).win 1).index t (1 : Fin 3) * 1 + 1 * 0 = 0
    rw [h1]
  | ⟨2, _⟩ =>
    show ((cfg2 a).win 1).index t (2 : Fin 3) * 96 + 1 * j.val = j.val
    rw [h2]; omega

end Cert.KernelIdeal.BlkRead2
-- ==== Proof.KI.Val02.lean ====
import proofs.«418705_j10376640987952_2_alg».proof.Proof.KI.Dat02
import proofs.«418705_j10376640987952_2_alg».proof.Proof.KI.Tables
import proofs.«418705_j10376640987952_2_alg».proof.Proof.KI.AccSum
import proofs.«418705_j10376640987952_2_alg».proof.Proof.KI.BlkRead2
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk2

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg2 (F := F)).Adm)
variable (V : (c : Dev nD) → (b : Ref sig .tc) → Buf (Elt F) ((c : Thread nD τ).loc b))

theorem last_lt : 49999 < (cfg2 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg2 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg2 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg2 (Tables.adm2 m hr)).N) : 2 * 50000 + t.val < 800000 := by
  have := lt_of_lt_of_eq t.isLt (N_eq (Tables.adm2 m hr)); omega

set_option maxHeartbeats 400000 in
/-- The row staged in window 0 at point t is the feature row of the source node of the chunk's t-th edge. -/
theorem b3_apply (hV6 : ∀ c, V c main_v6 = Tables.feat m) (c : Dev nD) (t : Fin (cfg2 (Tables.adm2 m hr)).N) (j : Fin 96) :
    b3 (Tables.adm2 m hr) V c t (ValueIdx.ix3 0 0 j)
      = Tables.nodes m (ValueIdx.ix2 (Cert.Spec.row (Tables.edges m (ValueIdx.ix2 0 ⟨2 * 50000 + t.val, pos_lt m hr t⟩))) j) := by
  have hlt : t.val < 50000 := lt_of_lt_of_eq t.isLt (N_eq (Tables.adm2 m hr))
  -- the table word at position t is the edge list's word at the chunk's t-th position
  have hw : ((Tables.adm2 m hr).1 0 (ValueIdx.ix1 ⟨t.val, hlt⟩))
      = Tables.edges m (ValueIdx.ix2 0 ⟨2 * 50000 + t.val, pos_lt m hr t⟩) := Tables.tab2_apply m 0 ⟨t.val, hlt⟩
  have hrow : (Cert.Spec.row (Tables.edges m (ValueIdx.ix2 0 ⟨2 * 50000 + t.val, pos_lt m hr t⟩))).val
      = ((Tables.adm2 m hr).1 0 (ValueIdx.ix1 ⟨t.val, hlt⟩)).toNat :=
    (Cert.Spec.row_val_of_lt (hr _)).trans (congrArg BitVec.toNat hw).symm
  show ((((cfg2 (Tables.adm2 m hr)).win 0).blk t).view.read (Elt F) (V c main_v6)) (ValueIdx.ix3 0 0 j) = _
  rw [hV6 c]
  refine (BlkRead2.blk0_apply (Tables.adm2 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg2 (Tables.adm2 m hr)).N) (j : Fin 96) :
    b4 (Tables.adm2 m hr) V c t (ValueIdx.ix3 0 0 j)
      = Tables.nodes m (ValueIdx.ix2 (Cert.Spec.row (Tables.edges m (ValueIdx.ix2 1 ⟨2 * 50000 + t.val, pos_lt m hr t⟩))) j) := by
  have hlt : t.val < 50000 := lt_of_lt_of_eq t.isLt (N_eq (Tables.adm2 m hr))
  have hw : ((Tables.adm2 m hr).1 1 (ValueIdx.ix1 ⟨t.val, hlt⟩))
      = Tables.edges m (ValueIdx.ix2 1 ⟨2 * 50000 + t.val, pos_lt m hr t⟩) := Tables.tab2_apply m 1 ⟨t.val, hlt⟩
  have hrow : (Cert.Spec.row (Tables.edges m (ValueIdx.ix2 1 ⟨2 * 50000 + t.val, pos_lt m hr t⟩))).val
      = ((Tables.adm2 m hr).1 1 (ValueIdx.ix1 ⟨t.val, hlt⟩)).toNat :=
    (Cert.Spec.row_val_of_lt (hr _)).trans (congrArg BitVec.toNat hw).symm
  show ((((cfg2 (Tables.adm2 m hr)).win 1).blk t).view.read (Elt F) (V c main_v6)) (ValueIdx.ix3 0 0 j) = _
  rw [hV6 c]
  refine (BlkRead2.blk1_apply (Tables.adm2 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm2 m hr) V c).arrAt 2 (cfg2 (Tables.adm2 m hr)).N) (ValueIdx.ix2 (0 : Fin 1) (0 : Fin 1))
      = ∑ i : Fin 50000, Cert.Spec.dist (Tables.nodes m)
          (Cert.Spec.row (Tables.edges m (ValueIdx.ix2 0 ⟨2 * 50000 + i.val, by omega⟩)))
          (Cert.Spec.row (Tables.edges m (ValueIdx.ix2 1 ⟨2 * 50000 + i.val, by omega⟩))) := by
  have hN : (cfg2 (Tables.adm2 m hr)).N = 50000 := N_eq (Tables.adm2 m hr)
  -- the result array holds the accumulator after the last point
  refine (congrFun (arr_final (Tables.adm2 m hr) V c) (ValueIdx.ix2 (0 : Fin 1) (0 : Fin 1))).trans ?_
  -- which is the sum of the distances between the staged rows
  refine (AccSum.acc_last
    (fun i => b3 (Tables.adm2 m hr) V c ⟨i.val, lt_of_lt_of_eq i.isLt hN.symm⟩)
    (fun i => b4 (Tables.adm2 m hr) V c ⟨i.val, lt_of_lt_of_eq i.isLt hN.symm⟩)
    (fun n h => acc (Tables.adm2 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk2
-- ==== Proof.KI.BlkRead3.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead3

open Idealize.ShloMosaic Cert.KernelIdeal Cert.KernelIdeal.Gen

variable {F : FTy → Type} [FloatOps F]
variable [Cert.KernelIdeal.Facts]

/-- A grid of one axis: consecutive points differ in that axis's coordinate. -/
theorem stride0 : grid3.stride 0 = 1 := by decide

/-- The pipeline at any contents of the tables runs over the 50000 points of the grid. -/
theorem N0 (a : (pcfg3 (F := F)).Adm) : (cfg3 a).N = 50000 := N_3

theorem lt0 (a : (pcfg3 (F := F)).Adm) (t : Fin (cfg3 a).N) : t.val < 50000 := lt_of_lt_of_eq t.isLt (N0 a)

set_option maxHeartbeats 50000 in
/-- The one coordinate of the t-th point is t. -/
theorem coord0 (a : (pcfg3 (F := F)).Adm) (t : Fin (cfg3 a).N) : (((cfg3 a).grid.coords t) 0).val = t.val := by
  show t.val / grid3.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg3 (F := F)).Adm) (t : Fin (cfg3 a).N) :
    ((cfg3 a).win 0).index t = cc3_transform_0 Facts₀.k3_off1_inb Facts₀.numel1_S1 a.1 ((cfg3 a).grid.coords t) := rfl

set_option maxHeartbeats 50000 in
/-- The index map at coordinate i: (the word of table 0 at position i, 0, 0). -/
theorem transform0_0 (pf : pre3.Contents (Elt F)) (i : grid3.Coords) :
    cc3_transform_0 Facts₀.k3_off1_inb Facts₀.numel1_S1 pf i
      = ![(pf 0 (ValueIdx.ix1 (i 0))).toNat, 0, 0] := by
  unfold cc3_transform_0
  -- the one index of the unit rectangle at offset i is position i of the table
  have e : (Rect.unit (s := S50000) ![(Scalar.indexCast (BitVec.ofNat 32 (i 0).val)).toNat] S1.size (Facts₀.k3_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg3 (F := F)).Adm) (t : Fin (cfg3 a).N) (X : S50000x1x96.Idx → Elt F .f32) (j : Fin 96) (r : Fin 50000)
    (hr : r.val = (a.1 0 (ValueIdx.ix1 ⟨t.val, lt0 a t⟩)).toNat) :
    ((((cfg3 a).win 0).blk t).view.read (Elt F) X) (ValueIdx.ix3 0 0 j) = X (ValueIdx.ix3 r 0 j) := by
  show X ((((cfg3 a).win 0).blk t).view.emb (ValueIdx.ix3 0 0 j)) = X (ValueIdx.ix3 r 0 j)
  refine congrArg X ?_
  have hi : ((cfg3 a).win 0).index t = ![(a.1 0 (ValueIdx.ix1 ((cfg3 a).grid.coords t 0))).toNat, 0, 0] :=
    (index0_0 a t).trans (transform0_0 a.1 _)
  have hc : ((cfg3 a).grid.coords t 0) = ⟨t.val, lt0 a t⟩ := Fin.ext (coord0 a t)
  have h0 : ((cfg3 a).win 0).index t (0 : Fin 3) = r.val :=
    ((congrFun hi (0 : Fin 3)).trans (congrArg (fun z => (a.1 0 (ValueIdx.ix1 z)).toNat) hc)).trans hr.symm
  have h1 : ((cfg3 a).win 0).index t (1 : Fin 3) = 0 := congrFun hi (1 : Fin 3)
  have h2 : ((cfg3 a).win 0).index t (2 : Fin 3) = 0 := congrFun hi (2 : Fin 3)
  -- per axis: block index times extent, plus the coordinate inside the block
  funext ax
  refine Fin.ext ?_
  match ax with
  | ⟨0, _⟩ =>
    show ((cfg3 a).win 0).index t (0 : Fin 3) * 1 + 1 * 0 = r.val
    rw [h0]; omega
  | ⟨1, _⟩ =>
    show ((cfg3 a).win 0).index t (1 : Fin 3) * 1 + 1 * 0 = 0
    rw [h1]
  | ⟨2, _⟩ =>
    show ((cfg3 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg3 (F := F)).Adm) (t : Fin (cfg3 a).N) :
    ((cfg3 a).win 1).index t = cc3_transform_1 Facts₀.k3_off1_inb Facts₀.numel1_S1 a.1 ((cfg3 a).grid.coords t) := rfl

set_option maxHeartbeats 50000 in
/-- The index map at coordinate i: (the word of table 1 at position i, 0, 0). -/
theorem transform0_1 (pf : pre3.Contents (Elt F)) (i : grid3.Coords) :
    cc3_transform_1 Facts₀.k3_off1_inb Facts₀.numel1_S1 pf i
      = ![(pf 1 (ValueIdx.ix1 (i 0))).toNat, 0, 0] := by
  unfold cc3_transform_1
  have e : (Rect.unit (s := S50000) ![(Scalar.indexCast (BitVec.ofNat 32 (i 0).val)).toNat] S1.size (Facts₀.k3_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg3 (F := F)).Adm) (t : Fin (cfg3 a).N) (X : S50000x1x96.Idx → Elt F .f32) (j : Fin 96) (r : Fin 50000)
    (hr : r.val = (a.1 1 (ValueIdx.ix1 ⟨t.val, lt0 a t⟩)).toNat) :
    ((((cfg3 a).win 1).blk t).view.read (Elt F) X) (ValueIdx.ix3 0 0 j) = X (ValueIdx.ix3 r 0 j) := by
  show X ((((cfg3 a).win 1).blk t).view.emb (ValueIdx.ix3 0 0 j)) = X (ValueIdx.ix3 r 0 j)
  refine congrArg X ?_
  have hi : ((cfg3 a).win 1).index t = ![(a.1 1 (ValueIdx.ix1 ((cfg3 a).grid.coords t 0))).toNat, 0, 0] :=
    (index0_1 a t).trans (transform0_1 a.1 _)
  have hc : ((cfg3 a).grid.coords t 0) = ⟨t.val, lt0 a t⟩ := Fin.ext (coord0 a t)
  have h0 : ((cfg3 a).win 1).index t (0 : Fin 3) = r.val :=
    ((congrFun hi (0 : Fin 3)).trans (congrArg (fun z => (a.1 1 (ValueIdx.ix1 z)).toNat) hc)).trans hr.symm
  have h1 : ((cfg3 a).win 1).index t (1 : Fin 3) = 0 := congrFun hi (1 : Fin 3)
  have h2 : ((cfg3 a).win 1).index t (2 : Fin 3) = 0 := congrFun hi (2 : Fin 3)
  funext ax
  refine Fin.ext ?_
  match ax with
  | ⟨0, _⟩ =>
    show ((cfg3 a).win 1).index t (0 : Fin 3) * 1 + 1 * 0 = r.val
    rw [h0]; omega
  | ⟨1, _⟩ =>
    show ((cfg3 a).win 1).index t (1 : Fin 3) * 1 + 1 * 0 = 0
    rw [h1]
  | ⟨2, _⟩ =>
    show ((cfg3 a).win 1).index t (2 : Fin 3) * 96 + 1 * j.val = j.val
    rw [h2]; omega

end Cert.KernelIdeal.BlkRead3
-- ==== Proof.KI.Val03.lean ====
import proofs.«418705_j10376640987952_2_alg».proof.Proof.KI.Dat03
import proofs.«418705_j10376640987952_2_alg».proof.Proof.KI.Tables
import proofs.«418705_j10376640987952_2_alg».proof.Proof.KI.AccSum
import proofs.«418705_j10376640987952_2_alg».proof.Proof.KI.BlkRead3
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk3

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg3 (F := F)).Adm)
variable (V : (c : Dev nD) → (b : Ref sig .tc) → Buf (Elt F) ((c : Thread nD τ).loc b))

theorem last_lt : 49999 < (cfg3 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg3 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg3 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg3 (Tables.adm3 m hr)).N) : 3 * 50000 + t.val < 800000 := by
  have := lt_of_lt_of_eq t.isLt (N_eq (Tables.adm3 m hr)); omega

set_option maxHeartbeats 400000 in
/-- The row staged in window 0 at point t is the feature row of the source node of the chunk's t-th edge. -/
theorem b3_apply (hV6 : ∀ c, V c main_v6 = Tables.feat m) (c : Dev nD) (t : Fin (cfg3 (Tables.adm3 m hr)).N) (j : Fin 96) :
    b3 (Tables.adm3 m hr) V c t (ValueIdx.ix3 0 0 j)
      = Tables.nodes m (ValueIdx.ix2 (Cert.Spec.row (Tables.edges m (ValueIdx.ix2 0 ⟨3 * 50000 + t.val, pos_lt m hr t⟩))) j) := by
  have hlt : t.val < 50000 := lt_of_lt_of_eq t.isLt (N_eq (Tables.adm3 m hr))
  -- the table word at position t is the edge list's word at the chunk's t-th position
  have hw : ((Tables.adm3 m hr).1 0 (ValueIdx.ix1 ⟨t.val, hlt⟩))
      = Tables.edges m (ValueIdx.ix2 0 ⟨3 * 50000 + t.val, pos_lt m hr t⟩) := Tables.tab3_apply m 0 ⟨t.val, hlt⟩
  have hrow : (Cert.Spec.row (Tables.edges m (ValueIdx.ix2 0 ⟨3 * 50000 + t.val, pos_lt m hr t⟩))).val
      = ((Tables.adm3 m hr).1 0 (ValueIdx.ix1 ⟨t.val, hlt⟩)).toNat :=
    (Cert.Spec.row_val_of_lt (hr _)).trans (congrArg BitVec.toNat hw).symm
  show ((((cfg3 (Tables.adm3 m hr)).win 0).blk t).view.read (Elt F) (V c main_v6)) (ValueIdx.ix3 0 0 j) = _
  rw [hV6 c]
  refine (BlkRead3.blk0_apply (Tables.adm3 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg3 (Tables.adm3 m hr)).N) (j : Fin 96) :
    b4 (Tables.adm3 m hr) V c t (ValueIdx.ix3 0 0 j)
      = Tables.nodes m (ValueIdx.ix2 (Cert.Spec.row (Tables.edges m (ValueIdx.ix2 1 ⟨3 * 50000 + t.val, pos_lt m hr t⟩))) j) := by
  have hlt : t.val < 50000 := lt_of_lt_of_eq t.isLt (N_eq (Tables.adm3 m hr))
  have hw : ((Tables.adm3 m hr).1 1 (ValueIdx.ix1 ⟨t.val, hlt⟩))
      = Tables.edges m (ValueIdx.ix2 1 ⟨3 * 50000 + t.val, pos_lt m hr t⟩) := Tables.tab3_apply m 1 ⟨t.val, hlt⟩
  have hrow : (Cert.Spec.row (Tables.edges m (ValueIdx.ix2 1 ⟨3 * 50000 + t.val, pos_lt m hr t⟩))).val
      = ((Tables.adm3 m hr).1 1 (ValueIdx.ix1 ⟨t.val, hlt⟩)).toNat :=
    (Cert.Spec.row_val_of_lt (hr _)).trans (congrArg BitVec.toNat hw).symm
  show ((((cfg3 (Tables.adm3 m hr)).win 1).blk t).view.read (Elt F) (V c main_v6)) (ValueIdx.ix3 0 0 j) = _
  rw [hV6 c]
  refine (BlkRead3.blk1_apply (Tables.adm3 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm3 m hr) V c).arrAt 2 (cfg3 (Tables.adm3 m hr)).N) (ValueIdx.ix2 (0 : Fin 1) (0 : Fin 1))
      = ∑ i : Fin 50000, Cert.Spec.dist (Tables.nodes m)
          (Cert.Spec.row (Tables.edges m (ValueIdx.ix2 0 ⟨3 * 50000 + i.val, by omega⟩)))
          (Cert.Spec.row (Tables.edges m (ValueIdx.ix2 1 ⟨3 * 50000 + i.val, by omega⟩))) := by
  have hN : (cfg3 (Tables.adm3 m hr)).N = 50000 := N_eq (Tables.adm3 m hr)
  -- the result array holds the accumulator after the last point
  refine (congrFun (arr_final (Tables.adm3 m hr) V c) (ValueIdx.ix2 (0 : Fin 1) (0 : Fin 1))).trans ?_
  -- which is the sum of the distances between the staged rows
  refine (AccSum.acc_last
    (fun i => b3 (Tables.adm3 m hr) V c ⟨i.val, lt_of_lt_of_eq i.isLt hN.symm⟩)
    (fun i => b4 (Tables.adm3 m hr) V c ⟨i.val, lt_of_lt_of_eq i.isLt hN.symm⟩)
    (fun n h => acc (Tables.adm3 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk3
-- ==== Proof.KI.BlkRead4.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead4

open Idealize.ShloMosaic Cert.KernelIdeal Cert.KernelIdeal.Gen

variable {F : FTy → Type} [FloatOps F]
variable [Cert.KernelIdeal.Facts]

/-- A grid of one axis: consecutive points differ in that axis's coordinate. -/
theorem stride0 : grid4.stride 0 = 1 := by decide

/-- The pipeline at any contents of the tables runs over the 50000 points of the grid. -/
theorem N0 (a : (pcfg4 (F := F)).Adm) : (cfg4 a).N = 50000 := N_4

theorem lt0 (a : (pcfg4 (F := F)).Adm) (t : Fin (cfg4 a).N) : t.val < 50000 := lt_of_lt_of_eq t.isLt (N0 a)

set_option maxHeartbeats 50000 in
/-- The one coordinate of the t-th point is t. -/
theorem coord0 (a : (pcfg4 (F := F)).Adm) (t : Fin (cfg4 a).N) : (((cfg4 a).grid.coords t) 0).val = t.val := by
  show t.val / grid4.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg4 (F := F)).Adm) (t : Fin (cfg4 a).N) :
    ((cfg4 a).win 0).index t = cc4_transform_0 Facts₀.k4_off1_inb Facts₀.numel1_S1 a.1 ((cfg4 a).grid.coords t) := rfl

set_option maxHeartbeats 50000 in
/-- The index map at coordinate i: (the word of table 0 at position i, 0, 0). -/
theorem transform0_0 (pf : pre4.Contents (Elt F)) (i : grid4.Coords) :
    cc4_transform_0 Facts₀.k4_off1_inb Facts₀.numel1_S1 pf i
      = ![(pf 0 (ValueIdx.ix1 (i 0))).toNat, 0, 0] := by
  unfold cc4_transform_0
  -- the one index of the unit rectangle at offset i is position i of the table
  have e : (Rect.unit (s := S50000) ![(Scalar.indexCast (BitVec.ofNat 32 (i 0).val)).toNat] S1.size (Facts₀.k4_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg4 (F := F)).Adm) (t : Fin (cfg4 a).N) (X : S50000x1x96.Idx → Elt F .f32) (j : Fin 96) (r : Fin 50000)
    (hr : r.val = (a.1 0 (ValueIdx.ix1 ⟨t.val, lt0 a t⟩)).toNat) :
    ((((cfg4 a).win 0).blk t).view.read (Elt F) X) (ValueIdx.ix3 0 0 j) = X (ValueIdx.ix3 r 0 j) := by
  show X ((((cfg4 a).win 0).blk t).view.emb (ValueIdx.ix3 0 0 j)) = X (ValueIdx.ix3 r 0 j)
  refine congrArg X ?_
  have hi : ((cfg4 a).win 0).index t = ![(a.1 0 (ValueIdx.ix1 ((cfg4 a).grid.coords t 0))).toNat, 0, 0] :=
    (index0_0 a t).trans (transform0_0 a.1 _)
  have hc : ((cfg4 a).grid.coords t 0) = ⟨t.val, lt0 a t⟩ := Fin.ext (coord0 a t)
  have h0 : ((cfg4 a).win 0).index t (0 : Fin 3) = r.val :=
    ((congrFun hi (0 : Fin 3)).trans (congrArg (fun z => (a.1 0 (ValueIdx.ix1 z)).toNat) hc)).trans hr.symm
  have h1 : ((cfg4 a).win 0).index t (1 : Fin 3) = 0 := congrFun hi (1 : Fin 3)
  have h2 : ((cfg4 a).win 0).index t (2 : Fin 3) = 0 := congrFun hi (2 : Fin 3)
  -- per axis: block index times extent, plus the coordinate inside the block
  funext ax
  refine Fin.ext ?_
  match ax with
  | ⟨0, _⟩ =>
    show ((cfg4 a).win 0).index t (0 : Fin 3) * 1 + 1 * 0 = r.val
    rw [h0]; omega
  | ⟨1, _⟩ =>
    show ((cfg4 a).win 0).index t (1 : Fin 3) * 1 + 1 * 0 = 0
    rw [h1]
  | ⟨2, _⟩ =>
    show ((cfg4 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg4 (F := F)).Adm) (t : Fin (cfg4 a).N) :
    ((cfg4 a).win 1).index t = cc4_transform_1 Facts₀.k4_off1_inb Facts₀.numel1_S1 a.1 ((cfg4 a).grid.coords t) := rfl

set_option maxHeartbeats 50000 in
/-- The index map at coordinate i: (the word of table 1 at position i, 0, 0). -/
theorem transform0_1 (pf : pre4.Contents (Elt F)) (i : grid4.Coords) :
    cc4_transform_1 Facts₀.k4_off1_inb Facts₀.numel1_S1 pf i
      = ![(pf 1 (ValueIdx.ix1 (i 0))).toNat, 0, 0] := by
  unfold cc4_transform_1
  have e : (Rect.unit (s := S50000) ![(Scalar.indexCast (BitVec.ofNat 32 (i 0).val)).toNat] S1.size (Facts₀.k4_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg4 (F := F)).Adm) (t : Fin (cfg4 a).N) (X : S50000x1x96.Idx → Elt F .f32) (j : Fin 96) (r : Fin 50000)
    (hr : r.val = (a.1 1 (ValueIdx.ix1 ⟨t.val, lt0 a t⟩)).toNat) :
    ((((cfg4 a).win 1).blk t).view.read (Elt F) X) (ValueIdx.ix3 0 0 j) = X (ValueIdx.ix3 r 0 j) := by
  show X ((((cfg4 a).win 1).blk t).view.emb (ValueIdx.ix3 0 0 j)) = X (ValueIdx.ix3 r 0 j)
  refine congrArg X ?_
  have hi : ((cfg4 a).win 1).index t = ![(a.1 1 (ValueIdx.ix1 ((cfg4 a).grid.coords t 0))).toNat, 0, 0] :=
    (index0_1 a t).trans (transform0_1 a.1 _)
  have hc : ((cfg4 a).grid.coords t 0) = ⟨t.val, lt0 a t⟩ := Fin.ext (coord0 a t)
  have h0 : ((cfg4 a).win 1).index t (0 : Fin 3) = r.val :=
    ((congrFun hi (0 : Fin 3)).trans (congrArg (fun z => (a.1 1 (ValueIdx.ix1 z)).toNat) hc)).trans hr.symm
  have h1 : ((cfg4 a).win 1).index t (1 : Fin 3) = 0 := congrFun hi (1 : Fin 3)
  have h2 : ((cfg4 a).win 1).index t (2 : Fin 3) = 0 := congrFun hi (2 : Fin 3)
  funext ax
  refine Fin.ext ?_
  match ax with
  | ⟨0, _⟩ =>
    show ((cfg4 a).win 1).index t (0 : Fin 3) * 1 + 1 * 0 = r.val
    rw [h0]; omega
  | ⟨1, _⟩ =>
    show ((cfg4 a).win 1).index t (1 : Fin 3) * 1 + 1 * 0 = 0
    rw [h1]
  | ⟨2, _⟩ =>
    show ((cfg4 a).win 1).index t (2 : Fin 3) * 96 + 1 * j.val = j.val
    rw [h2]; omega

end Cert.KernelIdeal.BlkRead4
-- ==== Proof.KI.Val04.lean ====
import proofs.«418705_j10376640987952_2_alg».proof.Proof.KI.Dat04
import proofs.«418705_j10376640987952_2_alg».proof.Proof.KI.Tables
import proofs.«418705_j10376640987952_2_alg».proof.Proof.KI.AccSum
import proofs.«418705_j10376640987952_2_alg».proof.Proof.KI.BlkRead4
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk4

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg4 (F := F)).Adm)
variable (V : (c : Dev nD) → (b : Ref sig .tc) → Buf (Elt F) ((c : Thread nD τ).loc b))

theorem last_lt : 49999 < (cfg4 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg4 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg4 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg4 (Tables.adm4 m hr)).N) : 4 * 50000 + t.val < 800000 := by
  have := lt_of_lt_of_eq t.isLt (N_eq (Tables.adm4 m hr)); omega

set_option maxHeartbeats 400000 in
/-- The row staged in window 0 at point t is the feature row of the source node of the chunk's t-th edge. -/
theorem b3_apply (hV6 : ∀ c, V c main_v6 = Tables.feat m) (c : Dev nD) (t : Fin (cfg4 (Tables.adm4 m hr)).N) (j : Fin 96) :
    b3 (Tables.adm4 m hr) V c t (ValueIdx.ix3 0 0 j)
      = Tables.nodes m (ValueIdx.ix2 (Cert.Spec.row (Tables.edges m (ValueIdx.ix2 0 ⟨4 * 50000 + t.val, pos_lt m hr t⟩))) j) := by
  have hlt : t.val < 50000 := lt_of_lt_of_eq t.isLt (N_eq (Tables.adm4 m hr))
  -- the table word at position t is the edge list's word at the chunk's t-th position
  have hw : ((Tables.adm4 m hr).1 0 (ValueIdx.ix1 ⟨t.val, hlt⟩))
      = Tables.edges m (ValueIdx.ix2 0 ⟨4 * 50000 + t.val, pos_lt m hr t⟩) := Tables.tab4_apply m 0 ⟨t.val, hlt⟩
  have hrow : (Cert.Spec.row (Tables.edges m (ValueIdx.ix2 0 ⟨4 * 50000 + t.val, pos_lt m hr t⟩))).val
      = ((Tables.adm4 m hr).1 0 (ValueIdx.ix1 ⟨t.val, hlt⟩)).toNat :=
    (Cert.Spec.row_val_of_lt (hr _)).trans (congrArg BitVec.toNat hw).symm
  show ((((cfg4 (Tables.adm4 m hr)).win 0).blk t).view.read (Elt F) (V c main_v6)) (ValueIdx.ix3 0 0 j) = _
  rw [hV6 c]
  refine (BlkRead4.blk0_apply (Tables.adm4 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg4 (Tables.adm4 m hr)).N) (j : Fin 96) :
    b4 (Tables.adm4 m hr) V c t (ValueIdx.ix3 0 0 j)
      = Tables.nodes m (ValueIdx.ix2 (Cert.Spec.row (Tables.edges m (ValueIdx.ix2 1 ⟨4 * 50000 + t.val, pos_lt m hr t⟩))) j) := by
  have hlt : t.val < 50000 := lt_of_lt_of_eq t.isLt (N_eq (Tables.adm4 m hr))
  have hw : ((Tables.adm4 m hr).1 1 (ValueIdx.ix1 ⟨t.val, hlt⟩))
      = Tables.edges m (ValueIdx.ix2 1 ⟨4 * 50000 + t.val, pos_lt m hr t⟩) := Tables.tab4_apply m 1 ⟨t.val, hlt⟩
  have hrow : (Cert.Spec.row (Tables.edges m (ValueIdx.ix2 1 ⟨4 * 50000 + t.val, pos_lt m hr t⟩))).val
      = ((Tables.adm4 m hr).1 1 (ValueIdx.ix1 ⟨t.val, hlt⟩)).toNat :=
    (Cert.Spec.row_val_of_lt (hr _)).trans (congrArg BitVec.toNat hw).symm
  show ((((cfg4 (Tables.adm4 m hr)).win 1).blk t).view.read (Elt F) (V c main_v6)) (ValueIdx.ix3 0 0 j) = _
  rw [hV6 c]
  refine (BlkRead4.blk1_apply (Tables.adm4 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm4 m hr) V c).arrAt 2 (cfg4 (Tables.adm4 m hr)).N) (ValueIdx.ix2 (0 : Fin 1) (0 : Fin 1))
      = ∑ i : Fin 50000, Cert.Spec.dist (Tables.nodes m)
          (Cert.Spec.row (Tables.edges m (ValueIdx.ix2 0 ⟨4 * 50000 + i.val, by omega⟩)))
          (Cert.Spec.row (Tables.edges m (ValueIdx.ix2 1 ⟨4 * 50000 + i.val, by omega⟩))) := by
  have hN : (cfg4 (Tables.adm4 m hr)).N = 50000 := N_eq (Tables.adm4 m hr)
  -- the result array holds the accumulator after the last point
  refine (congrFun (arr_final (Tables.adm4 m hr) V c) (ValueIdx.ix2 (0 : Fin 1) (0 : Fin 1))).trans ?_
  -- which is the sum of the distances between the staged rows
  refine (AccSum.acc_last
    (fun i => b3 (Tables.adm4 m hr) V c ⟨i.val, lt_of_lt_of_eq i.isLt hN.symm⟩)
    (fun i => b4 (Tables.adm4 m hr) V c ⟨i.val, lt_of_lt_of_eq i.isLt hN.symm⟩)
    (fun n h => acc (Tables.adm4 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk4
-- ==== Proof.KI.BlkRead5.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead5

open Idealize.ShloMosaic Cert.KernelIdeal Cert.KernelIdeal.Gen

variable {F : FTy → Type} [FloatOps F]
variable [Cert.KernelIdeal.Facts]

/-- A grid of one axis: consecutive points differ in that axis's coordinate. -/
theorem stride0 : grid5.stride 0 = 1 := by decide

/-- The pipeline at any contents of the tables runs over the 50000 points of the grid. -/
theorem N0 (a : (pcfg5 (F := F)).Adm) : (cfg5 a).N = 50000 := N_5

theorem lt0 (a : (pcfg5 (F := F)).Adm) (t : Fin (cfg5 a).N) : t.val < 50000 := lt_of_lt_of_eq t.isLt (N0 a)

set_option maxHeartbeats 50000 in
/-- The one coordinate of the t-th point is t. -/
theorem coord0 (a : (pcfg5 (F := F)).Adm) (t : Fin (cfg5 a).N) : (((cfg5 a).grid.coords t) 0).val = t.val := by
  show t.val / grid5.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg5 (F := F)).Adm) (t : Fin (cfg5 a).N) :
    ((cfg5 a).win 0).index t = cc5_transform_0 Facts₀.k5_off1_inb Facts₀.numel1_S1 a.1 ((cfg5 a).grid.coords t) := rfl

set_option maxHeartbeats 50000 in
/-- The index map at coordinate i: (the word of table 0 at position i, 0, 0). -/
theorem transform0_0 (pf : pre5.Contents (Elt F)) (i : grid5.Coords) :
    cc5_transform_0 Facts₀.k5_off1_inb Facts₀.numel1_S1 pf i
      = ![(pf 0 (ValueIdx.ix1 (i 0))).toNat, 0, 0] := by
  unfold cc5_transform_0
  -- the one index of the unit rectangle at offset i is position i of the table
  have e : (Rect.unit (s := S50000) ![(Scalar.indexCast (BitVec.ofNat 32 (i 0).val)).toNat] S1.size (Facts₀.k5_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg5 (F := F)).Adm) (t : Fin (cfg5 a).N) (X : S50000x1x96.Idx → Elt F .f32) (j : Fin 96) (r : Fin 50000)
    (hr : r.val = (a.1 0 (ValueIdx.ix1 ⟨t.val, lt0 a t⟩)).toNat) :
    ((((cfg5 a).win 0).blk t).view.read (Elt F) X) (ValueIdx.ix3 0 0 j) = X (ValueIdx.ix3 r 0 j) := by
  show X ((((cfg5 a).win 0).blk t).view.emb (ValueIdx.ix3 0 0 j)) = X (ValueIdx.ix3 r 0 j)
  refine congrArg X ?_
  have hi : ((cfg5 a).win 0).index t = ![(a.1 0 (ValueIdx.ix1 ((cfg5 a).grid.coords t 0))).toNat, 0, 0] :=
    (index0_0 a t).trans (transform0_0 a.1 _)
  have hc : ((cfg5 a).grid.coords t 0) = ⟨t.val, lt0 a t⟩ := Fin.ext (coord0 a t)
  have h0 : ((cfg5 a).win 0).index t (0 : Fin 3) = r.val :=
    ((congrFun hi (0 : Fin 3)).trans (congrArg (fun z => (a.1 0 (ValueIdx.ix1 z)).toNat) hc)).trans hr.symm
  have h1 : ((cfg5 a).win 0).index t (1 : Fin 3) = 0 := congrFun hi (1 : Fin 3)
  have h2 : ((cfg5 a).win 0).index t (2 : Fin 3) = 0 := congrFun hi (2 : Fin 3)
  -- per axis: block index times extent, plus the coordinate inside the block
  funext ax
  refine Fin.ext ?_
  match ax with
  | ⟨0, _⟩ =>
    show ((cfg5 a).win 0).index t (0 : Fin 3) * 1 + 1 * 0 = r.val
    rw [h0]; omega
  | ⟨1, _⟩ =>
    show ((cfg5 a).win 0).index t (1 : Fin 3) * 1 + 1 * 0 = 0
    rw [h1]
  | ⟨2, _⟩ =>
    show ((cfg5 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg5 (F := F)).Adm) (t : Fin (cfg5 a).N) :
    ((cfg5 a).win 1).index t = cc5_transform_1 Facts₀.k5_off1_inb Facts₀.numel1_S1 a.1 ((cfg5 a).grid.coords t) := rfl

set_option maxHeartbeats 50000 in
/-- The index map at coordinate i: (the word of table 1 at position i, 0, 0). -/
theorem transform0_1 (pf : pre5.Contents (Elt F)) (i : grid5.Coords) :
    cc5_transform_1 Facts₀.k5_off1_inb Facts₀.numel1_S1 pf i
      = ![(pf 1 (ValueIdx.ix1 (i 0))).toNat, 0, 0] := by
  unfold cc5_transform_1
  have e : (Rect.unit (s := S50000) ![(Scalar.indexCast (BitVec.ofNat 32 (i 0).val)).toNat] S1.size (Facts₀.k5_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg5 (F := F)).Adm) (t : Fin (cfg5 a).N) (X : S50000x1x96.Idx → Elt F .f32) (j : Fin 96) (r : Fin 50000)
    (hr : r.val = (a.1 1 (ValueIdx.ix1 ⟨t.val, lt0 a t⟩)).toNat) :
    ((((cfg5 a).win 1).blk t).view.read (Elt F) X) (ValueIdx.ix3 0 0 j) = X (ValueIdx.ix3 r 0 j) := by
  show X ((((cfg5 a).win 1).blk t).view.emb (ValueIdx.ix3 0 0 j)) = X (ValueIdx.ix3 r 0 j)
  refine congrArg X ?_
  have hi : ((cfg5 a).win 1).index t = ![(a.1 1 (ValueIdx.ix1 ((cfg5 a).grid.coords t 0))).toNat, 0, 0] :=
    (index0_1 a t).trans (transform0_1 a.1 _)
  have hc : ((cfg5 a).grid.coords t 0) = ⟨t.val, lt0 a t⟩ := Fin.ext (coord0 a t)
  have h0 : ((cfg5 a).win 1).index t (0 : Fin 3) = r.val :=
    ((congrFun hi (0 : Fin 3)).trans (congrArg (fun z => (a.1 1 (ValueIdx.ix1 z)).toNat) hc)).trans hr.symm
  have h1 : ((cfg5 a).win 1).index t (1 : Fin 3) = 0 := congrFun hi (1 : Fin 3)
  have h2 : ((cfg5 a).win 1).index t (2 : Fin 3) = 0 := congrFun hi (2 : Fin 3)
  funext ax
  refine Fin.ext ?_
  match ax with
  | ⟨0, _⟩ =>
    show ((cfg5 a).win 1).index t (0 : Fin 3) * 1 + 1 * 0 = r.val
    rw [h0]; omega
  | ⟨1, _⟩ =>
    show ((cfg5 a).win 1).index t (1 : Fin 3) * 1 + 1 * 0 = 0
    rw [h1]
  | ⟨2, _⟩ =>
    show ((cfg5 a).win 1).index t (2 : Fin 3) * 96 + 1 * j.val = j.val
    rw [h2]; omega

end Cert.KernelIdeal.BlkRead5
-- ==== Proof.KI.Val05.lean ====
import proofs.«418705_j10376640987952_2_alg».proof.Proof.KI.Dat05
import proofs.«418705_j10376640987952_2_alg».proof.Proof.KI.Tables
import proofs.«418705_j10376640987952_2_alg».proof.Proof.KI.AccSum
import proofs.«418705_j10376640987952_2_alg».proof.Proof.KI.BlkRead5
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk5

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg5 (F := F)).Adm)
variable (V : (c : Dev nD) → (b : Ref sig .tc) → Buf (Elt F) ((c : Thread nD τ).loc b))

theorem last_lt : 49999 < (cfg5 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg5 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg5 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg5 (Tables.adm5 m hr)).N) : 5 * 50000 + t.val < 800000 := by
  have := lt_of_lt_of_eq t.isLt (N_eq (Tables.adm5 m hr)); omega

set_option maxHeartbeats 400000 in
/-- The row staged in window 0 at point t is the feature row of the source node of the chunk's t-th edge. -/
theorem b3_apply (hV6 : ∀ c, V c main_v6 = Tables.feat m) (c : Dev nD) (t : Fin (cfg5 (Tables.adm5 m hr)).N) (j : Fin 96) :
    b3 (Tables.adm5 m hr) V c t (ValueIdx.ix3 0 0 j)
      = Tables.nodes m (ValueIdx.ix2 (Cert.Spec.row (Tables.edges m (ValueIdx.ix2 0 ⟨5 * 50000 + t.val, pos_lt m hr t⟩))) j) := by
  have hlt : t.val < 50000 := lt_of_lt_of_eq t.isLt (N_eq (Tables.adm5 m hr))
  -- the table word at position t is the edge list's word at the chunk's t-th position
  have hw : ((Tables.adm5 m hr).1 0 (ValueIdx.ix1 ⟨t.val, hlt⟩))
      = Tables.edges m (ValueIdx.ix2 0 ⟨5 * 50000 + t.val, pos_lt m hr t⟩) := Tables.tab5_apply m 0 ⟨t.val, hlt⟩
  have hrow : (Cert.Spec.row (Tables.edges m (ValueIdx.ix2 0 ⟨5 * 50000 + t.val, pos_lt m hr t⟩))).val
      = ((Tables.adm5 m hr).1 0 (ValueIdx.ix1 ⟨t.val, hlt⟩)).toNat :=
    (Cert.Spec.row_val_of_lt (hr _)).trans (congrArg BitVec.toNat hw).symm
  show ((((cfg5 (Tables.adm5 m hr)).win 0).blk t).view.read (Elt F) (V c main_v6)) (ValueIdx.ix3 0 0 j) = _
  rw [hV6 c]
  refine (BlkRead5.blk0_apply (Tables.adm5 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg5 (Tables.adm5 m hr)).N) (j : Fin 96) :
    b4 (Tables.adm5 m hr) V c t (ValueIdx.ix3 0 0 j)
      = Tables.nodes m (ValueIdx.ix2 (Cert.Spec.row (Tables.edges m (ValueIdx.ix2 1 ⟨5 * 50000 + t.val, pos_lt m hr t⟩))) j) := by
  have hlt : t.val < 50000 := lt_of_lt_of_eq t.isLt (N_eq (Tables.adm5 m hr))
  have hw : ((Tables.adm5 m hr).1 1 (ValueIdx.ix1 ⟨t.val, hlt⟩))
      = Tables.edges m (ValueIdx.ix2 1 ⟨5 * 50000 + t.val, pos_lt m hr t⟩) := Tables.tab5_apply m 1 ⟨t.val, hlt⟩
  have hrow : (Cert.Spec.row (Tables.edges m (ValueIdx.ix2 1 ⟨5 * 50000 + t.val, pos_lt m hr t⟩))).val
      = ((Tables.adm5 m hr).1 1 (ValueIdx.ix1 ⟨t.val, hlt⟩)).toNat :=
    (Cert.Spec.row_val_of_lt (hr _)).trans (congrArg BitVec.toNat hw).symm
  show ((((cfg5 (Tables.adm5 m hr)).win 1).blk t).view.read (Elt F) (V c main_v6)) (ValueIdx.ix3 0 0 j) = _
  rw [hV6 c]
  refine (BlkRead5.blk1_apply (Tables.adm5 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm5 m hr) V c).arrAt 2 (cfg5 (Tables.adm5 m hr)).N) (ValueIdx.ix2 (0 : Fin 1) (0 : Fin 1))
      = ∑ i : Fin 50000, Cert.Spec.dist (Tables.nodes m)
          (Cert.Spec.row (Tables.edges m (ValueIdx.ix2 0 ⟨5 * 50000 + i.val, by omega⟩)))
          (Cert.Spec.row (Tables.edges m (ValueIdx.ix2 1 ⟨5 * 50000 + i.val, by omega⟩))) := by
  have hN : (cfg5 (Tables.adm5 m hr)).N = 50000 := N_eq (Tables.adm5 m hr)
  -- the result array holds the accumulator after the last point
  refine (congrFun (arr_final (Tables.adm5 m hr) V c) (ValueIdx.ix2 (0 : Fin 1) (0 : Fin 1))).trans ?_
  -- which is the sum of the distances between the staged rows
  refine (AccSum.acc_last
    (fun i => b3 (Tables.adm5 m hr) V c ⟨i.val, lt_of_lt_of_eq i.isLt hN.symm⟩)
    (fun i => b4 (Tables.adm5 m hr) V c ⟨i.val, lt_of_lt_of_eq i.isLt hN.symm⟩)
    (fun n h => acc (Tables.adm5 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk5
-- ==== Proof.KI.BlkRead6.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead6

open Idealize.ShloMosaic Cert.KernelIdeal Cert.KernelIdeal.Gen

variable {F : FTy → Type} [FloatOps F]
variable [Cert.KernelIdeal.Facts]

/-- A grid of one axis: consecutive points differ in that axis's coordinate. -/
theorem stride0 : grid6.stride 0 = 1 := by decide

/-- The pipeline at any contents of the tables runs over the 50000 points of the grid. -/
theorem N0 (a : (pcfg6 (F := F)).Adm) : (cfg6 a).N = 50000 := N_6

theorem lt0 (a : (pcfg6 (F := F)).Adm) (t : Fin (cfg6 a).N) : t.val < 50000 := lt_of_lt_of_eq t.isLt (N0 a)

set_option maxHeartbeats 50000 in
/-- The one coordinate of the t-th point is t. -/
theorem coord0 (a : (pcfg6 (F := F)).Adm) (t : Fin (cfg6 a).N) : (((cfg6 a).grid.coords t) 0).val = t.val := by
  show t.val / grid6.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg6 (F := F)).Adm) (t : Fin (cfg6 a).N) :
    ((cfg6 a).win 0).index t = cc6_transform_0 Facts₀.k6_off1_inb Facts₀.numel1_S1 a.1 ((cfg6 a).grid.coords t) := rfl

set_option maxHeartbeats 50000 in
/-- The index map at coordinate i: (the word of table 0 at position i, 0, 0). -/
theorem transform0_0 (pf : pre6.Contents (Elt F)) (i : grid6.Coords) :
    cc6_transform_0 Facts₀.k6_off1_inb Facts₀.numel1_S1 pf i
      = ![(pf 0 (ValueIdx.ix1 (i 0))).toNat, 0, 0] := by
  unfold cc6_transform_0
  -- the one index of the unit rectangle at offset i is position i of the table
  have e : (Rect.unit (s := S50000) ![(Scalar.indexCast (BitVec.ofNat 32 (i 0).val)).toNat] S1.size (Facts₀.k6_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg6 (F := F)).Adm) (t : Fin (cfg6 a).N) (X : S50000x1x96.Idx → Elt F .f32) (j : Fin 96) (r : Fin 50000)
    (hr : r.val = (a.1 0 (ValueIdx.ix1 ⟨t.val, lt0 a t⟩)).toNat) :
    ((((cfg6 a).win 0).blk t).view.read (Elt F) X) (ValueIdx.ix3 0 0 j) = X (ValueIdx.ix3 r 0 j) := by
  show X ((((cfg6 a).win 0).blk t).view.emb (ValueIdx.ix3 0 0 j)) = X (ValueIdx.ix3 r 0 j)
  refine congrArg X ?_
  have hi : ((cfg6 a).win 0).index t = ![(a.1 0 (ValueIdx.ix1 ((cfg6 a).grid.coords t 0))).toNat, 0, 0] :=
    (index0_0 a t).trans (transform0_0 a.1 _)
  have hc : ((cfg6 a).grid.coords t 0) = ⟨t.val, lt0 a t⟩ := Fin.ext (coord0 a t)
  have h0 : ((cfg6 a).win 0).index t (0 : Fin 3) = r.val :=
    ((congrFun hi (0 : Fin 3)).trans (congrArg (fun z => (a.1 0 (ValueIdx.ix1 z)).toNat) hc)).trans hr.symm
  have h1 : ((cfg6 a).win 0).index t (1 : Fin 3) = 0 := congrFun hi (1 : Fin 3)
  have h2 : ((cfg6 a).win 0).index t (2 : Fin 3) = 0 := congrFun hi (2 : Fin 3)
  -- per axis: block index times extent, plus the coordinate inside the block
  funext ax
  refine Fin.ext ?_
  match ax with
  | ⟨0, _⟩ =>
    show ((cfg6 a).win 0).index t (0 : Fin 3) * 1 + 1 * 0 = r.val
    rw [h0]; omega
  | ⟨1, _⟩ =>
    show ((cfg6 a).win 0).index t (1 : Fin 3) * 1 + 1 * 0 = 0
    rw [h1]
  | ⟨2, _⟩ =>
    show ((cfg6 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg6 (F := F)).Adm) (t : Fin (cfg6 a).N) :
    ((cfg6 a).win 1).index t = cc6_transform_1 Facts₀.k6_off1_inb Facts₀.numel1_S1 a.1 ((cfg6 a).grid.coords t) := rfl

set_option maxHeartbeats 50000 in
/-- The index map at coordinate i: (the word of table 1 at position i, 0, 0). -/
theorem transform0_1 (pf : pre6.Contents (Elt F)) (i : grid6.Coords) :
    cc6_transform_1 Facts₀.k6_off1_inb Facts₀.numel1_S1 pf i
      = ![(pf 1 (ValueIdx.ix1 (i 0))).toNat, 0, 0] := by
  unfold cc6_transform_1
  have e : (Rect.unit (s := S50000) ![(Scalar.indexCast (BitVec.ofNat 32 (i 0).val)).toNat] S1.size (Facts₀.k6_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg6 (F := F)).Adm) (t : Fin (cfg6 a).N) (X : S50000x1x96.Idx → Elt F .f32) (j : Fin 96) (r : Fin 50000)
    (hr : r.val = (a.1 1 (ValueIdx.ix1 ⟨t.val, lt0 a t⟩)).toNat) :
    ((((cfg6 a).win 1).blk t).view.read (Elt F) X) (ValueIdx.ix3 0 0 j) = X (ValueIdx.ix3 r 0 j) := by
  show X ((((cfg6 a).win 1).blk t).view.emb (ValueIdx.ix3 0 0 j)) = X (ValueIdx.ix3 r 0 j)
  refine congrArg X ?_
  have hi : ((cfg6 a).win 1).index t = ![(a.1 1 (ValueIdx.ix1 ((cfg6 a).grid.coords t 0))).toNat, 0, 0] :=
    (index0_1 a t).trans (transform0_1 a.1 _)
  have hc : ((cfg6 a).grid.coords t 0) = ⟨t.val, lt0 a t⟩ := Fin.ext (coord0 a t)
  have h0 : ((cfg6 a).win 1).index t (0 : Fin 3) = r.val :=
    ((congrFun hi (0 : Fin 3)).trans (congrArg (fun z => (a.1 1 (ValueIdx.ix1 z)).toNat) hc)).trans hr.symm
  have h1 : ((cfg6 a).win 1).index t (1 : Fin 3) = 0 := congrFun hi (1 : Fin 3)
  have h2 : ((cfg6 a).win 1).index t (2 : Fin 3) = 0 := congrFun hi (2 : Fin 3)
  funext ax
  refine Fin.ext ?_
  match ax with
  | ⟨0, _⟩ =>
    show ((cfg6 a).win 1).index t (0 : Fin 3) * 1 + 1 * 0 = r.val
    rw [h0]; omega
  | ⟨1, _⟩ =>
    show ((cfg6 a).win 1).index t (1 : Fin 3) * 1 + 1 * 0 = 0
    rw [h1]
  | ⟨2, _⟩ =>
    show ((cfg6 a).win 1).index t (2 : Fin 3) * 96 + 1 * j.val = j.val
    rw [h2]; omega

end Cert.KernelIdeal.BlkRead6
-- ==== Proof.KI.Val06.lean ====
import proofs.«418705_j10376640987952_2_alg».proof.Proof.KI.Dat06
import proofs.«418705_j10376640987952_2_alg».proof.Proof.KI.Tables
import proofs.«418705_j10376640987952_2_alg».proof.Proof.KI.AccSum
import proofs.«418705_j10376640987952_2_alg».proof.Proof.KI.BlkRead6
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk6

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg6 (F := F)).Adm)
variable (V : (c : Dev nD) → (b : Ref sig .tc) → Buf (Elt F) ((c : Thread nD τ).loc b))

theorem last_lt : 49999 < (cfg6 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg6 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg6 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg6 (Tables.adm6 m hr)).N) : 6 * 50000 + t.val < 800000 := by
  have := lt_of_lt_of_eq t.isLt (N_eq (Tables.adm6 m hr)); omega

set_option maxHeartbeats 400000 in
/-- The row staged in window 0 at point t is the feature row of the source node of the chunk's t-th edge. -/
theorem b3_apply (hV6 : ∀ c, V c main_v6 = Tables.feat m) (c : Dev nD) (t : Fin (cfg6 (Tables.adm6 m hr)).N) (j : Fin 96) :
    b3 (Tables.adm6 m hr) V c t (ValueIdx.ix3 0 0 j)
      = Tables.nodes m (ValueIdx.ix2 (Cert.Spec.row (Tables.edges m (ValueIdx.ix2 0 ⟨6 * 50000 + t.val, pos_lt m hr t⟩))) j) := by
  have hlt : t.val < 50000 := lt_of_lt_of_eq t.isLt (N_eq (Tables.adm6 m hr))
  -- the table word at position t is the edge list's word at the chunk's t-th position
  have hw : ((Tables.adm6 m hr).1 0 (ValueIdx.ix1 ⟨t.val, hlt⟩))
      = Tables.edges m (ValueIdx.ix2 0 ⟨6 * 50000 + t.val, pos_lt m hr t⟩) := Tables.tab6_apply m 0 ⟨t.val, hlt⟩
  have hrow : (Cert.Spec.row (Tables.edges m (ValueIdx.ix2 0 ⟨6 * 50000 + t.val, pos_lt m hr t⟩))).val
      = ((Tables.adm6 m hr).1 0 (ValueIdx.ix1 ⟨t.val, hlt⟩)).toNat :=
    (Cert.Spec.row_val_of_lt (hr _)).trans (congrArg BitVec.toNat hw).symm
  show ((((cfg6 (Tables.adm6 m hr)).win 0).blk t).view.read (Elt F) (V c main_v6)) (ValueIdx.ix3 0 0 j) = _
  rw [hV6 c]
  refine (BlkRead6.blk0_apply (Tables.adm6 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg6 (Tables.adm6 m hr)).N) (j : Fin 96) :
    b4 (Tables.adm6 m hr) V c t (ValueIdx.ix3 0 0 j)
      = Tables.nodes m (ValueIdx.ix2 (Cert.Spec.row (Tables.edges m (ValueIdx.ix2 1 ⟨6 * 50000 + t.val, pos_lt m hr t⟩))) j) := by
  have hlt : t.val < 50000 := lt_of_lt_of_eq t.isLt (N_eq (Tables.adm6 m hr))
  have hw : ((Tables.adm6 m hr).1 1 (ValueIdx.ix1 ⟨t.val, hlt⟩))
      = Tables.edges m (ValueIdx.ix2 1 ⟨6 * 50000 + t.val, pos_lt m hr t⟩) := Tables.tab6_apply m 1 ⟨t.val, hlt⟩
  have hrow : (Cert.Spec.row (Tables.edges m (ValueIdx.ix2 1 ⟨6 * 50000 + t.val, pos_lt m hr t⟩))).val
      = ((Tables.adm6 m hr).1 1 (ValueIdx.ix1 ⟨t.val, hlt⟩)).toNat :=
    (Cert.Spec.row_val_of_lt (hr _)).trans (congrArg BitVec.toNat hw).symm
  show ((((cfg6 (Tables.adm6 m hr)).win 1).blk t).view.read (Elt F) (V c main_v6)) (ValueIdx.ix3 0 0 j) = _
  rw [hV6 c]
  refine (BlkRead6.blk1_apply (Tables.adm6 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm6 m hr) V c).arrAt 2 (cfg6 (Tables.adm6 m hr)).N) (ValueIdx.ix2 (0 : Fin 1) (0 : Fin 1))
      = ∑ i : Fin 50000, Cert.Spec.dist (Tables.nodes m)
          (Cert.Spec.row (Tables.edges m (ValueIdx.ix2 0 ⟨6 * 50000 + i.val, by omega⟩)))
          (Cert.Spec.row (Tables.edges m (ValueIdx.ix2 1 ⟨6 * 50000 + i.val, by omega⟩))) := by
  have hN : (cfg6 (Tables.adm6 m hr)).N = 50000 := N_eq (Tables.adm6 m hr)
  -- the result array holds the accumulator after the last point
  refine (congrFun (arr_final (Tables.adm6 m hr) V c) (ValueIdx.ix2 (0 : Fin 1) (0 : Fin 1))).trans ?_
  -- which is the sum of the distances between the staged rows
  refine (AccSum.acc_last
    (fun i => b3 (Tables.adm6 m hr) V c ⟨i.val, lt_of_lt_of_eq i.isLt hN.symm⟩)
    (fun i => b4 (Tables.adm6 m hr) V c ⟨i.val, lt_of_lt_of_eq i.isLt hN.symm⟩)
    (fun n h => acc (Tables.adm6 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk6
-- ==== Proof.KI.BlkRead7.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead7

open Idealize.ShloMosaic Cert.KernelIdeal Cert.KernelIdeal.Gen

variable {F : FTy → Type} [FloatOps F]
variable [Cert.KernelIdeal.Facts]

/-- A grid of one axis: consecutive points differ in that axis's coordinate. -/
theorem stride0 : grid7.stride 0 = 1 := by decide

/-- The pipeline at any contents of the tables runs over the 50000 points of the grid. -/
theorem N0 (a : (pcfg7 (F := F)).Adm) : (cfg7 a).N = 50000 := N_7

theorem lt0 (a : (pcfg7 (F := F)).Adm) (t : Fin (cfg7 a).N) : t.val < 50000 := lt_of_lt_of_eq t.isLt (N0 a)

set_option maxHeartbeats 50000 in
/-- The one coordinate of the t-th point is t. -/
theorem coord0 (a : (pcfg7 (F := F)).Adm) (t : Fin (cfg7 a).N) : (((cfg7 a).grid.coords t) 0).val = t.val := by
  show t.val / grid7.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg7 (F := F)).Adm) (t : Fin (cfg7 a).N) :
    ((cfg7 a).win 0).index t = cc7_transform_0 Facts₀.k7_off1_inb Facts₀.numel1_S1 a.1 ((cfg7 a).grid.coords t) := rfl

set_option maxHeartbeats 50000 in
/-- The index map at coordinate i: (the word of table 0 at position i, 0, 0). -/
theorem transform0_0 (pf : pre7.Contents (Elt F)) (i : grid7.Coords) :
    cc7_transform_0 Facts₀.k7_off1_inb Facts₀.numel1_S1 pf i
      = ![(pf 0 (ValueIdx.ix1 (i 0))).toNat, 0, 0] := by
  unfold cc7_transform_0
  -- the one index of the unit rectangle at offset i is position i of the table
  have e : (Rect.unit (s := S50000) ![(Scalar.indexCast (BitVec.ofNat 32 (i 0).val)).toNat] S1.size (Facts₀.k7_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg7 (F := F)).Adm) (t : Fin (cfg7 a).N) (X : S50000x1x96.Idx → Elt F .f32) (j : Fin 96) (r : Fin 50000)
    (hr : r.val = (a.1 0 (ValueIdx.ix1 ⟨t.val, lt0 a t⟩)).toNat) :
    ((((cfg7 a).win 0).blk t).view.read (Elt F) X) (ValueIdx.ix3 0 0 j) = X (ValueIdx.ix3 r 0 j) := by
  show X ((((cfg7 a).win 0).blk t).view.emb (ValueIdx.ix3 0 0 j)) = X (ValueIdx.ix3 r 0 j)
  refine congrArg X ?_
  have hi : ((cfg7 a).win 0).index t = ![(a.1 0 (ValueIdx.ix1 ((cfg7 a).grid.coords t 0))).toNat, 0, 0] :=
    (index0_0 a t).trans (transform0_0 a.1 _)
  have hc : ((cfg7 a).grid.coords t 0) = ⟨t.val, lt0 a t⟩ := Fin.ext (coord0 a t)
  have h0 : ((cfg7 a).win 0).index t (0 : Fin 3) = r.val :=
    ((congrFun hi (0 : Fin 3)).trans (congrArg (fun z => (a.1 0 (ValueIdx.ix1 z)).toNat) hc)).trans hr.symm
  have h1 : ((cfg7 a).win 0).index t (1 : Fin 3) = 0 := congrFun hi (1 : Fin 3)
  have h2 : ((cfg7 a).win 0).index t (2 : Fin 3) = 0 := congrFun hi (2 : Fin 3)
  -- per axis: block index times extent, plus the coordinate inside the block
  funext ax
  refine Fin.ext ?_
  match ax with
  | ⟨0, _⟩ =>
    show ((cfg7 a).win 0).index t (0 : Fin 3) * 1 + 1 * 0 = r.val
    rw [h0]; omega
  | ⟨1, _⟩ =>
    show ((cfg7 a).win 0).index t (1 : Fin 3) * 1 + 1 * 0 = 0
    rw [h1]
  | ⟨2, _⟩ =>
    show ((cfg7 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg7 (F := F)).Adm) (t : Fin (cfg7 a).N) :
    ((cfg7 a).win 1).index t = cc7_transform_1 Facts₀.k7_off1_inb Facts₀.numel1_S1 a.1 ((cfg7 a).grid.coords t) := rfl

set_option maxHeartbeats 50000 in
/-- The index map at coordinate i: (the word of table 1 at position i, 0, 0). -/
theorem transform0_1 (pf : pre7.Contents (Elt F)) (i : grid7.Coords) :
    cc7_transform_1 Facts₀.k7_off1_inb Facts₀.numel1_S1 pf i
      = ![(pf 1 (ValueIdx.ix1 (i 0))).toNat, 0, 0] := by
  unfold cc7_transform_1
  have e : (Rect.unit (s := S50000) ![(Scalar.indexCast (BitVec.ofNat 32 (i 0).val)).toNat] S1.size (Facts₀.k7_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg7 (F := F)).Adm) (t : Fin (cfg7 a).N) (X : S50000x1x96.Idx → Elt F .f32) (j : Fin 96) (r : Fin 50000)
    (hr : r.val = (a.1 1 (ValueIdx.ix1 ⟨t.val, lt0 a t⟩)).toNat) :
    ((((cfg7 a).win 1).blk t).view.read (Elt F) X) (ValueIdx.ix3 0 0 j) = X (ValueIdx.ix3 r 0 j) := by
  show X ((((cfg7 a).win 1).blk t).view.emb (ValueIdx.ix3 0 0 j)) = X (ValueIdx.ix3 r 0 j)
  refine congrArg X ?_
  have hi : ((cfg7 a).win 1).index t = ![(a.1 1 (ValueIdx.ix1 ((cfg7 a).grid.coords t 0))).toNat, 0, 0] :=
    (index0_1 a t).trans (transform0_1 a.1 _)
  have hc : ((cfg7 a).grid.coords t 0) = ⟨t.val, lt0 a t⟩ := Fin.ext (coord0 a t)
  have h0 : ((cfg7 a).win 1).index t (0 : Fin 3) = r.val :=
    ((congrFun hi (0 : Fin 3)).trans (congrArg (fun z => (a.1 1 (ValueIdx.ix1 z)).toNat) hc)).trans hr.symm
  have h1 : ((cfg7 a).win 1).index t (1 : Fin 3) = 0 := congrFun hi (1 : Fin 3)
  have h2 : ((cfg7 a).win 1).index t (2 : Fin 3) = 0 := congrFun hi (2 : Fin 3)
  funext ax
  refine Fin.ext ?_
  match ax with
  | ⟨0, _⟩ =>
    show ((cfg7 a).win 1).index t (0 : Fin 3) * 1 + 1 * 0 = r.val
    rw [h0]; omega
  | ⟨1, _⟩ =>
    show ((cfg7 a).win 1).index t (1 : Fin 3) * 1 + 1 * 0 = 0
    rw [h1]
  | ⟨2, _⟩ =>
    show ((cfg7 a).win 1).index t (2 : Fin 3) * 96 + 1 * j.val = j.val
    rw [h2]; omega

end Cert.KernelIdeal.BlkRead7
-- ==== Proof.KI.Val07.lean ====
import proofs.«418705_j10376640987952_2_alg».proof.Proof.KI.Dat07
import proofs.«418705_j10376640987952_2_alg».proof.Proof.KI.Tables
import proofs.«418705_j10376640987952_2_alg».proof.Proof.KI.AccSum
import proofs.«418705_j10376640987952_2_alg».proof.Proof.KI.BlkRead7
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk7

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg7 (F := F)).Adm)
variable (V : (c : Dev nD) → (b : Ref sig .tc) → Buf (Elt F) ((c : Thread nD τ).loc b))

theorem last_lt : 49999 < (cfg7 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg7 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg7 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg7 (Tables.adm7 m hr)).N) : 7 * 50000 + t.val < 800000 := by
  have := lt_of_lt_of_eq t.isLt (N_eq (Tables.adm7 m hr)); omega

set_option maxHeartbeats 400000 in
/-- The row staged in window 0 at point t is the feature row of the source node of the chunk's t-th edge. -/
theorem b3_apply (hV6 : ∀ c, V c main_v6 = Tables.feat m) (c : Dev nD) (t : Fin (cfg7 (Tables.adm7 m hr)).N) (j : Fin 96) :
    b3 (Tables.adm7 m hr) V c t (ValueIdx.ix3 0 0 j)
      = Tables.nodes m (ValueIdx.ix2 (Cert.Spec.row (Tables.edges m (ValueIdx.ix2 0 ⟨7 * 50000 + t.val, pos_lt m hr t⟩))) j) := by
  have hlt : t.val < 50000 := lt_of_lt_of_eq t.isLt (N_eq (Tables.adm7 m hr))
  -- the table word at position t is the edge list's word at the chunk's t-th position
  have hw : ((Tables.adm7 m hr).1 0 (ValueIdx.ix1 ⟨t.val, hlt⟩))
      = Tables.edges m (ValueIdx.ix2 0 ⟨7 * 50000 + t.val, pos_lt m hr t⟩) := Tables.tab7_apply m 0 ⟨t.val, hlt⟩
  have hrow : (Cert.Spec.row (Tables.edges m (ValueIdx.ix2 0 ⟨7 * 50000 + t.val, pos_lt m hr t⟩))).val
      = ((Tables.adm7 m hr).1 0 (ValueIdx.ix1 ⟨t.val, hlt⟩)).toNat :=
    (Cert.Spec.row_val_of_lt (hr _)).trans (congrArg BitVec.toNat hw).symm
  show ((((cfg7 (Tables.adm7 m hr)).win 0).blk t).view.read (Elt F) (V c main_v6)) (ValueIdx.ix3 0 0 j) = _
  rw [hV6 c]
  refine (BlkRead7.blk0_apply (Tables.adm7 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg7 (Tables.adm7 m hr)).N) (j : Fin 96) :
    b4 (Tables.adm7 m hr) V c t (ValueIdx.ix3 0 0 j)
      = Tables.nodes m (ValueIdx.ix2 (Cert.Spec.row (Tables.edges m (ValueIdx.ix2 1 ⟨7 * 50000 + t.val, pos_lt m hr t⟩))) j) := by
  have hlt : t.val < 50000 := lt_of_lt_of_eq t.isLt (N_eq (Tables.adm7 m hr))
  have hw : ((Tables.adm7 m hr).1 1 (ValueIdx.ix1 ⟨t.val, hlt⟩))
      = Tables.edges m (ValueIdx.ix2 1 ⟨7 * 50000 + t.val, pos_lt m hr t⟩) := Tables.tab7_apply m 1 ⟨t.val, hlt⟩
  have hrow : (Cert.Spec.row (Tables.edges m (ValueIdx.ix2 1 ⟨7 * 50000 + t.val, pos_lt m hr t⟩))).val
      = ((Tables.adm7 m hr).1 1 (ValueIdx.ix1 ⟨t.val, hlt⟩)).toNat :=
    (Cert.Spec.row_val_of_lt (hr _)).trans (congrArg BitVec.toNat hw).symm
  show ((((cfg7 (Tables.adm7 m hr)).win 1).blk t).view.read (Elt F) (V c main_v6)) (ValueIdx.ix3 0 0 j) = _
  rw [hV6 c]
  refine (BlkRead7.blk1_apply (Tables.adm7 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm7 m hr) V c).arrAt 2 (cfg7 (Tables.adm7 m hr)).N) (ValueIdx.ix2 (0 : Fin 1) (0 : Fin 1))
      = ∑ i : Fin 50000, Cert.Spec.dist (Tables.nodes m)
          (Cert.Spec.row (Tables.edges m (ValueIdx.ix2 0 ⟨7 * 50000 + i.val, by omega⟩)))
          (Cert.Spec.row (Tables.edges m (ValueIdx.ix2 1 ⟨7 * 50000 + i.val, by omega⟩))) := by
  have hN : (cfg7 (Tables.adm7 m hr)).N = 50000 := N_eq (Tables.adm7 m hr)
  -- the result array holds the accumulator after the last point
  refine (congrFun (arr_final (Tables.adm7 m hr) V c) (ValueIdx.ix2 (0 : Fin 1) (0 : Fin 1))).trans ?_
  -- which is the sum of the distances between the staged rows
  refine (AccSum.acc_last
    (fun i => b3 (Tables.adm7 m hr) V c ⟨i.val, lt_of_lt_of_eq i.isLt hN.symm⟩)
    (fun i => b4 (Tables.adm7 m hr) V c ⟨i.val, lt_of_lt_of_eq i.isLt hN.symm⟩)
    (fun n h => acc (Tables.adm7 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk7
-- ==== Proof.KI.BlkRead8.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead8

open Idealize.ShloMosaic Cert.KernelIdeal Cert.KernelIdeal.Gen

variable {F : FTy → Type} [FloatOps F]
variable [Cert.KernelIdeal.Facts]

/-- A grid of one axis: consecutive points differ in that axis's coordinate. -/
theorem stride0 : grid8.stride 0 = 1 := by decide

/-- The pipeline at any contents of the tables runs over the 50000 points of the grid. -/
theorem N0 (a : (pcfg8 (F := F)).Adm) : (cfg8 a).N = 50000 := N_8

theorem lt0 (a : (pcfg8 (F := F)).Adm) (t : Fin (cfg8 a).N) : t.val < 50000 := lt_of_lt_of_eq t.isLt (N0 a)

set_option maxHeartbeats 50000 in
/-- The one coordinate of the t-th point is t. -/
theorem coord0 (a : (pcfg8 (F := F)).Adm) (t : Fin (cfg8 a).N) : (((cfg8 a).grid.coords t) 0).val = t.val := by
  show t.val / grid8.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg8 (F := F)).Adm) (t : Fin (cfg8 a).N) :
    ((cfg8 a).win 0).index t = cc8_transform_0 Facts₀.k8_off1_inb Facts₀.numel1_S1 a.1 ((cfg8 a).grid.coords t) := rfl

set_option maxHeartbeats 50000 in
/-- The index map at coordinate i: (the word of table 0 at position i, 0, 0). -/
theorem transform0_0 (pf : pre8.Contents (Elt F)) (i : grid8.Coords) :
    cc8_transform_0 Facts₀.k8_off1_inb Facts₀.numel1_S1 pf i
      = ![(pf 0 (ValueIdx.ix1 (i 0))).toNat, 0, 0] := by
  unfold cc8_transform_0
  -- the one index of the unit rectangle at offset i is position i of the table
  have e : (Rect.unit (s := S50000) ![(Scalar.indexCast (BitVec.ofNat 32 (i 0).val)).toNat] S1.size (Facts₀.k8_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg8 (F := F)).Adm) (t : Fin (cfg8 a).N) (X : S50000x1x96.Idx → Elt F .f32) (j : Fin 96) (r : Fin 50000)
    (hr : r.val = (a.1 0 (ValueIdx.ix1 ⟨t.val, lt0 a t⟩)).toNat) :
    ((((cfg8 a).win 0).blk t).view.read (Elt F) X) (ValueIdx.ix3 0 0 j) = X (ValueIdx.ix3 r 0 j) := by
  show X ((((cfg8 a).win 0).blk t).view.emb (ValueIdx.ix3 0 0 j)) = X (ValueIdx.ix3 r 0 j)
  refine congrArg X ?_
  have hi : ((cfg8 a).win 0).index t = ![(a.1 0 (ValueIdx.ix1 ((cfg8 a).grid.coords t 0))).toNat, 0, 0] :=
    (index0_0 a t).trans (transform0_0 a.1 _)
  have hc : ((cfg8 a).grid.coords t 0) = ⟨t.val, lt0 a t⟩ := Fin.ext (coord0 a t)
  have h0 : ((cfg8 a).win 0).index t (0 : Fin 3) = r.val :=
    ((congrFun hi (0 : Fin 3)).trans (congrArg (fun z => (a.1 0 (ValueIdx.ix1 z)).toNat) hc)).trans hr.symm
  have h1 : ((cfg8 a).win 0).index t (1 : Fin 3) = 0 := congrFun hi (1 : Fin 3)
  have h2 : ((cfg8 a).win 0).index t (2 : Fin 3) = 0 := congrFun hi (2 : Fin 3)
  -- per axis: block index times extent, plus the coordinate inside the block
  funext ax
  refine Fin.ext ?_
  match ax with
  | ⟨0, _⟩ =>
    show ((cfg8 a).win 0).index t (0 : Fin 3) * 1 + 1 * 0 = r.val
    rw [h0]; omega
  | ⟨1, _⟩ =>
    show ((cfg8 a).win 0).index t (1 : Fin 3) * 1 + 1 * 0 = 0
    rw [h1]
  | ⟨2, _⟩ =>
    show ((cfg8 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg8 (F := F)).Adm) (t : Fin (cfg8 a).N) :
    ((cfg8 a).win 1).index t = cc8_transform_1 Facts₀.k8_off1_inb Facts₀.numel1_S1 a.1 ((cfg8 a).grid.coords t) := rfl

set_option maxHeartbeats 50000 in
/-- The index map at coordinate i: (the word of table 1 at position i, 0, 0). -/
theorem transform0_1 (pf : pre8.Contents (Elt F)) (i : grid8.Coords) :
    cc8_transform_1 Facts₀.k8_off1_inb Facts₀.numel1_S1 pf i
      = ![(pf 1 (ValueIdx.ix1 (i 0))).toNat, 0, 0] := by
  unfold cc8_transform_1
  have e : (Rect.unit (s := S50000) ![(Scalar.indexCast (BitVec.ofNat 32 (i 0).val)).toNat] S1.size (Facts₀.k8_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg8 (F := F)).Adm) (t : Fin (cfg8 a).N) (X : S50000x1x96.Idx → Elt F .f32) (j : Fin 96) (r : Fin 50000)
    (hr : r.val = (a.1 1 (ValueIdx.ix1 ⟨t.val, lt0 a t⟩)).toNat) :
    ((((cfg8 a).win 1).blk t).view.read (Elt F) X) (ValueIdx.ix3 0 0 j) = X (ValueIdx.ix3 r 0 j) := by
  show X ((((cfg8 a).win 1).blk t).view.emb (ValueIdx.ix3 0 0 j)) = X (ValueIdx.ix3 r 0 j)
  refine congrArg X ?_
  have hi : ((cfg8 a).win 1).index t = ![(a.1 1 (ValueIdx.ix1 ((cfg8 a).grid.coords t 0))).toNat, 0, 0] :=
    (index0_1 a t).trans (transform0_1 a.1 _)
  have hc : ((cfg8 a).grid.coords t 0) = ⟨t.val, lt0 a t⟩ := Fin.ext (coord0 a t)
  have h0 : ((cfg8 a).win 1).index t (0 : Fin 3) = r.val :=
    ((congrFun hi (0 : Fin 3)).trans (congrArg (fun z => (a.1 1 (ValueIdx.ix1 z)).toNat) hc)).trans hr.symm
  have h1 : ((cfg8 a).win 1).index t (1 : Fin 3) = 0 := congrFun hi (1 : Fin 3)
  have h2 : ((cfg8 a).win 1).index t (2 : Fin 3) = 0 := congrFun hi (2 : Fin 3)
  funext ax
  refine Fin.ext ?_
  match ax with
  | ⟨0, _⟩ =>
    show ((cfg8 a).win 1).index t (0 : Fin 3) * 1 + 1 * 0 = r.val
    rw [h0]; omega
  | ⟨1, _⟩ =>
    show ((cfg8 a).win 1).index t (1 : Fin 3) * 1 + 1 * 0 = 0
    rw [h1]
  | ⟨2, _⟩ =>
    show ((cfg8 a).win 1).index t (2 : Fin 3) * 96 + 1 * j.val = j.val
    rw [h2]; omega

end Cert.KernelIdeal.BlkRead8
-- ==== Proof.KI.Val08.lean ====
import proofs.«418705_j10376640987952_2_alg».proof.Proof.KI.Dat08
import proofs.«418705_j10376640987952_2_alg».proof.Proof.KI.Tables
import proofs.«418705_j10376640987952_2_alg».proof.Proof.KI.AccSum
import proofs.«418705_j10376640987952_2_alg».proof.Proof.KI.BlkRead8
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk8

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg8 (F := F)).Adm)
variable (V : (c : Dev nD) → (b : Ref sig .tc) → Buf (Elt F) ((c : Thread nD τ).loc b))

theorem last_lt : 49999 < (cfg8 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg8 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg8 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg8 (Tables.adm8 m hr)).N) : 8 * 50000 + t.val < 800000 := by
  have := lt_of_lt_of_eq t.isLt (N_eq (Tables.adm8 m hr)); omega

set_option maxHeartbeats 400000 in
/-- The row staged in window 0 at point t is the feature row of the source node of the chunk's t-th edge. -/
theorem b3_apply (hV6 : ∀ c, V c main_v6 = Tables.feat m) (c : Dev nD) (t : Fin (cfg8 (Tables.adm8 m hr)).N) (j : Fin 96) :
    b3 (Tables.adm8 m hr) V c t (ValueIdx.ix3 0 0 j)
      = Tables.nodes m (ValueIdx.ix2 (Cert.Spec.row (Tables.edges m (ValueIdx.ix2 0 ⟨8 * 50000 + t.val, pos_lt m hr t⟩))) j) := by
  have hlt : t.val < 50000 := lt_of_lt_of_eq t.isLt (N_eq (Tables.adm8 m hr))
  -- the table word at position t is the edge list's word at the chunk's t-th position
  have hw : ((Tables.adm8 m hr).1 0 (ValueIdx.ix1 ⟨t.val, hlt⟩))
      = Tables.edges m (ValueIdx.ix2 0 ⟨8 * 50000 + t.val, pos_lt m hr t⟩) := Tables.tab8_apply m 0 ⟨t.val, hlt⟩
  have hrow : (Cert.Spec.row (Tables.edges m (ValueIdx.ix2 0 ⟨8 * 50000 + t.val, pos_lt m hr t⟩))).val
      = ((Tables.adm8 m hr).1 0 (ValueIdx.ix1 ⟨t.val, hlt⟩)).toNat :=
    (Cert.Spec.row_val_of_lt (hr _)).trans (congrArg BitVec.toNat hw).symm
  show ((((cfg8 (Tables.adm8 m hr)).win 0).blk t).view.read (Elt F) (V c main_v6)) (ValueIdx.ix3 0 0 j) = _
  rw [hV6 c]
  refine (BlkRead8.blk0_apply (Tables.adm8 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg8 (Tables.adm8 m hr)).N) (j : Fin 96) :
    b4 (Tables.adm8 m hr) V c t (ValueIdx.ix3 0 0 j)
      = Tables.nodes m (ValueIdx.ix2 (Cert.Spec.row (Tables.edges m (ValueIdx.ix2 1 ⟨8 * 50000 + t.val, pos_lt m hr t⟩))) j) := by
  have hlt : t.val < 50000 := lt_of_lt_of_eq t.isLt (N_eq (Tables.adm8 m hr))
  have hw : ((Tables.adm8 m hr).1 1 (ValueIdx.ix1 ⟨t.val, hlt⟩))
      = Tables.edges m (ValueIdx.ix2 1 ⟨8 * 50000 + t.val, pos_lt m hr t⟩) := Tables.tab8_apply m 1 ⟨t.val, hlt⟩
  have hrow : (Cert.Spec.row (Tables.edges m (ValueIdx.ix2 1 ⟨8 * 50000 + t.val, pos_lt m hr t⟩))).val
      = ((Tables.adm8 m hr).1 1 (ValueIdx.ix1 ⟨t.val, hlt⟩)).toNat :=
    (Cert.Spec.row_val_of_lt (hr _)).trans (congrArg BitVec.toNat hw).symm
  show ((((cfg8 (Tables.adm8 m hr)).win 1).blk t).view.read (Elt F) (V c main_v6)) (ValueIdx.ix3 0 0 j) = _
  rw [hV6 c]
  refine (BlkRead8.blk1_apply (Tables.adm8 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm8 m hr) V c).arrAt 2 (cfg8 (Tables.adm8 m hr)).N) (ValueIdx.ix2 (0 : Fin 1) (0 : Fin 1))
      = ∑ i : Fin 50000, Cert.Spec.dist (Tables.nodes m)
          (Cert.Spec.row (Tables.edges m (ValueIdx.ix2 0 ⟨8 * 50000 + i.val, by omega⟩)))
          (Cert.Spec.row (Tables.edges m (ValueIdx.ix2 1 ⟨8 * 50000 + i.val, by omega⟩))) := by
  have hN : (cfg8 (Tables.adm8 m hr)).N = 50000 := N_eq (Tables.adm8 m hr)
  -- the result array holds the accumulator after the last point
  refine (congrFun (arr_final (Tables.adm8 m hr) V c) (ValueIdx.ix2 (0 : Fin 1) (0 : Fin 1))).trans ?_
  -- which is the sum of the distances between the staged rows
  refine (AccSum.acc_last
    (fun i => b3 (Tables.adm8 m hr) V c ⟨i.val, lt_of_lt_of_eq i.isLt hN.symm⟩)
    (fun i => b4 (Tables.adm8 m hr) V c ⟨i.val, lt_of_lt_of_eq i.isLt hN.symm⟩)
    (fun n h => acc (Tables.adm8 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk8
-- ==== Proof.KI.BlkRead9.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead9

open Idealize.ShloMosaic Cert.KernelIdeal Cert.KernelIdeal.Gen

variable {F : FTy → Type} [FloatOps F]
variable [Cert.KernelIdeal.Facts]

/-- A grid of one axis: consecutive points differ in that axis's coordinate. -/
theorem stride0 : grid9.stride 0 = 1 := by decide

/-- The pipeline at any contents of the tables runs over the 50000 points of the grid. -/
theorem N0 (a : (pcfg9 (F := F)).Adm) : (cfg9 a).N = 50000 := N_9

theorem lt0 (a : (pcfg9 (F := F)).Adm) (t : Fin (cfg9 a).N) : t.val < 50000 := lt_of_lt_of_eq t.isLt (N0 a)

set_option maxHeartbeats 50000 in
/-- The one coordinate of the t-th point is t. -/
theorem coord0 (a : (pcfg9 (F := F)).Adm) (t : Fin (cfg9 a).N) : (((cfg9 a).grid.coords t) 0).val = t.val := by
  show t.val / grid9.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg9 (F := F)).Adm) (t : Fin (cfg9 a).N) :
    ((cfg9 a).win 0).index t = cc9_transform_0 Facts₀.k9_off1_inb Facts₀.numel1_S1 a.1 ((cfg9 a).grid.coords t) := rfl

set_option maxHeartbeats 50000 in
/-- The index map at coordinate i: (the word of table 0 at position i, 0, 0). -/
theorem transform0_0 (pf : pre9.Contents (Elt F)) (i : grid9.Coords) :
    cc9_transform_0 Facts₀.k9_off1_inb Facts₀.numel1_S1 pf i
      = ![(pf 0 (ValueIdx.ix1 (i 0))).toNat, 0, 0] := by
  unfold cc9_transform_0
  -- the one index of the unit rectangle at offset i is position i of the table
  have e : (Rect.unit (s := S50000) ![(Scalar.indexCast (BitVec.ofNat 32 (i 0).val)).toNat] S1.size (Facts₀.k9_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg9 (F := F)).Adm) (t : Fin (cfg9 a).N) (X : S50000x1x96.Idx → Elt F .f32) (j : Fin 96) (r : Fin 50000)
    (hr : r.val = (a.1 0 (ValueIdx.ix1 ⟨t.val, lt0 a t⟩)).toNat) :
    ((((cfg9 a).win 0).blk t).view.read (Elt F) X) (ValueIdx.ix3 0 0 j) = X (ValueIdx.ix3 r 0 j) := by
  show X ((((cfg9 a).win 0).blk t).view.emb (ValueIdx.ix3 0 0 j)) = X (ValueIdx.ix3 r 0 j)
  refine congrArg X ?_
  have hi : ((cfg9 a).win 0).index t = ![(a.1 0 (ValueIdx.ix1 ((cfg9 a).grid.coords t 0))).toNat, 0, 0] :=
    (index0_0 a t).trans (transform0_0 a.1 _)
  have hc : ((cfg9 a).grid.coords t 0) = ⟨t.val, lt0 a t⟩ := Fin.ext (coord0 a t)
  have h0 : ((cfg9 a).win 0).index t (0 : Fin 3) = r.val :=
    ((congrFun hi (0 : Fin 3)).trans (congrArg (fun z => (a.1 0 (ValueIdx.ix1 z)).toNat) hc)).trans hr.symm
  have h1 : ((cfg9 a).win 0).index t (1 : Fin 3) = 0 := congrFun hi (1 : Fin 3)
  have h2 : ((cfg9 a).win 0).index t (2 : Fin 3) = 0 := congrFun hi (2 : Fin 3)
  -- per axis: block index times extent, plus the coordinate inside the block
  funext ax
  refine Fin.ext ?_
  match ax with
  | ⟨0, _⟩ =>
    show ((cfg9 a).win 0).index t (0 : Fin 3) * 1 + 1 * 0 = r.val
    rw [h0]; omega
  | ⟨1, _⟩ =>
    show ((cfg9 a).win 0).index t (1 : Fin 3) * 1 + 1 * 0 = 0
    rw [h1]
  | ⟨2, _⟩ =>
    show ((cfg9 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg9 (F := F)).Adm) (t : Fin (cfg9 a).N) :
    ((cfg9 a).win 1).index t = cc9_transform_1 Facts₀.k9_off1_inb Facts₀.numel1_S1 a.1 ((cfg9 a).grid.coords t) := rfl

set_option maxHeartbeats 50000 in
/-- The index map at coordinate i: (the word of table 1 at position i, 0, 0). -/
theorem transform0_1 (pf : pre9.Contents (Elt F)) (i : grid9.Coords) :
    cc9_transform_1 Facts₀.k9_off1_inb Facts₀.numel1_S1 pf i
      = ![(pf 1 (ValueIdx.ix1 (i 0))).toNat, 0, 0] := by
  unfold cc9_transform_1
  have e : (Rect.unit (s := S50000) ![(Scalar.indexCast (BitVec.ofNat 32 (i 0).val)).toNat] S1.size (Facts₀.k9_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg9 (F := F)).Adm) (t : Fin (cfg9 a).N) (X : S50000x1x96.Idx → Elt F .f32) (j : Fin 96) (r : Fin 50000)
    (hr : r.val = (a.1 1 (ValueIdx.ix1 ⟨t.val, lt0 a t⟩)).toNat) :
    ((((cfg9 a).win 1).blk t).view.read (Elt F) X) (ValueIdx.ix3 0 0 j) = X (ValueIdx.ix3 r 0 j) := by
  show X ((((cfg9 a).win 1).blk t).view.emb (ValueIdx.ix3 0 0 j)) = X (ValueIdx.ix3 r 0 j)
  refine congrArg X ?_
  have hi : ((cfg9 a).win 1).index t = ![(a.1 1 (ValueIdx.ix1 ((cfg9 a).grid.coords t 0))).toNat, 0, 0] :=
    (index0_1 a t).trans (transform0_1 a.1 _)
  have hc : ((cfg9 a).grid.coords t 0) = ⟨t.val, lt0 a t⟩ := Fin.ext (coord0 a t)
  have h0 : ((cfg9 a).win 1).index t (0 : Fin 3) = r.val :=
    ((congrFun hi (0 : Fin 3)).trans (congrArg (fun z => (a.1 1 (ValueIdx.ix1 z)).toNat) hc)).trans hr.symm
  have h1 : ((cfg9 a).win 1).index t (1 : Fin 3) = 0 := congrFun hi (1 : Fin 3)
  have h2 : ((cfg9 a).win 1).index t (2 : Fin 3) = 0 := congrFun hi (2 : Fin 3)
  funext ax
  refine Fin.ext ?_
  match ax with
  | ⟨0, _⟩ =>
    show ((cfg9 a).win 1).index t (0 : Fin 3) * 1 + 1 * 0 = r.val
    rw [h0]; omega
  | ⟨1, _⟩ =>
    show ((cfg9 a).win 1).index t (1 : Fin 3) * 1 + 1 * 0 = 0
    rw [h1]
  | ⟨2, _⟩ =>
    show ((cfg9 a).win 1).index t (2 : Fin 3) * 96 + 1 * j.val = j.val
    rw [h2]; omega

end Cert.KernelIdeal.BlkRead9
-- ==== Proof.KI.Val09.lean ====
import proofs.«418705_j10376640987952_2_alg».proof.Proof.KI.Dat09
import proofs.«418705_j10376640987952_2_alg».proof.Proof.KI.Tables
import proofs.«418705_j10376640987952_2_alg».proof.Proof.KI.AccSum
import proofs.«418705_j10376640987952_2_alg».proof.Proof.KI.BlkRead9
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk9

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg9 (F := F)).Adm)
variable (V : (c : Dev nD) → (b : Ref sig .tc) → Buf (Elt F) ((c : Thread nD τ).loc b))

theorem last_lt : 49999 < (cfg9 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg9 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg9 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg9 (Tables.adm9 m hr)).N) : 9 * 50000 + t.val < 800000 := by
  have := lt_of_lt_of_eq t.isLt (N_eq (Tables.adm9 m hr)); omega

set_option maxHeartbeats 400000 in
/-- The row staged in window 0 at point t is the feature row of the source node of the chunk's t-th edge. -/
theorem b3_apply (hV6 : ∀ c, V c main_v6 = Tables.feat m) (c : Dev nD) (t : Fin (cfg9 (Tables.adm9 m hr)).N) (j : Fin 96) :
    b3 (Tables.adm9 m hr) V c t (ValueIdx.ix3 0 0 j)
      = Tables.nodes m (ValueIdx.ix2 (Cert.Spec.row (Tables.edges m (ValueIdx.ix2 0 ⟨9 * 50000 + t.val, pos_lt m hr t⟩))) j) := by
  have hlt : t.val < 50000 := lt_of_lt_of_eq t.isLt (N_eq (Tables.adm9 m hr))
  -- the table word at position t is the edge list's word at the chunk's t-th position
  have hw : ((Tables.adm9 m hr).1 0 (ValueIdx.ix1 ⟨t.val, hlt⟩))
      = Tables.edges m (ValueIdx.ix2 0 ⟨9 * 50000 + t.val, pos_lt m hr t⟩) := Tables.tab9_apply m 0 ⟨t.val, hlt⟩
  have hrow : (Cert.Spec.row (Tables.edges m (ValueIdx.ix2 0 ⟨9 * 50000 + t.val, pos_lt m hr t⟩))).val
      = ((Tables.adm9 m hr).1 0 (ValueIdx.ix1 ⟨t.val, hlt⟩)).toNat :=
    (Cert.Spec.row_val_of_lt (hr _)).trans (congrArg BitVec.toNat hw).symm
  show ((((cfg9 (Tables.adm9 m hr)).win 0).blk t).view.read (Elt F) (V c main_v6)) (ValueIdx.ix3 0 0 j) = _
  rw [hV6 c]
  refine (BlkRead9.blk0_apply (Tables.adm9 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg9 (Tables.adm9 m hr)).N) (j : Fin 96) :
    b4 (Tables.adm9 m hr) V c t (ValueIdx.ix3 0 0 j)
      = Tables.nodes m (ValueIdx.ix2 (Cert.Spec.row (Tables.edges m (ValueIdx.ix2 1 ⟨9 * 50000 + t.val, pos_lt m hr t⟩))) j) := by
  have hlt : t.val < 50000 := lt_of_lt_of_eq t.isLt (N_eq (Tables.adm9 m hr))
  have hw : ((Tables.adm9 m hr).1 1 (ValueIdx.ix1 ⟨t.val, hlt⟩))
      = Tables.edges m (ValueIdx.ix2 1 ⟨9 * 50000 + t.val, pos_lt m hr t⟩) := Tables.tab9_apply m 1 ⟨t.val, hlt⟩
  have hrow : (Cert.Spec.row (Tables.edges m (ValueIdx.ix2 1 ⟨9 * 50000 + t.val, pos_lt m hr t⟩))).val
      = ((Tables.adm9 m hr).1 1 (ValueIdx.ix1 ⟨t.val, hlt⟩)).toNat :=
    (Cert.Spec.row_val_of_lt (hr _)).trans (congrArg BitVec.toNat hw).symm
  show ((((cfg9 (Tables.adm9 m hr)).win 1).blk t).view.read (Elt F) (V c main_v6)) (ValueIdx.ix3 0 0 j) = _
  rw [hV6 c]
  refine (BlkRead9.blk1_apply (Tables.adm9 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm9 m hr) V c).arrAt 2 (cfg9 (Tables.adm9 m hr)).N) (ValueIdx.ix2 (0 : Fin 1) (0 : Fin 1))
      = ∑ i : Fin 50000, Cert.Spec.dist (Tables.nodes m)
          (Cert.Spec.row (Tables.edges m (ValueIdx.ix2 0 ⟨9 * 50000 + i.val, by omega⟩)))
          (Cert.Spec.row (Tables.edges m (ValueIdx.ix2 1 ⟨9 * 50000 + i.val, by omega⟩))) := by
  have hN : (cfg9 (Tables.adm9 m hr)).N = 50000 := N_eq (Tables.adm9 m hr)
  -- the result array holds the accumulator after the last point
  refine (congrFun (arr_final (Tables.adm9 m hr) V c) (ValueIdx.ix2 (0 : Fin 1) (0 : Fin 1))).trans ?_
  -- which is the sum of the distances between the staged rows
  refine (AccSum.acc_last
    (fun i => b3 (Tables.adm9 m hr) V c ⟨i.val, lt_of_lt_of_eq i.isLt hN.symm⟩)
    (fun i => b4 (Tables.adm9 m hr) V c ⟨i.val, lt_of_lt_of_eq i.isLt hN.symm⟩)
    (fun n h => acc (Tables.adm9 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk9
-- ==== Proof.KI.BlkRead10.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead10

open Idealize.ShloMosaic Cert.KernelIdeal Cert.KernelIdeal.Gen

variable {F : FTy → Type} [FloatOps F]
variable [Cert.KernelIdeal.Facts]

/-- A grid of one axis: consecutive points differ in that axis's coordinate. -/
theorem stride0 : grid10.stride 0 = 1 := by decide

/-- The pipeline at any contents of the tables runs over the 50000 points of the grid. -/
theorem N0 (a : (pcfg10 (F := F)).Adm) : (cfg10 a).N = 50000 := N_10

theorem lt0 (a : (pcfg10 (F := F)).Adm) (t : Fin (cfg10 a).N) : t.val < 50000 := lt_of_lt_of_eq t.isLt (N0 a)

set_option maxHeartbeats 50000 in
/-- The one coordinate of the t-th point is t. -/
theorem coord0 (a : (pcfg10 (F := F)).Adm) (t : Fin (cfg10 a).N) : (((cfg10 a).grid.coords t) 0).val = t.val := by
  show t.val / grid10.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg10 (F := F)).Adm) (t : Fin (cfg10 a).N) :
    ((cfg10 a).win 0).index t = cc10_transform_0 Facts₀.k10_off1_inb Facts₀.numel1_S1 a.1 ((cfg10 a).grid.coords t) := rfl

set_option maxHeartbeats 50000 in
/-- The index map at coordinate i: (the word of table 0 at position i, 0, 0). -/
theorem transform0_0 (pf : pre10.Contents (Elt F)) (i : grid10.Coords) :
    cc10_transform_0 Facts₀.k10_off1_inb Facts₀.numel1_S1 pf i
      = ![(pf 0 (ValueIdx.ix1 (i 0))).toNat, 0, 0] := by
  unfold cc10_transform_0
  -- the one index of the unit rectangle at offset i is position i of the table
  have e : (Rect.unit (s := S50000) ![(Scalar.indexCast (BitVec.ofNat 32 (i 0).val)).toNat] S1.size (Facts₀.k10_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg10 (F := F)).Adm) (t : Fin (cfg10 a).N) (X : S50000x1x96.Idx → Elt F .f32) (j : Fin 96) (r : Fin 50000)
    (hr : r.val = (a.1 0 (ValueIdx.ix1 ⟨t.val, lt0 a t⟩)).toNat) :
    ((((cfg10 a).win 0).blk t).view.read (Elt F) X) (ValueIdx.ix3 0 0 j) = X (ValueIdx.ix3 r 0 j) := by
  show X ((((cfg10 a).win 0).blk t).view.emb (ValueIdx.ix3 0 0 j)) = X (ValueIdx.ix3 r 0 j)
  refine congrArg X ?_
  have hi : ((cfg10 a).win 0).index t = ![(a.1 0 (ValueIdx.ix1 ((cfg10 a).grid.coords t 0))).toNat, 0, 0] :=
    (index0_0 a t).trans (transform0_0 a.1 _)
  have hc : ((cfg10 a).grid.coords t 0) = ⟨t.val, lt0 a t⟩ := Fin.ext (coord0 a t)
  have h0 : ((cfg10 a).win 0).index t (0 : Fin 3) = r.val :=
    ((congrFun hi (0 : Fin 3)).trans (congrArg (fun z => (a.1 0 (ValueIdx.ix1 z)).toNat) hc)).trans hr.symm
  have h1 : ((cfg10 a).win 0).index t (1 : Fin 3) = 0 := congrFun hi (1 : Fin 3)
  have h2 : ((cfg10 a).win 0).index t (2 : Fin 3) = 0 := congrFun hi (2 : Fin 3)
  -- per axis: block index times extent, plus the coordinate inside the block
  funext ax
  refine Fin.ext ?_
  match ax with
  | ⟨0, _⟩ =>
    show ((cfg10 a).win 0).index t (0 : Fin 3) * 1 + 1 * 0 = r.val
    rw [h0]; omega
  | ⟨1, _⟩ =>
    show ((cfg10 a).win 0).index t (1 : Fin 3) * 1 + 1 * 0 = 0
    rw [h1]
  | ⟨2, _⟩ =>
    show ((cfg10 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg10 (F := F)).Adm) (t : Fin (cfg10 a).N) :
    ((cfg10 a).win 1).index t = cc10_transform_1 Facts₀.k10_off1_inb Facts₀.numel1_S1 a.1 ((cfg10 a).grid.coords t) := rfl

set_option maxHeartbeats 50000 in
/-- The index map at coordinate i: (the word of table 1 at position i, 0, 0). -/
theorem transform0_1 (pf : pre10.Contents (Elt F)) (i : grid10.Coords) :
    cc10_transform_1 Facts₀.k10_off1_inb Facts₀.numel1_S1 pf i
      = ![(pf 1 (ValueIdx.ix1 (i 0))).toNat, 0, 0] := by
  unfold cc10_transform_1
  have e : (Rect.unit (s := S50000) ![(Scalar.indexCast (BitVec.ofNat 32 (i 0).val)).toNat] S1.size (Facts₀.k10_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg10 (F := F)).Adm) (t : Fin (cfg10 a).N) (X : S50000x1x96.Idx → Elt F .f32) (j : Fin 96) (r : Fin 50000)
    (hr : r.val = (a.1 1 (ValueIdx.ix1 ⟨t.val, lt0 a t⟩)).toNat) :
    ((((cfg10 a).win 1).blk t).view.read (Elt F) X) (ValueIdx.ix3 0 0 j) = X (ValueIdx.ix3 r 0 j) := by
  show X ((((cfg10 a).win 1).blk t).view.emb (ValueIdx.ix3 0 0 j)) = X (ValueIdx.ix3 r 0 j)
  refine congrArg X ?_
  have hi : ((cfg10 a).win 1).index t = ![(a.1 1 (ValueIdx.ix1 ((cfg10 a).grid.coords t 0))).toNat, 0, 0] :=
    (index0_1 a t).trans (transform0_1 a.1 _)
  have hc : ((cfg10 a).grid.coords t 0) = ⟨t.val, lt0 a t⟩ := Fin.ext (coord0 a t)
  have h0 : ((cfg10 a).win 1).index t (0 : Fin 3) = r.val :=
    ((congrFun hi (0 : Fin 3)).trans (congrArg (fun z => (a.1 1 (ValueIdx.ix1 z)).toNat) hc)).trans hr.symm
  have h1 : ((cfg10 a).win 1).index t (1 : Fin 3) = 0 := congrFun hi (1 : Fin 3)
  have h2 : ((cfg10 a).win 1).index t (2 : Fin 3) = 0 := congrFun hi (2 : Fin 3)
  funext ax
  refine Fin.ext ?_
  match ax with
  | ⟨0, _⟩ =>
    show ((cfg10 a).win 1).index t (0 : Fin 3) * 1 + 1 * 0 = r.val
    rw [h0]; omega
  | ⟨1, _⟩ =>
    show ((cfg10 a).win 1).index t (1 : Fin 3) * 1 + 1 * 0 = 0
    rw [h1]
  | ⟨2, _⟩ =>
    show ((cfg10 a).win 1).index t (2 : Fin 3) * 96 + 1 * j.val = j.val
    rw [h2]; omega

end Cert.KernelIdeal.BlkRead10
-- ==== Proof.KI.Val10.lean ====
import proofs.«418705_j10376640987952_2_alg».proof.Proof.KI.Dat10
import proofs.«418705_j10376640987952_2_alg».proof.Proof.KI.Tables
import proofs.«418705_j10376640987952_2_alg».proof.Proof.KI.AccSum
import proofs.«418705_j10376640987952_2_alg».proof.Proof.KI.BlkRead10
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk10

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg10 (F := F)).Adm)
variable (V : (c : Dev nD) → (b : Ref sig .tc) → Buf (Elt F) ((c : Thread nD τ).loc b))

theorem last_lt : 49999 < (cfg10 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg10 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg10 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg10 (Tables.adm10 m hr)).N) : 10 * 50000 + t.val < 800000 := by
  have := lt_of_lt_of_eq t.isLt (N_eq (Tables.adm10 m hr)); omega

set_option maxHeartbeats 400000 in
/-- The row staged in window 0 at point t is the feature row of the source node of the chunk's t-th edge. -/
theorem b3_apply (hV6 : ∀ c, V c main_v6 = Tables.feat m) (c : Dev nD) (t : Fin (cfg10 (Tables.adm10 m hr)).N) (j : Fin 96) :
    b3 (Tables.adm10 m hr) V c t (ValueIdx.ix3 0 0 j)
      = Tables.nodes m (ValueIdx.ix2 (Cert.Spec.row (Tables.edges m (ValueIdx.ix2 0 ⟨10 * 50000 + t.val, pos_lt m hr t⟩))) j) := by
  have hlt : t.val < 50000 := lt_of_lt_of_eq t.isLt (N_eq (Tables.adm10 m hr))
  -- the table word at position t is the edge list's word at the chunk's t-th position
  have hw : ((Tables.adm10 m hr).1 0 (ValueIdx.ix1 ⟨t.val, hlt⟩))
      = Tables.edges m (ValueIdx.ix2 0 ⟨10 * 50000 + t.val, pos_lt m hr t⟩) := Tables.tab10_apply m 0 ⟨t.val, hlt⟩
  have hrow : (Cert.Spec.row (Tables.edges m (ValueIdx.ix2 0 ⟨10 * 50000 + t.val, pos_lt m hr t⟩))).val
      = ((Tables.adm10 m hr).1 0 (ValueIdx.ix1 ⟨t.val, hlt⟩)).toNat :=
    (Cert.Spec.row_val_of_lt (hr _)).trans (congrArg BitVec.toNat hw).symm
  show ((((cfg10 (Tables.adm10 m hr)).win 0).blk t).view.read (Elt F) (V c main_v6)) (ValueIdx.ix3 0 0 j) = _
  rw [hV6 c]
  refine (BlkRead10.blk0_apply (Tables.adm10 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg10 (Tables.adm10 m hr)).N) (j : Fin 96) :
    b4 (Tables.adm10 m hr) V c t (ValueIdx.ix3 0 0 j)
      = Tables.nodes m (ValueIdx.ix2 (Cert.Spec.row (Tables.edges m (ValueIdx.ix2 1 ⟨10 * 50000 + t.val, pos_lt m hr t⟩))) j) := by
  have hlt : t.val < 50000 := lt_of_lt_of_eq t.isLt (N_eq (Tables.adm10 m hr))
  have hw : ((Tables.adm10 m hr).1 1 (ValueIdx.ix1 ⟨t.val, hlt⟩))
      = Tables.edges m (ValueIdx.ix2 1 ⟨10 * 50000 + t.val, pos_lt m hr t⟩) := Tables.tab10_apply m 1 ⟨t.val, hlt⟩
  have hrow : (Cert.Spec.row (Tables.edges m (ValueIdx.ix2 1 ⟨10 * 50000 + t.val, pos_lt m hr t⟩))).val
      = ((Tables.adm10 m hr).1 1 (ValueIdx.ix1 ⟨t.val, hlt⟩)).toNat :=
    (Cert.Spec.row_val_of_lt (hr _)).trans (congrArg BitVec.toNat hw).symm
  show ((((cfg10 (Tables.adm10 m hr)).win 1).blk t).view.read (Elt F) (V c main_v6)) (ValueIdx.ix3 0 0 j) = _
  rw [hV6 c]
  refine (BlkRead10.blk1_apply (Tables.adm10 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm10 m hr) V c).arrAt 2 (cfg10 (Tables.adm10 m hr)).N) (ValueIdx.ix2 (0 : Fin 1) (0 : Fin 1))
      = ∑ i : Fin 50000, Cert.Spec.dist (Tables.nodes m)
          (Cert.Spec.row (Tables.edges m (ValueIdx.ix2 0 ⟨10 * 50000 + i.val, by omega⟩)))
          (Cert.Spec.row (Tables.edges m (ValueIdx.ix2 1 ⟨10 * 50000 + i.val, by omega⟩))) := by
  have hN : (cfg10 (Tables.adm10 m hr)).N = 50000 := N_eq (Tables.adm10 m hr)
  -- the result array holds the accumulator after the last point
  refine (congrFun (arr_final (Tables.adm10 m hr) V c) (ValueIdx.ix2 (0 : Fin 1) (0 : Fin 1))).trans ?_
  -- which is the sum of the distances between the staged rows
  refine (AccSum.acc_last
    (fun i => b3 (Tables.adm10 m hr) V c ⟨i.val, lt_of_lt_of_eq i.isLt hN.symm⟩)
    (fun i => b4 (Tables.adm10 m hr) V c ⟨i.val, lt_of_lt_of_eq i.isLt hN.symm⟩)
    (fun n h => acc (Tables.adm10 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk10
-- ==== Proof.KI.BlkRead11.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead11

open Idealize.ShloMosaic Cert.KernelIdeal Cert.KernelIdeal.Gen

variable {F : FTy → Type} [FloatOps F]
variable [Cert.KernelIdeal.Facts]

/-- A grid of one axis: consecutive points differ in that axis's coordinate. -/
theorem stride0 : grid11.stride 0 = 1 := by decide

/-- The pipeline at any contents of the tables runs over the 50000 points of the grid. -/
theorem N0 (a : (pcfg11 (F := F)).Adm) : (cfg11 a).N = 50000 := N_11

theorem lt0 (a : (pcfg11 (F := F)).Adm) (t : Fin (cfg11 a).N) : t.val < 50000 := lt_of_lt_of_eq t.isLt (N0 a)

set_option maxHeartbeats 50000 in
/-- The one coordinate of the t-th point is t. -/
theorem coord0 (a : (pcfg11 (F := F)).Adm) (t : Fin (cfg11 a).N) : (((cfg11 a).grid.coords t) 0).val = t.val := by
  show t.val / grid11.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg11 (F := F)).Adm) (t : Fin (cfg11 a).N) :
    ((cfg11 a).win 0).index t = cc11_transform_0 Facts₀.k11_off1_inb Facts₀.numel1_S1 a.1 ((cfg11 a).grid.coords t) := rfl

set_option maxHeartbeats 50000 in
/-- The index map at coordinate i: (the word of table 0 at position i, 0, 0). -/
theorem transform0_0 (pf : pre11.Contents (Elt F)) (i : grid11.Coords) :
    cc11_transform_0 Facts₀.k11_off1_inb Facts₀.numel1_S1 pf i
      = ![(pf 0 (ValueIdx.ix1 (i 0))).toNat, 0, 0] := by
  unfold cc11_transform_0
  -- the one index of the unit rectangle at offset i is position i of the table
  have e : (Rect.unit (s := S50000) ![(Scalar.indexCast (BitVec.ofNat 32 (i 0).val)).toNat] S1.size (Facts₀.k11_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg11 (F := F)).Adm) (t : Fin (cfg11 a).N) (X : S50000x1x96.Idx → Elt F .f32) (j : Fin 96) (r : Fin 50000)
    (hr : r.val = (a.1 0 (ValueIdx.ix1 ⟨t.val, lt0 a t⟩)).toNat) :
    ((((cfg11 a).win 0).blk t).view.read (Elt F) X) (ValueIdx.ix3 0 0 j) = X (ValueIdx.ix3 r 0 j) := by
  show X ((((cfg11 a).win 0).blk t).view.emb (ValueIdx.ix3 0 0 j)) = X (ValueIdx.ix3 r 0 j)
  refine congrArg X ?_
  have hi : ((cfg11 a).win 0).index t = ![(a.1 0 (ValueIdx.ix1 ((cfg11 a).grid.coords t 0))).toNat, 0, 0] :=
    (index0_0 a t).trans (transform0_0 a.1 _)
  have hc : ((cfg11 a).grid.coords t 0) = ⟨t.val, lt0 a t⟩ := Fin.ext (coord0 a t)
  have h0 : ((cfg11 a).win 0).index t (0 : Fin 3) = r.val :=
    ((congrFun hi (0 : Fin 3)).trans (congrArg (fun z => (a.1 0 (ValueIdx.ix1 z)).toNat) hc)).trans hr.symm
  have h1 : ((cfg11 a).win 0).index t (1 : Fin 3) = 0 := congrFun hi (1 : Fin 3)
  have h2 : ((cfg11 a).win 0).index t (2 : Fin 3) = 0 := congrFun hi (2 : Fin 3)
  -- per axis: block index times extent, plus the coordinate inside the block
  funext ax
  refine Fin.ext ?_
  match ax with
  | ⟨0, _⟩ =>
    show ((cfg11 a).win 0).index t (0 : Fin 3) * 1 + 1 * 0 = r.val
    rw [h0]; omega
  | ⟨1, _⟩ =>
    show ((cfg11 a).win 0).index t (1 : Fin 3) * 1 + 1 * 0 = 0
    rw [h1]
  | ⟨2, _⟩ =>
    show ((cfg11 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg11 (F := F)).Adm) (t : Fin (cfg11 a).N) :
    ((cfg11 a).win 1).index t = cc11_transform_1 Facts₀.k11_off1_inb Facts₀.numel1_S1 a.1 ((cfg11 a).grid.coords t) := rfl

set_option maxHeartbeats 50000 in
/-- The index map at coordinate i: (the word of table 1 at position i, 0, 0). -/
theorem transform0_1 (pf : pre11.Contents (Elt F)) (i : grid11.Coords) :
    cc11_transform_1 Facts₀.k11_off1_inb Facts₀.numel1_S1 pf i
      = ![(pf 1 (ValueIdx.ix1 (i 0))).toNat, 0, 0] := by
  unfold cc11_transform_1
  have e : (Rect.unit (s := S50000) ![(Scalar.indexCast (BitVec.ofNat 32 (i 0).val)).toNat] S1.size (Facts₀.k11_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg11 (F := F)).Adm) (t : Fin (cfg11 a).N) (X : S50000x1x96.Idx → Elt F .f32) (j : Fin 96) (r : Fin 50000)
    (hr : r.val = (a.1 1 (ValueIdx.ix1 ⟨t.val, lt0 a t⟩)).toNat) :
    ((((cfg11 a).win 1).blk t).view.read (Elt F) X) (ValueIdx.ix3 0 0 j) = X (ValueIdx.ix3 r 0 j) := by
  show X ((((cfg11 a).win 1).blk t).view.emb (ValueIdx.ix3 0 0 j)) = X (ValueIdx.ix3 r 0 j)
  refine congrArg X ?_
  have hi : ((cfg11 a).win 1).index t = ![(a.1 1 (ValueIdx.ix1 ((cfg11 a).grid.coords t 0))).toNat, 0, 0] :=
    (index0_1 a t).trans (transform0_1 a.1 _)
  have hc : ((cfg11 a).grid.coords t 0) = ⟨t.val, lt0 a t⟩ := Fin.ext (coord0 a t)
  have h0 : ((cfg11 a).win 1).index t (0 : Fin 3) = r.val :=
    ((congrFun hi (0 : Fin 3)).trans (congrArg (fun z => (a.1 1 (ValueIdx.ix1 z)).toNat) hc)).trans hr.symm
  have h1 : ((cfg11 a).win 1).index t (1 : Fin 3) = 0 := congrFun hi (1 : Fin 3)
  have h2 : ((cfg11 a).win 1).index t (2 : Fin 3) = 0 := congrFun hi (2 : Fin 3)
  funext ax
  refine Fin.ext ?_
  match ax with
  | ⟨0, _⟩ =>
    show ((cfg11 a).win 1).index t (0 : Fin 3) * 1 + 1 * 0 = r.val
    rw [h0]; omega
  | ⟨1, _⟩ =>
    show ((cfg11 a).win 1).index t (1 : Fin 3) * 1 + 1 * 0 = 0
    rw [h1]
  | ⟨2, _⟩ =>
    show ((cfg11 a).win 1).index t (2 : Fin 3) * 96 + 1 * j.val = j.val
    rw [h2]; omega

end Cert.KernelIdeal.BlkRead11
-- ==== Proof.KI.Val11.lean ====
import proofs.«418705_j10376640987952_2_alg».proof.Proof.KI.Dat11
import proofs.«418705_j10376640987952_2_alg».proof.Proof.KI.Tables
import proofs.«418705_j10376640987952_2_alg».proof.Proof.KI.AccSum
import proofs.«418705_j10376640987952_2_alg».proof.Proof.KI.BlkRead11
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk11

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg11 (F := F)).Adm)
variable (V : (c : Dev nD) → (b : Ref sig .tc) → Buf (Elt F) ((c : Thread nD τ).loc b))

theorem last_lt : 49999 < (cfg11 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg11 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg11 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg11 (Tables.adm11 m hr)).N) : 11 * 50000 + t.val < 800000 := by
  have := lt_of_lt_of_eq t.isLt (N_eq (Tables.adm11 m hr)); omega

set_option maxHeartbeats 400000 in
/-- The row staged in window 0 at point t is the feature row of the source node of the chunk's t-th edge. -/
theorem b3_apply (hV6 : ∀ c, V c main_v6 = Tables.feat m) (c : Dev nD) (t : Fin (cfg11 (Tables.adm11 m hr)).N) (j : Fin 96) :
    b3 (Tables.adm11 m hr) V c t (ValueIdx.ix3 0 0 j)
      = Tables.nodes m (ValueIdx.ix2 (Cert.Spec.row (Tables.edges m (ValueIdx.ix2 0 ⟨11 * 50000 + t.val, pos_lt m hr t⟩))) j) := by
  have hlt : t.val < 50000 := lt_of_lt_of_eq t.isLt (N_eq (Tables.adm11 m hr))
  -- the table word at position t is the edge list's word at the chunk's t-th position
  have hw : ((Tables.adm11 m hr).1 0 (ValueIdx.ix1 ⟨t.val, hlt⟩))
      = Tables.edges m (ValueIdx.ix2 0 ⟨11 * 50000 + t.val, pos_lt m hr t⟩) := Tables.tab11_apply m 0 ⟨t.val, hlt⟩
  have hrow : (Cert.Spec.row (Tables.edges m (ValueIdx.ix2 0 ⟨11 * 50000 + t.val, pos_lt m hr t⟩))).val
      = ((Tables.adm11 m hr).1 0 (ValueIdx.ix1 ⟨t.val, hlt⟩)).toNat :=
    (Cert.Spec.row_val_of_lt (hr _)).trans (congrArg BitVec.toNat hw).symm
  show ((((cfg11 (Tables.adm11 m hr)).win 0).blk t).view.read (Elt F) (V c main_v6)) (ValueIdx.ix3 0 0 j) = _
  rw [hV6 c]
  refine (BlkRead11.blk0_apply (Tables.adm11 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg11 (Tables.adm11 m hr)).N) (j : Fin 96) :
    b4 (Tables.adm11 m hr) V c t (ValueIdx.ix3 0 0 j)
      = Tables.nodes m (ValueIdx.ix2 (Cert.Spec.row (Tables.edges m (ValueIdx.ix2 1 ⟨11 * 50000 + t.val, pos_lt m hr t⟩))) j) := by
  have hlt : t.val < 50000 := lt_of_lt_of_eq t.isLt (N_eq (Tables.adm11 m hr))
  have hw : ((Tables.adm11 m hr).1 1 (ValueIdx.ix1 ⟨t.val, hlt⟩))
      = Tables.edges m (ValueIdx.ix2 1 ⟨11 * 50000 + t.val, pos_lt m hr t⟩) := Tables.tab11_apply m 1 ⟨t.val, hlt⟩
  have hrow : (Cert.Spec.row (Tables.edges m (ValueIdx.ix2 1 ⟨11 * 50000 + t.val, pos_lt m hr t⟩))).val
      = ((Tables.adm11 m hr).1 1 (ValueIdx.ix1 ⟨t.val, hlt⟩)).toNat :=
    (Cert.Spec.row_val_of_lt (hr _)).trans (congrArg BitVec.toNat hw).symm
  show ((((cfg11 (Tables.adm11 m hr)).win 1).blk t).view.read (Elt F) (V c main_v6)) (ValueIdx.ix3 0 0 j) = _
  rw [hV6 c]
  refine (BlkRead11.blk1_apply (Tables.adm11 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm11 m hr) V c).arrAt 2 (cfg11 (Tables.adm11 m hr)).N) (ValueIdx.ix2 (0 : Fin 1) (0 : Fin 1))
      = ∑ i : Fin 50000, Cert.Spec.dist (Tables.nodes m)
          (Cert.Spec.row (Tables.edges m (ValueIdx.ix2 0 ⟨11 * 50000 + i.val, by omega⟩)))
          (Cert.Spec.row (Tables.edges m (ValueIdx.ix2 1 ⟨11 * 50000 + i.val, by omega⟩))) := by
  have hN : (cfg11 (Tables.adm11 m hr)).N = 50000 := N_eq (Tables.adm11 m hr)
  -- the result array holds the accumulator after the last point
  refine (congrFun (arr_final (Tables.adm11 m hr) V c) (ValueIdx.ix2 (0 : Fin 1) (0 : Fin 1))).trans ?_
  -- which is the sum of the distances between the staged rows
  refine (AccSum.acc_last
    (fun i => b3 (Tables.adm11 m hr) V c ⟨i.val, lt_of_lt_of_eq i.isLt hN.symm⟩)
    (fun i => b4 (Tables.adm11 m hr) V c ⟨i.val, lt_of_lt_of_eq i.isLt hN.symm⟩)
    (fun n h => acc (Tables.adm11 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk11
-- ==== Proof.KI.BlkRead12.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead12

open Idealize.ShloMosaic Cert.KernelIdeal Cert.KernelIdeal.Gen

variable {F : FTy → Type} [FloatOps F]
variable [Cert.KernelIdeal.Facts]

/-- A grid of one axis: consecutive points differ in that axis's coordinate. -/
theorem stride0 : grid12.stride 0 = 1 := by decide

/-- The pipeline at any contents of the tables runs over the 50000 points of the grid. -/
theorem N0 (a : (pcfg12 (F := F)).Adm) : (cfg12 a).N = 50000 := N_12

theorem lt0 (a : (pcfg12 (F := F)).Adm) (t : Fin (cfg12 a).N) : t.val < 50000 := lt_of_lt_of_eq t.isLt (N0 a)

set_option maxHeartbeats 50000 in
/-- The one coordinate of the t-th point is t. -/
theorem coord0 (a : (pcfg12 (F := F)).Adm) (t : Fin (cfg12 a).N) : (((cfg12 a).grid.coords t) 0).val = t.val := by
  show t.val / grid12.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg12 (F := F)).Adm) (t : Fin (cfg12 a).N) :
    ((cfg12 a).win 0).index t = cc12_transform_0 Facts₀.k12_off1_inb Facts₀.numel1_S1 a.1 ((cfg12 a).grid.coords t) := rfl

set_option maxHeartbeats 50000 in
/-- The index map at coordinate i: (the word of table 0 at position i, 0, 0). -/
theorem transform0_0 (pf : pre12.Contents (Elt F)) (i : grid12.Coords) :
    cc12_transform_0 Facts₀.k12_off1_inb Facts₀.numel1_S1 pf i
      = ![(pf 0 (ValueIdx.ix1 (i 0))).toNat, 0, 0] := by
  unfold cc12_transform_0
  -- the one index of the unit rectangle at offset i is position i of the table
  have e : (Rect.unit (s := S50000) ![(Scalar.indexCast (BitVec.ofNat 32 (i 0).val)).toNat] S1.size (Facts₀.k12_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg12 (F := F)).Adm) (t : Fin (cfg12 a).N) (X : S50000x1x96.Idx → Elt F .f32) (j : Fin 96) (r : Fin 50000)
    (hr : r.val = (a.1 0 (ValueIdx.ix1 ⟨t.val, lt0 a t⟩)).toNat) :
    ((((cfg12 a).win 0).blk t).view.read (Elt F) X) (ValueIdx.ix3 0 0 j) = X (ValueIdx.ix3 r 0 j) := by
  show X ((((cfg12 a).win 0).blk t).view.emb (ValueIdx.ix3 0 0 j)) = X (ValueIdx.ix3 r 0 j)
  refine congrArg X ?_
  have hi : ((cfg12 a).win 0).index t = ![(a.1 0 (ValueIdx.ix1 ((cfg12 a).grid.coords t 0))).toNat, 0, 0] :=
    (index0_0 a t).trans (transform0_0 a.1 _)
  have hc : ((cfg12 a).grid.coords t 0) = ⟨t.val, lt0 a t⟩ := Fin.ext (coord0 a t)
  have h0 : ((cfg12 a).win 0).index t (0 : Fin 3) = r.val :=
    ((congrFun hi (0 : Fin 3)).trans (congrArg (fun z => (a.1 0 (ValueIdx.ix1 z)).toNat) hc)).trans hr.symm
  have h1 : ((cfg12 a).win 0).index t (1 : Fin 3) = 0 := congrFun hi (1 : Fin 3)
  have h2 : ((cfg12 a).win 0).index t (2 : Fin 3) = 0 := congrFun hi (2 : Fin 3)
  -- per axis: block index times extent, plus the coordinate inside the block
  funext ax
  refine Fin.ext ?_
  match ax with
  | ⟨0, _⟩ =>
    show ((cfg12 a).win 0).index t (0 : Fin 3) * 1 + 1 * 0 = r.val
    rw [h0]; omega
  | ⟨1, _⟩ =>
    show ((cfg12 a).win 0).index t (1 : Fin 3) * 1 + 1 * 0 = 0
    rw [h1]
  | ⟨2, _⟩ =>
    show ((cfg12 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg12 (F := F)).Adm) (t : Fin (cfg12 a).N) :
    ((cfg12 a).win 1).index t = cc12_transform_1 Facts₀.k12_off1_inb Facts₀.numel1_S1 a.1 ((cfg12 a).grid.coords t) := rfl

set_option maxHeartbeats 50000 in
/-- The index map at coordinate i: (the word of table 1 at position i, 0, 0). -/
theorem transform0_1 (pf : pre12.Contents (Elt F)) (i : grid12.Coords) :
    cc12_transform_1 Facts₀.k12_off1_inb Facts₀.numel1_S1 pf i
      = ![(pf 1 (ValueIdx.ix1 (i 0))).toNat, 0, 0] := by
  unfold cc12_transform_1
  have e : (Rect.unit (s := S50000) ![(Scalar.indexCast (BitVec.ofNat 32 (i 0).val)).toNat] S1.size (Facts₀.k12_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg12 (F := F)).Adm) (t : Fin (cfg12 a).N) (X : S50000x1x96.Idx → Elt F .f32) (j : Fin 96) (r : Fin 50000)
    (hr : r.val = (a.1 1 (ValueIdx.ix1 ⟨t.val, lt0 a t⟩)).toNat) :
    ((((cfg12 a).win 1).blk t).view.read (Elt F) X) (ValueIdx.ix3 0 0 j) = X (ValueIdx.ix3 r 0 j) := by
  show X ((((cfg12 a).win 1).blk t).view.emb (ValueIdx.ix3 0 0 j)) = X (ValueIdx.ix3 r 0 j)
  refine congrArg X ?_
  have hi : ((cfg12 a).win 1).index t = ![(a.1 1 (ValueIdx.ix1 ((cfg12 a).grid.coords t 0))).toNat, 0, 0] :=
    (index0_1 a t).trans (transform0_1 a.1 _)
  have hc : ((cfg12 a).grid.coords t 0) = ⟨t.val, lt0 a t⟩ := Fin.ext (coord0 a t)
  have h0 : ((cfg12 a).win 1).index t (0 : Fin 3) = r.val :=
    ((congrFun hi (0 : Fin 3)).trans (congrArg (fun z => (a.1 1 (ValueIdx.ix1 z)).toNat) hc)).trans hr.symm
  have h1 : ((cfg12 a).win 1).index t (1 : Fin 3) = 0 := congrFun hi (1 : Fin 3)
  have h2 : ((cfg12 a).win 1).index t (2 : Fin 3) = 0 := congrFun hi (2 : Fin 3)
  funext ax
  refine Fin.ext ?_
  match ax with
  | ⟨0, _⟩ =>
    show ((cfg12 a).win 1).index t (0 : Fin 3) * 1 + 1 * 0 = r.val
    rw [h0]; omega
  | ⟨1, _⟩ =>
    show ((cfg12 a).win 1).index t (1 : Fin 3) * 1 + 1 * 0 = 0
    rw [h1]
  | ⟨2, _⟩ =>
    show ((cfg12 a).win 1).index t (2 : Fin 3) * 96 + 1 * j.val = j.val
    rw [h2]; omega

end Cert.KernelIdeal.BlkRead12
-- ==== Proof.KI.Val12.lean ====
import proofs.«418705_j10376640987952_2_alg».proof.Proof.KI.Dat12
import proofs.«418705_j10376640987952_2_alg».proof.Proof.KI.Tables
import proofs.«418705_j10376640987952_2_alg».proof.Proof.KI.AccSum
import proofs.«418705_j10376640987952_2_alg».proof.Proof.KI.BlkRead12
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk12

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg12 (F := F)).Adm)
variable (V : (c : Dev nD) → (b : Ref sig .tc) → Buf (Elt F) ((c : Thread nD τ).loc b))

theorem last_lt : 49999 < (cfg12 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg12 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg12 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg12 (Tables.adm12 m hr)).N) : 12 * 50000 + t.val < 800000 := by
  have := lt_of_lt_of_eq t.isLt (N_eq (Tables.adm12 m hr)); omega

set_option maxHeartbeats 400000 in
/-- The row staged in window 0 at point t is the feature row of the source node of the chunk's t-th edge. -/
theorem b3_apply (hV6 : ∀ c, V c main_v6 = Tables.feat m) (c : Dev nD) (t : Fin (cfg12 (Tables.adm12 m hr)).N) (j : Fin 96) :
    b3 (Tables.adm12 m hr) V c t (ValueIdx.ix3 0 0 j)
      = Tables.nodes m (ValueIdx.ix2 (Cert.Spec.row (Tables.edges m (ValueIdx.ix2 0 ⟨12 * 50000 + t.val, pos_lt m hr t⟩))) j) := by
  have hlt : t.val < 50000 := lt_of_lt_of_eq t.isLt (N_eq (Tables.adm12 m hr))
  -- the table word at position t is the edge list's word at the chunk's t-th position
  have hw : ((Tables.adm12 m hr).1 0 (ValueIdx.ix1 ⟨t.val, hlt⟩))
      = Tables.edges m (ValueIdx.ix2 0 ⟨12 * 50000 + t.val, pos_lt m hr t⟩) := Tables.tab12_apply m 0 ⟨t.val, hlt⟩
  have hrow : (Cert.Spec.row (Tables.edges m (ValueIdx.ix2 0 ⟨12 * 50000 + t.val, pos_lt m hr t⟩))).val
      = ((Tables.adm12 m hr).1 0 (ValueIdx.ix1 ⟨t.val, hlt⟩)).toNat :=
    (Cert.Spec.row_val_of_lt (hr _)).trans (congrArg BitVec.toNat hw).symm
  show ((((cfg12 (Tables.adm12 m hr)).win 0).blk t).view.read (Elt F) (V c main_v6)) (ValueIdx.ix3 0 0 j) = _
  rw [hV6 c]
  refine (BlkRead12.blk0_apply (Tables.adm12 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg12 (Tables.adm12 m hr)).N) (j : Fin 96) :
    b4 (Tables.adm12 m hr) V c t (ValueIdx.ix3 0 0 j)
      = Tables.nodes m (ValueIdx.ix2 (Cert.Spec.row (Tables.edges m (ValueIdx.ix2 1 ⟨12 * 50000 + t.val, pos_lt m hr t⟩))) j) := by
  have hlt : t.val < 50000 := lt_of_lt_of_eq t.isLt (N_eq (Tables.adm12 m hr))
  have hw : ((Tables.adm12 m hr).1 1 (ValueIdx.ix1 ⟨t.val, hlt⟩))
      = Tables.edges m (ValueIdx.ix2 1 ⟨12 * 50000 + t.val, pos_lt m hr t⟩) := Tables.tab12_apply m 1 ⟨t.val, hlt⟩
  have hrow : (Cert.Spec.row (Tables.edges m (ValueIdx.ix2 1 ⟨12 * 50000 + t.val, pos_lt m hr t⟩))).val
      = ((Tables.adm12 m hr).1 1 (ValueIdx.ix1 ⟨t.val, hlt⟩)).toNat :=
    (Cert.Spec.row_val_of_lt (hr _)).trans (congrArg BitVec.toNat hw).symm
  show ((((cfg12 (Tables.adm12 m hr)).win 1).blk t).view.read (Elt F) (V c main_v6)) (ValueIdx.ix3 0 0 j) = _
  rw [hV6 c]
  refine (BlkRead12.blk1_apply (Tables.adm12 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm12 m hr) V c).arrAt 2 (cfg12 (Tables.adm12 m hr)).N) (ValueIdx.ix2 (0 : Fin 1) (0 : Fin 1))
      = ∑ i : Fin 50000, Cert.Spec.dist (Tables.nodes m)
          (Cert.Spec.row (Tables.edges m (ValueIdx.ix2 0 ⟨12 * 50000 + i.val, by omega⟩)))
          (Cert.Spec.row (Tables.edges m (ValueIdx.ix2 1 ⟨12 * 50000 + i.val, by omega⟩))) := by
  have hN : (cfg12 (Tables.adm12 m hr)).N = 50000 := N_eq (Tables.adm12 m hr)
  -- the result array holds the accumulator after the last point
  refine (congrFun (arr_final (Tables.adm12 m hr) V c) (ValueIdx.ix2 (0 : Fin 1) (0 : Fin 1))).trans ?_
  -- which is the sum of the distances between the staged rows
  refine (AccSum.acc_last
    (fun i => b3 (Tables.adm12 m hr) V c ⟨i.val, lt_of_lt_of_eq i.isLt hN.symm⟩)
    (fun i => b4 (Tables.adm12 m hr) V c ⟨i.val, lt_of_lt_of_eq i.isLt hN.symm⟩)
    (fun n h => acc (Tables.adm12 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk12
-- ==== Proof.KI.BlkRead13.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead13

open Idealize.ShloMosaic Cert.KernelIdeal Cert.KernelIdeal.Gen

variable {F : FTy → Type} [FloatOps F]
variable [Cert.KernelIdeal.Facts]

/-- A grid of one axis: consecutive points differ in that axis's coordinate. -/
theorem stride0 : grid13.stride 0 = 1 := by decide

/-- The pipeline at any contents of the tables runs over the 50000 points of the grid. -/
theorem N0 (a : (pcfg13 (F := F)).Adm) : (cfg13 a).N = 50000 := N_13

theorem lt0 (a : (pcfg13 (F := F)).Adm) (t : Fin (cfg13 a).N) : t.val < 50000 := lt_of_lt_of_eq t.isLt (N0 a)

set_option maxHeartbeats 50000 in
/-- The one coordinate of the t-th point is t. -/
theorem coord0 (a : (pcfg13 (F := F)).Adm) (t : Fin (cfg13 a).N) : (((cfg13 a).grid.coords t) 0).val = t.val := by
  show t.val / grid13.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg13 (F := F)).Adm) (t : Fin (cfg13 a).N) :
    ((cfg13 a).win 0).index t = cc13_transform_0 Facts₀.k13_off1_inb Facts₀.numel1_S1 a.1 ((cfg13 a).grid.coords t) := rfl

set_option maxHeartbeats 50000 in
/-- The index map at coordinate i: (the word of table 0 at position i, 0, 0). -/
theorem transform0_0 (pf : pre13.Contents (Elt F)) (i : grid13.Coords) :
    cc13_transform_0 Facts₀.k13_off1_inb Facts₀.numel1_S1 pf i
      = ![(pf 0 (ValueIdx.ix1 (i 0))).toNat, 0, 0] := by
  unfold cc13_transform_0
  -- the one index of the unit rectangle at offset i is position i of the table
  have e : (Rect.unit (s := S50000) ![(Scalar.indexCast (BitVec.ofNat 32 (i 0).val)).toNat] S1.size (Facts₀.k13_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg13 (F := F)).Adm) (t : Fin (cfg13 a).N) (X : S50000x1x96.Idx → Elt F .f32) (j : Fin 96) (r : Fin 50000)
    (hr : r.val = (a.1 0 (ValueIdx.ix1 ⟨t.val, lt0 a t⟩)).toNat) :
    ((((cfg13 a).win 0).blk t).view.read (Elt F) X) (ValueIdx.ix3 0 0 j) = X (ValueIdx.ix3 r 0 j) := by
  show X ((((cfg13 a).win 0).blk t).view.emb (ValueIdx.ix3 0 0 j)) = X (ValueIdx.ix3 r 0 j)
  refine congrArg X ?_
  have hi : ((cfg13 a).win 0).index t = ![(a.1 0 (ValueIdx.ix1 ((cfg13 a).grid.coords t 0))).toNat, 0, 0] :=
    (index0_0 a t).trans (transform0_0 a.1 _)
  have hc : ((cfg13 a).grid.coords t 0) = ⟨t.val, lt0 a t⟩ := Fin.ext (coord0 a t)
  have h0 : ((cfg13 a).win 0).index t (0 : Fin 3) = r.val :=
    ((congrFun hi (0 : Fin 3)).trans (congrArg (fun z => (a.1 0 (ValueIdx.ix1 z)).toNat) hc)).trans hr.symm
  have h1 : ((cfg13 a).win 0).index t (1 : Fin 3) = 0 := congrFun hi (1 : Fin 3)
  have h2 : ((cfg13 a).win 0).index t (2 : Fin 3) = 0 := congrFun hi (2 : Fin 3)
  -- per axis: block index times extent, plus the coordinate inside the block
  funext ax
  refine Fin.ext ?_
  match ax with
  | ⟨0, _⟩ =>
    show ((cfg13 a).win 0).index t (0 : Fin 3) * 1 + 1 * 0 = r.val
    rw [h0]; omega
  | ⟨1, _⟩ =>
    show ((cfg13 a).win 0).index t (1 : Fin 3) * 1 + 1 * 0 = 0
    rw [h1]
  | ⟨2, _⟩ =>
    show ((cfg13 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg13 (F := F)).Adm) (t : Fin (cfg13 a).N) :
    ((cfg13 a).win 1).index t = cc13_transform_1 Facts₀.k13_off1_inb Facts₀.numel1_S1 a.1 ((cfg13 a).grid.coords t) := rfl

set_option maxHeartbeats 50000 in
/-- The index map at coordinate i: (the word of table 1 at position i, 0, 0). -/
theorem transform0_1 (pf : pre13.Contents (Elt F)) (i : grid13.Coords) :
    cc13_transform_1 Facts₀.k13_off1_inb Facts₀.numel1_S1 pf i
      = ![(pf 1 (ValueIdx.ix1 (i 0))).toNat, 0, 0] := by
  unfold cc13_transform_1
  have e : (Rect.unit (s := S50000) ![(Scalar.indexCast (BitVec.ofNat 32 (i 0).val)).toNat] S1.size (Facts₀.k13_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg13 (F := F)).Adm) (t : Fin (cfg13 a).N) (X : S50000x1x96.Idx → Elt F .f32) (j : Fin 96) (r : Fin 50000)
    (hr : r.val = (a.1 1 (ValueIdx.ix1 ⟨t.val, lt0 a t⟩)).toNat) :
    ((((cfg13 a).win 1).blk t).view.read (Elt F) X) (ValueIdx.ix3 0 0 j) = X (ValueIdx.ix3 r 0 j) := by
  show X ((((cfg13 a).win 1).blk t).view.emb (ValueIdx.ix3 0 0 j)) = X (ValueIdx.ix3 r 0 j)
  refine congrArg X ?_
  have hi : ((cfg13 a).win 1).index t = ![(a.1 1 (ValueIdx.ix1 ((cfg13 a).grid.coords t 0))).toNat, 0, 0] :=
    (index0_1 a t).trans (transform0_1 a.1 _)
  have hc : ((cfg13 a).grid.coords t 0) = ⟨t.val, lt0 a t⟩ := Fin.ext (coord0 a t)
  have h0 : ((cfg13 a).win 1).index t (0 : Fin 3) = r.val :=
    ((congrFun hi (0 : Fin 3)).trans (congrArg (fun z => (a.1 1 (ValueIdx.ix1 z)).toNat) hc)).trans hr.symm
  have h1 : ((cfg13 a).win 1).index t (1 : Fin 3) = 0 := congrFun hi (1 : Fin 3)
  have h2 : ((cfg13 a).win 1).index t (2 : Fin 3) = 0 := congrFun hi (2 : Fin 3)
  funext ax
  refine Fin.ext ?_
  match ax with
  | ⟨0, _⟩ =>
    show ((cfg13 a).win 1).index t (0 : Fin 3) * 1 + 1 * 0 = r.val
    rw [h0]; omega
  | ⟨1, _⟩ =>
    show ((cfg13 a).win 1).index t (1 : Fin 3) * 1 + 1 * 0 = 0
    rw [h1]
  | ⟨2, _⟩ =>
    show ((cfg13 a).win 1).index t (2 : Fin 3) * 96 + 1 * j.val = j.val
    rw [h2]; omega

end Cert.KernelIdeal.BlkRead13
-- ==== Proof.KI.Val13.lean ====
import proofs.«418705_j10376640987952_2_alg».proof.Proof.KI.Dat13
import proofs.«418705_j10376640987952_2_alg».proof.Proof.KI.Tables
import proofs.«418705_j10376640987952_2_alg».proof.Proof.KI.AccSum
import proofs.«418705_j10376640987952_2_alg».proof.Proof.KI.BlkRead13
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk13

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg13 (F := F)).Adm)
variable (V : (c : Dev nD) → (b : Ref sig .tc) → Buf (Elt F) ((c : Thread nD τ).loc b))

theorem last_lt : 49999 < (cfg13 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg13 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg13 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg13 (Tables.adm13 m hr)).N) : 13 * 50000 + t.val < 800000 := by
  have := lt_of_lt_of_eq t.isLt (N_eq (Tables.adm13 m hr)); omega

set_option maxHeartbeats 400000 in
/-- The row staged in window 0 at point t is the feature row of the source node of the chunk's t-th edge. -/
theorem b3_apply (hV6 : ∀ c, V c main_v6 = Tables.feat m) (c : Dev nD) (t : Fin (cfg13 (Tables.adm13 m hr)).N) (j : Fin 96) :
    b3 (Tables.adm13 m hr) V c t (ValueIdx.ix3 0 0 j)
      = Tables.nodes m (ValueIdx.ix2 (Cert.Spec.row (Tables.edges m (ValueIdx.ix2 0 ⟨13 * 50000 + t.val, pos_lt m hr t⟩))) j) := by
  have hlt : t.val < 50000 := lt_of_lt_of_eq t.isLt (N_eq (Tables.adm13 m hr))
  -- the table word at position t is the edge list's word at the chunk's t-th position
  have hw : ((Tables.adm13 m hr).1 0 (ValueIdx.ix1 ⟨t.val, hlt⟩))
      = Tables.edges m (ValueIdx.ix2 0 ⟨13 * 50000 + t.val, pos_lt m hr t⟩) := Tables.tab13_apply m 0 ⟨t.val, hlt⟩
  have hrow : (Cert.Spec.row (Tables.edges m (ValueIdx.ix2 0 ⟨13 * 50000 + t.val, pos_lt m hr t⟩))).val
      = ((Tables.adm13 m hr).1 0 (ValueIdx.ix1 ⟨t.val, hlt⟩)).toNat :=
    (Cert.Spec.row_val_of_lt (hr _)).trans (congrArg BitVec.toNat hw).symm
  show ((((cfg13 (Tables.adm13 m hr)).win 0).blk t).view.read (Elt F) (V c main_v6)) (ValueIdx.ix3 0 0 j) = _
  rw [hV6 c]
  refine (BlkRead13.blk0_apply (Tables.adm13 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg13 (Tables.adm13 m hr)).N) (j : Fin 96) :
    b4 (Tables.adm13 m hr) V c t (ValueIdx.ix3 0 0 j)
      = Tables.nodes m (ValueIdx.ix2 (Cert.Spec.row (Tables.edges m (ValueIdx.ix2 1 ⟨13 * 50000 + t.val, pos_lt m hr t⟩))) j) := by
  have hlt : t.val < 50000 := lt_of_lt_of_eq t.isLt (N_eq (Tables.adm13 m hr))
  have hw : ((Tables.adm13 m hr).1 1 (ValueIdx.ix1 ⟨t.val, hlt⟩))
      = Tables.edges m (ValueIdx.ix2 1 ⟨13 * 50000 + t.val, pos_lt m hr t⟩) := Tables.tab13_apply m 1 ⟨t.val, hlt⟩
  have hrow : (Cert.Spec.row (Tables.edges m (ValueIdx.ix2 1 ⟨13 * 50000 + t.val, pos_lt m hr t⟩))).val
      = ((Tables.adm13 m hr).1 1 (ValueIdx.ix1 ⟨t.val, hlt⟩)).toNat :=
    (Cert.Spec.row_val_of_lt (hr _)).trans (congrArg BitVec.toNat hw).symm
  show ((((cfg13 (Tables.adm13 m hr)).win 1).blk t).view.read (Elt F) (V c main_v6)) (ValueIdx.ix3 0 0 j) = _
  rw [hV6 c]
  refine (BlkRead13.blk1_apply (Tables.adm13 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm13 m hr) V c).arrAt 2 (cfg13 (Tables.adm13 m hr)).N) (ValueIdx.ix2 (0 : Fin 1) (0 : Fin 1))
      = ∑ i : Fin 50000, Cert.Spec.dist (Tables.nodes m)
          (Cert.Spec.row (Tables.edges m (ValueIdx.ix2 0 ⟨13 * 50000 + i.val, by omega⟩)))
          (Cert.Spec.row (Tables.edges m (ValueIdx.ix2 1 ⟨13 * 50000 + i.val, by omega⟩))) := by
  have hN : (cfg13 (Tables.adm13 m hr)).N = 50000 := N_eq (Tables.adm13 m hr)
  -- the result array holds the accumulator after the last point
  refine (congrFun (arr_final (Tables.adm13 m hr) V c) (ValueIdx.ix2 (0 : Fin 1) (0 : Fin 1))).trans ?_
  -- which is the sum of the distances between the staged rows
  refine (AccSum.acc_last
    (fun i => b3 (Tables.adm13 m hr) V c ⟨i.val, lt_of_lt_of_eq i.isLt hN.symm⟩)
    (fun i => b4 (Tables.adm13 m hr) V c ⟨i.val, lt_of_lt_of_eq i.isLt hN.symm⟩)
    (fun n h => acc (Tables.adm13 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk13
-- ==== Proof.KI.BlkRead14.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead14

open Idealize.ShloMosaic Cert.KernelIdeal Cert.KernelIdeal.Gen

variable {F : FTy → Type} [FloatOps F]
variable [Cert.KernelIdeal.Facts]

/-- A grid of one axis: consecutive points differ in that axis's coordinate. -/
theorem stride0 : grid14.stride 0 = 1 := by decide

/-- The pipeline at any contents of the tables runs over the 50000 points of the grid. -/
theorem N0 (a : (pcfg14 (F := F)).Adm) : (cfg14 a).N = 50000 := N_14

theorem lt0 (a : (pcfg14 (F := F)).Adm) (t : Fin (cfg14 a).N) : t.val < 50000 := lt_of_lt_of_eq t.isLt (N0 a)

set_option maxHeartbeats 50000 in
/-- The one coordinate of the t-th point is t. -/
theorem coord0 (a : (pcfg14 (F := F)).Adm) (t : Fin (cfg14 a).N) : (((cfg14 a).grid.coords t) 0).val = t.val := by
  show t.val / grid14.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg14 (F := F)).Adm) (t : Fin (cfg14 a).N) :
    ((cfg14 a).win 0).index t = cc14_transform_0 Facts₀.k14_off1_inb Facts₀.numel1_S1 a.1 ((cfg14 a).grid.coords t) := rfl

set_option maxHeartbeats 50000 in
/-- The index map at coordinate i: (the word of table 0 at position i, 0, 0). -/
theorem transform0_0 (pf : pre14.Contents (Elt F)) (i : grid14.Coords) :
    cc14_transform_0 Facts₀.k14_off1_inb Facts₀.numel1_S1 pf i
      = ![(pf 0 (ValueIdx.ix1 (i 0))).toNat, 0, 0] := by
  unfold cc14_transform_0
  -- the one index of the unit rectangle at offset i is position i of the table
  have e : (Rect.unit (s := S50000) ![(Scalar.indexCast (BitVec.ofNat 32 (i 0).val)).toNat] S1.size (Facts₀.k14_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg14 (F := F)).Adm) (t : Fin (cfg14 a).N) (X : S50000x1x96.Idx → Elt F .f32) (j : Fin 96) (r : Fin 50000)
    (hr : r.val = (a.1 0 (ValueIdx.ix1 ⟨t.val, lt0 a t⟩)).toNat) :
    ((((cfg14 a).win 0).blk t).view.read (Elt F) X) (ValueIdx.ix3 0 0 j) = X (ValueIdx.ix3 r 0 j) := by
  show X ((((cfg14 a).win 0).blk t).view.emb (ValueIdx.ix3 0 0 j)) = X (ValueIdx.ix3 r 0 j)
  refine congrArg X ?_
  have hi : ((cfg14 a).win 0).index t = ![(a.1 0 (ValueIdx.ix1 ((cfg14 a).grid.coords t 0))).toNat, 0, 0] :=
    (index0_0 a t).trans (transform0_0 a.1 _)
  have hc : ((cfg14 a).grid.coords t 0) = ⟨t.val, lt0 a t⟩ := Fin.ext (coord0 a t)
  have h0 : ((cfg14 a).win 0).index t (0 : Fin 3) = r.val :=
    ((congrFun hi (0 : Fin 3)).trans (congrArg (fun z => (a.1 0 (ValueIdx.ix1 z)).toNat) hc)).trans hr.symm
  have h1 : ((cfg14 a).win 0).index t (1 : Fin 3) = 0 := congrFun hi (1 : Fin 3)
  have h2 : ((cfg14 a).win 0).index t (2 : Fin 3) = 0 := congrFun hi (2 : Fin 3)
  -- per axis: block index times extent, plus the coordinate inside the block
  funext ax
  refine Fin.ext ?_
  match ax with
  | ⟨0, _⟩ =>
    show ((cfg14 a).win 0).index t (0 : Fin 3) * 1 + 1 * 0 = r.val
    rw [h0]; omega
  | ⟨1, _⟩ =>
    show ((cfg14 a).win 0).index t (1 : Fin 3) * 1 + 1 * 0 = 0
    rw [h1]
  | ⟨2, _⟩ =>
    show ((cfg14 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg14 (F := F)).Adm) (t : Fin (cfg14 a).N) :
    ((cfg14 a).win 1).index t = cc14_transform_1 Facts₀.k14_off1_inb Facts₀.numel1_S1 a.1 ((cfg14 a).grid.coords t) := rfl

set_option maxHeartbeats 50000 in
/-- The index map at coordinate i: (the word of table 1 at position i, 0, 0). -/
theorem transform0_1 (pf : pre14.Contents (Elt F)) (i : grid14.Coords) :
    cc14_transform_1 Facts₀.k14_off1_inb Facts₀.numel1_S1 pf i
      = ![(pf 1 (ValueIdx.ix1 (i 0))).toNat, 0, 0] := by
  unfold cc14_transform_1
  have e : (Rect.unit (s := S50000) ![(Scalar.indexCast (BitVec.ofNat 32 (i 0).val)).toNat] S1.size (Facts₀.k14_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg14 (F := F)).Adm) (t : Fin (cfg14 a).N) (X : S50000x1x96.Idx → Elt F .f32) (j : Fin 96) (r : Fin 50000)
    (hr : r.val = (a.1 1 (ValueIdx.ix1 ⟨t.val, lt0 a t⟩)).toNat) :
    ((((cfg14 a).win 1).blk t).view.read (Elt F) X) (ValueIdx.ix3 0 0 j) = X (ValueIdx.ix3 r 0 j) := by
  show X ((((cfg14 a).win 1).blk t).view.emb (ValueIdx.ix3 0 0 j)) = X (ValueIdx.ix3 r 0 j)
  refine congrArg X ?_
  have hi : ((cfg14 a).win 1).index t = ![(a.1 1 (ValueIdx.ix1 ((cfg14 a).grid.coords t 0))).toNat, 0, 0] :=
    (index0_1 a t).trans (transform0_1 a.1 _)
  have hc : ((cfg14 a).grid.coords t 0) = ⟨t.val, lt0 a t⟩ := Fin.ext (coord0 a t)
  have h0 : ((cfg14 a).win 1).index t (0 : Fin 3) = r.val :=
    ((congrFun hi (0 : Fin 3)).trans (congrArg (fun z => (a.1 1 (ValueIdx.ix1 z)).toNat) hc)).trans hr.symm
  have h1 : ((cfg14 a).win 1).index t (1 : Fin 3) = 0 := congrFun hi (1 : Fin 3)
  have h2 : ((cfg14 a).win 1).index t (2 : Fin 3) = 0 := congrFun hi (2 : Fin 3)
  funext ax
  refine Fin.ext ?_
  match ax with
  | ⟨0, _⟩ =>
    show ((cfg14 a).win 1).index t (0 : Fin 3) * 1 + 1 * 0 = r.val
    rw [h0]; omega
  | ⟨1, _⟩ =>
    show ((cfg14 a).win 1).index t (1 : Fin 3) * 1 + 1 * 0 = 0
    rw [h1]
  | ⟨2, _⟩ =>
    show ((cfg14 a).win 1).index t (2 : Fin 3) * 96 + 1 * j.val = j.val
    rw [h2]; omega

end Cert.KernelIdeal.BlkRead14
-- ==== Proof.KI.Val14.lean ====
import proofs.«418705_j10376640987952_2_alg».proof.Proof.KI.Dat14
import proofs.«418705_j10376640987952_2_alg».proof.Proof.KI.Tables
import proofs.«418705_j10376640987952_2_alg».proof.Proof.KI.AccSum
import proofs.«418705_j10376640987952_2_alg».proof.Proof.KI.BlkRead14
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk14

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg14 (F := F)).Adm)
variable (V : (c : Dev nD) → (b : Ref sig .tc) → Buf (Elt F) ((c : Thread nD τ).loc b))

theorem last_lt : 49999 < (cfg14 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg14 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg14 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg14 (Tables.adm14 m hr)).N) : 14 * 50000 + t.val < 800000 := by
  have := lt_of_lt_of_eq t.isLt (N_eq (Tables.adm14 m hr)); omega

set_option maxHeartbeats 400000 in
/-- The row staged in window 0 at point t is the feature row of the source node of the chunk's t-th edge. -/
theorem b3_apply (hV6 : ∀ c, V c main_v6 = Tables.feat m) (c : Dev nD) (t : Fin (cfg14 (Tables.adm14 m hr)).N) (j : Fin 96) :
    b3 (Tables.adm14 m hr) V c t (ValueIdx.ix3 0 0 j)
      = Tables.nodes m (ValueIdx.ix2 (Cert.Spec.row (Tables.edges m (ValueIdx.ix2 0 ⟨14 * 50000 + t.val, pos_lt m hr t⟩))) j) := by
  have hlt : t.val < 50000 := lt_of_lt_of_eq t.isLt (N_eq (Tables.adm14 m hr))
  -- the table word at position t is the edge list's word at the chunk's t-th position
  have hw : ((Tables.adm14 m hr).1 0 (ValueIdx.ix1 ⟨t.val, hlt⟩))
      = Tables.edges m (ValueIdx.ix2 0 ⟨14 * 50000 + t.val, pos_lt m hr t⟩) := Tables.tab14_apply m 0 ⟨t.val, hlt⟩
  have hrow : (Cert.Spec.row (Tables.edges m (ValueIdx.ix2 0 ⟨14 * 50000 + t.val, pos_lt m hr t⟩))).val
      = ((Tables.adm14 m hr).1 0 (ValueIdx.ix1 ⟨t.val, hlt⟩)).toNat :=
    (Cert.Spec.row_val_of_lt (hr _)).trans (congrArg BitVec.toNat hw).symm
  show ((((cfg14 (Tables.adm14 m hr)).win 0).blk t).view.read (Elt F) (V c main_v6)) (ValueIdx.ix3 0 0 j) = _
  rw [hV6 c]
  refine (BlkRead14.blk0_apply (Tables.adm14 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg14 (Tables.adm14 m hr)).N) (j : Fin 96) :
    b4 (Tables.adm14 m hr) V c t (ValueIdx.ix3 0 0 j)
      = Tables.nodes m (ValueIdx.ix2 (Cert.Spec.row (Tables.edges m (ValueIdx.ix2 1 ⟨14 * 50000 + t.val, pos_lt m hr t⟩))) j) := by
  have hlt : t.val < 50000 := lt_of_lt_of_eq t.isLt (N_eq (Tables.adm14 m hr))
  have hw : ((Tables.adm14 m hr).1 1 (ValueIdx.ix1 ⟨t.val, hlt⟩))
      = Tables.edges m (ValueIdx.ix2 1 ⟨14 * 50000 + t.val, pos_lt m hr t⟩) := Tables.tab14_apply m 1 ⟨t.val, hlt⟩
  have hrow : (Cert.Spec.row (Tables.edges m (ValueIdx.ix2 1 ⟨14 * 50000 + t.val, pos_lt m hr t⟩))).val
      = ((Tables.adm14 m hr).1 1 (ValueIdx.ix1 ⟨t.val, hlt⟩)).toNat :=
    (Cert.Spec.row_val_of_lt (hr _)).trans (congrArg BitVec.toNat hw).symm
  show ((((cfg14 (Tables.adm14 m hr)).win 1).blk t).view.read (Elt F) (V c main_v6)) (ValueIdx.ix3 0 0 j) = _
  rw [hV6 c]
  refine (BlkRead14.blk1_apply (Tables.adm14 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm14 m hr) V c).arrAt 2 (cfg14 (Tables.adm14 m hr)).N) (ValueIdx.ix2 (0 : Fin 1) (0 : Fin 1))
      = ∑ i : Fin 50000, Cert.Spec.dist (Tables.nodes m)
          (Cert.Spec.row (Tables.edges m (ValueIdx.ix2 0 ⟨14 * 50000 + i.val, by omega⟩)))
          (Cert.Spec.row (Tables.edges m (ValueIdx.ix2 1 ⟨14 * 50000 + i.val, by omega⟩))) := by
  have hN : (cfg14 (Tables.adm14 m hr)).N = 50000 := N_eq (Tables.adm14 m hr)
  -- the result array holds the accumulator after the last point
  refine (congrFun (arr_final (Tables.adm14 m hr) V c) (ValueIdx.ix2 (0 : Fin 1) (0 : Fin 1))).trans ?_
  -- which is the sum of the distances between the staged rows
  refine (AccSum.acc_last
    (fun i => b3 (Tables.adm14 m hr) V c ⟨i.val, lt_of_lt_of_eq i.isLt hN.symm⟩)
    (fun i => b4 (Tables.adm14 m hr) V c ⟨i.val, lt_of_lt_of_eq i.isLt hN.symm⟩)
    (fun n h => acc (Tables.adm14 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk14
-- ==== Proof.KI.BlkRead15.lean ====
import proofs.«418705_j10376640987952_2_alg».proof.Proof.Gen.KernelIdeal.Launch
import Idealize.ShloMosaic.Lib.ValueIdx
import Idealize.ShloMosaic.Lib.Pipeline.Value

/-!
  What a staged block of the feature array reads.

  The region runs over a grid of one axis of 50000 points.  Its first two windows are blocks of shape
  [1, 1, 96] of the feature array [50000, 1, 96]; the block index of window k (k = 0, 1) at grid point t is
  (w, 0, 0), where w is the word at position t of the region's k-th prefetched table.  A block's coordinate
  on an axis is its block index times the block's extent plus the coordinate inside the block, so the block
  of window k at point t, read at (0, 0, j), is the array at (w, 0, j).

  Everything is stated with the tables' contents a variable: no step looks inside them.
-/

noncomputable section

namespace Cert.KernelIdeal.BlkRead15

open Idealize.ShloMosaic Cert.KernelIdeal Cert.KernelIdeal.Gen

variable {F : FTy → Type} [FloatOps F]
variable [Cert.KernelIdeal.Facts]

/-- A grid of one axis: consecutive points differ in that axis's coordinate. -/
theorem stride0 : grid15.stride 0 = 1 := by decide

/-- The pipeline at any contents of the tables runs over the 50000 points of the grid. -/
theorem N0 (a : (pcfg15 (F := F)).Adm) : (cfg15 a).N = 50000 := N_15

theorem lt0 (a : (pcfg15 (F := F)).Adm) (t : Fin (cfg15 a).N) : t.val < 50000 := lt_of_lt_of_eq t.isLt (N0 a)

set_option maxHeartbeats 50000 in
/-- The one coordinate of the t-th point is t. -/
theorem coord0 (a : (pcfg15 (F := F)).Adm) (t : Fin (cfg15 a).N) : (((cfg15 a).grid.coords t) 0).val = t.val := by
  show t.val / grid15.stride 0 % 50000 = t.val
  rw [stride0, Nat.div_one, Nat.mod_eq_of_lt (lt0 a t)]

/-- A number below 50000, made a 32-bit word, cast to an index and read back, is itself. -/
theorem word_of_coord (n : Nat) (h : n < 50000) : (Scalar.indexCast (BitVec.ofNat 32 n)).toNat = n := by
  show (BitVec.ofNat 32 n).toNat = n
  rw [BitVec.toNat_ofNat]
  exact Nat.mod_eq_of_lt (by omega)

/-! ## Window 0: the block index is read from table 0 -/

set_option maxHeartbeats 50000 in
/-- The window's block index at a point is its index map at the point's coordinates. -/
theorem index0_0 (a : (pcfg15 (F := F)).Adm) (t : Fin (cfg15 a).N) :
    ((cfg15 a).win 0).index t = cc15_transform_0 Facts₀.k15_off1_inb Facts₀.numel1_S1 a.1 ((cfg15 a).grid.coords t) := rfl

set_option maxHeartbeats 50000 in
/-- The index map at coordinate i: (the word of table 0 at position i, 0, 0). -/
theorem transform0_0 (pf : pre15.Contents (Elt F)) (i : grid15.Coords) :
    cc15_transform_0 Facts₀.k15_off1_inb Facts₀.numel1_S1 pf i
      = ![(pf 0 (ValueIdx.ix1 (i 0))).toNat, 0, 0] := by
  unfold cc15_transform_0
  -- the one index of the unit rectangle at offset i is position i of the table
  have e : (Rect.unit (s := S50000) ![(Scalar.indexCast (BitVec.ofNat 32 (i 0).val)).toNat] S1.size (Facts₀.k15_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 0 z).toNat, 0, 0]) e

set_option maxHeartbeats 100000 in
/-- The block of window 0 at point t, read at (0, 0, j), is the array at (r, 0, j), r the value of the word of
    table 0 at position t. -/
theorem blk0_apply (a : (pcfg15 (F := F)).Adm) (t : Fin (cfg15 a).N) (X : S50000x1x96.Idx → Elt F .f32) (j : Fin 96) (r : Fin 50000)
    (hr : r.val = (a.1 0 (ValueIdx.ix1 ⟨t.val, lt0 a t⟩)).toNat) :
    ((((cfg15 a).win 0).blk t).view.read (Elt F) X) (ValueIdx.ix3 0 0 j) = X (ValueIdx.ix3 r 0 j) := by
  show X ((((cfg15 a).win 0).blk t).view.emb (ValueIdx.ix3 0 0 j)) = X (ValueIdx.ix3 r 0 j)
  refine congrArg X ?_
  have hi : ((cfg15 a).win 0).index t = ![(a.1 0 (ValueIdx.ix1 ((cfg15 a).grid.coords t 0))).toNat, 0, 0] :=
    (index0_0 a t).trans (transform0_0 a.1 _)
  have hc : ((cfg15 a).grid.coords t 0) = ⟨t.val, lt0 a t⟩ := Fin.ext (coord0 a t)
  have h0 : ((cfg15 a).win 0).index t (0 : Fin 3) = r.val :=
    ((congrFun hi (0 : Fin 3)).trans (congrArg (fun z => (a.1 0 (ValueIdx.ix1 z)).toNat) hc)).trans hr.symm
  have h1 : ((cfg15 a).win 0).index t (1 : Fin 3) = 0 := congrFun hi (1 : Fin 3)
  have h2 : ((cfg15 a).win 0).index t (2 : Fin 3) = 0 := congrFun hi (2 : Fin 3)
  -- per axis: block index times extent, plus the coordinate inside the block
  funext ax
  refine Fin.ext ?_
  match ax with
  | ⟨0, _⟩ =>
    show ((cfg15 a).win 0).index t (0 : Fin 3) * 1 + 1 * 0 = r.val
    rw [h0]; omega
  | ⟨1, _⟩ =>
    show ((cfg15 a).win 0).index t (1 : Fin 3) * 1 + 1 * 0 = 0
    rw [h1]
  | ⟨2, _⟩ =>
    show ((cfg15 a).win 0).index t (2 : Fin 3) * 96 + 1 * j.val = j.val
    rw [h2]; omega

/-! ## Window 1: the block index is read from table 1 -/

set_option maxHeartbeats 50000 in
/-- The window's block index at a point is its index map at the point's coordinates. -/
theorem index0_1 (a : (pcfg15 (F := F)).Adm) (t : Fin (cfg15 a).N) :
    ((cfg15 a).win 1).index t = cc15_transform_1 Facts₀.k15_off1_inb Facts₀.numel1_S1 a.1 ((cfg15 a).grid.coords t) := rfl

set_option maxHeartbeats 50000 in
/-- The index map at coordinate i: (the word of table 1 at position i, 0, 0). -/
theorem transform0_1 (pf : pre15.Contents (Elt F)) (i : grid15.Coords) :
    cc15_transform_1 Facts₀.k15_off1_inb Facts₀.numel1_S1 pf i
      = ![(pf 1 (ValueIdx.ix1 (i 0))).toNat, 0, 0] := by
  unfold cc15_transform_1
  have e : (Rect.unit (s := S50000) ![(Scalar.indexCast (BitVec.ofNat 32 (i 0).val)).toNat] S1.size (Facts₀.k15_off1_inb i)).emb
      (Shape.Idx.first (Facts₀.numel1_S1.symm ▸ Nat.one_pos)) = ValueIdx.ix1 (i 0) := by
    funext ax
    refine Fin.ext ?_
    match ax with
    | ⟨0, _⟩ =>
      show (Scalar.indexCast (BitVec.ofNat 32 (i 0).val)).toNat + 1 * 0 = (i 0).val
      rw [word_of_coord _ (i 0).isLt]
      omega
  exact congrArg (fun z => ![(pf 1 z).toNat, 0, 0]) e

set_option maxHeartbeats 100000 in
/-- The block of window 1 at point t, read at (0, 0, j), is the array at (r, 0, j), r the value of the word of
    table 1 at position t. -/
theorem blk1_apply (a : (pcfg15 (F := F)).Adm) (t : Fin (cfg15 a).N) (X : S50000x1x96.Idx → Elt F .f32) (j : Fin 96) (r : Fin 50000)
    (hr : r.val = (a.1 1 (ValueIdx.ix1 ⟨t.val, lt0 a t⟩)).toNat) :
    ((((cfg15 a).win 1).blk t).view.read (Elt F) X) (ValueIdx.ix3 0 0 j) = X (ValueIdx.ix3 r 0 j) := by
  show X ((((cfg15 a).win 1).blk t).view.emb (ValueIdx.ix3 0 0 j)) = X (ValueIdx.ix3 r 0 j)
  refine congrArg X ?_
  have hi : ((cfg15 a).win 1).index t = ![(a.1 1 (ValueIdx.ix1 ((cfg15 a).grid.coords t 0))).toNat, 0, 0] :=
    (index0_1 a t).trans (transform0_1 a.1 _)
  have hc : ((cfg15 a).grid.coords t 0) = ⟨t.val, lt0 a t⟩ := Fin.ext (coord0 a t)
  have h0 : ((cfg15 a).win 1).index t (0 : Fin 3) = r.val :=
    ((congrFun hi (0 : Fin 3)).trans (congrArg (fun z => (a.1 1 (ValueIdx.ix1 z)).toNat) hc)).trans hr.symm
  have h1 : ((cfg15 a).win 1).index t (1 : Fin 3) = 0 := congrFun hi (1 : Fin 3)
  have h2 : ((cfg15 a).win 1).index t (2 : Fin 3) = 0 := congrFun hi (2 : Fin 3)
  funext ax
  refine Fin.ext ?_
  match ax with
  | ⟨0, _⟩ =>
    show ((cfg15 a).win 1).index t (0 : Fin 3) * 1 + 1 * 0 = r.val
    rw [h0]; omega
  | ⟨1, _⟩ =>
    show ((cfg15 a).win 1).index t (1 : Fin 3) * 1 + 1 * 0 = 0
    rw [h1]
  | ⟨2, _⟩ =>
    show ((cfg15 a).win 1).index t (2 : Fin 3) * 96 + 1 * j.val = j.val
    rw [h2]; omega

end Cert.KernelIdeal.BlkRead15
-- ==== Proof.KI.Val15.lean ====
import proofs.«418705_j10376640987952_2_alg».proof.Proof.KI.Dat15
import proofs.«418705_j10376640987952_2_alg».proof.Proof.KI.Tables
import proofs.«418705_j10376640987952_2_alg».proof.Proof.KI.AccSum
import proofs.«418705_j10376640987952_2_alg».proof.Proof.KI.BlkRead15
import proofs.«418705_j10376640987952_2_alg».proof.Proof.Spec
import Idealize.ShloMosaic.Lib.Pipeline.Value

/-!
  The value one chunk leaves.

  The chunk's result is a one-element array, written back at the last of the 50000 grid points only, where it
  receives the accumulator.  The accumulator after the last point is the sum over the points of the distances
  between the two rows staged there; the rows staged at point t are the feature rows of the two endpoints of
  the chunk's t-th edge.  So the result is the sum of the chunk's 50000 edge distances.
-/

noncomputable section

open scoped BigOperators

namespace Cert.KernelIdeal.Chunk15

open Cert.KernelIdeal Cert.KernelIdeal.Gen
open Idealize.ShloMosaic Idealize.ShloMosaic.TcCoe
open Idealize.ShloMosaic.Pipeline (Dat Cfg Window)

/-- An array of shape [1, 1] has one index. -/
theorem idx11_eq (i j : S1x1.Idx) : i = j := by
  funext ax
  match ax with
  | ⟨0, _⟩ => exact @Subsingleton.elim (Fin 1) inferInstance _ _
  | ⟨1, _⟩ => exact @Subsingleton.elim (Fin 1) inferInstance _ _

section Final
variable {F : FTy → Type} [FloatOps F]
variable (a : (pcfg15 (F := F)).Adm)
variable (V : (c : Dev nD) → (b : Ref sig .tc) → Buf (Elt F) ((c : Thread nD τ).loc b))

theorem last_lt : 49999 < (cfg15 a).N := by rw [N_eq a]; norm_num

set_option maxHeartbeats 400000 in
/-- After the run the result array holds what the last point left in the accumulator: only the last point
    writes the result back, and its one-element block is the whole array. -/
theorem arr_final (c : Dev nD) :
    (dat a V c).arrAt 2 (cfg15 a).N = (acc a V c 49999 (last_lt a) : S1x1.Idx → Elt F .f32) := by
  refine (dat a V c).arrAt_eq_of_cover 2 (acc a V c 49999 (last_lt a)) ?_ ?_
  · intro t hf
    have ht : t.val = 49999 := by
      by_contra h
      rw [noflush_2 a t h] at hf
      exact Bool.false_ne_true hf
    obtain ⟨n, hn⟩ := t
    have hn' : n = 49999 := ht
    subst hn'
    funext x
    show acc a V c 49999 _ _ = acc a V c 49999 _ _
    exact congrArg (acc a V c 49999 (last_lt a)) (idx11_eq _ _)
  · intro i
    refine ⟨⟨49999, last_lt a⟩, ?_, ?_⟩
    · exact (Pipeline.Window.flush_out _ rfl _).mpr (Or.inl (N_eq a).symm)
    · have hx := (((cfg15 a).win 2).blk ⟨49999, last_lt a⟩).view.emb_mem_set (ValueIdx.ix2 (0 : Fin 1) (0 : Fin 1))
      exact (idx11_eq _ i) ▸ hx

end Final

/-! ## The staged rows are the endpoints' feature rows -/

section Rows
variable {F : FTy → Type} [FloatOps F]
variable (m : (ℓ : Loc nD τ sig) → Buf (Elt F) ℓ) (hr : ∀ i, (Tables.edges m i).toNat < 50000)
variable (V : (c : Dev nD) → (b : Ref sig .tc) → Buf (Elt F) ((c : Thread nD τ).loc b))

theorem pos_lt (t : Fin (cfg15 (Tables.adm15 m hr)).N) : 15 * 50000 + t.val < 800000 := by
  have := lt_of_lt_of_eq t.isLt (N_eq (Tables.adm15 m hr)); omega

set_option maxHeartbeats 400000 in
/-- The row staged in window 0 at point t is the feature row of the source node of the chunk's t-th edge. -/
theorem b3_apply (hV6 : ∀ c, V c main_v6 = Tables.feat m) (c : Dev nD) (t : Fin (cfg15 (Tables.adm15 m hr)).N) (j : Fin 96) :
    b3 (Tables.adm15 m hr) V c t (ValueIdx.ix3 0 0 j)
      = Tables.nodes m (ValueIdx.ix2 (Cert.Spec.row (Tables.edges m (ValueIdx.ix2 0 ⟨15 * 50000 + t.val, pos_lt m hr t⟩))) j) := by
  have hlt : t.val < 50000 := lt_of_lt_of_eq t.isLt (N_eq (Tables.adm15 m hr))
  -- the table word at position t is the edge list's word at the chunk's t-th position
  have hw : ((Tables.adm15 m hr).1 0 (ValueIdx.ix1 ⟨t.val, hlt⟩))
      = Tables.edges m (ValueIdx.ix2 0 ⟨15 * 50000 + t.val, pos_lt m hr t⟩) := Tables.tab15_apply m 0 ⟨t.val, hlt⟩
  have hrow : (Cert.Spec.row (Tables.edges m (ValueIdx.ix2 0 ⟨15 * 50000 + t.val, pos_lt m hr t⟩))).val
      = ((Tables.adm15 m hr).1 0 (ValueIdx.ix1 ⟨t.val, hlt⟩)).toNat :=
    (Cert.Spec.row_val_of_lt (hr _)).trans (congrArg BitVec.toNat hw).symm
  show ((((cfg15 (Tables.adm15 m hr)).win 0).blk t).view.read (Elt F) (V c main_v6)) (ValueIdx.ix3 0 0 j) = _
  rw [hV6 c]
  refine (BlkRead15.blk0_apply (Tables.adm15 m hr) t (Tables.feat m) j _ hrow).trans ?_
  exact Tables.feat_apply m _ j

set_option maxHeartbeats 400000 in
/-- The row staged in window 1 at point t is the feature row of the destination node of the chunk's t-th edge. -/
theorem b4_apply (hV6 : ∀ c, V c main_v6 = Tables.feat m) (c : Dev nD) (t : Fin (cfg15 (Tables.adm15 m hr)).N) (j : Fin 96) :
    b4 (Tables.adm15 m hr) V c t (ValueIdx.ix3 0 0 j)
      = Tables.nodes m (ValueIdx.ix2 (Cert.Spec.row (Tables.edges m (ValueIdx.ix2 1 ⟨15 * 50000 + t.val, pos_lt m hr t⟩))) j) := by
  have hlt : t.val < 50000 := lt_of_lt_of_eq t.isLt (N_eq (Tables.adm15 m hr))
  have hw : ((Tables.adm15 m hr).1 1 (ValueIdx.ix1 ⟨t.val, hlt⟩))
      = Tables.edges m (ValueIdx.ix2 1 ⟨15 * 50000 + t.val, pos_lt m hr t⟩) := Tables.tab15_apply m 1 ⟨t.val, hlt⟩
  have hrow : (Cert.Spec.row (Tables.edges m (ValueIdx.ix2 1 ⟨15 * 50000 + t.val, pos_lt m hr t⟩))).val
      = ((Tables.adm15 m hr).1 1 (ValueIdx.ix1 ⟨t.val, hlt⟩)).toNat :=
    (Cert.Spec.row_val_of_lt (hr _)).trans (congrArg BitVec.toNat hw).symm
  show ((((cfg15 (Tables.adm15 m hr)).win 1).blk t).view.read (Elt F) (V c main_v6)) (ValueIdx.ix3 0 0 j) = _
  rw [hV6 c]
  refine (BlkRead15.blk1_apply (Tables.adm15 m hr) t (Tables.feat m) j _ hrow).trans ?_
  exact Tables.feat_apply m _ j

end Rows

/-! ## The chunk's value -/

set_option maxHeartbeats 400000 in
/-- The chunk's result is the sum over its 50000 edges of the distance between the endpoints' feature rows. -/
theorem out_val (m : (ℓ : Loc nD τ sig) → Buf (Elt Ideal) ℓ) (hr : ∀ i, (Tables.edges m i).toNat < 50000)
    (V : (c : Dev nD) → (b : Ref sig .tc) → Buf (Elt Ideal) ((c : Thread nD τ).loc b))
    (hV6 : ∀ c, V c main_v6 = Tables.feat m) (c : Dev nD) :
    ((dat (Tables.adm15 m hr) V c).arrAt 2 (cfg15 (Tables.adm15 m hr)).N) (ValueIdx.ix2 (0 : Fin 1) (0 : Fin 1))
      = ∑ i : Fin 50000, Cert.Spec.dist (Tables.nodes m)
          (Cert.Spec.row (Tables.edges m (ValueIdx.ix2 0 ⟨15 * 50000 + i.val, by omega⟩)))
          (Cert.Spec.row (Tables.edges m (ValueIdx.ix2 1 ⟨15 * 50000 + i.val, by omega⟩))) := by
  have hN : (cfg15 (Tables.adm15 m hr)).N = 50000 := N_eq (Tables.adm15 m hr)
  -- the result array holds the accumulator after the last point
  refine (congrFun (arr_final (Tables.adm15 m hr) V c) (ValueIdx.ix2 (0 : Fin 1) (0 : Fin 1))).trans ?_
  -- which is the sum of the distances between the staged rows
  refine (AccSum.acc_last
    (fun i => b3 (Tables.adm15 m hr) V c ⟨i.val, lt_of_lt_of_eq i.isLt hN.symm⟩)
    (fun i => b4 (Tables.adm15 m hr) V c ⟨i.val, lt_of_lt_of_eq i.isLt hN.symm⟩)
    (fun n h => acc (Tables.adm15 m hr) V c n (lt_of_lt_of_eq h hN.symm))
    (fun h => rfl) (fun n h => rfl) (ValueIdx.ix2 (0 : Fin 1) (0 : Fin 1))).trans ?_
  -- and the staged rows are the endpoints' feature rows
  refine Finset.sum_congr rfl (fun i _ => ?_)
  unfold Cert.Spec.dist
  refine congrArg Ideal.sqrt (Finset.sum_congr rfl (fun j _ => ?_))
  rw [b3_apply m hr V hV6 c ⟨i.val, lt_of_lt_of_eq i.isLt hN.symm⟩ j, b4_apply m hr V hV6 c ⟨i.val, lt_of_lt_of_eq i.isLt hN.symm⟩ j]

end Cert.KernelIdeal.Chunk15
-- ==== Proof.KI.Value.lean ====
import proofs.«418705_j10376640987952_2_alg».proof.Proof.KI.PDats
import proofs.«418705_j10376640987952_2_alg».proof.Proof.KI.Tail
import proofs.«418705_j10376640987952_2_alg».proof.Proof.KI.Val00
import proofs.«418705_j10376640987952_2_alg».proof.Proof.KI.Val01
import proofs.«418705_j10376640987952_2_alg».proof.Proof.KI.Val02
import proofs.«418705_j10376640987952_2_alg».proof.Proof.KI.Val03
import proofs.«418705_j10376640987952_2_alg».proof.Proof.KI.Val04
import proofs.«418705_j10376640987952_2_alg».proof.Proof.KI.Val05
import proofs.«418705_j10376640987952_2_alg».proof.Proof.KI.Val06
import proofs.«418705_j10376640987952_2_alg».proof.Proof.KI.Val07
import proofs.«418705_j10376640987952_2_alg».proof.Proof.KI.Val08
import proofs.«418705_j10376640987952_2_alg».proof.Proof.KI.Val09
import proofs.«418705_j10376640987952_2_alg».proof.Proof.KI.Val10
import proofs.«418705_j10376640987952_2_alg».proof.Proof.KI.Val11
import proofs.«418705_j10376640987952_2_alg».proof.Proof.KI.Val12
import proofs.«418705_j10376640987952_2_alg».proof.Proof.KI.Val13
import proofs.«418705_j10376640987952_2_alg».proof.Proof.KI.Val14
import proofs.«418705_j10376640987952_2_alg».proof.Proof.KI.Val15
import proofs.«418705_j10376640987952_2_alg».proof.Proof.SumAlgebra
import proofs.«418705_j10376640987952_2_alg».proof.Proof.Spec

/-!
  The kernel program's result at the ideal values is the specification's loss.

  The sixteen regions each take 50000 consecutive edges: region K leaves, in its one-entry output array, the sum over
  i < 50000 of the distance along edge K * 50000 + i. The host adds the sixteen entries to 0 one after the other and
  applies the specification's last two operations. A left-nested chain of sixteen additions from 0 is the sum over the
  sixteen regions, and the sum over 16 blocks of 50000 positions is the sum over all 800000 edges: the specification's
  total. No law but associativity and commutativity of addition and 0 + x = x is used.
-/

set_option maxRecDepth 1400

noncomputable section

open scoped BigOperators

namespace Cert.KernelIdeal.Whole

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (hr : ∀ i, (Tables.edges m i).toNat < 50000)

/-- The distance along edge `k`: between the feature rows of its two endpoints. -/
def edgeDist (k : Fin 800000) : EReal :=
  Cert.Spec.dist (Tables.nodes m) (Cert.Spec.row (Tables.edges m (ValueIdx.ix2 0 k)))
    (Cert.Spec.row (Tables.edges m (ValueIdx.ix2 1 k)))

/-- The sum of the distances along the 50000 edges of block `K`. -/
def blockSum (K : Fin 16) : EReal :=
  ∑ i : Fin 50000, edgeDist m ⟨K.val * 50000 + i.val, by have := K.isLt; have := i.isLt; omega⟩

/-- The distance along an edge named by any position with the same value. -/
theorem dist_at (k k' : Fin 800000) (h : k'.val = k.val) :
    Cert.Spec.dist (Tables.nodes m) (Cert.Spec.row (Tables.edges m (ValueIdx.ix2 0 k')))
        (Cert.Spec.row (Tables.edges m (ValueIdx.ix2 1 k')))
      = edgeDist m k := by
  obtain rfl : k' = k := Fin.ext h
  rfl

/-- The specification's total is the sum of the sixteen block sums. -/
theorem total_eq_blocks : Cert.Spec.total (Tables.nodes m) (Tables.edges m) = ∑ K : Fin 16, blockSum m K :=
  Cert.SumAlgebra.split_16x50000 (edgeDist m)

/-- What region 0 leaves, as the family of the sixteen names it. -/
theorem leaves_o0 : (leaves m hr).o0 = leave0 m hr := by simp only [leaves]

/-- Region 0's entry is the sum over block 0. -/
theorem block0 (c : Dev nD) : Tail.S (Chain.outs m (leaves m hr)) c 0 = blockSum m 0 := by
  show @Eq EReal ((Chain.outs m (leaves m hr) 2 main_v11 c) (ValueIdx.ix2 (0 : Fin 1) (0 : Fin 1))) _
  rw [Chain.outs_apply_0, leaves_o0]
  unfold leave0
  rw [Chunk0.out_val m hr (fun c b => Chain.W1 m (leaves m hr) c b) (Chain.W_feat0 m (leaves m hr)) c]
  exact Finset.sum_congr rfl fun i _ => dist_at m _ _ rfl

/-- What region 1 leaves, as the family of the sixteen names it. -/
theorem leaves_o1 : (leaves m hr).o1 = leave1 m hr := by simp only [leaves]

/-- Region 1's entry is the sum over block 1. -/
theorem block1 (c : Dev nD) : Tail.S (Chain.outs m (leaves m hr)) c 1 = blockSum m 1 := by
  show @Eq EReal ((Chain.outs m (leaves m hr) 4 main_v18 c) (ValueIdx.ix2 (0 : Fin 1) (0 : Fin 1))) _
  rw [Chain.outs_apply_1, leaves_o1]
  unfold leave1
  rw [Chunk1.out_val m hr (fun c b => Chain.W3 m (leaves m hr) c b) (Chain.W_feat1 m (leaves m hr)) c]
  exact Finset.sum_congr rfl fun i _ => dist_at m _ _ rfl

/-- What region 2 leaves, as the family of the sixteen names it. -/
theorem leaves_o2 : (leaves m hr).o2 = leave2 m hr := by simp only [leaves]

/-- Region 2's entry is the sum over block 2. -/
theorem block2 (c : Dev nD) : Tail.S (Chain.outs m (leaves m hr)) c 2 = blockSum m 2 := by
  show @Eq EReal ((Chain.outs m (leaves m hr) 6 main_v25 c) (ValueIdx.ix2 (0 : Fin 1) (0 : Fin 1))) _
  rw [Chain.outs_apply_2, leaves_o2]
  unfold leave2
  rw [Chunk2.out_val m hr (fun c b => Chain.W5 m (leaves m hr) c b) (Chain.W_feat2 m (leaves m hr)) c]
  exact Finset.sum_congr rfl fun i _ => dist_at m _ _ rfl

/-- What region 3 leaves, as the family of the sixteen names it. -/
theorem leaves_o3 : (leaves m hr).o3 = leave3 m hr := by simp only [leaves]

/-- Region 3's entry is the sum over block 3. -/
theorem block3 (c : Dev nD) : Tail.S (Chain.outs m (leaves m hr)) c 3 = blockSum m 3 := by
  show @Eq EReal ((Chain.outs m (leaves m hr) 8 main_v32 c) (ValueIdx.ix2 (0 : Fin 1) (0 : Fin 1))) _
  rw [Chain.outs_apply_3, leaves_o3]
  unfold leave3
  rw [Chunk3.out_val m hr (fun c b => Chain.W7 m (leaves m hr) c b) (Chain.W_feat3 m (leaves m hr)) c]
  exact Finset.sum_congr rfl fun i _ => dist_at m _ _ rfl

/-- What region 4 leaves, as the family of the sixteen names it. -/
theorem leaves_o4 : (leaves m hr).o4 = leave4 m hr := by simp only [leaves]

/-- Region 4's entry is the sum over block 4. -/
theorem block4 (c : Dev nD) : Tail.S (Chain.outs m (leaves m hr)) c 4 = blockSum m 4 := by
  show @Eq EReal ((Chain.outs m (leaves m hr) 10 main_v39 c) (ValueIdx.ix2 (0 : Fin 1) (0 : Fin 1))) _
  rw [Chain.outs_apply_4, leaves_o4]
  unfold leave4
  rw [Chunk4.out_val m hr (fun c b => Chain.W9 m (leaves m hr) c b) (Chain.W_feat4 m (leaves m hr)) c]
  exact Finset.sum_congr rfl fun i _ => dist_at m _ _ rfl

/-- What region 5 leaves, as the family of the sixteen names it. -/
theorem leaves_o5 : (leaves m hr).o5 = leave5 m hr := by simp only [leaves]

/-- Region 5's entry is the sum over block 5. -/
theorem block5 (c : Dev nD) : Tail.S (Chain.outs m (leaves m hr)) c 5 = blockSum m 5 := by
  show @Eq EReal ((Chain.outs m (leaves m hr) 12 main_v46 c) (ValueIdx.ix2 (0 : Fin 1) (0 : Fin 1))) _
  rw [Chain.outs_apply_5, leaves_o5]
  unfold leave5
  rw [Chunk5.out_val m hr (fun c b => Chain.W11 m (leaves m hr) c b) (Chain.W_feat5 m (leaves m hr)) c]
  exact Finset.sum_congr rfl fun i _ => dist_at m _ _ rfl

/-- What region 6 leaves, as the family of the sixteen names it. -/
theorem leaves_o6 : (leaves m hr).o6 = leave6 m hr := by simp only [leaves]

/-- Region 6's entry is the sum over block 6. -/
theorem block6 (c : Dev nD) : Tail.S (Chain.outs m (leaves m hr)) c 6 = blockSum m 6 := by
  show @Eq EReal ((Chain.outs m (leaves m hr) 14 main_v53 c) (ValueIdx.ix2 (0 : Fin 1) (0 : Fin 1))) _
  rw [Chain.outs_apply_6, leaves_o6]
  unfold leave6
  rw [Chunk6.out_val m hr (fun c b => Chain.W13 m (leaves m hr) c b) (Chain.W_feat6 m (leaves m hr)) c]
  exact Finset.sum_congr rfl fun i _ => dist_at m _ _ rfl

/-- What region 7 leaves, as the family of the sixteen names it. -/
theorem leaves_o7 : (leaves m hr).o7 = leave7 m hr := by simp only [leaves]

/-- Region 7's entry is the sum over block 7. -/
theorem block7 (c : Dev nD) : Tail.S (Chain.outs m (leaves m hr)) c 7 = blockSum m 7 := by
  show @Eq EReal ((Chain.outs m (leaves m hr) 16 main_v60 c) (ValueIdx.ix2 (0 : Fin 1) (0 : Fin 1))) _
  rw [Chain.outs_apply_7, leaves_o7]
  unfold leave7
  rw [Chunk7.out_val m hr (fun c b => Chain.W15 m (leaves m hr) c b) (Chain.W_feat7 m (leaves m hr)) c]
  exact Finset.sum_congr rfl fun i _ => dist_at m _ _ rfl

/-- What region 8 leaves, as the family of the sixteen names it. -/
theorem leaves_o8 : (leaves m hr).o8 = leave8 m hr := by simp only [leaves]

/-- Region 8's entry is the sum over block 8. -/
theorem block8 (c : Dev nD) : Tail.S (Chain.outs m (leaves m hr)) c 8 = blockSum m 8 := by
  show @Eq EReal ((Chain.outs m (leaves m hr) 18 main_v67 c) (ValueIdx.ix2 (0 : Fin 1) (0 : Fin 1))) _
  rw [Chain.outs_apply_8, leaves_o8]
  unfold leave8
  rw [Chunk8.out_val m hr (fun c b => Chain.W17 m (leaves m hr) c b) (Chain.W_feat8 m (leaves m hr)) c]
  exact Finset.sum_congr rfl fun i _ => dist_at m _ _ rfl

/-- What region 9 leaves, as the family of the sixteen names it. -/
theorem leaves_o9 : (leaves m hr).o9 = leave9 m hr := by simp only [leaves]

/-- Region 9's entry is the sum over block 9. -/
theorem block9 (c : Dev nD) : Tail.S (Chain.outs m (leaves m hr)) c 9 = blockSum m 9 := by
  show @Eq EReal ((Chain.outs m (leaves m hr) 20 main_v74 c) (ValueIdx.ix2 (0 : Fin 1) (0 : Fin 1))) _
  rw [Chain.outs_apply_9, leaves_o9]
  unfold leave9
  rw [Chunk9.out_val m hr (fun c b => Chain.W19 m (leaves m hr) c b) (Chain.W_feat9 m (leaves m hr)) c]
  exact Finset.sum_congr rfl fun i _ => dist_at m _ _ rfl

/-- What region 10 leaves, as the family of the sixteen names it. -/
theorem leaves_o10 : (leaves m hr).o10 = leave10 m hr := by simp only [leaves]

/-- Region 10's entry is the sum over block 10. -/
theorem block10 (c : Dev nD) : Tail.S (Chain.outs m (leaves m hr)) c 10 = blockSum m 10 := by
  show @Eq EReal ((Chain.outs m (leaves m hr) 22 main_v81 c) (ValueIdx.ix2 (0 : Fin 1) (0 : Fin 1))) _
  rw [Chain.outs_apply_10, leaves_o10]
  unfold leave10
  rw [Chunk10.out_val m hr (fun c b => Chain.W21 m (leaves m hr) c b) (Chain.W_feat10 m (leaves m hr)) c]
  exact Finset.sum_congr rfl fun i _ => dist_at m _ _ rfl

/-- What region 11 leaves, as the family of the sixteen names it. -/
theorem leaves_o11 : (leaves m hr).o11 = leave11 m hr := by simp only [leaves]

/-- Region 11's entry is the sum over block 11. -/
theorem block11 (c : Dev nD) : Tail.S (Chain.outs m (leaves m hr)) c 11 = blockSum m 11 := by
  show @Eq EReal ((Chain.outs m (leaves m hr) 24 main_v88 c) (ValueIdx.ix2 (0 : Fin 1) (0 : Fin 1))) _
  rw [Chain.outs_apply_11, leaves_o11]
  unfold leave11
  rw [Chunk11.out_val m hr (fun c b => Chain.W23 m (leaves m hr) c b) (Chain.W_feat11 m (leaves m hr)) c]
  exact Finset.sum_congr rfl fun i _ => dist_at m _ _ rfl

/-- What region 12 leaves, as the family of the sixteen names it. -/
theorem leaves_o12 : (leaves m hr).o12 = leave12 m hr := by simp only [leaves]

/-- Region 12's entry is the sum over block 12. -/
theorem block12 (c : Dev nD) : Tail.S (Chain.outs m (leaves m hr)) c 12 = blockSum m 12 := by
  show @Eq EReal ((Chain.outs m (leaves m hr) 26 main_v95 c) (ValueIdx.ix2 (0 : Fin 1) (0 : Fin 1))) _
  rw [Chain.outs_apply_12, leaves_o12]
  unfold leave12
  rw [Chunk12.out_val m hr (fun c b => Chain.W25 m (leaves m hr) c b) (Chain.W_feat12 m (leaves m hr)) c]
  exact Finset.sum_congr rfl fun i _ => dist_at m _ _ rfl

/-- What region 13 leaves, as the family of the sixteen names it. -/
theorem leaves_o13 : (leaves m hr).o13 = leave13 m hr := by simp only [leaves]

/-- Region 13's entry is the sum over block 13. -/
theorem block13 (c : Dev nD) : Tail.S (Chain.outs m (leaves m hr)) c 13 = blockSum m 13 := by
  show @Eq EReal ((Chain.outs m (leaves m hr) 28 main_v102 c) (ValueIdx.ix2 (0 : Fin 1) (0 : Fin 1))) _
  rw [Chain.outs_apply_13, leaves_o13]
  unfold leave13
  rw [Chunk13.out_val m hr (fun c b => Chain.W27 m (leaves m hr) c b) (Chain.W_feat13 m (leaves m hr)) c]
  exact Finset.sum_congr rfl fun i _ => dist_at m _ _ rfl

/-- What region 14 leaves, as the family of the sixteen names it. -/
theorem leaves_o14 : (leaves m hr).o14 = leave14 m hr := by simp only [leaves]

/-- Region 14's entry is the sum over block 14. -/
theorem block14 (c : Dev nD) : Tail.S (Chain.outs m (leaves m hr)) c 14 = blockSum m 14 := by
  show @Eq EReal ((Chain.outs m (leaves m hr) 30 main_v109 c) (ValueIdx.ix2 (0 : Fin 1) (0 : Fin 1))) _
  rw [Chain.outs_apply_14, leaves_o14]
  unfold leave14
  rw [Chunk14.out_val m hr (fun c b => Chain.W29 m (leaves m hr) c b) (Chain.W_feat14 m (leaves m hr)) c]
  exact Finset.sum_congr rfl fun i _ => dist_at m _ _ rfl

/-- What region 15 leaves, as the family of the sixteen names it. -/
theorem leaves_o15 : (leaves m hr).o15 = leave15 m hr := by simp only [leaves]

/-- Region 15's entry is the sum over block 15. -/
theorem block15 (c : Dev nD) : Tail.S (Chain.outs m (leaves m hr)) c 15 = blockSum m 15 := by
  show @Eq EReal ((Chain.outs m (leaves m hr) 32 main_v116 c) (ValueIdx.ix2 (0 : Fin 1) (0 : Fin 1))) _
  rw [Chain.outs_apply_15, leaves_o15]
  unfold leave15
  rw [Chunk15.out_val m hr (fun c b => Chain.W31 m (leaves m hr) c b) (Chain.W_feat15 m (leaves m hr)) c]
  exact Finset.sum_congr rfl fun i _ => dist_at m _ _ rfl

/-- Each region's entry is its block's sum. -/
theorem block_eq (c : Dev nD) : ∀ K : Fin 16, Tail.S (Chain.outs m (leaves m hr)) c K = blockSum m K
  | ⟨0, _⟩ => block0 m hr c
  | ⟨1, _⟩ => block1 m hr c
  | ⟨2, _⟩ => block2 m hr c
  | ⟨3, _⟩ => block3 m hr c
  | ⟨4, _⟩ => block4 m hr c
  | ⟨5, _⟩ => block5 m hr c
  | ⟨6, _⟩ => block6 m hr c
  | ⟨7, _⟩ => block7 m hr c
  | ⟨8, _⟩ => block8 m hr c
  | ⟨9, _⟩ => block9 m hr c
  | ⟨10, _⟩ => block10 m hr c
  | ⟨11, _⟩ => block11 m hr c
  | ⟨12, _⟩ => block12 m hr c
  | ⟨13, _⟩ => block13 m hr c
  | ⟨14, _⟩ => block14 m hr c
  | ⟨15, _⟩ => block15 m hr c
  | ⟨_ + 16, h⟩ => absurd h (by omega)

/-- The program's result array holds the specification's loss of the launch's node features and edge list. -/
theorem loss_eq (c : Dev nD) :
    V33 m (Chain.outs m (leaves m hr)) c main_v120 = fun _ => Cert.Spec.loss (Tables.nodes m) (Tables.edges m) := by
  rw [Tail.V33_v120 m (Chain.outs m (leaves m hr)) c, Cert.SumAlgebra.chain16 (Tail.S (Chain.outs m (leaves m hr)) c)]
  funext _
  refine congrArg Cert.Spec.finish ?_
  rw [total_eq_blocks]
  exact Finset.sum_congr rfl fun K _ => block_eq m hr c K

end Cert.KernelIdeal.Whole

end
-- ==== Proof.lean ====
/-
  Equivalence over the extended reals of a graph-smoothing loss computed in sixteen Pallas calls against its jnp
  reference, under the precondition that the features are finite and every edge endpoint is a node number in
  `[0, 50000)`.

  Both programs compute, from a feature table `x : [50000, 96]` and an edge list `e : [2, 800000]`,
  `1 · ((∑ₖ √(∑ⱼ (x[e₀ₖ, j] − x[e₁ₖ, j])²)) / 800000)`. The kernel takes the edges in sixteen blocks of 50000: each call
  walks its block one edge per grid point, staging the two feature rows the edge names (their numbers read from two
  prefetched tables) and adding the rows' distance to a running one-word sum, which it writes out at its last point; the
  host adds the sixteen results, divides and scales. The reference gathers all rows at once and reduces. At the ideal
  instance addition is commutative and associative on the extended reals, so the sixteen running sums, each a sum over
  its block, add up to the one sum over all edges; no finiteness is used for the value. The node-number range is what
  the frames need: a table word is a block index of the feature table, and a block must lie inside the table.

  The pieces: the body run case by case (first, middle, last grid point); per call its proof data, body obligation and
  region record; the chain of buffer contents between the program's items; the patched conditional frame applied to the
  sixteen records; per call the result word as the sum over its block; the host tail; the reference's run read back to
  the same specification.
-/
import proofs.«418705_j10376640987952_2_alg».proof.Defs
import proofs.«418705_j10376640987952_2_alg».proof.Proof.Gen.Kernel
import proofs.«418705_j10376640987952_2_alg».proof.Proof.Gen.KernelIdeal
import proofs.«418705_j10376640987952_2_alg».proof.Proof.Gen.ReferenceIdeal
import proofs.«418705_j10376640987952_2_alg».proof.Proof.Gen.Pre_finite_inputs
import proofs.«418705_j10376640987952_2_alg».proof.Proof.PreRange
import proofs.«418705_j10376640987952_2_alg».proof.Proof.RefValue
import proofs.«418705_j10376640987952_2_alg».proof.Proof.K.WholeRun
import proofs.«418705_j10376640987952_2_alg».proof.Proof.KI.WholeRun
import proofs.«418705_j10376640987952_2_alg».proof.Proof.KI.Value
import Idealize.ShloMosaic.Adequacy
import Idealize.ShloMosaic.Init

noncomputable section

namespace Cert.Proof

open Idealize.ShloMosaic Idealize.ShloMosaic.TcCoe Idealize.SL.Sem

/-- Under the precondition every word of the word-level program's edge list is a node number. -/
theorem range_K (m : (ℓ : Loc Cert.Kernel.nD Cert.Kernel.τ Cert.Kernel.sig) → Buf (Elt Bits) ℓ)
    (hpre : Cert.Pre_Kernel (hPre_finite_inputs := Cert.Pre_finite_inputs.Gen.facts) m) :
    ∀ i, (Cert.Kernel.Tables.edges m i).toNat < 50000 :=
  @Cert.PreRange.range_of_pre Bits _ Cert.Pre_finite_inputs.Gen.facts _ _ (hpre Cert.Kernel.Tables.c0)

/-- The same for the idealized program. -/
theorem range_KI (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) :
    ∀ i, (Cert.KernelIdeal.Tables.edges m i).toNat < 50000 :=
  @Cert.PreRange.range_of_pre Ideal _ Cert.Pre_finite_inputs.Gen.facts _ _ (hpre Cert.KernelIdeal.Tables.c0)

theorem frame_k : Cert.frame_Kernel (hKernel := Cert.Kernel.Gen.facts) (hPre_finite_inputs := Cert.Pre_finite_inputs.Gen.facts) :=
  fun m ρ hpre => (θ_run Cert.Kernel.defs _ _).mono (fun _ h c => ⟨(h c).1, (h c).2.1⟩) (Cert.Kernel.Whole.run m (range_K m hpre) ρ)

theorem frame_ki : Cert.frame_KernelIdeal (hKernelIdeal := Cert.KernelIdeal.Gen.facts) (hPre_finite_inputs := Cert.Pre_finite_inputs.Gen.facts) :=
  fun m ρ hpre => (θ_run Cert.KernelIdeal.defs _ _).mono (fun _ h c => ⟨(h c).1, (h c).2.1⟩) (Cert.KernelIdeal.Whole.run m (range_KI m hpre) ρ)

theorem frame_ri : Cert.frame_ReferenceIdeal (hReferenceIdeal := Cert.ReferenceIdeal.Gen.facts) (hPre_finite_inputs := Cert.Pre_finite_inputs.Gen.facts) :=
  fun m ρ _ => Cert.ReferenceIdeal.RefValue.frame_ref m ρ

/-- The two idealized programs, from memories agreeing on the arguments, both end with the specification's loss of the
    arguments in their result word. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr := range_KI m hpre
  refine ⟨fun c _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨?_, (h c).1, (h c).2.1⟩) (Cert.KernelIdeal.Whole.run m hr ρ)
    obtain rfl := Cert.KernelIdeal.Tables.dev_eq c
    exact (h _).2.2.trans (Cert.KernelIdeal.Whole.loss_eq m hr _)
  · have hr' : ∀ (c : Dev Cert.ReferenceIdeal.nD) i,
        (m' ((c.tc : Thread Cert.ReferenceIdeal.nD Cert.ReferenceIdeal.τ).loc Cert.ReferenceIdeal.main_arg1) i).toNat < 50000 := by
      intro c i
      obtain rfl := Cert.KernelIdeal.Tables.dev_eq c
      rw [(hagree _).2]
      exact hr i
    refine (θ_run Cert.ReferenceIdeal.defs _ _).mono (fun _ h c => ⟨?_, (h c).2.1, (h c).2.2⟩) (Cert.ReferenceIdeal.RefValue.run_loss m' ρ' hr')
    rw [(h c).1, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
